-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v180)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S4x64 .f32) (main_arg6 : FVec F S4x64 .f32) (main_arg7 : FVec F S4x64 .f32) (main_arg8 : FVec F S64x64 .f32) (main_arg9 : FVec F S64 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64 .f32 := Host.absf main_arg6
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64 .f32 := Host.absf main_arg7
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S32x64 .f32) (main_arg3 : FVec F S64 .f32) (main_arg4 : FVec F S4x64x64 .f32) (main_arg5 : FVec F S4x64 .f32) (main_arg6 : FVec F S4x64 .f32) (main_arg7 : FVec F S4x64 .f32) (main_arg8 : FVec F S64x64 .f32) (main_arg9 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1x64x64 : Shape := ⟨3, ![1, 64, 64]⟩
abbrev S1600000x64 : Shape := ⟨2, ![1600000, 64]⟩
abbrev S10000x1 : Shape := ⟨2, ![10000, 1]⟩

abbrev nBuf : Space → Nat
  | .hbm => 235
  | .vmem => 112
  | .smem => 0
  | _ => 0

abbrev hbmTy0_0 (i : Nat) : BufTy := match i % 128 with
  | 0 => ⟨S100000x32, .f32⟩
  | 1 => ⟨S2x1600000, .i32⟩
  | 2 => ⟨S32x64, .f32⟩
  | 3 => ⟨S64, .f32⟩
  | 4 => ⟨S4x64x64, .f32⟩
  | 5 => ⟨S4x64, .f32⟩
  | 6 => ⟨S4x64, .f32⟩
  | 7 => ⟨S4x64, .f32⟩
  | 8 => ⟨S64x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000, .f32⟩
  | 46 => ⟨S100000x1, .f32⟩
  | 47 => ⟨S1x64, .f32⟩
  | 48 => ⟨S100000x64, .f32⟩
  | 49 => ⟨S1x64x64, .f32⟩
  | 50 => ⟨S64x64, .f32⟩
  | 51 => ⟨S_, .f32⟩
  | 52 => ⟨S1x64, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x1, .f32⟩
  | 64 => ⟨S1600000x64, .f32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S1x64, .f32⟩
  | 71 => ⟨S64, .f32⟩
  | 72 => ⟨S1x64, .f32⟩
  | 73 => ⟨S100000x64, .f32⟩
  | 74 => ⟨S1x64, .f32⟩
  | 75 => ⟨S1x64, .f32⟩
  | 76 => ⟨S_, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S1x64, .f32⟩
  | 88 => ⟨S1x64, .f32⟩
  | 89 => ⟨S64, .f32⟩
  | 90 => ⟨S1x64, .f32⟩
  | 91 => ⟨S1x64, .f32⟩
  | 92 => ⟨S64, .f32⟩
  | 93 => ⟨S1x64, .f32⟩
  | 94 => ⟨S100000x64, .f32⟩
  | 95 => ⟨S1x64x64, .f32⟩
  | 96 => ⟨S64x64, .f32⟩
  | 97 => ⟨S_, .f32⟩
  | 98 => ⟨S1x64, .f32⟩
  | 99 => ⟨S100000x64, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x1, .f32⟩
  | 110 => ⟨S1600000x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S1x64, .f32⟩
  | 117 => ⟨S64, .f32⟩
  | 118 => ⟨S1x64, .f32⟩
  | 119 => ⟨S100000x64, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S100000x32, .f32⟩

abbrev hbmTy0_1 (i : Nat) : BufTy := match i % 128 with
  | 0 => ⟨S1x64, .f32⟩
  | 1 => ⟨S1x64, .f32⟩
  | 2 => ⟨S_, .f32⟩
  | 3 => ⟨S1x64, .f32⟩
  | 4 => ⟨S1x64, .f32⟩
  | 5 => ⟨S1x64, .f32⟩
  | 6 => ⟨S1x64, .f32⟩
  | 7 => ⟨S64, .f32⟩
  | 8 => ⟨S1x64, .f32⟩
  | 9 => ⟨S1x64, .f32⟩
  | 10 => ⟨S64, .f32⟩
  | 11 => ⟨S1x64, .f32⟩
  | 12 => ⟨S100000x64, .f32⟩
  | 13 => ⟨S1x64x64, .f32⟩
  | 14 => ⟨S64x64, .f32⟩
  | 15 => ⟨S_, .f32⟩
  | 16 => ⟨S1x64, .f32⟩
  | 17 => ⟨S100000x64, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S1600000x1, .f32⟩
  | 28 => ⟨S1600000x64, .f32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S1x64, .f32⟩
  | 35 => ⟨S64, .f32⟩
  | 36 => ⟨S1x64, .f32⟩
  | 37 => ⟨S100000x64, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S1x64, .f32⟩
  | 47 => ⟨S1x64, .f32⟩
  | 48 => ⟨S_, .f32⟩
  | 49 => ⟨S1x64, .f32⟩
  | 50 => ⟨S1x64, .f32⟩
  | 51 => ⟨S1x64, .f32⟩
  | 52 => ⟨S1x64, .f32⟩
  | 53 => ⟨S64, .f32⟩
  | 54 => ⟨S1x64, .f32⟩
  | 55 => ⟨S1x64, .f32⟩
  | 56 => ⟨S64, .f32⟩
  | 57 => ⟨S1x64, .f32⟩
  | 58 => ⟨S100000x64, .f32⟩
  | 59 => ⟨S1x64x64, .f32⟩
  | 60 => ⟨S64x64, .f32⟩
  | 61 => ⟨S_, .f32⟩
  | 62 => ⟨S1x64, .f32⟩
  | 63 => ⟨S100000x64, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x64, .f32⟩
  | 73 => ⟨S1600000x1, .f32⟩
  | 74 => ⟨S1600000x64, .f32⟩
  | 75 => ⟨S1600000x64, .f32⟩
  | 76 => ⟨S_, .f32⟩
  | 77 => ⟨S100000x64, .f32⟩
  | 78 => ⟨S1600000x1, .i32⟩
  | 79 => ⟨S100000x64, .f32⟩
  | 80 => ⟨S1x64, .f32⟩
  | 81 => ⟨S64, .f32⟩
  | 82 => ⟨S1x64, .f32⟩
  | 83 => ⟨S100000x64, .f32⟩
  | 84 => ⟨S1x64, .f32⟩
  | 85 => ⟨S1x64, .f32⟩
  | 86 => ⟨S_, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S1x64, .f32⟩
  | 93 => ⟨S1x64, .f32⟩
  | 94 => ⟨S_, .f32⟩
  | 95 => ⟨S1x64, .f32⟩
  | 96 => ⟨S1x64, .f32⟩
  | 97 => ⟨S1x64, .f32⟩
  | 98 => ⟨S1x64, .f32⟩
  | 99 => ⟨S64, .f32⟩
  | 100 => ⟨S1x64, .f32⟩
  | 101 => ⟨S1x64, .f32⟩
  | 102 => ⟨S64, .f32⟩
  | 103 => ⟨S1x64, .f32⟩
  | 104 => ⟨S100000x64, .f32⟩
  | 105 => ⟨S1x64, .f32⟩
  | 106 => ⟨S1x64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S1x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S64x64, .f32⟩
  | .local _ .vmem, ⟨34, _⟩ => ⟨S1x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x1, .f32⟩
  | .local _ .vmem, ⟨42, _⟩ => ⟨S10000x1, .f32⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | .local _ .vmem, ⟨46, _⟩ => ⟨S1x64, .f32⟩
  | .local _ .vmem, ⟨47, _⟩ => ⟨S1x64, .f32⟩
  | .local _ .vmem, ⟨48, _⟩ => ⟨S10000x64, .f32⟩
  | .local _ .vmem, ⟨49, _⟩ => ⟨S10000x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S64x64, .f32⟩
  | .local _ .vmem, ⟨59, _⟩ => ⟨S1x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S10000x1, .f32⟩
  | .local _ .vmem, ⟨67, _⟩ => ⟨S10000x1, .f32⟩
  | .local _ .vmem, ⟨68, _⟩ => ⟨S1x64, .f32⟩
  | .local _ .vmem, ⟨69, _⟩ => ⟨S10000x64, .f32⟩
  | .local _ .vmem, ⟨70, _⟩ => ⟨S10000x64, .f32⟩
  | .local _ .vmem, ⟨71, _⟩ => ⟨S1x64, .f32⟩
  | .local _ .vmem, ⟨72, _⟩ => ⟨S1x64, .f32⟩
  | .local _ .vmem, ⟨73, _⟩ => ⟨S10000x64, .f32⟩
  | .local _ .vmem, ⟨74, _⟩ => ⟨S10000x64, .f32⟩
  | .local _ .vmem, ⟨75, _⟩ => ⟨S1x64, .f32⟩
  | .local _ .vmem, ⟨76, _⟩ => ⟨S1x64, .f32⟩
  | .local _ .vmem, ⟨77, _⟩ => ⟨S1x64, .f32⟩
  | .local _ .vmem, ⟨78, _⟩ => ⟨S1x64, .f32⟩
  | .local _ .vmem, ⟨79, _⟩ => ⟨S10000x64, .f32⟩
  | .local _ .vmem, ⟨80, _⟩ => ⟨S10000x64, .f32⟩
  | .local _ .vmem, ⟨81, _⟩ => ⟨S10000x64, .f32⟩
  | .local _ .vmem, ⟨82, _⟩ => ⟨S10000x64, .f32⟩
  | .local _ .vmem, ⟨83, _⟩ => ⟨S64x64, .f32⟩
  | .local _ .vmem, ⟨84, _⟩ => ⟨S1x64, .f32⟩
  | .local _ .vmem, ⟨85, _⟩ => ⟨S10000x64, .f32⟩
  | .local _ .vmem, ⟨86, _⟩ => ⟨S10000x64, .f32⟩
  | .local _ .vmem, ⟨87, _⟩ => ⟨S10000x64, .f32⟩
  | .local _ .vmem, ⟨88, _⟩ => ⟨S10000x64, .f32⟩
  | .local _ .vmem, ⟨89, _⟩ => ⟨S10000x64, .f32⟩
  | .local _ .vmem, ⟨90, _⟩ => ⟨S10000x64, .f32⟩
  | .local _ .vmem, ⟨91, _⟩ => ⟨S10000x1, .f32⟩
  | .local _ .vmem, ⟨92, _⟩ => ⟨S10000x1, .f32⟩
  | .local _ .vmem, ⟨93, _⟩ => ⟨S1x64, .f32⟩
  | .local _ .vmem, ⟨94, _⟩ => ⟨S10000x64, .f32⟩
  | .local _ .vmem, ⟨95, _⟩ => ⟨S10000x64, .f32⟩
  | .local _ .vmem, ⟨96, _⟩ => ⟨S1x64, .f32⟩
  | .local _ .vmem, ⟨97, _⟩ => ⟨S1x64, .f32⟩
  | .local _ .vmem, ⟨98, _⟩ => ⟨S10000x64, .f32⟩
  | .local _ .vmem, ⟨99, _⟩ => ⟨S10000x64, .f32⟩
  | .local _ .vmem, ⟨100, _⟩ => ⟨S1x64, .f32⟩
  | .local _ .vmem, ⟨101, _⟩ => ⟨S1x64, .f32⟩
  | .local _ .vmem, ⟨102, _⟩ => ⟨S1x64, .f32⟩
  | .local _ .vmem, ⟨103, _⟩ => ⟨S1x64, .f32⟩
  | .local _ .vmem, ⟨104, _⟩ => ⟨S10000x64, .f32⟩
  | .local _ .vmem, ⟨105, _⟩ => ⟨S10000x64, .f32⟩
  | .local _ .vmem, ⟨106, _⟩ => ⟨S10000x64, .f32⟩
  | .local _ .vmem, ⟨107, _⟩ => ⟨S10000x64, .f32⟩
  | .local _ .vmem, ⟨108, _⟩ => ⟨S64x64, .f32⟩
  | .local _ .vmem, ⟨109, _⟩ => ⟨S1x64, .f32⟩
  | .local _ .vmem, ⟨110, _⟩ => ⟨S1x64, .f32⟩
  | .local _ .vmem, ⟨111, _⟩ => ⟨S1x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 111 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | _ => false

abbrev sig : RefSig :=
  ofTc nBuf bufTy 0 111 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51_0 : Ref sig .tc := ⟨.hbm, 73, rfl⟩
abbrev main_v51_1 : Ref sig .tc := ⟨.hbm, 74, rfl⟩
abbrev main_v51_2 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88_0 : Ref sig .tc := ⟨.hbm, 119, rfl⟩
abbrev main_v88_1 : Ref sig .tc := ⟨.hbm, 120, rfl⟩
abbrev main_v88_2 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_19 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_20 : Ref sig .tc := ⟨.hbm, 143, rfl⟩
abbrev main_v107 : Ref sig .tc := ⟨.hbm, 144, rfl⟩
abbrev main_v108 : Ref sig .tc := ⟨.hbm, 145, rfl⟩
abbrev main_c_21 : Ref sig .tc := ⟨.hbm, 146, rfl⟩
abbrev main_v109 : Ref sig .tc := ⟨.hbm, 147, rfl⟩
abbrev main_v110 : Ref sig .tc := ⟨.hbm, 148, rfl⟩
abbrev main_c_22 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_23 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125_0 : Ref sig .tc := ⟨.hbm, 165, rfl⟩
abbrev main_v125_1 : Ref sig .tc := ⟨.hbm, 166, rfl⟩
abbrev main_v125_2 : Ref sig .tc := ⟨.hbm, 167, rfl⟩
abbrev main_cst_24 : Ref sig .tc := ⟨.hbm, 168, rfl⟩
abbrev main_v126 : Ref sig .tc := ⟨.hbm, 169, rfl⟩
abbrev main_v127 : Ref sig .tc := ⟨.hbm, 170, rfl⟩
abbrev main_cst_25 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_26 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_27 : Ref sig .tc := ⟨.hbm, 189, rfl⟩
abbrev main_v144 : Ref sig .tc := ⟨.hbm, 190, rfl⟩
abbrev main_v145 : Ref sig .tc := ⟨.hbm, 191, rfl⟩
abbrev main_c_28 : Ref sig .tc := ⟨.hbm, 192, rfl⟩
abbrev main_v146 : Ref sig .tc := ⟨.hbm, 193, rfl⟩
abbrev main_v147 : Ref sig .tc := ⟨.hbm, 194, rfl⟩
abbrev main_c_29 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_30 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162_0 : Ref sig .tc := ⟨.hbm, 211, rfl⟩
abbrev main_v162_1 : Ref sig .tc := ⟨.hbm, 212, rfl⟩
abbrev main_v162_2 : Ref sig .tc := ⟨.hbm, 213, rfl⟩
abbrev main_cst_31 : Ref sig .tc := ⟨.hbm, 214, rfl⟩
abbrev main_v163 : Ref sig .tc := ⟨.hbm, 215, rfl⟩
abbrev main_v164 : Ref sig .tc := ⟨.hbm, 216, rfl⟩
abbrev main_cst_32 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_cst_33 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg6_0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc5_stg5_0 : Ref sig .tc := ⟨.vmem, 46, rfl⟩
abbrev cc5_stg6_0 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg3_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg2_1 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg4_1 : Ref sig .tc := ⟨.vmem, 70, rfl⟩
abbrev cc8_stg5_0 : Ref sig .tc := ⟨.vmem, 71, rfl⟩
abbrev cc8_stg6_0 : Ref sig .tc := ⟨.vmem, 72, rfl⟩
abbrev cc9_stg0_0 : Ref sig .tc := ⟨.vmem, 73, rfl⟩
abbrev cc9_stg0_1 : Ref sig .tc := ⟨.vmem, 74, rfl⟩
abbrev cc9_stg1_0 : Ref sig .tc := ⟨.vmem, 75, rfl⟩
abbrev cc9_stg2_0 : Ref sig .tc := ⟨.vmem, 76, rfl⟩
abbrev cc9_stg3_0 : Ref sig .tc := ⟨.vmem, 77, rfl⟩
abbrev cc9_stg4_0 : Ref sig .tc := ⟨.vmem, 78, rfl⟩
abbrev cc9_stg5_0 : Ref sig .tc := ⟨.vmem, 79, rfl⟩
abbrev cc9_stg5_1 : Ref sig .tc := ⟨.vmem, 80, rfl⟩
abbrev cc10_stg0_0 : Ref sig .tc := ⟨.vmem, 81, rfl⟩
abbrev cc10_stg0_1 : Ref sig .tc := ⟨.vmem, 82, rfl⟩
abbrev cc10_stg1_0 : Ref sig .tc := ⟨.vmem, 83, rfl⟩
abbrev cc10_stg2_0 : Ref sig .tc := ⟨.vmem, 84, rfl⟩
abbrev cc10_stg3_0 : Ref sig .tc := ⟨.vmem, 85, rfl⟩
abbrev cc10_stg3_1 : Ref sig .tc := ⟨.vmem, 86, rfl⟩
abbrev cc11_stg0_0 : Ref sig .tc := ⟨.vmem, 87, rfl⟩
abbrev cc11_stg0_1 : Ref sig .tc := ⟨.vmem, 88, rfl⟩
abbrev cc11_stg1_0 : Ref sig .tc := ⟨.vmem, 89, rfl⟩
abbrev cc11_stg1_1 : Ref sig .tc := ⟨.vmem, 90, rfl⟩
abbrev cc11_stg2_0 : Ref sig .tc := ⟨.vmem, 91, rfl⟩
abbrev cc11_stg2_1 : Ref sig .tc := ⟨.vmem, 92, rfl⟩
abbrev cc11_stg3_0 : Ref sig .tc := ⟨.vmem, 93, rfl⟩
abbrev cc11_stg4_0 : Ref sig .tc := ⟨.vmem, 94, rfl⟩
abbrev cc11_stg4_1 : Ref sig .tc := ⟨.vmem, 95, rfl⟩
abbrev cc11_stg5_0 : Ref sig .tc := ⟨.vmem, 96, rfl⟩
abbrev cc11_stg6_0 : Ref sig .tc := ⟨.vmem, 97, rfl⟩
abbrev cc12_stg0_0 : Ref sig .tc := ⟨.vmem, 98, rfl⟩
abbrev cc12_stg0_1 : Ref sig .tc := ⟨.vmem, 99, rfl⟩
abbrev cc12_stg1_0 : Ref sig .tc := ⟨.vmem, 100, rfl⟩
abbrev cc12_stg2_0 : Ref sig .tc := ⟨.vmem, 101, rfl⟩
abbrev cc12_stg3_0 : Ref sig .tc := ⟨.vmem, 102, rfl⟩
abbrev cc12_stg4_0 : Ref sig .tc := ⟨.vmem, 103, rfl⟩
abbrev cc12_stg5_0 : Ref sig .tc := ⟨.vmem, 104, rfl⟩
abbrev cc12_stg5_1 : Ref sig .tc := ⟨.vmem, 105, rfl⟩
abbrev cc13_stg0_0 : Ref sig .tc := ⟨.vmem, 106, rfl⟩
abbrev cc13_stg0_1 : Ref sig .tc := ⟨.vmem, 107, rfl⟩
abbrev cc13_stg1_0 : Ref sig .tc := ⟨.vmem, 108, rfl⟩
abbrev cc13_stg2_0 : Ref sig .tc := ⟨.vmem, 109, rfl⟩
abbrev cc13_stg3_0 : Ref sig .tc := ⟨.vmem, 110, rfl⟩
abbrev cc13_scratch0 : Ref sig .tc := ⟨.vmem, 111, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem6_0 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem4_1 : DmaSem sig := 45
abbrev cc5_sem5_0 : DmaSem sig := 46
abbrev cc5_sem6_0 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem3_1 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc8_sem2_1 : DmaSem sig := 67
abbrev cc8_sem3_0 : DmaSem sig := 68
abbrev cc8_sem4_0 : DmaSem sig := 69
abbrev cc8_sem4_1 : DmaSem sig := 70
abbrev cc8_sem5_0 : DmaSem sig := 71
abbrev cc8_sem6_0 : DmaSem sig := 72
abbrev cc9_sem0_0 : DmaSem sig := 73
abbrev cc9_sem0_1 : DmaSem sig := 74
abbrev cc9_sem1_0 : DmaSem sig := 75
abbrev cc9_sem2_0 : DmaSem sig := 76
abbrev cc9_sem3_0 : DmaSem sig := 77
abbrev cc9_sem4_0 : DmaSem sig := 78
abbrev cc9_sem5_0 : DmaSem sig := 79
abbrev cc9_sem5_1 : DmaSem sig := 80
abbrev cc10_sem0_0 : DmaSem sig := 81
abbrev cc10_sem0_1 : DmaSem sig := 82
abbrev cc10_sem1_0 : DmaSem sig := 83
abbrev cc10_sem2_0 : DmaSem sig := 84
abbrev cc10_sem3_0 : DmaSem sig := 85
abbrev cc10_sem3_1 : DmaSem sig := 86
abbrev cc11_sem0_0 : DmaSem sig := 87
abbrev cc11_sem0_1 : DmaSem sig := 88
abbrev cc11_sem1_0 : DmaSem sig := 89
abbrev cc11_sem1_1 : DmaSem sig := 90
abbrev cc11_sem2_0 : DmaSem sig := 91
abbrev cc11_sem2_1 : DmaSem sig := 92
abbrev cc11_sem3_0 : DmaSem sig := 93
abbrev cc11_sem4_0 : DmaSem sig := 94
abbrev cc11_sem4_1 : DmaSem sig := 95
abbrev cc11_sem5_0 : DmaSem sig := 96
abbrev cc11_sem6_0 : DmaSem sig := 97
abbrev cc12_sem0_0 : DmaSem sig := 98
abbrev cc12_sem0_1 : DmaSem sig := 99
abbrev cc12_sem1_0 : DmaSem sig := 100
abbrev cc12_sem2_0 : DmaSem sig := 101
abbrev cc12_sem3_0 : DmaSem sig := 102
abbrev cc12_sem4_0 : DmaSem sig := 103
abbrev cc12_sem5_0 : DmaSem sig := 104
abbrev cc12_sem5_1 : DmaSem sig := 105
abbrev cc13_sem0_0 : DmaSem sig := 106
abbrev cc13_sem0_1 : DmaSem sig := 107
abbrev cc13_sem1_0 : DmaSem sig := 108
abbrev cc13_sem2_0 : DmaSem sig := 109
abbrev cc13_sem3_0 : DmaSem sig := 110

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S10000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S10000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S10000x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 1 → Memref sig .tc .vmem S1x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x64 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S10000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![10], ![false]⟩

def k13_cond2 (i : grid13.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_6 : BitVec 32 := 0#32
  let v14 : BitVec 1 := Scalar.cmpi .ne v13 c0_i32_6
  v14

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S10000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S64x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  slices_S4x64x64_S1x64x64_0_0_0 : S4x64x64.Slices ![0, 0, 0] S1x64x64
  shapeCasts_S1x64x64_S64x64 : S1x64x64.ShapeCasts S64x64
  bcast_S_S1x64 : S_.BroadcastsInDim S1x64 (![] : Fin 0 → Fin S1x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  reduces_S10000x64_S64 : S10000x64.Reduces [0] S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x32_S32x64_S10000x64_1_0_0_1_n_n_wf : DotDims.WF S10000x32 S32x64 S10000x64 [1] [0] [0] [1] [] []
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S1x64_S64x64_S1x64_1_0_0_1_n_n_wf : DotDims.WF S1x64 S64x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x1.size a ≤ S100000x1.size a
  hwx8_2 : ∀ i : grid8.Coords, EltTy.bits .f32 = 32 ∨ (Rect.block (s := S100000x1) S10000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S10000x64.size a ≤ S100000x64.size a
  hwx8_4 : ∀ i : grid8.Coords, EltTy.bits .f32 = 32 ∨ (Rect.block (s := S100000x64) S10000x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x64.size a ≤ S100000x64.size a
  hwx9_5 : ∀ i : grid9.Coords, EltTy.bits .f32 = 32 ∨ (Rect.block (s := S100000x64) S10000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x64.size a ≤ S100000x64.size a
  hwx10_3 : ∀ i : grid10.Coords, EltTy.bits .f32 = 32 ∨ (Rect.block (s := S100000x64) S10000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x64.size a ≤ S100000x64.size a
  hwx11_1 : ∀ i : grid11.Coords, EltTy.bits .f32 = 32 ∨ (Rect.block (s := S100000x64) S10000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x1.size a ≤ S100000x1.size a
  hwx11_2 : ∀ i : grid11.Coords, EltTy.bits .f32 = 32 ∨ (Rect.block (s := S100000x1) S10000x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S10000x64.size a ≤ S100000x64.size a
  hwx11_4 : ∀ i : grid11.Coords, EltTy.bits .f32 = 32 ∨ (Rect.block (s := S100000x64) S10000x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x64.size a ≤ S1x64.size a
  hwx11_5 : ∀ i : grid11.Coords, EltTy.bits .f32 = 32 ∨ (Rect.block (s := S1x64) S1x64.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x64.size a ≤ S1x64.size a
  hwx11_6 : ∀ i : grid11.Coords, EltTy.bits .f32 = 32 ∨ (Rect.block (s := S1x64) S1x64.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x64.size a ≤ S1x64.size a
  hwx12_1 : ∀ i : grid12.Coords, EltTy.bits .f32 = 32 ∨ (Rect.block (s := S1x64) S1x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S10000x64.size a ≤ S100000x64.size a
  hwx12_5 : ∀ i : grid12.Coords, EltTy.bits .f32 = 32 ∨ (Rect.block (s := S100000x64) S10000x64.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x64.size a ≤ S100000x64.size a
  hwx13_0 : ∀ i : grid13.Coords, EltTy.bits .f32 = 32 ∨ (Rect.block (s := S100000x64) S10000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64x64.size a ≤ S64x64.size a
  hwx13_1 : ∀ i : grid13.Coords, EltTy.bits .f32 = 32 ∨ (Rect.block (s := S64x64) S64x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51_0) S10000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v51_1) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51_2) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v51_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v67) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v84) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88_0) S10000x64.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v88_1) S1x64.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v88_2) S1x64.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v88_0) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v97) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v103) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v104) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v104) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v106) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v107) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v108) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v121) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v108) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v28) S10000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v124) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v125_0) S10000x64.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v125_1) S1x64.size cc8_transform_5 reads8_5 true true 1 stage8_5 sem8_5
    hrank8 hreads8_5 hinb8_5 nbuf8_5 (Memref.isWhole_whole _) hwx8_5 hstage8_5

abbrev win8_6 : Pipeline.Window sig grid8 :=
  Pipeline.Window.ofSpec (Memref.whole main_v125_2) S1x64.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v125_0) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v127) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v134) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v137) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v140) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v141) S10000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v141) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v143) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v144) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v145) S10000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v158) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v145) S10000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v28) S10000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v161) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v162_0) S10000x64.size cc11_transform_4 reads11_4 true false 2 stage11_4 sem11_4
    hrank11 hreads11_4 hinb11_4 nbuf11_4 (Memref.isWhole_whole _) hwx11_4 hstage11_4

abbrev win11_5 : Pipeline.Window sig grid11 :=
  Pipeline.Window.ofSpec (Memref.whole main_v162_1) S1x64.size cc11_transform_5 reads11_5 true true 1 stage11_5 sem11_5
    hrank11 hreads11_5 hinb11_5 nbuf11_5 (Memref.isWhole_whole _) hwx11_5 hstage11_5

abbrev win11_6 : Pipeline.Window sig grid11 :=
  Pipeline.Window.ofSpec (Memref.whole main_v162_2) S1x64.size cc11_transform_6 reads11_6 true true 1 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v162_0) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v164) S1x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v171) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v174) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v177) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v178) S10000x64.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v178) S10000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg8) S64x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v179) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v180) S1x64.size cc13_transform_3 reads13_3 true true 1 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun _ => false | 3 => fun i => !(k13_cond2 i == 1#1) | ⟨_ + 4, h⟩ => absurd h (Nat.not_lt.2 (Nat.le_add_left _ _))

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1x64 : Shape := ⟨2, ![1, 64]⟩
abbrev S1x64x64 : Shape := ⟨3, ![1, 64, 64]⟩
abbrev S1600000x64 : Shape := ⟨2, ![1600000, 64]⟩
abbrev S100000x1 : Shape := ⟨2, ![100000, 1]⟩

abbrev nBuf : Space → Nat
  | .hbm => 319
  | .vmem => 0
  | .smem => 0
  | _ => 0

abbrev hbmTy0_0 (i : Nat) : BufTy := match i % 128 with
  | 0 => ⟨S100000x32, .f32⟩
  | 1 => ⟨S2x1600000, .i32⟩
  | 2 => ⟨S32x64, .f32⟩
  | 3 => ⟨S64, .f32⟩
  | 4 => ⟨S4x64x64, .f32⟩
  | 5 => ⟨S4x64, .f32⟩
  | 6 => ⟨S4x64, .f32⟩
  | 7 => ⟨S4x64, .f32⟩
  | 8 => ⟨S64x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000, .f32⟩
  | 46 => ⟨S100000x64, .f32⟩
  | 47 => ⟨S1x64, .f32⟩
  | 48 => ⟨S100000x64, .f32⟩
  | 49 => ⟨S100000x64, .f32⟩
  | 50 => ⟨S1x64x64, .f32⟩
  | 51 => ⟨S64x64, .f32⟩
  | 52 => ⟨S100000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x1, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S100000x1, .f32⟩
  | 70 => ⟨S100000x64, .f32⟩
  | 71 => ⟨S100000x64, .f32⟩
  | 72 => ⟨S100000x64, .f32⟩
  | 73 => ⟨S1x64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S_, .f32⟩
  | 81 => ⟨S64, .f32⟩
  | 82 => ⟨S64, .f32⟩
  | 83 => ⟨S1x64, .f32⟩
  | 84 => ⟨S100000x64, .f32⟩
  | 85 => ⟨S100000x64, .f32⟩
  | 86 => ⟨S100000x64, .f32⟩
  | 87 => ⟨S_, .f32⟩
  | 88 => ⟨S64, .f32⟩
  | 89 => ⟨S_, .f32⟩
  | 90 => ⟨S64, .f32⟩
  | 91 => ⟨S64, .f32⟩
  | 92 => ⟨S1x64, .f32⟩
  | 93 => ⟨S64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S64, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S1x64, .f32⟩
  | 108 => ⟨S64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S1x64x64, .f32⟩
  | 116 => ⟨S64x64, .f32⟩
  | 117 => ⟨S100000x64, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S1600000x1, .f32⟩
  | _ => ⟨S100000x32, .f32⟩

abbrev hbmTy0_1 (i : Nat) : BufTy := match i % 128 with
  | 0 => ⟨S1600000x64, .f32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S100000x1, .f32⟩
  | 7 => ⟨S100000x64, .f32⟩
  | 8 => ⟨S100000x64, .f32⟩
  | 9 => ⟨S100000x64, .f32⟩
  | 10 => ⟨S1x64, .f32⟩
  | 11 => ⟨S64, .f32⟩
  | 12 => ⟨S1x64, .f32⟩
  | 13 => ⟨S100000x64, .f32⟩
  | 14 => ⟨S100000x64, .f32⟩
  | 15 => ⟨S_, .f32⟩
  | 16 => ⟨S64, .f32⟩
  | 17 => ⟨S_, .f32⟩
  | 18 => ⟨S64, .f32⟩
  | 19 => ⟨S64, .f32⟩
  | 20 => ⟨S1x64, .f32⟩
  | 21 => ⟨S100000x64, .f32⟩
  | 22 => ⟨S100000x64, .f32⟩
  | 23 => ⟨S100000x64, .f32⟩
  | 24 => ⟨S_, .f32⟩
  | 25 => ⟨S64, .f32⟩
  | 26 => ⟨S_, .f32⟩
  | 27 => ⟨S64, .f32⟩
  | 28 => ⟨S64, .f32⟩
  | 29 => ⟨S1x64, .f32⟩
  | 30 => ⟨S64, .f32⟩
  | 31 => ⟨S1x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S64, .f32⟩
  | 39 => ⟨S64, .f32⟩
  | 40 => ⟨S64, .f32⟩
  | 41 => ⟨S1x64, .f32⟩
  | 42 => ⟨S100000x64, .f32⟩
  | 43 => ⟨S100000x64, .f32⟩
  | 44 => ⟨S1x64, .f32⟩
  | 45 => ⟨S64, .f32⟩
  | 46 => ⟨S1x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S1x64x64, .f32⟩
  | 53 => ⟨S64x64, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S1600000x1, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000x1, .f32⟩
  | 72 => ⟨S100000x64, .f32⟩
  | 73 => ⟨S100000x64, .f32⟩
  | 74 => ⟨S100000x64, .f32⟩
  | 75 => ⟨S1x64, .f32⟩
  | 76 => ⟨S64, .f32⟩
  | 77 => ⟨S1x64, .f32⟩
  | 78 => ⟨S100000x64, .f32⟩
  | 79 => ⟨S100000x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S64, .f32⟩
  | 96 => ⟨S1x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S64, .f32⟩
  | 104 => ⟨S64, .f32⟩
  | 105 => ⟨S64, .f32⟩
  | 106 => ⟨S1x64, .f32⟩
  | 107 => ⟨S100000x64, .f32⟩
  | 108 => ⟨S100000x64, .f32⟩
  | 109 => ⟨S1x64, .f32⟩
  | 110 => ⟨S64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S1x64x64, .f32⟩
  | 118 => ⟨S64x64, .f32⟩
  | 119 => ⟨S100000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x32, .f32⟩

abbrev hbmTy0_2 (i : Nat) : BufTy := match i % 128 with
  | 0 => ⟨S1600000x64, .f32⟩
  | 1 => ⟨S1600000x1, .f32⟩
  | 2 => ⟨S1600000x64, .f32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000x1, .f32⟩
  | 9 => ⟨S100000x64, .f32⟩
  | 10 => ⟨S100000x64, .f32⟩
  | 11 => ⟨S100000x64, .f32⟩
  | 12 => ⟨S1x64, .f32⟩
  | 13 => ⟨S64, .f32⟩
  | 14 => ⟨S1x64, .f32⟩
  | 15 => ⟨S100000x64, .f32⟩
  | 16 => ⟨S100000x64, .f32⟩
  | 17 => ⟨S_, .f32⟩
  | 18 => ⟨S64, .f32⟩
  | 19 => ⟨S_, .f32⟩
  | 20 => ⟨S64, .f32⟩
  | 21 => ⟨S64, .f32⟩
  | 22 => ⟨S1x64, .f32⟩
  | 23 => ⟨S100000x64, .f32⟩
  | 24 => ⟨S100000x64, .f32⟩
  | 25 => ⟨S100000x64, .f32⟩
  | 26 => ⟨S_, .f32⟩
  | 27 => ⟨S64, .f32⟩
  | 28 => ⟨S_, .f32⟩
  | 29 => ⟨S64, .f32⟩
  | 30 => ⟨S64, .f32⟩
  | 31 => ⟨S1x64, .f32⟩
  | 32 => ⟨S64, .f32⟩
  | 33 => ⟨S1x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S64, .f32⟩
  | 41 => ⟨S64, .f32⟩
  | 42 => ⟨S64, .f32⟩
  | 43 => ⟨S1x64, .f32⟩
  | 44 => ⟨S100000x64, .f32⟩
  | 45 => ⟨S100000x64, .f32⟩
  | 46 => ⟨S1x64, .f32⟩
  | 47 => ⟨S64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S1x64, .f32⟩
  | 61 => ⟨S1x64, .f32⟩
  | 62 => ⟨S1x64, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_call0_cst : Ref sig .tc := ⟨.hbm, 112, rfl⟩
abbrev main_call0_v0 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_14 : Ref sig .tc := ⟨.hbm, 118, rfl⟩
abbrev main_v90 : Ref sig .tc := ⟨.hbm, 119, rfl⟩
abbrev main_v91 : Ref sig .tc := ⟨.hbm, 120, rfl⟩
abbrev main_c_15 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_16 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_17 : Ref sig .tc := ⟨.hbm, 143, rfl⟩
abbrev main_v112 : Ref sig .tc := ⟨.hbm, 144, rfl⟩
abbrev main_cst_18 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_19 : Ref sig .tc := ⟨.hbm, 152, rfl⟩
abbrev main_v119 : Ref sig .tc := ⟨.hbm, 153, rfl⟩
abbrev main_cst_20 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_21 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_call1_cst : Ref sig .tc := ⟨.hbm, 177, rfl⟩
abbrev main_call1_v0 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_c_22 : Ref sig .tc := ⟨.hbm, 183, rfl⟩
abbrev main_v145 : Ref sig .tc := ⟨.hbm, 184, rfl⟩
abbrev main_v146 : Ref sig .tc := ⟨.hbm, 185, rfl⟩
abbrev main_c_23 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_cst_24 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_25 : Ref sig .tc := ⟨.hbm, 208, rfl⟩
abbrev main_v167 : Ref sig .tc := ⟨.hbm, 209, rfl⟩
abbrev main_cst_26 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_27 : Ref sig .tc := ⟨.hbm, 217, rfl⟩
abbrev main_v174 : Ref sig .tc := ⟨.hbm, 218, rfl⟩
abbrev main_cst_28 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_cst_29 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_call2_cst : Ref sig .tc := ⟨.hbm, 242, rfl⟩
abbrev main_call2_v0 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_c_30 : Ref sig .tc := ⟨.hbm, 248, rfl⟩
abbrev main_v200 : Ref sig .tc := ⟨.hbm, 249, rfl⟩
abbrev main_v201 : Ref sig .tc := ⟨.hbm, 250, rfl⟩
abbrev main_c_31 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_cst_32 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_cst_33 : Ref sig .tc := ⟨.hbm, 273, rfl⟩
abbrev main_v222 : Ref sig .tc := ⟨.hbm, 274, rfl⟩
abbrev main_cst_34 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_cst_35 : Ref sig .tc := ⟨.hbm, 282, rfl⟩
abbrev main_v229 : Ref sig .tc := ⟨.hbm, 283, rfl⟩
abbrev main_cst_36 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_cst_37 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_call3_cst : Ref sig .tc := ⟨.hbm, 307, rfl⟩
abbrev main_call3_v0 : Ref sig .tc := ⟨.hbm, 308, rfl⟩
abbrev main_v251 : Ref sig .tc := ⟨.hbm, 309, rfl⟩
abbrev main_cst_38 : Ref sig .tc := ⟨.hbm, 310, rfl⟩
abbrev main_v252 : Ref sig .tc := ⟨.hbm, 311, rfl⟩
abbrev main_v253 : Ref sig .tc := ⟨.hbm, 312, rfl⟩
abbrev main_cst_39 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S4x64_S1x64_0_0 : S4x64.Slices ![0, 0] S1x64
  shapeCasts_S1x64_S64 : S1x64.ShapeCasts S64
  reducesTo_S100000x64_S64_d0 : S100000x64.ReducesTo [0] S64
  h_S_ : 0 < S_.numel
  bcast_S_S64 : S_.BroadcastsInDim S64 (![] : Fin 0 → Fin S64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S1x64 : S_.BroadcastsInDim S1x64 (![] : Fin 0 → Fin S1x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S1x64_S64x64_S1x64_1_0_0_1_n_n_wf : DotDims.WF S1x64 S64x64 S1x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf

class Facts : Prop extends Facts₀ where

variable [Facts]
-- ==== Proof.KI.Fr0.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of ten thousand rows recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # A product of a row tile with a weight matrix, plus a bias row -/

/-! ## The windows' blocks -/

/-- Window `w`'s block at point `t`, read off its array as the region finds it. Window 0 is the row tile of
    ten thousand rows at `t`; windows 1 and 2 are the whole weight matrix and the whole bias row at every point;
    window 3 is the output's row tile at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's buffer holds its block at every point: the tile is fetched at each one, and the body leaves it
    in place. Stated for any proof data over the entry arrays whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point, though it is fetched at the first point only:
    its block index never moves, and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's buffer likewise holds the whole row at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x32 := Rect.unit (s := S10000x32) ![0, 0] S10000x32.size inb_S10000x32_S10000x32_0_0
abbrev r0_1 : Rect S32x64 := Rect.unit (s := S32x64) ![0, 0] S32x64.size inb_S32x64_S32x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-! ## What the body leaves in the output window's buffer -/

/-- The output tile after the body, from the three input blocks: one store of the whole tile, whose payload is the
    product of the rounded row tile with the rounded weight matrix accumulated from zero, plus the bias row
    repeated down the rows. -/
def out0_3 (x0 : Vec F S10000x32 .f32) (x1 : Vec F S32x64 .f32) (x2 : Vec F S1x64 .f32) : Vec F S10000x64 .f32 :=
  View.canon [⟨r0_3, k0_pay1 (View.ld x0 r0_0) (View.ld x1 r0_1) (View.ld x2 r0_2)⟩]

/-- The one store is the whole tile, so it covers it. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 1000000 in
/-- The body on whole staging buffers, the inputs' reading `x0`, `x1`, `x2` and the output's holding anything,
    runs to the continuation with the inputs' as they were and the output's at `out0_3` of them. -/
theorem sound_kernel0 (c : Dev nD) (E : Set ℕ) (i : grid0.Coords) (wa : Memref sig .tc .vmem S10000x32 .f32) (hwa : wa.IsWhole) (wb : Memref sig .tc .vmem S32x64 .f32) (hwb : wb.IsWhole) (wc : Memref sig .tc .vmem S1x64 .f32) (hwc : wc.IsWhole) (wd : Memref sig .tc .vmem S10000x64 .f32) (hwd : wd.IsWhole)
    (x0 : Vec F S10000x32 .f32) (x1 : Vec F S32x64 .f32) (x2 : Vec F S1x64 .f32) (K : PUnit → sProp 𝕄) :
    iprop(owns (c : Thread nD τ) wa fullShare x0 ∗ owns (c : Thread nD τ) wb fullShare x1 ∗ owns (c : Thread nD τ) wc fullShare x2 ∗ (∃ d, owns (c : Thread nD τ) wd fullShare d)
        ∗ (iprop(owns (c : Thread nD τ) wa fullShare x0 ∗ owns (c : Thread nD τ) wb fullShare x1 ∗ owns (c : Thread nD τ) wc fullShare x2 ∗ owns (c : Thread nD τ) wd fullShare (out0_3 x0 x1 x2)) -∗ K ⟨⟩))
      ⊢ wp frame (wpE (defs₀ (F := F)) Variants.none c none) E (cc0__matmul_bias_kernel i wa hwa wb hwb wc hwc wd hwd) K := by
  simp only [cc0__matmul_bias_kernel_eq_skeleton]; unfold cc0__matmul_bias_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover0_3 _)

/-! ## The pipeline's proof data -/

/-- The proof data on core `c`: the arrays as the region finds them; after the body at point `t` each input's
    buffer at its block and the output's at `out0_3` of the three input blocks; the invariant untouched from
    point to point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%da, Ha⟩, ⟨%db, Hb⟩, ⟨%dc, Hc⟩, ⟨%dd, Hd⟩⟩
  iapply (sound_kernel0 c Set.univ (grid0.coords t) _ _ _ _ _ _ _ _ (iblk0 V c 0 t) (iblk0 V c 1 t) (iblk0 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- The invariant at the first boundary is the entry's, -/
theorem hin0 (c : Dev nD) : Pipeline.ΦA spec0 c ⊢ (dat0 V c).Φ 0 := by
  rw [show (dat0 V c).Φ 0 = Pipeline.ΦA spec0 c from rfl]

/-- and at the last boundary it is the entry's again. -/
theorem hout0 (c : Dev nD) : (dat0 V c).Φ (Fin.last cfg0.N) ⊢ Pipeline.ΦA spec0 c := by
  rw [show (dat0 V c).Φ (Fin.last cfg0.N) = Pipeline.ΦA spec0 c from rfl]

end Cert.KernelIdeal.Reg

end
-- ==== Proof.KI.Fr1.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of ten thousand rows recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # A product of a row tile with a weight matrix, plus a bias row -/

/-! ## The windows' blocks -/

/-- Window `w`'s block at point `t`, read off its array as the region finds it. Window 0 is the row tile of
    ten thousand rows at `t`; windows 1 and 2 are the whole weight matrix and the whole bias row at every point;
    window 3 is the output's row tile at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's buffer holds its block at every point: the tile is fetched at each one, and the body leaves it
    in place. Stated for any proof data over the entry arrays whose body keeps the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's buffer holds the whole matrix at every point, though it is fetched at the first point only:
    its block index never moves, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's buffer likewise holds the whole row at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S10000x64 := Rect.unit (s := S10000x64) ![0, 0] S10000x64.size inb_S10000x64_S10000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S10000x64 := Rect.unit (s := S10000x64) ![0, 0] S10000x64.size inb_S10000x64_S10000x64_0_0

/-! ## What the body leaves in the output window's buffer -/

/-- The output tile after the body, from the three input blocks: one store of the whole tile, whose payload is the
    product of the rounded row tile with the rounded weight matrix accumulated from zero, plus the bias row
    repeated down the rows. -/
def out1_3 (x0 : Vec F S10000x64 .f32) (x1 : Vec F S64x64 .f32) (x2 : Vec F S1x64 .f32) : Vec F S10000x64 .f32 :=
  View.canon [⟨r1_3, k1_pay1 (View.ld x0 r1_0) (View.ld x1 r1_1) (View.ld x2 r1_2)⟩]

/-- The one store is the whole tile, so it covers it. -/
theorem cover1_3 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The body on whole staging buffers, the inputs' reading `x0`, `x1`, `x2` and the output's holding anything,
    runs to the continuation with the inputs' as they were and the output's at `out1_3` of them. -/
theorem sound_kernel1 (c : Dev nD) (E : Set ℕ) (i : grid1.Coords) (wa : Memref sig .tc .vmem S10000x64 .f32) (hwa : wa.IsWhole) (wb : Memref sig .tc .vmem S64x64 .f32) (hwb : wb.IsWhole) (wc : Memref sig .tc .vmem S1x64 .f32) (hwc : wc.IsWhole) (wd : Memref sig .tc .vmem S10000x64 .f32) (hwd : wd.IsWhole)
    (x0 : Vec F S10000x64 .f32) (x1 : Vec F S64x64 .f32) (x2 : Vec F S1x64 .f32) (K : PUnit → sProp 𝕄) :
    iprop(owns (c : Thread nD τ) wa fullShare x0 ∗ owns (c : Thread nD τ) wb fullShare x1 ∗ owns (c : Thread nD τ) wc fullShare x2 ∗ (∃ d, owns (c : Thread nD τ) wd fullShare d)
        ∗ (iprop(owns (c : Thread nD τ) wa fullShare x0 ∗ owns (c : Thread nD τ) wb fullShare x1 ∗ owns (c : Thread nD τ) wc fullShare x2 ∗ owns (c : Thread nD τ) wd fullShare (out1_3 x0 x1 x2)) -∗ K ⟨⟩))
      ⊢ wp frame (wpE (defs₀ (F := F)) Variants.none c none) E (cc1__matmul_bias_kernel i wa hwa wb hwb wc hwc wd hwd) K := by
  simp only [cc1__matmul_bias_kernel_eq_skeleton]; unfold cc1__matmul_bias_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover1_3 _)

/-! ## The pipeline's proof data -/

/-- The proof data on core `c`: the arrays as the region finds them; after the body at point `t` each input's
    buffer at its block and the output's at `out1_3` of the three input blocks; the invariant untouched from
    point to point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%da, Ha⟩, ⟨%db, Hb⟩, ⟨%dc, Hc⟩, ⟨%dd, Hd⟩⟩
  iapply (sound_kernel1 c Set.univ (grid1.coords t) _ _ _ _ _ _ _ _ (iblk1 V c 0 t) (iblk1 V c 1 t) (iblk1 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The invariant at the first boundary is the entry's, -/
theorem hin1 (c : Dev nD) : Pipeline.ΦA spec1 c ⊢ (dat1 V c).Φ 0 := by
  rw [show (dat1 V c).Φ 0 = Pipeline.ΦA spec1 c from rfl]

/-- and at the last boundary it is the entry's again. -/
theorem hout1 (c : Dev nD) : (dat1 V c).Φ (Fin.last cfg1.N) ⊢ Pipeline.ΦA spec1 c := by
  rw [show (dat1 V c).Φ (Fin.last cfg1.N) = Pipeline.ΦA spec1 c from rfl]

end Cert.KernelIdeal.Reg

end
-- ==== Proof.KI.Fr2.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The combine kernel: hpre = agg + xw * selfn + convb on a row tile, and the column sums of hpre and of its
    square accumulated over the tiles into two one-row outputs. -/

section Blocks

variable (V : (c : Dev nD) → (b : Ref sig .tc) → Buf (Elt F) ((c : Thread nD τ).loc b))

/-- Window w's block at point t, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: unfetched, the block
    index has not moved. Window 0: the row tile of agg. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1: the row tile of xw. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2: the row tile of the one-column selfn. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3: the one row convb, the same block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The body's one branch: the two accumulators are zeroed at the first point only -/

/-- The branch condition as a function of the grid coordinate. -/
abbrev k2_cond (i : grid2.Coords) : Prop :=
  (Scalar.cmpi .ne (Scalar.extui (Scalar.cmpi .eq (BitVec.ofNat 32 (i 0).val) 0#32)) 0#32) = 1#1

/-- It holds at the first point only. -/
theorem k2_hcond : ∀ t : Fin cfg2.N, k2_cond (grid2.coords t) ↔ t.val = 0 :=
  (by decide +kernel : ∀ t : Fin grid2.N, k2_cond (grid2.coords t) ↔ t.val = 0)

/-! ## The body on any whole staging memrefs, case by case -/

section Kernel

variable (c : Dev nD) (i : grid2.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

set_option maxHeartbeats 2000000 in
/-- FIRST POINT (the branch taken). With the four inputs at x0 x1 x2 x3 and the three outputs at anything, the body
    runs to a continuation that holds the inputs as they were and each output with a list of pieces written, last
    first: the lists are what the run finds. -/
noncomputable def sound_kernel2_A (hc : k2_cond i)
    (x0 : Vec F S10000x64 .f32) (x1 : Vec F S10000x64 .f32) (x2 : Vec F S10000x1 .f32) (x3 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc2__combine_kernel i arg1 harg1 arg2 harg2 arg3 harg3 arg4 harg4 arg5 harg5 arg6 harg6 arg7 harg7) K } := by
  refine ⟨?_, ?_, ?_, fun E K => ?run⟩
  case run =>
    simp only [cc2__combine_kernel_eq_skeleton]; unfold cc2__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1
    obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

set_option maxHeartbeats 2000000 in
/-- LATER POINTS (the branch not taken). The two accumulators come in at their running contents xo5 xo6; the body adds
    the tile's column sums to them. -/
noncomputable def sound_kernel2_B (hc : ¬k2_cond i)
    (x0 : Vec F S10000x64 .f32) (x1 : Vec F S10000x64 .f32) (x2 : Vec F S10000x1 .f32) (x3 : Vec F S1x64 .f32)
    (xo5 : Vec F S1x64 .f32) (xo6 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc2__combine_kernel i arg1 harg1 arg2 harg2 arg3 harg3 arg4 harg4 arg5 harg5 arg6 harg6 arg7 harg7) K } := by
  refine ⟨?_, ?_, ?_, fun E K => ?run⟩
  case run =>
    simp only [cc2__combine_kernel_eq_skeleton]; unfold cc2__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1
    obtain rfl := harg3.eq_unread hf2; obtain rfl := harg4.eq_unread hf3
    obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

/-! ## What each case leaves in the three outputs' staging buffers -/

/-- One staging buffer of each output window, through which its contents are stated: the pieces cover the block, so
    the choice of buffer and of what it held does not matter. -/
abbrev out2_4_view : View sig .tc .vmem S10000x64 .f32 := (Memref.whole cc2_stg4_0 : Memref sig .tc .vmem S10000x64 .f32).view
abbrev out2_5_view : View sig .tc .vmem S1x64 .f32 := (Memref.whole cc2_stg5_0 : Memref sig .tc .vmem S1x64 .f32).view
abbrev out2_6_view : View sig .tc .vmem S1x64 .f32 := (Memref.whole cc2_stg6_0 : Memref sig .tc .vmem S1x64 .f32).view

/-- First point: each output's pieces tile its block. -/
theorem cover2_4_A (hc : k2_cond i) (x0 : Vec F S10000x64 .f32) (x1 : Vec F S10000x64 .f32) (x2 : Vec F S10000x1 .f32) (x3 : Vec F S1x64 .f32)
    (y : S10000x64.Idx) : ∃ pc ∈ (sound_kernel2_A c i arg1 harg1 arg2 harg2 arg3 harg3 arg4 harg4 arg5 harg5 arg6 harg6 arg7 harg7 hc x0 x1 x2 x3).1, y ∈ pc.1.set :=
  View.cover_of_tiledL (sound_kernel2_A c i arg1 harg1 arg2 harg2 arg3 harg3 arg4 harg4 arg5 harg5 arg6 harg6 arg7 harg7 hc x0 x1 x2 x3).1 S10000x64.size (by sl_kernel_rfl) y
theorem cover2_5_A (hc : k2_cond i) (x0 : Vec F S10000x64 .f32) (x1 : Vec F S10000x64 .f32) (x2 : Vec F S10000x1 .f32) (x3 : Vec F S1x64 .f32)
    (y : S1x64.Idx) : ∃ pc ∈ (sound_kernel2_A c i arg1 harg1 arg2 harg2 arg3 harg3 arg4 harg4 arg5 harg5 arg6 harg6 arg7 harg7 hc x0 x1 x2 x3).2.1, y ∈ pc.1.set :=
  View.cover_of_tiledL (sound_kernel2_A c i arg1 harg1 arg2 harg2 arg3 harg3 arg4 harg4 arg5 harg5 arg6 harg6 arg7 harg7 hc x0 x1 x2 x3).2.1 S1x64.size (by sl_kernel_rfl) y
theorem cover2_6_A (hc : k2_cond i) (x0 : Vec F S10000x64 .f32) (x1 : Vec F S10000x64 .f32) (x2 : Vec F S10000x1 .f32) (x3 : Vec F S1x64 .f32)
    (y : S1x64.Idx) : ∃ pc ∈ (sound_kernel2_A c i arg1 harg1 arg2 harg2 arg3 harg3 arg4 harg4 arg5 harg5 arg6 harg6 arg7 harg7 hc x0 x1 x2 x3).2.2.1, y ∈ pc.1.set :=
  View.cover_of_tiledL (sound_kernel2_A c i arg1 harg1 arg2 harg2 arg3 harg3 arg4 harg4 arg5 harg5 arg6 harg6 arg7 harg7 hc x0 x1 x2 x3).2.2.1 S1x64.size (by sl_kernel_rfl) y

/-- First point: what the three outputs hold, their pieces read back. -/
def out2_A (hc : k2_cond i) (x0 : Vec F S10000x64 .f32) (x1 : Vec F S10000x64 .f32) (x2 : Vec F S10000x1 .f32) (x3 : Vec F S1x64 .f32) :
    Vec F S10000x64 .f32 × Vec F S1x64 .f32 × Vec F S1x64 .f32 :=
  (out2_4_view.read (Elt F) (out2_4_view.writes (Elt F) out2_4_view.junk (sound_kernel2_A c i arg1 harg1 arg2 harg2 arg3 harg3 arg4 harg4 arg5 harg5 arg6 harg6 arg7 harg7 hc x0 x1 x2 x3).1),
   out2_5_view.read (Elt F) (out2_5_view.writes (Elt F) out2_5_view.junk (sound_kernel2_A c i arg1 harg1 arg2 harg2 arg3 harg3 arg4 harg4 arg5 harg5 arg6 harg6 arg7 harg7 hc x0 x1 x2 x3).2.1),
   out2_6_view.read (Elt F) (out2_6_view.writes (Elt F) out2_6_view.junk (sound_kernel2_A c i arg1 harg1 arg2 harg2 arg3 harg3 arg4 harg4 arg5 harg5 arg6 harg6 arg7 harg7 hc x0 x1 x2 x3).2.2.1))

/-- Later points: each output's pieces tile its block. -/
theorem cover2_4_B (hc : ¬k2_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S10000x64.Idx) : ∃ pc ∈ (sound_kernel2_B c i arg1 harg1 arg2 harg2 arg3 harg3 arg4 harg4 arg5 harg5 arg6 harg6 arg7 harg7 hc x0 x1 x2 x3 xo5 xo6).1, y ∈ pc.1.set :=
  View.cover_of_tiledL (sound_kernel2_B c i arg1 harg1 arg2 harg2 arg3 harg3 arg4 harg4 arg5 harg5 arg6 harg6 arg7 harg7 hc x0 x1 x2 x3 xo5 xo6).1 S10000x64.size (by sl_kernel_rfl) y
theorem cover2_5_B (hc : ¬k2_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel2_B c i arg1 harg1 arg2 harg2 arg3 harg3 arg4 harg4 arg5 harg5 arg6 harg6 arg7 harg7 hc x0 x1 x2 x3 xo5 xo6).2.1, y ∈ pc.1.set :=
  View.cover_of_tiledL (sound_kernel2_B c i arg1 harg1 arg2 harg2 arg3 harg3 arg4 harg4 arg5 harg5 arg6 harg6 arg7 harg7 hc x0 x1 x2 x3 xo5 xo6).2.1 S1x64.size (by sl_kernel_rfl) y
theorem cover2_6_B (hc : ¬k2_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel2_B c i arg1 harg1 arg2 harg2 arg3 harg3 arg4 harg4 arg5 harg5 arg6 harg6 arg7 harg7 hc x0 x1 x2 x3 xo5 xo6).2.2.1, y ∈ pc.1.set :=
  View.cover_of_tiledL (sound_kernel2_B c i arg1 harg1 arg2 harg2 arg3 harg3 arg4 harg4 arg5 harg5 arg6 harg6 arg7 harg7 hc x0 x1 x2 x3 xo5 xo6).2.2.1 S1x64.size (by sl_kernel_rfl) y

/-- Later points: what the three outputs hold. -/
def out2_B (hc : ¬k2_cond i) (x0 : Vec F S10000x64 .f32) (x1 : Vec F S10000x64 .f32) (x2 : Vec F S10000x1 .f32) (x3 : Vec F S1x64 .f32)
    (xo5 : Vec F S1x64 .f32) (xo6 : Vec F S1x64 .f32) :
    Vec F S10000x64 .f32 × Vec F S1x64 .f32 × Vec F S1x64 .f32 :=
  (out2_4_view.read (Elt F) (out2_4_view.writes (Elt F) out2_4_view.junk (sound_kernel2_B c i arg1 harg1 arg2 harg2 arg3 harg3 arg4 harg4 arg5 harg5 arg6 harg6 arg7 harg7 hc x0 x1 x2 x3 xo5 xo6).1),
   out2_5_view.read (Elt F) (out2_5_view.writes (Elt F) out2_5_view.junk (sound_kernel2_B c i arg1 harg1 arg2 harg2 arg3 harg3 arg4 harg4 arg5 harg5 arg6 harg6 arg7 harg7 hc x0 x1 x2 x3 xo5 xo6).2.1),
   out2_6_view.read (Elt F) (out2_6_view.writes (Elt F) out2_6_view.junk (sound_kernel2_B c i arg1 harg1 arg2 harg2 arg3 harg3 arg4 harg4 arg5 harg5 arg6 harg6 arg7 harg7 hc x0 x1 x2 x3 xo5 xo6).2.2.1))

end Kernel

/-! ## What the outputs hold after each point -/

section Data

variable (V : (c : Dev nD) → (b : Ref sig .tc) → Buf (Elt F) ((c : Thread nD τ).loc b))

/-- The first point's outputs, at the point's staging memrefs and input blocks. -/
def out2_A_at (c : Dev nD) (t : Fin cfg2.N) (h0 : t.val = 0) : Vec F S10000x64 .f32 × Vec F S1x64 .f32 × Vec F S1x64 .f32 :=
  out2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) ((k2_hcond t).mpr h0) (iblk2 V c 0 t) (iblk2 V c 1 t) (iblk2 V c 2 t) (iblk2 V c 3 t)

/-- A later point's outputs, over the accumulators' running contents. -/
def out2_B_at (c : Dev nD) (t : Fin cfg2.N) (h0 : ¬t.val = 0) (xo5 : Vec F S1x64 .f32) (xo6 : Vec F S1x64 .f32) :
    Vec F S10000x64 .f32 × Vec F S1x64 .f32 × Vec F S1x64 .f32 :=
  out2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (fun h => h0 ((k2_hcond t).mp h)) (iblk2 V c 0 t) (iblk2 V c 1 t) (iblk2 V c 2 t) (iblk2 V c 3 t) xo5 xo6

/-- THE ACCUMULATION, by recursion on the point: the tile's hpre block, and the two running column sums — zeroed and
    added to at the first point, added to at each later one from what the point before left (their buffers are not
    written back between). -/
def outsAt2 (c : Dev nD) : (n : ℕ) → n < cfg2.N → Vec F S10000x64 .f32 × Vec F S1x64 .f32 × Vec F S1x64 .f32
  | 0, hn => out2_A_at V c ⟨0, hn⟩ rfl
  | n + 1, hn => out2_B_at V c ⟨n + 1, hn⟩ (Nat.succ_ne_zero n) (outsAt2 c n (Nat.lt_of_succ_lt hn)).2.1 (outsAt2 c n (Nat.lt_of_succ_lt hn)).2.2

theorem outsAt2_A (c : Dev nD) (t : Fin cfg2.N) (h0 : t.val = 0) : outsAt2 V c t.val t.isLt = out2_A_at V c t h0 := by
  obtain ⟨n, hn⟩ := t
  cases n with
  | zero => rfl
  | succ n => exact absurd h0 (Nat.succ_ne_zero n)

theorem outsAt2_B (c : Dev nD) (t : Fin cfg2.N) (h0 : ¬t.val = 0) :
    outsAt2 V c t.val t.isLt = out2_B_at V c t h0
      (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact absurd rfl h0
  | succ n => rfl

/-! ## The pipeline's proof data -/

/-- The arrays as the region finds them; after the body at point t each input's buffer at its block, window 4's at the
    tile's hpre block, windows 5 and 6's at the running sums; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem after2_6 (c : Dev nD) (t : Fin cfg2.N) : (dat2 V c).after 6 t = (outsAt2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a later point each accumulator's buffer holds what the body left at the point before: it is written back at the
    last point only, so not between. -/
theorem before2_5_B (c : Dev nD) (t : Fin cfg2.N) (h0 : ¬t.val = 0) (d) :
    (dat2 V c).before 5 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 5 rfl t h0 (Bool.eq_false_iff.mpr fun h => by have := (flush2_5 _).mp h; dsimp only at this; omega)
    (fun _ => rfl) (fun _ _ => rfl)]
  dsimp only [dat2]
theorem before2_6_B (c : Dev nD) (t : Fin cfg2.N) (h0 : ¬t.val = 0) (d) :
    (dat2 V c).before 6 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 6 rfl t h0 (Bool.eq_false_iff.mpr fun h => by have := (flush2_6 _).mp h; dsimp only at this; omega)
    (fun _ => rfl) (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1600000 in
/-- The body at any point: the inputs' memrefs hold their blocks; at the first point the branch is taken and the outputs
    hold anything; at a later point it is not and the accumulators hold what the point before left; the case's run
    applies, and its pieces, covering each block, read back as the stated contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  by_cases h0 : t.val = 0
  · rw [outsAt2_A V c t h0]
    unfold out2_A_at out2_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel2_A c (grid2.coords t) _ _ _ _ _ _ _ _ _ _ _ _ _ _ ((k2_hcond t).mpr h0) (iblk2 V c 0 t) (iblk2 V c 1 t) (iblk2 V c 2 t) (iblk2 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_4_A c _ _ _ _ _ _ _ _ _ _ _ _ _ _ _ _ _ _ _ _)
    isplitl [H5]
    · unfold owns; iexists _; isplitr
      swap; · iexact H5
      ipureintro; exact View.read_writes_of_cover _ _ _ _ _ (cover2_5_A c _ _ _ _ _ _ _ _ _ _ _ _ _ _ _ _ _ _ _ _)
    unfold owns; iexists _; isplitr
    swap; · iexact H6
    ipureintro; exact View.read_writes_of_cover _ _ _ _ _ (cover2_6_A c _ _ _ _ _ _ _ _ _ _ _ _ _ _ _ _ _ _ _ _)
  · rw [outsAt2_B V c t h0]
    simp only [before2_5_B V c t h0, before2_6_B V c t h0]
    unfold out2_B_at out2_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel2_B c (grid2.coords t) _ _ _ _ _ _ _ _ _ _ _ _ _ _ (fun h => h0 ((k2_hcond t).mp h)) (iblk2 V c 0 t) (iblk2 V c 1 t) (iblk2 V c 2 t) (iblk2 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_4_B c _ _ _ _ _ _ _ _ _ _ _ _ _ _ _ _ _ _ _ _ _ _)
    isplitl [H5]
    · unfold owns; iexists _; isplitr
      swap; · iexact H5
      ipureintro; exact View.read_writes_of_cover _ _ _ _ _ (cover2_5_B c _ _ _ _ _ _ _ _ _ _ _ _ _ _ _ _ _ _ _ _ _ _)
    unfold owns; iexists _; isplitr
    swap; · iexact H6
    ipureintro; exact View.read_writes_of_cover _ _ _ _ _ (cover2_6_B c _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant is the class's at every position: in and out unchanged. -/
theorem hin2 (c : Dev nD) : Pipeline.ΦA spec2 c ⊢ (dat2 V c).Φ 0 := Entails.refl _
theorem hout2 (c : Dev nD) : (dat2 V c).Φ (Fin.last cfg2.N) ⊢ Pipeline.ΦA spec2 c := Entails.refl _

end Data

end Cert.KernelIdeal.Reg

end
-- ==== Proof.KI.Fr3.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 10000 × 64: the structural look recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The normalize-and-clamp region: a [10000,64] block of rows and four [1,64] rows in, one [10000,64] block out -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point (its block index is constant over the grid, so where it is not fetched the block already there is the point's), for any proof
    data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point (its block index is constant over the grid, so where it is not fetched the block already there is the point's), for any proof
    data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point (its block index is constant over the grid, so where it is not fetched the block already there is the point's), for any proof
    data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point (its block index is constant over the grid, so where it is not fetched the block already there is the point's), for any proof
    data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store is of a whole buffer -/

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0

/-! ## What the body leaves in the output window's buffer -/

/-- Window 5's staging buffer after the body, from the input windows' blocks `xa … xe` (windows 0 … 4): its one
    whole-buffer store; the payload takes the rows block, then the rows of windows 3, 1, 2, 4, in the order the body loads them. -/
def out3_5 (xa : Vec F S10000x64 .f32) (xb xc xd xe : Vec F S1x64 .f32) : Vec F S10000x64 .f32 :=
  View.canon [⟨r3_0, k3_pay1 (View.ld xa r3_0) (View.ld xd r3_1) (View.ld xb r3_1) (View.ld xc r3_1) (View.ld xe r3_1)⟩]

/-- The store's rectangle is the whole buffer, so it covers it. -/
theorem cover3_5 (pa : Vec F S10000x64 .f32) (y : S10000x64.Idx) :
    ∃ pc ∈ ([⟨r3_0, pa⟩] : List (View.Piece (Elt F) S10000x64 .f32)), y ∈ pc.1.set :=
  View.cover_of_tiled [⟨r3_0, pa⟩] S10000x64.size (by rfl) y

/-! ## The body's triple -/

set_option maxHeartbeats 1000000 in
/-- The body on whole staging memrefs, the inputs' at read contents `xa … xe` and the output's at anything, runs to the
    continuation holding the inputs' as they were and the output's at `out3_5` of the inputs'. -/
theorem sound_kernel3 (c : Dev nD) (E : Set ℕ) (i : grid3.Coords)
    (arga : Memref sig .tc .vmem S10000x64 .f32) (harga : arga.IsWhole) (argb : Memref sig .tc .vmem S1x64 .f32) (hargb : argb.IsWhole)
    (argc : Memref sig .tc .vmem S1x64 .f32) (hargc : argc.IsWhole) (argd : Memref sig .tc .vmem S1x64 .f32) (hargd : argd.IsWhole)
    (arge : Memref sig .tc .vmem S1x64 .f32) (harge : arge.IsWhole) (argf : Memref sig .tc .vmem S10000x64 .f32) (hargf : argf.IsWhole)
    (xa : Vec F S10000x64 .f32) (xb xc xd xe : Vec F S1x64 .f32) (K : PUnit → sProp 𝕄) :
    iprop(owns (c : Thread nD τ) arga fullShare xa ∗ owns (c : Thread nD τ) argb fullShare xb ∗ owns (c : Thread nD τ) argc fullShare xc
        ∗ owns (c : Thread nD τ) argd fullShare xd ∗ owns (c : Thread nD τ) arge fullShare xe ∗ (∃ d, owns (c : Thread nD τ) argf fullShare d)
        ∗ (iprop(owns (c : Thread nD τ) arga fullShare xa ∗ owns (c : Thread nD τ) argb fullShare xb ∗ owns (c : Thread nD τ) argc fullShare xc
            ∗ owns (c : Thread nD τ) argd fullShare xd ∗ owns (c : Thread nD τ) arge fullShare xe
            ∗ owns (c : Thread nD τ) argf fullShare (out3_5 xa xb xc xd xe)) -∗ K ⟨⟩))
      ⊢ wp frame (wpE (defs₀ (F := F)) Variants.none c none) E (cc3__bn_relu_kernel i arga harga argb hargb argc hargc argd hargd arge harge argf hargf) K := by
  simp only [cc3__bn_relu_kernel_eq_skeleton]; unfold cc3__bn_relu_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hf⟩, Hk⟩
  subst hfa; subst hfb; subst hfc; subst hfd; subst hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover3_5 _)

/-! ## The pipeline's proof data -/

/-- The proof data of the region's pipeline on core `c`: the arrays as the region finds them (`V`); after the body at
    point `t` each input's buffer at its block and the output's at `out3_5` of the input blocks; the invariant the
    untouched rest; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%da, Ha⟩, ⟨%db, Hb⟩, ⟨%dc, Hc⟩, ⟨%dd, Hd⟩, ⟨%de, He⟩, ⟨%df, Hf⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends: the untouched rest, as it is outside the region -/

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.KernelIdeal.Reg

end
-- ==== Proof.KI.Fr4.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of ten thousand rows recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # A product of a row tile with a weight matrix, plus a bias row -/

/-! ## The windows' blocks -/

/-- Window `w`'s block at point `t`, read off its array as the region finds it. Window 0 is the row tile of
    ten thousand rows at `t`; windows 1 and 2 are the whole weight matrix and the whole bias row at every point;
    window 3 is the output's row tile at `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row tile's buffer holds its block at every point: the tile is fetched at each one, and the body leaves it
    in place. Stated for any proof data over the entry arrays whose body keeps the block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's buffer holds the whole matrix at every point, though it is fetched at the first point only:
    its block index never moves, and the body leaves the buffer as it found it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias row's buffer likewise holds the whole row at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0
abbrev r4_3 : Rect S10000x64 := Rect.unit (s := S10000x64) ![0, 0] S10000x64.size inb_S10000x64_S10000x64_0_0

/-! ## What the body leaves in the output window's buffer -/

/-- The output tile after the body, from the three input blocks: one store of the whole tile, whose payload is the
    product of the rounded row tile with the rounded weight matrix accumulated from zero, plus the bias row
    repeated down the rows. -/
def out4_3 (x0 : Vec F S10000x64 .f32) (x1 : Vec F S64x64 .f32) (x2 : Vec F S1x64 .f32) : Vec F S10000x64 .f32 :=
  View.canon [⟨r4_3, k4_pay1 (View.ld x0 r4_0) (View.ld x1 r4_1) (View.ld x2 r4_2)⟩]

/-- The one store is the whole tile, so it covers it. -/
theorem cover4_3 (p0 : Vec F S10000x64 .f32) (y : S10000x64.Idx) :
    ∃ pc ∈ ([⟨r4_3, p0⟩] : List (View.Piece (Elt F) S10000x64 .f32)), y ∈ pc.1.set :=
  View.cover_of_tiled [⟨r4_3, p0⟩] S10000x64.size (by rfl) y

/-! ## The body's triple -/

set_option maxHeartbeats 1000000 in
/-- The body on whole staging buffers, the inputs' reading `x0`, `x1`, `x2` and the output's holding anything,
    runs to the continuation with the inputs' as they were and the output's at `out4_3` of them. -/
theorem sound_kernel4 (c : Dev nD) (E : Set ℕ) (i : grid4.Coords) (wa : Memref sig .tc .vmem S10000x64 .f32) (hwa : wa.IsWhole) (wb : Memref sig .tc .vmem S64x64 .f32) (hwb : wb.IsWhole) (wc : Memref sig .tc .vmem S1x64 .f32) (hwc : wc.IsWhole) (wd : Memref sig .tc .vmem S10000x64 .f32) (hwd : wd.IsWhole)
    (x0 : Vec F S10000x64 .f32) (x1 : Vec F S64x64 .f32) (x2 : Vec F S1x64 .f32) (K : PUnit → sProp 𝕄) :
    iprop(owns (c : Thread nD τ) wa fullShare x0 ∗ owns (c : Thread nD τ) wb fullShare x1 ∗ owns (c : Thread nD τ) wc fullShare x2 ∗ (∃ d, owns (c : Thread nD τ) wd fullShare d)
        ∗ (iprop(owns (c : Thread nD τ) wa fullShare x0 ∗ owns (c : Thread nD τ) wb fullShare x1 ∗ owns (c : Thread nD τ) wc fullShare x2 ∗ owns (c : Thread nD τ) wd fullShare (out4_3 x0 x1 x2)) -∗ K ⟨⟩))
      ⊢ wp frame (wpE (defs₀ (F := F)) Variants.none c none) E (cc4__matmul_bias_kernel i wa hwa wb hwb wc hwc wd hwd) K := by
  simp only [cc4__matmul_bias_kernel_eq_skeleton]; unfold cc4__matmul_bias_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover4_3 _)

/-! ## The pipeline's proof data -/

/-- The proof data on core `c`: the arrays as the region finds them; after the body at point `t` each input's
    buffer at its block and the output's at `out4_3` of the three input blocks; the invariant untouched from
    point to point; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%da, Ha⟩, ⟨%db, Hb⟩, ⟨%dc, Hc⟩, ⟨%dd, Hd⟩⟩
  iapply (sound_kernel4 c Set.univ (grid4.coords t) _ _ _ _ _ _ _ _ (iblk4 V c 0 t) (iblk4 V c 1 t) (iblk4 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- The invariant at the first boundary is the entry's, -/
theorem hin4 (c : Dev nD) : Pipeline.ΦA spec4 c ⊢ (dat4 V c).Φ 0 := by
  rw [show (dat4 V c).Φ 0 = Pipeline.ΦA spec4 c from rfl]

/-- and at the last boundary it is the entry's again. -/
theorem hout4 (c : Dev nD) : (dat4 V c).Φ (Fin.last cfg4.N) ⊢ Pipeline.ΦA spec4 c := by
  rw [show (dat4 V c).Φ (Fin.last cfg4.N) = Pipeline.ΦA spec4 c from rfl]

end Cert.KernelIdeal.Reg

end
-- ==== Proof.KI.Fr5.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The combine kernel: hpre = agg + xw * selfn + convb on a row tile, and the column sums of hpre and of its
    square accumulated over the tiles into two one-row outputs. -/

section Blocks

variable (V : (c : Dev nD) → (b : Ref sig .tc) → Buf (Elt F) ((c : Thread nD τ).loc b))

/-- Window w's block at point t, read off its array at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not: unfetched, the block
    index has not moved. Window 0: the row tile of agg. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1: the row tile of xw. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2: the row tile of the one-column selfn. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Window 3: the one row convb, the same block at every point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

end Blocks

/-! ## The body's one branch: the two accumulators are zeroed at the first point only -/

/-- The branch condition as a function of the grid coordinate. -/
abbrev k5_cond (i : grid5.Coords) : Prop :=
  (Scalar.cmpi .ne (Scalar.extui (Scalar.cmpi .eq (BitVec.ofNat 32 (i 0).val) 0#32)) 0#32) = 1#1

/-- It holds at the first point only. -/
theorem k5_hcond : ∀ t : Fin cfg5.N, k5_cond (grid5.coords t) ↔ t.val = 0 :=
  (by decide +kernel : ∀ t : Fin grid5.N, k5_cond (grid5.coords t) ↔ t.val = 0)

/-! ## The body on any whole staging memrefs, case by case -/

section Kernel

variable (c : Dev nD) (i : grid5.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

set_option maxHeartbeats 2000000 in
/-- FIRST POINT (the branch taken). With the four inputs at x0 x1 x2 x3 and the three outputs at anything, the body
    runs to a continuation that holds the inputs as they were and each output with a list of pieces written, last
    first: the lists are what the run finds. -/
noncomputable def sound_kernel5_A (hc : k5_cond i)
    (x0 : Vec F S10000x64 .f32) (x1 : Vec F S10000x64 .f32) (x2 : Vec F S10000x1 .f32) (x3 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc5__combine_kernel i arg1 harg1 arg2 harg2 arg3 harg3 arg4 harg4 arg5 harg5 arg6 harg6 arg7 harg7) K } := by
  refine ⟨?_, ?_, ?_, fun E K => ?run⟩
  case run =>
    simp only [cc5__combine_kernel_eq_skeleton]; unfold cc5__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1
    obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

set_option maxHeartbeats 2000000 in
/-- LATER POINTS (the branch not taken). The two accumulators come in at their running contents xo5 xo6; the body adds
    the tile's column sums to them. -/
noncomputable def sound_kernel5_B (hc : ¬k5_cond i)
    (x0 : Vec F S10000x64 .f32) (x1 : Vec F S10000x64 .f32) (x2 : Vec F S10000x1 .f32) (x3 : Vec F S1x64 .f32)
    (xo5 : Vec F S1x64 .f32) (xo6 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc5__combine_kernel i arg1 harg1 arg2 harg2 arg3 harg3 arg4 harg4 arg5 harg5 arg6 harg6 arg7 harg7) K } := by
  refine ⟨?_, ?_, ?_, fun E K => ?run⟩
  case run =>
    simp only [cc5__combine_kernel_eq_skeleton]; unfold cc5__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1
    obtain rfl := harg3.eq_unread hf2; obtain rfl := harg4.eq_unread hf3
    obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

/-! ## What each case leaves in the three outputs' staging buffers -/

/-- One staging buffer of each output window, through which its contents are stated: the pieces cover the block, so
    the choice of buffer and of what it held does not matter. -/
abbrev out5_4_view : View sig .tc .vmem S10000x64 .f32 := (Memref.whole cc5_stg4_0 : Memref sig .tc .vmem S10000x64 .f32).view
abbrev out5_5_view : View sig .tc .vmem S1x64 .f32 := (Memref.whole cc5_stg5_0 : Memref sig .tc .vmem S1x64 .f32).view
abbrev out5_6_view : View sig .tc .vmem S1x64 .f32 := (Memref.whole cc5_stg6_0 : Memref sig .tc .vmem S1x64 .f32).view

/-- First point: each output's pieces tile its block. -/
theorem cover5_4_A (hc : k5_cond i) (x0 : Vec F S10000x64 .f32) (x1 : Vec F S10000x64 .f32) (x2 : Vec F S10000x1 .f32) (x3 : Vec F S1x64 .f32)
    (y : S10000x64.Idx) : ∃ pc ∈ (sound_kernel5_A c i arg1 harg1 arg2 harg2 arg3 harg3 arg4 harg4 arg5 harg5 arg6 harg6 arg7 harg7 hc x0 x1 x2 x3).1, y ∈ pc.1.set :=
  View.cover_of_tiledL (sound_kernel5_A c i arg1 harg1 arg2 harg2 arg3 harg3 arg4 harg4 arg5 harg5 arg6 harg6 arg7 harg7 hc x0 x1 x2 x3).1 S10000x64.size (by sl_kernel_rfl) y
theorem cover5_5_A (hc : k5_cond i) (x0 : Vec F S10000x64 .f32) (x1 : Vec F S10000x64 .f32) (x2 : Vec F S10000x1 .f32) (x3 : Vec F S1x64 .f32)
    (y : S1x64.Idx) : ∃ pc ∈ (sound_kernel5_A c i arg1 harg1 arg2 harg2 arg3 harg3 arg4 harg4 arg5 harg5 arg6 harg6 arg7 harg7 hc x0 x1 x2 x3).2.1, y ∈ pc.1.set :=
  View.cover_of_tiledL (sound_kernel5_A c i arg1 harg1 arg2 harg2 arg3 harg3 arg4 harg4 arg5 harg5 arg6 harg6 arg7 harg7 hc x0 x1 x2 x3).2.1 S1x64.size (by sl_kernel_rfl) y
theorem cover5_6_A (hc : k5_cond i) (x0 : Vec F S10000x64 .f32) (x1 : Vec F S10000x64 .f32) (x2 : Vec F S10000x1 .f32) (x3 : Vec F S1x64 .f32)
    (y : S1x64.Idx) : ∃ pc ∈ (sound_kernel5_A c i arg1 harg1 arg2 harg2 arg3 harg3 arg4 harg4 arg5 harg5 arg6 harg6 arg7 harg7 hc x0 x1 x2 x3).2.2.1, y ∈ pc.1.set :=
  View.cover_of_tiledL (sound_kernel5_A c i arg1 harg1 arg2 harg2 arg3 harg3 arg4 harg4 arg5 harg5 arg6 harg6 arg7 harg7 hc x0 x1 x2 x3).2.2.1 S1x64.size (by sl_kernel_rfl) y

/-- First point: what the three outputs hold, their pieces read back. -/
def out5_A (hc : k5_cond i) (x0 : Vec F S10000x64 .f32) (x1 : Vec F S10000x64 .f32) (x2 : Vec F S10000x1 .f32) (x3 : Vec F S1x64 .f32) :
    Vec F S10000x64 .f32 × Vec F S1x64 .f32 × Vec F S1x64 .f32 :=
  (out5_4_view.read (Elt F) (out5_4_view.writes (Elt F) out5_4_view.junk (sound_kernel5_A c i arg1 harg1 arg2 harg2 arg3 harg3 arg4 harg4 arg5 harg5 arg6 harg6 arg7 harg7 hc x0 x1 x2 x3).1),
   out5_5_view.read (Elt F) (out5_5_view.writes (Elt F) out5_5_view.junk (sound_kernel5_A c i arg1 harg1 arg2 harg2 arg3 harg3 arg4 harg4 arg5 harg5 arg6 harg6 arg7 harg7 hc x0 x1 x2 x3).2.1),
   out5_6_view.read (Elt F) (out5_6_view.writes (Elt F) out5_6_view.junk (sound_kernel5_A c i arg1 harg1 arg2 harg2 arg3 harg3 arg4 harg4 arg5 harg5 arg6 harg6 arg7 harg7 hc x0 x1 x2 x3).2.2.1))

/-- Later points: each output's pieces tile its block. -/
theorem cover5_4_B (hc : ¬k5_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S10000x64.Idx) : ∃ pc ∈ (sound_kernel5_B c i arg1 harg1 arg2 harg2 arg3 harg3 arg4 harg4 arg5 harg5 arg6 harg6 arg7 harg7 hc x0 x1 x2 x3 xo5 xo6).1, y ∈ pc.1.set :=
  View.cover_of_tiledL (sound_kernel5_B c i arg1 harg1 arg2 harg2 arg3 harg3 arg4 harg4 arg5 harg5 arg6 harg6 arg7 harg7 hc x0 x1 x2 x3 xo5 xo6).1 S10000x64.size (by sl_kernel_rfl) y
theorem cover5_5_B (hc : ¬k5_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel5_B c i arg1 harg1 arg2 harg2 arg3 harg3 arg4 harg4 arg5 harg5 arg6 harg6 arg7 harg7 hc x0 x1 x2 x3 xo5 xo6).2.1, y ∈ pc.1.set :=
  View.cover_of_tiledL (sound_kernel5_B c i arg1 harg1 arg2 harg2 arg3 harg3 arg4 harg4 arg5 harg5 arg6 harg6 arg7 harg7 hc x0 x1 x2 x3 xo5 xo6).2.1 S1x64.size (by sl_kernel_rfl) y
theorem cover5_6_B (hc : ¬k5_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel5_B c i arg1 harg1 arg2 harg2 arg3 harg3 arg4 harg4 arg5 harg5 arg6 harg6 arg7 harg7 hc x0 x1 x2 x3 xo5 xo6).2.2.1, y ∈ pc.1.set :=
  View.cover_of_tiledL (sound_kernel5_B c i arg1 harg1 arg2 harg2 arg3 harg3 arg4 harg4 arg5 harg5 arg6 harg6 arg7 harg7 hc x0 x1 x2 x3 xo5 xo6).2.2.1 S1x64.size (by sl_kernel_rfl) y

/-- Later points: what the three outputs hold. -/
def out5_B (hc : ¬k5_cond i) (x0 : Vec F S10000x64 .f32) (x1 : Vec F S10000x64 .f32) (x2 : Vec F S10000x1 .f32) (x3 : Vec F S1x64 .f32)
    (xo5 : Vec F S1x64 .f32) (xo6 : Vec F S1x64 .f32) :
    Vec F S10000x64 .f32 × Vec F S1x64 .f32 × Vec F S1x64 .f32 :=
  (out5_4_view.read (Elt F) (out5_4_view.writes (Elt F) out5_4_view.junk (sound_kernel5_B c i arg1 harg1 arg2 harg2 arg3 harg3 arg4 harg4 arg5 harg5 arg6 harg6 arg7 harg7 hc x0 x1 x2 x3 xo5 xo6).1),
   out5_5_view.read (Elt F) (out5_5_view.writes (Elt F) out5_5_view.junk (sound_kernel5_B c i arg1 harg1 arg2 harg2 arg3 harg3 arg4 harg4 arg5 harg5 arg6 harg6 arg7 harg7 hc x0 x1 x2 x3 xo5 xo6).2.1),
   out5_6_view.read (Elt F) (out5_6_view.writes (Elt F) out5_6_view.junk (sound_kernel5_B c i arg1 harg1 arg2 harg2 arg3 harg3 arg4 harg4 arg5 harg5 arg6 harg6 arg7 harg7 hc x0 x1 x2 x3 xo5 xo6).2.2.1))

end Kernel

/-! ## What the outputs hold after each point -/

section Data

variable (V : (c : Dev nD) → (b : Ref sig .tc) → Buf (Elt F) ((c : Thread nD τ).loc b))

/-- The first point's outputs, at the point's staging memrefs and input blocks. -/
def out5_A_at (c : Dev nD) (t : Fin cfg5.N) (h0 : t.val = 0) : Vec F S10000x64 .f32 × Vec F S1x64 .f32 × Vec F S1x64 .f32 :=
  out5_A c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) ((k5_hcond t).mpr h0) (iblk5 V c 0 t) (iblk5 V c 1 t) (iblk5 V c 2 t) (iblk5 V c 3 t)

/-- A later point's outputs, over the accumulators' running contents. -/
def out5_B_at (c : Dev nD) (t : Fin cfg5.N) (h0 : ¬t.val = 0) (xo5 : Vec F S1x64 .f32) (xo6 : Vec F S1x64 .f32) :
    Vec F S10000x64 .f32 × Vec F S1x64 .f32 × Vec F S1x64 .f32 :=
  out5_B c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) (fun h => h0 ((k5_hcond t).mp h)) (iblk5 V c 0 t) (iblk5 V c 1 t) (iblk5 V c 2 t) (iblk5 V c 3 t) xo5 xo6

/-- THE ACCUMULATION, by recursion on the point: the tile's hpre block, and the two running column sums — zeroed and
    added to at the first point, added to at each later one from what the point before left (their buffers are not
    written back between). -/
def outsAt5 (c : Dev nD) : (n : ℕ) → n < cfg5.N → Vec F S10000x64 .f32 × Vec F S1x64 .f32 × Vec F S1x64 .f32
  | 0, hn => out5_A_at V c ⟨0, hn⟩ rfl
  | n + 1, hn => out5_B_at V c ⟨n + 1, hn⟩ (Nat.succ_ne_zero n) (outsAt5 c n (Nat.lt_of_succ_lt hn)).2.1 (outsAt5 c n (Nat.lt_of_succ_lt hn)).2.2

theorem outsAt5_A (c : Dev nD) (t : Fin cfg5.N) (h0 : t.val = 0) : outsAt5 V c t.val t.isLt = out5_A_at V c t h0 := by
  obtain ⟨n, hn⟩ := t
  cases n with
  | zero => rfl
  | succ n => exact absurd h0 (Nat.succ_ne_zero n)

theorem outsAt5_B (c : Dev nD) (t : Fin cfg5.N) (h0 : ¬t.val = 0) :
    outsAt5 V c t.val t.isLt = out5_B_at V c t h0
      (outsAt5 V c (t.val - 1) (Nat.lt_of_le_of_lt (Nat.sub_le _ _) t.isLt)).2.1
      (outsAt5 V c (t.val - 1) (Nat.lt_of_le_of_lt (Nat.sub_le _ _) t.isLt)).2.2 := by
  obtain ⟨n, hn⟩ := t
  cases n with
  | zero => exact absurd rfl h0
  | succ n => rfl

/-! ## The pipeline's proof data -/

/-- The arrays as the region finds them; after the body at point t each input's buffer at its block, window 4's at the
    tile's hpre block, windows 5 and 6's at the running sums; the class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
    | ⟨5, _⟩ => (outsAt5 V c t.val t.isLt).2.1
    | ⟨6, _⟩ => (outsAt5 V c t.val t.isLt).2.2
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]
theorem after5_5 (c : Dev nD) (t : Fin cfg5.N) : (dat5 V c).after 5 t = (outsAt5 V c t.val t.isLt).2.1 := by dsimp only [dat5]
theorem after5_6 (c : Dev nD) (t : Fin cfg5.N) : (dat5 V c).after 6 t = (outsAt5 V c t.val t.isLt).2.2 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- At a later point each accumulator's buffer holds what the body left at the point before: it is written back at the
    last point only, so not between. -/
theorem before5_5_B (c : Dev nD) (t : Fin cfg5.N) (h0 : ¬t.val = 0) (d) :
    (dat5 V c).before 5 t d = (outsAt5 V c (t.val - 1) (Nat.lt_of_le_of_lt (Nat.sub_le _ _) t.isLt)).2.1 := by
  have hN : t.val < 10 := lt_of_lt_of_eq t.isLt (show cfg5.N = 10 from N_5)
  rw [Dat.before_out_kept _ 5 rfl t h0 (Bool.eq_false_iff.mpr fun h => by have := (flush5_5 _).mp h; dsimp only at this; omega)
    (fun _ => rfl) (fun _ _ => rfl)]
  dsimp only [dat5]
theorem before5_6_B (c : Dev nD) (t : Fin cfg5.N) (h0 : ¬t.val = 0) (d) :
    (dat5 V c).before 6 t d = (outsAt5 V c (t.val - 1) (Nat.lt_of_le_of_lt (Nat.sub_le _ _) t.isLt)).2.2 := by
  have hN : t.val < 10 := lt_of_lt_of_eq t.isLt (show cfg5.N = 10 from N_5)
  rw [Dat.before_out_kept _ 6 rfl t h0 (Bool.eq_false_iff.mpr fun h => by have := (flush5_6 _).mp h; dsimp only at this; omega)
    (fun _ => rfl) (fun _ _ => rfl)]
  dsimp only [dat5]

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

set_option maxHeartbeats 1600000 in
/-- The body at any point: the inputs' memrefs hold their blocks; at the first point the branch is taken and the outputs
    hold anything; at a later point it is not and the accumulators hold what the point before left; the case's run
    applies, and its pieces, covering each block, read back as the stated contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  by_cases h0 : t.val = 0
  · rw [outsAt5_A V c t h0]
    unfold out5_A_at out5_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel5_A c (grid5.coords t) _ _ _ _ _ _ _ _ _ _ _ _ _ _ ((k5_hcond t).mpr h0) (iblk5 V c 0 t) (iblk5 V c 1 t) (iblk5 V c 2 t) (iblk5 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover5_4_A c _ _ _ _ _ _ _ _ _ _ _ _ _ _ _ _ _ _ _ _)
    isplitl [H5]
    · unfold owns; iexists _; isplitr
      swap; · iexact H5
      ipureintro; exact View.read_writes_of_cover _ _ _ _ _ (cover5_5_A c _ _ _ _ _ _ _ _ _ _ _ _ _ _ _ _ _ _ _ _)
    unfold owns; iexists _; isplitr
    swap; · iexact H6
    ipureintro; exact View.read_writes_of_cover _ _ _ _ _ (cover5_6_A c _ _ _ _ _ _ _ _ _ _ _ _ _ _ _ _ _ _ _ _)
  · rw [outsAt5_B V c t h0]
    simp only [before5_5_B V c t h0, before5_6_B V c t h0]
    unfold out5_B_at out5_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel5_B c (grid5.coords t) _ _ _ _ _ _ _ _ _ _ _ _ _ _ (fun h => h0 ((k5_hcond t).mp h)) (iblk5 V c 0 t) (iblk5 V c 1 t) (iblk5 V c 2 t) (iblk5 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover5_4_B c _ _ _ _ _ _ _ _ _ _ _ _ _ _ _ _ _ _ _ _ _ _)
    isplitl [H5]
    · unfold owns; iexists _; isplitr
      swap; · iexact H5
      ipureintro; exact View.read_writes_of_cover _ _ _ _ _ (cover5_5_B c _ _ _ _ _ _ _ _ _ _ _ _ _ _ _ _ _ _ _ _ _ _)
    unfold owns; iexists _; isplitr
    swap; · iexact H6
    ipureintro; exact View.read_writes_of_cover _ _ _ _ _ (cover5_6_B c _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- The invariant is the class's at every position: in and out unchanged. -/
theorem hin5 (c : Dev nD) : Pipeline.ΦA spec5 c ⊢ (dat5 V c).Φ 0 := Entails.refl _
theorem hout5 (c : Dev nD) : (dat5 V c).Φ (Fin.last cfg5.N) ⊢ Pipeline.ΦA spec5 c := Entails.refl _

end Data

end Cert.KernelIdeal.Reg

end
-- ==== Proof.KI.Fr6.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 10000 × 64: the structural look recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The normalize-and-clamp region: a [10000,64] block of rows and four [1,64] rows in, one [10000,64] block out -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point (its block index is constant over the grid, so where it is not fetched the block already there is the point's), for any proof
    data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point (its block index is constant over the grid, so where it is not fetched the block already there is the point's), for any proof
    data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point (its block index is constant over the grid, so where it is not fetched the block already there is the point's), for any proof
    data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point (its block index is constant over the grid, so where it is not fetched the block already there is the point's), for any proof
    data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store is of a whole buffer -/

abbrev r6_0 : Rect S10000x64 := Rect.unit (s := S10000x64) ![0, 0] S10000x64.size inb_S10000x64_S10000x64_0_0
abbrev r6_1 : Rect S1x64 := Rect.unit (s := S1x64) ![0, 0] S1x64.size inb_S1x64_S1x64_0_0

/-! ## What the body leaves in the output window's buffer -/

/-- Window 5's staging buffer after the body, from the input windows' blocks `xa … xe` (windows 0 … 4): its one
    whole-buffer store; the payload takes the rows block, then the rows of windows 3, 1, 2, 4, in the order the body loads them. -/
def out6_5 (xa : Vec F S10000x64 .f32) (xb xc xd xe : Vec F S1x64 .f32) : Vec F S10000x64 .f32 :=
  View.canon [⟨r6_0, k6_pay1 (View.ld xa r6_0) (View.ld xd r6_1) (View.ld xb r6_1) (View.ld xc r6_1) (View.ld xe r6_1)⟩]

/-- The store's rectangle is the whole buffer, so it covers it. -/
theorem cover6_5 (pa : Vec F S10000x64 .f32) (y : S10000x64.Idx) :
    ∃ pc ∈ ([⟨r6_0, pa⟩] : List (View.Piece (Elt F) S10000x64 .f32)), y ∈ pc.1.set :=
  View.cover_of_tiled [⟨r6_0, pa⟩] S10000x64.size (by rfl) y

/-! ## The body's triple -/

set_option maxHeartbeats 1000000 in
/-- The body on whole staging memrefs, the inputs' at read contents `xa … xe` and the output's at anything, runs to the
    continuation holding the inputs' as they were and the output's at `out6_5` of the inputs'. -/
theorem sound_kernel6 (c : Dev nD) (E : Set ℕ) (i : grid6.Coords)
    (arga : Memref sig .tc .vmem S10000x64 .f32) (harga : arga.IsWhole) (argb : Memref sig .tc .vmem S1x64 .f32) (hargb : argb.IsWhole)
    (argc : Memref sig .tc .vmem S1x64 .f32) (hargc : argc.IsWhole) (argd : Memref sig .tc .vmem S1x64 .f32) (hargd : argd.IsWhole)
    (arge : Memref sig .tc .vmem S1x64 .f32) (harge : arge.IsWhole) (argf : Memref sig .tc .vmem S10000x64 .f32) (hargf : argf.IsWhole)
    (xa : Vec F S10000x64 .f32) (xb xc xd xe : Vec F S1x64 .f32) (K : PUnit → sProp 𝕄) :
    iprop(owns (c : Thread nD τ) arga fullShare xa ∗ owns (c : Thread nD τ) argb fullShare xb ∗ owns (c : Thread nD τ) argc fullShare xc
        ∗ owns (c : Thread nD τ) argd fullShare xd ∗ owns (c : Thread nD τ) arge fullShare xe ∗ (∃ d, owns (c : Thread nD τ) argf fullShare d)
        ∗ (iprop(owns (c : Thread nD τ) arga fullShare xa ∗ owns (c : Thread nD τ) argb fullShare xb ∗ owns (c : Thread nD τ) argc fullShare xc
            ∗ owns (c : Thread nD τ) argd fullShare xd ∗ owns (c : Thread nD τ) arge fullShare xe
            ∗ owns (c : Thread nD τ) argf fullShare (out6_5 xa xb xc xd xe)) -∗ K ⟨⟩))
      ⊢ wp frame (wpE (defs₀ (F := F)) Variants.none c none) E (cc6__bn_relu_kernel i arga harga argb hargb argc hargc argd hargd arge harge argf hargf) K := by
  simp only [cc6__bn_relu_kernel_eq_skeleton]; unfold cc6__bn_relu_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hf⟩, Hk⟩
  subst hfa; subst hfb; subst hfc; subst hfd; subst hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover6_5 _)

/-! ## The pipeline's proof data -/

/-- The proof data of the region's pipeline on core `c`: the arrays as the region finds them (`V`); after the body at
    point `t` each input's buffer at its block and the output's at `out6_5` of the input blocks; the invariant the
    untouched rest; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the body's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%da, Ha⟩, ⟨%db, Hb⟩, ⟨%dc, Hc⟩, ⟨%dd, Hd⟩, ⟨%de, He⟩, ⟨%df, Hf⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's ends: the untouched rest, as it is outside the region -/

theorem hin6 (c : Dev nD) : Pipeline.ΦA spec6 c ⊢ (dat6 V c).Φ 0 := .rfl

theorem hout6 (c : Dev nD) : (dat6 V c).Φ (Fin.last cfg6.N) ⊢ Pipeline.ΦA spec6 c := .rfl

end Cert.KernelIdeal.Reg

end
-- ==== Proof.KI.Fr7.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of ten thousand rows recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # A product of a row tile with a weight matrix, plus a bias row -/

/-! ## The windows' blocks -/

/-- Window `w`'s block at point `t`, read off its array as the region finds it. Window 0 is the row tile of
    ten thousand rows at `t`; windows 1 and 2 are the whole weight matrix and the whole bias row at every point;
    window 3 is the output's row tile at `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The row tile's buffer holds its block at every point: the tile is fetched at each one, and the body leaves it
    in place. Stated for any proof data over the entry arrays whose body keeps the block. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The weight matrix's buffer holds the whole matrix at every point, though it is fetched at the first point only:
    its block index never moves, and the body leaves the buffer as it found it. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The bias row's buffer likewise holds the whole row at every point. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_0 : Rect S10000x64 := Rect.unit (s := S10000x64) ![0, 0] S10000x64.size inb_S10000x64_S10000x64_0_0
abbrev r7_1 : Rect S64x64 := Rect.unit (s := S64x64) ![0, 0] S64x64.size inb_S64x64_S64x64_0_0
abbrev r7_2 : Rect S1x64 := Rect.unit (s := S1x64) ![0, 0] S1x64.size inb_S1x64_S1x64_0_0
abbrev r7_3 : Rect S10000x64 := Rect.unit (s := S10000x64) ![0, 0] S10000x64.size inb_S10000x64_S10000x64_0_0

/-! ## What the body leaves in the output window's buffer -/

/-- The output tile after the body, from the three input blocks: one store of the whole tile, whose payload is the
    product of the rounded row tile with the rounded weight matrix accumulated from zero, plus the bias row
    repeated down the rows. -/
def out7_3 (x0 : Vec F S10000x64 .f32) (x1 : Vec F S64x64 .f32) (x2 : Vec F S1x64 .f32) : Vec F S10000x64 .f32 :=
  View.canon [⟨r7_3, k7_pay1 (View.ld x0 r7_0) (View.ld x1 r7_1) (View.ld x2 r7_2)⟩]

/-- The one store is the whole tile, so it covers it. -/
theorem cover7_3 (p0 : Vec F S10000x64 .f32) (y : S10000x64.Idx) :
    ∃ pc ∈ ([⟨r7_3, p0⟩] : List (View.Piece (Elt F) S10000x64 .f32)), y ∈ pc.1.set :=
  View.cover_of_tiled [⟨r7_3, p0⟩] S10000x64.size (by rfl) y

/-! ## The body's triple -/

set_option maxHeartbeats 1000000 in
/-- The body on whole staging buffers, the inputs' reading `x0`, `x1`, `x2` and the output's holding anything,
    runs to the continuation with the inputs' as they were and the output's at `out7_3` of them. -/
theorem sound_kernel7 (c : Dev nD) (E : Set ℕ) (i : grid7.Coords) (wa : Memref sig .tc .vmem S10000x64 .f32) (hwa : wa.IsWhole) (wb : Memref sig .tc .vmem S64x64 .f32) (hwb : wb.IsWhole) (wc : Memref sig .tc .vmem S1x64 .f32) (hwc : wc.IsWhole) (wd : Memref sig .tc .vmem S10000x64 .f32) (hwd : wd.IsWhole)
    (x0 : Vec F S10000x64 .f32) (x1 : Vec F S64x64 .f32) (x2 : Vec F S1x64 .f32) (K : PUnit → sProp 𝕄) :
    iprop(owns (c : Thread nD τ) wa fullShare x0 ∗ owns (c : Thread nD τ) wb fullShare x1 ∗ owns (c : Thread nD τ) wc fullShare x2 ∗ (∃ d, owns (c : Thread nD τ) wd fullShare d)
        ∗ (iprop(owns (c : Thread nD τ) wa fullShare x0 ∗ owns (c : Thread nD τ) wb fullShare x1 ∗ owns (c : Thread nD τ) wc fullShare x2 ∗ owns (c : Thread nD τ) wd fullShare (out7_3 x0 x1 x2)) -∗ K ⟨⟩))
      ⊢ wp frame (wpE (defs₀ (F := F)) Variants.none c none) E (cc7__matmul_bias_kernel i wa hwa wb hwb wc hwc wd hwd) K := by
  simp only [cc7__matmul_bias_kernel_eq_skeleton]; unfold cc7__matmul_bias_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover7_3 _)

/-! ## The pipeline's proof data -/

/-- The proof data on core `c`: the arrays as the region finds them; after the body at point `t` each input's
    buffer at its block and the output's at `out7_3` of the three input blocks; the invariant untouched from
    point to point; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-- Each input's current buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%da, Ha⟩, ⟨%db, Hb⟩, ⟨%dc, Hc⟩, ⟨%dd, Hd⟩⟩
  iapply (sound_kernel7 c Set.univ (grid7.coords t) _ _ _ _ _ _ _ _ (iblk7 V c 0 t) (iblk7 V c 1 t) (iblk7 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's two ends -/

/-- The invariant at the first boundary is the entry's, -/
theorem hin7 (c : Dev nD) : Pipeline.ΦA spec7 c ⊢ (dat7 V c).Φ 0 := by
  rw [show (dat7 V c).Φ 0 = Pipeline.ΦA spec7 c from rfl]

/-- and at the last boundary it is the entry's again. -/
theorem hout7 (c : Dev nD) : (dat7 V c).Φ (Fin.last cfg7.N) ⊢ Pipeline.ΦA spec7 c := by
  rw [show (dat7 V c).Φ (Fin.last cfg7.N) = Pipeline.ΦA spec7 c from rfl]

end Cert.KernelIdeal.Reg

end
-- ==== Proof.KI.Fr8.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The combine kernel: hpre = agg + xw * selfn + convb on a row tile, and the column sums of hpre and of its
    square accumulated over the tiles into two one-row outputs. -/

section Blocks

variable (V : (c : Dev nD) → (b : Ref sig .tc) → Buf (Elt F) ((c : Thread nD τ).loc b))

/-- Window w's block at point t, read off its array at the entry contents. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, fetched there or not: unfetched, the block
    index has not moved. Window 0: the row tile of agg. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Window 1: the row tile of xw. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Window 2: the row tile of the one-column selfn. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Window 3: the one row convb, the same block at every point. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

end Blocks

/-! ## The body's one branch: the two accumulators are zeroed at the first point only -/

/-- The branch condition as a function of the grid coordinate. -/
abbrev k8_cond (i : grid8.Coords) : Prop :=
  (Scalar.cmpi .ne (Scalar.extui (Scalar.cmpi .eq (BitVec.ofNat 32 (i 0).val) 0#32)) 0#32) = 1#1

/-- It holds at the first point only. -/
theorem k8_hcond : ∀ t : Fin cfg8.N, k8_cond (grid8.coords t) ↔ t.val = 0 :=
  (by decide +kernel : ∀ t : Fin grid8.N, k8_cond (grid8.coords t) ↔ t.val = 0)

/-! ## The body on any whole staging memrefs, case by case -/

section Kernel

variable (c : Dev nD) (i : grid8.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

set_option maxHeartbeats 2000000 in
/-- FIRST POINT (the branch taken). With the four inputs at x0 x1 x2 x3 and the three outputs at anything, the body
    runs to a continuation that holds the inputs as they were and each output with a list of pieces written, last
    first: the lists are what the run finds. -/
noncomputable def sound_kernel8_A (hc : k8_cond i)
    (x0 : Vec F S10000x64 .f32) (x1 : Vec F S10000x64 .f32) (x2 : Vec F S10000x1 .f32) (x3 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc8__combine_kernel i arg1 harg1 arg2 harg2 arg3 harg3 arg4 harg4 arg5 harg5 arg6 harg6 arg7 harg7) K } := by
  refine ⟨?_, ?_, ?_, fun E K => ?run⟩
  case run =>
    simp only [cc8__combine_kernel_eq_skeleton]; unfold cc8__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1
    obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

set_option maxHeartbeats 2000000 in
/-- LATER POINTS (the branch not taken). The two accumulators come in at their running contents xo5 xo6; the body adds
    the tile's column sums to them. -/
noncomputable def sound_kernel8_B (hc : ¬k8_cond i)
    (x0 : Vec F S10000x64 .f32) (x1 : Vec F S10000x64 .f32) (x2 : Vec F S10000x1 .f32) (x3 : Vec F S1x64 .f32)
    (xo5 : Vec F S1x64 .f32) (xo6 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc8__combine_kernel i arg1 harg1 arg2 harg2 arg3 harg3 arg4 harg4 arg5 harg5 arg6 harg6 arg7 harg7) K } := by
  refine ⟨?_, ?_, ?_, fun E K => ?run⟩
  case run =>
    simp only [cc8__combine_kernel_eq_skeleton]; unfold cc8__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1
    obtain rfl := harg3.eq_unread hf2; obtain rfl := harg4.eq_unread hf3
    obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

/-! ## What each case leaves in the three outputs' staging buffers -/

/-- One staging buffer of each output window, through which its contents are stated: the pieces cover the block, so
    the choice of buffer and of what it held does not matter. -/
abbrev out8_4_view : View sig .tc .vmem S10000x64 .f32 := (Memref.whole cc8_stg4_0 : Memref sig .tc .vmem S10000x64 .f32).view
abbrev out8_5_view : View sig .tc .vmem S1x64 .f32 := (Memref.whole cc8_stg5_0 : Memref sig .tc .vmem S1x64 .f32).view
abbrev out8_6_view : View sig .tc .vmem S1x64 .f32 := (Memref.whole cc8_stg6_0 : Memref sig .tc .vmem S1x64 .f32).view

/-- First point: each output's pieces tile its block. -/
theorem cover8_4_A (hc : k8_cond i) (x0 : Vec F S10000x64 .f32) (x1 : Vec F S10000x64 .f32) (x2 : Vec F S10000x1 .f32) (x3 : Vec F S1x64 .f32)
    (y : S10000x64.Idx) : ∃ pc ∈ (sound_kernel8_A c i arg1 harg1 arg2 harg2 arg3 harg3 arg4 harg4 arg5 harg5 arg6 harg6 arg7 harg7 hc x0 x1 x2 x3).1, y ∈ pc.1.set :=
  View.cover_of_tiledL (sound_kernel8_A c i arg1 harg1 arg2 harg2 arg3 harg3 arg4 harg4 arg5 harg5 arg6 harg6 arg7 harg7 hc x0 x1 x2 x3).1 S10000x64.size (by sl_kernel_rfl) y
theorem cover8_5_A (hc : k8_cond i) (x0 : Vec F S10000x64 .f32) (x1 : Vec F S10000x64 .f32) (x2 : Vec F S10000x1 .f32) (x3 : Vec F S1x64 .f32)
    (y : S1x64.Idx) : ∃ pc ∈ (sound_kernel8_A c i arg1 harg1 arg2 harg2 arg3 harg3 arg4 harg4 arg5 harg5 arg6 harg6 arg7 harg7 hc x0 x1 x2 x3).2.1, y ∈ pc.1.set :=
  View.cover_of_tiledL (sound_kernel8_A c i arg1 harg1 arg2 harg2 arg3 harg3 arg4 harg4 arg5 harg5 arg6 harg6 arg7 harg7 hc x0 x1 x2 x3).2.1 S1x64.size (by sl_kernel_rfl) y
theorem cover8_6_A (hc : k8_cond i) (x0 : Vec F S10000x64 .f32) (x1 : Vec F S10000x64 .f32) (x2 : Vec F S10000x1 .f32) (x3 : Vec F S1x64 .f32)
    (y : S1x64.Idx) : ∃ pc ∈ (sound_kernel8_A c i arg1 harg1 arg2 harg2 arg3 harg3 arg4 harg4 arg5 harg5 arg6 harg6 arg7 harg7 hc x0 x1 x2 x3).2.2.1, y ∈ pc.1.set :=
  View.cover_of_tiledL (sound_kernel8_A c i arg1 harg1 arg2 harg2 arg3 harg3 arg4 harg4 arg5 harg5 arg6 harg6 arg7 harg7 hc x0 x1 x2 x3).2.2.1 S1x64.size (by sl_kernel_rfl) y

/-- First point: what the three outputs hold, their pieces read back. -/
def out8_A (hc : k8_cond i) (x0 : Vec F S10000x64 .f32) (x1 : Vec F S10000x64 .f32) (x2 : Vec F S10000x1 .f32) (x3 : Vec F S1x64 .f32) :
    Vec F S10000x64 .f32 × Vec F S1x64 .f32 × Vec F S1x64 .f32 :=
  (out8_4_view.read (Elt F) (out8_4_view.writes (Elt F) out8_4_view.junk (sound_kernel8_A c i arg1 harg1 arg2 harg2 arg3 harg3 arg4 harg4 arg5 harg5 arg6 harg6 arg7 harg7 hc x0 x1 x2 x3).1),
   out8_5_view.read (Elt F) (out8_5_view.writes (Elt F) out8_5_view.junk (sound_kernel8_A c i arg1 harg1 arg2 harg2 arg3 harg3 arg4 harg4 arg5 harg5 arg6 harg6 arg7 harg7 hc x0 x1 x2 x3).2.1),
   out8_6_view.read (Elt F) (out8_6_view.writes (Elt F) out8_6_view.junk (sound_kernel8_A c i arg1 harg1 arg2 harg2 arg3 harg3 arg4 harg4 arg5 harg5 arg6 harg6 arg7 harg7 hc x0 x1 x2 x3).2.2.1))

/-- Later points: each output's pieces tile its block. -/
theorem cover8_4_B (hc : ¬k8_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S10000x64.Idx) : ∃ pc ∈ (sound_kernel8_B c i arg1 harg1 arg2 harg2 arg3 harg3 arg4 harg4 arg5 harg5 arg6 harg6 arg7 harg7 hc x0 x1 x2 x3 xo5 xo6).1, y ∈ pc.1.set :=
  View.cover_of_tiledL (sound_kernel8_B c i arg1 harg1 arg2 harg2 arg3 harg3 arg4 harg4 arg5 harg5 arg6 harg6 arg7 harg7 hc x0 x1 x2 x3 xo5 xo6).1 S10000x64.size (by sl_kernel_rfl) y
theorem cover8_5_B (hc : ¬k8_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel8_B c i arg1 harg1 arg2 harg2 arg3 harg3 arg4 harg4 arg5 harg5 arg6 harg6 arg7 harg7 hc x0 x1 x2 x3 xo5 xo6).2.1, y ∈ pc.1.set :=
  View.cover_of_tiledL (sound_kernel8_B c i arg1 harg1 arg2 harg2 arg3 harg3 arg4 harg4 arg5 harg5 arg6 harg6 arg7 harg7 hc x0 x1 x2 x3 xo5 xo6).2.1 S1x64.size (by sl_kernel_rfl) y
theorem cover8_6_B (hc : ¬k8_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel8_B c i arg1 harg1 arg2 harg2 arg3 harg3 arg4 harg4 arg5 harg5 arg6 harg6 arg7 harg7 hc x0 x1 x2 x3 xo5 xo6).2.2.1, y ∈ pc.1.set :=
  View.cover_of_tiledL (sound_kernel8_B c i arg1 harg1 arg2 harg2 arg3 harg3 arg4 harg4 arg5 harg5 arg6 harg6 arg7 harg7 hc x0 x1 x2 x3 xo5 xo6).2.2.1 S1x64.size (by sl_kernel_rfl) y

/-- Later points: what the three outputs hold. -/
def out8_B (hc : ¬k8_cond i) (x0 : Vec F S10000x64 .f32) (x1 : Vec F S10000x64 .f32) (x2 : Vec F S10000x1 .f32) (x3 : Vec F S1x64 .f32)
    (xo5 : Vec F S1x64 .f32) (xo6 : Vec F S1x64 .f32) :
    Vec F S10000x64 .f32 × Vec F S1x64 .f32 × Vec F S1x64 .f32 :=
  (out8_4_view.read (Elt F) (out8_4_view.writes (Elt F) out8_4_view.junk (sound_kernel8_B c i arg1 harg1 arg2 harg2 arg3 harg3 arg4 harg4 arg5 harg5 arg6 harg6 arg7 harg7 hc x0 x1 x2 x3 xo5 xo6).1),
   out8_5_view.read (Elt F) (out8_5_view.writes (Elt F) out8_5_view.junk (sound_kernel8_B c i arg1 harg1 arg2 harg2 arg3 harg3 arg4 harg4 arg5 harg5 arg6 harg6 arg7 harg7 hc x0 x1 x2 x3 xo5 xo6).2.1),
   out8_6_view.read (Elt F) (out8_6_view.writes (Elt F) out8_6_view.junk (sound_kernel8_B c i arg1 harg1 arg2 harg2 arg3 harg3 arg4 harg4 arg5 harg5 arg6 harg6 arg7 harg7 hc x0 x1 x2 x3 xo5 xo6).2.2.1))

end Kernel

/-! ## What the outputs hold after each point -/

section Data

variable (V : (c : Dev nD) → (b : Ref sig .tc) → Buf (Elt F) ((c : Thread nD τ).loc b))

/-- The first point's outputs, at the point's staging memrefs and input blocks. -/
def out8_A_at (c : Dev nD) (t : Fin cfg8.N) (h0 : t.val = 0) : Vec F S10000x64 .f32 × Vec F S1x64 .f32 × Vec F S1x64 .f32 :=
  out8_A c (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) ((k8_hcond t).mpr h0) (iblk8 V c 0 t) (iblk8 V c 1 t) (iblk8 V c 2 t) (iblk8 V c 3 t)

/-- A later point's outputs, over the accumulators' running contents. -/
def out8_B_at (c : Dev nD) (t : Fin cfg8.N) (h0 : ¬t.val = 0) (xo5 : Vec F S1x64 .f32) (xo6 : Vec F S1x64 .f32) :
    Vec F S10000x64 .f32 × Vec F S1x64 .f32 × Vec F S1x64 .f32 :=
  out8_B c (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) (fun h => h0 ((k8_hcond t).mp h)) (iblk8 V c 0 t) (iblk8 V c 1 t) (iblk8 V c 2 t) (iblk8 V c 3 t) xo5 xo6

/-- THE ACCUMULATION, by recursion on the point: the tile's hpre block, and the two running column sums — zeroed and
    added to at the first point, added to at each later one from what the point before left (their buffers are not
    written back between). -/
def outsAt8 (c : Dev nD) : (n : ℕ) → n < cfg8.N → Vec F S10000x64 .f32 × Vec F S1x64 .f32 × Vec F S1x64 .f32
  | 0, hn => out8_A_at V c ⟨0, hn⟩ rfl
  | n + 1, hn => out8_B_at V c ⟨n + 1, hn⟩ (Nat.succ_ne_zero n) (outsAt8 c n (Nat.lt_of_succ_lt hn)).2.1 (outsAt8 c n (Nat.lt_of_succ_lt hn)).2.2

theorem outsAt8_A (c : Dev nD) (t : Fin cfg8.N) (h0 : t.val = 0) : outsAt8 V c t.val t.isLt = out8_A_at V c t h0 := by
  obtain ⟨n, hn⟩ := t
  cases n with
  | zero => rfl
  | succ n => exact absurd h0 (Nat.succ_ne_zero n)

theorem outsAt8_B (c : Dev nD) (t : Fin cfg8.N) (h0 : ¬t.val = 0) :
    outsAt8 V c t.val t.isLt = out8_B_at V c t h0
      (outsAt8 V c (t.val - 1) (Nat.lt_of_le_of_lt (Nat.sub_le _ _) t.isLt)).2.1
      (outsAt8 V c (t.val - 1) (Nat.lt_of_le_of_lt (Nat.sub_le _ _) t.isLt)).2.2 := by
  obtain ⟨n, hn⟩ := t
  cases n with
  | zero => exact absurd rfl h0
  | succ n => rfl

/-! ## The pipeline's proof data -/

/-- The arrays as the region finds them; after the body at point t each input's buffer at its block, window 4's at the
    tile's hpre block, windows 5 and 6's at the running sums; the class invariant; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => (outsAt8 V c t.val t.isLt).1
    | ⟨5, _⟩ => (outsAt8 V c t.val t.isLt).2.1
    | ⟨6, _⟩ => (outsAt8 V c t.val t.isLt).2.2
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = (outsAt8 V c t.val t.isLt).1 := by dsimp only [dat8]
theorem after8_5 (c : Dev nD) (t : Fin cfg8.N) : (dat8 V c).after 5 t = (outsAt8 V c t.val t.isLt).2.1 := by dsimp only [dat8]
theorem after8_6 (c : Dev nD) (t : Fin cfg8.N) : (dat8 V c).after 6 t = (outsAt8 V c t.val t.isLt).2.2 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- At a later point each accumulator's buffer holds what the body left at the point before: it is written back at the
    last point only, so not between. -/
theorem before8_5_B (c : Dev nD) (t : Fin cfg8.N) (h0 : ¬t.val = 0) (d) :
    (dat8 V c).before 5 t d = (outsAt8 V c (t.val - 1) (Nat.lt_of_le_of_lt (Nat.sub_le _ _) t.isLt)).2.1 := by
  have hN : t.val < 10 := lt_of_lt_of_eq t.isLt (show cfg8.N = 10 from N_8)
  rw [Dat.before_out_kept _ 5 rfl t h0 (Bool.eq_false_iff.mpr fun h => by have := (flush8_5 _).mp h; dsimp only at this; omega)
    (fun _ => rfl) (fun _ _ => rfl)]
  dsimp only [dat8]
theorem before8_6_B (c : Dev nD) (t : Fin cfg8.N) (h0 : ¬t.val = 0) (d) :
    (dat8 V c).before 6 t d = (outsAt8 V c (t.val - 1) (Nat.lt_of_le_of_lt (Nat.sub_le _ _) t.isLt)).2.2 := by
  have hN : t.val < 10 := lt_of_lt_of_eq t.isLt (show cfg8.N = 10 from N_8)
  rw [Dat.before_out_kept _ 6 rfl t h0 (Bool.eq_false_iff.mpr fun h => by have := (flush8_6 _).mp h; dsimp only at this; omega)
    (fun _ => rfl) (fun _ _ => rfl)]
  dsimp only [dat8]

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

set_option maxHeartbeats 1600000 in
/-- The body at any point: the inputs' memrefs hold their blocks; at the first point the branch is taken and the outputs
    hold anything; at a later point it is not and the accumulators hold what the point before left; the case's run
    applies, and its pieces, covering each block, read back as the stated contents. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  by_cases h0 : t.val = 0
  · rw [outsAt8_A V c t h0]
    unfold out8_A_at out8_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel8_A c (grid8.coords t) _ _ _ _ _ _ _ _ _ _ _ _ _ _ ((k8_hcond t).mpr h0) (iblk8 V c 0 t) (iblk8 V c 1 t) (iblk8 V c 2 t) (iblk8 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover8_4_A c _ _ _ _ _ _ _ _ _ _ _ _ _ _ _ _ _ _ _ _)
    isplitl [H5]
    · unfold owns; iexists _; isplitr
      swap; · iexact H5
      ipureintro; exact View.read_writes_of_cover _ _ _ _ _ (cover8_5_A c _ _ _ _ _ _ _ _ _ _ _ _ _ _ _ _ _ _ _ _)
    unfold owns; iexists _; isplitr
    swap; · iexact H6
    ipureintro; exact View.read_writes_of_cover _ _ _ _ _ (cover8_6_A c _ _ _ _ _ _ _ _ _ _ _ _ _ _ _ _ _ _ _ _)
  · rw [outsAt8_B V c t h0]
    simp only [before8_5_B V c t h0, before8_6_B V c t h0]
    unfold out8_B_at out8_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel8_B c (grid8.coords t) _ _ _ _ _ _ _ _ _ _ _ _ _ _ (fun h => h0 ((k8_hcond t).mp h)) (iblk8 V c 0 t) (iblk8 V c 1 t) (iblk8 V c 2 t) (iblk8 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover8_4_B c _ _ _ _ _ _ _ _ _ _ _ _ _ _ _ _ _ _ _ _ _ _)
    isplitl [H5]
    · unfold owns; iexists _; isplitr
      swap; · iexact H5
      ipureintro; exact View.read_writes_of_cover _ _ _ _ _ (cover8_5_B c _ _ _ _ _ _ _ _ _ _ _ _ _ _ _ _ _ _ _ _ _ _)
    unfold owns; iexists _; isplitr
    swap; · iexact H6
    ipureintro; exact View.read_writes_of_cover _ _ _ _ _ (cover8_6_B c _ _ _ _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- The invariant is the class's at every position: in and out unchanged. -/
theorem hin8 (c : Dev nD) : Pipeline.ΦA spec8 c ⊢ (dat8 V c).Φ 0 := Entails.refl _
theorem hout8 (c : Dev nD) : (dat8 V c).Φ (Fin.last cfg8.N) ⊢ Pipeline.ΦA spec8 c := Entails.refl _

end Data

end Cert.KernelIdeal.Reg

end
-- ==== Proof.KI.Fr9.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 10000 × 64: the structural look recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The normalize-and-clamp region: a [10000,64] block of rows and four [1,64] rows in, one [10000,64] block out -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point (its block index is constant over the grid, so where it is not fetched the block already there is the point's), for any proof
    data whose array is `V`'s and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point (its block index is constant over the grid, so where it is not fetched the block already there is the point's), for any proof
    data whose array is `V`'s and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point (its block index is constant over the grid, so where it is not fetched the block already there is the point's), for any proof
    data whose array is `V`'s and whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point (its block index is constant over the grid, so where it is not fetched the block already there is the point's), for any proof
    data whose array is `V`'s and whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the store is of a whole buffer -/

abbrev r9_0 : Rect S10000x64 := Rect.unit (s := S10000x64) ![0, 0] S10000x64.size inb_S10000x64_S10000x64_0_0
abbrev r9_1 : Rect S1x64 := Rect.unit (s := S1x64) ![0, 0] S1x64.size inb_S1x64_S1x64_0_0

/-! ## What the body leaves in the output window's buffer -/

/-- Window 5's staging buffer after the body, from the input windows' blocks `xa … xe` (windows 0 … 4): its one
    whole-buffer store; the payload takes the rows block, then the rows of windows 3, 1, 2, 4, in the order the body loads them. -/
def out9_5 (xa : Vec F S10000x64 .f32) (xb xc xd xe : Vec F S1x64 .f32) : Vec F S10000x64 .f32 :=
  View.canon [⟨r9_0, k9_pay1 (View.ld xa r9_0) (View.ld xd r9_1) (View.ld xb r9_1) (View.ld xc r9_1) (View.ld xe r9_1)⟩]

/-- The store's rectangle is the whole buffer, so it covers it. -/
theorem cover9_5 (pa : Vec F S10000x64 .f32) (y : S10000x64.Idx) :
    ∃ pc ∈ ([⟨r9_0, pa⟩] : List (View.Piece (Elt F) S10000x64 .f32)), y ∈ pc.1.set :=
  View.cover_of_tiled [⟨r9_0, pa⟩] S10000x64.size (by rfl) y

/-! ## The body's triple -/

set_option maxHeartbeats 1000000 in
/-- The body on whole staging memrefs, the inputs' at read contents `xa … xe` and the output's at anything, runs to the
    continuation holding the inputs' as they were and the output's at `out9_5` of the inputs'. -/
theorem sound_kernel9 (c : Dev nD) (E : Set ℕ) (i : grid9.Coords)
    (arga : Memref sig .tc .vmem S10000x64 .f32) (harga : arga.IsWhole) (argb : Memref sig .tc .vmem S1x64 .f32) (hargb : argb.IsWhole)
    (argc : Memref sig .tc .vmem S1x64 .f32) (hargc : argc.IsWhole) (argd : Memref sig .tc .vmem S1x64 .f32) (hargd : argd.IsWhole)
    (arge : Memref sig .tc .vmem S1x64 .f32) (harge : arge.IsWhole) (argf : Memref sig .tc .vmem S10000x64 .f32) (hargf : argf.IsWhole)
    (xa : Vec F S10000x64 .f32) (xb xc xd xe : Vec F S1x64 .f32) (K : PUnit → sProp 𝕄) :
    iprop(owns (c : Thread nD τ) arga fullShare xa ∗ owns (c : Thread nD τ) argb fullShare xb ∗ owns (c : Thread nD τ) argc fullShare xc
        ∗ owns (c : Thread nD τ) argd fullShare xd ∗ owns (c : Thread nD τ) arge fullShare xe ∗ (∃ d, owns (c : Thread nD τ) argf fullShare d)
        ∗ (iprop(owns (c : Thread nD τ) arga fullShare xa ∗ owns (c : Thread nD τ) argb fullShare xb ∗ owns (c : Thread nD τ) argc fullShare xc
            ∗ owns (c : Thread nD τ) argd fullShare xd ∗ owns (c : Thread nD τ) arge fullShare xe
            ∗ owns (c : Thread nD τ) argf fullShare (out9_5 xa xb xc xd xe)) -∗ K ⟨⟩))
      ⊢ wp frame (wpE (defs₀ (F := F)) Variants.none c none) E (cc9__bn_relu_kernel i arga harga argb hargb argc hargc argd hargd arge harge argf hargf) K := by
  simp only [cc9__bn_relu_kernel_eq_skeleton]; unfold cc9__bn_relu_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hf⟩, Hk⟩
  subst hfa; subst hfb; subst hfc; subst hfd; subst hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover9_5 _)

/-! ## The pipeline's proof data -/

/-- The proof data of the region's pipeline on core `c`: the arrays as the region finds them (`V`); after the body at
    point `t` each input's buffer at its block and the output's at `out9_5` of the input blocks; the invariant the
    untouched rest; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and
    the core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%da, Ha⟩, ⟨%db, Hb⟩, ⟨%dc, Hc⟩, ⟨%dd, Hd⟩, ⟨%de, He⟩, ⟨%df, Hf⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's ends: the untouched rest, as it is outside the region -/

theorem hin9 (c : Dev nD) : Pipeline.ΦA spec9 c ⊢ (dat9 V c).Φ 0 := .rfl

theorem hout9 (c : Dev nD) : (dat9 V c).Φ (Fin.last cfg9.N) ⊢ Pipeline.ΦA spec9 c := .rfl

end Cert.KernelIdeal.Reg

end
-- ==== Proof.KI.Fr10.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of ten thousand rows recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # A product of a row tile with a weight matrix, plus a bias row -/

/-! ## The windows' blocks -/

/-- Window `w`'s block at point `t`, read off its array as the region finds it. Window 0 is the row tile of
    ten thousand rows at `t`; windows 1 and 2 are the whole weight matrix and the whole bias row at every point;
    window 3 is the output's row tile at `t`. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The row tile's buffer holds its block at every point: the tile is fetched at each one, and the body leaves it
    in place. Stated for any proof data over the entry arrays whose body keeps the block. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The weight matrix's buffer holds the whole matrix at every point, though it is fetched at the first point only:
    its block index never moves, and the body leaves the buffer as it found it. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The bias row's buffer likewise holds the whole row at every point. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each buffer whole -/

abbrev r10_0 : Rect S10000x64 := Rect.unit (s := S10000x64) ![0, 0] S10000x64.size inb_S10000x64_S10000x64_0_0
abbrev r10_1 : Rect S64x64 := Rect.unit (s := S64x64) ![0, 0] S64x64.size inb_S64x64_S64x64_0_0
abbrev r10_2 : Rect S1x64 := Rect.unit (s := S1x64) ![0, 0] S1x64.size inb_S1x64_S1x64_0_0
abbrev r10_3 : Rect S10000x64 := Rect.unit (s := S10000x64) ![0, 0] S10000x64.size inb_S10000x64_S10000x64_0_0

/-! ## What the body leaves in the output window's buffer -/

/-- The output tile after the body, from the three input blocks: one store of the whole tile, whose payload is the
    product of the rounded row tile with the rounded weight matrix accumulated from zero, plus the bias row
    repeated down the rows. -/
def out10_3 (x0 : Vec F S10000x64 .f32) (x1 : Vec F S64x64 .f32) (x2 : Vec F S1x64 .f32) : Vec F S10000x64 .f32 :=
  View.canon [⟨r10_3, k10_pay1 (View.ld x0 r10_0) (View.ld x1 r10_1) (View.ld x2 r10_2)⟩]

/-- The one store is the whole tile, so it covers it. -/
theorem cover10_3 (p0 : Vec F S10000x64 .f32) (y : S10000x64.Idx) :
    ∃ pc ∈ ([⟨r10_3, p0⟩] : List (View.Piece (Elt F) S10000x64 .f32)), y ∈ pc.1.set :=
  View.cover_of_tiled [⟨r10_3, p0⟩] S10000x64.size (by rfl) y

/-! ## The body's triple -/

set_option maxHeartbeats 1000000 in
/-- The body on whole staging buffers, the inputs' reading `x0`, `x1`, `x2` and the output's holding anything,
    runs to the continuation with the inputs' as they were and the output's at `out10_3` of them. -/
theorem sound_kernel10 (c : Dev nD) (E : Set ℕ) (i : grid10.Coords) (wa : Memref sig .tc .vmem S10000x64 .f32) (hwa : wa.IsWhole) (wb : Memref sig .tc .vmem S64x64 .f32) (hwb : wb.IsWhole) (wc : Memref sig .tc .vmem S1x64 .f32) (hwc : wc.IsWhole) (wd : Memref sig .tc .vmem S10000x64 .f32) (hwd : wd.IsWhole)
    (x0 : Vec F S10000x64 .f32) (x1 : Vec F S64x64 .f32) (x2 : Vec F S1x64 .f32) (K : PUnit → sProp 𝕄) :
    iprop(owns (c : Thread nD τ) wa fullShare x0 ∗ owns (c : Thread nD τ) wb fullShare x1 ∗ owns (c : Thread nD τ) wc fullShare x2 ∗ (∃ d, owns (c : Thread nD τ) wd fullShare d)
        ∗ (iprop(owns (c : Thread nD τ) wa fullShare x0 ∗ owns (c : Thread nD τ) wb fullShare x1 ∗ owns (c : Thread nD τ) wc fullShare x2 ∗ owns (c : Thread nD τ) wd fullShare (out10_3 x0 x1 x2)) -∗ K ⟨⟩))
      ⊢ wp frame (wpE (defs₀ (F := F)) Variants.none c none) E (cc10__matmul_bias_kernel i wa hwa wb hwb wc hwc wd hwd) K := by
  simp only [cc10__matmul_bias_kernel_eq_skeleton]; unfold cc10__matmul_bias_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover10_3 _)

/-! ## The pipeline's proof data -/

/-- The proof data on core `c`: the arrays as the region finds them; after the body at point `t` each input's
    buffer at its block and the output's at `out10_3` of the three input blocks; the invariant untouched from
    point to point; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

/-- Each input's current buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' buffers hold their blocks, so the body's triple applies; the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%da, Ha⟩, ⟨%db, Hb⟩, ⟨%dc, Hc⟩, ⟨%dd, Hd⟩⟩
  iapply (sound_kernel10 c Set.univ (grid10.coords t) _ _ _ _ _ _ _ _ (iblk10 V c 0 t) (iblk10 V c 1 t) (iblk10 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's two ends -/

/-- The invariant at the first boundary is the entry's, -/
theorem hin10 (c : Dev nD) : Pipeline.ΦA spec10 c ⊢ (dat10 V c).Φ 0 := by
  rw [show (dat10 V c).Φ 0 = Pipeline.ΦA spec10 c from rfl]

/-- and at the last boundary it is the entry's again. -/
theorem hout10 (c : Dev nD) : (dat10 V c).Φ (Fin.last cfg10.N) ⊢ Pipeline.ΦA spec10 c := by
  rw [show (dat10 V c).Φ (Fin.last cfg10.N) = Pipeline.ΦA spec10 c from rfl]

end Cert.KernelIdeal.Reg

end
-- ==== Proof.KI.Fr11.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The combine kernel: hpre = agg + xw * selfn + convb on a row tile, and the column sums of hpre and of its
    square accumulated over the tiles into two one-row outputs. -/

section Blocks

variable (V : (c : Dev nD) → (b : Ref sig .tc) → Buf (Elt F) ((c : Thread nD τ).loc b))

/-- Window w's block at point t, read off its array at the entry contents. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's staging buffer holds its block at every point, fetched there or not: unfetched, the block
    index has not moved. Window 0: the row tile of agg. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Window 1: the row tile of xw. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Window 2: the row tile of the one-column selfn. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Window 3: the one row convb, the same block at every point. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

end Blocks

/-! ## The body's one branch: the two accumulators are zeroed at the first point only -/

/-- The branch condition as a function of the grid coordinate. -/
abbrev k11_cond (i : grid11.Coords) : Prop :=
  (Scalar.cmpi .ne (Scalar.extui (Scalar.cmpi .eq (BitVec.ofNat 32 (i 0).val) 0#32)) 0#32) = 1#1

/-- It holds at the first point only. -/
theorem k11_hcond : ∀ t : Fin cfg11.N, k11_cond (grid11.coords t) ↔ t.val = 0 :=
  (by decide +kernel : ∀ t : Fin grid11.N, k11_cond (grid11.coords t) ↔ t.val = 0)

/-! ## The body on any whole staging memrefs, case by case -/

section Kernel

variable (c : Dev nD) (i : grid11.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

set_option maxHeartbeats 2000000 in
/-- FIRST POINT (the branch taken). With the four inputs at x0 x1 x2 x3 and the three outputs at anything, the body
    runs to a continuation that holds the inputs as they were and each output with a list of pieces written, last
    first: the lists are what the run finds. -/
noncomputable def sound_kernel11_A (hc : k11_cond i)
    (x0 : Vec F S10000x64 .f32) (x1 : Vec F S10000x64 .f32) (x2 : Vec F S10000x1 .f32) (x3 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc11__combine_kernel i arg1 harg1 arg2 harg2 arg3 harg3 arg4 harg4 arg5 harg5 arg6 harg6 arg7 harg7) K } := by
  refine ⟨?_, ?_, ?_, fun E K => ?run⟩
  case run =>
    simp only [cc11__combine_kernel_eq_skeleton]; unfold cc11__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1
    obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

set_option maxHeartbeats 2000000 in
/-- LATER POINTS (the branch not taken). The two accumulators come in at their running contents xo5 xo6; the body adds
    the tile's column sums to them. -/
noncomputable def sound_kernel11_B (hc : ¬k11_cond i)
    (x0 : Vec F S10000x64 .f32) (x1 : Vec F S10000x64 .f32) (x2 : Vec F S10000x1 .f32) (x3 : Vec F S1x64 .f32)
    (xo5 : Vec F S1x64 .f32) (xo6 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc11__combine_kernel i arg1 harg1 arg2 harg2 arg3 harg3 arg4 harg4 arg5 harg5 arg6 harg6 arg7 harg7) K } := by
  refine ⟨?_, ?_, ?_, fun E K => ?run⟩
  case run =>
    simp only [cc11__combine_kernel_eq_skeleton]; unfold cc11__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1
    obtain rfl := harg3.eq_unread hf2; obtain rfl := harg4.eq_unread hf3
    obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

/-! ## What each case leaves in the three outputs' staging buffers -/

/-- One staging buffer of each output window, through which its contents are stated: the pieces cover the block, so
    the choice of buffer and of what it held does not matter. -/
abbrev out11_4_view : View sig .tc .vmem S10000x64 .f32 := (Memref.whole cc11_stg4_0 : Memref sig .tc .vmem S10000x64 .f32).view
abbrev out11_5_view : View sig .tc .vmem S1x64 .f32 := (Memref.whole cc11_stg5_0 : Memref sig .tc .vmem S1x64 .f32).view
abbrev out11_6_view : View sig .tc .vmem S1x64 .f32 := (Memref.whole cc11_stg6_0 : Memref sig .tc .vmem S1x64 .f32).view

/-- First point: each output's pieces tile its block. -/
theorem cover11_4_A (hc : k11_cond i) (x0 : Vec F S10000x64 .f32) (x1 : Vec F S10000x64 .f32) (x2 : Vec F S10000x1 .f32) (x3 : Vec F S1x64 .f32)
    (y : S10000x64.Idx) : ∃ pc ∈ (sound_kernel11_A c i arg1 harg1 arg2 harg2 arg3 harg3 arg4 harg4 arg5 harg5 arg6 harg6 arg7 harg7 hc x0 x1 x2 x3).1, y ∈ pc.1.set :=
  View.cover_of_tiledL (sound_kernel11_A c i arg1 harg1 arg2 harg2 arg3 harg3 arg4 harg4 arg5 harg5 arg6 harg6 arg7 harg7 hc x0 x1 x2 x3).1 S10000x64.size (by sl_kernel_rfl) y
theorem cover11_5_A (hc : k11_cond i) (x0 : Vec F S10000x64 .f32) (x1 : Vec F S10000x64 .f32) (x2 : Vec F S10000x1 .f32) (x3 : Vec F S1x64 .f32)
    (y : S1x64.Idx) : ∃ pc ∈ (sound_kernel11_A c i arg1 harg1 arg2 harg2 arg3 harg3 arg4 harg4 arg5 harg5 arg6 harg6 arg7 harg7 hc x0 x1 x2 x3).2.1, y ∈ pc.1.set :=
  View.cover_of_tiledL (sound_kernel11_A c i arg1 harg1 arg2 harg2 arg3 harg3 arg4 harg4 arg5 harg5 arg6 harg6 arg7 harg7 hc x0 x1 x2 x3).2.1 S1x64.size (by sl_kernel_rfl) y
theorem cover11_6_A (hc : k11_cond i) (x0 : Vec F S10000x64 .f32) (x1 : Vec F S10000x64 .f32) (x2 : Vec F S10000x1 .f32) (x3 : Vec F S1x64 .f32)
    (y : S1x64.Idx) : ∃ pc ∈ (sound_kernel11_A c i arg1 harg1 arg2 harg2 arg3 harg3 arg4 harg4 arg5 harg5 arg6 harg6 arg7 harg7 hc x0 x1 x2 x3).2.2.1, y ∈ pc.1.set :=
  View.cover_of_tiledL (sound_kernel11_A c i arg1 harg1 arg2 harg2 arg3 harg3 arg4 harg4 arg5 harg5 arg6 harg6 arg7 harg7 hc x0 x1 x2 x3).2.2.1 S1x64.size (by sl_kernel_rfl) y

/-- First point: what the three outputs hold, their pieces read back. -/
def out11_A (hc : k11_cond i) (x0 : Vec F S10000x64 .f32) (x1 : Vec F S10000x64 .f32) (x2 : Vec F S10000x1 .f32) (x3 : Vec F S1x64 .f32) :
    Vec F S10000x64 .f32 × Vec F S1x64 .f32 × Vec F S1x64 .f32 :=
  (out11_4_view.read (Elt F) (out11_4_view.writes (Elt F) out11_4_view.junk (sound_kernel11_A c i arg1 harg1 arg2 harg2 arg3 harg3 arg4 harg4 arg5 harg5 arg6 harg6 arg7 harg7 hc x0 x1 x2 x3).1),
   out11_5_view.read (Elt F) (out11_5_view.writes (Elt F) out11_5_view.junk (sound_kernel11_A c i arg1 harg1 arg2 harg2 arg3 harg3 arg4 harg4 arg5 harg5 arg6 harg6 arg7 harg7 hc x0 x1 x2 x3).2.1),
   out11_6_view.read (Elt F) (out11_6_view.writes (Elt F) out11_6_view.junk (sound_kernel11_A c i arg1 harg1 arg2 harg2 arg3 harg3 arg4 harg4 arg5 harg5 arg6 harg6 arg7 harg7 hc x0 x1 x2 x3).2.2.1))

/-- Later points: each output's pieces tile its block. -/
theorem cover11_4_B (hc : ¬k11_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S10000x64.Idx) : ∃ pc ∈ (sound_kernel11_B c i arg1 harg1 arg2 harg2 arg3 harg3 arg4 harg4 arg5 harg5 arg6 harg6 arg7 harg7 hc x0 x1 x2 x3 xo5 xo6).1, y ∈ pc.1.set :=
  View.cover_of_tiledL (sound_kernel11_B c i arg1 harg1 arg2 harg2 arg3 harg3 arg4 harg4 arg5 harg5 arg6 harg6 arg7 harg7 hc x0 x1 x2 x3 xo5 xo6).1 S10000x64.size (by sl_kernel_rfl) y
theorem cover11_5_B (hc : ¬k11_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel11_B c i arg1 harg1 arg2 harg2 arg3 harg3 arg4 harg4 arg5 harg5 arg6 harg6 arg7 harg7 hc x0 x1 x2 x3 xo5 xo6).2.1, y ∈ pc.1.set :=
  View.cover_of_tiledL (sound_kernel11_B c i arg1 harg1 arg2 harg2 arg3 harg3 arg4 harg4 arg5 harg5 arg6 harg6 arg7 harg7 hc x0 x1 x2 x3 xo5 xo6).2.1 S1x64.size (by sl_kernel_rfl) y
theorem cover11_6_B (hc : ¬k11_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel11_B c i arg1 harg1 arg2 harg2 arg3 harg3 arg4 harg4 arg5 harg5 arg6 harg6 arg7 harg7 hc x0 x1 x2 x3 xo5 xo6).2.2.1, y ∈ pc.1.set :=
  View.cover_of_tiledL (sound_kernel11_B c i arg1 harg1 arg2 harg2 arg3 harg3 arg4 harg4 arg5 harg5 arg6 harg6 arg7 harg7 hc x0 x1 x2 x3 xo5 xo6).2.2.1 S1x64.size (by sl_kernel_rfl) y

/-- Later points: what the three outputs hold. -/
def out11_B (hc : ¬k11_cond i) (x0 : Vec F S10000x64 .f32) (x1 : Vec F S10000x64 .f32) (x2 : Vec F S10000x1 .f32) (x3 : Vec F S1x64 .f32)
    (xo5 : Vec F S1x64 .f32) (xo6 : Vec F S1x64 .f32) :
    Vec F S10000x64 .f32 × Vec F S1x64 .f32 × Vec F S1x64 .f32 :=
  (out11_4_view.read (Elt F) (out11_4_view.writes (Elt F) out11_4_view.junk (sound_kernel11_B c i arg1 harg1 arg2 harg2 arg3 harg3 arg4 harg4 arg5 harg5 arg6 harg6 arg7 harg7 hc x0 x1 x2 x3 xo5 xo6).1),
   out11_5_view.read (Elt F) (out11_5_view.writes (Elt F) out11_5_view.junk (sound_kernel11_B c i arg1 harg1 arg2 harg2 arg3 harg3 arg4 harg4 arg5 harg5 arg6 harg6 arg7 harg7 hc x0 x1 x2 x3 xo5 xo6).2.1),
   out11_6_view.read (Elt F) (out11_6_view.writes (Elt F) out11_6_view.junk (sound_kernel11_B c i arg1 harg1 arg2 harg2 arg3 harg3 arg4 harg4 arg5 harg5 arg6 harg6 arg7 harg7 hc x0 x1 x2 x3 xo5 xo6).2.2.1))

end Kernel

/-! ## What the outputs hold after each point -/

section Data

variable (V : (c : Dev nD) → (b : Ref sig .tc) → Buf (Elt F) ((c : Thread nD τ).loc b))

/-- The first point's outputs, at the point's staging memrefs and input blocks. -/
def out11_A_at (c : Dev nD) (t : Fin cfg11.N) (h0 : t.val = 0) : Vec F S10000x64 .f32 × Vec F S1x64 .f32 × Vec F S1x64 .f32 :=
  out11_A c (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) ((k11_hcond t).mpr h0) (iblk11 V c 0 t) (iblk11 V c 1 t) (iblk11 V c 2 t) (iblk11 V c 3 t)

/-- A later point's outputs, over the accumulators' running contents. -/
def out11_B_at (c : Dev nD) (t : Fin cfg11.N) (h0 : ¬t.val = 0) (xo5 : Vec F S1x64 .f32) (xo6 : Vec F S1x64 .f32) :
    Vec F S10000x64 .f32 × Vec F S1x64 .f32 × Vec F S1x64 .f32 :=
  out11_B c (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) (fun h => h0 ((k11_hcond t).mp h)) (iblk11 V c 0 t) (iblk11 V c 1 t) (iblk11 V c 2 t) (iblk11 V c 3 t) xo5 xo6

/-- THE ACCUMULATION, by recursion on the point: the tile's hpre block, and the two running column sums — zeroed and
    added to at the first point, added to at each later one from what the point before left (their buffers are not
    written back between). -/
def outsAt11 (c : Dev nD) : (n : ℕ) → n < cfg11.N → Vec F S10000x64 .f32 × Vec F S1x64 .f32 × Vec F S1x64 .f32
  | 0, hn => out11_A_at V c ⟨0, hn⟩ rfl
  | n + 1, hn => out11_B_at V c ⟨n + 1, hn⟩ (Nat.succ_ne_zero n) (outsAt11 c n (Nat.lt_of_succ_lt hn)).2.1 (outsAt11 c n (Nat.lt_of_succ_lt hn)).2.2

theorem outsAt11_A (c : Dev nD) (t : Fin cfg11.N) (h0 : t.val = 0) : outsAt11 V c t.val t.isLt = out11_A_at V c t h0 := by
  obtain ⟨n, hn⟩ := t
  cases n with
  | zero => rfl
  | succ n => exact absurd h0 (Nat.succ_ne_zero n)

theorem outsAt11_B (c : Dev nD) (t : Fin cfg11.N) (h0 : ¬t.val = 0) :
    outsAt11 V c t.val t.isLt = out11_B_at V c t h0
      (outsAt11 V c (t.val - 1) (Nat.lt_of_le_of_lt (Nat.sub_le _ _) t.isLt)).2.1
      (outsAt11 V c (t.val - 1) (Nat.lt_of_le_of_lt (Nat.sub_le _ _) t.isLt)).2.2 := by
  obtain ⟨n, hn⟩ := t
  cases n with
  | zero => exact absurd rfl h0
  | succ n => rfl

/-! ## The pipeline's proof data -/

/-- The arrays as the region finds them; after the body at point t each input's buffer at its block, window 4's at the
    tile's hpre block, windows 5 and 6's at the running sums; the class invariant; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => (outsAt11 V c t.val t.isLt).1
    | ⟨5, _⟩ => (outsAt11 V c t.val t.isLt).2.1
    | ⟨6, _⟩ => (outsAt11 V c t.val t.isLt).2.2
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = (outsAt11 V c t.val t.isLt).1 := by dsimp only [dat11]
theorem after11_5 (c : Dev nD) (t : Fin cfg11.N) : (dat11 V c).after 5 t = (outsAt11 V c t.val t.isLt).2.1 := by dsimp only [dat11]
theorem after11_6 (c : Dev nD) (t : Fin cfg11.N) : (dat11 V c).after 6 t = (outsAt11 V c t.val t.isLt).2.2 := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- At a later point each accumulator's buffer holds what the body left at the point before: it is written back at the
    last point only, so not between. -/
theorem before11_5_B (c : Dev nD) (t : Fin cfg11.N) (h0 : ¬t.val = 0) (d) :
    (dat11 V c).before 5 t d = (outsAt11 V c (t.val - 1) (Nat.lt_of_le_of_lt (Nat.sub_le _ _) t.isLt)).2.1 := by
  have hN : t.val < 10 := lt_of_lt_of_eq t.isLt (show cfg11.N = 10 from N_11)
  rw [Dat.before_out_kept _ 5 rfl t h0 (Bool.eq_false_iff.mpr fun h => by have := (flush11_5 _).mp h; dsimp only at this; omega)
    (fun _ => rfl) (fun _ _ => rfl)]
  dsimp only [dat11]
theorem before11_6_B (c : Dev nD) (t : Fin cfg11.N) (h0 : ¬t.val = 0) (d) :
    (dat11 V c).before 6 t d = (outsAt11 V c (t.val - 1) (Nat.lt_of_le_of_lt (Nat.sub_le _ _) t.isLt)).2.2 := by
  have hN : t.val < 10 := lt_of_lt_of_eq t.isLt (show cfg11.N = 10 from N_11)
  rw [Dat.before_out_kept _ 6 rfl t h0 (Bool.eq_false_iff.mpr fun h => by have := (flush11_6 _).mp h; dsimp only at this; omega)
    (fun _ => rfl) (fun _ _ => rfl)]
  dsimp only [dat11]

/-! ## The body obligation, at a generic point -/

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

set_option maxHeartbeats 1600000 in
/-- The body at any point: the inputs' memrefs hold their blocks; at the first point the branch is taken and the outputs
    hold anything; at a later point it is not and the accumulators hold what the point before left; the case's run
    applies, and its pieces, covering each block, read back as the stated contents. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  by_cases h0 : t.val = 0
  · rw [outsAt11_A V c t h0]
    unfold out11_A_at out11_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel11_A c (grid11.coords t) _ _ _ _ _ _ _ _ _ _ _ _ _ _ ((k11_hcond t).mpr h0) (iblk11 V c 0 t) (iblk11 V c 1 t) (iblk11 V c 2 t) (iblk11 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover11_4_A c _ _ _ _ _ _ _ _ _ _ _ _ _ _ _ _ _ _ _ _)
    isplitl [H5]
    · unfold owns; iexists _; isplitr
      swap; · iexact H5
      ipureintro; exact View.read_writes_of_cover _ _ _ _ _ (cover11_5_A c _ _ _ _ _ _ _ _ _ _ _ _ _ _ _ _ _ _ _ _)
    unfold owns; iexists _; isplitr
    swap; · iexact H6
    ipureintro; exact View.read_writes_of_cover _ _ _ _ _ (cover11_6_A c _ _ _ _ _ _ _ _ _ _ _ _ _ _ _ _ _ _ _ _)
  · rw [outsAt11_B V c t h0]
    simp only [before11_5_B V c t h0, before11_6_B V c t h0]
    unfold out11_B_at out11_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel11_B c (grid11.coords t) _ _ _ _ _ _ _ _ _ _ _ _ _ _ (fun h => h0 ((k11_hcond t).mp h)) (iblk11 V c 0 t) (iblk11 V c 1 t) (iblk11 V c 2 t) (iblk11 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover11_4_B c _ _ _ _ _ _ _ _ _ _ _ _ _ _ _ _ _ _ _ _ _ _)
    isplitl [H5]
    · unfold owns; iexists _; isplitr
      swap; · iexact H5
      ipureintro; exact View.read_writes_of_cover _ _ _ _ _ (cover11_5_B c _ _ _ _ _ _ _ _ _ _ _ _ _ _ _ _ _ _ _ _ _ _)
    unfold owns; iexists _; isplitr
    swap; · iexact H6
    ipureintro; exact View.read_writes_of_cover _ _ _ _ _ (cover11_6_B c _ _ _ _ _ _ _ _ _ _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- The invariant is the class's at every position: in and out unchanged. -/
theorem hin11 (c : Dev nD) : Pipeline.ΦA spec11 c ⊢ (dat11 V c).Φ 0 := Entails.refl _
theorem hout11 (c : Dev nD) : (dat11 V c).Φ (Fin.last cfg11.N) ⊢ Pipeline.ΦA spec11 c := Entails.refl _

end Data

end Cert.KernelIdeal.Reg

end
-- ==== Proof.KI.Fr12.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 10000 × 64: the structural look recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The normalize-and-clamp region: a [10000,64] block of rows and four [1,64] rows in, one [10000,64] block out -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, for any proof
    data whose array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point (its block index is constant over the grid, so where it is not fetched the block already there is the point's), for any proof
    data whose array is `V`'s and whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point (its block index is constant over the grid, so where it is not fetched the block already there is the point's), for any proof
    data whose array is `V`'s and whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point (its block index is constant over the grid, so where it is not fetched the block already there is the point's), for any proof
    data whose array is `V`'s and whose body leaves the block in place. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point (its block index is constant over the grid, so where it is not fetched the block already there is the point's), for any proof
    data whose array is `V`'s and whose body leaves the block in place. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: every load and the store is of a whole buffer -/

abbrev r12_0 : Rect S10000x64 := Rect.unit (s := S10000x64) ![0, 0] S10000x64.size inb_S10000x64_S10000x64_0_0
abbrev r12_1 : Rect S1x64 := Rect.unit (s := S1x64) ![0, 0] S1x64.size inb_S1x64_S1x64_0_0

/-! ## What the body leaves in the output window's buffer -/

/-- Window 5's staging buffer after the body, from the input windows' blocks `xa … xe` (windows 0 … 4): its one
    whole-buffer store; the payload takes the rows block, then the rows of windows 3, 1, 2, 4, in the order the body loads them. -/
def out12_5 (xa : Vec F S10000x64 .f32) (xb xc xd xe : Vec F S1x64 .f32) : Vec F S10000x64 .f32 :=
  View.canon [⟨r12_0, k12_pay1 (View.ld xa r12_0) (View.ld xd r12_1) (View.ld xb r12_1) (View.ld xc r12_1) (View.ld xe r12_1)⟩]

/-- The store's rectangle is the whole buffer, so it covers it. -/
theorem cover12_5 (pa : Vec F S10000x64 .f32) (y : S10000x64.Idx) :
    ∃ pc ∈ ([⟨r12_0, pa⟩] : List (View.Piece (Elt F) S10000x64 .f32)), y ∈ pc.1.set :=
  View.cover_of_tiled [⟨r12_0, pa⟩] S10000x64.size (by rfl) y

/-! ## The body's triple -/

set_option maxHeartbeats 1000000 in
/-- The body on whole staging memrefs, the inputs' at read contents `xa … xe` and the output's at anything, runs to the
    continuation holding the inputs' as they were and the output's at `out12_5` of the inputs'. -/
theorem sound_kernel12 (c : Dev nD) (E : Set ℕ) (i : grid12.Coords)
    (arga : Memref sig .tc .vmem S10000x64 .f32) (harga : arga.IsWhole) (argb : Memref sig .tc .vmem S1x64 .f32) (hargb : argb.IsWhole)
    (argc : Memref sig .tc .vmem S1x64 .f32) (hargc : argc.IsWhole) (argd : Memref sig .tc .vmem S1x64 .f32) (hargd : argd.IsWhole)
    (arge : Memref sig .tc .vmem S1x64 .f32) (harge : arge.IsWhole) (argf : Memref sig .tc .vmem S10000x64 .f32) (hargf : argf.IsWhole)
    (xa : Vec F S10000x64 .f32) (xb xc xd xe : Vec F S1x64 .f32) (K : PUnit → sProp 𝕄) :
    iprop(owns (c : Thread nD τ) arga fullShare xa ∗ owns (c : Thread nD τ) argb fullShare xb ∗ owns (c : Thread nD τ) argc fullShare xc
        ∗ owns (c : Thread nD τ) argd fullShare xd ∗ owns (c : Thread nD τ) arge fullShare xe ∗ (∃ d, owns (c : Thread nD τ) argf fullShare d)
        ∗ (iprop(owns (c : Thread nD τ) arga fullShare xa ∗ owns (c : Thread nD τ) argb fullShare xb ∗ owns (c : Thread nD τ) argc fullShare xc
            ∗ owns (c : Thread nD τ) argd fullShare xd ∗ owns (c : Thread nD τ) arge fullShare xe
            ∗ owns (c : Thread nD τ) argf fullShare (out12_5 xa xb xc xd xe)) -∗ K ⟨⟩))
      ⊢ wp frame (wpE (defs₀ (F := F)) Variants.none c none) E (cc12__bn_relu_kernel i arga harga argb hargb argc hargc argd hargd arge harge argf hargf) K := by
  simp only [cc12__bn_relu_kernel_eq_skeleton]; unfold cc12__bn_relu_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hf⟩, Hk⟩
  subst hfa; subst hfb; subst hfc; subst hfd; subst hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover12_5 _)

/-! ## The pipeline's proof data -/

/-- The proof data of the region's pipeline on core `c`: the arrays as the region finds them (`V`); after the body at
    point `t` each input's buffer at its block and the output's at `out12_5` of the input blocks; the invariant the
    untouched rest; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks, so the body's triple applies; the invariant and
    the core's debts pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%da, Ha⟩, ⟨%db, Hb⟩, ⟨%dc, Hc⟩, ⟨%dd, Hd⟩, ⟨%de, He⟩, ⟨%df, Hf⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## The invariant at the region's ends: the untouched rest, as it is outside the region -/

theorem hin12 (c : Dev nD) : Pipeline.ΦA spec12 c ⊢ (dat12 V c).Φ 0 := .rfl

theorem hout12 (c : Dev nD) : (dat12 V c).Φ (Fin.last cfg12.N) ⊢ Pipeline.ΦA spec12 c := .rfl

end Cert.KernelIdeal.Reg

end
-- ==== Proof.KI.Fr13.lean ====
import proofs.«147038_j12317966205319_1_alg».proof.Proof.Gen.KernelIdeal.Launch
import proofs.«147038_j12317966205319_1_alg».proof.Proof.Gen.KernelIdeal.Skeleton
import proofs.«147038_j12317966205319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block of the entry array at every point, fetched there or
    not, for any proof data whose array is the entry contents and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block of the entry array at every point, fetched there or
    not, for any proof data whose array is the entry contents and whose body leaves the block in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block of the entry array at every point, fetched there or
    not, for any proof data whose array is the entry contents and whose body leaves the block in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's two conditions, in closed form over the grid -/

/-- The first condition: the grid coordinate is 0 (the accumulator is zeroed). -/
abbrev cond13_0 (i : grid13.Coords) : Prop := (Scalar.cmpi .ne (Scalar.extui (Scalar.cmpi .eq (BitVec.ofNat 32 (i 0).val) 0#32)) 0#32) = 1#1
/-- It holds at the first point only. -/
theorem hcond13_0 : ∀ t : Fin cfg13.N, cond13_0 (grid13.coords t) ↔ t.val = 0 :=
  (by decide +kernel : ∀ t : Fin grid13.N, cond13_0 (grid13.coords t) ↔ t.val = 0)

/-- The second condition: the grid coordinate is 9 (the projection is stored). -/
abbrev cond13_1 (i : grid13.Coords) : Prop := k13_cond2 i = 1#1
/-- It holds at the last point only. -/
theorem hcond13_1 : ∀ t : Fin cfg13.N, cond13_1 (grid13.coords t) ↔ t.val = 9 :=
  (by decide +kernel : ∀ t : Fin grid13.N, cond13_1 (grid13.coords t) ↔ t.val = 9)

/-! ## Where the windows are idle -/

/-- The three inputs are never idle. -/
theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
/-- Where the second condition fails the output window is idle, and its block is not written back. -/
theorem idleAt13_3 : ∀ t : Fin cfg13.N, ¬cond13_1 (grid13.coords t) → cfg13.idle 3 (grid13.coords t) = true := by decide +kernel
theorem noFlush13_3 : ∀ t : Fin cfg13.N, ¬cond13_1 (grid13.coords t) → (cfg13.win 3).flush t = false := by decide +kernel
/-- Where it holds the output window is live. -/
theorem liveAt13_3 : ∀ t : Fin cfg13.N, cond13_1 (grid13.coords t) → cfg13.idle 3 (grid13.coords t) = false := by decide +kernel

/-! ## The memrefs the body is called with -/

/-- One staging buffer of the output window, through which its contents are stated. -/
abbrev VO13_3 : View sig .tc .vmem S1x64 .f32 := (Memref.whole cc13_stg3_0 : Memref sig .tc .vmem S1x64 .f32).view
/-- Each window's current staging memref at point `t`, and its wholeness. -/
abbrev ms13_0 (t : Fin cfg13.N) : Memref sig .tc .vmem S10000x64 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S64x64 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x64 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S1x64 .f32 := win13_3.stage (cfg13.slots t 3)
abbrev hs13_3 (t : Fin cfg13.N) : (ms13_3 t).IsWhole := hstage13_3 ((cfg13.slots t 3).cast nbuf13_3)
/-- The accumulator: a whole scoped buffer of the kernel's own, passed beside the windows. -/
abbrev scM13_0 : Memref sig .tc .vmem S1x64 .f32 := Memref.whole cc13_scratch0
/-- The accumulator as a view: what it holds is stated through it. -/
abbrev VS13_0 : View sig .tc .vmem S1x64 .f32 := scM13_0.view

/-- Every other scoped buffer of the core that is no staging buffer of this region, at some contents each. -/
abbrev rest13 (c : Dev nD) : sProp 𝕄 :=
  Pipeline.scopedRestBut (Ix := Unit) (Name := ℕ) (U := UR sig nD τ) (Lvl := ℕ) (Val := Elt F) spec13 c [cc13_scratch0]

/-- The class invariant with the accumulator's ownership split off the scoped rest: the accumulator as a memref owned
    at some contents, the other scoped buffers unopened, the generator register at some state. -/
theorem PhiA13_eq (c : Dev nD) :
    (Pipeline.ΦA spec13 c : sProp 𝕄)
      = iprop(iprop((∃ d, owns (c : Thread nD τ) scM13_0 fullShare d) ∗ rest13 (F := F) c) ∗ (∃ r, prngReg c r)) := by
  unfold Pipeline.ΦA; rw [scopedRest13_split]; simp only [scM13_0, owns_whole]; try rfl

/-! ## The kernel body on any whole memrefs, case by case -/

set_option maxHeartbeats 1000000 in
/-- At the first point (the first condition holds, the second does not): on whole memrefs — the inputs' at their
    contents, the output's at contents handed back untouched, the accumulator at anything — the body runs to the
    continuation holding the inputs' as they were, the output's as it was, and the accumulator with its pieces written
    (the zero fill, then the fill's reading plus the tile's column sums). -/
noncomputable def kernelRun13_A (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (x1 : Vec F S64x64 .f32) (x2 : Vec F S1x64 .f32) :
    Σ' (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc13__pool_kernel i arg1 harg1 arg2 harg2 arg3 harg3 arg4 harg4 arg5 harg5) K } := by
  refine ⟨[], ?_, fun xi3 E K => ?run⟩
  case run =>
    simp only [cc13__pool_kernel_eq_skeleton]; unfold cc13__pool_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- At a middle point (neither condition holds): the same with the accumulator at the contents the point before left;
    its one piece is those contents plus the tile's column sums. -/
noncomputable def kernelRun13_B (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (x1 : Vec F S64x64 .f32) (x2 : Vec F S1x64 .f32) (xs0 : Vec F S1x64 .f32) :
    Σ' (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc13__pool_kernel i arg1 harg1 arg2 harg2 arg3 harg3 arg4 harg4 arg5 harg5) K } := by
  refine ⟨[], ?_, fun xi3 E K => ?run⟩
  case run =>
    simp only [cc13__pool_kernel_eq_skeleton]; unfold cc13__pool_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- At the last point (the second condition holds): the output's memref at anything ends with its piece written — the
    accumulator's final contents scaled, rounded, multiplied into the rounded weights from a zero start, plus the
    bias —, the accumulator with its piece. -/
noncomputable def kernelRun13_C (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) :
    Σ' (L3 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc13__pool_kernel i arg1 harg1 arg2 harg2 arg3 harg3 arg4 harg4 arg5 harg5) K } := by
  refine ⟨?_, ?_, fun E K => ?run⟩
  case run =>
    simp only [cc13__pool_kernel_eq_skeleton]; unfold cc13__pool_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

/-! ## What each case leaves -/

/-- No store reaches the output's buffer here: a placeholder nothing consults (the window is idle at these points,
    neither written back nor read at the next). -/
def out13_A_3 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (x1 : Vec F S64x64 .f32) (x2 : Vec F S1x64 .f32) : Vec F S1x64 .f32 :=
  VO13_3.read (Elt F) (VO13_3.writes (Elt F) VO13_3.junk (kernelRun13_A c i arg1 harg1 arg2 harg2 arg3 harg3 arg4 harg4 arg5 harg5 hc0 hc1 x0 x1 x2).1)

/-- The pieces stored into the accumulator cover it (each is the whole [1,64] block). -/
theorem scover13_A_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (x1 : Vec F S64x64 .f32) (x2 : Vec F S1x64 .f32) (y : S1x64.Idx) :
    ∃ pc ∈ (kernelRun13_A c i arg1 harg1 arg2 harg2 arg3 harg3 arg4 harg4 arg5 harg5 hc0 hc1 x0 x1 x2).2.1, y ∈ pc.1.set :=
  View.cover_of_tiledL (kernelRun13_A c i arg1 harg1 arg2 harg2 arg3 harg3 arg4 harg4 arg5 harg5 hc0 hc1 x0 x1 x2).2.1 S1x64.size (by sl_kernel_rfl) y

/-- What the accumulator holds afterwards: its pieces read back. -/
def sout13_A_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (x1 : Vec F S64x64 .f32) (x2 : Vec F S1x64 .f32) : Vec F S1x64 .f32 :=
  VS13_0.read (Elt F) (VS13_0.writes (Elt F) VS13_0.junk (kernelRun13_A c i arg1 harg1 arg2 harg2 arg3 harg3 arg4 harg4 arg5 harg5 hc0 hc1 x0 x1 x2).2.1)

/-- No store reaches the output's buffer here: a placeholder nothing consults (the window is idle at these points,
    neither written back nor read at the next). -/
def out13_B_3 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (x1 : Vec F S64x64 .f32) (x2 : Vec F S1x64 .f32) (xs0 : Vec F S1x64 .f32) : Vec F S1x64 .f32 :=
  VO13_3.read (Elt F) (VO13_3.writes (Elt F) VO13_3.junk (kernelRun13_B c i arg1 harg1 arg2 harg2 arg3 harg3 arg4 harg4 arg5 harg5 hc0 hc1 x0 x1 x2 xs0).1)

/-- The pieces stored into the accumulator cover it (each is the whole [1,64] block). -/
theorem scover13_B_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (x1 : Vec F S64x64 .f32) (x2 : Vec F S1x64 .f32) (xs0 : Vec F S1x64 .f32) (y : S1x64.Idx) :
    ∃ pc ∈ (kernelRun13_B c i arg1 harg1 arg2 harg2 arg3 harg3 arg4 harg4 arg5 harg5 hc0 hc1 x0 x1 x2 xs0).2.1, y ∈ pc.1.set :=
  View.cover_of_tiledL (kernelRun13_B c i arg1 harg1 arg2 harg2 arg3 harg3 arg4 harg4 arg5 harg5 hc0 hc1 x0 x1 x2 xs0).2.1 S1x64.size (by sl_kernel_rfl) y

/-- What the accumulator holds afterwards: its pieces read back. -/
def sout13_B_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (x1 : Vec F S64x64 .f32) (x2 : Vec F S1x64 .f32) (xs0 : Vec F S1x64 .f32) : Vec F S1x64 .f32 :=
  VS13_0.read (Elt F) (VS13_0.writes (Elt F) VS13_0.junk (kernelRun13_B c i arg1 harg1 arg2 harg2 arg3 harg3 arg4 harg4 arg5 harg5 hc0 hc1 x0 x1 x2 xs0).2.1)

/-- The last point's one store into the output's buffer tiles it, so it covers it. -/
theorem cover13_C_3 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) (y : S1x64.Idx) :
    ∃ pc ∈ (kernelRun13_C c i arg1 harg1 arg2 harg2 arg3 harg3 arg4 harg4 arg5 harg5 hc0 hc1 x0 x1 x2 xs0).1, y ∈ pc.1.set :=
  View.cover_of_tiledL (kernelRun13_C c i arg1 harg1 arg2 harg2 arg3 harg3 arg4 harg4 arg5 harg5 hc0 hc1 x0 x1 x2 xs0).1 S1x64.size (by sl_kernel_rfl) y

/-- What the last point leaves in the output's staging buffer: its piece read back. -/
def out13_C_3 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) : Vec F S1x64 .f32 :=
  VO13_3.read (Elt F) (VO13_3.writes (Elt F) VO13_3.junk (kernelRun13_C c i arg1 harg1 arg2 harg2 arg3 harg3 arg4 harg4 arg5 harg5 hc0 hc1 x0 x1 x2 xs0).1)

/-- The pieces stored into the accumulator cover it (each is the whole [1,64] block). -/
theorem scover13_C_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) (y : S1x64.Idx) :
    ∃ pc ∈ (kernelRun13_C c i arg1 harg1 arg2 harg2 arg3 harg3 arg4 harg4 arg5 harg5 hc0 hc1 x0 x1 x2 xs0).2.1, y ∈ pc.1.set :=
  View.cover_of_tiledL (kernelRun13_C c i arg1 harg1 arg2 harg2 arg3 harg3 arg4 harg4 arg5 harg5 hc0 hc1 x0 x1 x2 xs0).2.1 S1x64.size (by sl_kernel_rfl) y

/-- What the accumulator holds afterwards: its pieces read back. -/
def sout13_C_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) : Vec F S1x64 .f32 :=
  VS13_0.read (Elt F) (VS13_0.writes (Elt F) VS13_0.junk (kernelRun13_C c i arg1 harg1 arg2 harg2 arg3 harg3 arg4 harg4 arg5 harg5 hc0 hc1 x0 x1 x2 xs0).2.1)

/-! ## What the output's buffer and the accumulator hold after each point -/

/-- The accumulation, by recursion on the point: (the output's staging buffer, the accumulator) after the body at
    position `n` — the case the closed forms select there, run at the point's memrefs and input blocks, the accumulator
    read at what position `n - 1` left. -/
def outsAt13 (c : Dev nD) : (n : ℕ) → n < cfg13.N → Vec F S1x64 .f32 × Vec F S1x64 .f32
  | 0, hn => (out13_A_3 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) scM13_0 (Memref.isWhole_whole _) ((hcond13_0 ⟨0, hn⟩).mpr rfl) (fun h => (fun h => by (try dsimp only at h); omega) ((hcond13_1 ⟨0, hn⟩).mp h)) (iblk13 V c 0 ⟨0, hn⟩) (iblk13 V c 1 ⟨0, hn⟩) (iblk13 V c 2 ⟨0, hn⟩), sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) scM13_0 (Memref.isWhole_whole _) ((hcond13_0 ⟨0, hn⟩).mpr rfl) (fun h => (fun h => by (try dsimp only at h); omega) ((hcond13_1 ⟨0, hn⟩).mp h)) (iblk13 V c 0 ⟨0, hn⟩) (iblk13 V c 1 ⟨0, hn⟩) (iblk13 V c 2 ⟨0, hn⟩))
  | n + 1, hn =>
    if h1 : n + 1 = 9 then
      (out13_C_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => Nat.succ_ne_zero n ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2, sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => Nat.succ_ne_zero n ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2)
    else
      (out13_B_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => Nat.succ_ne_zero n ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2, sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => Nat.succ_ne_zero n ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2)

/-- At the first point: the zeroing case's contents. -/
theorem outsAt13_A (c : Dev nD) (t : Fin cfg13.N) (h0 : t.val = 0) (h1 : t.val ≠ 9) :
    outsAt13 V c t.val t.isLt = (out13_A_3 c (grid13.coords t) (ms13_0 t) (hs13_0 t) (ms13_1 t) (hs13_1 t) (ms13_2 t) (hs13_2 t) (ms13_3 t) (hs13_3 t) scM13_0 (Memref.isWhole_whole _) ((hcond13_0 t).mpr h0) (fun h => h1 ((hcond13_1 t).mp h)) (iblk13 V c 0 t) (iblk13 V c 1 t) (iblk13 V c 2 t), sout13_A_0 c (grid13.coords t) (ms13_0 t) (hs13_0 t) (ms13_1 t) (hs13_1 t) (ms13_2 t) (hs13_2 t) (ms13_3 t) (hs13_3 t) scM13_0 (Memref.isWhole_whole _) ((hcond13_0 t).mpr h0) (fun h => h1 ((hcond13_1 t).mp h)) (iblk13 V c 0 t) (iblk13 V c 1 t) (iblk13 V c 2 t)) := by
  obtain ⟨n, hn⟩ := t
  cases n with
  | zero => exact rfl
  | succ n => exact absurd h0 (Nat.succ_ne_zero n)

/-- At a middle point: that case's contents, over what the point before left. -/
theorem outsAt13_B (c : Dev nD) (t : Fin cfg13.N) (h0 : t.val ≠ 0) (h1 : t.val ≠ 9) :
    outsAt13 V c t.val t.isLt = (out13_B_3 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) (fun h => h1 ((hcond13_1 t).mp h)) (iblk13 V c 0 t) (iblk13 V c 1 t) (iblk13 V c 2 t) (outsAt13 V c (t.val - 1) (Nat.lt_of_le_of_lt (Nat.sub_le _ _) t.isLt)).2, sout13_B_0 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) (fun h => h1 ((hcond13_1 t).mp h)) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact absurd rfl h0
  | succ n => exact (dif_neg h1).trans rfl

/-- At the last point: that case's contents, over what the point before left. -/
theorem outsAt13_C (c : Dev nD) (t : Fin cfg13.N) (h0 : t.val ≠ 0) (h1 : t.val = 9) :
    outsAt13 V c t.val t.isLt = (out13_C_3 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2, sout13_C_0 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before position `n`: before the first point the class invariant (the accumulator at anything); afterwards the
    accumulator at what the point before left in it, the other scoped buffers unopened, the generator register at some
    state. -/
def PhiS13 (c : Dev nD) : (n : ℕ) → n ≤ cfg13.N → sProp 𝕄
  | 0, _ => Pipeline.ΦA spec13 c
  | n + 1, hn => iprop(iprop(owns (c : Thread nD τ) scM13_0 fullShare ((outsAt13 V c n hn).2) ∗ rest13 (F := F) c) ∗ (∃ r, prngReg c r))

theorem PhiS13_zero (c : Dev nD) (n : ℕ) (h : n ≤ cfg13.N) (hz : n = 0) : PhiS13 V c n h = Pipeline.ΦA spec13 c := by
  subst hz; rfl

theorem PhiS13_succ (c : Dev nD) (n : ℕ) (hn : n < cfg13.N) :
    PhiS13 V c (n + 1) hn = iprop(iprop(owns (c : Thread nD τ) scM13_0 fullShare ((outsAt13 V c n hn).2) ∗ rest13 (F := F) c) ∗ (∃ r, prngReg c r)) := rfl

theorem PhiS13_pos (c : Dev nD) (n : ℕ) (h : n ≤ cfg13.N) (hz : n ≠ 0) :
    PhiS13 V c n h = iprop(iprop(owns (c : Thread nD τ) scM13_0 fullShare ((outsAt13 V c (n - 1) (by omega)).2) ∗ rest13 (F := F) c) ∗ (∃ r, prngReg c r)) := by
  cases n with
  | zero => exact absurd rfl hz
  | succ n => rfl

/-! ## The proof data -/

/-- The arrays as the region finds them; after the body at point `t` each input's buffer at its block and the output's
    at `outsAt13`'s first component; the invariant `PhiS13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

/-- The invariant at a point's start, restated at the point's position. -/
theorem PhiS13_castSucc (c : Dev nD) (t : Fin cfg13.N) :
    (dat13 V c).Φ t.castSucc = PhiS13 V c t.val (Nat.le_of_lt t.isLt) := by
  dsimp only [dat13]; simp only [Fin.coe_castSucc]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4800000 in
/-- The body at any point: the inputs' memrefs hold their blocks; the closed forms say which case the point is in; the
    invariant hands the body the accumulator at what the point before left (at anything at the first point) and takes
    it back at this point's contents, the other scoped buffers and the generator register passing through untouched;
    the output's buffer is handed back as it was where the window is idle, and with its piece written at the last point. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  have hN : t.val < 10 := lt_of_lt_of_eq t.isLt (show cfg13.N = 10 from N_13)
  rw [show (dat13 V c).leavesExact 0 t = owns (c : Thread nD τ) (ms13_0 t) fullShare ((dat13 V c).after 0 t) from by
    unfold Dat.leavesExact; rw [liveAt13_0 t], after13_0]
  rw [show (dat13 V c).leavesExact 1 t = owns (c : Thread nD τ) (ms13_1 t) fullShare ((dat13 V c).after 1 t) from by
    unfold Dat.leavesExact; rw [liveAt13_1 t], after13_1]
  rw [show (dat13 V c).leavesExact 2 t = owns (c : Thread nD τ) (ms13_2 t) fullShare ((dat13 V c).after 2 t) from by
    unfold Dat.leavesExact; rw [liveAt13_2 t], after13_2]
  by_cases h0 : t.val = 0
  · have h1 : t.val ≠ 9 := by omega
    rw [Dat.leavesExact_idle (dat13 V c) 3 t (idleAt13_3 t (fun h => h1 ((hcond13_1 t).mp h))) (noFlush13_3 t (fun h => h1 ((hcond13_1 t).mp h)))]
    rw [outsAt13_A V c t h0 h1]
    unfold sout13_A_0; (try dsimp only)
    rw [PhiS13_castSucc V c t, PhiS13_zero V c _ _ h0, PhiA13_eq]
    iintro ⟨⟨⟨HS0, HR⟩, Hg⟩, Ho, ⟨%d0, H0⟩, ⟨%d1, H1⟩, ⟨%d2, H2⟩, ⟨%d3, H3⟩⟩
    iapply ((kernelRun13_A c (grid13.coords t) _ _ _ _ _ _ _ _ _ _ ((hcond13_0 t).mpr h0) (fun h => h1 ((hcond13_1 t).mp h)) (iblk13 V c 0 t) (iblk13 V c 1 t) (iblk13 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover13_A_0 c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h1 : t.val = 9
    · rw [show (dat13 V c).leavesExact 3 t = owns (c : Thread nD τ) (ms13_3 t) fullShare ((dat13 V c).after 3 t) from by
        unfold Dat.leavesExact; rw [liveAt13_3 t ((hcond13_1 t).mpr h1)], after13_3]
      rw [outsAt13_C V c t h0 h1]
      unfold out13_C_3 sout13_C_0; (try dsimp only)
      rw [PhiS13_castSucc V c t, PhiS13_pos V c _ _ h0]
      iintro ⟨⟨⟨HS0, HR⟩, Hg⟩, Ho, ⟨%d0, H0⟩, ⟨%d1, H1⟩, ⟨%d2, H2⟩, ⟨%d3, H3⟩⟩
      iapply ((kernelRun13_C c (grid13.coords t) _ _ _ _ _ _ _ _ _ _ (fun h => h0 ((hcond13_0 t).mp h)) ((hcond13_1 t).mpr h1) (iblk13 V c 0 t) (iblk13 V c 1 t) (iblk13 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover13_C_3 c _ _ _ _ _ _ _ _ _ _ _ _ _ _ _ _ _)
    · rw [Dat.leavesExact_idle (dat13 V c) 3 t (idleAt13_3 t (fun h => h1 ((hcond13_1 t).mp h))) (noFlush13_3 t (fun h => h1 ((hcond13_1 t).mp h)))]
      rw [outsAt13_B V c t h0 h1]
      unfold sout13_B_0; (try dsimp only)
      rw [PhiS13_castSucc V c t, PhiS13_pos V c _ _ h0]
      iintro ⟨⟨⟨HS0, HR⟩, Hg⟩, Ho, ⟨%d0, H0⟩, ⟨%d1, H1⟩, ⟨%d2, H2⟩, ⟨%d3, H3⟩⟩
      iapply ((kernelRun13_B c (grid13.coords t) _ _ _ _ _ _ _ _ _ _ (fun h => h0 ((hcond13_0 t).mp h)) (fun h => h1 ((hcond13_1 t).mp h)) (iblk13 V c 0 t) (iblk13 V c 1 t) (iblk13 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point the invariant gives the class invariant back: the accumulator's named contents are forgotten and
    its ownership joins the other scoped buffers again. -/
theorem Phi_out13 (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨HS0, HR⟩, Hg⟩
  isplitl [HS0 HR]
  · isplitl [HS0]
    · iexists _; iexact HS0
    iexact HR
  iexact Hg

/-- The same after the last point. -/
theorem hout13 (c : Dev nD) : (dat13 V c).Φ (Fin.last cfg13.N) ⊢ Pipeline.ΦA spec13 c :=
  Phi_out13 V c _ (by rw [Fin.val_last]; have : cfg13.N = 10 := N_13; omega)

end Cert.KernelIdeal.Reg

end
-- ==== Proof.KI.Conts.lean ====
import proofs.«147038_j12317966205319_1_alg».proof.Proof.Gen.KernelIdeal.Regions
import proofs.«147038_j12317966205319_1_alg».proof.Proof.KI.Fr0
import proofs.«147038_j12317966205319_1_alg».proof.Proof.KI.Fr1
import proofs.«147038_j12317966205319_1_alg».proof.Proof.KI.Fr2
import proofs.«147038_j12317966205319_1_alg».proof.Proof.KI.Fr3
import proofs.«147038_j12317966205319_1_alg».proof.Proof.KI.Fr4
import proofs.«147038_j12317966205319_1_alg».proof.Proof.KI.Fr5
import proofs.«147038_j12317966205319_1_alg».proof.Proof.KI.Fr6
import proofs.«147038_j12317966205319_1_alg».proof.Proof.KI.Fr7
import proofs.«147038_j12317966205319_1_alg».proof.Proof.KI.Fr8
import proofs.«147038_j12317966205319_1_alg».proof.Proof.KI.Fr9
import proofs.«147038_j12317966205319_1_alg».proof.Proof.KI.Fr10
import proofs.«147038_j12317966205319_1_alg».proof.Proof.KI.Fr11
import proofs.«147038_j12317966205319_1_alg».proof.Proof.KI.Fr12
import proofs.«147038_j12317966205319_1_alg».proof.Proof.KI.Fr13
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! # The buffer contents between @main's items, with what each region leaves filled in

`W0` is the launch memory; an odd index is the contents after a stretch of host operations (a region's entry contents); an
even index is the contents after a region: its entry contents with each output window's array replaced by what the
pipeline's write-backs leave there (`Dat.arrAt … N`). -/

abbrev W0 (c : Dev nD) : Valuation τ sig (Elt F) := V0 m c
abbrev W1 (c : Dev nD) : Valuation τ sig (Elt F) := StableHlo.after hostOps0 (W0 m c)
/-- Region 0's entry contents read at the TensorCore's references. -/
abbrev T1 (c : Dev nD) (b : Ref sig .tc) : Buf (Elt F) ((c : Thread nD τ).loc b) := W1 m c b
def W2 (c : Dev nD) : Valuation τ sig (Elt F) :=
  Function.update (W1 m c) (Proc.devRef .tc main_v30) ((dat0 (T1 m) c).arrAt 3 cfg0.N)
abbrev T2 (c : Dev nD) (b : Ref sig .tc) : Buf (Elt F) ((c : Thread nD τ).loc b) := W2 m c b
abbrev W3 (c : Dev nD) : Valuation τ sig (Elt F) := StableHlo.after hostOps1 (W2 m c)
/-- Region 1's entry contents read at the TensorCore's references. -/
abbrev T3 (c : Dev nD) (b : Ref sig .tc) : Buf (Elt F) ((c : Thread nD τ).loc b) := W3 m c b
def W4 (c : Dev nD) : Valuation τ sig (Elt F) :=
  Function.update (W3 m c) (Proc.devRef .tc main_v34) ((dat1 (T3 m) c).arrAt 3 cfg1.N)
abbrev T4 (c : Dev nD) (b : Ref sig .tc) : Buf (Elt F) ((c : Thread nD τ).loc b) := W4 m c b
abbrev W5 (c : Dev nD) : Valuation τ sig (Elt F) := StableHlo.after hostOps2 (W4 m c)
/-- Region 2's entry contents read at the TensorCore's references. -/
abbrev T5 (c : Dev nD) (b : Ref sig .tc) : Buf (Elt F) ((c : Thread nD τ).loc b) := W5 m c b
def W6 (c : Dev nD) : Valuation τ sig (Elt F) :=
  Function.update (Function.update (Function.update (W5 m c) (Proc.devRef .tc main_v51_0) ((dat2 (T5 m) c).arrAt 4 cfg2.N)) (Proc.devRef .tc main_v51_1) ((dat2 (T5 m) c).arrAt 5 cfg2.N)) (Proc.devRef .tc main_v51_2) ((dat2 (T5 m) c).arrAt 6 cfg2.N)
abbrev T6 (c : Dev nD) (b : Ref sig .tc) : Buf (Elt F) ((c : Thread nD τ).loc b) := W6 m c b
abbrev W7 (c : Dev nD) : Valuation τ sig (Elt F) := StableHlo.after hostOps3 (W6 m c)
/-- Region 3's entry contents read at the TensorCore's references. -/
abbrev T7 (c : Dev nD) (b : Ref sig .tc) : Buf (Elt F) ((c : Thread nD τ).loc b) := W7 m c b
def W8 (c : Dev nD) : Valuation τ sig (Elt F) :=
  Function.update (W7 m c) (Proc.devRef .tc main_v67) ((dat3 (T7 m) c).arrAt 5 cfg3.N)
abbrev T8 (c : Dev nD) (b : Ref sig .tc) : Buf (Elt F) ((c : Thread nD τ).loc b) := W8 m c b
abbrev W9 (c : Dev nD) : Valuation τ sig (Elt F) := StableHlo.after hostOps4 (W8 m c)
/-- Region 4's entry contents read at the TensorCore's references. -/
abbrev T9 (c : Dev nD) (b : Ref sig .tc) : Buf (Elt F) ((c : Thread nD τ).loc b) := W9 m c b
def W10 (c : Dev nD) : Valuation τ sig (Elt F) :=
  Function.update (W9 m c) (Proc.devRef .tc main_v71) ((dat4 (T9 m) c).arrAt 3 cfg4.N)
abbrev T10 (c : Dev nD) (b : Ref sig .tc) : Buf (Elt F) ((c : Thread nD τ).loc b) := W10 m c b
abbrev W11 (c : Dev nD) : Valuation τ sig (Elt F) := StableHlo.after hostOps5 (W10 m c)
/-- Region 5's entry contents read at the TensorCore's references. -/
abbrev T11 (c : Dev nD) (b : Ref sig .tc) : Buf (Elt F) ((c : Thread nD τ).loc b) := W11 m c b
def W12 (c : Dev nD) : Valuation τ sig (Elt F) :=
  Function.update (Function.update (Function.update (W11 m c) (Proc.devRef .tc main_v88_0) ((dat5 (T11 m) c).arrAt 4 cfg5.N)) (Proc.devRef .tc main_v88_1) ((dat5 (T11 m) c).arrAt 5 cfg5.N)) (Proc.devRef .tc main_v88_2) ((dat5 (T11 m) c).arrAt 6 cfg5.N)
abbrev T12 (c : Dev nD) (b : Ref sig .tc) : Buf (Elt F) ((c : Thread nD τ).loc b) := W12 m c b
abbrev W13 (c : Dev nD) : Valuation τ sig (Elt F) := StableHlo.after hostOps6 (W12 m c)
/-- Region 6's entry contents read at the TensorCore's references. -/
abbrev T13 (c : Dev nD) (b : Ref sig .tc) : Buf (Elt F) ((c : Thread nD τ).loc b) := W13 m c b
def W14 (c : Dev nD) : Valuation τ sig (Elt F) :=
  Function.update (W13 m c) (Proc.devRef .tc main_v104) ((dat6 (T13 m) c).arrAt 5 cfg6.N)
abbrev T14 (c : Dev nD) (b : Ref sig .tc) : Buf (Elt F) ((c : Thread nD τ).loc b) := W14 m c b
abbrev W15 (c : Dev nD) : Valuation τ sig (Elt F) := StableHlo.after hostOps7 (W14 m c)
/-- Region 7's entry contents read at the TensorCore's references. -/
abbrev T15 (c : Dev nD) (b : Ref sig .tc) : Buf (Elt F) ((c : Thread nD τ).loc b) := W15 m c b
def W16 (c : Dev nD) : Valuation τ sig (Elt F) :=
  Function.update (W15 m c) (Proc.devRef .tc main_v108) ((dat7 (T15 m) c).arrAt 3 cfg7.N)
abbrev T16 (c : Dev nD) (b : Ref sig .tc) : Buf (Elt F) ((c : Thread nD τ).loc b) := W16 m c b
abbrev W17 (c : Dev nD) : Valuation τ sig (Elt F) := StableHlo.after hostOps8 (W16 m c)
/-- Region 8's entry contents read at the TensorCore's references. -/
abbrev T17 (c : Dev nD) (b : Ref sig .tc) : Buf (Elt F) ((c : Thread nD τ).loc b) := W17 m c b
def W18 (c : Dev nD) : Valuation τ sig (Elt F) :=
  Function.update (Function.update (Function.update (W17 m c) (Proc.devRef .tc main_v125_0) ((dat8 (T17 m) c).arrAt 4 cfg8.N)) (Proc.devRef .tc main_v125_1) ((dat8 (T17 m) c).arrAt 5 cfg8.N)) (Proc.devRef .tc main_v125_2) ((dat8 (T17 m) c).arrAt 6 cfg8.N)
abbrev T18 (c : Dev nD) (b : Ref sig .tc) : Buf (Elt F) ((c : Thread nD τ).loc b) := W18 m c b
abbrev W19 (c : Dev nD) : Valuation τ sig (Elt F) := StableHlo.after hostOps9 (W18 m c)
/-- Region 9's entry contents read at the TensorCore's references. -/
abbrev T19 (c : Dev nD) (b : Ref sig .tc) : Buf (Elt F) ((c : Thread nD τ).loc b) := W19 m c b
def W20 (c : Dev nD) : Valuation τ sig (Elt F) :=
  Function.update (W19 m c) (Proc.devRef .tc main_v141) ((dat9 (T19 m) c).arrAt 5 cfg9.N)
abbrev T20 (c : Dev nD) (b : Ref sig .tc) : Buf (Elt F) ((c : Thread nD τ).loc b) := W20 m c b
abbrev W21 (c : Dev nD) : Valuation τ sig (Elt F) := StableHlo.after hostOps10 (W20 m c)
/-- Region 10's entry contents read at the TensorCore's references. -/
abbrev T21 (c : Dev nD) (b : Ref sig .tc) : Buf (Elt F) ((c : Thread nD τ).loc b) := W21 m c b
def W22 (c : Dev nD) : Valuation τ sig (Elt F) :=
  Function.update (W21 m c) (Proc.devRef .tc main_v145) ((dat10 (T21 m) c).arrAt 3 cfg10.N)
abbrev T22 (c : Dev nD) (b : Ref sig .tc) : Buf (Elt F) ((c : Thread nD τ).loc b) := W22 m c b
abbrev W23 (c : Dev nD) : Valuation τ sig (Elt F) := StableHlo.after hostOps11 (W22 m c)
/-- Region 11's entry contents read at the TensorCore's references. -/
abbrev T23 (c : Dev nD) (b : Ref sig .tc) : Buf (Elt F) ((c : Thread nD τ).loc b) := W23 m c b
def W24 (c : Dev nD) : Valuation τ sig (Elt F) :=
  Function.update (Function.update (Function.update (W23 m c) (Proc.devRef .tc main_v162_0) ((dat11 (T23 m) c).arrAt 4 cfg11.N)) (Proc.devRef .tc main_v162_1) ((dat11 (T23 m) c).arrAt 5 cfg11.N)) (Proc.devRef .tc main_v162_2) ((dat11 (T23 m) c).arrAt 6 cfg11.N)
abbrev T24 (c : Dev nD) (b : Ref sig .tc) : Buf (Elt F) ((c : Thread nD τ).loc b) := W24 m c b
abbrev W25 (c : Dev nD) : Valuation τ sig (Elt F) := StableHlo.after hostOps12 (W24 m c)
/-- Region 12's entry contents read at the TensorCore's references. -/
abbrev T25 (c : Dev nD) (b : Ref sig .tc) : Buf (Elt F) ((c : Thread nD τ).loc b) := W25 m c b
def W26 (c : Dev nD) : Valuation τ sig (Elt F) :=
  Function.update (W25 m c) (Proc.devRef .tc main_v178) ((dat12 (T25 m) c).arrAt 5 cfg12.N)
abbrev T26 (c : Dev nD) (b : Ref sig .tc) : Buf (Elt F) ((c : Thread nD τ).loc b) := W26 m c b
abbrev W27 (c : Dev nD) : Valuation τ sig (Elt F) := StableHlo.after hostOps13 (W26 m c)
/-- Region 13's entry contents read at the TensorCore's references. -/
abbrev T27 (c : Dev nD) (b : Ref sig .tc) : Buf (Elt F) ((c : Thread nD τ).loc b) := W27 m c b
def W28 (c : Dev nD) : Valuation τ sig (Elt F) :=
  Function.update (W27 m c) (Proc.devRef .tc main_v180) ((dat13 (T27 m) c).arrAt 3 cfg13.N)
abbrev T28 (c : Dev nD) (b : Ref sig .tc) : Buf (Elt F) ((c : Thread nD τ).loc b) := W28 m c b

/-- What the regions leave, as the generated conditional frame's unknowns: after item J−1 the reference `r` holds what the
    contents `W J` say. -/
def outsF : Outs (F := F) := fun J r c => match J with
  | 2 => W2 m c (Proc.devRef .tc r)
  | 4 => W4 m c (Proc.devRef .tc r)
  | 6 => W6 m c (Proc.devRef .tc r)
  | 8 => W8 m c (Proc.devRef .tc r)
  | 10 => W10 m c (Proc.devRef .tc r)
  | 12 => W12 m c (Proc.devRef .tc r)
  | 14 => W14 m c (Proc.devRef .tc r)
  | 16 => W16 m c (Proc.devRef .tc r)
  | 18 => W18 m c (Proc.devRef .tc r)
  | 20 => W20 m c (Proc.devRef .tc r)
  | 22 => W22 m c (Proc.devRef .tc r)
  | 24 => W24 m c (Proc.devRef .tc r)
  | 26 => W26 m c (Proc.devRef .tc r)
  | 28 => W28 m c (Proc.devRef .tc r)
  | _ => m ((c : Thread nD τ).loc r)

/-! ## The generated valuations at these unknowns are the contents above -/

theorem V0_eq (c : Dev nD) : V0 m c = W0 m c := rfl
theorem V1_eq (c : Dev nD) : V1 m c = W1 m c := by
  show StableHlo.after hostOps0 (V0 m c) = _
  rw [V0_eq]
theorem V2_eq (c : Dev nD) : V2 m (outsF m) c = W2 m c := by
  show Function.update (V1 m c) main_v30 (W2 m c (Proc.devRef .tc main_v30)) = _
  rw [V1_eq]
  rfl
theorem V3_eq (c : Dev nD) : V3 m (outsF m) c = W3 m c := by
  show StableHlo.after hostOps1 (V2 m (outsF m) c) = _
  rw [V2_eq]
theorem V4_eq (c : Dev nD) : V4 m (outsF m) c = W4 m c := by
  show Function.update (V3 m (outsF m) c) main_v34 (W4 m c (Proc.devRef .tc main_v34)) = _
  rw [V3_eq]
  rfl
theorem V5_eq (c : Dev nD) : V5 m (outsF m) c = W5 m c := by
  show StableHlo.after hostOps2 (V4 m (outsF m) c) = _
  rw [V4_eq]
theorem V6_eq (c : Dev nD) : V6 m (outsF m) c = W6 m c := by
  show Function.update (Function.update (Function.update (V5 m (outsF m) c) main_v51_0 (W6 m c (Proc.devRef .tc main_v51_0))) main_v51_1 (W6 m c (Proc.devRef .tc main_v51_1))) main_v51_2 (W6 m c (Proc.devRef .tc main_v51_2)) = _
  rw [V5_eq]
  rfl
theorem V7_eq (c : Dev nD) : V7 m (outsF m) c = W7 m c := by
  show StableHlo.after hostOps3 (V6 m (outsF m) c) = _
  rw [V6_eq]
theorem V8_eq (c : Dev nD) : V8 m (outsF m) c = W8 m c := by
  show Function.update (V7 m (outsF m) c) main_v67 (W8 m c (Proc.devRef .tc main_v67)) = _
  rw [V7_eq]
  rfl
theorem V9_eq (c : Dev nD) : V9 m (outsF m) c = W9 m c := by
  show StableHlo.after hostOps4 (V8 m (outsF m) c) = _
  rw [V8_eq]
theorem V10_eq (c : Dev nD) : V10 m (outsF m) c = W10 m c := by
  show Function.update (V9 m (outsF m) c) main_v71 (W10 m c (Proc.devRef .tc main_v71)) = _
  rw [V9_eq]
  rfl
theorem V11_eq (c : Dev nD) : V11 m (outsF m) c = W11 m c := by
  show StableHlo.after hostOps5 (V10 m (outsF m) c) = _
  rw [V10_eq]
theorem V12_eq (c : Dev nD) : V12 m (outsF m) c = W12 m c := by
  show Function.update (Function.update (Function.update (V11 m (outsF m) c) main_v88_0 (W12 m c (Proc.devRef .tc main_v88_0))) main_v88_1 (W12 m c (Proc.devRef .tc main_v88_1))) main_v88_2 (W12 m c (Proc.devRef .tc main_v88_2)) = _
  rw [V11_eq]
  rfl
theorem V13_eq (c : Dev nD) : V13 m (outsF m) c = W13 m c := by
  show StableHlo.after hostOps6 (V12 m (outsF m) c) = _
  rw [V12_eq]
theorem V14_eq (c : Dev nD) : V14 m (outsF m) c = W14 m c := by
  show Function.update (V13 m (outsF m) c) main_v104 (W14 m c (Proc.devRef .tc main_v104)) = _
  rw [V13_eq]
  rfl
theorem V15_eq (c : Dev nD) : V15 m (outsF m) c = W15 m c := by
  show StableHlo.after hostOps7 (V14 m (outsF m) c) = _
  rw [V14_eq]
theorem V16_eq (c : Dev nD) : V16 m (outsF m) c = W16 m c := by
  show Function.update (V15 m (outsF m) c) main_v108 (W16 m c (Proc.devRef .tc main_v108)) = _
  rw [V15_eq]
  rfl
theorem V17_eq (c : Dev nD) : V17 m (outsF m) c = W17 m c := by
  show StableHlo.after hostOps8 (V16 m (outsF m) c) = _
  rw [V16_eq]
theorem V18_eq (c : Dev nD) : V18 m (outsF m) c = W18 m c := by
  show Function.update (Function.update (Function.update (V17 m (outsF m) c) main_v125_0 (W18 m c (Proc.devRef .tc main_v125_0))) main_v125_1 (W18 m c (Proc.devRef .tc main_v125_1))) main_v125_2 (W18 m c (Proc.devRef .tc main_v125_2)) = _
  rw [V17_eq]
  rfl
theorem V19_eq (c : Dev nD) : V19 m (outsF m) c = W19 m c := by
  show StableHlo.after hostOps9 (V18 m (outsF m) c) = _
  rw [V18_eq]
theorem V20_eq (c : Dev nD) : V20 m (outsF m) c = W20 m c := by
  show Function.update (V19 m (outsF m) c) main_v141 (W20 m c (Proc.devRef .tc main_v141)) = _
  rw [V19_eq]
  rfl
theorem V21_eq (c : Dev nD) : V21 m (outsF m) c = W21 m c := by
  show StableHlo.after hostOps10 (V20 m (outsF m) c) = _
  rw [V20_eq]
theorem V22_eq (c : Dev nD) : V22 m (outsF m) c = W22 m c := by
  show Function.update (V21 m (outsF m) c) main_v145 (W22 m c (Proc.devRef .tc main_v145)) = _
  rw [V21_eq]
  rfl
theorem V23_eq (c : Dev nD) : V23 m (outsF m) c = W23 m c := by
  show StableHlo.after hostOps11 (V22 m (outsF m) c) = _
  rw [V22_eq]
theorem V24_eq (c : Dev nD) : V24 m (outsF m) c = W24 m c := by
  show Function.update (Function.update (Function.update (V23 m (outsF m) c) main_v162_0 (W24 m c (Proc.devRef .tc main_v162_0))) main_v162_1 (W24 m c (Proc.devRef .tc main_v162_1))) main_v162_2 (W24 m c (Proc.devRef .tc main_v162_2)) = _
  rw [V23_eq]
  rfl
theorem V25_eq (c : Dev nD) : V25 m (outsF m) c = W25 m c := by
  show StableHlo.after hostOps12 (V24 m (outsF m) c) = _
  rw [V24_eq]
theorem V26_eq (c : Dev nD) : V26 m (outsF m) c = W26 m c := by
  show Function.update (V25 m (outsF m) c) main_v178 (W26 m c (Proc.devRef .tc main_v178)) = _
  rw [V25_eq]
  rfl
theorem V27_eq (c : Dev nD) : V27 m (outsF m) c = W27 m c := by
  show StableHlo.after hostOps13 (V26 m (outsF m) c) = _
  rw [V26_eq]
theorem V28_eq (c : Dev nD) : V28 m (outsF m) c = W28 m c := by
  show Function.update (V27 m (outsF m) c) main_v180 (W28 m c (Proc.devRef .tc main_v180)) = _
  rw [V27_eq]
  rfl

/-! ## What a region leaves unchanged, and what it leaves in its outputs -/

theorem W2_of (c : Dev nD) (r : Ref sig .tc) (h : r ∉ ([main_v30] : List (Ref sig .tc))) : W2 m c r = W1 m c r := by
  simp only [W2, Function.update_of_ne (StableHlo.devRef_ne_of_ne (List.ne_of_not_mem_cons h) : (Proc.devRef .tc r : DevRef τ sig) ≠ Proc.devRef .tc main_v30)]
theorem W2_out3 (c : Dev nD) : W2 m c (Proc.devRef .tc main_v30) = (dat0 (T1 m) c).arrAt 3 cfg0.N := by
  simp only [W2, Function.update_self]
set_option maxHeartbeats 1000000 in
theorem hF0_0 (c : Dev nD) : (dat0 (T1 m) c).arrAt 0 cfg0.N = T2 m c main_arg0 :=
  ((dat0 (T1 m) c).arrAt_in 0 rfl _).trans ((A_eq0 (T1 m) c 0).trans (W2_of m c main_arg0 (by decide)).symm)
set_option maxHeartbeats 1000000 in
theorem hF0_1 (c : Dev nD) : (dat0 (T1 m) c).arrAt 1 cfg0.N = T2 m c main_arg2 :=
  ((dat0 (T1 m) c).arrAt_in 1 rfl _).trans ((A_eq0 (T1 m) c 1).trans (W2_of m c main_arg2 (by decide)).symm)
set_option maxHeartbeats 1000000 in
theorem hF0_2 (c : Dev nD) : (dat0 (T1 m) c).arrAt 2 cfg0.N = T2 m c main_v29 :=
  ((dat0 (T1 m) c).arrAt_in 2 rfl _).trans ((A_eq0 (T1 m) c 2).trans (W2_of m c main_v29 (by decide)).symm)
set_option maxHeartbeats 1000000 in
theorem hF0 (c : Dev nD) (w : Fin cfg0.W) : (dat0 (T1 m) c).arrAt w cfg0.N = T2 m c (Pipeline.arrRef spec0 w) := by
  match w with
  | ⟨0, _⟩ => exact hF0_0 m c
  | ⟨1, _⟩ => exact hF0_1 m c
  | ⟨2, _⟩ => exact hF0_2 m c
  | ⟨3, _⟩ => exact (W2_out3 m c).symm
theorem hrest0 (c : Dev nD) : ∀ b, b ∉ Finset.univ.image (Pipeline.arrRef spec0) → T2 m c b = T1 m c b :=
  fun b hb => W2_of m c b (fun hmem => hb (by
    simp only [List.mem_cons, List.mem_singleton, List.not_mem_nil, or_false] at hmem
    rcases hmem with rfl
    · exact Finset.mem_image.mpr ⟨3, Finset.mem_univ _, rfl⟩
    ))
theorem W4_of (c : Dev nD) (r : Ref sig .tc) (h : r ∉ ([main_v34] : List (Ref sig .tc))) : W4 m c r = W3 m c r := by
  simp only [W4, Function.update_of_ne (StableHlo.devRef_ne_of_ne (List.ne_of_not_mem_cons h) : (Proc.devRef .tc r : DevRef τ sig) ≠ Proc.devRef .tc main_v34)]
theorem W4_out3 (c : Dev nD) : W4 m c (Proc.devRef .tc main_v34) = (dat1 (T3 m) c).arrAt 3 cfg1.N := by
  simp only [W4, Function.update_self]
set_option maxHeartbeats 1000000 in
theorem hF1_0 (c : Dev nD) : (dat1 (T3 m) c).arrAt 0 cfg1.N = T4 m c main_v30 :=
  ((dat1 (T3 m) c).arrAt_in 0 rfl _).trans ((A_eq1 (T3 m) c 0).trans (W4_of m c main_v30 (by decide)).symm)
set_option maxHeartbeats 1000000 in
theorem hF1_1 (c : Dev nD) : (dat1 (T3 m) c).arrAt 1 cfg1.N = T4 m c main_v32 :=
  ((dat1 (T3 m) c).arrAt_in 1 rfl _).trans ((A_eq1 (T3 m) c 1).trans (W4_of m c main_v32 (by decide)).symm)
set_option maxHeartbeats 1000000 in
theorem hF1_2 (c : Dev nD) : (dat1 (T3 m) c).arrAt 2 cfg1.N = T4 m c main_v33 :=
  ((dat1 (T3 m) c).arrAt_in 2 rfl _).trans ((A_eq1 (T3 m) c 2).trans (W4_of m c main_v33 (by decide)).symm)
set_option maxHeartbeats 1000000 in
theorem hF1 (c : Dev nD) (w : Fin cfg1.W) : (dat1 (T3 m) c).arrAt w cfg1.N = T4 m c (Pipeline.arrRef spec1 w) := by
  match w with
  | ⟨0, _⟩ => exact hF1_0 m c
  | ⟨1, _⟩ => exact hF1_1 m c
  | ⟨2, _⟩ => exact hF1_2 m c
  | ⟨3, _⟩ => exact (W4_out3 m c).symm
theorem hrest1 (c : Dev nD) : ∀ b, b ∉ Finset.univ.image (Pipeline.arrRef spec1) → T4 m c b = T3 m c b :=
  fun b hb => W4_of m c b (fun hmem => hb (by
    simp only [List.mem_cons, List.mem_singleton, List.not_mem_nil, or_false] at hmem
    rcases hmem with rfl
    · exact Finset.mem_image.mpr ⟨3, Finset.mem_univ _, rfl⟩
    ))
theorem W6_of (c : Dev nD) (r : Ref sig .tc) (h : r ∉ ([main_v51_0, main_v51_1, main_v51_2] : List (Ref sig .tc))) : W6 m c r = W5 m c r := by
  simp only [W6, Function.update_of_ne (StableHlo.devRef_ne_of_ne (List.ne_of_not_mem_cons h) : (Proc.devRef .tc r : DevRef τ sig) ≠ Proc.devRef .tc main_v51_0), Function.update_of_ne (StableHlo.devRef_ne_of_ne (List.ne_of_not_mem_cons (List.not_mem_of_not_mem_cons h)) : (Proc.devRef .tc r : DevRef τ sig) ≠ Proc.devRef .tc main_v51_1), Function.update_of_ne (StableHlo.devRef_ne_of_ne (List.ne_of_not_mem_cons (List.not_mem_of_not_mem_cons (List.not_mem_of_not_mem_cons h))) : (Proc.devRef .tc r : DevRef τ sig) ≠ Proc.devRef .tc main_v51_2)]
theorem W6_out4 (c : Dev nD) : W6 m c (Proc.devRef .tc main_v51_0) = (dat2 (T5 m) c).arrAt 4 cfg2.N := by
  simp only [W6, Function.update_self, Function.update_of_ne (StableHlo.devRef_ne_of_ne (by decide : main_v51_0 ≠ main_v51_1) : (Proc.devRef .tc main_v51_0 : DevRef τ sig) ≠ Proc.devRef .tc main_v51_1), Function.update_of_ne (StableHlo.devRef_ne_of_ne (by decide : main_v51_0 ≠ main_v51_2) : (Proc.devRef .tc main_v51_0 : DevRef τ sig) ≠ Proc.devRef .tc main_v51_2)]
theorem W6_out5 (c : Dev nD) : W6 m c (Proc.devRef .tc main_v51_1) = (dat2 (T5 m) c).arrAt 5 cfg2.N := by
  simp only [W6, Function.update_self, Function.update_of_ne (StableHlo.devRef_ne_of_ne (by decide : main_v51_1 ≠ main_v51_2) : (Proc.devRef .tc main_v51_1 : DevRef τ sig) ≠ Proc.devRef .tc main_v51_2)]
theorem W6_out6 (c : Dev nD) : W6 m c (Proc.devRef .tc main_v51_2) = (dat2 (T5 m) c).arrAt 6 cfg2.N := by
  simp only [W6, Function.update_self]
set_option maxHeartbeats 1000000 in
theorem hF2_0 (c : Dev nD) : (dat2 (T5 m) c).arrAt 0 cfg2.N = T6 m c main_v47 :=
  ((dat2 (T5 m) c).arrAt_in 0 rfl _).trans ((A_eq2 (T5 m) c 0).trans (W6_of m c main_v47 (by decide)).symm)
set_option maxHeartbeats 1000000 in
theorem hF2_1 (c : Dev nD) : (dat2 (T5 m) c).arrAt 1 cfg2.N = T6 m c main_v34 :=
  ((dat2 (T5 m) c).arrAt_in 1 rfl _).trans ((A_eq2 (T5 m) c 1).trans (W6_of m c main_v34 (by decide)).symm)
set_option maxHeartbeats 1000000 in
theorem hF2_2 (c : Dev nD) : (dat2 (T5 m) c).arrAt 2 cfg2.N = T6 m c main_v28 :=
  ((dat2 (T5 m) c).arrAt_in 2 rfl _).trans ((A_eq2 (T5 m) c 2).trans (W6_of m c main_v28 (by decide)).symm)
set_option maxHeartbeats 1000000 in
theorem hF2_3 (c : Dev nD) : (dat2 (T5 m) c).arrAt 3 cfg2.N = T6 m c main_v50 :=
  ((dat2 (T5 m) c).arrAt_in 3 rfl _).trans ((A_eq2 (T5 m) c 3).trans (W6_of m c main_v50 (by decide)).symm)
set_option maxHeartbeats 1000000 in
theorem hF2 (c : Dev nD) (w : Fin cfg2.W) : (dat2 (T5 m) c).arrAt w cfg2.N = T6 m c (Pipeline.arrRef spec2 w) := by
  match w with
  | ⟨0, _⟩ => exact hF2_0 m c
  | ⟨1, _⟩ => exact hF2_1 m c
  | ⟨2, _⟩ => exact hF2_2 m c
  | ⟨3, _⟩ => exact hF2_3 m c
  | ⟨4, _⟩ => exact (W6_out4 m c).symm
  | ⟨5, _⟩ => exact (W6_out5 m c).symm
  | ⟨6, _⟩ => exact (W6_out6 m c).symm
theorem hrest2 (c : Dev nD) : ∀ b, b ∉ Finset.univ.image (Pipeline.arrRef spec2) → T6 m c b = T5 m c b :=
  fun b hb => W6_of m c b (fun hmem => hb (by
    simp only [List.mem_cons, List.mem_singleton, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩
    ))
theorem W8_of (c : Dev nD) (r : Ref sig .tc) (h : r ∉ ([main_v67] : List (Ref sig .tc))) : W8 m c r = W7 m c r := by
  simp only [W8, Function.update_of_ne (StableHlo.devRef_ne_of_ne (List.ne_of_not_mem_cons h) : (Proc.devRef .tc r : DevRef τ sig) ≠ Proc.devRef .tc main_v67)]
theorem W8_out5 (c : Dev nD) : W8 m c (Proc.devRef .tc main_v67) = (dat3 (T7 m) c).arrAt 5 cfg3.N := by
  simp only [W8, Function.update_self]
set_option maxHeartbeats 1000000 in
theorem hF3_0 (c : Dev nD) : (dat3 (T7 m) c).arrAt 0 cfg3.N = T8 m c main_v51_0 :=
  ((dat3 (T7 m) c).arrAt_in 0 rfl _).trans ((A_eq3 (T7 m) c 0).trans (W8_of m c main_v51_0 (by decide)).symm)
set_option maxHeartbeats 1000000 in
theorem hF3_1 (c : Dev nD) : (dat3 (T7 m) c).arrAt 1 cfg3.N = T8 m c main_v53 :=
  ((dat3 (T7 m) c).arrAt_in 1 rfl _).trans ((A_eq3 (T7 m) c 1).trans (W8_of m c main_v53 (by decide)).symm)
set_option maxHeartbeats 1000000 in
theorem hF3_2 (c : Dev nD) : (dat3 (T7 m) c).arrAt 2 cfg3.N = T8 m c main_v60 :=
  ((dat3 (T7 m) c).arrAt_in 2 rfl _).trans ((A_eq3 (T7 m) c 2).trans (W8_of m c main_v60 (by decide)).symm)
set_option maxHeartbeats 1000000 in
theorem hF3_3 (c : Dev nD) : (dat3 (T7 m) c).arrAt 3 cfg3.N = T8 m c main_v63 :=
  ((dat3 (T7 m) c).arrAt_in 3 rfl _).trans ((A_eq3 (T7 m) c 3).trans (W8_of m c main_v63 (by decide)).symm)
set_option maxHeartbeats 1000000 in
theorem hF3_4 (c : Dev nD) : (dat3 (T7 m) c).arrAt 4 cfg3.N = T8 m c main_v66 :=
  ((dat3 (T7 m) c).arrAt_in 4 rfl _).trans ((A_eq3 (T7 m) c 4).trans (W8_of m c main_v66 (by decide)).symm)
set_option maxHeartbeats 1000000 in
theorem hF3 (c : Dev nD) (w : Fin cfg3.W) : (dat3 (T7 m) c).arrAt w cfg3.N = T8 m c (Pipeline.arrRef spec3 w) := by
  match w with
  | ⟨0, _⟩ => exact hF3_0 m c
  | ⟨1, _⟩ => exact hF3_1 m c
  | ⟨2, _⟩ => exact hF3_2 m c
  | ⟨3, _⟩ => exact hF3_3 m c
  | ⟨4, _⟩ => exact hF3_4 m c
  | ⟨5, _⟩ => exact (W8_out5 m c).symm
theorem hrest3 (c : Dev nD) : ∀ b, b ∉ Finset.univ.image (Pipeline.arrRef spec3) → T8 m c b = T7 m c b :=
  fun b hb => W8_of m c b (fun hmem => hb (by
    simp only [List.mem_cons, List.mem_singleton, List.not_mem_nil, or_false] at hmem
    rcases hmem with rfl
    · exact Finset.mem_image.mpr ⟨5, Finset.mem_univ _, rfl⟩
    ))
theorem W10_of (c : Dev nD) (r : Ref sig .tc) (h : r ∉ ([main_v71] : List (Ref sig .tc))) : W10 m c r = W9 m c r := by
  simp only [W10, Function.update_of_ne (StableHlo.devRef_ne_of_ne (List.ne_of_not_mem_cons h) : (Proc.devRef .tc r : DevRef τ sig) ≠ Proc.devRef .tc main_v71)]
theorem W10_out3 (c : Dev nD) : W10 m c (Proc.devRef .tc main_v71) = (dat4 (T9 m) c).arrAt 3 cfg4.N := by
  simp only [W10, Function.update_self]
set_option maxHeartbeats 1000000 in
theorem hF4_0 (c : Dev nD) : (dat4 (T9 m) c).arrAt 0 cfg4.N = T10 m c main_v67 :=
  ((dat4 (T9 m) c).arrAt_in 0 rfl _).trans ((A_eq4 (T9 m) c 0).trans (W10_of m c main_v67 (by decide)).symm)
set_option maxHeartbeats 1000000 in
theorem hF4_1 (c : Dev nD) : (dat4 (T9 m) c).arrAt 1 cfg4.N = T10 m c main_v69 :=
  ((dat4 (T9 m) c).arrAt_in 1 rfl _).trans ((A_eq4 (T9 m) c 1).trans (W10_of m c main_v69 (by decide)).symm)
set_option maxHeartbeats 1000000 in
theorem hF4_2 (c : Dev nD) : (dat4 (T9 m) c).arrAt 2 cfg4.N = T10 m c main_v70 :=
  ((dat4 (T9 m) c).arrAt_in 2 rfl _).trans ((A_eq4 (T9 m) c 2).trans (W10_of m c main_v70 (by decide)).symm)
set_option maxHeartbeats 1000000 in
theorem hF4 (c : Dev nD) (w : Fin cfg4.W) : (dat4 (T9 m) c).arrAt w cfg4.N = T10 m c (Pipeline.arrRef spec4 w) := by
  match w with
  | ⟨0, _⟩ => exact hF4_0 m c
  | ⟨1, _⟩ => exact hF4_1 m c
  | ⟨2, _⟩ => exact hF4_2 m c
  | ⟨3, _⟩ => exact (W10_out3 m c).symm
theorem hrest4 (c : Dev nD) : ∀ b, b ∉ Finset.univ.image (Pipeline.arrRef spec4) → T10 m c b = T9 m c b :=
  fun b hb => W10_of m c b (fun hmem => hb (by
    simp only [List.mem_cons, List.mem_singleton, List.not_mem_nil, or_false] at hmem
    rcases hmem with rfl
    · exact Finset.mem_image.mpr ⟨3, Finset.mem_univ _, rfl⟩
    ))
theorem W12_of (c : Dev nD) (r : Ref sig .tc) (h : r ∉ ([main_v88_0, main_v88_1, main_v88_2] : List (Ref sig .tc))) : W12 m c r = W11 m c r := by
  simp only [W12, Function.update_of_ne (StableHlo.devRef_ne_of_ne (List.ne_of_not_mem_cons h) : (Proc.devRef .tc r : DevRef τ sig) ≠ Proc.devRef .tc main_v88_0), Function.update_of_ne (StableHlo.devRef_ne_of_ne (List.ne_of_not_mem_cons (List.not_mem_of_not_mem_cons h)) : (Proc.devRef .tc r : DevRef τ sig) ≠ Proc.devRef .tc main_v88_1), Function.update_of_ne (StableHlo.devRef_ne_of_ne (List.ne_of_not_mem_cons (List.not_mem_of_not_mem_cons (List.not_mem_of_not_mem_cons h))) : (Proc.devRef .tc r : DevRef τ sig) ≠ Proc.devRef .tc main_v88_2)]
theorem W12_out4 (c : Dev nD) : W12 m c (Proc.devRef .tc main_v88_0) = (dat5 (T11 m) c).arrAt 4 cfg5.N := by
  simp only [W12, Function.update_self, Function.update_of_ne (StableHlo.devRef_ne_of_ne (by decide : main_v88_0 ≠ main_v88_1) : (Proc.devRef .tc main_v88_0 : DevRef τ sig) ≠ Proc.devRef .tc main_v88_1), Function.update_of_ne (StableHlo.devRef_ne_of_ne (by decide : main_v88_0 ≠ main_v88_2) : (Proc.devRef .tc main_v88_0 : DevRef τ sig) ≠ Proc.devRef .tc main_v88_2)]
theorem W12_out5 (c : Dev nD) : W12 m c (Proc.devRef .tc main_v88_1) = (dat5 (T11 m) c).arrAt 5 cfg5.N := by
  simp only [W12, Function.update_self, Function.update_of_ne (StableHlo.devRef_ne_of_ne (by decide : main_v88_1 ≠ main_v88_2) : (Proc.devRef .tc main_v88_1 : DevRef τ sig) ≠ Proc.devRef .tc main_v88_2)]
theorem W12_out6 (c : Dev nD) : W12 m c (Proc.devRef .tc main_v88_2) = (dat5 (T11 m) c).arrAt 6 cfg5.N := by
  simp only [W12, Function.update_self]
set_option maxHeartbeats 1000000 in
theorem hF5_0 (c : Dev nD) : (dat5 (T11 m) c).arrAt 0 cfg5.N = T12 m c main_v84 :=
  ((dat5 (T11 m) c).arrAt_in 0 rfl _).trans ((A_eq5 (T11 m) c 0).trans (W12_of m c main_v84 (by decide)).symm)
set_option maxHeartbeats 1000000 in
theorem hF5_1 (c : Dev nD) : (dat5 (T11 m) c).arrAt 1 cfg5.N = T12 m c main_v71 :=
  ((dat5 (T11 m) c).arrAt_in 1 rfl _).trans ((A_eq5 (T11 m) c 1).trans (W12_of m c main_v71 (by decide)).symm)
set_option maxHeartbeats 1000000 in
theorem hF5_2 (c : Dev nD) : (dat5 (T11 m) c).arrAt 2 cfg5.N = T12 m c main_v28 :=
  ((dat5 (T11 m) c).arrAt_in 2 rfl _).trans ((A_eq5 (T11 m) c 2).trans (W12_of m c main_v28 (by decide)).symm)
set_option maxHeartbeats 1000000 in
theorem hF5_3 (c : Dev nD) : (dat5 (T11 m) c).arrAt 3 cfg5.N = T12 m c main_v87 :=
  ((dat5 (T11 m) c).arrAt_in 3 rfl _).trans ((A_eq5 (T11 m) c 3).trans (W12_of m c main_v87 (by decide)).symm)
set_option maxHeartbeats 1000000 in
theorem hF5 (c : Dev nD) (w : Fin cfg5.W) : (dat5 (T11 m) c).arrAt w cfg5.N = T12 m c (Pipeline.arrRef spec5 w) := by
  match w with
  | ⟨0, _⟩ => exact hF5_0 m c
  | ⟨1, _⟩ => exact hF5_1 m c
  | ⟨2, _⟩ => exact hF5_2 m c
  | ⟨3, _⟩ => exact hF5_3 m c
  | ⟨4, _⟩ => exact (W12_out4 m c).symm
  | ⟨5, _⟩ => exact (W12_out5 m c).symm
  | ⟨6, _⟩ => exact (W12_out6 m c).symm
theorem hrest5 (c : Dev nD) : ∀ b, b ∉ Finset.univ.image (Pipeline.arrRef spec5) → T12 m c b = T11 m c b :=
  fun b hb => W12_of m c b (fun hmem => hb (by
    simp only [List.mem_cons, List.mem_singleton, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩
    ))
theorem W14_of (c : Dev nD) (r : Ref sig .tc) (h : r ∉ ([main_v104] : List (Ref sig .tc))) : W14 m c r = W13 m c r := by
  simp only [W14, Function.update_of_ne (StableHlo.devRef_ne_of_ne (List.ne_of_not_mem_cons h) : (Proc.devRef .tc r : DevRef τ sig) ≠ Proc.devRef .tc main_v104)]
theorem W14_out5 (c : Dev nD) : W14 m c (Proc.devRef .tc main_v104) = (dat6 (T13 m) c).arrAt 5 cfg6.N := by
  simp only [W14, Function.update_self]
set_option maxHeartbeats 1000000 in
theorem hF6_0 (c : Dev nD) : (dat6 (T13 m) c).arrAt 0 cfg6.N = T14 m c main_v88_0 :=
  ((dat6 (T13 m) c).arrAt_in 0 rfl _).trans ((A_eq6 (T13 m) c 0).trans (W14_of m c main_v88_0 (by decide)).symm)
set_option maxHeartbeats 1000000 in
theorem hF6_1 (c : Dev nD) : (dat6 (T13 m) c).arrAt 1 cfg6.N = T14 m c main_v90 :=
  ((dat6 (T13 m) c).arrAt_in 1 rfl _).trans ((A_eq6 (T13 m) c 1).trans (W14_of m c main_v90 (by decide)).symm)
set_option maxHeartbeats 1000000 in
theorem hF6_2 (c : Dev nD) : (dat6 (T13 m) c).arrAt 2 cfg6.N = T14 m c main_v97 :=
  ((dat6 (T13 m) c).arrAt_in 2 rfl _).trans ((A_eq6 (T13 m) c 2).trans (W14_of m c main_v97 (by decide)).symm)
set_option maxHeartbeats 1000000 in
theorem hF6_3 (c : Dev nD) : (dat6 (T13 m) c).arrAt 3 cfg6.N = T14 m c main_v100 :=
  ((dat6 (T13 m) c).arrAt_in 3 rfl _).trans ((A_eq6 (T13 m) c 3).trans (W14_of m c main_v100 (by decide)).symm)
set_option maxHeartbeats 1000000 in
theorem hF6_4 (c : Dev nD) : (dat6 (T13 m) c).arrAt 4 cfg6.N = T14 m c main_v103 :=
  ((dat6 (T13 m) c).arrAt_in 4 rfl _).trans ((A_eq6 (T13 m) c 4).trans (W14_of m c main_v103 (by decide)).symm)
set_option maxHeartbeats 1000000 in
theorem hF6 (c : Dev nD) (w : Fin cfg6.W) : (dat6 (T13 m) c).arrAt w cfg6.N = T14 m c (Pipeline.arrRef spec6 w) := by
  match w with
  | ⟨0, _⟩ => exact hF6_0 m c
  | ⟨1, _⟩ => exact hF6_1 m c
  | ⟨2, _⟩ => exact hF6_2 m c
  | ⟨3, _⟩ => exact hF6_3 m c
  | ⟨4, _⟩ => exact hF6_4 m c
  | ⟨5, _⟩ => exact (W14_out5 m c).symm
theorem hrest6 (c : Dev nD) : ∀ b, b ∉ Finset.univ.image (Pipeline.arrRef spec6) → T14 m c b = T13 m c b :=
  fun b hb => W14_of m c b (fun hmem => hb (by
    simp only [List.mem_cons, List.mem_singleton, List.not_mem_nil, or_false] at hmem
    rcases hmem with rfl
    · exact Finset.mem_image.mpr ⟨5, Finset.mem_univ _, rfl⟩
    ))
theorem W16_of (c : Dev nD) (r : Ref sig .tc) (h : r ∉ ([main_v108] : List (Ref sig .tc))) : W16 m c r = W15 m c r := by
  simp only [W16, Function.update_of_ne (StableHlo.devRef_ne_of_ne (List.ne_of_not_mem_cons h) : (Proc.devRef .tc r : DevRef τ sig) ≠ Proc.devRef .tc main_v108)]
theorem W16_out3 (c : Dev nD) : W16 m c (Proc.devRef .tc main_v108) = (dat7 (T15 m) c).arrAt 3 cfg7.N := by
  simp only [W16, Function.update_self]
set_option maxHeartbeats 1000000 in
theorem hF7_0 (c : Dev nD) : (dat7 (T15 m) c).arrAt 0 cfg7.N = T16 m c main_v104 :=
  ((dat7 (T15 m) c).arrAt_in 0 rfl _).trans ((A_eq7 (T15 m) c 0).trans (W16_of m c main_v104 (by decide)).symm)
set_option maxHeartbeats 1000000 in
theorem hF7_1 (c : Dev nD) : (dat7 (T15 m) c).arrAt 1 cfg7.N = T16 m c main_v106 :=
  ((dat7 (T15 m) c).arrAt_in 1 rfl _).trans ((A_eq7 (T15 m) c 1).trans (W16_of m c main_v106 (by decide)).symm)
set_option maxHeartbeats 1000000 in
theorem hF7_2 (c : Dev nD) : (dat7 (T15 m) c).arrAt 2 cfg7.N = T16 m c main_v107 :=
  ((dat7 (T15 m) c).arrAt_in 2 rfl _).trans ((A_eq7 (T15 m) c 2).trans (W16_of m c main_v107 (by decide)).symm)
set_option maxHeartbeats 1000000 in
theorem hF7 (c : Dev nD) (w : Fin cfg7.W) : (dat7 (T15 m) c).arrAt w cfg7.N = T16 m c (Pipeline.arrRef spec7 w) := by
  match w with
  | ⟨0, _⟩ => exact hF7_0 m c
  | ⟨1, _⟩ => exact hF7_1 m c
  | ⟨2, _⟩ => exact hF7_2 m c
  | ⟨3, _⟩ => exact (W16_out3 m c).symm
theorem hrest7 (c : Dev nD) : ∀ b, b ∉ Finset.univ.image (Pipeline.arrRef spec7) → T16 m c b = T15 m c b :=
  fun b hb => W16_of m c b (fun hmem => hb (by
    simp only [List.mem_cons, List.mem_singleton, List.not_mem_nil, or_false] at hmem
    rcases hmem with rfl
    · exact Finset.mem_image.mpr ⟨3, Finset.mem_univ _, rfl⟩
    ))
theorem W18_of (c : Dev nD) (r : Ref sig .tc) (h : r ∉ ([main_v125_0, main_v125_1, main_v125_2] : List (Ref sig .tc))) : W18 m c r = W17 m c r := by
  simp only [W18, Function.update_of_ne (StableHlo.devRef_ne_of_ne (List.ne_of_not_mem_cons h) : (Proc.devRef .tc r : DevRef τ sig) ≠ Proc.devRef .tc main_v125_0), Function.update_of_ne (StableHlo.devRef_ne_of_ne (List.ne_of_not_mem_cons (List.not_mem_of_not_mem_cons h)) : (Proc.devRef .tc r : DevRef τ sig) ≠ Proc.devRef .tc main_v125_1), Function.update_of_ne (StableHlo.devRef_ne_of_ne (List.ne_of_not_mem_cons (List.not_mem_of_not_mem_cons (List.not_mem_of_not_mem_cons h))) : (Proc.devRef .tc r : DevRef τ sig) ≠ Proc.devRef .tc main_v125_2)]
theorem W18_out4 (c : Dev nD) : W18 m c (Proc.devRef .tc main_v125_0) = (dat8 (T17 m) c).arrAt 4 cfg8.N := by
  simp only [W18, Function.update_self, Function.update_of_ne (StableHlo.devRef_ne_of_ne (by decide : main_v125_0 ≠ main_v125_1) : (Proc.devRef .tc main_v125_0 : DevRef τ sig) ≠ Proc.devRef .tc main_v125_1), Function.update_of_ne (StableHlo.devRef_ne_of_ne (by decide : main_v125_0 ≠ main_v125_2) : (Proc.devRef .tc main_v125_0 : DevRef τ sig) ≠ Proc.devRef .tc main_v125_2)]
theorem W18_out5 (c : Dev nD) : W18 m c (Proc.devRef .tc main_v125_1) = (dat8 (T17 m) c).arrAt 5 cfg8.N := by
  simp only [W18, Function.update_self, Function.update_of_ne (StableHlo.devRef_ne_of_ne (by decide : main_v125_1 ≠ main_v125_2) : (Proc.devRef .tc main_v125_1 : DevRef τ sig) ≠ Proc.devRef .tc main_v125_2)]
theorem W18_out6 (c : Dev nD) : W18 m c (Proc.devRef .tc main_v125_2) = (dat8 (T17 m) c).arrAt 6 cfg8.N := by
  simp only [W18, Function.update_self]
set_option maxHeartbeats 1000000 in
theorem hF8_0 (c : Dev nD) : (dat8 (T17 m) c).arrAt 0 cfg8.N = T18 m c main_v121 :=
  ((dat8 (T17 m) c).arrAt_in 0 rfl _).trans ((A_eq8 (T17 m) c 0).trans (W18_of m c main_v121 (by decide)).symm)
set_option maxHeartbeats 1000000 in
theorem hF8_1 (c : Dev nD) : (dat8 (T17 m) c).arrAt 1 cfg8.N = T18 m c main_v108 :=
  ((dat8 (T17 m) c).arrAt_in 1 rfl _).trans ((A_eq8 (T17 m) c 1).trans (W18_of m c main_v108 (by decide)).symm)
set_option maxHeartbeats 1000000 in
theorem hF8_2 (c : Dev nD) : (dat8 (T17 m) c).arrAt 2 cfg8.N = T18 m c main_v28 :=
  ((dat8 (T17 m) c).arrAt_in 2 rfl _).trans ((A_eq8 (T17 m) c 2).trans (W18_of m c main_v28 (by decide)).symm)
set_option maxHeartbeats 1000000 in
theorem hF8_3 (c : Dev nD) : (dat8 (T17 m) c).arrAt 3 cfg8.N = T18 m c main_v124 :=
  ((dat8 (T17 m) c).arrAt_in 3 rfl _).trans ((A_eq8 (T17 m) c 3).trans (W18_of m c main_v124 (by decide)).symm)
set_option maxHeartbeats 1000000 in
theorem hF8 (c : Dev nD) (w : Fin cfg8.W) : (dat8 (T17 m) c).arrAt w cfg8.N = T18 m c (Pipeline.arrRef spec8 w) := by
  match w with
  | ⟨0, _⟩ => exact hF8_0 m c
  | ⟨1, _⟩ => exact hF8_1 m c
  | ⟨2, _⟩ => exact hF8_2 m c
  | ⟨3, _⟩ => exact hF8_3 m c
  | ⟨4, _⟩ => exact (W18_out4 m c).symm
  | ⟨5, _⟩ => exact (W18_out5 m c).symm
  | ⟨6, _⟩ => exact (W18_out6 m c).symm
theorem hrest8 (c : Dev nD) : ∀ b, b ∉ Finset.univ.image (Pipeline.arrRef spec8) → T18 m c b = T17 m c b :=
  fun b hb => W18_of m c b (fun hmem => hb (by
    simp only [List.mem_cons, List.mem_singleton, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩
    ))
theorem W20_of (c : Dev nD) (r : Ref sig .tc) (h : r ∉ ([main_v141] : List (Ref sig .tc))) : W20 m c r = W19 m c r := by
  simp only [W20, Function.update_of_ne (StableHlo.devRef_ne_of_ne (List.ne_of_not_mem_cons h) : (Proc.devRef .tc r : DevRef τ sig) ≠ Proc.devRef .tc main_v141)]
theorem W20_out5 (c : Dev nD) : W20 m c (Proc.devRef .tc main_v141) = (dat9 (T19 m) c).arrAt 5 cfg9.N := by
  simp only [W20, Function.update_self]
set_option maxHeartbeats 1000000 in
theorem hF9_0 (c : Dev nD) : (dat9 (T19 m) c).arrAt 0 cfg9.N = T20 m c main_v125_0 :=
  ((dat9 (T19 m) c).arrAt_in 0 rfl _).trans ((A_eq9 (T19 m) c 0).trans (W20_of m c main_v125_0 (by decide)).symm)
set_option maxHeartbeats 1000000 in
theorem hF9_1 (c : Dev nD) : (dat9 (T19 m) c).arrAt 1 cfg9.N = T20 m c main_v127 :=
  ((dat9 (T19 m) c).arrAt_in 1 rfl _).trans ((A_eq9 (T19 m) c 1).trans (W20_of m c main_v127 (by decide)).symm)
set_option maxHeartbeats 1000000 in
theorem hF9_2 (c : Dev nD) : (dat9 (T19 m) c).arrAt 2 cfg9.N = T20 m c main_v134 :=
  ((dat9 (T19 m) c).arrAt_in 2 rfl _).trans ((A_eq9 (T19 m) c 2).trans (W20_of m c main_v134 (by decide)).symm)
set_option maxHeartbeats 1000000 in
theorem hF9_3 (c : Dev nD) : (dat9 (T19 m) c).arrAt 3 cfg9.N = T20 m c main_v137 :=
  ((dat9 (T19 m) c).arrAt_in 3 rfl _).trans ((A_eq9 (T19 m) c 3).trans (W20_of m c main_v137 (by decide)).symm)
set_option maxHeartbeats 1000000 in
theorem hF9_4 (c : Dev nD) : (dat9 (T19 m) c).arrAt 4 cfg9.N = T20 m c main_v140 :=
  ((dat9 (T19 m) c).arrAt_in 4 rfl _).trans ((A_eq9 (T19 m) c 4).trans (W20_of m c main_v140 (by decide)).symm)
set_option maxHeartbeats 1000000 in
theorem hF9 (c : Dev nD) (w : Fin cfg9.W) : (dat9 (T19 m) c).arrAt w cfg9.N = T20 m c (Pipeline.arrRef spec9 w) := by
  match w with
  | ⟨0, _⟩ => exact hF9_0 m c
  | ⟨1, _⟩ => exact hF9_1 m c
  | ⟨2, _⟩ => exact hF9_2 m c
  | ⟨3, _⟩ => exact hF9_3 m c
  | ⟨4, _⟩ => exact hF9_4 m c
  | ⟨5, _⟩ => exact (W20_out5 m c).symm
theorem hrest9 (c : Dev nD) : ∀ b, b ∉ Finset.univ.image (Pipeline.arrRef spec9) → T20 m c b = T19 m c b :=
  fun b hb => W20_of m c b (fun hmem => hb (by
    simp only [List.mem_cons, List.mem_singleton, List.not_mem_nil, or_false] at hmem
    rcases hmem with rfl
    · exact Finset.mem_image.mpr ⟨5, Finset.mem_univ _, rfl⟩
    ))
theorem W22_of (c : Dev nD) (r : Ref sig .tc) (h : r ∉ ([main_v145] : List (Ref sig .tc))) : W22 m c r = W21 m c r := by
  simp only [W22, Function.update_of_ne (StableHlo.devRef_ne_of_ne (List.ne_of_not_mem_cons h) : (Proc.devRef .tc r : DevRef τ sig) ≠ Proc.devRef .tc main_v145)]
theorem W22_out3 (c : Dev nD) : W22 m c (Proc.devRef .tc main_v145) = (dat10 (T21 m) c).arrAt 3 cfg10.N := by
  simp only [W22, Function.update_self]
set_option maxHeartbeats 1000000 in
theorem hF10_0 (c : Dev nD) : (dat10 (T21 m) c).arrAt 0 cfg10.N = T22 m c main_v141 :=
  ((dat10 (T21 m) c).arrAt_in 0 rfl _).trans ((A_eq10 (T21 m) c 0).trans (W22_of m c main_v141 (by decide)).symm)
set_option maxHeartbeats 1000000 in
theorem hF10_1 (c : Dev nD) : (dat10 (T21 m) c).arrAt 1 cfg10.N = T22 m c main_v143 :=
  ((dat10 (T21 m) c).arrAt_in 1 rfl _).trans ((A_eq10 (T21 m) c 1).trans (W22_of m c main_v143 (by decide)).symm)
set_option maxHeartbeats 1000000 in
theorem hF10_2 (c : Dev nD) : (dat10 (T21 m) c).arrAt 2 cfg10.N = T22 m c main_v144 :=
  ((dat10 (T21 m) c).arrAt_in 2 rfl _).trans ((A_eq10 (T21 m) c 2).trans (W22_of m c main_v144 (by decide)).symm)
set_option maxHeartbeats 1000000 in
theorem hF10 (c : Dev nD) (w : Fin cfg10.W) : (dat10 (T21 m) c).arrAt w cfg10.N = T22 m c (Pipeline.arrRef spec10 w) := by
  match w with
  | ⟨0, _⟩ => exact hF10_0 m c
  | ⟨1, _⟩ => exact hF10_1 m c
  | ⟨2, _⟩ => exact hF10_2 m c
  | ⟨3, _⟩ => exact (W22_out3 m c).symm
theorem hrest10 (c : Dev nD) : ∀ b, b ∉ Finset.univ.image (Pipeline.arrRef spec10) → T22 m c b = T21 m c b :=
  fun b hb => W22_of m c b (fun hmem => hb (by
    simp only [List.mem_cons, List.mem_singleton, List.not_mem_nil, or_false] at hmem
    rcases hmem with rfl
    · exact Finset.mem_image.mpr ⟨3, Finset.mem_univ _, rfl⟩
    ))
theorem W24_of (c : Dev nD) (r : Ref sig .tc) (h : r ∉ ([main_v162_0, main_v162_1, main_v162_2] : List (Ref sig .tc))) : W24 m c r = W23 m c r := by
  simp only [W24, Function.update_of_ne (StableHlo.devRef_ne_of_ne (List.ne_of_not_mem_cons h) : (Proc.devRef .tc r : DevRef τ sig) ≠ Proc.devRef .tc main_v162_0), Function.update_of_ne (StableHlo.devRef_ne_of_ne (List.ne_of_not_mem_cons (List.not_mem_of_not_mem_cons h)) : (Proc.devRef .tc r : DevRef τ sig) ≠ Proc.devRef .tc main_v162_1), Function.update_of_ne (StableHlo.devRef_ne_of_ne (List.ne_of_not_mem_cons (List.not_mem_of_not_mem_cons (List.not_mem_of_not_mem_cons h))) : (Proc.devRef .tc r : DevRef τ sig) ≠ Proc.devRef .tc main_v162_2)]
theorem W24_out4 (c : Dev nD) : W24 m c (Proc.devRef .tc main_v162_0) = (dat11 (T23 m) c).arrAt 4 cfg11.N := by
  simp only [W24, Function.update_self, Function.update_of_ne (StableHlo.devRef_ne_of_ne (by decide : main_v162_0 ≠ main_v162_1) : (Proc.devRef .tc main_v162_0 : DevRef τ sig) ≠ Proc.devRef .tc main_v162_1), Function.update_of_ne (StableHlo.devRef_ne_of_ne (by decide : main_v162_0 ≠ main_v162_2) : (Proc.devRef .tc main_v162_0 : DevRef τ sig) ≠ Proc.devRef .tc main_v162_2)]
theorem W24_out5 (c : Dev nD) : W24 m c (Proc.devRef .tc main_v162_1) = (dat11 (T23 m) c).arrAt 5 cfg11.N := by
  simp only [W24, Function.update_self, Function.update_of_ne (StableHlo.devRef_ne_of_ne (by decide : main_v162_1 ≠ main_v162_2) : (Proc.devRef .tc main_v162_1 : DevRef τ sig) ≠ Proc.devRef .tc main_v162_2)]
theorem W24_out6 (c : Dev nD) : W24 m c (Proc.devRef .tc main_v162_2) = (dat11 (T23 m) c).arrAt 6 cfg11.N := by
  simp only [W24, Function.update_self]
set_option maxHeartbeats 1000000 in
theorem hF11_0 (c : Dev nD) : (dat11 (T23 m) c).arrAt 0 cfg11.N = T24 m c main_v158 :=
  ((dat11 (T23 m) c).arrAt_in 0 rfl _).trans ((A_eq11 (T23 m) c 0).trans (W24_of m c main_v158 (by decide)).symm)
set_option maxHeartbeats 1000000 in
theorem hF11_1 (c : Dev nD) : (dat11 (T23 m) c).arrAt 1 cfg11.N = T24 m c main_v145 :=
  ((dat11 (T23 m) c).arrAt_in 1 rfl _).trans ((A_eq11 (T23 m) c 1).trans (W24_of m c main_v145 (by decide)).symm)
set_option maxHeartbeats 1000000 in
theorem hF11_2 (c : Dev nD) : (dat11 (T23 m) c).arrAt 2 cfg11.N = T24 m c main_v28 :=
  ((dat11 (T23 m) c).arrAt_in 2 rfl _).trans ((A_eq11 (T23 m) c 2).trans (W24_of m c main_v28 (by decide)).symm)
set_option maxHeartbeats 1000000 in
theorem hF11_3 (c : Dev nD) : (dat11 (T23 m) c).arrAt 3 cfg11.N = T24 m c main_v161 :=
  ((dat11 (T23 m) c).arrAt_in 3 rfl _).trans ((A_eq11 (T23 m) c 3).trans (W24_of m c main_v161 (by decide)).symm)
set_option maxHeartbeats 1000000 in
theorem hF11 (c : Dev nD) (w : Fin cfg11.W) : (dat11 (T23 m) c).arrAt w cfg11.N = T24 m c (Pipeline.arrRef spec11 w) := by
  match w with
  | ⟨0, _⟩ => exact hF11_0 m c
  | ⟨1, _⟩ => exact hF11_1 m c
  | ⟨2, _⟩ => exact hF11_2 m c
  | ⟨3, _⟩ => exact hF11_3 m c
  | ⟨4, _⟩ => exact (W24_out4 m c).symm
  | ⟨5, _⟩ => exact (W24_out5 m c).symm
  | ⟨6, _⟩ => exact (W24_out6 m c).symm
theorem hrest11 (c : Dev nD) : ∀ b, b ∉ Finset.univ.image (Pipeline.arrRef spec11) → T24 m c b = T23 m c b :=
  fun b hb => W24_of m c b (fun hmem => hb (by
    simp only [List.mem_cons, List.mem_singleton, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩
    ))
theorem W26_of (c : Dev nD) (r : Ref sig .tc) (h : r ∉ ([main_v178] : List (Ref sig .tc))) : W26 m c r = W25 m c r := by
  simp only [W26, Function.update_of_ne (StableHlo.devRef_ne_of_ne (List.ne_of_not_mem_cons h) : (Proc.devRef .tc r : DevRef τ sig) ≠ Proc.devRef .tc main_v178)]
theorem W26_out5 (c : Dev nD) : W26 m c (Proc.devRef .tc main_v178) = (dat12 (T25 m) c).arrAt 5 cfg12.N := by
  simp only [W26, Function.update_self]
set_option maxHeartbeats 1000000 in
theorem hF12_0 (c : Dev nD) : (dat12 (T25 m) c).arrAt 0 cfg12.N = T26 m c main_v162_0 :=
  ((dat12 (T25 m) c).arrAt_in 0 rfl _).trans ((A_eq12 (T25 m) c 0).trans (W26_of m c main_v162_0 (by decide)).symm)
set_option maxHeartbeats 1000000 in
theorem hF12_1 (c : Dev nD) : (dat12 (T25 m) c).arrAt 1 cfg12.N = T26 m c main_v164 :=
  ((dat12 (T25 m) c).arrAt_in 1 rfl _).trans ((A_eq12 (T25 m) c 1).trans (W26_of m c main_v164 (by decide)).symm)
set_option maxHeartbeats 1000000 in
theorem hF12_2 (c : Dev nD) : (dat12 (T25 m) c).arrAt 2 cfg12.N = T26 m c main_v171 :=
  ((dat12 (T25 m) c).arrAt_in 2 rfl _).trans ((A_eq12 (T25 m) c 2).trans (W26_of m c main_v171 (by decide)).symm)
set_option maxHeartbeats 1000000 in
theorem hF12_3 (c : Dev nD) : (dat12 (T25 m) c).arrAt 3 cfg12.N = T26 m c main_v174 :=
  ((dat12 (T25 m) c).arrAt_in 3 rfl _).trans ((A_eq12 (T25 m) c 3).trans (W26_of m c main_v174 (by decide)).symm)
set_option maxHeartbeats 1000000 in
theorem hF12_4 (c : Dev nD) : (dat12 (T25 m) c).arrAt 4 cfg12.N = T26 m c main_v177 :=
  ((dat12 (T25 m) c).arrAt_in 4 rfl _).trans ((A_eq12 (T25 m) c 4).trans (W26_of m c main_v177 (by decide)).symm)
set_option maxHeartbeats 1000000 in
theorem hF12 (c : Dev nD) (w : Fin cfg12.W) : (dat12 (T25 m) c).arrAt w cfg12.N = T26 m c (Pipeline.arrRef spec12 w) := by
  match w with
  | ⟨0, _⟩ => exact hF12_0 m c
  | ⟨1, _⟩ => exact hF12_1 m c
  | ⟨2, _⟩ => exact hF12_2 m c
  | ⟨3, _⟩ => exact hF12_3 m c
  | ⟨4, _⟩ => exact hF12_4 m c
  | ⟨5, _⟩ => exact (W26_out5 m c).symm
theorem hrest12 (c : Dev nD) : ∀ b, b ∉ Finset.univ.image (Pipeline.arrRef spec12) → T26 m c b = T25 m c b :=
  fun b hb => W26_of m c b (fun hmem => hb (by
    simp only [List.mem_cons, List.mem_singleton, List.not_mem_nil, or_false] at hmem
    rcases hmem with rfl
    · exact Finset.mem_image.mpr ⟨5, Finset.mem_univ _, rfl⟩
    ))
theorem W28_of (c : Dev nD) (r : Ref sig .tc) (h : r ∉ ([main_v180] : List (Ref sig .tc))) : W28 m c r = W27 m c r := by
  simp only [W28, Function.update_of_ne (StableHlo.devRef_ne_of_ne (List.ne_of_not_mem_cons h) : (Proc.devRef .tc r : DevRef τ sig) ≠ Proc.devRef .tc main_v180)]
theorem W28_out3 (c : Dev nD) : W28 m c (Proc.devRef .tc main_v180) = (dat13 (T27 m) c).arrAt 3 cfg13.N := by
  simp only [W28, Function.update_self]
set_option maxHeartbeats 1000000 in
theorem hF13_0 (c : Dev nD) : (dat13 (T27 m) c).arrAt 0 cfg13.N = T28 m c main_v178 :=
  ((dat13 (T27 m) c).arrAt_in 0 rfl _).trans ((A_eq13 (T27 m) c 0).trans (W28_of m c main_v178 (by decide)).symm)
set_option maxHeartbeats 1000000 in
theorem hF13_1 (c : Dev nD) : (dat13 (T27 m) c).arrAt 1 cfg13.N = T28 m c main_arg8 :=
  ((dat13 (T27 m) c).arrAt_in 1 rfl _).trans ((A_eq13 (T27 m) c 1).trans (W28_of m c main_arg8 (by decide)).symm)
set_option maxHeartbeats 1000000 in
theorem hF13_2 (c : Dev nD) : (dat13 (T27 m) c).arrAt 2 cfg13.N = T28 m c main_v179 :=
  ((dat13 (T27 m) c).arrAt_in 2 rfl _).trans ((A_eq13 (T27 m) c 2).trans (W28_of m c main_v179 (by decide)).symm)
set_option maxHeartbeats 1000000 in
theorem hF13 (c : Dev nD) (w : Fin cfg13.W) : (dat13 (T27 m) c).arrAt w cfg13.N = T28 m c (Pipeline.arrRef spec13 w) := by
  match w with
  | ⟨0, _⟩ => exact hF13_0 m c
  | ⟨1, _⟩ => exact hF13_1 m c
  | ⟨2, _⟩ => exact hF13_2 m c
  | ⟨3, _⟩ => exact (W28_out3 m c).symm
theorem hrest13 (c : Dev nD) : ∀ b, b ∉ Finset.univ.image (Pipeline.arrRef spec13) → T28 m c b = T27 m c b :=
  fun b hb => W28_of m c b (fun hmem => hb (by
    simp only [List.mem_cons, List.mem_singleton, List.not_mem_nil, or_false] at hmem
    rcases hmem with rfl
    · exact Finset.mem_image.mpr ⟨3, Finset.mem_univ _, rfl⟩
    ))

/-! ## The proof data family -/

/-- Every pipeline's proof data, each at its region's entry contents: a literal match. -/
def pdats : (p : Fin 14) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c
  | ⟨6, _⟩ => fun c => dat6 (T13 m) c
  | ⟨7, _⟩ => fun c => dat7 (T15 m) c
  | ⟨8, _⟩ => fun c => dat8 (T17 m) c
  | ⟨9, _⟩ => fun c => dat9 (T19 m) c
  | ⟨10, _⟩ => fun c => dat10 (T21 m) c
  | ⟨11, _⟩ => fun c => dat11 (T23 m) c
  | ⟨12, _⟩ => fun c => dat12 (T25 m) c
  | ⟨13, _⟩ => fun c => dat13 (T27 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W28 m c) ∗ ∃ r, prngReg c r)

end Cert.KernelIdeal.Reg

end
-- ==== Proof.KI.RegsA.lean ====
import proofs.«147038_j12317966205319_1_alg».proof.Proof.KI.Conts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! # The regions as segments of @main -/

/-- What the launch hands region 0 is the invariant the class's regions keep: the scoped buffers no window stages, and the
    generator register at some state. -/
theorem phiIn0 (c : Dev nD) :
    (iprop((∃ r, prngReg c r) ∗ Pipeline.prefHeld (pcfgs (F := F) 0).pre c (fun _ => fullShare) (adm (F := F) 0).1
      ∗ Pipeline.scopedRest (Pipeline.pin (pcfgs (F := F)) adm 0).spec c) : sProp 𝕄) ⊢ Pipeline.ΦA spec0 c := by
  unfold Pipeline.ΦA
  iintro ⟨Hp, -, Hr⟩
  isplitl [Hr]; · iexact Hr
  iexact Hp

/-- and it gives them back. -/
theorem phiOut0 (c : Dev nD) :
    (Pipeline.ΦA spec0 c : sProp 𝕄) ⊢ iprop((∃ r, prngReg c r) ∗ BI.emp ∗ Pipeline.scopedRest (Pipeline.pin (pcfgs (F := F)) adm 0).spec c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at `W1`, left at `W2`; its arrays split out of
    the unscoped buffers and put back at the exit contents; the generator register into the region's invariant and out;
    nothing owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn0 c).trans (hin0 (T1 m) c)
  hout c := by
    rw [Pipeline.ownSems0_none]
    exact (hout0 (T1 m) c).trans (phiOut0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 1 is the invariant the class's regions keep: the scoped buffers no window stages, and the
    generator register at some state. -/
theorem phiIn1 (c : Dev nD) :
    (iprop((∃ r, prngReg c r) ∗ Pipeline.prefHeld (pcfgs (F := F) 1).pre c (fun _ => fullShare) (adm (F := F) 1).1
      ∗ Pipeline.scopedRest (Pipeline.pin (pcfgs (F := F)) adm 1).spec c) : sProp 𝕄) ⊢ Pipeline.ΦA spec1 c := by
  unfold Pipeline.ΦA
  iintro ⟨Hp, -, Hr⟩
  isplitl [Hr]; · iexact Hr
  iexact Hp

/-- and it gives them back. -/
theorem phiOut1 (c : Dev nD) :
    (Pipeline.ΦA spec1 c : sProp 𝕄) ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- Region 1 over the thread state: entered from every unscoped buffer at `W3`, left at `W4`; its arrays split out of
    the unscoped buffers and put back at the exit contents; the generator register into the region's invariant and out;
    nothing owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn1 c).trans (hin1 (T3 m) c)
  hout c := by
    rw [Pipeline.ownSems0_none]
    exact (hout1 (T3 m) c).trans (phiOut1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 2 is the invariant the class's regions keep: the scoped buffers no window stages, and the
    generator register at some state. -/
theorem phiIn2 (c : Dev nD) :
    (iprop((∃ r, prngReg c r) ∗ Pipeline.prefHeld (pcfgs (F := F) 2).pre c (fun _ => fullShare) (adm (F := F) 2).1
      ∗ Pipeline.scopedRest (Pipeline.pin (pcfgs (F := F)) adm 2).spec c) : sProp 𝕄) ⊢ Pipeline.ΦA spec2 c := by
  unfold Pipeline.ΦA
  iintro ⟨Hp, -, Hr⟩
  isplitl [Hr]; · iexact Hr
  iexact Hp

/-- and it gives them back. -/
theorem phiOut2 (c : Dev nD) :
    (Pipeline.ΦA spec2 c : sProp 𝕄) ⊢ iprop((∃ r, prngReg c r) ∗ BI.emp ∗ Pipeline.scopedRest (Pipeline.pin (pcfgs (F := F)) adm 2).spec c) := by
  unfold Pipeline.ΦA
  iintro ⟨Hr, Hp⟩
  isplitl [Hp]; · iexact Hp
  isplitr; · iempintro
  iexact Hr

set_option backward.isDefEq.respectTransparency.types false in
/-- Region 2 over the thread state: entered from every unscoped buffer at `W5`, left at `W6`; its arrays split out of
    the unscoped buffers and put back at the exit contents; the generator register into the region's invariant and out;
    nothing owed; no semaphore of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn2 c).trans (hin2 (T5 m) c)
  hout c := by
    rw [Pipeline.ownSems0_none]
    exact (hout2 (T5 m) c).trans (phiOut2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 3 is the invariant the class's regions keep: the scoped buffers no window stages, and the
    generator register at some state. -/
theorem phiIn3 (c : Dev nD) :
    (iprop((∃ r, prngReg c r) ∗ Pipeline.prefHeld (pcfgs (F := F) 3).pre c (fun _ => fullShare) (adm (F := F) 3).1
      ∗ Pipeline.scopedRest (Pipeline.pin (pcfgs (F := F)) adm 3).spec c) : sProp 𝕄) ⊢ Pipeline.ΦA spec3 c := by
  unfold Pipeline.ΦA
  iintro ⟨Hp, -, Hr⟩
  isplitl [Hr]; · iexact Hr
  iexact Hp

/-- and it gives them back. -/
theorem phiOut3 (c : Dev nD) :
    (Pipeline.ΦA spec3 c : sProp 𝕄) ⊢ iprop((∃ r, prngReg c r) ∗ BI.emp ∗ Pipeline.scopedRest (Pipeline.pin (pcfgs (F := F)) adm 3).spec c) := by
  unfold Pipeline.ΦA
  iintro ⟨Hr, Hp⟩
  isplitl [Hp]; · iexact Hp
  isplitr; · iempintro
  iexact Hr

set_option backward.isDefEq.respectTransparency.types false in
/-- Region 3 over the thread state: entered from every unscoped buffer at `W7`, left at `W8`; its arrays split out of
    the unscoped buffers and put back at the exit contents; the generator register into the region's invariant and out;
    nothing owed; no semaphore of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn3 c).trans (hin3 (T7 m) c)
  hout c := by
    rw [Pipeline.ownSems0_none]
    exact (hout3 (T7 m) c).trans (phiOut3 c)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 4 is the invariant the class's regions keep: the scoped buffers no window stages, and the
    generator register at some state. -/
theorem phiIn4 (c : Dev nD) :
    (iprop((∃ r, prngReg c r) ∗ Pipeline.prefHeld (pcfgs (F := F) 4).pre c (fun _ => fullShare) (adm (F := F) 4).1
      ∗ Pipeline.scopedRest (Pipeline.pin (pcfgs (F := F)) adm 4).spec c) : sProp 𝕄) ⊢ Pipeline.ΦA spec4 c := by
  unfold Pipeline.ΦA
  iintro ⟨Hp, -, Hr⟩
  isplitl [Hr]; · iexact Hr
  iexact Hp

/-- and it gives them back. -/
theorem phiOut4 (c : Dev nD) :
    (Pipeline.ΦA spec4 c : sProp 𝕄) ⊢ iprop((∃ r, prngReg c r) ∗ BI.emp ∗ Pipeline.scopedRest (Pipeline.pin (pcfgs (F := F)) adm 4).spec c) := by
  unfold Pipeline.ΦA
  iintro ⟨Hr, Hp⟩
  isplitl [Hp]; · iexact Hp
  isplitr; · iempintro
  iexact Hr

set_option backward.isDefEq.respectTransparency.types false in
/-- Region 4 over the thread state: entered from every unscoped buffer at `W9`, left at `W10`; its arrays split out of
    the unscoped buffers and put back at the exit contents; the generator register into the region's invariant and out;
    nothing owed; no semaphore of the kernel's own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn4 c).trans (hin4 (T9 m) c)
  hout c := by
    rw [Pipeline.ownSems0_none]
    exact (hout4 (T9 m) c).trans (phiOut4 c)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T9 m c) (T10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.RegsB.lean ====
import proofs.«147038_j12317966205319_1_alg».proof.Proof.KI.Conts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! # The regions as segments of @main -/

/-- What the launch hands region 5 is the invariant the class's regions keep: the scoped buffers no window stages, and the
    generator register at some state. -/
theorem phiIn5 (c : Dev nD) :
    (iprop((∃ r, prngReg c r) ∗ Pipeline.prefHeld (pcfgs (F := F) 5).pre c (fun _ => fullShare) (adm (F := F) 5).1
      ∗ Pipeline.scopedRest (Pipeline.pin (pcfgs (F := F)) adm 5).spec c) : sProp 𝕄) ⊢ Pipeline.ΦA spec5 c := by
  unfold Pipeline.ΦA
  iintro ⟨Hp, -, Hr⟩
  isplitl [Hr]; · iexact Hr
  iexact Hp

/-- and it gives them back. -/
theorem phiOut5 (c : Dev nD) :
    (Pipeline.ΦA spec5 c : sProp 𝕄) ⊢ iprop((∃ r, prngReg c r) ∗ BI.emp ∗ Pipeline.scopedRest (Pipeline.pin (pcfgs (F := F)) adm 5).spec c) := by
  unfold Pipeline.ΦA
  iintro ⟨Hr, Hp⟩
  isplitl [Hp]; · iexact Hp
  isplitr; · iempintro
  iexact Hr

set_option backward.isDefEq.respectTransparency.types false in
/-- Region 5 over the thread state: entered from every unscoped buffer at `W11`, left at `W12`; its arrays split out of
    the unscoped buffers and put back at the exit contents; the generator register into the region's invariant and out;
    nothing owed; no semaphore of the kernel's own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn5 c).trans (hin5 (T11 m) c)
  hout c := by
    rw [Pipeline.ownSems0_none]
    exact (hout5 (T11 m) c).trans (phiOut5 c)
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T11 m c) (T12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 6 is the invariant the class's regions keep: the scoped buffers no window stages, and the
    generator register at some state. -/
theorem phiIn6 (c : Dev nD) :
    (iprop((∃ r, prngReg c r) ∗ Pipeline.prefHeld (pcfgs (F := F) 6).pre c (fun _ => fullShare) (adm (F := F) 6).1
      ∗ Pipeline.scopedRest (Pipeline.pin (pcfgs (F := F)) adm 6).spec c) : sProp 𝕄) ⊢ Pipeline.ΦA spec6 c := by
  unfold Pipeline.ΦA
  iintro ⟨Hp, -, Hr⟩
  isplitl [Hr]; · iexact Hr
  iexact Hp

/-- and it gives them back. -/
theorem phiOut6 (c : Dev nD) :
    (Pipeline.ΦA spec6 c : sProp 𝕄) ⊢ iprop((∃ r, prngReg c r) ∗ BI.emp ∗ Pipeline.scopedRest (Pipeline.pin (pcfgs (F := F)) adm 6).spec c) := by
  unfold Pipeline.ΦA
  iintro ⟨Hr, Hp⟩
  isplitl [Hp]; · iexact Hp
  isplitr; · iempintro
  iexact Hr

set_option backward.isDefEq.respectTransparency.types false in
/-- Region 6 over the thread state: entered from every unscoped buffer at `W13`, left at `W14`; its arrays split out of
    the unscoped buffers and put back at the exit contents; the generator register into the region's invariant and out;
    nothing owed; no semaphore of the kernel's own. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (T13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn6 c).trans (hin6 (T13 m) c)
  hout c := by
    rw [Pipeline.ownSems0_none]
    exact (hout6 (T13 m) c).trans (phiOut6 c)
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T13 m c) (T14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 7 is the invariant the class's regions keep: the scoped buffers no window stages, and the
    generator register at some state. -/
theorem phiIn7 (c : Dev nD) :
    (iprop((∃ r, prngReg c r) ∗ Pipeline.prefHeld (pcfgs (F := F) 7).pre c (fun _ => fullShare) (adm (F := F) 7).1
      ∗ Pipeline.scopedRest (Pipeline.pin (pcfgs (F := F)) adm 7).spec c) : sProp 𝕄) ⊢ Pipeline.ΦA spec7 c := by
  unfold Pipeline.ΦA
  iintro ⟨Hp, -, Hr⟩
  isplitl [Hr]; · iexact Hr
  iexact Hp

/-- and it gives them back. -/
theorem phiOut7 (c : Dev nD) :
    (Pipeline.ΦA spec7 c : sProp 𝕄) ⊢ iprop((∃ r, prngReg c r) ∗ BI.emp ∗ Pipeline.scopedRest (Pipeline.pin (pcfgs (F := F)) adm 7).spec c) := by
  unfold Pipeline.ΦA
  iintro ⟨Hr, Hp⟩
  isplitl [Hp]; · iexact Hp
  isplitr; · iempintro
  iexact Hr

set_option backward.isDefEq.respectTransparency.types false in
/-- Region 7 over the thread state: entered from every unscoped buffer at `W15`, left at `W16`; its arrays split out of
    the unscoped buffers and put back at the exit contents; the generator register into the region's invariant and out;
    nothing owed; no semaphore of the kernel's own. -/
def reg7 : RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (T15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn7 c).trans (hin7 (T15 m) c)
  hout c := by
    rw [Pipeline.ownSems0_none]
    exact (hout7 (T15 m) c).trans (phiOut7 c)
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T15 m c) (T16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 8 is the invariant the class's regions keep: the scoped buffers no window stages, and the
    generator register at some state. -/
theorem phiIn8 (c : Dev nD) :
    (iprop((∃ r, prngReg c r) ∗ Pipeline.prefHeld (pcfgs (F := F) 8).pre c (fun _ => fullShare) (adm (F := F) 8).1
      ∗ Pipeline.scopedRest (Pipeline.pin (pcfgs (F := F)) adm 8).spec c) : sProp 𝕄) ⊢ Pipeline.ΦA spec8 c := by
  unfold Pipeline.ΦA
  iintro ⟨Hp, -, Hr⟩
  isplitl [Hr]; · iexact Hr
  iexact Hp

/-- and it gives them back. -/
theorem phiOut8 (c : Dev nD) :
    (Pipeline.ΦA spec8 c : sProp 𝕄) ⊢ iprop((∃ r, prngReg c r) ∗ BI.emp ∗ Pipeline.scopedRest (Pipeline.pin (pcfgs (F := F)) adm 8).spec c) := by
  unfold Pipeline.ΦA
  iintro ⟨Hr, Hp⟩
  isplitl [Hp]; · iexact Hp
  isplitr; · iempintro
  iexact Hr

set_option backward.isDefEq.respectTransparency.types false in
/-- Region 8 over the thread state: entered from every unscoped buffer at `W17`, left at `W18`; its arrays split out of
    the unscoped buffers and put back at the exit contents; the generator register into the region's invariant and out;
    nothing owed; no semaphore of the kernel's own. -/
def reg8 : RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (T17 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (T17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn8 c).trans (hin8 (T17 m) c)
  hout c := by
    rw [Pipeline.ownSems0_none]
    exact (hout8 (T17 m) c).trans (phiOut8 c)
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T17 m c) (T18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 9 is the invariant the class's regions keep: the scoped buffers no window stages, and the
    generator register at some state. -/
theorem phiIn9 (c : Dev nD) :
    (iprop((∃ r, prngReg c r) ∗ Pipeline.prefHeld (pcfgs (F := F) 9).pre c (fun _ => fullShare) (adm (F := F) 9).1
      ∗ Pipeline.scopedRest (Pipeline.pin (pcfgs (F := F)) adm 9).spec c) : sProp 𝕄) ⊢ Pipeline.ΦA spec9 c := by
  unfold Pipeline.ΦA
  iintro ⟨Hp, -, Hr⟩
  isplitl [Hr]; · iexact Hr
  iexact Hp

/-- and it gives them back. -/
theorem phiOut9 (c : Dev nD) :
    (Pipeline.ΦA spec9 c : sProp 𝕄) ⊢ iprop((∃ r, prngReg c r) ∗ BI.emp ∗ Pipeline.scopedRest (Pipeline.pin (pcfgs (F := F)) adm 9).spec c) := by
  unfold Pipeline.ΦA
  iintro ⟨Hr, Hp⟩
  isplitl [Hp]; · iexact Hp
  isplitr; · iempintro
  iexact Hr

set_option backward.isDefEq.respectTransparency.types false in
/-- Region 9 over the thread state: entered from every unscoped buffer at `W19`, left at `W20`; its arrays split out of
    the unscoped buffers and put back at the exit contents; the generator register into the region's invariant and out;
    nothing owed; no semaphore of the kernel's own. -/
def reg9 : RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (T19 m) c).loose
  hwaits := Pipeline.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (T19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn9 c).trans (hin9 (T19 m) c)
  hout c := by
    rw [Pipeline.ownSems0_none]
    exact (hout9 (T19 m) c).trans (phiOut9 c)
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T19 m c) (T20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.RegsC.lean ====
import proofs.«147038_j12317966205319_1_alg».proof.Proof.KI.Conts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! # The regions as segments of @main -/

/-- What the launch hands region 10 is the invariant the class's regions keep: the scoped buffers no window stages, and the
    generator register at some state. -/
theorem phiIn10 (c : Dev nD) :
    (iprop((∃ r, prngReg c r) ∗ Pipeline.prefHeld (pcfgs (F := F) 10).pre c (fun _ => fullShare) (adm (F := F) 10).1
      ∗ Pipeline.scopedRest (Pipeline.pin (pcfgs (F := F)) adm 10).spec c) : sProp 𝕄) ⊢ Pipeline.ΦA spec10 c := by
  unfold Pipeline.ΦA
  iintro ⟨Hp, -, Hr⟩
  isplitl [Hr]; · iexact Hr
  iexact Hp

/-- and it gives them back. -/
theorem phiOut10 (c : Dev nD) :
    (Pipeline.ΦA spec10 c : sProp 𝕄) ⊢ iprop((∃ r, prngReg c r) ∗ BI.emp ∗ Pipeline.scopedRest (Pipeline.pin (pcfgs (F := F)) adm 10).spec c) := by
  unfold Pipeline.ΦA
  iintro ⟨Hr, Hp⟩
  isplitl [Hp]; · iexact Hp
  isplitr; · iempintro
  iexact Hr

set_option backward.isDefEq.respectTransparency.types false in
/-- Region 10 over the thread state: entered from every unscoped buffer at `W21`, left at `W22`; its arrays split out of
    the unscoped buffers and put back at the exit contents; the generator register into the region's invariant and out;
    nothing owed; no semaphore of the kernel's own. -/
def reg10 : RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (T21 m) c).loose
  hwaits := Pipeline.hwaits_of_owed_zero _ _ _ _ L lv 10 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec10 c (T21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (T21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn10 c).trans (hin10 (T21 m) c)
  hout c := by
    rw [Pipeline.ownSems0_none]
    exact (hout10 (T21 m) c).trans (phiOut10 c)
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (T21 m c) (T22 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 11 is the invariant the class's regions keep: the scoped buffers no window stages, and the
    generator register at some state. -/
theorem phiIn11 (c : Dev nD) :
    (iprop((∃ r, prngReg c r) ∗ Pipeline.prefHeld (pcfgs (F := F) 11).pre c (fun _ => fullShare) (adm (F := F) 11).1
      ∗ Pipeline.scopedRest (Pipeline.pin (pcfgs (F := F)) adm 11).spec c) : sProp 𝕄) ⊢ Pipeline.ΦA spec11 c := by
  unfold Pipeline.ΦA
  iintro ⟨Hp, -, Hr⟩
  isplitl [Hr]; · iexact Hr
  iexact Hp

/-- and it gives them back. -/
theorem phiOut11 (c : Dev nD) :
    (Pipeline.ΦA spec11 c : sProp 𝕄) ⊢ iprop((∃ r, prngReg c r) ∗ BI.emp ∗ Pipeline.scopedRest (Pipeline.pin (pcfgs (F := F)) adm 11).spec c) := by
  unfold Pipeline.ΦA
  iintro ⟨Hr, Hp⟩
  isplitl [Hp]; · iexact Hp
  isplitr; · iempintro
  iexact Hr

set_option backward.isDefEq.respectTransparency.types false in
/-- Region 11 over the thread state: entered from every unscoped buffer at `W23`, left at `W24`; its arrays split out of
    the unscoped buffers and put back at the exit contents; the generator register into the region's invariant and out;
    nothing owed; no semaphore of the kernel's own. -/
def reg11 : RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (T23 m) c).loose
  hwaits := Pipeline.hwaits_of_owed_zero _ _ _ _ L lv 11 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec11 c (T23 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (T23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn11 c).trans (hin11 (T23 m) c)
  hout c := by
    rw [Pipeline.ownSems0_none]
    exact (hout11 (T23 m) c).trans (phiOut11 c)
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (T23 m c) (T24 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 12 is the invariant the class's regions keep: the scoped buffers no window stages, and the
    generator register at some state. -/
theorem phiIn12 (c : Dev nD) :
    (iprop((∃ r, prngReg c r) ∗ Pipeline.prefHeld (pcfgs (F := F) 12).pre c (fun _ => fullShare) (adm (F := F) 12).1
      ∗ Pipeline.scopedRest (Pipeline.pin (pcfgs (F := F)) adm 12).spec c) : sProp 𝕄) ⊢ Pipeline.ΦA spec12 c := by
  unfold Pipeline.ΦA
  iintro ⟨Hp, -, Hr⟩
  isplitl [Hr]; · iexact Hr
  iexact Hp

/-- and it gives them back. -/
theorem phiOut12 (c : Dev nD) :
    (Pipeline.ΦA spec12 c : sProp 𝕄) ⊢ iprop((∃ r, prngReg c r) ∗ BI.emp ∗ Pipeline.scopedRest (Pipeline.pin (pcfgs (F := F)) adm 12).spec c) := by
  unfold Pipeline.ΦA
  iintro ⟨Hr, Hp⟩
  isplitl [Hp]; · iexact Hp
  isplitr; · iempintro
  iexact Hr

set_option backward.isDefEq.respectTransparency.types false in
/-- Region 12 over the thread state: entered from every unscoped buffer at `W25`, left at `W26`; its arrays split out of
    the unscoped buffers and put back at the exit contents; the generator register into the region's invariant and out;
    nothing owed; no semaphore of the kernel's own. -/
def reg12 : RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (T25 m) c).loose
  hwaits := Pipeline.hwaits_of_owed_zero _ _ _ _ L lv 12 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec12 c (T25 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (T25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn12 c).trans (hin12 (T25 m) c)
  hout c := by
    rw [Pipeline.ownSems0_none]
    exact (hout12 (T25 m) c).trans (phiOut12 c)
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (T25 m c) (T26 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 13 is the invariant the class's regions keep: the scoped buffers no window stages, and the
    generator register at some state. -/
theorem phiIn13 (c : Dev nD) :
    (iprop((∃ r, prngReg c r) ∗ Pipeline.prefHeld (pcfgs (F := F) 13).pre c (fun _ => fullShare) (adm (F := F) 13).1
      ∗ Pipeline.scopedRest (Pipeline.pin (pcfgs (F := F)) adm 13).spec c) : sProp 𝕄) ⊢ Pipeline.ΦA spec13 c := by
  unfold Pipeline.ΦA
  iintro ⟨Hp, -, Hr⟩
  isplitl [Hr]; · iexact Hr
  iexact Hp

/-- and it gives them back. -/
theorem phiOut13 (c : Dev nD) :
    (Pipeline.ΦA spec13 c : sProp 𝕄) ⊢ iprop((∃ r, prngReg c r) ∗ BI.emp ∗ Pipeline.scopedRest (Pipeline.pin (pcfgs (F := F)) adm 13).spec c) := by
  unfold Pipeline.ΦA
  iintro ⟨Hr, Hp⟩
  isplitl [Hp]; · iexact Hp
  isplitr; · iempintro
  iexact Hr

set_option backward.isDefEq.respectTransparency.types false in
/-- Region 13 over the thread state: entered from every unscoped buffer at `W27`, left at `W28`; its arrays split out of
    the unscoped buffers and put back at the exit contents; the generator register into the region's invariant and out;
    nothing owed; no semaphore of the kernel's own. -/
def reg13 : RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (T27 m) c).loose
  hwaits := Pipeline.hwaits_of_owed_zero _ _ _ _ L lv 13 fun _ _ => rfl
  pre c := iprop(StableHlo.held (c : Thread nD τ) (Pipeline.ucRefs τ sig) (W27 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec13 c (T27 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (T27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn13 c).trans (hin13 (T27 m) c)
  hout c := by
    rw [Pipeline.ownSems0_none]
    exact (hout13 (T27 m) c).trans (phiOut13 c)
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (T27 m c) (T28 m c) ((pdats m 13 c).arrAt · cfg13.N) (hF13 m c) (hrest13 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Reg

end
-- ==== Proof.KI.Run.lean ====
import proofs.«147038_j12317966205319_1_alg».proof.Proof.KI.RegsA
import proofs.«147038_j12317966205319_1_alg».proof.Proof.KI.RegsB
import proofs.«147038_j12317966205319_1_alg».proof.Proof.KI.RegsC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! # The launch: @main as the segments, the thread states chained -/

variable (ρ : Dev nD → PrngReg)
theorem hpre0 (c : Dev nD) : (iprop(StableHlo.held (c : Thread nD τ) (Pipeline.ucRefs τ sig) (V1 m c) ∗ R c) : sProp 𝕄) ⊢ (reg0 m).pre c := by
  rw [V1_eq]; exact .rfl
theorem hpost0 (c : Dev nD) : (reg0 m).post c ⊢ (iprop(StableHlo.held (c : Thread nD τ) (Pipeline.ucRefs τ sig) (V2 m (outsF m) c) ∗ R c) : sProp 𝕄) := by
  rw [V2_eq]; exact .rfl
theorem hpre1 (c : Dev nD) : (iprop(StableHlo.held (c : Thread nD τ) (Pipeline.ucRefs τ sig) (V3 m (outsF m) c) ∗ R c) : sProp 𝕄) ⊢ (reg1 m).pre c := by
  rw [V3_eq]; exact .rfl
theorem hpost1 (c : Dev nD) : (reg1 m).post c ⊢ (iprop(StableHlo.held (c : Thread nD τ) (Pipeline.ucRefs τ sig) (V4 m (outsF m) c) ∗ R c) : sProp 𝕄) := by
  rw [V4_eq]; exact .rfl
theorem hpre2 (c : Dev nD) : (iprop(StableHlo.held (c : Thread nD τ) (Pipeline.ucRefs τ sig) (V5 m (outsF m) c) ∗ R c) : sProp 𝕄) ⊢ (reg2 m).pre c := by
  rw [V5_eq]; exact .rfl
theorem hpost2 (c : Dev nD) : (reg2 m).post c ⊢ (iprop(StableHlo.held (c : Thread nD τ) (Pipeline.ucRefs τ sig) (V6 m (outsF m) c) ∗ R c) : sProp 𝕄) := by
  rw [V6_eq]; exact .rfl
theorem hpre3 (c : Dev nD) : (iprop(StableHlo.held (c : Thread nD τ) (Pipeline.ucRefs τ sig) (V7 m (outsF m) c) ∗ R c) : sProp 𝕄) ⊢ (reg3 m).pre c := by
  rw [V7_eq]; exact .rfl
theorem hpost3 (c : Dev nD) : (reg3 m).post c ⊢ (iprop(StableHlo.held (c : Thread nD τ) (Pipeline.ucRefs τ sig) (V8 m (outsF m) c) ∗ R c) : sProp 𝕄) := by
  rw [V8_eq]; exact .rfl
theorem hpre4 (c : Dev nD) : (iprop(StableHlo.held (c : Thread nD τ) (Pipeline.ucRefs τ sig) (V9 m (outsF m) c) ∗ R c) : sProp 𝕄) ⊢ (reg4 m).pre c := by
  rw [V9_eq]; exact .rfl
theorem hpost4 (c : Dev nD) : (reg4 m).post c ⊢ (iprop(StableHlo.held (c : Thread nD τ) (Pipeline.ucRefs τ sig) (V10 m (outsF m) c) ∗ R c) : sProp 𝕄) := by
  rw [V10_eq]; exact .rfl
theorem hpre5 (c : Dev nD) : (iprop(StableHlo.held (c : Thread nD τ) (Pipeline.ucRefs τ sig) (V11 m (outsF m) c) ∗ R c) : sProp 𝕄) ⊢ (reg5 m).pre c := by
  rw [V11_eq]; exact .rfl
theorem hpost5 (c : Dev nD) : (reg5 m).post c ⊢ (iprop(StableHlo.held (c : Thread nD τ) (Pipeline.ucRefs τ sig) (V12 m (outsF m) c) ∗ R c) : sProp 𝕄) := by
  rw [V12_eq]; exact .rfl
theorem hpre6 (c : Dev nD) : (iprop(StableHlo.held (c : Thread nD τ) (Pipeline.ucRefs τ sig) (V13 m (outsF m) c) ∗ R c) : sProp 𝕄) ⊢ (reg6 m).pre c := by
  rw [V13_eq]; exact .rfl
theorem hpost6 (c : Dev nD) : (reg6 m).post c ⊢ (iprop(StableHlo.held (c : Thread nD τ) (Pipeline.ucRefs τ sig) (V14 m (outsF m) c) ∗ R c) : sProp 𝕄) := by
  rw [V14_eq]; exact .rfl
theorem hpre7 (c : Dev nD) : (iprop(StableHlo.held (c : Thread nD τ) (Pipeline.ucRefs τ sig) (V15 m (outsF m) c) ∗ R c) : sProp 𝕄) ⊢ (reg7 m).pre c := by
  rw [V15_eq]; exact .rfl
theorem hpost7 (c : Dev nD) : (reg7 m).post c ⊢ (iprop(StableHlo.held (c : Thread nD τ) (Pipeline.ucRefs τ sig) (V16 m (outsF m) c) ∗ R c) : sProp 𝕄) := by
  rw [V16_eq]; exact .rfl
theorem hpre8 (c : Dev nD) : (iprop(StableHlo.held (c : Thread nD τ) (Pipeline.ucRefs τ sig) (V17 m (outsF m) c) ∗ R c) : sProp 𝕄) ⊢ (reg8 m).pre c := by
  rw [V17_eq]; exact .rfl
theorem hpost8 (c : Dev nD) : (reg8 m).post c ⊢ (iprop(StableHlo.held (c : Thread nD τ) (Pipeline.ucRefs τ sig) (V18 m (outsF m) c) ∗ R c) : sProp 𝕄) := by
  rw [V18_eq]; exact .rfl
theorem hpre9 (c : Dev nD) : (iprop(StableHlo.held (c : Thread nD τ) (Pipeline.ucRefs τ sig) (V19 m (outsF m) c) ∗ R c) : sProp 𝕄) ⊢ (reg9 m).pre c := by
  rw [V19_eq]; exact .rfl
theorem hpost9 (c : Dev nD) : (reg9 m).post c ⊢ (iprop(StableHlo.held (c : Thread nD τ) (Pipeline.ucRefs τ sig) (V20 m (outsF m) c) ∗ R c) : sProp 𝕄) := by
  rw [V20_eq]; exact .rfl
theorem hpre10 (c : Dev nD) : (iprop(StableHlo.held (c : Thread nD τ) (Pipeline.ucRefs τ sig) (V21 m (outsF m) c) ∗ R c) : sProp 𝕄) ⊢ (reg10 m).pre c := by
  rw [V21_eq]; exact .rfl
theorem hpost10 (c : Dev nD) : (reg10 m).post c ⊢ (iprop(StableHlo.held (c : Thread nD τ) (Pipeline.ucRefs τ sig) (V22 m (outsF m) c) ∗ R c) : sProp 𝕄) := by
  rw [V22_eq]; exact .rfl
theorem hpre11 (c : Dev nD) : (iprop(StableHlo.held (c : Thread nD τ) (Pipeline.ucRefs τ sig) (V23 m (outsF m) c) ∗ R c) : sProp 𝕄) ⊢ (reg11 m).pre c := by
  rw [V23_eq]; exact .rfl
theorem hpost11 (c : Dev nD) : (reg11 m).post c ⊢ (iprop(StableHlo.held (c : Thread nD τ) (Pipeline.ucRefs τ sig) (V24 m (outsF m) c) ∗ R c) : sProp 𝕄) := by
  rw [V24_eq]; exact .rfl
theorem hpre12 (c : Dev nD) : (iprop(StableHlo.held (c : Thread nD τ) (Pipeline.ucRefs τ sig) (V25 m (outsF m) c) ∗ R c) : sProp 𝕄) ⊢ (reg12 m).pre c := by
  rw [V25_eq]; exact .rfl
theorem hpost12 (c : Dev nD) : (reg12 m).post c ⊢ (iprop(StableHlo.held (c : Thread nD τ) (Pipeline.ucRefs τ sig) (V26 m (outsF m) c) ∗ R c) : sProp 𝕄) := by
  rw [V26_eq]; exact .rfl
theorem hpre13 (c : Dev nD) : (iprop(StableHlo.held (c : Thread nD τ) (Pipeline.ucRefs τ sig) (V27 m (outsF m) c) ∗ R c) : sProp 𝕄) ⊢ (reg13 m).pre c := by
  rw [V27_eq]; exact .rfl

/-- @main's 28 segments in order: a host segment per stretch from its boundary's contents, a region per pallas_call. -/
abbrev segsF (c : Dev nD) : List (Seg (pcfgs (F := F)) adm (pdats m) () defs₀ 𝒱₀ L lv) :=
  segs m (outsF m) 𝒱₀ L lv (fun _ c => R c) () (pdats m) (reg0 m) (reg1 m) (reg2 m) (reg3 m) (reg4 m) (reg5 m) (reg6 m) (reg7 m) (reg8 m) (reg9 m) (reg10 m) (reg11 m) (reg12 m) (reg13 m) c

set_option backward.isDefEq.respectTransparency.types false in
/-- THE RUN. At the compiled mesh, from any memory with zero counters: every weakly fair execution of @main on the TensorCores
    terminates, nothing faulting, and every final state has every unscoped buffer at the last contents `W28`: the launch
    memory taken through every host stretch and every region's write-backs. -/
theorem run_all :
    θ_run defs (onTc (τ := τ) (main (F := F))) ⟨m, fun _ => 0, ρ⟩
      (fun r => ∀ c : Dev nD, ∀ b ∈ Pipeline.ucRefs τ sig, r.2.mem (((c : Thread nD τ)).1, b) = W28 m c b) :=
  Pipeline.θ_run_regions_kit_dev (pcfgs (F := F)) adm (pdats m) () cellOf_inj emb₁ defs₀ 𝒱₀ L lv m ρ main
    (segsF m)
    (fun c Q => by
      rewrite [main_chain c, Seg.run_eq_chain,
        show (segsF m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()) ] from rfl]
      exact .rfl)
    (fun c => by simp only [segsF, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨(.rfl), hpre0 m c, hpost0 m c, hpre1 m c, hpost1 m c, hpre2 m c, hpost2 m c, hpre3 m c, hpost3 m c, hpre4 m c, hpost4 m c, hpre5 m c, hpost5 m c, hpre6 m c, hpost6 m c, hpre7 m c, hpost7 m c, hpre8 m c, hpost8 m c, hpre9 m c, hpost9 m c, hpre10 m c, hpost10 m c, hpre11 m c, hpost11 m c, hpre12 m c, hpost12 m c, hpre13 m c, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m c b)
    (hfin := fun c s' => by
      iintro ⟨⟨Hh, -⟩, HSI⟩
      unfold StableHlo.held
      imodintro
      iapply (pointsTo_read_all (Pipeline.ucRefs τ sig) (fun b => (((c : Thread nD τ)).1, b)) (W28 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W28_main_arg0 (c : Dev nD) : W28 m c main_arg0 = m ((c : Thread nD τ).loc main_arg0) :=
  (congrFun (V28_eq m c).symm _).trans (V28_main_arg0 m (outsF m) c)
theorem W28_main_arg1 (c : Dev nD) : W28 m c main_arg1 = m ((c : Thread nD τ).loc main_arg1) :=
  (congrFun (V28_eq m c).symm _).trans (V28_main_arg1 m (outsF m) c)
theorem W28_main_arg2 (c : Dev nD) : W28 m c main_arg2 = m ((c : Thread nD τ).loc main_arg2) :=
  (congrFun (V28_eq m c).symm _).trans (V28_main_arg2 m (outsF m) c)
theorem W28_main_arg3 (c : Dev nD) : W28 m c main_arg3 = m ((c : Thread nD τ).loc main_arg3) :=
  (congrFun (V28_eq m c).symm _).trans (V28_main_arg3 m (outsF m) c)
theorem W28_main_arg4 (c : Dev nD) : W28 m c main_arg4 = m ((c : Thread nD τ).loc main_arg4) :=
  (congrFun (V28_eq m c).symm _).trans (V28_main_arg4 m (outsF m) c)
theorem W28_main_arg5 (c : Dev nD) : W28 m c main_arg5 = m ((c : Thread nD τ).loc main_arg5) :=
  (congrFun (V28_eq m c).symm _).trans (V28_main_arg5 m (outsF m) c)
theorem W28_main_arg6 (c : Dev nD) : W28 m c main_arg6 = m ((c : Thread nD τ).loc main_arg6) :=
  (congrFun (V28_eq m c).symm _).trans (V28_main_arg6 m (outsF m) c)
theorem W28_main_arg7 (c : Dev nD) : W28 m c main_arg7 = m ((c : Thread nD τ).loc main_arg7) :=
  (congrFun (V28_eq m c).symm _).trans (V28_main_arg7 m (outsF m) c)
theorem W28_main_arg8 (c : Dev nD) : W28 m c main_arg8 = m ((c : Thread nD τ).loc main_arg8) :=
  (congrFun (V28_eq m c).symm _).trans (V28_main_arg8 m (outsF m) c)
theorem W28_main_arg9 (c : Dev nD) : W28 m c main_arg9 = m ((c : Thread nD τ).loc main_arg9) :=
  (congrFun (V28_eq m c).symm _).trans (V28_main_arg9 m (outsF m) c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W28_main_arg0 m c),
    (h c _ (mem_uc main_arg1 (by decide))).trans (W28_main_arg1 m c),
    (h c _ (mem_uc main_arg2 (by decide))).trans (W28_main_arg2 m c),
    (h c _ (mem_uc main_arg3 (by decide))).trans (W28_main_arg3 m c),
    (h c _ (mem_uc main_arg4 (by decide))).trans (W28_main_arg4 m c),
    (h c _ (mem_uc main_arg5 (by decide))).trans (W28_main_arg5 m c),
    (h c _ (mem_uc main_arg6 (by decide))).trans (W28_main_arg6 m c),
    (h c _ (mem_uc main_arg7 (by decide))).trans (W28_main_arg7 m c),
    (h c _ (mem_uc main_arg8 (by decide))).trans (W28_main_arg8 m c),
    (h c _ (mem_uc main_arg9 (by decide))).trans (W28_main_arg9 m c)⟩) (run_all m ρ)

/-- THE RESULT: the result buffer ends at what the last region leaves in it. -/
theorem result : θ_run defs (onTc (τ := τ) (main (F := F))) ⟨m, fun _ => 0, ρ⟩ (fun r => ∀ c : Dev nD,
      r.2.mem ((c.tc : Thread nD τ).loc main_v180) = outsF m 28 main_v180 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c _ (mem_uc main_v180 (by decide)),
    (h c _ (mem_uc main_arg0 (by decide))).trans (W28_main_arg0 m c),
    (h c _ (mem_uc main_arg1 (by decide))).trans (W28_main_arg1 m c),
    (h c _ (mem_uc main_arg2 (by decide))).trans (W28_main_arg2 m c),
    (h c _ (mem_uc main_arg3 (by decide))).trans (W28_main_arg3 m c),
    (h c _ (mem_uc main_arg4 (by decide))).trans (W28_main_arg4 m c),
    (h c _ (mem_uc main_arg5 (by decide))).trans (W28_main_arg5 m c),
    (h c _ (mem_uc main_arg6 (by decide))).trans (W28_main_arg6 m c),
    (h c _ (mem_uc main_arg7 (by decide))).trans (W28_main_arg7 m c),
    (h c _ (mem_uc main_arg8 (by decide))).trans (W28_main_arg8 m c),
    (h c _ (mem_uc main_arg9 (by decide))).trans (W28_main_arg9 m c)⟩) (run_all m ρ)

end Cert.KernelIdeal.Reg

end
-- ==== Proof.K.Fr0.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of ten thousand rows recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # A product of a row tile with a weight matrix, plus a bias row -/

/-! ## The windows' blocks -/

/-- Window `w`'s block at point `t`, read off its array as the region finds it. Window 0 is the row tile of
    ten thousand rows at `t`; windows 1 and 2 are the whole weight matrix and the whole bias row at every point;
    window 3 is the output's row tile at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's buffer holds its block at every point: the tile is fetched at each one, and the body leaves it
    in place. Stated for any proof data over the entry arrays whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point, though it is fetched at the first point only:
    its block index never moves, and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's buffer likewise holds the whole row at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x32 := Rect.unit (s := S10000x32) ![0, 0] S10000x32.size inb_S10000x32_S10000x32_0_0
abbrev r0_1 : Rect S32x64 := Rect.unit (s := S32x64) ![0, 0] S32x64.size inb_S32x64_S32x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-! ## What the body leaves in the output window's buffer -/

/-- The output tile after the body, from the three input blocks: one store of the whole tile, whose payload is the
    product of the rounded row tile with the rounded weight matrix accumulated from zero, plus the bias row
    repeated down the rows. -/
def out0_3 (x0 : Vec F S10000x32 .f32) (x1 : Vec F S32x64 .f32) (x2 : Vec F S1x64 .f32) : Vec F S10000x64 .f32 :=
  View.canon [⟨r0_3, k0_pay1 (View.ld x0 r0_0) (View.ld x1 r0_1) (View.ld x2 r0_2)⟩]

/-- The one store is the whole tile, so it covers it. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 1000000 in
/-- The body on whole staging buffers, the inputs' reading `x0`, `x1`, `x2` and the output's holding anything,
    runs to the continuation with the inputs' as they were and the output's at `out0_3` of them. -/
theorem sound_kernel0 (c : Dev nD) (E : Set ℕ) (i : grid0.Coords) (wa : Memref sig .tc .vmem S10000x32 .f32) (hwa : wa.IsWhole) (wb : Memref sig .tc .vmem S32x64 .f32) (hwb : wb.IsWhole) (wc : Memref sig .tc .vmem S1x64 .f32) (hwc : wc.IsWhole) (wd : Memref sig .tc .vmem S10000x64 .f32) (hwd : wd.IsWhole)
    (x0 : Vec F S10000x32 .f32) (x1 : Vec F S32x64 .f32) (x2 : Vec F S1x64 .f32) (K : PUnit → sProp 𝕄) :
    iprop(owns (c : Thread nD τ) wa fullShare x0 ∗ owns (c : Thread nD τ) wb fullShare x1 ∗ owns (c : Thread nD τ) wc fullShare x2 ∗ (∃ d, owns (c : Thread nD τ) wd fullShare d)
        ∗ (iprop(owns (c : Thread nD τ) wa fullShare x0 ∗ owns (c : Thread nD τ) wb fullShare x1 ∗ owns (c : Thread nD τ) wc fullShare x2 ∗ owns (c : Thread nD τ) wd fullShare (out0_3 x0 x1 x2)) -∗ K ⟨⟩))
      ⊢ wp frame (wpE (defs₀ (F := F)) Variants.none c none) E (cc0__matmul_bias_kernel i wa hwa wb hwb wc hwc wd hwd) K := by
  simp only [cc0__matmul_bias_kernel_eq_skeleton]; unfold cc0__matmul_bias_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover0_3 _)

/-! ## The pipeline's proof data -/

/-- The proof data on core `c`: the arrays as the region finds them; after the body at point `t` each input's
    buffer at its block and the output's at `out0_3` of the three input blocks; the invariant untouched from
    point to point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%da, Ha⟩, ⟨%db, Hb⟩, ⟨%dc, Hc⟩, ⟨%dd, Hd⟩⟩
  iapply (sound_kernel0 c Set.univ (grid0.coords t) _ _ _ _ _ _ _ _ (iblk0 V c 0 t) (iblk0 V c 1 t) (iblk0 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- The invariant at the first boundary is the entry's, -/
theorem hin0 (c : Dev nD) : Pipeline.ΦA spec0 c ⊢ (dat0 V c).Φ 0 := by
  rw [show (dat0 V c).Φ 0 = Pipeline.ΦA spec0 c from rfl]

/-- and at the last boundary it is the entry's again. -/
theorem hout0 (c : Dev nD) : (dat0 V c).Φ (Fin.last cfg0.N) ⊢ Pipeline.ΦA spec0 c := by
  rw [show (dat0 V c).Φ (Fin.last cfg0.N) = Pipeline.ΦA spec0 c from rfl]

end Cert.Kernel.Reg

end
-- ==== Proof.K.Fr1.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of ten thousand rows recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # A product of a row tile with a weight matrix, plus a bias row -/

/-! ## The windows' blocks -/

/-- Window `w`'s block at point `t`, read off its array as the region finds it. Window 0 is the row tile of
    ten thousand rows at `t`; windows 1 and 2 are the whole weight matrix and the whole bias row at every point;
    window 3 is the output's row tile at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's buffer holds its block at every point: the tile is fetched at each one, and the body leaves it
    in place. Stated for any proof data over the entry arrays whose body keeps the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's buffer holds the whole matrix at every point, though it is fetched at the first point only:
    its block index never moves, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's buffer likewise holds the whole row at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S10000x64 := Rect.unit (s := S10000x64) ![0, 0] S10000x64.size inb_S10000x64_S10000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S10000x64 := Rect.unit (s := S10000x64) ![0, 0] S10000x64.size inb_S10000x64_S10000x64_0_0

/-! ## What the body leaves in the output window's buffer -/

/-- The output tile after the body, from the three input blocks: one store of the whole tile, whose payload is the
    product of the rounded row tile with the rounded weight matrix accumulated from zero, plus the bias row
    repeated down the rows. -/
def out1_3 (x0 : Vec F S10000x64 .f32) (x1 : Vec F S64x64 .f32) (x2 : Vec F S1x64 .f32) : Vec F S10000x64 .f32 :=
  View.canon [⟨r1_3, k1_pay1 (View.ld x0 r1_0) (View.ld x1 r1_1) (View.ld x2 r1_2)⟩]

/-- The one store is the whole tile, so it covers it. -/
theorem cover1_3 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The body on whole staging buffers, the inputs' reading `x0`, `x1`, `x2` and the output's holding anything,
    runs to the continuation with the inputs' as they were and the output's at `out1_3` of them. -/
theorem sound_kernel1 (c : Dev nD) (E : Set ℕ) (i : grid1.Coords) (wa : Memref sig .tc .vmem S10000x64 .f32) (hwa : wa.IsWhole) (wb : Memref sig .tc .vmem S64x64 .f32) (hwb : wb.IsWhole) (wc : Memref sig .tc .vmem S1x64 .f32) (hwc : wc.IsWhole) (wd : Memref sig .tc .vmem S10000x64 .f32) (hwd : wd.IsWhole)
    (x0 : Vec F S10000x64 .f32) (x1 : Vec F S64x64 .f32) (x2 : Vec F S1x64 .f32) (K : PUnit → sProp 𝕄) :
    iprop(owns (c : Thread nD τ) wa fullShare x0 ∗ owns (c : Thread nD τ) wb fullShare x1 ∗ owns (c : Thread nD τ) wc fullShare x2 ∗ (∃ d, owns (c : Thread nD τ) wd fullShare d)
        ∗ (iprop(owns (c : Thread nD τ) wa fullShare x0 ∗ owns (c : Thread nD τ) wb fullShare x1 ∗ owns (c : Thread nD τ) wc fullShare x2 ∗ owns (c : Thread nD τ) wd fullShare (out1_3 x0 x1 x2)) -∗ K ⟨⟩))
      ⊢ wp frame (wpE (defs₀ (F := F)) Variants.none c none) E (cc1__matmul_bias_kernel i wa hwa wb hwb wc hwc wd hwd) K := by
  simp only [cc1__matmul_bias_kernel_eq_skeleton]; unfold cc1__matmul_bias_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover1_3 _)

/-! ## The pipeline's proof data -/

/-- The proof data on core `c`: the arrays as the region finds them; after the body at point `t` each input's
    buffer at its block and the output's at `out1_3` of the three input blocks; the invariant untouched from
    point to point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%da, Ha⟩, ⟨%db, Hb⟩, ⟨%dc, Hc⟩, ⟨%dd, Hd⟩⟩
  iapply (sound_kernel1 c Set.univ (grid1.coords t) _ _ _ _ _ _ _ _ (iblk1 V c 0 t) (iblk1 V c 1 t) (iblk1 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The invariant at the first boundary is the entry's, -/
theorem hin1 (c : Dev nD) : Pipeline.ΦA spec1 c ⊢ (dat1 V c).Φ 0 := by
  rw [show (dat1 V c).Φ 0 = Pipeline.ΦA spec1 c from rfl]

/-- and at the last boundary it is the entry's again. -/
theorem hout1 (c : Dev nD) : (dat1 V c).Φ (Fin.last cfg1.N) ⊢ Pipeline.ΦA spec1 c := by
  rw [show (dat1 V c).Φ (Fin.last cfg1.N) = Pipeline.ΦA spec1 c from rfl]

end Cert.Kernel.Reg

end
-- ==== Proof.K.Fr2.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine kernel: hpre = agg + xw * selfn + convb on a row tile, and the column sums of hpre and of its
    square accumulated over the tiles into two one-row outputs. -/

section Blocks

variable (V : (c : Dev nD) → (b : Ref sig .tc) → Buf (Elt F) ((c : Thread nD τ).loc b))

/-- Window w's block at point t, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: unfetched, the block
    index has not moved. Window 0: the row tile of agg. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1: the row tile of xw. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2: the row tile of the one-column selfn. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3: the one row convb, the same block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The body's one branch: the two accumulators are zeroed at the first point only -/

/-- The branch condition as a function of the grid coordinate. -/
abbrev k2_cond (i : grid2.Coords) : Prop :=
  (Scalar.cmpi .ne (Scalar.extui (Scalar.cmpi .eq (BitVec.ofNat 32 (i 0).val) 0#32)) 0#32) = 1#1

/-- It holds at the first point only. -/
theorem k2_hcond : ∀ t : Fin cfg2.N, k2_cond (grid2.coords t) ↔ t.val = 0 :=
  (by decide +kernel : ∀ t : Fin grid2.N, k2_cond (grid2.coords t) ↔ t.val = 0)

/-! ## The body on any whole staging memrefs, case by case -/

section Kernel

variable (c : Dev nD) (i : grid2.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

set_option maxHeartbeats 2000000 in
/-- FIRST POINT (the branch taken). With the four inputs at x0 x1 x2 x3 and the three outputs at anything, the body
    runs to a continuation that holds the inputs as they were and each output with a list of pieces written, last
    first: the lists are what the run finds. -/
noncomputable def sound_kernel2_A (hc : k2_cond i)
    (x0 : Vec F S10000x64 .f32) (x1 : Vec F S10000x64 .f32) (x2 : Vec F S10000x1 .f32) (x3 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc2__combine_kernel i arg1 harg1 arg2 harg2 arg3 harg3 arg4 harg4 arg5 harg5 arg6 harg6 arg7 harg7) K } := by
  refine ⟨?_, ?_, ?_, fun E K => ?run⟩
  case run =>
    simp only [cc2__combine_kernel_eq_skeleton]; unfold cc2__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1
    obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

set_option maxHeartbeats 2000000 in
/-- LATER POINTS (the branch not taken). The two accumulators come in at their running contents xo5 xo6; the body adds
    the tile's column sums to them. -/
noncomputable def sound_kernel2_B (hc : ¬k2_cond i)
    (x0 : Vec F S10000x64 .f32) (x1 : Vec F S10000x64 .f32) (x2 : Vec F S10000x1 .f32) (x3 : Vec F S1x64 .f32)
    (xo5 : Vec F S1x64 .f32) (xo6 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc2__combine_kernel i arg1 harg1 arg2 harg2 arg3 harg3 arg4 harg4 arg5 harg5 arg6 harg6 arg7 harg7) K } := by
  refine ⟨?_, ?_, ?_, fun E K => ?run⟩
  case run =>
    simp only [cc2__combine_kernel_eq_skeleton]; unfold cc2__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1
    obtain rfl := harg3.eq_unread hf2; obtain rfl := harg4.eq_unread hf3
    obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

/-! ## What each case leaves in the three outputs' staging buffers -/

/-- One staging buffer of each output window, through which its contents are stated: the pieces cover the block, so
    the choice of buffer and of what it held does not matter. -/
abbrev out2_4_view : View sig .tc .vmem S10000x64 .f32 := (Memref.whole cc2_stg4_0 : Memref sig .tc .vmem S10000x64 .f32).view
abbrev out2_5_view : View sig .tc .vmem S1x64 .f32 := (Memref.whole cc2_stg5_0 : Memref sig .tc .vmem S1x64 .f32).view
abbrev out2_6_view : View sig .tc .vmem S1x64 .f32 := (Memref.whole cc2_stg6_0 : Memref sig .tc .vmem S1x64 .f32).view

/-- First point: each output's pieces tile its block. -/
theorem cover2_4_A (hc : k2_cond i) (x0 : Vec F S10000x64 .f32) (x1 : Vec F S10000x64 .f32) (x2 : Vec F S10000x1 .f32) (x3 : Vec F S1x64 .f32)
    (y : S10000x64.Idx) : ∃ pc ∈ (sound_kernel2_A c i arg1 harg1 arg2 harg2 arg3 harg3 arg4 harg4 arg5 harg5 arg6 harg6 arg7 harg7 hc x0 x1 x2 x3).1, y ∈ pc.1.set :=
  View.cover_of_tiledL (sound_kernel2_A c i arg1 harg1 arg2 harg2 arg3 harg3 arg4 harg4 arg5 harg5 arg6 harg6 arg7 harg7 hc x0 x1 x2 x3).1 S10000x64.size (by sl_kernel_rfl) y
theorem cover2_5_A (hc : k2_cond i) (x0 : Vec F S10000x64 .f32) (x1 : Vec F S10000x64 .f32) (x2 : Vec F S10000x1 .f32) (x3 : Vec F S1x64 .f32)
    (y : S1x64.Idx) : ∃ pc ∈ (sound_kernel2_A c i arg1 harg1 arg2 harg2 arg3 harg3 arg4 harg4 arg5 harg5 arg6 harg6 arg7 harg7 hc x0 x1 x2 x3).2.1, y ∈ pc.1.set :=
  View.cover_of_tiledL (sound_kernel2_A c i arg1 harg1 arg2 harg2 arg3 harg3 arg4 harg4 arg5 harg5 arg6 harg6 arg7 harg7 hc x0 x1 x2 x3).2.1 S1x64.size (by sl_kernel_rfl) y
theorem cover2_6_A (hc : k2_cond i) (x0 : Vec F S10000x64 .f32) (x1 : Vec F S10000x64 .f32) (x2 : Vec F S10000x1 .f32) (x3 : Vec F S1x64 .f32)
    (y : S1x64.Idx) : ∃ pc ∈ (sound_kernel2_A c i arg1 harg1 arg2 harg2 arg3 harg3 arg4 harg4 arg5 harg5 arg6 harg6 arg7 harg7 hc x0 x1 x2 x3).2.2.1, y ∈ pc.1.set :=
  View.cover_of_tiledL (sound_kernel2_A c i arg1 harg1 arg2 harg2 arg3 harg3 arg4 harg4 arg5 harg5 arg6 harg6 arg7 harg7 hc x0 x1 x2 x3).2.2.1 S1x64.size (by sl_kernel_rfl) y

/-- First point: what the three outputs hold, their pieces read back. -/
def out2_A (hc : k2_cond i) (x0 : Vec F S10000x64 .f32) (x1 : Vec F S10000x64 .f32) (x2 : Vec F S10000x1 .f32) (x3 : Vec F S1x64 .f32) :
    Vec F S10000x64 .f32 × Vec F S1x64 .f32 × Vec F S1x64 .f32 :=
  (out2_4_view.read (Elt F) (out2_4_view.writes (Elt F) out2_4_view.junk (sound_kernel2_A c i arg1 harg1 arg2 harg2 arg3 harg3 arg4 harg4 arg5 harg5 arg6 harg6 arg7 harg7 hc x0 x1 x2 x3).1),
   out2_5_view.read (Elt F) (out2_5_view.writes (Elt F) out2_5_view.junk (sound_kernel2_A c i arg1 harg1 arg2 harg2 arg3 harg3 arg4 harg4 arg5 harg5 arg6 harg6 arg7 harg7 hc x0 x1 x2 x3).2.1),
   out2_6_view.read (Elt F) (out2_6_view.writes (Elt F) out2_6_view.junk (sound_kernel2_A c i arg1 harg1 arg2 harg2 arg3 harg3 arg4 harg4 arg5 harg5 arg6 harg6 arg7 harg7 hc x0 x1 x2 x3).2.2.1))

/-- Later points: each output's pieces tile its block. -/
theorem cover2_4_B (hc : ¬k2_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S10000x64.Idx) : ∃ pc ∈ (sound_kernel2_B c i arg1 harg1 arg2 harg2 arg3 harg3 arg4 harg4 arg5 harg5 arg6 harg6 arg7 harg7 hc x0 x1 x2 x3 xo5 xo6).1, y ∈ pc.1.set :=
  View.cover_of_tiledL (sound_kernel2_B c i arg1 harg1 arg2 harg2 arg3 harg3 arg4 harg4 arg5 harg5 arg6 harg6 arg7 harg7 hc x0 x1 x2 x3 xo5 xo6).1 S10000x64.size (by sl_kernel_rfl) y
theorem cover2_5_B (hc : ¬k2_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel2_B c i arg1 harg1 arg2 harg2 arg3 harg3 arg4 harg4 arg5 harg5 arg6 harg6 arg7 harg7 hc x0 x1 x2 x3 xo5 xo6).2.1, y ∈ pc.1.set :=
  View.cover_of_tiledL (sound_kernel2_B c i arg1 harg1 arg2 harg2 arg3 harg3 arg4 harg4 arg5 harg5 arg6 harg6 arg7 harg7 hc x0 x1 x2 x3 xo5 xo6).2.1 S1x64.size (by sl_kernel_rfl) y
theorem cover2_6_B (hc : ¬k2_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel2_B c i arg1 harg1 arg2 harg2 arg3 harg3 arg4 harg4 arg5 harg5 arg6 harg6 arg7 harg7 hc x0 x1 x2 x3 xo5 xo6).2.2.1, y ∈ pc.1.set :=
  View.cover_of_tiledL (sound_kernel2_B c i arg1 harg1 arg2 harg2 arg3 harg3 arg4 harg4 arg5 harg5 arg6 harg6 arg7 harg7 hc x0 x1 x2 x3 xo5 xo6).2.2.1 S1x64.size (by sl_kernel_rfl) y

/-- Later points: what the three outputs hold. -/
def out2_B (hc : ¬k2_cond i) (x0 : Vec F S10000x64 .f32) (x1 : Vec F S10000x64 .f32) (x2 : Vec F S10000x1 .f32) (x3 : Vec F S1x64 .f32)
    (xo5 : Vec F S1x64 .f32) (xo6 : Vec F S1x64 .f32) :
    Vec F S10000x64 .f32 × Vec F S1x64 .f32 × Vec F S1x64 .f32 :=
  (out2_4_view.read (Elt F) (out2_4_view.writes (Elt F) out2_4_view.junk (sound_kernel2_B c i arg1 harg1 arg2 harg2 arg3 harg3 arg4 harg4 arg5 harg5 arg6 harg6 arg7 harg7 hc x0 x1 x2 x3 xo5 xo6).1),
   out2_5_view.read (Elt F) (out2_5_view.writes (Elt F) out2_5_view.junk (sound_kernel2_B c i arg1 harg1 arg2 harg2 arg3 harg3 arg4 harg4 arg5 harg5 arg6 harg6 arg7 harg7 hc x0 x1 x2 x3 xo5 xo6).2.1),
   out2_6_view.read (Elt F) (out2_6_view.writes (Elt F) out2_6_view.junk (sound_kernel2_B c i arg1 harg1 arg2 harg2 arg3 harg3 arg4 harg4 arg5 harg5 arg6 harg6 arg7 harg7 hc x0 x1 x2 x3 xo5 xo6).2.2.1))

end Kernel

/-! ## What the outputs hold after each point -/

section Data

variable (V : (c : Dev nD) → (b : Ref sig .tc) → Buf (Elt F) ((c : Thread nD τ).loc b))

/-- The first point's outputs, at the point's staging memrefs and input blocks. -/
def out2_A_at (c : Dev nD) (t : Fin cfg2.N) (h0 : t.val = 0) : Vec F S10000x64 .f32 × Vec F S1x64 .f32 × Vec F S1x64 .f32 :=
  out2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) ((k2_hcond t).mpr h0) (iblk2 V c 0 t) (iblk2 V c 1 t) (iblk2 V c 2 t) (iblk2 V c 3 t)

/-- A later point's outputs, over the accumulators' running contents. -/
def out2_B_at (c : Dev nD) (t : Fin cfg2.N) (h0 : ¬t.val = 0) (xo5 : Vec F S1x64 .f32) (xo6 : Vec F S1x64 .f32) :
    Vec F S10000x64 .f32 × Vec F S1x64 .f32 × Vec F S1x64 .f32 :=
  out2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (fun h => h0 ((k2_hcond t).mp h)) (iblk2 V c 0 t) (iblk2 V c 1 t) (iblk2 V c 2 t) (iblk2 V c 3 t) xo5 xo6

/-- THE ACCUMULATION, by recursion on the point: the tile's hpre block, and the two running column sums — zeroed and
    added to at the first point, added to at each later one from what the point before left (their buffers are not
    written back between). -/
def outsAt2 (c : Dev nD) : (n : ℕ) → n < cfg2.N → Vec F S10000x64 .f32 × Vec F S1x64 .f32 × Vec F S1x64 .f32
  | 0, hn => out2_A_at V c ⟨0, hn⟩ rfl
  | n + 1, hn => out2_B_at V c ⟨n + 1, hn⟩ (Nat.succ_ne_zero n) (outsAt2 c n (Nat.lt_of_succ_lt hn)).2.1 (outsAt2 c n (Nat.lt_of_succ_lt hn)).2.2

theorem outsAt2_A (c : Dev nD) (t : Fin cfg2.N) (h0 : t.val = 0) : outsAt2 V c t.val t.isLt = out2_A_at V c t h0 := by
  obtain ⟨n, hn⟩ := t
  cases n with
  | zero => rfl
  | succ n => exact absurd h0 (Nat.succ_ne_zero n)

theorem outsAt2_B (c : Dev nD) (t : Fin cfg2.N) (h0 : ¬t.val = 0) :
    outsAt2 V c t.val t.isLt = out2_B_at V c t h0
      (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact absurd rfl h0
  | succ n => rfl

/-! ## The pipeline's proof data -/

/-- The arrays as the region finds them; after the body at point t each input's buffer at its block, window 4's at the
    tile's hpre block, windows 5 and 6's at the running sums; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem after2_6 (c : Dev nD) (t : Fin cfg2.N) : (dat2 V c).after 6 t = (outsAt2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a later point each accumulator's buffer holds what the body left at the point before: it is written back at the
    last point only, so not between. -/
theorem before2_5_B (c : Dev nD) (t : Fin cfg2.N) (h0 : ¬t.val = 0) (d) :
    (dat2 V c).before 5 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 5 rfl t h0 (Bool.eq_false_iff.mpr fun h => by have := (flush2_5 _).mp h; dsimp only at this; omega)
    (fun _ => rfl) (fun _ _ => rfl)]
  dsimp only [dat2]
theorem before2_6_B (c : Dev nD) (t : Fin cfg2.N) (h0 : ¬t.val = 0) (d) :
    (dat2 V c).before 6 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 6 rfl t h0 (Bool.eq_false_iff.mpr fun h => by have := (flush2_6 _).mp h; dsimp only at this; omega)
    (fun _ => rfl) (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1600000 in
/-- The body at any point: the inputs' memrefs hold their blocks; at the first point the branch is taken and the outputs
    hold anything; at a later point it is not and the accumulators hold what the point before left; the case's run
    applies, and its pieces, covering each block, read back as the stated contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  by_cases h0 : t.val = 0
  · rw [outsAt2_A V c t h0]
    unfold out2_A_at out2_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel2_A c (grid2.coords t) _ _ _ _ _ _ _ _ _ _ _ _ _ _ ((k2_hcond t).mpr h0) (iblk2 V c 0 t) (iblk2 V c 1 t) (iblk2 V c 2 t) (iblk2 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_4_A c _ _ _ _ _ _ _ _ _ _ _ _ _ _ _ _ _ _ _ _)
    isplitl [H5]
    · unfold owns; iexists _; isplitr
      swap; · iexact H5
      ipureintro; exact View.read_writes_of_cover _ _ _ _ _ (cover2_5_A c _ _ _ _ _ _ _ _ _ _ _ _ _ _ _ _ _ _ _ _)
    unfold owns; iexists _; isplitr
    swap; · iexact H6
    ipureintro; exact View.read_writes_of_cover _ _ _ _ _ (cover2_6_A c _ _ _ _ _ _ _ _ _ _ _ _ _ _ _ _ _ _ _ _)
  · rw [outsAt2_B V c t h0]
    simp only [before2_5_B V c t h0, before2_6_B V c t h0]
    unfold out2_B_at out2_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel2_B c (grid2.coords t) _ _ _ _ _ _ _ _ _ _ _ _ _ _ (fun h => h0 ((k2_hcond t).mp h)) (iblk2 V c 0 t) (iblk2 V c 1 t) (iblk2 V c 2 t) (iblk2 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_4_B c _ _ _ _ _ _ _ _ _ _ _ _ _ _ _ _ _ _ _ _ _ _)
    isplitl [H5]
    · unfold owns; iexists _; isplitr
      swap; · iexact H5
      ipureintro; exact View.read_writes_of_cover _ _ _ _ _ (cover2_5_B c _ _ _ _ _ _ _ _ _ _ _ _ _ _ _ _ _ _ _ _ _ _)
    unfold owns; iexists _; isplitr
    swap; · iexact H6
    ipureintro; exact View.read_writes_of_cover _ _ _ _ _ (cover2_6_B c _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant is the class's at every position: in and out unchanged. -/
theorem hin2 (c : Dev nD) : Pipeline.ΦA spec2 c ⊢ (dat2 V c).Φ 0 := Entails.refl _
theorem hout2 (c : Dev nD) : (dat2 V c).Φ (Fin.last cfg2.N) ⊢ Pipeline.ΦA spec2 c := Entails.refl _

end Data

end Cert.Kernel.Reg

end
-- ==== Proof.K.Fr3.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 10000 × 64: the structural look recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The normalize-and-clamp region: a [10000,64] block of rows and four [1,64] rows in, one [10000,64] block out -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point (its block index is constant over the grid, so where it is not fetched the block already there is the point's), for any proof
    data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point (its block index is constant over the grid, so where it is not fetched the block already there is the point's), for any proof
    data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point (its block index is constant over the grid, so where it is not fetched the block already there is the point's), for any proof
    data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point (its block index is constant over the grid, so where it is not fetched the block already there is the point's), for any proof
    data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store is of a whole buffer -/

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0

/-! ## What the body leaves in the output window's buffer -/

/-- Window 5's staging buffer after the body, from the input windows' blocks `xa … xe` (windows 0 … 4): its one
    whole-buffer store; the payload takes the rows block, then the rows of windows 3, 1, 2, 4, in the order the body loads them. -/
def out3_5 (xa : Vec F S10000x64 .f32) (xb xc xd xe : Vec F S1x64 .f32) : Vec F S10000x64 .f32 :=
  View.canon [⟨r3_0, k3_pay1 (View.ld xa r3_0) (View.ld xd r3_1) (View.ld xb r3_1) (View.ld xc r3_1) (View.ld xe r3_1)⟩]

/-- The store's rectangle is the whole buffer, so it covers it. -/
theorem cover3_5 (pa : Vec F S10000x64 .f32) (y : S10000x64.Idx) :
    ∃ pc ∈ ([⟨r3_0, pa⟩] : List (View.Piece (Elt F) S10000x64 .f32)), y ∈ pc.1.set :=
  View.cover_of_tiled [⟨r3_0, pa⟩] S10000x64.size (by rfl) y

/-! ## The body's triple -/

set_option maxHeartbeats 1000000 in
/-- The body on whole staging memrefs, the inputs' at read contents `xa … xe` and the output's at anything, runs to the
    continuation holding the inputs' as they were and the output's at `out3_5` of the inputs'. -/
theorem sound_kernel3 (c : Dev nD) (E : Set ℕ) (i : grid3.Coords)
    (arga : Memref sig .tc .vmem S10000x64 .f32) (harga : arga.IsWhole) (argb : Memref sig .tc .vmem S1x64 .f32) (hargb : argb.IsWhole)
    (argc : Memref sig .tc .vmem S1x64 .f32) (hargc : argc.IsWhole) (argd : Memref sig .tc .vmem S1x64 .f32) (hargd : argd.IsWhole)
    (arge : Memref sig .tc .vmem S1x64 .f32) (harge : arge.IsWhole) (argf : Memref sig .tc .vmem S10000x64 .f32) (hargf : argf.IsWhole)
    (xa : Vec F S10000x64 .f32) (xb xc xd xe : Vec F S1x64 .f32) (K : PUnit → sProp 𝕄) :
    iprop(owns (c : Thread nD τ) arga fullShare xa ∗ owns (c : Thread nD τ) argb fullShare xb ∗ owns (c : Thread nD τ) argc fullShare xc
        ∗ owns (c : Thread nD τ) argd fullShare xd ∗ owns (c : Thread nD τ) arge fullShare xe ∗ (∃ d, owns (c : Thread nD τ) argf fullShare d)
        ∗ (iprop(owns (c : Thread nD τ) arga fullShare xa ∗ owns (c : Thread nD τ) argb fullShare xb ∗ owns (c : Thread nD τ) argc fullShare xc
            ∗ owns (c : Thread nD τ) argd fullShare xd ∗ owns (c : Thread nD τ) arge fullShare xe
            ∗ owns (c : Thread nD τ) argf fullShare (out3_5 xa xb xc xd xe)) -∗ K ⟨⟩))
      ⊢ wp frame (wpE (defs₀ (F := F)) Variants.none c none) E (cc3__bn_relu_kernel i arga harga argb hargb argc hargc argd hargd arge harge argf hargf) K := by
  simp only [cc3__bn_relu_kernel_eq_skeleton]; unfold cc3__bn_relu_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hf⟩, Hk⟩
  subst hfa; subst hfb; subst hfc; subst hfd; subst hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover3_5 _)

/-! ## The pipeline's proof data -/

/-- The proof data of the region's pipeline on core `c`: the arrays as the region finds them (`V`); after the body at
    point `t` each input's buffer at its block and the output's at `out3_5` of the input blocks; the invariant the
    untouched rest; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%da, Ha⟩, ⟨%db, Hb⟩, ⟨%dc, Hc⟩, ⟨%dd, Hd⟩, ⟨%de, He⟩, ⟨%df, Hf⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends: the untouched rest, as it is outside the region -/

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.Kernel.Reg

end
-- ==== Proof.K.Fr4.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of ten thousand rows recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # A product of a row tile with a weight matrix, plus a bias row -/

/-! ## The windows' blocks -/

/-- Window `w`'s block at point `t`, read off its array as the region finds it. Window 0 is the row tile of
    ten thousand rows at `t`; windows 1 and 2 are the whole weight matrix and the whole bias row at every point;
    window 3 is the output's row tile at `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row tile's buffer holds its block at every point: the tile is fetched at each one, and the body leaves it
    in place. Stated for any proof data over the entry arrays whose body keeps the block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's buffer holds the whole matrix at every point, though it is fetched at the first point only:
    its block index never moves, and the body leaves the buffer as it found it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias row's buffer likewise holds the whole row at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0
abbrev r4_3 : Rect S10000x64 := Rect.unit (s := S10000x64) ![0, 0] S10000x64.size inb_S10000x64_S10000x64_0_0

/-! ## What the body leaves in the output window's buffer -/

/-- The output tile after the body, from the three input blocks: one store of the whole tile, whose payload is the
    product of the rounded row tile with the rounded weight matrix accumulated from zero, plus the bias row
    repeated down the rows. -/
def out4_3 (x0 : Vec F S10000x64 .f32) (x1 : Vec F S64x64 .f32) (x2 : Vec F S1x64 .f32) : Vec F S10000x64 .f32 :=
  View.canon [⟨r4_3, k4_pay1 (View.ld x0 r4_0) (View.ld x1 r4_1) (View.ld x2 r4_2)⟩]

/-- The one store is the whole tile, so it covers it. -/
theorem cover4_3 (p0 : Vec F S10000x64 .f32) (y : S10000x64.Idx) :
    ∃ pc ∈ ([⟨r4_3, p0⟩] : List (View.Piece (Elt F) S10000x64 .f32)), y ∈ pc.1.set :=
  View.cover_of_tiled [⟨r4_3, p0⟩] S10000x64.size (by rfl) y

/-! ## The body's triple -/

set_option maxHeartbeats 1000000 in
/-- The body on whole staging buffers, the inputs' reading `x0`, `x1`, `x2` and the output's holding anything,
    runs to the continuation with the inputs' as they were and the output's at `out4_3` of them. -/
theorem sound_kernel4 (c : Dev nD) (E : Set ℕ) (i : grid4.Coords) (wa : Memref sig .tc .vmem S10000x64 .f32) (hwa : wa.IsWhole) (wb : Memref sig .tc .vmem S64x64 .f32) (hwb : wb.IsWhole) (wc : Memref sig .tc .vmem S1x64 .f32) (hwc : wc.IsWhole) (wd : Memref sig .tc .vmem S10000x64 .f32) (hwd : wd.IsWhole)
    (x0 : Vec F S10000x64 .f32) (x1 : Vec F S64x64 .f32) (x2 : Vec F S1x64 .f32) (K : PUnit → sProp 𝕄) :
    iprop(owns (c : Thread nD τ) wa fullShare x0 ∗ owns (c : Thread nD τ) wb fullShare x1 ∗ owns (c : Thread nD τ) wc fullShare x2 ∗ (∃ d, owns (c : Thread nD τ) wd fullShare d)
        ∗ (iprop(owns (c : Thread nD τ) wa fullShare x0 ∗ owns (c : Thread nD τ) wb fullShare x1 ∗ owns (c : Thread nD τ) wc fullShare x2 ∗ owns (c : Thread nD τ) wd fullShare (out4_3 x0 x1 x2)) -∗ K ⟨⟩))
      ⊢ wp frame (wpE (defs₀ (F := F)) Variants.none c none) E (cc4__matmul_bias_kernel i wa hwa wb hwb wc hwc wd hwd) K := by
  simp only [cc4__matmul_bias_kernel_eq_skeleton]; unfold cc4__matmul_bias_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover4_3 _)

/-! ## The pipeline's proof data -/

/-- The proof data on core `c`: the arrays as the region finds them; after the body at point `t` each input's
    buffer at its block and the output's at `out4_3` of the three input blocks; the invariant untouched from
    point to point; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%da, Ha⟩, ⟨%db, Hb⟩, ⟨%dc, Hc⟩, ⟨%dd, Hd⟩⟩
  iapply (sound_kernel4 c Set.univ (grid4.coords t) _ _ _ _ _ _ _ _ (iblk4 V c 0 t) (iblk4 V c 1 t) (iblk4 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- The invariant at the first boundary is the entry's, -/
theorem hin4 (c : Dev nD) : Pipeline.ΦA spec4 c ⊢ (dat4 V c).Φ 0 := by
  rw [show (dat4 V c).Φ 0 = Pipeline.ΦA spec4 c from rfl]

/-- and at the last boundary it is the entry's again. -/
theorem hout4 (c : Dev nD) : (dat4 V c).Φ (Fin.last cfg4.N) ⊢ Pipeline.ΦA spec4 c := by
  rw [show (dat4 V c).Φ (Fin.last cfg4.N) = Pipeline.ΦA spec4 c from rfl]

end Cert.Kernel.Reg

end
-- ==== Proof.K.Fr5.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine kernel: hpre = agg + xw * selfn + convb on a row tile, and the column sums of hpre and of its
    square accumulated over the tiles into two one-row outputs. -/

section Blocks

variable (V : (c : Dev nD) → (b : Ref sig .tc) → Buf (Elt F) ((c : Thread nD τ).loc b))

/-- Window w's block at point t, read off its array at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not: unfetched, the block
    index has not moved. Window 0: the row tile of agg. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1: the row tile of xw. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2: the row tile of the one-column selfn. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Window 3: the one row convb, the same block at every point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

end Blocks

/-! ## The body's one branch: the two accumulators are zeroed at the first point only -/

/-- The branch condition as a function of the grid coordinate. -/
abbrev k5_cond (i : grid5.Coords) : Prop :=
  (Scalar.cmpi .ne (Scalar.extui (Scalar.cmpi .eq (BitVec.ofNat 32 (i 0).val) 0#32)) 0#32) = 1#1

/-- It holds at the first point only. -/
theorem k5_hcond : ∀ t : Fin cfg5.N, k5_cond (grid5.coords t) ↔ t.val = 0 :=
  (by decide +kernel : ∀ t : Fin grid5.N, k5_cond (grid5.coords t) ↔ t.val = 0)

/-! ## The body on any whole staging memrefs, case by case -/

section Kernel

variable (c : Dev nD) (i : grid5.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

set_option maxHeartbeats 2000000 in
/-- FIRST POINT (the branch taken). With the four inputs at x0 x1 x2 x3 and the three outputs at anything, the body
    runs to a continuation that holds the inputs as they were and each output with a list of pieces written, last
    first: the lists are what the run finds. -/
noncomputable def sound_kernel5_A (hc : k5_cond i)
    (x0 : Vec F S10000x64 .f32) (x1 : Vec F S10000x64 .f32) (x2 : Vec F S10000x1 .f32) (x3 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc5__combine_kernel i arg1 harg1 arg2 harg2 arg3 harg3 arg4 harg4 arg5 harg5 arg6 harg6 arg7 harg7) K } := by
  refine ⟨?_, ?_, ?_, fun E K => ?run⟩
  case run =>
    simp only [cc5__combine_kernel_eq_skeleton]; unfold cc5__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1
    obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

set_option maxHeartbeats 2000000 in
/-- LATER POINTS (the branch not taken). The two accumulators come in at their running contents xo5 xo6; the body adds
    the tile's column sums to them. -/
noncomputable def sound_kernel5_B (hc : ¬k5_cond i)
    (x0 : Vec F S10000x64 .f32) (x1 : Vec F S10000x64 .f32) (x2 : Vec F S10000x1 .f32) (x3 : Vec F S1x64 .f32)
    (xo5 : Vec F S1x64 .f32) (xo6 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc5__combine_kernel i arg1 harg1 arg2 harg2 arg3 harg3 arg4 harg4 arg5 harg5 arg6 harg6 arg7 harg7) K } := by
  refine ⟨?_, ?_, ?_, fun E K => ?run⟩
  case run =>
    simp only [cc5__combine_kernel_eq_skeleton]; unfold cc5__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1
    obtain rfl := harg3.eq_unread hf2; obtain rfl := harg4.eq_unread hf3
    obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

/-! ## What each case leaves in the three outputs' staging buffers -/

/-- One staging buffer of each output window, through which its contents are stated: the pieces cover the block, so
    the choice of buffer and of what it held does not matter. -/
abbrev out5_4_view : View sig .tc .vmem S10000x64 .f32 := (Memref.whole cc5_stg4_0 : Memref sig .tc .vmem S10000x64 .f32).view
abbrev out5_5_view : View sig .tc .vmem S1x64 .f32 := (Memref.whole cc5_stg5_0 : Memref sig .tc .vmem S1x64 .f32).view
abbrev out5_6_view : View sig .tc .vmem S1x64 .f32 := (Memref.whole cc5_stg6_0 : Memref sig .tc .vmem S1x64 .f32).view

/-- First point: each output's pieces tile its block. -/
theorem cover5_4_A (hc : k5_cond i) (x0 : Vec F S10000x64 .f32) (x1 : Vec F S10000x64 .f32) (x2 : Vec F S10000x1 .f32) (x3 : Vec F S1x64 .f32)
    (y : S10000x64.Idx) : ∃ pc ∈ (sound_kernel5_A c i arg1 harg1 arg2 harg2 arg3 harg3 arg4 harg4 arg5 harg5 arg6 harg6 arg7 harg7 hc x0 x1 x2 x3).1, y ∈ pc.1.set :=
  View.cover_of_tiledL (sound_kernel5_A c i arg1 harg1 arg2 harg2 arg3 harg3 arg4 harg4 arg5 harg5 arg6 harg6 arg7 harg7 hc x0 x1 x2 x3).1 S10000x64.size (by sl_kernel_rfl) y
theorem cover5_5_A (hc : k5_cond i) (x0 : Vec F S10000x64 .f32) (x1 : Vec F S10000x64 .f32) (x2 : Vec F S10000x1 .f32) (x3 : Vec F S1x64 .f32)
    (y : S1x64.Idx) : ∃ pc ∈ (sound_kernel5_A c i arg1 harg1 arg2 harg2 arg3 harg3 arg4 harg4 arg5 harg5 arg6 harg6 arg7 harg7 hc x0 x1 x2 x3).2.1, y ∈ pc.1.set :=
  View.cover_of_tiledL (sound_kernel5_A c i arg1 harg1 arg2 harg2 arg3 harg3 arg4 harg4 arg5 harg5 arg6 harg6 arg7 harg7 hc x0 x1 x2 x3).2.1 S1x64.size (by sl_kernel_rfl) y
theorem cover5_6_A (hc : k5_cond i) (x0 : Vec F S10000x64 .f32) (x1 : Vec F S10000x64 .f32) (x2 : Vec F S10000x1 .f32) (x3 : Vec F S1x64 .f32)
    (y : S1x64.Idx) : ∃ pc ∈ (sound_kernel5_A c i arg1 harg1 arg2 harg2 arg3 harg3 arg4 harg4 arg5 harg5 arg6 harg6 arg7 harg7 hc x0 x1 x2 x3).2.2.1, y ∈ pc.1.set :=
  View.cover_of_tiledL (sound_kernel5_A c i arg1 harg1 arg2 harg2 arg3 harg3 arg4 harg4 arg5 harg5 arg6 harg6 arg7 harg7 hc x0 x1 x2 x3).2.2.1 S1x64.size (by sl_kernel_rfl) y

/-- First point: what the three outputs hold, their pieces read back. -/
def out5_A (hc : k5_cond i) (x0 : Vec F S10000x64 .f32) (x1 : Vec F S10000x64 .f32) (x2 : Vec F S10000x1 .f32) (x3 : Vec F S1x64 .f32) :
    Vec F S10000x64 .f32 × Vec F S1x64 .f32 × Vec F S1x64 .f32 :=
  (out5_4_view.read (Elt F) (out5_4_view.writes (Elt F) out5_4_view.junk (sound_kernel5_A c i arg1 harg1 arg2 harg2 arg3 harg3 arg4 harg4 arg5 harg5 arg6 harg6 arg7 harg7 hc x0 x1 x2 x3).1),
   out5_5_view.read (Elt F) (out5_5_view.writes (Elt F) out5_5_view.junk (sound_kernel5_A c i arg1 harg1 arg2 harg2 arg3 harg3 arg4 harg4 arg5 harg5 arg6 harg6 arg7 harg7 hc x0 x1 x2 x3).2.1),
   out5_6_view.read (Elt F) (out5_6_view.writes (Elt F) out5_6_view.junk (sound_kernel5_A c i arg1 harg1 arg2 harg2 arg3 harg3 arg4 harg4 arg5 harg5 arg6 harg6 arg7 harg7 hc x0 x1 x2 x3).2.2.1))

/-- Later points: each output's pieces tile its block. -/
theorem cover5_4_B (hc : ¬k5_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S10000x64.Idx) : ∃ pc ∈ (sound_kernel5_B c i arg1 harg1 arg2 harg2 arg3 harg3 arg4 harg4 arg5 harg5 arg6 harg6 arg7 harg7 hc x0 x1 x2 x3 xo5 xo6).1, y ∈ pc.1.set :=
  View.cover_of_tiledL (sound_kernel5_B c i arg1 harg1 arg2 harg2 arg3 harg3 arg4 harg4 arg5 harg5 arg6 harg6 arg7 harg7 hc x0 x1 x2 x3 xo5 xo6).1 S10000x64.size (by sl_kernel_rfl) y
theorem cover5_5_B (hc : ¬k5_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel5_B c i arg1 harg1 arg2 harg2 arg3 harg3 arg4 harg4 arg5 harg5 arg6 harg6 arg7 harg7 hc x0 x1 x2 x3 xo5 xo6).2.1, y ∈ pc.1.set :=
  View.cover_of_tiledL (sound_kernel5_B c i arg1 harg1 arg2 harg2 arg3 harg3 arg4 harg4 arg5 harg5 arg6 harg6 arg7 harg7 hc x0 x1 x2 x3 xo5 xo6).2.1 S1x64.size (by sl_kernel_rfl) y
theorem cover5_6_B (hc : ¬k5_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel5_B c i arg1 harg1 arg2 harg2 arg3 harg3 arg4 harg4 arg5 harg5 arg6 harg6 arg7 harg7 hc x0 x1 x2 x3 xo5 xo6).2.2.1, y ∈ pc.1.set :=
  View.cover_of_tiledL (sound_kernel5_B c i arg1 harg1 arg2 harg2 arg3 harg3 arg4 harg4 arg5 harg5 arg6 harg6 arg7 harg7 hc x0 x1 x2 x3 xo5 xo6).2.2.1 S1x64.size (by sl_kernel_rfl) y

/-- Later points: what the three outputs hold. -/
def out5_B (hc : ¬k5_cond i) (x0 : Vec F S10000x64 .f32) (x1 : Vec F S10000x64 .f32) (x2 : Vec F S10000x1 .f32) (x3 : Vec F S1x64 .f32)
    (xo5 : Vec F S1x64 .f32) (xo6 : Vec F S1x64 .f32) :
    Vec F S10000x64 .f32 × Vec F S1x64 .f32 × Vec F S1x64 .f32 :=
  (out5_4_view.read (Elt F) (out5_4_view.writes (Elt F) out5_4_view.junk (sound_kernel5_B c i arg1 harg1 arg2 harg2 arg3 harg3 arg4 harg4 arg5 harg5 arg6 harg6 arg7 harg7 hc x0 x1 x2 x3 xo5 xo6).1),
   out5_5_view.read (Elt F) (out5_5_view.writes (Elt F) out5_5_view.junk (sound_kernel5_B c i arg1 harg1 arg2 harg2 arg3 harg3 arg4 harg4 arg5 harg5 arg6 harg6 arg7 harg7 hc x0 x1 x2 x3 xo5 xo6).2.1),
   out5_6_view.read (Elt F) (out5_6_view.writes (Elt F) out5_6_view.junk (sound_kernel5_B c i arg1 harg1 arg2 harg2 arg3 harg3 arg4 harg4 arg5 harg5 arg6 harg6 arg7 harg7 hc x0 x1 x2 x3 xo5 xo6).2.2.1))

end Kernel

/-! ## What the outputs hold after each point -/

section Data

variable (V : (c : Dev nD) → (b : Ref sig .tc) → Buf (Elt F) ((c : Thread nD τ).loc b))

/-- The first point's outputs, at the point's staging memrefs and input blocks. -/
def out5_A_at (c : Dev nD) (t : Fin cfg5.N) (h0 : t.val = 0) : Vec F S10000x64 .f32 × Vec F S1x64 .f32 × Vec F S1x64 .f32 :=
  out5_A c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) ((k5_hcond t).mpr h0) (iblk5 V c 0 t) (iblk5 V c 1 t) (iblk5 V c 2 t) (iblk5 V c 3 t)

/-- A later point's outputs, over the accumulators' running contents. -/
def out5_B_at (c : Dev nD) (t : Fin cfg5.N) (h0 : ¬t.val = 0) (xo5 : Vec F S1x64 .f32) (xo6 : Vec F S1x64 .f32) :
    Vec F S10000x64 .f32 × Vec F S1x64 .f32 × Vec F S1x64 .f32 :=
  out5_B c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) (fun h => h0 ((k5_hcond t).mp h)) (iblk5 V c 0 t) (iblk5 V c 1 t) (iblk5 V c 2 t) (iblk5 V c 3 t) xo5 xo6

/-- THE ACCUMULATION, by recursion on the point: the tile's hpre block, and the two running column sums — zeroed and
    added to at the first point, added to at each later one from what the point before left (their buffers are not
    written back between). -/
def outsAt5 (c : Dev nD) : (n : ℕ) → n < cfg5.N → Vec F S10000x64 .f32 × Vec F S1x64 .f32 × Vec F S1x64 .f32
  | 0, hn => out5_A_at V c ⟨0, hn⟩ rfl
  | n + 1, hn => out5_B_at V c ⟨n + 1, hn⟩ (Nat.succ_ne_zero n) (outsAt5 c n (Nat.lt_of_succ_lt hn)).2.1 (outsAt5 c n (Nat.lt_of_succ_lt hn)).2.2

theorem outsAt5_A (c : Dev nD) (t : Fin cfg5.N) (h0 : t.val = 0) : outsAt5 V c t.val t.isLt = out5_A_at V c t h0 := by
  obtain ⟨n, hn⟩ := t
  cases n with
  | zero => rfl
  | succ n => exact absurd h0 (Nat.succ_ne_zero n)

theorem outsAt5_B (c : Dev nD) (t : Fin cfg5.N) (h0 : ¬t.val = 0) :
    outsAt5 V c t.val t.isLt = out5_B_at V c t h0
      (outsAt5 V c (t.val - 1) (Nat.lt_of_le_of_lt (Nat.sub_le _ _) t.isLt)).2.1
      (outsAt5 V c (t.val - 1) (Nat.lt_of_le_of_lt (Nat.sub_le _ _) t.isLt)).2.2 := by
  obtain ⟨n, hn⟩ := t
  cases n with
  | zero => exact absurd rfl h0
  | succ n => rfl

/-! ## The pipeline's proof data -/

/-- The arrays as the region finds them; after the body at point t each input's buffer at its block, window 4's at the
    tile's hpre block, windows 5 and 6's at the running sums; the class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
    | ⟨5, _⟩ => (outsAt5 V c t.val t.isLt).2.1
    | ⟨6, _⟩ => (outsAt5 V c t.val t.isLt).2.2
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]
theorem after5_5 (c : Dev nD) (t : Fin cfg5.N) : (dat5 V c).after 5 t = (outsAt5 V c t.val t.isLt).2.1 := by dsimp only [dat5]
theorem after5_6 (c : Dev nD) (t : Fin cfg5.N) : (dat5 V c).after 6 t = (outsAt5 V c t.val t.isLt).2.2 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- At a later point each accumulator's buffer holds what the body left at the point before: it is written back at the
    last point only, so not between. -/
theorem before5_5_B (c : Dev nD) (t : Fin cfg5.N) (h0 : ¬t.val = 0) (d) :
    (dat5 V c).before 5 t d = (outsAt5 V c (t.val - 1) (Nat.lt_of_le_of_lt (Nat.sub_le _ _) t.isLt)).2.1 := by
  have hN : t.val < 10 := lt_of_lt_of_eq t.isLt (show cfg5.N = 10 from N_5)
  rw [Dat.before_out_kept _ 5 rfl t h0 (Bool.eq_false_iff.mpr fun h => by have := (flush5_5 _).mp h; dsimp only at this; omega)
    (fun _ => rfl) (fun _ _ => rfl)]
  dsimp only [dat5]
theorem before5_6_B (c : Dev nD) (t : Fin cfg5.N) (h0 : ¬t.val = 0) (d) :
    (dat5 V c).before 6 t d = (outsAt5 V c (t.val - 1) (Nat.lt_of_le_of_lt (Nat.sub_le _ _) t.isLt)).2.2 := by
  have hN : t.val < 10 := lt_of_lt_of_eq t.isLt (show cfg5.N = 10 from N_5)
  rw [Dat.before_out_kept _ 6 rfl t h0 (Bool.eq_false_iff.mpr fun h => by have := (flush5_6 _).mp h; dsimp only at this; omega)
    (fun _ => rfl) (fun _ _ => rfl)]
  dsimp only [dat5]

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

set_option maxHeartbeats 1600000 in
/-- The body at any point: the inputs' memrefs hold their blocks; at the first point the branch is taken and the outputs
    hold anything; at a later point it is not and the accumulators hold what the point before left; the case's run
    applies, and its pieces, covering each block, read back as the stated contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  by_cases h0 : t.val = 0
  · rw [outsAt5_A V c t h0]
    unfold out5_A_at out5_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel5_A c (grid5.coords t) _ _ _ _ _ _ _ _ _ _ _ _ _ _ ((k5_hcond t).mpr h0) (iblk5 V c 0 t) (iblk5 V c 1 t) (iblk5 V c 2 t) (iblk5 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover5_4_A c _ _ _ _ _ _ _ _ _ _ _ _ _ _ _ _ _ _ _ _)
    isplitl [H5]
    · unfold owns; iexists _; isplitr
      swap; · iexact H5
      ipureintro; exact View.read_writes_of_cover _ _ _ _ _ (cover5_5_A c _ _ _ _ _ _ _ _ _ _ _ _ _ _ _ _ _ _ _ _)
    unfold owns; iexists _; isplitr
    swap; · iexact H6
    ipureintro; exact View.read_writes_of_cover _ _ _ _ _ (cover5_6_A c _ _ _ _ _ _ _ _ _ _ _ _ _ _ _ _ _ _ _ _)
  · rw [outsAt5_B V c t h0]
    simp only [before5_5_B V c t h0, before5_6_B V c t h0]
    unfold out5_B_at out5_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel5_B c (grid5.coords t) _ _ _ _ _ _ _ _ _ _ _ _ _ _ (fun h => h0 ((k5_hcond t).mp h)) (iblk5 V c 0 t) (iblk5 V c 1 t) (iblk5 V c 2 t) (iblk5 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover5_4_B c _ _ _ _ _ _ _ _ _ _ _ _ _ _ _ _ _ _ _ _ _ _)
    isplitl [H5]
    · unfold owns; iexists _; isplitr
      swap; · iexact H5
      ipureintro; exact View.read_writes_of_cover _ _ _ _ _ (cover5_5_B c _ _ _ _ _ _ _ _ _ _ _ _ _ _ _ _ _ _ _ _ _ _)
    unfold owns; iexists _; isplitr
    swap; · iexact H6
    ipureintro; exact View.read_writes_of_cover _ _ _ _ _ (cover5_6_B c _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- The invariant is the class's at every position: in and out unchanged. -/
theorem hin5 (c : Dev nD) : Pipeline.ΦA spec5 c ⊢ (dat5 V c).Φ 0 := Entails.refl _
theorem hout5 (c : Dev nD) : (dat5 V c).Φ (Fin.last cfg5.N) ⊢ Pipeline.ΦA spec5 c := Entails.refl _

end Data

end Cert.Kernel.Reg

end
-- ==== Proof.K.Fr6.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 10000 × 64: the structural look recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The normalize-and-clamp region: a [10000,64] block of rows and four [1,64] rows in, one [10000,64] block out -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point (its block index is constant over the grid, so where it is not fetched the block already there is the point's), for any proof
    data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point (its block index is constant over the grid, so where it is not fetched the block already there is the point's), for any proof
    data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point (its block index is constant over the grid, so where it is not fetched the block already there is the point's), for any proof
    data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point (its block index is constant over the grid, so where it is not fetched the block already there is the point's), for any proof
    data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store is of a whole buffer -/

abbrev r6_0 : Rect S10000x64 := Rect.unit (s := S10000x64) ![0, 0] S10000x64.size inb_S10000x64_S10000x64_0_0
abbrev r6_1 : Rect S1x64 := Rect.unit (s := S1x64) ![0, 0] S1x64.size inb_S1x64_S1x64_0_0

/-! ## What the body leaves in the output window's buffer -/

/-- Window 5's staging buffer after the body, from the input windows' blocks `xa … xe` (windows 0 … 4): its one
    whole-buffer store; the payload takes the rows block, then the rows of windows 3, 1, 2, 4, in the order the body loads them. -/
def out6_5 (xa : Vec F S10000x64 .f32) (xb xc xd xe : Vec F S1x64 .f32) : Vec F S10000x64 .f32 :=
  View.canon [⟨r6_0, k6_pay1 (View.ld xa r6_0) (View.ld xd r6_1) (View.ld xb r6_1) (View.ld xc r6_1) (View.ld xe r6_1)⟩]

/-- The store's rectangle is the whole buffer, so it covers it. -/
theorem cover6_5 (pa : Vec F S10000x64 .f32) (y : S10000x64.Idx) :
    ∃ pc ∈ ([⟨r6_0, pa⟩] : List (View.Piece (Elt F) S10000x64 .f32)), y ∈ pc.1.set :=
  View.cover_of_tiled [⟨r6_0, pa⟩] S10000x64.size (by rfl) y

/-! ## The body's triple -/

set_option maxHeartbeats 1000000 in
/-- The body on whole staging memrefs, the inputs' at read contents `xa … xe` and the output's at anything, runs to the
    continuation holding the inputs' as they were and the output's at `out6_5` of the inputs'. -/
theorem sound_kernel6 (c : Dev nD) (E : Set ℕ) (i : grid6.Coords)
    (arga : Memref sig .tc .vmem S10000x64 .f32) (harga : arga.IsWhole) (argb : Memref sig .tc .vmem S1x64 .f32) (hargb : argb.IsWhole)
    (argc : Memref sig .tc .vmem S1x64 .f32) (hargc : argc.IsWhole) (argd : Memref sig .tc .vmem S1x64 .f32) (hargd : argd.IsWhole)
    (arge : Memref sig .tc .vmem S1x64 .f32) (harge : arge.IsWhole) (argf : Memref sig .tc .vmem S10000x64 .f32) (hargf : argf.IsWhole)
    (xa : Vec F S10000x64 .f32) (xb xc xd xe : Vec F S1x64 .f32) (K : PUnit → sProp 𝕄) :
    iprop(owns (c : Thread nD τ) arga fullShare xa ∗ owns (c : Thread nD τ) argb fullShare xb ∗ owns (c : Thread nD τ) argc fullShare xc
        ∗ owns (c : Thread nD τ) argd fullShare xd ∗ owns (c : Thread nD τ) arge fullShare xe ∗ (∃ d, owns (c : Thread nD τ) argf fullShare d)
        ∗ (iprop(owns (c : Thread nD τ) arga fullShare xa ∗ owns (c : Thread nD τ) argb fullShare xb ∗ owns (c : Thread nD τ) argc fullShare xc
            ∗ owns (c : Thread nD τ) argd fullShare xd ∗ owns (c : Thread nD τ) arge fullShare xe
            ∗ owns (c : Thread nD τ) argf fullShare (out6_5 xa xb xc xd xe)) -∗ K ⟨⟩))
      ⊢ wp frame (wpE (defs₀ (F := F)) Variants.none c none) E (cc6__bn_relu_kernel i arga harga argb hargb argc hargc argd hargd arge harge argf hargf) K := by
  simp only [cc6__bn_relu_kernel_eq_skeleton]; unfold cc6__bn_relu_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hf⟩, Hk⟩
  subst hfa; subst hfb; subst hfc; subst hfd; subst hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover6_5 _)

/-! ## The pipeline's proof data -/

/-- The proof data of the region's pipeline on core `c`: the arrays as the region finds them (`V`); after the body at
    point `t` each input's buffer at its block and the output's at `out6_5` of the input blocks; the invariant the
    untouched rest; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the body's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%da, Ha⟩, ⟨%db, Hb⟩, ⟨%dc, Hc⟩, ⟨%dd, Hd⟩, ⟨%de, He⟩, ⟨%df, Hf⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's ends: the untouched rest, as it is outside the region -/

theorem hin6 (c : Dev nD) : Pipeline.ΦA spec6 c ⊢ (dat6 V c).Φ 0 := .rfl

theorem hout6 (c : Dev nD) : (dat6 V c).Φ (Fin.last cfg6.N) ⊢ Pipeline.ΦA spec6 c := .rfl

end Cert.Kernel.Reg

end
-- ==== Proof.K.Fr7.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of ten thousand rows recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # A product of a row tile with a weight matrix, plus a bias row -/

/-! ## The windows' blocks -/

/-- Window `w`'s block at point `t`, read off its array as the region finds it. Window 0 is the row tile of
    ten thousand rows at `t`; windows 1 and 2 are the whole weight matrix and the whole bias row at every point;
    window 3 is the output's row tile at `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The row tile's buffer holds its block at every point: the tile is fetched at each one, and the body leaves it
    in place. Stated for any proof data over the entry arrays whose body keeps the block. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The weight matrix's buffer holds the whole matrix at every point, though it is fetched at the first point only:
    its block index never moves, and the body leaves the buffer as it found it. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The bias row's buffer likewise holds the whole row at every point. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_0 : Rect S10000x64 := Rect.unit (s := S10000x64) ![0, 0] S10000x64.size inb_S10000x64_S10000x64_0_0
abbrev r7_1 : Rect S64x64 := Rect.unit (s := S64x64) ![0, 0] S64x64.size inb_S64x64_S64x64_0_0
abbrev r7_2 : Rect S1x64 := Rect.unit (s := S1x64) ![0, 0] S1x64.size inb_S1x64_S1x64_0_0
abbrev r7_3 : Rect S10000x64 := Rect.unit (s := S10000x64) ![0, 0] S10000x64.size inb_S10000x64_S10000x64_0_0

/-! ## What the body leaves in the output window's buffer -/

/-- The output tile after the body, from the three input blocks: one store of the whole tile, whose payload is the
    product of the rounded row tile with the rounded weight matrix accumulated from zero, plus the bias row
    repeated down the rows. -/
def out7_3 (x0 : Vec F S10000x64 .f32) (x1 : Vec F S64x64 .f32) (x2 : Vec F S1x64 .f32) : Vec F S10000x64 .f32 :=
  View.canon [⟨r7_3, k7_pay1 (View.ld x0 r7_0) (View.ld x1 r7_1) (View.ld x2 r7_2)⟩]

/-- The one store is the whole tile, so it covers it. -/
theorem cover7_3 (p0 : Vec F S10000x64 .f32) (y : S10000x64.Idx) :
    ∃ pc ∈ ([⟨r7_3, p0⟩] : List (View.Piece (Elt F) S10000x64 .f32)), y ∈ pc.1.set :=
  View.cover_of_tiled [⟨r7_3, p0⟩] S10000x64.size (by rfl) y

/-! ## The body's triple -/

set_option maxHeartbeats 1000000 in
/-- The body on whole staging buffers, the inputs' reading `x0`, `x1`, `x2` and the output's holding anything,
    runs to the continuation with the inputs' as they were and the output's at `out7_3` of them. -/
theorem sound_kernel7 (c : Dev nD) (E : Set ℕ) (i : grid7.Coords) (wa : Memref sig .tc .vmem S10000x64 .f32) (hwa : wa.IsWhole) (wb : Memref sig .tc .vmem S64x64 .f32) (hwb : wb.IsWhole) (wc : Memref sig .tc .vmem S1x64 .f32) (hwc : wc.IsWhole) (wd : Memref sig .tc .vmem S10000x64 .f32) (hwd : wd.IsWhole)
    (x0 : Vec F S10000x64 .f32) (x1 : Vec F S64x64 .f32) (x2 : Vec F S1x64 .f32) (K : PUnit → sProp 𝕄) :
    iprop(owns (c : Thread nD τ) wa fullShare x0 ∗ owns (c : Thread nD τ) wb fullShare x1 ∗ owns (c : Thread nD τ) wc fullShare x2 ∗ (∃ d, owns (c : Thread nD τ) wd fullShare d)
        ∗ (iprop(owns (c : Thread nD τ) wa fullShare x0 ∗ owns (c : Thread nD τ) wb fullShare x1 ∗ owns (c : Thread nD τ) wc fullShare x2 ∗ owns (c : Thread nD τ) wd fullShare (out7_3 x0 x1 x2)) -∗ K ⟨⟩))
      ⊢ wp frame (wpE (defs₀ (F := F)) Variants.none c none) E (cc7__matmul_bias_kernel i wa hwa wb hwb wc hwc wd hwd) K := by
  simp only [cc7__matmul_bias_kernel_eq_skeleton]; unfold cc7__matmul_bias_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover7_3 _)

/-! ## The pipeline's proof data -/

/-- The proof data on core `c`: the arrays as the region finds them; after the body at point `t` each input's
    buffer at its block and the output's at `out7_3` of the three input blocks; the invariant untouched from
    point to point; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-- Each input's current buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%da, Ha⟩, ⟨%db, Hb⟩, ⟨%dc, Hc⟩, ⟨%dd, Hd⟩⟩
  iapply (sound_kernel7 c Set.univ (grid7.coords t) _ _ _ _ _ _ _ _ (iblk7 V c 0 t) (iblk7 V c 1 t) (iblk7 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's two ends -/

/-- The invariant at the first boundary is the entry's, -/
theorem hin7 (c : Dev nD) : Pipeline.ΦA spec7 c ⊢ (dat7 V c).Φ 0 := by
  rw [show (dat7 V c).Φ 0 = Pipeline.ΦA spec7 c from rfl]

/-- and at the last boundary it is the entry's again. -/
theorem hout7 (c : Dev nD) : (dat7 V c).Φ (Fin.last cfg7.N) ⊢ Pipeline.ΦA spec7 c := by
  rw [show (dat7 V c).Φ (Fin.last cfg7.N) = Pipeline.ΦA spec7 c from rfl]

end Cert.Kernel.Reg

end
-- ==== Proof.K.Fr8.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine kernel: hpre = agg + xw * selfn + convb on a row tile, and the column sums of hpre and of its
    square accumulated over the tiles into two one-row outputs. -/

section Blocks

variable (V : (c : Dev nD) → (b : Ref sig .tc) → Buf (Elt F) ((c : Thread nD τ).loc b))

/-- Window w's block at point t, read off its array at the entry contents. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, fetched there or not: unfetched, the block
    index has not moved. Window 0: the row tile of agg. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Window 1: the row tile of xw. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Window 2: the row tile of the one-column selfn. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Window 3: the one row convb, the same block at every point. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

end Blocks

/-! ## The body's one branch: the two accumulators are zeroed at the first point only -/

/-- The branch condition as a function of the grid coordinate. -/
abbrev k8_cond (i : grid8.Coords) : Prop :=
  (Scalar.cmpi .ne (Scalar.extui (Scalar.cmpi .eq (BitVec.ofNat 32 (i 0).val) 0#32)) 0#32) = 1#1

/-- It holds at the first point only. -/
theorem k8_hcond : ∀ t : Fin cfg8.N, k8_cond (grid8.coords t) ↔ t.val = 0 :=
  (by decide +kernel : ∀ t : Fin grid8.N, k8_cond (grid8.coords t) ↔ t.val = 0)

/-! ## The body on any whole staging memrefs, case by case -/

section Kernel

variable (c : Dev nD) (i : grid8.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

set_option maxHeartbeats 2000000 in
/-- FIRST POINT (the branch taken). With the four inputs at x0 x1 x2 x3 and the three outputs at anything, the body
    runs to a continuation that holds the inputs as they were and each output with a list of pieces written, last
    first: the lists are what the run finds. -/
noncomputable def sound_kernel8_A (hc : k8_cond i)
    (x0 : Vec F S10000x64 .f32) (x1 : Vec F S10000x64 .f32) (x2 : Vec F S10000x1 .f32) (x3 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc8__combine_kernel i arg1 harg1 arg2 harg2 arg3 harg3 arg4 harg4 arg5 harg5 arg6 harg6 arg7 harg7) K } := by
  refine ⟨?_, ?_, ?_, fun E K => ?run⟩
  case run =>
    simp only [cc8__combine_kernel_eq_skeleton]; unfold cc8__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1
    obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

set_option maxHeartbeats 2000000 in
/-- LATER POINTS (the branch not taken). The two accumulators come in at their running contents xo5 xo6; the body adds
    the tile's column sums to them. -/
noncomputable def sound_kernel8_B (hc : ¬k8_cond i)
    (x0 : Vec F S10000x64 .f32) (x1 : Vec F S10000x64 .f32) (x2 : Vec F S10000x1 .f32) (x3 : Vec F S1x64 .f32)
    (xo5 : Vec F S1x64 .f32) (xo6 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc8__combine_kernel i arg1 harg1 arg2 harg2 arg3 harg3 arg4 harg4 arg5 harg5 arg6 harg6 arg7 harg7) K } := by
  refine ⟨?_, ?_, ?_, fun E K => ?run⟩
  case run =>
    simp only [cc8__combine_kernel_eq_skeleton]; unfold cc8__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1
    obtain rfl := harg3.eq_unread hf2; obtain rfl := harg4.eq_unread hf3
    obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

/-! ## What each case leaves in the three outputs' staging buffers -/

/-- One staging buffer of each output window, through which its contents are stated: the pieces cover the block, so
    the choice of buffer and of what it held does not matter. -/
abbrev out8_4_view : View sig .tc .vmem S10000x64 .f32 := (Memref.whole cc8_stg4_0 : Memref sig .tc .vmem S10000x64 .f32).view
abbrev out8_5_view : View sig .tc .vmem S1x64 .f32 := (Memref.whole cc8_stg5_0 : Memref sig .tc .vmem S1x64 .f32).view
abbrev out8_6_view : View sig .tc .vmem S1x64 .f32 := (Memref.whole cc8_stg6_0 : Memref sig .tc .vmem S1x64 .f32).view

/-- First point: each output's pieces tile its block. -/
theorem cover8_4_A (hc : k8_cond i) (x0 : Vec F S10000x64 .f32) (x1 : Vec F S10000x64 .f32) (x2 : Vec F S10000x1 .f32) (x3 : Vec F S1x64 .f32)
    (y : S10000x64.Idx) : ∃ pc ∈ (sound_kernel8_A c i arg1 harg1 arg2 harg2 arg3 harg3 arg4 harg4 arg5 harg5 arg6 harg6 arg7 harg7 hc x0 x1 x2 x3).1, y ∈ pc.1.set :=
  View.cover_of_tiledL (sound_kernel8_A c i arg1 harg1 arg2 harg2 arg3 harg3 arg4 harg4 arg5 harg5 arg6 harg6 arg7 harg7 hc x0 x1 x2 x3).1 S10000x64.size (by sl_kernel_rfl) y
theorem cover8_5_A (hc : k8_cond i) (x0 : Vec F S10000x64 .f32) (x1 : Vec F S10000x64 .f32) (x2 : Vec F S10000x1 .f32) (x3 : Vec F S1x64 .f32)
    (y : S1x64.Idx) : ∃ pc ∈ (sound_kernel8_A c i arg1 harg1 arg2 harg2 arg3 harg3 arg4 harg4 arg5 harg5 arg6 harg6 arg7 harg7 hc x0 x1 x2 x3).2.1, y ∈ pc.1.set :=
  View.cover_of_tiledL (sound_kernel8_A c i arg1 harg1 arg2 harg2 arg3 harg3 arg4 harg4 arg5 harg5 arg6 harg6 arg7 harg7 hc x0 x1 x2 x3).2.1 S1x64.size (by sl_kernel_rfl) y
theorem cover8_6_A (hc : k8_cond i) (x0 : Vec F S10000x64 .f32) (x1 : Vec F S10000x64 .f32) (x2 : Vec F S10000x1 .f32) (x3 : Vec F S1x64 .f32)
    (y : S1x64.Idx) : ∃ pc ∈ (sound_kernel8_A c i arg1 harg1 arg2 harg2 arg3 harg3 arg4 harg4 arg5 harg5 arg6 harg6 arg7 harg7 hc x0 x1 x2 x3).2.2.1, y ∈ pc.1.set :=
  View.cover_of_tiledL (sound_kernel8_A c i arg1 harg1 arg2 harg2 arg3 harg3 arg4 harg4 arg5 harg5 arg6 harg6 arg7 harg7 hc x0 x1 x2 x3).2.2.1 S1x64.size (by sl_kernel_rfl) y

/-- First point: what the three outputs hold, their pieces read back. -/
def out8_A (hc : k8_cond i) (x0 : Vec F S10000x64 .f32) (x1 : Vec F S10000x64 .f32) (x2 : Vec F S10000x1 .f32) (x3 : Vec F S1x64 .f32) :
    Vec F S10000x64 .f32 × Vec F S1x64 .f32 × Vec F S1x64 .f32 :=
  (out8_4_view.read (Elt F) (out8_4_view.writes (Elt F) out8_4_view.junk (sound_kernel8_A c i arg1 harg1 arg2 harg2 arg3 harg3 arg4 harg4 arg5 harg5 arg6 harg6 arg7 harg7 hc x0 x1 x2 x3).1),
   out8_5_view.read (Elt F) (out8_5_view.writes (Elt F) out8_5_view.junk (sound_kernel8_A c i arg1 harg1 arg2 harg2 arg3 harg3 arg4 harg4 arg5 harg5 arg6 harg6 arg7 harg7 hc x0 x1 x2 x3).2.1),
   out8_6_view.read (Elt F) (out8_6_view.writes (Elt F) out8_6_view.junk (sound_kernel8_A c i arg1 harg1 arg2 harg2 arg3 harg3 arg4 harg4 arg5 harg5 arg6 harg6 arg7 harg7 hc x0 x1 x2 x3).2.2.1))

/-- Later points: each output's pieces tile its block. -/
theorem cover8_4_B (hc : ¬k8_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S10000x64.Idx) : ∃ pc ∈ (sound_kernel8_B c i arg1 harg1 arg2 harg2 arg3 harg3 arg4 harg4 arg5 harg5 arg6 harg6 arg7 harg7 hc x0 x1 x2 x3 xo5 xo6).1, y ∈ pc.1.set :=
  View.cover_of_tiledL (sound_kernel8_B c i arg1 harg1 arg2 harg2 arg3 harg3 arg4 harg4 arg5 harg5 arg6 harg6 arg7 harg7 hc x0 x1 x2 x3 xo5 xo6).1 S10000x64.size (by sl_kernel_rfl) y
theorem cover8_5_B (hc : ¬k8_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel8_B c i arg1 harg1 arg2 harg2 arg3 harg3 arg4 harg4 arg5 harg5 arg6 harg6 arg7 harg7 hc x0 x1 x2 x3 xo5 xo6).2.1, y ∈ pc.1.set :=
  View.cover_of_tiledL (sound_kernel8_B c i arg1 harg1 arg2 harg2 arg3 harg3 arg4 harg4 arg5 harg5 arg6 harg6 arg7 harg7 hc x0 x1 x2 x3 xo5 xo6).2.1 S1x64.size (by sl_kernel_rfl) y
theorem cover8_6_B (hc : ¬k8_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel8_B c i arg1 harg1 arg2 harg2 arg3 harg3 arg4 harg4 arg5 harg5 arg6 harg6 arg7 harg7 hc x0 x1 x2 x3 xo5 xo6).2.2.1, y ∈ pc.1.set :=
  View.cover_of_tiledL (sound_kernel8_B c i arg1 harg1 arg2 harg2 arg3 harg3 arg4 harg4 arg5 harg5 arg6 harg6 arg7 harg7 hc x0 x1 x2 x3 xo5 xo6).2.2.1 S1x64.size (by sl_kernel_rfl) y

/-- Later points: what the three outputs hold. -/
def out8_B (hc : ¬k8_cond i) (x0 : Vec F S10000x64 .f32) (x1 : Vec F S10000x64 .f32) (x2 : Vec F S10000x1 .f32) (x3 : Vec F S1x64 .f32)
    (xo5 : Vec F S1x64 .f32) (xo6 : Vec F S1x64 .f32) :
    Vec F S10000x64 .f32 × Vec F S1x64 .f32 × Vec F S1x64 .f32 :=
  (out8_4_view.read (Elt F) (out8_4_view.writes (Elt F) out8_4_view.junk (sound_kernel8_B c i arg1 harg1 arg2 harg2 arg3 harg3 arg4 harg4 arg5 harg5 arg6 harg6 arg7 harg7 hc x0 x1 x2 x3 xo5 xo6).1),
   out8_5_view.read (Elt F) (out8_5_view.writes (Elt F) out8_5_view.junk (sound_kernel8_B c i arg1 harg1 arg2 harg2 arg3 harg3 arg4 harg4 arg5 harg5 arg6 harg6 arg7 harg7 hc x0 x1 x2 x3 xo5 xo6).2.1),
   out8_6_view.read (Elt F) (out8_6_view.writes (Elt F) out8_6_view.junk (sound_kernel8_B c i arg1 harg1 arg2 harg2 arg3 harg3 arg4 harg4 arg5 harg5 arg6 harg6 arg7 harg7 hc x0 x1 x2 x3 xo5 xo6).2.2.1))

end Kernel

/-! ## What the outputs hold after each point -/

section Data

variable (V : (c : Dev nD) → (b : Ref sig .tc) → Buf (Elt F) ((c : Thread nD τ).loc b))

/-- The first point's outputs, at the point's staging memrefs and input blocks. -/
def out8_A_at (c : Dev nD) (t : Fin cfg8.N) (h0 : t.val = 0) : Vec F S10000x64 .f32 × Vec F S1x64 .f32 × Vec F S1x64 .f32 :=
  out8_A c (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) ((k8_hcond t).mpr h0) (iblk8 V c 0 t) (iblk8 V c 1 t) (iblk8 V c 2 t) (iblk8 V c 3 t)

/-- A later point's outputs, over the accumulators' running contents. -/
def out8_B_at (c : Dev nD) (t : Fin cfg8.N) (h0 : ¬t.val = 0) (xo5 : Vec F S1x64 .f32) (xo6 : Vec F S1x64 .f32) :
    Vec F S10000x64 .f32 × Vec F S1x64 .f32 × Vec F S1x64 .f32 :=
  out8_B c (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) (fun h => h0 ((k8_hcond t).mp h)) (iblk8 V c 0 t) (iblk8 V c 1 t) (iblk8 V c 2 t) (iblk8 V c 3 t) xo5 xo6

/-- THE ACCUMULATION, by recursion on the point: the tile's hpre block, and the two running column sums — zeroed and
    added to at the first point, added to at each later one from what the point before left (their buffers are not
    written back between). -/
def outsAt8 (c : Dev nD) : (n : ℕ) → n < cfg8.N → Vec F S10000x64 .f32 × Vec F S1x64 .f32 × Vec F S1x64 .f32
  | 0, hn => out8_A_at V c ⟨0, hn⟩ rfl
  | n + 1, hn => out8_B_at V c ⟨n + 1, hn⟩ (Nat.succ_ne_zero n) (outsAt8 c n (Nat.lt_of_succ_lt hn)).2.1 (outsAt8 c n (Nat.lt_of_succ_lt hn)).2.2

theorem outsAt8_A (c : Dev nD) (t : Fin cfg8.N) (h0 : t.val = 0) : outsAt8 V c t.val t.isLt = out8_A_at V c t h0 := by
  obtain ⟨n, hn⟩ := t
  cases n with
  | zero => rfl
  | succ n => exact absurd h0 (Nat.succ_ne_zero n)

theorem outsAt8_B (c : Dev nD) (t : Fin cfg8.N) (h0 : ¬t.val = 0) :
    outsAt8 V c t.val t.isLt = out8_B_at V c t h0
      (outsAt8 V c (t.val - 1) (Nat.lt_of_le_of_lt (Nat.sub_le _ _) t.isLt)).2.1
      (outsAt8 V c (t.val - 1) (Nat.lt_of_le_of_lt (Nat.sub_le _ _) t.isLt)).2.2 := by
  obtain ⟨n, hn⟩ := t
  cases n with
  | zero => exact absurd rfl h0
  | succ n => rfl

/-! ## The pipeline's proof data -/

/-- The arrays as the region finds them; after the body at point t each input's buffer at its block, window 4's at the
    tile's hpre block, windows 5 and 6's at the running sums; the class invariant; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => (outsAt8 V c t.val t.isLt).1
    | ⟨5, _⟩ => (outsAt8 V c t.val t.isLt).2.1
    | ⟨6, _⟩ => (outsAt8 V c t.val t.isLt).2.2
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = (outsAt8 V c t.val t.isLt).1 := by dsimp only [dat8]
theorem after8_5 (c : Dev nD) (t : Fin cfg8.N) : (dat8 V c).after 5 t = (outsAt8 V c t.val t.isLt).2.1 := by dsimp only [dat8]
theorem after8_6 (c : Dev nD) (t : Fin cfg8.N) : (dat8 V c).after 6 t = (outsAt8 V c t.val t.isLt).2.2 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- At a later point each accumulator's buffer holds what the body left at the point before: it is written back at the
    last point only, so not between. -/
theorem before8_5_B (c : Dev nD) (t : Fin cfg8.N) (h0 : ¬t.val = 0) (d) :
    (dat8 V c).before 5 t d = (outsAt8 V c (t.val - 1) (Nat.lt_of_le_of_lt (Nat.sub_le _ _) t.isLt)).2.1 := by
  have hN : t.val < 10 := lt_of_lt_of_eq t.isLt (show cfg8.N = 10 from N_8)
  rw [Dat.before_out_kept _ 5 rfl t h0 (Bool.eq_false_iff.mpr fun h => by have := (flush8_5 _).mp h; dsimp only at this; omega)
    (fun _ => rfl) (fun _ _ => rfl)]
  dsimp only [dat8]
theorem before8_6_B (c : Dev nD) (t : Fin cfg8.N) (h0 : ¬t.val = 0) (d) :
    (dat8 V c).before 6 t d = (outsAt8 V c (t.val - 1) (Nat.lt_of_le_of_lt (Nat.sub_le _ _) t.isLt)).2.2 := by
  have hN : t.val < 10 := lt_of_lt_of_eq t.isLt (show cfg8.N = 10 from N_8)
  rw [Dat.before_out_kept _ 6 rfl t h0 (Bool.eq_false_iff.mpr fun h => by have := (flush8_6 _).mp h; dsimp only at this; omega)
    (fun _ => rfl) (fun _ _ => rfl)]
  dsimp only [dat8]

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

set_option maxHeartbeats 1600000 in
/-- The body at any point: the inputs' memrefs hold their blocks; at the first point the branch is taken and the outputs
    hold anything; at a later point it is not and the accumulators hold what the point before left; the case's run
    applies, and its pieces, covering each block, read back as the stated contents. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  by_cases h0 : t.val = 0
  · rw [outsAt8_A V c t h0]
    unfold out8_A_at out8_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel8_A c (grid8.coords t) _ _ _ _ _ _ _ _ _ _ _ _ _ _ ((k8_hcond t).mpr h0) (iblk8 V c 0 t) (iblk8 V c 1 t) (iblk8 V c 2 t) (iblk8 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover8_4_A c _ _ _ _ _ _ _ _ _ _ _ _ _ _ _ _ _ _ _ _)
    isplitl [H5]
    · unfold owns; iexists _; isplitr
      swap; · iexact H5
      ipureintro; exact View.read_writes_of_cover _ _ _ _ _ (cover8_5_A c _ _ _ _ _ _ _ _ _ _ _ _ _ _ _ _ _ _ _ _)
    unfold owns; iexists _; isplitr
    swap; · iexact H6
    ipureintro; exact View.read_writes_of_cover _ _ _ _ _ (cover8_6_A c _ _ _ _ _ _ _ _ _ _ _ _ _ _ _ _ _ _ _ _)
  · rw [outsAt8_B V c t h0]
    simp only [before8_5_B V c t h0, before8_6_B V c t h0]
    unfold out8_B_at out8_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel8_B c (grid8.coords t) _ _ _ _ _ _ _ _ _ _ _ _ _ _ (fun h => h0 ((k8_hcond t).mp h)) (iblk8 V c 0 t) (iblk8 V c 1 t) (iblk8 V c 2 t) (iblk8 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover8_4_B c _ _ _ _ _ _ _ _ _ _ _ _ _ _ _ _ _ _ _ _ _ _)
    isplitl [H5]
    · unfold owns; iexists _; isplitr
      swap; · iexact H5
      ipureintro; exact View.read_writes_of_cover _ _ _ _ _ (cover8_5_B c _ _ _ _ _ _ _ _ _ _ _ _ _ _ _ _ _ _ _ _ _ _)
    unfold owns; iexists _; isplitr
    swap; · iexact H6
    ipureintro; exact View.read_writes_of_cover _ _ _ _ _ (cover8_6_B c _ _ _ _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- The invariant is the class's at every position: in and out unchanged. -/
theorem hin8 (c : Dev nD) : Pipeline.ΦA spec8 c ⊢ (dat8 V c).Φ 0 := Entails.refl _
theorem hout8 (c : Dev nD) : (dat8 V c).Φ (Fin.last cfg8.N) ⊢ Pipeline.ΦA spec8 c := Entails.refl _

end Data

end Cert.Kernel.Reg

end
-- ==== Proof.K.Fr9.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 10000 × 64: the structural look recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The normalize-and-clamp region: a [10000,64] block of rows and four [1,64] rows in, one [10000,64] block out -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point (its block index is constant over the grid, so where it is not fetched the block already there is the point's), for any proof
    data whose array is `V`'s and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point (its block index is constant over the grid, so where it is not fetched the block already there is the point's), for any proof
    data whose array is `V`'s and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point (its block index is constant over the grid, so where it is not fetched the block already there is the point's), for any proof
    data whose array is `V`'s and whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point (its block index is constant over the grid, so where it is not fetched the block already there is the point's), for any proof
    data whose array is `V`'s and whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the store is of a whole buffer -/

abbrev r9_0 : Rect S10000x64 := Rect.unit (s := S10000x64) ![0, 0] S10000x64.size inb_S10000x64_S10000x64_0_0
abbrev r9_1 : Rect S1x64 := Rect.unit (s := S1x64) ![0, 0] S1x64.size inb_S1x64_S1x64_0_0

/-! ## What the body leaves in the output window's buffer -/

/-- Window 5's staging buffer after the body, from the input windows' blocks `xa … xe` (windows 0 … 4): its one
    whole-buffer store; the payload takes the rows block, then the rows of windows 3, 1, 2, 4, in the order the body loads them. -/
def out9_5 (xa : Vec F S10000x64 .f32) (xb xc xd xe : Vec F S1x64 .f32) : Vec F S10000x64 .f32 :=
  View.canon [⟨r9_0, k9_pay1 (View.ld xa r9_0) (View.ld xd r9_1) (View.ld xb r9_1) (View.ld xc r9_1) (View.ld xe r9_1)⟩]

/-- The store's rectangle is the whole buffer, so it covers it. -/
theorem cover9_5 (pa : Vec F S10000x64 .f32) (y : S10000x64.Idx) :
    ∃ pc ∈ ([⟨r9_0, pa⟩] : List (View.Piece (Elt F) S10000x64 .f32)), y ∈ pc.1.set :=
  View.cover_of_tiled [⟨r9_0, pa⟩] S10000x64.size (by rfl) y

/-! ## The body's triple -/

set_option maxHeartbeats 1000000 in
/-- The body on whole staging memrefs, the inputs' at read contents `xa … xe` and the output's at anything, runs to the
    continuation holding the inputs' as they were and the output's at `out9_5` of the inputs'. -/
theorem sound_kernel9 (c : Dev nD) (E : Set ℕ) (i : grid9.Coords)
    (arga : Memref sig .tc .vmem S10000x64 .f32) (harga : arga.IsWhole) (argb : Memref sig .tc .vmem S1x64 .f32) (hargb : argb.IsWhole)
    (argc : Memref sig .tc .vmem S1x64 .f32) (hargc : argc.IsWhole) (argd : Memref sig .tc .vmem S1x64 .f32) (hargd : argd.IsWhole)
    (arge : Memref sig .tc .vmem S1x64 .f32) (harge : arge.IsWhole) (argf : Memref sig .tc .vmem S10000x64 .f32) (hargf : argf.IsWhole)
    (xa : Vec F S10000x64 .f32) (xb xc xd xe : Vec F S1x64 .f32) (K : PUnit → sProp 𝕄) :
    iprop(owns (c : Thread nD τ) arga fullShare xa ∗ owns (c : Thread nD τ) argb fullShare xb ∗ owns (c : Thread nD τ) argc fullShare xc
        ∗ owns (c : Thread nD τ) argd fullShare xd ∗ owns (c : Thread nD τ) arge fullShare xe ∗ (∃ d, owns (c : Thread nD τ) argf fullShare d)
        ∗ (iprop(owns (c : Thread nD τ) arga fullShare xa ∗ owns (c : Thread nD τ) argb fullShare xb ∗ owns (c : Thread nD τ) argc fullShare xc
            ∗ owns (c : Thread nD τ) argd fullShare xd ∗ owns (c : Thread nD τ) arge fullShare xe
            ∗ owns (c : Thread nD τ) argf fullShare (out9_5 xa xb xc xd xe)) -∗ K ⟨⟩))
      ⊢ wp frame (wpE (defs₀ (F := F)) Variants.none c none) E (cc9__bn_relu_kernel i arga harga argb hargb argc hargc argd hargd arge harge argf hargf) K := by
  simp only [cc9__bn_relu_kernel_eq_skeleton]; unfold cc9__bn_relu_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hf⟩, Hk⟩
  subst hfa; subst hfb; subst hfc; subst hfd; subst hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover9_5 _)

/-! ## The pipeline's proof data -/

/-- The proof data of the region's pipeline on core `c`: the arrays as the region finds them (`V`); after the body at
    point `t` each input's buffer at its block and the output's at `out9_5` of the input blocks; the invariant the
    untouched rest; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and
    the core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%da, Ha⟩, ⟨%db, Hb⟩, ⟨%dc, Hc⟩, ⟨%dd, Hd⟩, ⟨%de, He⟩, ⟨%df, Hf⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's ends: the untouched rest, as it is outside the region -/

theorem hin9 (c : Dev nD) : Pipeline.ΦA spec9 c ⊢ (dat9 V c).Φ 0 := .rfl

theorem hout9 (c : Dev nD) : (dat9 V c).Φ (Fin.last cfg9.N) ⊢ Pipeline.ΦA spec9 c := .rfl

end Cert.Kernel.Reg

end
-- ==== Proof.K.Fr10.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of ten thousand rows recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # A product of a row tile with a weight matrix, plus a bias row -/

/-! ## The windows' blocks -/

/-- Window `w`'s block at point `t`, read off its array as the region finds it. Window 0 is the row tile of
    ten thousand rows at `t`; windows 1 and 2 are the whole weight matrix and the whole bias row at every point;
    window 3 is the output's row tile at `t`. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The row tile's buffer holds its block at every point: the tile is fetched at each one, and the body leaves it
    in place. Stated for any proof data over the entry arrays whose body keeps the block. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The weight matrix's buffer holds the whole matrix at every point, though it is fetched at the first point only:
    its block index never moves, and the body leaves the buffer as it found it. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The bias row's buffer likewise holds the whole row at every point. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each buffer whole -/

abbrev r10_0 : Rect S10000x64 := Rect.unit (s := S10000x64) ![0, 0] S10000x64.size inb_S10000x64_S10000x64_0_0
abbrev r10_1 : Rect S64x64 := Rect.unit (s := S64x64) ![0, 0] S64x64.size inb_S64x64_S64x64_0_0
abbrev r10_2 : Rect S1x64 := Rect.unit (s := S1x64) ![0, 0] S1x64.size inb_S1x64_S1x64_0_0
abbrev r10_3 : Rect S10000x64 := Rect.unit (s := S10000x64) ![0, 0] S10000x64.size inb_S10000x64_S10000x64_0_0

/-! ## What the body leaves in the output window's buffer -/

/-- The output tile after the body, from the three input blocks: one store of the whole tile, whose payload is the
    product of the rounded row tile with the rounded weight matrix accumulated from zero, plus the bias row
    repeated down the rows. -/
def out10_3 (x0 : Vec F S10000x64 .f32) (x1 : Vec F S64x64 .f32) (x2 : Vec F S1x64 .f32) : Vec F S10000x64 .f32 :=
  View.canon [⟨r10_3, k10_pay1 (View.ld x0 r10_0) (View.ld x1 r10_1) (View.ld x2 r10_2)⟩]

/-- The one store is the whole tile, so it covers it. -/
theorem cover10_3 (p0 : Vec F S10000x64 .f32) (y : S10000x64.Idx) :
    ∃ pc ∈ ([⟨r10_3, p0⟩] : List (View.Piece (Elt F) S10000x64 .f32)), y ∈ pc.1.set :=
  View.cover_of_tiled [⟨r10_3, p0⟩] S10000x64.size (by rfl) y

/-! ## The body's triple -/

set_option maxHeartbeats 1000000 in
/-- The body on whole staging buffers, the inputs' reading `x0`, `x1`, `x2` and the output's holding anything,
    runs to the continuation with the inputs' as they were and the output's at `out10_3` of them. -/
theorem sound_kernel10 (c : Dev nD) (E : Set ℕ) (i : grid10.Coords) (wa : Memref sig .tc .vmem S10000x64 .f32) (hwa : wa.IsWhole) (wb : Memref sig .tc .vmem S64x64 .f32) (hwb : wb.IsWhole) (wc : Memref sig .tc .vmem S1x64 .f32) (hwc : wc.IsWhole) (wd : Memref sig .tc .vmem S10000x64 .f32) (hwd : wd.IsWhole)
    (x0 : Vec F S10000x64 .f32) (x1 : Vec F S64x64 .f32) (x2 : Vec F S1x64 .f32) (K : PUnit → sProp 𝕄) :
    iprop(owns (c : Thread nD τ) wa fullShare x0 ∗ owns (c : Thread nD τ) wb fullShare x1 ∗ owns (c : Thread nD τ) wc fullShare x2 ∗ (∃ d, owns (c : Thread nD τ) wd fullShare d)
        ∗ (iprop(owns (c : Thread nD τ) wa fullShare x0 ∗ owns (c : Thread nD τ) wb fullShare x1 ∗ owns (c : Thread nD τ) wc fullShare x2 ∗ owns (c : Thread nD τ) wd fullShare (out10_3 x0 x1 x2)) -∗ K ⟨⟩))
      ⊢ wp frame (wpE (defs₀ (F := F)) Variants.none c none) E (cc10__matmul_bias_kernel i wa hwa wb hwb wc hwc wd hwd) K := by
  simp only [cc10__matmul_bias_kernel_eq_skeleton]; unfold cc10__matmul_bias_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover10_3 _)

/-! ## The pipeline's proof data -/

/-- The proof data on core `c`: the arrays as the region finds them; after the body at point `t` each input's
    buffer at its block and the output's at `out10_3` of the three input blocks; the invariant untouched from
    point to point; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

/-- Each input's current buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' buffers hold their blocks, so the body's triple applies; the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%da, Ha⟩, ⟨%db, Hb⟩, ⟨%dc, Hc⟩, ⟨%dd, Hd⟩⟩
  iapply (sound_kernel10 c Set.univ (grid10.coords t) _ _ _ _ _ _ _ _ (iblk10 V c 0 t) (iblk10 V c 1 t) (iblk10 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's two ends -/

/-- The invariant at the first boundary is the entry's, -/
theorem hin10 (c : Dev nD) : Pipeline.ΦA spec10 c ⊢ (dat10 V c).Φ 0 := by
  rw [show (dat10 V c).Φ 0 = Pipeline.ΦA spec10 c from rfl]

/-- and at the last boundary it is the entry's again. -/
theorem hout10 (c : Dev nD) : (dat10 V c).Φ (Fin.last cfg10.N) ⊢ Pipeline.ΦA spec10 c := by
  rw [show (dat10 V c).Φ (Fin.last cfg10.N) = Pipeline.ΦA spec10 c from rfl]

end Cert.Kernel.Reg

end
-- ==== Proof.K.Fr11.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine kernel: hpre = agg + xw * selfn + convb on a row tile, and the column sums of hpre and of its
    square accumulated over the tiles into two one-row outputs. -/

section Blocks

variable (V : (c : Dev nD) → (b : Ref sig .tc) → Buf (Elt F) ((c : Thread nD τ).loc b))

/-- Window w's block at point t, read off its array at the entry contents. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's staging buffer holds its block at every point, fetched there or not: unfetched, the block
    index has not moved. Window 0: the row tile of agg. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Window 1: the row tile of xw. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Window 2: the row tile of the one-column selfn. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Window 3: the one row convb, the same block at every point. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

end Blocks

/-! ## The body's one branch: the two accumulators are zeroed at the first point only -/

/-- The branch condition as a function of the grid coordinate. -/
abbrev k11_cond (i : grid11.Coords) : Prop :=
  (Scalar.cmpi .ne (Scalar.extui (Scalar.cmpi .eq (BitVec.ofNat 32 (i 0).val) 0#32)) 0#32) = 1#1

/-- It holds at the first point only. -/
theorem k11_hcond : ∀ t : Fin cfg11.N, k11_cond (grid11.coords t) ↔ t.val = 0 :=
  (by decide +kernel : ∀ t : Fin grid11.N, k11_cond (grid11.coords t) ↔ t.val = 0)

/-! ## The body on any whole staging memrefs, case by case -/

section Kernel

variable (c : Dev nD) (i : grid11.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

set_option maxHeartbeats 2000000 in
/-- FIRST POINT (the branch taken). With the four inputs at x0 x1 x2 x3 and the three outputs at anything, the body
    runs to a continuation that holds the inputs as they were and each output with a list of pieces written, last
    first: the lists are what the run finds. -/
noncomputable def sound_kernel11_A (hc : k11_cond i)
    (x0 : Vec F S10000x64 .f32) (x1 : Vec F S10000x64 .f32) (x2 : Vec F S10000x1 .f32) (x3 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc11__combine_kernel i arg1 harg1 arg2 harg2 arg3 harg3 arg4 harg4 arg5 harg5 arg6 harg6 arg7 harg7) K } := by
  refine ⟨?_, ?_, ?_, fun E K => ?run⟩
  case run =>
    simp only [cc11__combine_kernel_eq_skeleton]; unfold cc11__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1
    obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

set_option maxHeartbeats 2000000 in
/-- LATER POINTS (the branch not taken). The two accumulators come in at their running contents xo5 xo6; the body adds
    the tile's column sums to them. -/
noncomputable def sound_kernel11_B (hc : ¬k11_cond i)
    (x0 : Vec F S10000x64 .f32) (x1 : Vec F S10000x64 .f32) (x2 : Vec F S10000x1 .f32) (x3 : Vec F S1x64 .f32)
    (xo5 : Vec F S1x64 .f32) (xo6 : Vec F S1x64 .f32) :
    Σ' (L4 : List (View.Piece (Elt F) S10000x64 .f32)) (L5 : List (View.Piece (Elt F) S1x64 .f32)), { L6 : List (View.Piece (Elt F) S1x64 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E
              (cc11__combine_kernel i arg1 harg1 arg2 harg2 arg3 harg3 arg4 harg4 arg5 harg5 arg6 harg6 arg7 harg7) K } := by
  refine ⟨?_, ?_, ?_, fun E K => ?run⟩
  case run =>
    simp only [cc11__combine_kernel_eq_skeleton]; unfold cc11__combine_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1
    obtain rfl := harg3.eq_unread hf2; obtain rfl := harg4.eq_unread hf3
    obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact H6

/-! ## What each case leaves in the three outputs' staging buffers -/

/-- One staging buffer of each output window, through which its contents are stated: the pieces cover the block, so
    the choice of buffer and of what it held does not matter. -/
abbrev out11_4_view : View sig .tc .vmem S10000x64 .f32 := (Memref.whole cc11_stg4_0 : Memref sig .tc .vmem S10000x64 .f32).view
abbrev out11_5_view : View sig .tc .vmem S1x64 .f32 := (Memref.whole cc11_stg5_0 : Memref sig .tc .vmem S1x64 .f32).view
abbrev out11_6_view : View sig .tc .vmem S1x64 .f32 := (Memref.whole cc11_stg6_0 : Memref sig .tc .vmem S1x64 .f32).view

/-- First point: each output's pieces tile its block. -/
theorem cover11_4_A (hc : k11_cond i) (x0 : Vec F S10000x64 .f32) (x1 : Vec F S10000x64 .f32) (x2 : Vec F S10000x1 .f32) (x3 : Vec F S1x64 .f32)
    (y : S10000x64.Idx) : ∃ pc ∈ (sound_kernel11_A c i arg1 harg1 arg2 harg2 arg3 harg3 arg4 harg4 arg5 harg5 arg6 harg6 arg7 harg7 hc x0 x1 x2 x3).1, y ∈ pc.1.set :=
  View.cover_of_tiledL (sound_kernel11_A c i arg1 harg1 arg2 harg2 arg3 harg3 arg4 harg4 arg5 harg5 arg6 harg6 arg7 harg7 hc x0 x1 x2 x3).1 S10000x64.size (by sl_kernel_rfl) y
theorem cover11_5_A (hc : k11_cond i) (x0 : Vec F S10000x64 .f32) (x1 : Vec F S10000x64 .f32) (x2 : Vec F S10000x1 .f32) (x3 : Vec F S1x64 .f32)
    (y : S1x64.Idx) : ∃ pc ∈ (sound_kernel11_A c i arg1 harg1 arg2 harg2 arg3 harg3 arg4 harg4 arg5 harg5 arg6 harg6 arg7 harg7 hc x0 x1 x2 x3).2.1, y ∈ pc.1.set :=
  View.cover_of_tiledL (sound_kernel11_A c i arg1 harg1 arg2 harg2 arg3 harg3 arg4 harg4 arg5 harg5 arg6 harg6 arg7 harg7 hc x0 x1 x2 x3).2.1 S1x64.size (by sl_kernel_rfl) y
theorem cover11_6_A (hc : k11_cond i) (x0 : Vec F S10000x64 .f32) (x1 : Vec F S10000x64 .f32) (x2 : Vec F S10000x1 .f32) (x3 : Vec F S1x64 .f32)
    (y : S1x64.Idx) : ∃ pc ∈ (sound_kernel11_A c i arg1 harg1 arg2 harg2 arg3 harg3 arg4 harg4 arg5 harg5 arg6 harg6 arg7 harg7 hc x0 x1 x2 x3).2.2.1, y ∈ pc.1.set :=
  View.cover_of_tiledL (sound_kernel11_A c i arg1 harg1 arg2 harg2 arg3 harg3 arg4 harg4 arg5 harg5 arg6 harg6 arg7 harg7 hc x0 x1 x2 x3).2.2.1 S1x64.size (by sl_kernel_rfl) y

/-- First point: what the three outputs hold, their pieces read back. -/
def out11_A (hc : k11_cond i) (x0 : Vec F S10000x64 .f32) (x1 : Vec F S10000x64 .f32) (x2 : Vec F S10000x1 .f32) (x3 : Vec F S1x64 .f32) :
    Vec F S10000x64 .f32 × Vec F S1x64 .f32 × Vec F S1x64 .f32 :=
  (out11_4_view.read (Elt F) (out11_4_view.writes (Elt F) out11_4_view.junk (sound_kernel11_A c i arg1 harg1 arg2 harg2 arg3 harg3 arg4 harg4 arg5 harg5 arg6 harg6 arg7 harg7 hc x0 x1 x2 x3).1),
   out11_5_view.read (Elt F) (out11_5_view.writes (Elt F) out11_5_view.junk (sound_kernel11_A c i arg1 harg1 arg2 harg2 arg3 harg3 arg4 harg4 arg5 harg5 arg6 harg6 arg7 harg7 hc x0 x1 x2 x3).2.1),
   out11_6_view.read (Elt F) (out11_6_view.writes (Elt F) out11_6_view.junk (sound_kernel11_A c i arg1 harg1 arg2 harg2 arg3 harg3 arg4 harg4 arg5 harg5 arg6 harg6 arg7 harg7 hc x0 x1 x2 x3).2.2.1))

/-- Later points: each output's pieces tile its block. -/
theorem cover11_4_B (hc : ¬k11_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S10000x64.Idx) : ∃ pc ∈ (sound_kernel11_B c i arg1 harg1 arg2 harg2 arg3 harg3 arg4 harg4 arg5 harg5 arg6 harg6 arg7 harg7 hc x0 x1 x2 x3 xo5 xo6).1, y ∈ pc.1.set :=
  View.cover_of_tiledL (sound_kernel11_B c i arg1 harg1 arg2 harg2 arg3 harg3 arg4 harg4 arg5 harg5 arg6 harg6 arg7 harg7 hc x0 x1 x2 x3 xo5 xo6).1 S10000x64.size (by sl_kernel_rfl) y
theorem cover11_5_B (hc : ¬k11_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel11_B c i arg1 harg1 arg2 harg2 arg3 harg3 arg4 harg4 arg5 harg5 arg6 harg6 arg7 harg7 hc x0 x1 x2 x3 xo5 xo6).2.1, y ∈ pc.1.set :=
  View.cover_of_tiledL (sound_kernel11_B c i arg1 harg1 arg2 harg2 arg3 harg3 arg4 harg4 arg5 harg5 arg6 harg6 arg7 harg7 hc x0 x1 x2 x3 xo5 xo6).2.1 S1x64.size (by sl_kernel_rfl) y
theorem cover11_6_B (hc : ¬k11_cond i) (x0 : Vec F S10000x64 .f32) (x1 : Vec F S10000x64 .f32) (x2 : Vec F S10000x1 .f32) (x3 : Vec F S1x64 .f32)
    (xo5 : Vec F S1x64 .f32) (xo6 : Vec F S1x64 .f32)
    (y : S1x64.Idx) : ∃ pc ∈ (sound_kernel11_B c i arg1 harg1 arg2 harg2 arg3 harg3 arg4 harg4 arg5 harg5 arg6 harg6 arg7 harg7 hc x0 x1 x2 x3 xo5 xo6).2.2.1, y ∈ pc.1.set :=
  View.cover_of_tiledL (sound_kernel11_B c i arg1 harg1 arg2 harg2 arg3 harg3 arg4 harg4 arg5 harg5 arg6 harg6 arg7 harg7 hc x0 x1 x2 x3 xo5 xo6).2.2.1 S1x64.size (by sl_kernel_rfl) y

/-- Later points: what the three outputs hold. -/
def out11_B (hc : ¬k11_cond i) (x0 : Vec F S10000x64 .f32) (x1 : Vec F S10000x64 .f32) (x2 : Vec F S10000x1 .f32) (x3 : Vec F S1x64 .f32)
    (xo5 : Vec F S1x64 .f32) (xo6 : Vec F S1x64 .f32) :
    Vec F S10000x64 .f32 × Vec F S1x64 .f32 × Vec F S1x64 .f32 :=
  (out11_4_view.read (Elt F) (out11_4_view.writes (Elt F) out11_4_view.junk (sound_kernel11_B c i arg1 harg1 arg2 harg2 arg3 harg3 arg4 harg4 arg5 harg5 arg6 harg6 arg7 harg7 hc x0 x1 x2 x3 xo5 xo6).1),
   out11_5_view.read (Elt F) (out11_5_view.writes (Elt F) out11_5_view.junk (sound_kernel11_B c i arg1 harg1 arg2 harg2 arg3 harg3 arg4 harg4 arg5 harg5 arg6 harg6 arg7 harg7 hc x0 x1 x2 x3 xo5 xo6).2.1),
   out11_6_view.read (Elt F) (out11_6_view.writes (Elt F) out11_6_view.junk (sound_kernel11_B c i arg1 harg1 arg2 harg2 arg3 harg3 arg4 harg4 arg5 harg5 arg6 harg6 arg7 harg7 hc x0 x1 x2 x3 xo5 xo6).2.2.1))

end Kernel

/-! ## What the outputs hold after each point -/

section Data

variable (V : (c : Dev nD) → (b : Ref sig .tc) → Buf (Elt F) ((c : Thread nD τ).loc b))

/-- The first point's outputs, at the point's staging memrefs and input blocks. -/
def out11_A_at (c : Dev nD) (t : Fin cfg11.N) (h0 : t.val = 0) : Vec F S10000x64 .f32 × Vec F S1x64 .f32 × Vec F S1x64 .f32 :=
  out11_A c (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) ((k11_hcond t).mpr h0) (iblk11 V c 0 t) (iblk11 V c 1 t) (iblk11 V c 2 t) (iblk11 V c 3 t)

/-- A later point's outputs, over the accumulators' running contents. -/
def out11_B_at (c : Dev nD) (t : Fin cfg11.N) (h0 : ¬t.val = 0) (xo5 : Vec F S1x64 .f32) (xo6 : Vec F S1x64 .f32) :
    Vec F S10000x64 .f32 × Vec F S1x64 .f32 × Vec F S1x64 .f32 :=
  out11_B c (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) (fun h => h0 ((k11_hcond t).mp h)) (iblk11 V c 0 t) (iblk11 V c 1 t) (iblk11 V c 2 t) (iblk11 V c 3 t) xo5 xo6

/-- THE ACCUMULATION, by recursion on the point: the tile's hpre block, and the two running column sums — zeroed and
    added to at the first point, added to at each later one from what the point before left (their buffers are not
    written back between). -/
def outsAt11 (c : Dev nD) : (n : ℕ) → n < cfg11.N → Vec F S10000x64 .f32 × Vec F S1x64 .f32 × Vec F S1x64 .f32
  | 0, hn => out11_A_at V c ⟨0, hn⟩ rfl
  | n + 1, hn => out11_B_at V c ⟨n + 1, hn⟩ (Nat.succ_ne_zero n) (outsAt11 c n (Nat.lt_of_succ_lt hn)).2.1 (outsAt11 c n (Nat.lt_of_succ_lt hn)).2.2

theorem outsAt11_A (c : Dev nD) (t : Fin cfg11.N) (h0 : t.val = 0) : outsAt11 V c t.val t.isLt = out11_A_at V c t h0 := by
  obtain ⟨n, hn⟩ := t
  cases n with
  | zero => rfl
  | succ n => exact absurd h0 (Nat.succ_ne_zero n)

theorem outsAt11_B (c : Dev nD) (t : Fin cfg11.N) (h0 : ¬t.val = 0) :
    outsAt11 V c t.val t.isLt = out11_B_at V c t h0
      (outsAt11 V c (t.val - 1) (Nat.lt_of_le_of_lt (Nat.sub_le _ _) t.isLt)).2.1
      (outsAt11 V c (t.val - 1) (Nat.lt_of_le_of_lt (Nat.sub_le _ _) t.isLt)).2.2 := by
  obtain ⟨n, hn⟩ := t
  cases n with
  | zero => exact absurd rfl h0
  | succ n => rfl

/-! ## The pipeline's proof data -/

/-- The arrays as the region finds them; after the body at point t each input's buffer at its block, window 4's at the
    tile's hpre block, windows 5 and 6's at the running sums; the class invariant; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => (outsAt11 V c t.val t.isLt).1
    | ⟨5, _⟩ => (outsAt11 V c t.val t.isLt).2.1
    | ⟨6, _⟩ => (outsAt11 V c t.val t.isLt).2.2
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = (outsAt11 V c t.val t.isLt).1 := by dsimp only [dat11]
theorem after11_5 (c : Dev nD) (t : Fin cfg11.N) : (dat11 V c).after 5 t = (outsAt11 V c t.val t.isLt).2.1 := by dsimp only [dat11]
theorem after11_6 (c : Dev nD) (t : Fin cfg11.N) : (dat11 V c).after 6 t = (outsAt11 V c t.val t.isLt).2.2 := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- At a later point each accumulator's buffer holds what the body left at the point before: it is written back at the
    last point only, so not between. -/
theorem before11_5_B (c : Dev nD) (t : Fin cfg11.N) (h0 : ¬t.val = 0) (d) :
    (dat11 V c).before 5 t d = (outsAt11 V c (t.val - 1) (Nat.lt_of_le_of_lt (Nat.sub_le _ _) t.isLt)).2.1 := by
  have hN : t.val < 10 := lt_of_lt_of_eq t.isLt (show cfg11.N = 10 from N_11)
  rw [Dat.before_out_kept _ 5 rfl t h0 (Bool.eq_false_iff.mpr fun h => by have := (flush11_5 _).mp h; dsimp only at this; omega)
    (fun _ => rfl) (fun _ _ => rfl)]
  dsimp only [dat11]
theorem before11_6_B (c : Dev nD) (t : Fin cfg11.N) (h0 : ¬t.val = 0) (d) :
    (dat11 V c).before 6 t d = (outsAt11 V c (t.val - 1) (Nat.lt_of_le_of_lt (Nat.sub_le _ _) t.isLt)).2.2 := by
  have hN : t.val < 10 := lt_of_lt_of_eq t.isLt (show cfg11.N = 10 from N_11)
  rw [Dat.before_out_kept _ 6 rfl t h0 (Bool.eq_false_iff.mpr fun h => by have := (flush11_6 _).mp h; dsimp only at this; omega)
    (fun _ => rfl) (fun _ _ => rfl)]
  dsimp only [dat11]

/-! ## The body obligation, at a generic point -/

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

set_option maxHeartbeats 1600000 in
/-- The body at any point: the inputs' memrefs hold their blocks; at the first point the branch is taken and the outputs
    hold anything; at a later point it is not and the accumulators hold what the point before left; the case's run
    applies, and its pieces, covering each block, read back as the stated contents. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  by_cases h0 : t.val = 0
  · rw [outsAt11_A V c t h0]
    unfold out11_A_at out11_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel11_A c (grid11.coords t) _ _ _ _ _ _ _ _ _ _ _ _ _ _ ((k11_hcond t).mpr h0) (iblk11 V c 0 t) (iblk11 V c 1 t) (iblk11 V c 2 t) (iblk11 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover11_4_A c _ _ _ _ _ _ _ _ _ _ _ _ _ _ _ _ _ _ _ _)
    isplitl [H5]
    · unfold owns; iexists _; isplitr
      swap; · iexact H5
      ipureintro; exact View.read_writes_of_cover _ _ _ _ _ (cover11_5_A c _ _ _ _ _ _ _ _ _ _ _ _ _ _ _ _ _ _ _ _)
    unfold owns; iexists _; isplitr
    swap; · iexact H6
    ipureintro; exact View.read_writes_of_cover _ _ _ _ _ (cover11_6_A c _ _ _ _ _ _ _ _ _ _ _ _ _ _ _ _ _ _ _ _)
  · rw [outsAt11_B V c t h0]
    simp only [before11_5_B V c t h0, before11_6_B V c t h0]
    unfold out11_B_at out11_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((sound_kernel11_B c (grid11.coords t) _ _ _ _ _ _ _ _ _ _ _ _ _ _ (fun h => h0 ((k11_hcond t).mp h)) (iblk11 V c 0 t) (iblk11 V c 1 t) (iblk11 V c 2 t) (iblk11 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover11_4_B c _ _ _ _ _ _ _ _ _ _ _ _ _ _ _ _ _ _ _ _ _ _)
    isplitl [H5]
    · unfold owns; iexists _; isplitr
      swap; · iexact H5
      ipureintro; exact View.read_writes_of_cover _ _ _ _ _ (cover11_5_B c _ _ _ _ _ _ _ _ _ _ _ _ _ _ _ _ _ _ _ _ _ _)
    unfold owns; iexists _; isplitr
    swap; · iexact H6
    ipureintro; exact View.read_writes_of_cover _ _ _ _ _ (cover11_6_B c _ _ _ _ _ _ _ _ _ _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- The invariant is the class's at every position: in and out unchanged. -/
theorem hin11 (c : Dev nD) : Pipeline.ΦA spec11 c ⊢ (dat11 V c).Φ 0 := Entails.refl _
theorem hout11 (c : Dev nD) : (dat11 V c).Φ (Fin.last cfg11.N) ⊢ Pipeline.ΦA spec11 c := Entails.refl _

end Data

end Cert.Kernel.Reg

end
-- ==== Proof.K.Fr12.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 10000 × 64: the structural look recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The normalize-and-clamp region: a [10000,64] block of rows and four [1,64] rows in, one [10000,64] block out -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, for any proof
    data whose array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point (its block index is constant over the grid, so where it is not fetched the block already there is the point's), for any proof
    data whose array is `V`'s and whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point (its block index is constant over the grid, so where it is not fetched the block already there is the point's), for any proof
    data whose array is `V`'s and whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point (its block index is constant over the grid, so where it is not fetched the block already there is the point's), for any proof
    data whose array is `V`'s and whose body leaves the block in place. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point (its block index is constant over the grid, so where it is not fetched the block already there is the point's), for any proof
    data whose array is `V`'s and whose body leaves the block in place. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: every load and the store is of a whole buffer -/

abbrev r12_0 : Rect S10000x64 := Rect.unit (s := S10000x64) ![0, 0] S10000x64.size inb_S10000x64_S10000x64_0_0
abbrev r12_1 : Rect S1x64 := Rect.unit (s := S1x64) ![0, 0] S1x64.size inb_S1x64_S1x64_0_0

/-! ## What the body leaves in the output window's buffer -/

/-- Window 5's staging buffer after the body, from the input windows' blocks `xa … xe` (windows 0 … 4): its one
    whole-buffer store; the payload takes the rows block, then the rows of windows 3, 1, 2, 4, in the order the body loads them. -/
def out12_5 (xa : Vec F S10000x64 .f32) (xb xc xd xe : Vec F S1x64 .f32) : Vec F S10000x64 .f32 :=
  View.canon [⟨r12_0, k12_pay1 (View.ld xa r12_0) (View.ld xd r12_1) (View.ld xb r12_1) (View.ld xc r12_1) (View.ld xe r12_1)⟩]

/-- The store's rectangle is the whole buffer, so it covers it. -/
theorem cover12_5 (pa : Vec F S10000x64 .f32) (y : S10000x64.Idx) :
    ∃ pc ∈ ([⟨r12_0, pa⟩] : List (View.Piece (Elt F) S10000x64 .f32)), y ∈ pc.1.set :=
  View.cover_of_tiled [⟨r12_0, pa⟩] S10000x64.size (by rfl) y

/-! ## The body's triple -/

set_option maxHeartbeats 1000000 in
/-- The body on whole staging memrefs, the inputs' at read contents `xa … xe` and the output's at anything, runs to the
    continuation holding the inputs' as they were and the output's at `out12_5` of the inputs'. -/
theorem sound_kernel12 (c : Dev nD) (E : Set ℕ) (i : grid12.Coords)
    (arga : Memref sig .tc .vmem S10000x64 .f32) (harga : arga.IsWhole) (argb : Memref sig .tc .vmem S1x64 .f32) (hargb : argb.IsWhole)
    (argc : Memref sig .tc .vmem S1x64 .f32) (hargc : argc.IsWhole) (argd : Memref sig .tc .vmem S1x64 .f32) (hargd : argd.IsWhole)
    (arge : Memref sig .tc .vmem S1x64 .f32) (harge : arge.IsWhole) (argf : Memref sig .tc .vmem S10000x64 .f32) (hargf : argf.IsWhole)
    (xa : Vec F S10000x64 .f32) (xb xc xd xe : Vec F S1x64 .f32) (K : PUnit → sProp 𝕄) :
    iprop(owns (c : Thread nD τ) arga fullShare xa ∗ owns (c : Thread nD τ) argb fullShare xb ∗ owns (c : Thread nD τ) argc fullShare xc
        ∗ owns (c : Thread nD τ) argd fullShare xd ∗ owns (c : Thread nD τ) arge fullShare xe ∗ (∃ d, owns (c : Thread nD τ) argf fullShare d)
        ∗ (iprop(owns (c : Thread nD τ) arga fullShare xa ∗ owns (c : Thread nD τ) argb fullShare xb ∗ owns (c : Thread nD τ) argc fullShare xc
            ∗ owns (c : Thread nD τ) argd fullShare xd ∗ owns (c : Thread nD τ) arge fullShare xe
            ∗ owns (c : Thread nD τ) argf fullShare (out12_5 xa xb xc xd xe)) -∗ K ⟨⟩))
      ⊢ wp frame (wpE (defs₀ (F := F)) Variants.none c none) E (cc12__bn_relu_kernel i arga harga argb hargb argc hargc argd hargd arge harge argf hargf) K := by
  simp only [cc12__bn_relu_kernel_eq_skeleton]; unfold cc12__bn_relu_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hf⟩, Hk⟩
  subst hfa; subst hfb; subst hfc; subst hfd; subst hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover12_5 _)

/-! ## The pipeline's proof data -/

/-- The proof data of the region's pipeline on core `c`: the arrays as the region finds them (`V`); after the body at
    point `t` each input's buffer at its block and the output's at `out12_5` of the input blocks; the invariant the
    untouched rest; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks, so the body's triple applies; the invariant and
    the core's debts pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%da, Ha⟩, ⟨%db, Hb⟩, ⟨%dc, Hc⟩, ⟨%dd, Hd⟩, ⟨%de, He⟩, ⟨%df, Hf⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## The invariant at the region's ends: the untouched rest, as it is outside the region -/

theorem hin12 (c : Dev nD) : Pipeline.ΦA spec12 c ⊢ (dat12 V c).Φ 0 := .rfl

theorem hout12 (c : Dev nD) : (dat12 V c).Φ (Fin.last cfg12.N) ⊢ Pipeline.ΦA spec12 c := .rfl

end Cert.Kernel.Reg

end
-- ==== Proof.K.Fr13.lean ====
import proofs.«147038_j12317966205319_1_alg».proof.Proof.Gen.Kernel.Launch
import proofs.«147038_j12317966205319_1_alg».proof.Proof.Gen.Kernel.Skeleton
import proofs.«147038_j12317966205319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block of the entry array at every point, fetched there or
    not, for any proof data whose array is the entry contents and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block of the entry array at every point, fetched there or
    not, for any proof data whose array is the entry contents and whose body leaves the block in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block of the entry array at every point, fetched there or
    not, for any proof data whose array is the entry contents and whose body leaves the block in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's two conditions, in closed form over the grid -/

/-- The first condition: the grid coordinate is 0 (the accumulator is zeroed). -/
abbrev cond13_0 (i : grid13.Coords) : Prop := (Scalar.cmpi .ne (Scalar.extui (Scalar.cmpi .eq (BitVec.ofNat 32 (i 0).val) 0#32)) 0#32) = 1#1
/-- It holds at the first point only. -/
theorem hcond13_0 : ∀ t : Fin cfg13.N, cond13_0 (grid13.coords t) ↔ t.val = 0 :=
  (by decide +kernel : ∀ t : Fin grid13.N, cond13_0 (grid13.coords t) ↔ t.val = 0)

/-- The second condition: the grid coordinate is 9 (the projection is stored). -/
abbrev cond13_1 (i : grid13.Coords) : Prop := k13_cond2 i = 1#1
/-- It holds at the last point only. -/
theorem hcond13_1 : ∀ t : Fin cfg13.N, cond13_1 (grid13.coords t) ↔ t.val = 9 :=
  (by decide +kernel : ∀ t : Fin grid13.N, cond13_1 (grid13.coords t) ↔ t.val = 9)

/-! ## Where the windows are idle -/

/-- The three inputs are never idle. -/
theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
/-- Where the second condition fails the output window is idle, and its block is not written back. -/
theorem idleAt13_3 : ∀ t : Fin cfg13.N, ¬cond13_1 (grid13.coords t) → cfg13.idle 3 (grid13.coords t) = true := by decide +kernel
theorem noFlush13_3 : ∀ t : Fin cfg13.N, ¬cond13_1 (grid13.coords t) → (cfg13.win 3).flush t = false := by decide +kernel
/-- Where it holds the output window is live. -/
theorem liveAt13_3 : ∀ t : Fin cfg13.N, cond13_1 (grid13.coords t) → cfg13.idle 3 (grid13.coords t) = false := by decide +kernel

/-! ## The memrefs the body is called with -/

/-- One staging buffer of the output window, through which its contents are stated. -/
abbrev VO13_3 : View sig .tc .vmem S1x64 .f32 := (Memref.whole cc13_stg3_0 : Memref sig .tc .vmem S1x64 .f32).view
/-- Each window's current staging memref at point `t`, and its wholeness. -/
abbrev ms13_0 (t : Fin cfg13.N) : Memref sig .tc .vmem S10000x64 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S64x64 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x64 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S1x64 .f32 := win13_3.stage (cfg13.slots t 3)
abbrev hs13_3 (t : Fin cfg13.N) : (ms13_3 t).IsWhole := hstage13_3 ((cfg13.slots t 3).cast nbuf13_3)
/-- The accumulator: a whole scoped buffer of the kernel's own, passed beside the windows. -/
abbrev scM13_0 : Memref sig .tc .vmem S1x64 .f32 := Memref.whole cc13_scratch0
/-- The accumulator as a view: what it holds is stated through it. -/
abbrev VS13_0 : View sig .tc .vmem S1x64 .f32 := scM13_0.view

/-- Every other scoped buffer of the core that is no staging buffer of this region, at some contents each. -/
abbrev rest13 (c : Dev nD) : sProp 𝕄 :=
  Pipeline.scopedRestBut (Ix := Unit) (Name := ℕ) (U := UR sig nD τ) (Lvl := ℕ) (Val := Elt F) spec13 c [cc13_scratch0]

/-- The class invariant with the accumulator's ownership split off the scoped rest: the accumulator as a memref owned
    at some contents, the other scoped buffers unopened, the generator register at some state. -/
theorem PhiA13_eq (c : Dev nD) :
    (Pipeline.ΦA spec13 c : sProp 𝕄)
      = iprop(iprop((∃ d, owns (c : Thread nD τ) scM13_0 fullShare d) ∗ rest13 (F := F) c) ∗ (∃ r, prngReg c r)) := by
  unfold Pipeline.ΦA; rw [scopedRest13_split]; simp only [scM13_0, owns_whole]; try rfl

/-! ## The kernel body on any whole memrefs, case by case -/

set_option maxHeartbeats 1000000 in
/-- At the first point (the first condition holds, the second does not): on whole memrefs — the inputs' at their
    contents, the output's at contents handed back untouched, the accumulator at anything — the body runs to the
    continuation holding the inputs' as they were, the output's as it was, and the accumulator with its pieces written
    (the zero fill, then the fill's reading plus the tile's column sums). -/
noncomputable def kernelRun13_A (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (x1 : Vec F S64x64 .f32) (x2 : Vec F S1x64 .f32) :
    Σ' (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc13__pool_kernel i arg1 harg1 arg2 harg2 arg3 harg3 arg4 harg4 arg5 harg5) K } := by
  refine ⟨[], ?_, fun xi3 E K => ?run⟩
  case run =>
    simp only [cc13__pool_kernel_eq_skeleton]; unfold cc13__pool_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- At a middle point (neither condition holds): the same with the accumulator at the contents the point before left;
    its one piece is those contents plus the tile's column sums. -/
noncomputable def kernelRun13_B (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (x1 : Vec F S64x64 .f32) (x2 : Vec F S1x64 .f32) (xs0 : Vec F S1x64 .f32) :
    Σ' (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc13__pool_kernel i arg1 harg1 arg2 harg2 arg3 harg3 arg4 harg4 arg5 harg5) K } := by
  refine ⟨[], ?_, fun xi3 E K => ?run⟩
  case run =>
    simp only [cc13__pool_kernel_eq_skeleton]; unfold cc13__pool_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- At the last point (the second condition holds): the output's memref at anything ends with its piece written — the
    accumulator's final contents scaled, rounded, multiplied into the rounded weights from a zero start, plus the
    bias —, the accumulator with its piece. -/
noncomputable def kernelRun13_C (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) :
    Σ' (L3 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc13__pool_kernel i arg1 harg1 arg2 harg2 arg3 harg3 arg4 harg4 arg5 harg5) K } := by
  refine ⟨?_, ?_, fun E K => ?run⟩
  case run =>
    simp only [cc13__pool_kernel_eq_skeleton]; unfold cc13__pool_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

/-! ## What each case leaves -/

/-- No store reaches the output's buffer here: a placeholder nothing consults (the window is idle at these points,
    neither written back nor read at the next). -/
def out13_A_3 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (x1 : Vec F S64x64 .f32) (x2 : Vec F S1x64 .f32) : Vec F S1x64 .f32 :=
  VO13_3.read (Elt F) (VO13_3.writes (Elt F) VO13_3.junk (kernelRun13_A c i arg1 harg1 arg2 harg2 arg3 harg3 arg4 harg4 arg5 harg5 hc0 hc1 x0 x1 x2).1)

/-- The pieces stored into the accumulator cover it (each is the whole [1,64] block). -/
theorem scover13_A_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (x1 : Vec F S64x64 .f32) (x2 : Vec F S1x64 .f32) (y : S1x64.Idx) :
    ∃ pc ∈ (kernelRun13_A c i arg1 harg1 arg2 harg2 arg3 harg3 arg4 harg4 arg5 harg5 hc0 hc1 x0 x1 x2).2.1, y ∈ pc.1.set :=
  View.cover_of_tiledL (kernelRun13_A c i arg1 harg1 arg2 harg2 arg3 harg3 arg4 harg4 arg5 harg5 hc0 hc1 x0 x1 x2).2.1 S1x64.size (by sl_kernel_rfl) y

/-- What the accumulator holds afterwards: its pieces read back. -/
def sout13_A_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (x1 : Vec F S64x64 .f32) (x2 : Vec F S1x64 .f32) : Vec F S1x64 .f32 :=
  VS13_0.read (Elt F) (VS13_0.writes (Elt F) VS13_0.junk (kernelRun13_A c i arg1 harg1 arg2 harg2 arg3 harg3 arg4 harg4 arg5 harg5 hc0 hc1 x0 x1 x2).2.1)

/-- No store reaches the output's buffer here: a placeholder nothing consults (the window is idle at these points,
    neither written back nor read at the next). -/
def out13_B_3 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (x1 : Vec F S64x64 .f32) (x2 : Vec F S1x64 .f32) (xs0 : Vec F S1x64 .f32) : Vec F S1x64 .f32 :=
  VO13_3.read (Elt F) (VO13_3.writes (Elt F) VO13_3.junk (kernelRun13_B c i arg1 harg1 arg2 harg2 arg3 harg3 arg4 harg4 arg5 harg5 hc0 hc1 x0 x1 x2 xs0).1)

/-- The pieces stored into the accumulator cover it (each is the whole [1,64] block). -/
theorem scover13_B_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (x1 : Vec F S64x64 .f32) (x2 : Vec F S1x64 .f32) (xs0 : Vec F S1x64 .f32) (y : S1x64.Idx) :
    ∃ pc ∈ (kernelRun13_B c i arg1 harg1 arg2 harg2 arg3 harg3 arg4 harg4 arg5 harg5 hc0 hc1 x0 x1 x2 xs0).2.1, y ∈ pc.1.set :=
  View.cover_of_tiledL (kernelRun13_B c i arg1 harg1 arg2 harg2 arg3 harg3 arg4 harg4 arg5 harg5 hc0 hc1 x0 x1 x2 xs0).2.1 S1x64.size (by sl_kernel_rfl) y

/-- What the accumulator holds afterwards: its pieces read back. -/
def sout13_B_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (x1 : Vec F S64x64 .f32) (x2 : Vec F S1x64 .f32) (xs0 : Vec F S1x64 .f32) : Vec F S1x64 .f32 :=
  VS13_0.read (Elt F) (VS13_0.writes (Elt F) VS13_0.junk (kernelRun13_B c i arg1 harg1 arg2 harg2 arg3 harg3 arg4 harg4 arg5 harg5 hc0 hc1 x0 x1 x2 xs0).2.1)

/-- The last point's one store into the output's buffer tiles it, so it covers it. -/
theorem cover13_C_3 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) (y : S1x64.Idx) :
    ∃ pc ∈ (kernelRun13_C c i arg1 harg1 arg2 harg2 arg3 harg3 arg4 harg4 arg5 harg5 hc0 hc1 x0 x1 x2 xs0).1, y ∈ pc.1.set :=
  View.cover_of_tiledL (kernelRun13_C c i arg1 harg1 arg2 harg2 arg3 harg3 arg4 harg4 arg5 harg5 hc0 hc1 x0 x1 x2 xs0).1 S1x64.size (by sl_kernel_rfl) y

/-- What the last point leaves in the output's staging buffer: its piece read back. -/
def out13_C_3 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) : Vec F S1x64 .f32 :=
  VO13_3.read (Elt F) (VO13_3.writes (Elt F) VO13_3.junk (kernelRun13_C c i arg1 harg1 arg2 harg2 arg3 harg3 arg4 harg4 arg5 harg5 hc0 hc1 x0 x1 x2 xs0).1)

/-- The pieces stored into the accumulator cover it (each is the whole [1,64] block). -/
theorem scover13_C_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) (y : S1x64.Idx) :
    ∃ pc ∈ (kernelRun13_C c i arg1 harg1 arg2 harg2 arg3 harg3 arg4 harg4 arg5 harg5 hc0 hc1 x0 x1 x2 xs0).2.1, y ∈ pc.1.set :=
  View.cover_of_tiledL (kernelRun13_C c i arg1 harg1 arg2 harg2 arg3 harg3 arg4 harg4 arg5 harg5 hc0 hc1 x0 x1 x2 xs0).2.1 S1x64.size (by sl_kernel_rfl) y

/-- What the accumulator holds afterwards: its pieces read back. -/
def sout13_C_0 (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) : Vec F S1x64 .f32 :=
  VS13_0.read (Elt F) (VS13_0.writes (Elt F) VS13_0.junk (kernelRun13_C c i arg1 harg1 arg2 harg2 arg3 harg3 arg4 harg4 arg5 harg5 hc0 hc1 x0 x1 x2 xs0).2.1)

/-! ## What the output's buffer and the accumulator hold after each point -/

/-- The accumulation, by recursion on the point: (the output's staging buffer, the accumulator) after the body at
    position `n` — the case the closed forms select there, run at the point's memrefs and input blocks, the accumulator
    read at what position `n - 1` left. -/
def outsAt13 (c : Dev nD) : (n : ℕ) → n < cfg13.N → Vec F S1x64 .f32 × Vec F S1x64 .f32
  | 0, hn => (out13_A_3 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) scM13_0 (Memref.isWhole_whole _) ((hcond13_0 ⟨0, hn⟩).mpr rfl) (fun h => (fun h => by (try dsimp only at h); omega) ((hcond13_1 ⟨0, hn⟩).mp h)) (iblk13 V c 0 ⟨0, hn⟩) (iblk13 V c 1 ⟨0, hn⟩) (iblk13 V c 2 ⟨0, hn⟩), sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) scM13_0 (Memref.isWhole_whole _) ((hcond13_0 ⟨0, hn⟩).mpr rfl) (fun h => (fun h => by (try dsimp only at h); omega) ((hcond13_1 ⟨0, hn⟩).mp h)) (iblk13 V c 0 ⟨0, hn⟩) (iblk13 V c 1 ⟨0, hn⟩) (iblk13 V c 2 ⟨0, hn⟩))
  | n + 1, hn =>
    if h1 : n + 1 = 9 then
      (out13_C_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => Nat.succ_ne_zero n ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2, sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => Nat.succ_ne_zero n ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2)
    else
      (out13_B_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => Nat.succ_ne_zero n ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2, sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => Nat.succ_ne_zero n ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2)

/-- At the first point: the zeroing case's contents. -/
theorem outsAt13_A (c : Dev nD) (t : Fin cfg13.N) (h0 : t.val = 0) (h1 : t.val ≠ 9) :
    outsAt13 V c t.val t.isLt = (out13_A_3 c (grid13.coords t) (ms13_0 t) (hs13_0 t) (ms13_1 t) (hs13_1 t) (ms13_2 t) (hs13_2 t) (ms13_3 t) (hs13_3 t) scM13_0 (Memref.isWhole_whole _) ((hcond13_0 t).mpr h0) (fun h => h1 ((hcond13_1 t).mp h)) (iblk13 V c 0 t) (iblk13 V c 1 t) (iblk13 V c 2 t), sout13_A_0 c (grid13.coords t) (ms13_0 t) (hs13_0 t) (ms13_1 t) (hs13_1 t) (ms13_2 t) (hs13_2 t) (ms13_3 t) (hs13_3 t) scM13_0 (Memref.isWhole_whole _) ((hcond13_0 t).mpr h0) (fun h => h1 ((hcond13_1 t).mp h)) (iblk13 V c 0 t) (iblk13 V c 1 t) (iblk13 V c 2 t)) := by
  obtain ⟨n, hn⟩ := t
  cases n with
  | zero => exact rfl
  | succ n => exact absurd h0 (Nat.succ_ne_zero n)

/-- At a middle point: that case's contents, over what the point before left. -/
theorem outsAt13_B (c : Dev nD) (t : Fin cfg13.N) (h0 : t.val ≠ 0) (h1 : t.val ≠ 9) :
    outsAt13 V c t.val t.isLt = (out13_B_3 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) (fun h => h1 ((hcond13_1 t).mp h)) (iblk13 V c 0 t) (iblk13 V c 1 t) (iblk13 V c 2 t) (outsAt13 V c (t.val - 1) (Nat.lt_of_le_of_lt (Nat.sub_le _ _) t.isLt)).2, sout13_B_0 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) (fun h => h1 ((hcond13_1 t).mp h)) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact absurd rfl h0
  | succ n => exact (dif_neg h1).trans rfl

/-- At the last point: that case's contents, over what the point before left. -/
theorem outsAt13_C (c : Dev nD) (t : Fin cfg13.N) (h0 : t.val ≠ 0) (h1 : t.val = 9) :
    outsAt13 V c t.val t.isLt = (out13_C_3 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2, sout13_C_0 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before position `n`: before the first point the class invariant (the accumulator at anything); afterwards the
    accumulator at what the point before left in it, the other scoped buffers unopened, the generator register at some
    state. -/
def PhiS13 (c : Dev nD) : (n : ℕ) → n ≤ cfg13.N → sProp 𝕄
  | 0, _ => Pipeline.ΦA spec13 c
  | n + 1, hn => iprop(iprop(owns (c : Thread nD τ) scM13_0 fullShare ((outsAt13 V c n hn).2) ∗ rest13 (F := F) c) ∗ (∃ r, prngReg c r))

theorem PhiS13_zero (c : Dev nD) (n : ℕ) (h : n ≤ cfg13.N) (hz : n = 0) : PhiS13 V c n h = Pipeline.ΦA spec13 c := by
  subst hz; rfl

theorem PhiS13_succ (c : Dev nD) (n : ℕ) (hn : n < cfg13.N) :
    PhiS13 V c (n + 1) hn = iprop(iprop(owns (c : Thread nD τ) scM13_0 fullShare ((outsAt13 V c n hn).2) ∗ rest13 (F := F) c) ∗ (∃ r, prngReg c r)) := rfl

theorem PhiS13_pos (c : Dev nD) (n : ℕ) (h : n ≤ cfg13.N) (hz : n ≠ 0) :
    PhiS13 V c n h = iprop(iprop(owns (c : Thread nD τ) scM13_0 fullShare ((outsAt13 V c (n - 1) (by omega)).2) ∗ rest13 (F := F) c) ∗ (∃ r, prngReg c r)) := by
  cases n with
  | zero => exact absurd rfl hz
  | succ n => rfl

/-! ## The proof data -/

/-- The arrays as the region finds them; after the body at point `t` each input's buffer at its block and the output's
    at `outsAt13`'s first component; the invariant `PhiS13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

/-- The invariant at a point's start, restated at the point's position. -/
theorem PhiS13_castSucc (c : Dev nD) (t : Fin cfg13.N) :
    (dat13 V c).Φ t.castSucc = PhiS13 V c t.val (Nat.le_of_lt t.isLt) := by
  dsimp only [dat13]; simp only [Fin.coe_castSucc]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4800000 in
/-- The body at any point: the inputs' memrefs hold their blocks; the closed forms say which case the point is in; the
    invariant hands the body the accumulator at what the point before left (at anything at the first point) and takes
    it back at this point's contents, the other scoped buffers and the generator register passing through untouched;
    the output's buffer is handed back as it was where the window is idle, and with its piece written at the last point. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  have hN : t.val < 10 := lt_of_lt_of_eq t.isLt (show cfg13.N = 10 from N_13)
  rw [show (dat13 V c).leavesExact 0 t = owns (c : Thread nD τ) (ms13_0 t) fullShare ((dat13 V c).after 0 t) from by
    unfold Dat.leavesExact; rw [liveAt13_0 t], after13_0]
  rw [show (dat13 V c).leavesExact 1 t = owns (c : Thread nD τ) (ms13_1 t) fullShare ((dat13 V c).after 1 t) from by
    unfold Dat.leavesExact; rw [liveAt13_1 t], after13_1]
  rw [show (dat13 V c).leavesExact 2 t = owns (c : Thread nD τ) (ms13_2 t) fullShare ((dat13 V c).after 2 t) from by
    unfold Dat.leavesExact; rw [liveAt13_2 t], after13_2]
  by_cases h0 : t.val = 0
  · have h1 : t.val ≠ 9 := by omega
    rw [Dat.leavesExact_idle (dat13 V c) 3 t (idleAt13_3 t (fun h => h1 ((hcond13_1 t).mp h))) (noFlush13_3 t (fun h => h1 ((hcond13_1 t).mp h)))]
    rw [outsAt13_A V c t h0 h1]
    unfold sout13_A_0; (try dsimp only)
    rw [PhiS13_castSucc V c t, PhiS13_zero V c _ _ h0, PhiA13_eq]
    iintro ⟨⟨⟨HS0, HR⟩, Hg⟩, Ho, ⟨%d0, H0⟩, ⟨%d1, H1⟩, ⟨%d2, H2⟩, ⟨%d3, H3⟩⟩
    iapply ((kernelRun13_A c (grid13.coords t) _ _ _ _ _ _ _ _ _ _ ((hcond13_0 t).mpr h0) (fun h => h1 ((hcond13_1 t).mp h)) (iblk13 V c 0 t) (iblk13 V c 1 t) (iblk13 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover13_A_0 c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h1 : t.val = 9
    · rw [show (dat13 V c).leavesExact 3 t = owns (c : Thread nD τ) (ms13_3 t) fullShare ((dat13 V c).after 3 t) from by
        unfold Dat.leavesExact; rw [liveAt13_3 t ((hcond13_1 t).mpr h1)], after13_3]
      rw [outsAt13_C V c t h0 h1]
      unfold out13_C_3 sout13_C_0; (try dsimp only)
      rw [PhiS13_castSucc V c t, PhiS13_pos V c _ _ h0]
      iintro ⟨⟨⟨HS0, HR⟩, Hg⟩, Ho, ⟨%d0, H0⟩, ⟨%d1, H1⟩, ⟨%d2, H2⟩, ⟨%d3, H3⟩⟩
      iapply ((kernelRun13_C c (grid13.coords t) _ _ _ _ _ _ _ _ _ _ (fun h => h0 ((hcond13_0 t).mp h)) ((hcond13_1 t).mpr h1) (iblk13 V c 0 t) (iblk13 V c 1 t) (iblk13 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover13_C_3 c _ _ _ _ _ _ _ _ _ _ _ _ _ _ _ _ _)
    · rw [Dat.leavesExact_idle (dat13 V c) 3 t (idleAt13_3 t (fun h => h1 ((hcond13_1 t).mp h))) (noFlush13_3 t (fun h => h1 ((hcond13_1 t).mp h)))]
      rw [outsAt13_B V c t h0 h1]
      unfold sout13_B_0; (try dsimp only)
      rw [PhiS13_castSucc V c t, PhiS13_pos V c _ _ h0]
      iintro ⟨⟨⟨HS0, HR⟩, Hg⟩, Ho, ⟨%d0, H0⟩, ⟨%d1, H1⟩, ⟨%d2, H2⟩, ⟨%d3, H3⟩⟩
      iapply ((kernelRun13_B c (grid13.coords t) _ _ _ _ _ _ _ _ _ _ (fun h => h0 ((hcond13_0 t).mp h)) (fun h => h1 ((hcond13_1 t).mp h)) (iblk13 V c 0 t) (iblk13 V c 1 t) (iblk13 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point the invariant gives the class invariant back: the accumulator's named contents are forgotten and
    its ownership joins the other scoped buffers again. -/
theorem Phi_out13 (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨HS0, HR⟩, Hg⟩
  isplitl [HS0 HR]
  · isplitl [HS0]
    · iexists _; iexact HS0
    iexact HR
  iexact Hg

/-- The same after the last point. -/
theorem hout13 (c : Dev nD) : (dat13 V c).Φ (Fin.last cfg13.N) ⊢ Pipeline.ΦA spec13 c :=
  Phi_out13 V c _ (by rw [Fin.val_last]; have : cfg13.N = 10 := N_13; omega)

end Cert.Kernel.Reg

end
-- ==== Proof.K.Conts.lean ====
import proofs.«147038_j12317966205319_1_alg».proof.Proof.Gen.Kernel.Regions
import proofs.«147038_j12317966205319_1_alg».proof.Proof.K.Fr0
import proofs.«147038_j12317966205319_1_alg».proof.Proof.K.Fr1
import proofs.«147038_j12317966205319_1_alg».proof.Proof.K.Fr2
import proofs.«147038_j12317966205319_1_alg».proof.Proof.K.Fr3
import proofs.«147038_j12317966205319_1_alg».proof.Proof.K.Fr4
import proofs.«147038_j12317966205319_1_alg».proof.Proof.K.Fr5
import proofs.«147038_j12317966205319_1_alg».proof.Proof.K.Fr6
import proofs.«147038_j12317966205319_1_alg».proof.Proof.K.Fr7
import proofs.«147038_j12317966205319_1_alg».proof.Proof.K.Fr8
import proofs.«147038_j12317966205319_1_alg».proof.Proof.K.Fr9
import proofs.«147038_j12317966205319_1_alg».proof.Proof.K.Fr10
import proofs.«147038_j12317966205319_1_alg».proof.Proof.K.Fr11
import proofs.«147038_j12317966205319_1_alg».proof.Proof.K.Fr12
import proofs.«147038_j12317966205319_1_alg».proof.Proof.K.Fr13
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The buffer contents between @main's items, with what each region leaves filled in

`W0` is the launch memory; an odd index is the contents after a stretch of host operations (a region's entry contents); an
even index is the contents after a region: its entry contents with each output window's array replaced by what the
pipeline's write-backs leave there (`Dat.arrAt … N`). -/

abbrev W0 (c : Dev nD) : Valuation τ sig (Elt F) := V0 m c
abbrev W1 (c : Dev nD) : Valuation τ sig (Elt F) := StableHlo.after hostOps0 (W0 m c)
/-- Region 0's entry contents read at the TensorCore's references. -/
abbrev T1 (c : Dev nD) (b : Ref sig .tc) : Buf (Elt F) ((c : Thread nD τ).loc b) := W1 m c b
def W2 (c : Dev nD) : Valuation τ sig (Elt F) :=
  Function.update (W1 m c) (Proc.devRef .tc main_v30) ((dat0 (T1 m) c).arrAt 3 cfg0.N)
abbrev T2 (c : Dev nD) (b : Ref sig .tc) : Buf (Elt F) ((c : Thread nD τ).loc b) := W2 m c b
abbrev W3 (c : Dev nD) : Valuation τ sig (Elt F) := StableHlo.after hostOps1 (W2 m c)
/-- Region 1's entry contents read at the TensorCore's references. -/
abbrev T3 (c : Dev nD) (b : Ref sig .tc) : Buf (Elt F) ((c : Thread nD τ).loc b) := W3 m c b
def W4 (c : Dev nD) : Valuation τ sig (Elt F) :=
  Function.update (W3 m c) (Proc.devRef .tc main_v34) ((dat1 (T3 m) c).arrAt 3 cfg1.N)
abbrev T4 (c : Dev nD) (b : Ref sig .tc) : Buf (Elt F) ((c : Thread nD τ).loc b) := W4 m c b
abbrev W5 (c : Dev nD) : Valuation τ sig (Elt F) := StableHlo.after hostOps2 (W4 m c)
/-- Region 2's entry contents read at the TensorCore's references. -/
abbrev T5 (c : Dev nD) (b : Ref sig .tc) : Buf (Elt F) ((c : Thread nD τ).loc b) := W5 m c b
def W6 (c : Dev nD) : Valuation τ sig (Elt F) :=
  Function.update (Function.update (Function.update (W5 m c) (Proc.devRef .tc main_v51_0) ((dat2 (T5 m) c).arrAt 4 cfg2.N)) (Proc.devRef .tc main_v51_1) ((dat2 (T5 m) c).arrAt 5 cfg2.N)) (Proc.devRef .tc main_v51_2) ((dat2 (T5 m) c).arrAt 6 cfg2.N)
abbrev T6 (c : Dev nD) (b : Ref sig .tc) : Buf (Elt F) ((c : Thread nD τ).loc b) := W6 m c b
abbrev W7 (c : Dev nD) : Valuation τ sig (Elt F) := StableHlo.after hostOps3 (W6 m c)
/-- Region 3's entry contents read at the TensorCore's references. -/
abbrev T7 (c : Dev nD) (b : Ref sig .tc) : Buf (Elt F) ((c : Thread nD τ).loc b) := W7 m c b
def W8 (c : Dev nD) : Valuation τ sig (Elt F) :=
  Function.update (W7 m c) (Proc.devRef .tc main_v67) ((dat3 (T7 m) c).arrAt 5 cfg3.N)
abbrev T8 (c : Dev nD) (b : Ref sig .tc) : Buf (Elt F) ((c : Thread nD τ).loc b) := W8 m c b
abbrev W9 (c : Dev nD) : Valuation τ sig (Elt F) := StableHlo.after hostOps4 (W8 m c)
/-- Region 4's entry contents read at the TensorCore's references. -/
abbrev T9 (c : Dev nD) (b : Ref sig .tc) : Buf (Elt F) ((c : Thread nD τ).loc b) := W9 m c b
def W10 (c : Dev nD) : Valuation τ sig (Elt F) :=
  Function.update (W9 m c) (Proc.devRef .tc main_v71) ((dat4 (T9 m) c).arrAt 3 cfg4.N)
abbrev T10 (c : Dev nD) (b : Ref sig .tc) : Buf (Elt F) ((c : Thread nD τ).loc b) := W10 m c b
abbrev W11 (c : Dev nD) : Valuation τ sig (Elt F) := StableHlo.after hostOps5 (W10 m c)
/-- Region 5's entry contents read at the TensorCore's references. -/
abbrev T11 (c : Dev nD) (b : Ref sig .tc) : Buf (Elt F) ((c : Thread nD τ).loc b) := W11 m c b
def W12 (c : Dev nD) : Valuation τ sig (Elt F) :=
  Function.update (Function.update (Function.update (W11 m c) (Proc.devRef .tc main_v88_0) ((dat5 (T11 m) c).arrAt 4 cfg5.N)) (Proc.devRef .tc main_v88_1) ((dat5 (T11 m) c).arrAt 5 cfg5.N)) (Proc.devRef .tc main_v88_2) ((dat5 (T11 m) c).arrAt 6 cfg5.N)
abbrev T12 (c : Dev nD) (b : Ref sig .tc) : Buf (Elt F) ((c : Thread nD τ).loc b) := W12 m c b
abbrev W13 (c : Dev nD) : Valuation τ sig (Elt F) := StableHlo.after hostOps6 (W12 m c)
/-- Region 6's entry contents read at the TensorCore's references. -/
abbrev T13 (c : Dev nD) (b : Ref sig .tc) : Buf (Elt F) ((c : Thread nD τ).loc b) := W13 m c b
def W14 (c : Dev nD) : Valuation τ sig (Elt F) :=
  Function.update (W13 m c) (Proc.devRef .tc main_v104) ((dat6 (T13 m) c).arrAt 5 cfg6.N)
abbrev T14 (c : Dev nD) (b : Ref sig .tc) : Buf (Elt F) ((c : Thread nD τ).loc b) := W14 m c b
abbrev W15 (c : Dev nD) : Valuation τ sig (Elt F) := StableHlo.after hostOps7 (W14 m c)
/-- Region 7's entry contents read at the TensorCore's references. -/
abbrev T15 (c : Dev nD) (b : Ref sig .tc) : Buf (Elt F) ((c : Thread nD τ).loc b) := W15 m c b
def W16 (c : Dev nD) : Valuation τ sig (Elt F) :=
  Function.update (W15 m c) (Proc.devRef .tc main_v108) ((dat7 (T15 m) c).arrAt 3 cfg7.N)
abbrev T16 (c : Dev nD) (b : Ref sig .tc) : Buf (Elt F) ((c : Thread nD τ).loc b) := W16 m c b
abbrev W17 (c : Dev nD) : Valuation τ sig (Elt F) := StableHlo.after hostOps8 (W16 m c)
/-- Region 8's entry contents read at the TensorCore's references. -/
abbrev T17 (c : Dev nD) (b : Ref sig .tc) : Buf (Elt F) ((c : Thread nD τ).loc b) := W17 m c b
def W18 (c : Dev nD) : Valuation τ sig (Elt F) :=
  Function.update (Function.update (Function.update (W17 m c) (Proc.devRef .tc main_v125_0) ((dat8 (T17 m) c).arrAt 4 cfg8.N)) (Proc.devRef .tc main_v125_1) ((dat8 (T17 m) c).arrAt 5 cfg8.N)) (Proc.devRef .tc main_v125_2) ((dat8 (T17 m) c).arrAt 6 cfg8.N)
abbrev T18 (c : Dev nD) (b : Ref sig .tc) : Buf (Elt F) ((c : Thread nD τ).loc b) := W18 m c b
abbrev W19 (c : Dev nD) : Valuation τ sig (Elt F) := StableHlo.after hostOps9 (W18 m c)
/-- Region 9's entry contents read at the TensorCore's references. -/
abbrev T19 (c : Dev nD) (b : Ref sig .tc) : Buf (Elt F) ((c : Thread nD τ).loc b) := W19 m c b
def W20 (c : Dev nD) : Valuation τ sig (Elt F) :=
  Function.update (W19 m c) (Proc.devRef .tc main_v141) ((dat9 (T19 m) c).arrAt 5 cfg9.N)
abbrev T20 (c : Dev nD) (b : Ref sig .tc) : Buf (Elt F) ((c : Thread nD τ).loc b) := W20 m c b
abbrev W21 (c : Dev nD) : Valuation τ sig (Elt F) := StableHlo.after hostOps10 (W20 m c)
/-- Region 10's entry contents read at the TensorCore's references. -/
abbrev T21 (c : Dev nD) (b : Ref sig .tc) : Buf (Elt F) ((c : Thread nD τ).loc b) := W21 m c b
def W22 (c : Dev nD) : Valuation τ sig (Elt F) :=
  Function.update (W21 m c) (Proc.devRef .tc main_v145) ((dat10 (T21 m) c).arrAt 3 cfg10.N)
abbrev T22 (c : Dev nD) (b : Ref sig .tc) : Buf (Elt F) ((c : Thread nD τ).loc b) := W22 m c b
abbrev W23 (c : Dev nD) : Valuation τ sig (Elt F) := StableHlo.after hostOps11 (W22 m c)
/-- Region 11's entry contents read at the TensorCore's references. -/
abbrev T23 (c : Dev nD) (b : Ref sig .tc) : Buf (Elt F) ((c : Thread nD τ).loc b) := W23 m c b
def W24 (c : Dev nD) : Valuation τ sig (Elt F) :=
  Function.update (Function.update (Function.update (W23 m c) (Proc.devRef .tc main_v162_0) ((dat11 (T23 m) c).arrAt 4 cfg11.N)) (Proc.devRef .tc main_v162_1) ((dat11 (T23 m) c).arrAt 5 cfg11.N)) (Proc.devRef .tc main_v162_2) ((dat11 (T23 m) c).arrAt 6 cfg11.N)
abbrev T24 (c : Dev nD) (b : Ref sig .tc) : Buf (Elt F) ((c : Thread nD τ).loc b) := W24 m c b
abbrev W25 (c : Dev nD) : Valuation τ sig (Elt F) := StableHlo.after hostOps12 (W24 m c)
/-- Region 12's entry contents read at the TensorCore's references. -/
abbrev T25 (c : Dev nD) (b : Ref sig .tc) : Buf (Elt F) ((c : Thread nD τ).loc b) := W25 m c b
def W26 (c : Dev nD) : Valuation τ sig (Elt F) :=
  Function.update (W25 m c) (Proc.devRef .tc main_v178) ((dat12 (T25 m) c).arrAt 5 cfg12.N)
abbrev T26 (c : Dev nD) (b : Ref sig .tc) : Buf (Elt F) ((c : Thread nD τ).loc b) := W26 m c b
abbrev W27 (c : Dev nD) : Valuation τ sig (Elt F) := StableHlo.after hostOps13 (W26 m c)
/-- Region 13's entry contents read at the TensorCore's references. -/
abbrev T27 (c : Dev nD) (b : Ref sig .tc) : Buf (Elt F) ((c : Thread nD τ).loc b) := W27 m c b
def W28 (c : Dev nD) : Valuation τ sig (Elt F) :=
  Function.update (W27 m c) (Proc.devRef .tc main_v180) ((dat13 (T27 m) c).arrAt 3 cfg13.N)
abbrev T28 (c : Dev nD) (b : Ref sig .tc) : Buf (Elt F) ((c : Thread nD τ).loc b) := W28 m c b

/-- What the regions leave, as the generated conditional frame's unknowns: after item J−1 the reference `r` holds what the
    contents `W J` say. -/
def outsF : Outs (F := F) := fun J r c => match J with
  | 2 => W2 m c (Proc.devRef .tc r)
  | 4 => W4 m c (Proc.devRef .tc r)
  | 6 => W6 m c (Proc.devRef .tc r)
  | 8 => W8 m c (Proc.devRef .tc r)
  | 10 => W10 m c (Proc.devRef .tc r)
  | 12 => W12 m c (Proc.devRef .tc r)
  | 14 => W14 m c (Proc.devRef .tc r)
  | 16 => W16 m c (Proc.devRef .tc r)
  | 18 => W18 m c (Proc.devRef .tc r)
  | 20 => W20 m c (Proc.devRef .tc r)
  | 22 => W22 m c (Proc.devRef .tc r)
  | 24 => W24 m c (Proc.devRef .tc r)
  | 26 => W26 m c (Proc.devRef .tc r)
  | 28 => W28 m c (Proc.devRef .tc r)
  | _ => m ((c : Thread nD τ).loc r)

/-! ## The generated valuations at these unknowns are the contents above -/

theorem V0_eq (c : Dev nD) : V0 m c = W0 m c := rfl
theorem V1_eq (c : Dev nD) : V1 m c = W1 m c := by
  show StableHlo.after hostOps0 (V0 m c) = _
  rw [V0_eq]
theorem V2_eq (c : Dev nD) : V2 m (outsF m) c = W2 m c := by
  show Function.update (V1 m c) main_v30 (W2 m c (Proc.devRef .tc main_v30)) = _
  rw [V1_eq]
  rfl
theorem V3_eq (c : Dev nD) : V3 m (outsF m) c = W3 m c := by
  show StableHlo.after hostOps1 (V2 m (outsF m) c) = _
  rw [V2_eq]
theorem V4_eq (c : Dev nD) : V4 m (outsF m) c = W4 m c := by
  show Function.update (V3 m (outsF m) c) main_v34 (W4 m c (Proc.devRef .tc main_v34)) = _
  rw [V3_eq]
  rfl
theorem V5_eq (c : Dev nD) : V5 m (outsF m) c = W5 m c := by
  show StableHlo.after hostOps2 (V4 m (outsF m) c) = _
  rw [V4_eq]
theorem V6_eq (c : Dev nD) : V6 m (outsF m) c = W6 m c := by
  show Function.update (Function.update (Function.update (V5 m (outsF m) c) main_v51_0 (W6 m c (Proc.devRef .tc main_v51_0))) main_v51_1 (W6 m c (Proc.devRef .tc main_v51_1))) main_v51_2 (W6 m c (Proc.devRef .tc main_v51_2)) = _
  rw [V5_eq]
  rfl
theorem V7_eq (c : Dev nD) : V7 m (outsF m) c = W7 m c := by
  show StableHlo.after hostOps3 (V6 m (outsF m) c) = _
  rw [V6_eq]
theorem V8_eq (c : Dev nD) : V8 m (outsF m) c = W8 m c := by
  show Function.update (V7 m (outsF m) c) main_v67 (W8 m c (Proc.devRef .tc main_v67)) = _
  rw [V7_eq]
  rfl
theorem V9_eq (c : Dev nD) : V9 m (outsF m) c = W9 m c := by
  show StableHlo.after hostOps4 (V8 m (outsF m) c) = _
  rw [V8_eq]
theorem V10_eq (c : Dev nD) : V10 m (outsF m) c = W10 m c := by
  show Function.update (V9 m (outsF m) c) main_v71 (W10 m c (Proc.devRef .tc main_v71)) = _
  rw [V9_eq]
  rfl
theorem V11_eq (c : Dev nD) : V11 m (outsF m) c = W11 m c := by
  show StableHlo.after hostOps5 (V10 m (outsF m) c) = _
  rw [V10_eq]
theorem V12_eq (c : Dev nD) : V12 m (outsF m) c = W12 m c := by
  show Function.update (Function.update (Function.update (V11 m (outsF m) c) main_v88_0 (W12 m c (Proc.devRef .tc main_v88_0))) main_v88_1 (W12 m c (Proc.devRef .tc main_v88_1))) main_v88_2 (W12 m c (Proc.devRef .tc main_v88_2)) = _
  rw [V11_eq]
  rfl
theorem V13_eq (c : Dev nD) : V13 m (outsF m) c = W13 m c := by
  show StableHlo.after hostOps6 (V12 m (outsF m) c) = _
  rw [V12_eq]
theorem V14_eq (c : Dev nD) : V14 m (outsF m) c = W14 m c := by
  show Function.update (V13 m (outsF m) c) main_v104 (W14 m c (Proc.devRef .tc main_v104)) = _
  rw [V13_eq]
  rfl
theorem V15_eq (c : Dev nD) : V15 m (outsF m) c = W15 m c := by
  show StableHlo.after hostOps7 (V14 m (outsF m) c) = _
  rw [V14_eq]
theorem V16_eq (c : Dev nD) : V16 m (outsF m) c = W16 m c := by
  show Function.update (V15 m (outsF m) c) main_v108 (W16 m c (Proc.devRef .tc main_v108)) = _
  rw [V15_eq]
  rfl
theorem V17_eq (c : Dev nD) : V17 m (outsF m) c = W17 m c := by
  show StableHlo.after hostOps8 (V16 m (outsF m) c) = _
  rw [V16_eq]
theorem V18_eq (c : Dev nD) : V18 m (outsF m) c = W18 m c := by
  show Function.update (Function.update (Function.update (V17 m (outsF m) c) main_v125_0 (W18 m c (Proc.devRef .tc main_v125_0))) main_v125_1 (W18 m c (Proc.devRef .tc main_v125_1))) main_v125_2 (W18 m c (Proc.devRef .tc main_v125_2)) = _
  rw [V17_eq]
  rfl
theorem V19_eq (c : Dev nD) : V19 m (outsF m) c = W19 m c := by
  show StableHlo.after hostOps9 (V18 m (outsF m) c) = _
  rw [V18_eq]
theorem V20_eq (c : Dev nD) : V20 m (outsF m) c = W20 m c := by
  show Function.update (V19 m (outsF m) c) main_v141 (W20 m c (Proc.devRef .tc main_v141)) = _
  rw [V19_eq]
  rfl
theorem V21_eq (c : Dev nD) : V21 m (outsF m) c = W21 m c := by
  show StableHlo.after hostOps10 (V20 m (outsF m) c) = _
  rw [V20_eq]
theorem V22_eq (c : Dev nD) : V22 m (outsF m) c = W22 m c := by
  show Function.update (V21 m (outsF m) c) main_v145 (W22 m c (Proc.devRef .tc main_v145)) = _
  rw [V21_eq]
  rfl
theorem V23_eq (c : Dev nD) : V23 m (outsF m) c = W23 m c := by
  show StableHlo.after hostOps11 (V22 m (outsF m) c) = _
  rw [V22_eq]
theorem V24_eq (c : Dev nD) : V24 m (outsF m) c = W24 m c := by
  show Function.update (Function.update (Function.update (V23 m (outsF m) c) main_v162_0 (W24 m c (Proc.devRef .tc main_v162_0))) main_v162_1 (W24 m c (Proc.devRef .tc main_v162_1))) main_v162_2 (W24 m c (Proc.devRef .tc main_v162_2)) = _
  rw [V23_eq]
  rfl
theorem V25_eq (c : Dev nD) : V25 m (outsF m) c = W25 m c := by
  show StableHlo.after hostOps12 (V24 m (outsF m) c) = _
  rw [V24_eq]
theorem V26_eq (c : Dev nD) : V26 m (outsF m) c = W26 m c := by
  show Function.update (V25 m (outsF m) c) main_v178 (W26 m c (Proc.devRef .tc main_v178)) = _
  rw [V25_eq]
  rfl
theorem V27_eq (c : Dev nD) : V27 m (outsF m) c = W27 m c := by
  show StableHlo.after hostOps13 (V26 m (outsF m) c) = _
  rw [V26_eq]
theorem V28_eq (c : Dev nD) : V28 m (outsF m) c = W28 m c := by
  show Function.update (V27 m (outsF m) c) main_v180 (W28 m c (Proc.devRef .tc main_v180)) = _
  rw [V27_eq]
  rfl

/-! ## What a region leaves unchanged, and what it leaves in its outputs -/

theorem W2_of (c : Dev nD) (r : Ref sig .tc) (h : r ∉ ([main_v30] : List (Ref sig .tc))) : W2 m c r = W1 m c r := by
  simp only [W2, Function.update_of_ne (StableHlo.devRef_ne_of_ne (List.ne_of_not_mem_cons h) : (Proc.devRef .tc r : DevRef τ sig) ≠ Proc.devRef .tc main_v30)]
theorem W2_out3 (c : Dev nD) : W2 m c (Proc.devRef .tc main_v30) = (dat0 (T1 m) c).arrAt 3 cfg0.N := by
  simp only [W2, Function.update_self]
set_option maxHeartbeats 1000000 in
theorem hF0_0 (c : Dev nD) : (dat0 (T1 m) c).arrAt 0 cfg0.N = T2 m c main_arg0 :=
  ((dat0 (T1 m) c).arrAt_in 0 rfl _).trans ((A_eq0 (T1 m) c 0).trans (W2_of m c main_arg0 (by decide)).symm)
set_option maxHeartbeats 1000000 in
theorem hF0_1 (c : Dev nD) : (dat0 (T1 m) c).arrAt 1 cfg0.N = T2 m c main_arg2 :=
  ((dat0 (T1 m) c).arrAt_in 1 rfl _).trans ((A_eq0 (T1 m) c 1).trans (W2_of m c main_arg2 (by decide)).symm)
set_option maxHeartbeats 1000000 in
theorem hF0_2 (c : Dev nD) : (dat0 (T1 m) c).arrAt 2 cfg0.N = T2 m c main_v29 :=
  ((dat0 (T1 m) c).arrAt_in 2 rfl _).trans ((A_eq0 (T1 m) c 2).trans (W2_of m c main_v29 (by decide)).symm)
set_option maxHeartbeats 1000000 in
theorem hF0 (c : Dev nD) (w : Fin cfg0.W) : (dat0 (T1 m) c).arrAt w cfg0.N = T2 m c (Pipeline.arrRef spec0 w) := by
  match w with
  | ⟨0, _⟩ => exact hF0_0 m c
  | ⟨1, _⟩ => exact hF0_1 m c
  | ⟨2, _⟩ => exact hF0_2 m c
  | ⟨3, _⟩ => exact (W2_out3 m c).symm
theorem hrest0 (c : Dev nD) : ∀ b, b ∉ Finset.univ.image (Pipeline.arrRef spec0) → T2 m c b = T1 m c b :=
  fun b hb => W2_of m c b (fun hmem => hb (by
    simp only [List.mem_cons, List.mem_singleton, List.not_mem_nil, or_false] at hmem
    rcases hmem with rfl
    · exact Finset.mem_image.mpr ⟨3, Finset.mem_univ _, rfl⟩
    ))
theorem W4_of (c : Dev nD) (r : Ref sig .tc) (h : r ∉ ([main_v34] : List (Ref sig .tc))) : W4 m c r = W3 m c r := by
  simp only [W4, Function.update_of_ne (StableHlo.devRef_ne_of_ne (List.ne_of_not_mem_cons h) : (Proc.devRef .tc r : DevRef τ sig) ≠ Proc.devRef .tc main_v34)]
theorem W4_out3 (c : Dev nD) : W4 m c (Proc.devRef .tc main_v34) = (dat1 (T3 m) c).arrAt 3 cfg1.N := by
  simp only [W4, Function.update_self]
set_option maxHeartbeats 1000000 in
theorem hF1_0 (c : Dev nD) : (dat1 (T3 m) c).arrAt 0 cfg1.N = T4 m c main_v30 :=
  ((dat1 (T3 m) c).arrAt_in 0 rfl _).trans ((A_eq1 (T3 m) c 0).trans (W4_of m c main_v30 (by decide)).symm)
set_option maxHeartbeats 1000000 in
theorem hF1_1 (c : Dev nD) : (dat1 (T3 m) c).arrAt 1 cfg1.N = T4 m c main_v32 :=
  ((dat1 (T3 m) c).arrAt_in 1 rfl _).trans ((A_eq1 (T3 m) c 1).trans (W4_of m c main_v32 (by decide)).symm)
set_option maxHeartbeats 1000000 in
theorem hF1_2 (c : Dev nD) : (dat1 (T3 m) c).arrAt 2 cfg1.N = T4 m c main_v33 :=
  ((dat1 (T3 m) c).arrAt_in 2 rfl _).trans ((A_eq1 (T3 m) c 2).trans (W4_of m c main_v33 (by decide)).symm)
set_option maxHeartbeats 1000000 in
theorem hF1 (c : Dev nD) (w : Fin cfg1.W) : (dat1 (T3 m) c).arrAt w cfg1.N = T4 m c (Pipeline.arrRef spec1 w) := by
  match w with
  | ⟨0, _⟩ => exact hF1_0 m c
  | ⟨1, _⟩ => exact hF1_1 m c
  | ⟨2, _⟩ => exact hF1_2 m c
  | ⟨3, _⟩ => exact (W4_out3 m c).symm
theorem hrest1 (c : Dev nD) : ∀ b, b ∉ Finset.univ.image (Pipeline.arrRef spec1) → T4 m c b = T3 m c b :=
  fun b hb => W4_of m c b (fun hmem => hb (by
    simp only [List.mem_cons, List.mem_singleton, List.not_mem_nil, or_false] at hmem
    rcases hmem with rfl
    · exact Finset.mem_image.mpr ⟨3, Finset.mem_univ _, rfl⟩
    ))
theorem W6_of (c : Dev nD) (r : Ref sig .tc) (h : r ∉ ([main_v51_0, main_v51_1, main_v51_2] : List (Ref sig .tc))) : W6 m c r = W5 m c r := by
  simp only [W6, Function.update_of_ne (StableHlo.devRef_ne_of_ne (List.ne_of_not_mem_cons h) : (Proc.devRef .tc r : DevRef τ sig) ≠ Proc.devRef .tc main_v51_0), Function.update_of_ne (StableHlo.devRef_ne_of_ne (List.ne_of_not_mem_cons (List.not_mem_of_not_mem_cons h)) : (Proc.devRef .tc r : DevRef τ sig) ≠ Proc.devRef .tc main_v51_1), Function.update_of_ne (StableHlo.devRef_ne_of_ne (List.ne_of_not_mem_cons (List.not_mem_of_not_mem_cons (List.not_mem_of_not_mem_cons h))) : (Proc.devRef .tc r : DevRef τ sig) ≠ Proc.devRef .tc main_v51_2)]
theorem W6_out4 (c : Dev nD) : W6 m c (Proc.devRef .tc main_v51_0) = (dat2 (T5 m) c).arrAt 4 cfg2.N := by
  simp only [W6, Function.update_self, Function.update_of_ne (StableHlo.devRef_ne_of_ne (by decide : main_v51_0 ≠ main_v51_1) : (Proc.devRef .tc main_v51_0 : DevRef τ sig) ≠ Proc.devRef .tc main_v51_1), Function.update_of_ne (StableHlo.devRef_ne_of_ne (by decide : main_v51_0 ≠ main_v51_2) : (Proc.devRef .tc main_v51_0 : DevRef τ sig) ≠ Proc.devRef .tc main_v51_2)]
theorem W6_out5 (c : Dev nD) : W6 m c (Proc.devRef .tc main_v51_1) = (dat2 (T5 m) c).arrAt 5 cfg2.N := by
  simp only [W6, Function.update_self, Function.update_of_ne (StableHlo.devRef_ne_of_ne (by decide : main_v51_1 ≠ main_v51_2) : (Proc.devRef .tc main_v51_1 : DevRef τ sig) ≠ Proc.devRef .tc main_v51_2)]
theorem W6_out6 (c : Dev nD) : W6 m c (Proc.devRef .tc main_v51_2) = (dat2 (T5 m) c).arrAt 6 cfg2.N := by
  simp only [W6, Function.update_self]
set_option maxHeartbeats 1000000 in
theorem hF2_0 (c : Dev nD) : (dat2 (T5 m) c).arrAt 0 cfg2.N = T6 m c main_v47 :=
  ((dat2 (T5 m) c).arrAt_in 0 rfl _).trans ((A_eq2 (T5 m) c 0).trans (W6_of m c main_v47 (by decide)).symm)
set_option maxHeartbeats 1000000 in
theorem hF2_1 (c : Dev nD) : (dat2 (T5 m) c).arrAt 1 cfg2.N = T6 m c main_v34 :=
  ((dat2 (T5 m) c).arrAt_in 1 rfl _).trans ((A_eq2 (T5 m) c 1).trans (W6_of m c main_v34 (by decide)).symm)
set_option maxHeartbeats 1000000 in
theorem hF2_2 (c : Dev nD) : (dat2 (T5 m) c).arrAt 2 cfg2.N = T6 m c main_v28 :=
  ((dat2 (T5 m) c).arrAt_in 2 rfl _).trans ((A_eq2 (T5 m) c 2).trans (W6_of m c main_v28 (by decide)).symm)
set_option maxHeartbeats 1000000 in
theorem hF2_3 (c : Dev nD) : (dat2 (T5 m) c).arrAt 3 cfg2.N = T6 m c main_v50 :=
  ((dat2 (T5 m) c).arrAt_in 3 rfl _).trans ((A_eq2 (T5 m) c 3).trans (W6_of m c main_v50 (by decide)).symm)
set_option maxHeartbeats 1000000 in
theorem hF2 (c : Dev nD) (w : Fin cfg2.W) : (dat2 (T5 m) c).arrAt w cfg2.N = T6 m c (Pipeline.arrRef spec2 w) := by
  match w with
  | ⟨0, _⟩ => exact hF2_0 m c
  | ⟨1, _⟩ => exact hF2_1 m c
  | ⟨2, _⟩ => exact hF2_2 m c
  | ⟨3, _⟩ => exact hF2_3 m c
  | ⟨4, _⟩ => exact (W6_out4 m c).symm
  | ⟨5, _⟩ => exact (W6_out5 m c).symm
  | ⟨6, _⟩ => exact (W6_out6 m c).symm
theorem hrest2 (c : Dev nD) : ∀ b, b ∉ Finset.univ.image (Pipeline.arrRef spec2) → T6 m c b = T5 m c b :=
  fun b hb => W6_of m c b (fun hmem => hb (by
    simp only [List.mem_cons, List.mem_singleton, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩
    ))
theorem W8_of (c : Dev nD) (r : Ref sig .tc) (h : r ∉ ([main_v67] : List (Ref sig .tc))) : W8 m c r = W7 m c r := by
  simp only [W8, Function.update_of_ne (StableHlo.devRef_ne_of_ne (List.ne_of_not_mem_cons h) : (Proc.devRef .tc r : DevRef τ sig) ≠ Proc.devRef .tc main_v67)]
theorem W8_out5 (c : Dev nD) : W8 m c (Proc.devRef .tc main_v67) = (dat3 (T7 m) c).arrAt 5 cfg3.N := by
  simp only [W8, Function.update_self]
set_option maxHeartbeats 1000000 in
theorem hF3_0 (c : Dev nD) : (dat3 (T7 m) c).arrAt 0 cfg3.N = T8 m c main_v51_0 :=
  ((dat3 (T7 m) c).arrAt_in 0 rfl _).trans ((A_eq3 (T7 m) c 0).trans (W8_of m c main_v51_0 (by decide)).symm)
set_option maxHeartbeats 1000000 in
theorem hF3_1 (c : Dev nD) : (dat3 (T7 m) c).arrAt 1 cfg3.N = T8 m c main_v53 :=
  ((dat3 (T7 m) c).arrAt_in 1 rfl _).trans ((A_eq3 (T7 m) c 1).trans (W8_of m c main_v53 (by decide)).symm)
set_option maxHeartbeats 1000000 in
theorem hF3_2 (c : Dev nD) : (dat3 (T7 m) c).arrAt 2 cfg3.N = T8 m c main_v60 :=
  ((dat3 (T7 m) c).arrAt_in 2 rfl _).trans ((A_eq3 (T7 m) c 2).trans (W8_of m c main_v60 (by decide)).symm)
set_option maxHeartbeats 1000000 in
theorem hF3_3 (c : Dev nD) : (dat3 (T7 m) c).arrAt 3 cfg3.N = T8 m c main_v63 :=
  ((dat3 (T7 m) c).arrAt_in 3 rfl _).trans ((A_eq3 (T7 m) c 3).trans (W8_of m c main_v63 (by decide)).symm)
set_option maxHeartbeats 1000000 in
theorem hF3_4 (c : Dev nD) : (dat3 (T7 m) c).arrAt 4 cfg3.N = T8 m c main_v66 :=
  ((dat3 (T7 m) c).arrAt_in 4 rfl _).trans ((A_eq3 (T7 m) c 4).trans (W8_of m c main_v66 (by decide)).symm)
set_option maxHeartbeats 1000000 in
theorem hF3 (c : Dev nD) (w : Fin cfg3.W) : (dat3 (T7 m) c).arrAt w cfg3.N = T8 m c (Pipeline.arrRef spec3 w) := by
  match w with
  | ⟨0, _⟩ => exact hF3_0 m c
  | ⟨1, _⟩ => exact hF3_1 m c
  | ⟨2, _⟩ => exact hF3_2 m c
  | ⟨3, _⟩ => exact hF3_3 m c
  | ⟨4, _⟩ => exact hF3_4 m c
  | ⟨5, _⟩ => exact (W8_out5 m c).symm
theorem hrest3 (c : Dev nD) : ∀ b, b ∉ Finset.univ.image (Pipeline.arrRef spec3) → T8 m c b = T7 m c b :=
  fun b hb => W8_of m c b (fun hmem => hb (by
    simp only [List.mem_cons, List.mem_singleton, List.not_mem_nil, or_false] at hmem
    rcases hmem with rfl
    · exact Finset.mem_image.mpr ⟨5, Finset.mem_univ _, rfl⟩
    ))
theorem W10_of (c : Dev nD) (r : Ref sig .tc) (h : r ∉ ([main_v71] : List (Ref sig .tc))) : W10 m c r = W9 m c r := by
  simp only [W10, Function.update_of_ne (StableHlo.devRef_ne_of_ne (List.ne_of_not_mem_cons h) : (Proc.devRef .tc r : DevRef τ sig) ≠ Proc.devRef .tc main_v71)]
theorem W10_out3 (c : Dev nD) : W10 m c (Proc.devRef .tc main_v71) = (dat4 (T9 m) c).arrAt 3 cfg4.N := by
  simp only [W10, Function.update_self]
set_option maxHeartbeats 1000000 in
theorem hF4_0 (c : Dev nD) : (dat4 (T9 m) c).arrAt 0 cfg4.N = T10 m c main_v67 :=
  ((dat4 (T9 m) c).arrAt_in 0 rfl _).trans ((A_eq4 (T9 m) c 0).trans (W10_of m c main_v67 (by decide)).symm)
set_option maxHeartbeats 1000000 in
theorem hF4_1 (c : Dev nD) : (dat4 (T9 m) c).arrAt 1 cfg4.N = T10 m c main_v69 :=
  ((dat4 (T9 m) c).arrAt_in 1 rfl _).trans ((A_eq4 (T9 m) c 1).trans (W10_of m c main_v69 (by decide)).symm)
set_option maxHeartbeats 1000000 in
theorem hF4_2 (c : Dev nD) : (dat4 (T9 m) c).arrAt 2 cfg4.N = T10 m c main_v70 :=
  ((dat4 (T9 m) c).arrAt_in 2 rfl _).trans ((A_eq4 (T9 m) c 2).trans (W10_of m c main_v70 (by decide)).symm)
set_option maxHeartbeats 1000000 in
theorem hF4 (c : Dev nD) (w : Fin cfg4.W) : (dat4 (T9 m) c).arrAt w cfg4.N = T10 m c (Pipeline.arrRef spec4 w) := by
  match w with
  | ⟨0, _⟩ => exact hF4_0 m c
  | ⟨1, _⟩ => exact hF4_1 m c
  | ⟨2, _⟩ => exact hF4_2 m c
  | ⟨3, _⟩ => exact (W10_out3 m c).symm
theorem hrest4 (c : Dev nD) : ∀ b, b ∉ Finset.univ.image (Pipeline.arrRef spec4) → T10 m c b = T9 m c b :=
  fun b hb => W10_of m c b (fun hmem => hb (by
    simp only [List.mem_cons, List.mem_singleton, List.not_mem_nil, or_false] at hmem
    rcases hmem with rfl
    · exact Finset.mem_image.mpr ⟨3, Finset.mem_univ _, rfl⟩
    ))
theorem W12_of (c : Dev nD) (r : Ref sig .tc) (h : r ∉ ([main_v88_0, main_v88_1, main_v88_2] : List (Ref sig .tc))) : W12 m c r = W11 m c r := by
  simp only [W12, Function.update_of_ne (StableHlo.devRef_ne_of_ne (List.ne_of_not_mem_cons h) : (Proc.devRef .tc r : DevRef τ sig) ≠ Proc.devRef .tc main_v88_0), Function.update_of_ne (StableHlo.devRef_ne_of_ne (List.ne_of_not_mem_cons (List.not_mem_of_not_mem_cons h)) : (Proc.devRef .tc r : DevRef τ sig) ≠ Proc.devRef .tc main_v88_1), Function.update_of_ne (StableHlo.devRef_ne_of_ne (List.ne_of_not_mem_cons (List.not_mem_of_not_mem_cons (List.not_mem_of_not_mem_cons h))) : (Proc.devRef .tc r : DevRef τ sig) ≠ Proc.devRef .tc main_v88_2)]
theorem W12_out4 (c : Dev nD) : W12 m c (Proc.devRef .tc main_v88_0) = (dat5 (T11 m) c).arrAt 4 cfg5.N := by
  simp only [W12, Function.update_self, Function.update_of_ne (StableHlo.devRef_ne_of_ne (by decide : main_v88_0 ≠ main_v88_1) : (Proc.devRef .tc main_v88_0 : DevRef τ sig) ≠ Proc.devRef .tc main_v88_1), Function.update_of_ne (StableHlo.devRef_ne_of_ne (by decide : main_v88_0 ≠ main_v88_2) : (Proc.devRef .tc main_v88_0 : DevRef τ sig) ≠ Proc.devRef .tc main_v88_2)]
theorem W12_out5 (c : Dev nD) : W12 m c (Proc.devRef .tc main_v88_1) = (dat5 (T11 m) c).arrAt 5 cfg5.N := by
  simp only [W12, Function.update_self, Function.update_of_ne (StableHlo.devRef_ne_of_ne (by decide : main_v88_1 ≠ main_v88_2) : (Proc.devRef .tc main_v88_1 : DevRef τ sig) ≠ Proc.devRef .tc main_v88_2)]
theorem W12_out6 (c : Dev nD) : W12 m c (Proc.devRef .tc main_v88_2) = (dat5 (T11 m) c).arrAt 6 cfg5.N := by
  simp only [W12, Function.update_self]
set_option maxHeartbeats 1000000 in
theorem hF5_0 (c : Dev nD) : (dat5 (T11 m) c).arrAt 0 cfg5.N = T12 m c main_v84 :=
  ((dat5 (T11 m) c).arrAt_in 0 rfl _).trans ((A_eq5 (T11 m) c 0).trans (W12_of m c main_v84 (by decide)).symm)
set_option maxHeartbeats 1000000 in
theorem hF5_1 (c : Dev nD) : (dat5 (T11 m) c).arrAt 1 cfg5.N = T12 m c main_v71 :=
  ((dat5 (T11 m) c).arrAt_in 1 rfl _).trans ((A_eq5 (T11 m) c 1).trans (W12_of m c main_v71 (by decide)).symm)
set_option maxHeartbeats 1000000 in
theorem hF5_2 (c : Dev nD) : (dat5 (T11 m) c).arrAt 2 cfg5.N = T12 m c main_v28 :=
  ((dat5 (T11 m) c).arrAt_in 2 rfl _).trans ((A_eq5 (T11 m) c 2).trans (W12_of m c main_v28 (by decide)).symm)
set_option maxHeartbeats 1000000 in
theorem hF5_3 (c : Dev nD) : (dat5 (T11 m) c).arrAt 3 cfg5.N = T12 m c main_v87 :=
  ((dat5 (T11 m) c).arrAt_in 3 rfl _).trans ((A_eq5 (T11 m) c 3).trans (W12_of m c main_v87 (by decide)).symm)
set_option maxHeartbeats 1000000 in
theorem hF5 (c : Dev nD) (w : Fin cfg5.W) : (dat5 (T11 m) c).arrAt w cfg5.N = T12 m c (Pipeline.arrRef spec5 w) := by
  match w with
  | ⟨0, _⟩ => exact hF5_0 m c
  | ⟨1, _⟩ => exact hF5_1 m c
  | ⟨2, _⟩ => exact hF5_2 m c
  | ⟨3, _⟩ => exact hF5_3 m c
  | ⟨4, _⟩ => exact (W12_out4 m c).symm
  | ⟨5, _⟩ => exact (W12_out5 m c).symm
  | ⟨6, _⟩ => exact (W12_out6 m c).symm
theorem hrest5 (c : Dev nD) : ∀ b, b ∉ Finset.univ.image (Pipeline.arrRef spec5) → T12 m c b = T11 m c b :=
  fun b hb => W12_of m c b (fun hmem => hb (by
    simp only [List.mem_cons, List.mem_singleton, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩
    ))
theorem W14_of (c : Dev nD) (r : Ref sig .tc) (h : r ∉ ([main_v104] : List (Ref sig .tc))) : W14 m c r = W13 m c r := by
  simp only [W14, Function.update_of_ne (StableHlo.devRef_ne_of_ne (List.ne_of_not_mem_cons h) : (Proc.devRef .tc r : DevRef τ sig) ≠ Proc.devRef .tc main_v104)]
theorem W14_out5 (c : Dev nD) : W14 m c (Proc.devRef .tc main_v104) = (dat6 (T13 m) c).arrAt 5 cfg6.N := by
  simp only [W14, Function.update_self]
set_option maxHeartbeats 1000000 in
theorem hF6_0 (c : Dev nD) : (dat6 (T13 m) c).arrAt 0 cfg6.N = T14 m c main_v88_0 :=
  ((dat6 (T13 m) c).arrAt_in 0 rfl _).trans ((A_eq6 (T13 m) c 0).trans (W14_of m c main_v88_0 (by decide)).symm)
set_option maxHeartbeats 1000000 in
theorem hF6_1 (c : Dev nD) : (dat6 (T13 m) c).arrAt 1 cfg6.N = T14 m c main_v90 :=
  ((dat6 (T13 m) c).arrAt_in 1 rfl _).trans ((A_eq6 (T13 m) c 1).trans (W14_of m c main_v90 (by decide)).symm)
set_option maxHeartbeats 1000000 in
theorem hF6_2 (c : Dev nD) : (dat6 (T13 m) c).arrAt 2 cfg6.N = T14 m c main_v97 :=
  ((dat6 (T13 m) c).arrAt_in 2 rfl _).trans ((A_eq6 (T13 m) c 2).trans (W14_of m c main_v97 (by decide)).symm)
set_option maxHeartbeats 1000000 in
theorem hF6_3 (c : Dev nD) : (dat6 (T13 m) c).arrAt 3 cfg6.N = T14 m c main_v100 :=
  ((dat6 (T13 m) c).arrAt_in 3 rfl _).trans ((A_eq6 (T13 m) c 3).trans (W14_of m c main_v100 (by decide)).symm)
set_option maxHeartbeats 1000000 in
theorem hF6_4 (c : Dev nD) : (dat6 (T13 m) c).arrAt 4 cfg6.N = T14 m c main_v103 :=
  ((dat6 (T13 m) c).arrAt_in 4 rfl _).trans ((A_eq6 (T13 m) c 4).trans (W14_of m c main_v103 (by decide)).symm)
set_option maxHeartbeats 1000000 in
theorem hF6 (c : Dev nD) (w : Fin cfg6.W) : (dat6 (T13 m) c).arrAt w cfg6.N = T14 m c (Pipeline.arrRef spec6 w) := by
  match w with
  | ⟨0, _⟩ => exact hF6_0 m c
  | ⟨1, _⟩ => exact hF6_1 m c
  | ⟨2, _⟩ => exact hF6_2 m c
  | ⟨3, _⟩ => exact hF6_3 m c
  | ⟨4, _⟩ => exact hF6_4 m c
  | ⟨5, _⟩ => exact (W14_out5 m c).symm
theorem hrest6 (c : Dev nD) : ∀ b, b ∉ Finset.univ.image (Pipeline.arrRef spec6) → T14 m c b = T13 m c b :=
  fun b hb => W14_of m c b (fun hmem => hb (by
    simp only [List.mem_cons, List.mem_singleton, List.not_mem_nil, or_false] at hmem
    rcases hmem with rfl
    · exact Finset.mem_image.mpr ⟨5, Finset.mem_univ _, rfl⟩
    ))
theorem W16_of (c : Dev nD) (r : Ref sig .tc) (h : r ∉ ([main_v108] : List (Ref sig .tc))) : W16 m c r = W15 m c r := by
  simp only [W16, Function.update_of_ne (StableHlo.devRef_ne_of_ne (List.ne_of_not_mem_cons h) : (Proc.devRef .tc r : DevRef τ sig) ≠ Proc.devRef .tc main_v108)]
theorem W16_out3 (c : Dev nD) : W16 m c (Proc.devRef .tc main_v108) = (dat7 (T15 m) c).arrAt 3 cfg7.N := by
  simp only [W16, Function.update_self]
set_option maxHeartbeats 1000000 in
theorem hF7_0 (c : Dev nD) : (dat7 (T15 m) c).arrAt 0 cfg7.N = T16 m c main_v104 :=
  ((dat7 (T15 m) c).arrAt_in 0 rfl _).trans ((A_eq7 (T15 m) c 0).trans (W16_of m c main_v104 (by decide)).symm)
set_option maxHeartbeats 1000000 in
theorem hF7_1 (c : Dev nD) : (dat7 (T15 m) c).arrAt 1 cfg7.N = T16 m c main_v106 :=
  ((dat7 (T15 m) c).arrAt_in 1 rfl _).trans ((A_eq7 (T15 m) c 1).trans (W16_of m c main_v106 (by decide)).symm)
set_option maxHeartbeats 1000000 in
theorem hF7_2 (c : Dev nD) : (dat7 (T15 m) c).arrAt 2 cfg7.N = T16 m c main_v107 :=
  ((dat7 (T15 m) c).arrAt_in 2 rfl _).trans ((A_eq7 (T15 m) c 2).trans (W16_of m c main_v107 (by decide)).symm)
set_option maxHeartbeats 1000000 in
theorem hF7 (c : Dev nD) (w : Fin cfg7.W) : (dat7 (T15 m) c).arrAt w cfg7.N = T16 m c (Pipeline.arrRef spec7 w) := by
  match w with
  | ⟨0, _⟩ => exact hF7_0 m c
  | ⟨1, _⟩ => exact hF7_1 m c
  | ⟨2, _⟩ => exact hF7_2 m c
  | ⟨3, _⟩ => exact (W16_out3 m c).symm
theorem hrest7 (c : Dev nD) : ∀ b, b ∉ Finset.univ.image (Pipeline.arrRef spec7) → T16 m c b = T15 m c b :=
  fun b hb => W16_of m c b (fun hmem => hb (by
    simp only [List.mem_cons, List.mem_singleton, List.not_mem_nil, or_false] at hmem
    rcases hmem with rfl
    · exact Finset.mem_image.mpr ⟨3, Finset.mem_univ _, rfl⟩
    ))
theorem W18_of (c : Dev nD) (r : Ref sig .tc) (h : r ∉ ([main_v125_0, main_v125_1, main_v125_2] : List (Ref sig .tc))) : W18 m c r = W17 m c r := by
  simp only [W18, Function.update_of_ne (StableHlo.devRef_ne_of_ne (List.ne_of_not_mem_cons h) : (Proc.devRef .tc r : DevRef τ sig) ≠ Proc.devRef .tc main_v125_0), Function.update_of_ne (StableHlo.devRef_ne_of_ne (List.ne_of_not_mem_cons (List.not_mem_of_not_mem_cons h)) : (Proc.devRef .tc r : DevRef τ sig) ≠ Proc.devRef .tc main_v125_1), Function.update_of_ne (StableHlo.devRef_ne_of_ne (List.ne_of_not_mem_cons (List.not_mem_of_not_mem_cons (List.not_mem_of_not_mem_cons h))) : (Proc.devRef .tc r : DevRef τ sig) ≠ Proc.devRef .tc main_v125_2)]
theorem W18_out4 (c : Dev nD) : W18 m c (Proc.devRef .tc main_v125_0) = (dat8 (T17 m) c).arrAt 4 cfg8.N := by
  simp only [W18, Function.update_self, Function.update_of_ne (StableHlo.devRef_ne_of_ne (by decide : main_v125_0 ≠ main_v125_1) : (Proc.devRef .tc main_v125_0 : DevRef τ sig) ≠ Proc.devRef .tc main_v125_1), Function.update_of_ne (StableHlo.devRef_ne_of_ne (by decide : main_v125_0 ≠ main_v125_2) : (Proc.devRef .tc main_v125_0 : DevRef τ sig) ≠ Proc.devRef .tc main_v125_2)]
theorem W18_out5 (c : Dev nD) : W18 m c (Proc.devRef .tc main_v125_1) = (dat8 (T17 m) c).arrAt 5 cfg8.N := by
  simp only [W18, Function.update_self, Function.update_of_ne (StableHlo.devRef_ne_of_ne (by decide : main_v125_1 ≠ main_v125_2) : (Proc.devRef .tc main_v125_1 : DevRef τ sig) ≠ Proc.devRef .tc main_v125_2)]
theorem W18_out6 (c : Dev nD) : W18 m c (Proc.devRef .tc main_v125_2) = (dat8 (T17 m) c).arrAt 6 cfg8.N := by
  simp only [W18, Function.update_self]
set_option maxHeartbeats 1000000 in
theorem hF8_0 (c : Dev nD) : (dat8 (T17 m) c).arrAt 0 cfg8.N = T18 m c main_v121 :=
  ((dat8 (T17 m) c).arrAt_in 0 rfl _).trans ((A_eq8 (T17 m) c 0).trans (W18_of m c main_v121 (by decide)).symm)
set_option maxHeartbeats 1000000 in
theorem hF8_1 (c : Dev nD) : (dat8 (T17 m) c).arrAt 1 cfg8.N = T18 m c main_v108 :=
  ((dat8 (T17 m) c).arrAt_in 1 rfl _).trans ((A_eq8 (T17 m) c 1).trans (W18_of m c main_v108 (by decide)).symm)
set_option maxHeartbeats 1000000 in
theorem hF8_2 (c : Dev nD) : (dat8 (T17 m) c).arrAt 2 cfg8.N = T18 m c main_v28 :=
  ((dat8 (T17 m) c).arrAt_in 2 rfl _).trans ((A_eq8 (T17 m) c 2).trans (W18_of m c main_v28 (by decide)).symm)
set_option maxHeartbeats 1000000 in
theorem hF8_3 (c : Dev nD) : (dat8 (T17 m) c).arrAt 3 cfg8.N = T18 m c main_v124 :=
  ((dat8 (T17 m) c).arrAt_in 3 rfl _).trans ((A_eq8 (T17 m) c 3).trans (W18_of m c main_v124 (by decide)).symm)
set_option maxHeartbeats 1000000 in
theorem hF8 (c : Dev nD) (w : Fin cfg8.W) : (dat8 (T17 m) c).arrAt w cfg8.N = T18 m c (Pipeline.arrRef spec8 w) := by
  match w with
  | ⟨0, _⟩ => exact hF8_0 m c
  | ⟨1, _⟩ => exact hF8_1 m c
  | ⟨2, _⟩ => exact hF8_2 m c
  | ⟨3, _⟩ => exact hF8_3 m c
  | ⟨4, _⟩ => exact (W18_out4 m c).symm
  | ⟨5, _⟩ => exact (W18_out5 m c).symm
  | ⟨6, _⟩ => exact (W18_out6 m c).symm
theorem hrest8 (c : Dev nD) : ∀ b, b ∉ Finset.univ.image (Pipeline.arrRef spec8) → T18 m c b = T17 m c b :=
  fun b hb => W18_of m c b (fun hmem => hb (by
    simp only [List.mem_cons, List.mem_singleton, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩
    ))
theorem W20_of (c : Dev nD) (r : Ref sig .tc) (h : r ∉ ([main_v141] : List (Ref sig .tc))) : W20 m c r = W19 m c r := by
  simp only [W20, Function.update_of_ne (StableHlo.devRef_ne_of_ne (List.ne_of_not_mem_cons h) : (Proc.devRef .tc r : DevRef τ sig) ≠ Proc.devRef .tc main_v141)]
theorem W20_out5 (c : Dev nD) : W20 m c (Proc.devRef .tc main_v141) = (dat9 (T19 m) c).arrAt 5 cfg9.N := by
  simp only [W20, Function.update_self]
set_option maxHeartbeats 1000000 in
theorem hF9_0 (c : Dev nD) : (dat9 (T19 m) c).arrAt 0 cfg9.N = T20 m c main_v125_0 :=
  ((dat9 (T19 m) c).arrAt_in 0 rfl _).trans ((A_eq9 (T19 m) c 0).trans (W20_of m c main_v125_0 (by decide)).symm)
set_option maxHeartbeats 1000000 in
theorem hF9_1 (c : Dev nD) : (dat9 (T19 m) c).arrAt 1 cfg9.N = T20 m c main_v127 :=
  ((dat9 (T19 m) c).arrAt_in 1 rfl _).trans ((A_eq9 (T19 m) c 1).trans (W20_of m c main_v127 (by decide)).symm)
set_option maxHeartbeats 1000000 in
theorem hF9_2 (c : Dev nD) : (dat9 (T19 m) c).arrAt 2 cfg9.N = T20 m c main_v134 :=
  ((dat9 (T19 m) c).arrAt_in 2 rfl _).trans ((A_eq9 (T19 m) c 2).trans (W20_of m c main_v134 (by decide)).symm)
set_option maxHeartbeats 1000000 in
theorem hF9_3 (c : Dev nD) : (dat9 (T19 m) c).arrAt 3 cfg9.N = T20 m c main_v137 :=
  ((dat9 (T19 m) c).arrAt_in 3 rfl _).trans ((A_eq9 (T19 m) c 3).trans (W20_of m c main_v137 (by decide)).symm)
set_option maxHeartbeats 1000000 in
theorem hF9_4 (c : Dev nD) : (dat9 (T19 m) c).arrAt 4 cfg9.N = T20 m c main_v140 :=
  ((dat9 (T19 m) c).arrAt_in 4 rfl _).trans ((A_eq9 (T19 m) c 4).trans (W20_of m c main_v140 (by decide)).symm)
set_option maxHeartbeats 1000000 in
theorem hF9 (c : Dev nD) (w : Fin cfg9.W) : (dat9 (T19 m) c).arrAt w cfg9.N = T20 m c (Pipeline.arrRef spec9 w) := by
  match w with
  | ⟨0, _⟩ => exact hF9_0 m c
  | ⟨1, _⟩ => exact hF9_1 m c
  | ⟨2, _⟩ => exact hF9_2 m c
  | ⟨3, _⟩ => exact hF9_3 m c
  | ⟨4, _⟩ => exact hF9_4 m c
  | ⟨5, _⟩ => exact (W20_out5 m c).symm
theorem hrest9 (c : Dev nD) : ∀ b, b ∉ Finset.univ.image (Pipeline.arrRef spec9) → T20 m c b = T19 m c b :=
  fun b hb => W20_of m c b (fun hmem => hb (by
    simp only [List.mem_cons, List.mem_singleton, List.not_mem_nil, or_false] at hmem
    rcases hmem with rfl
    · exact Finset.mem_image.mpr ⟨5, Finset.mem_univ _, rfl⟩
    ))
theorem W22_of (c : Dev nD) (r : Ref sig .tc) (h : r ∉ ([main_v145] : List (Ref sig .tc))) : W22 m c r = W21 m c r := by
  simp only [W22, Function.update_of_ne (StableHlo.devRef_ne_of_ne (List.ne_of_not_mem_cons h) : (Proc.devRef .tc r : DevRef τ sig) ≠ Proc.devRef .tc main_v145)]
theorem W22_out3 (c : Dev nD) : W22 m c (Proc.devRef .tc main_v145) = (dat10 (T21 m) c).arrAt 3 cfg10.N := by
  simp only [W22, Function.update_self]
set_option maxHeartbeats 1000000 in
theorem hF10_0 (c : Dev nD) : (dat10 (T21 m) c).arrAt 0 cfg10.N = T22 m c main_v141 :=
  ((dat10 (T21 m) c).arrAt_in 0 rfl _).trans ((A_eq10 (T21 m) c 0).trans (W22_of m c main_v141 (by decide)).symm)
set_option maxHeartbeats 1000000 in
theorem hF10_1 (c : Dev nD) : (dat10 (T21 m) c).arrAt 1 cfg10.N = T22 m c main_v143 :=
  ((dat10 (T21 m) c).arrAt_in 1 rfl _).trans ((A_eq10 (T21 m) c 1).trans (W22_of m c main_v143 (by decide)).symm)
set_option maxHeartbeats 1000000 in
theorem hF10_2 (c : Dev nD) : (dat10 (T21 m) c).arrAt 2 cfg10.N = T22 m c main_v144 :=
  ((dat10 (T21 m) c).arrAt_in 2 rfl _).trans ((A_eq10 (T21 m) c 2).trans (W22_of m c main_v144 (by decide)).symm)
set_option maxHeartbeats 1000000 in
theorem hF10 (c : Dev nD) (w : Fin cfg10.W) : (dat10 (T21 m) c).arrAt w cfg10.N = T22 m c (Pipeline.arrRef spec10 w) := by
  match w with
  | ⟨0, _⟩ => exact hF10_0 m c
  | ⟨1, _⟩ => exact hF10_1 m c
  | ⟨2, _⟩ => exact hF10_2 m c
  | ⟨3, _⟩ => exact (W22_out3 m c).symm
theorem hrest10 (c : Dev nD) : ∀ b, b ∉ Finset.univ.image (Pipeline.arrRef spec10) → T22 m c b = T21 m c b :=
  fun b hb => W22_of m c b (fun hmem => hb (by
    simp only [List.mem_cons, List.mem_singleton, List.not_mem_nil, or_false] at hmem
    rcases hmem with rfl
    · exact Finset.mem_image.mpr ⟨3, Finset.mem_univ _, rfl⟩
    ))
theorem W24_of (c : Dev nD) (r : Ref sig .tc) (h : r ∉ ([main_v162_0, main_v162_1, main_v162_2] : List (Ref sig .tc))) : W24 m c r = W23 m c r := by
  simp only [W24, Function.update_of_ne (StableHlo.devRef_ne_of_ne (List.ne_of_not_mem_cons h) : (Proc.devRef .tc r : DevRef τ sig) ≠ Proc.devRef .tc main_v162_0), Function.update_of_ne (StableHlo.devRef_ne_of_ne (List.ne_of_not_mem_cons (List.not_mem_of_not_mem_cons h)) : (Proc.devRef .tc r : DevRef τ sig) ≠ Proc.devRef .tc main_v162_1), Function.update_of_ne (StableHlo.devRef_ne_of_ne (List.ne_of_not_mem_cons (List.not_mem_of_not_mem_cons (List.not_mem_of_not_mem_cons h))) : (Proc.devRef .tc r : DevRef τ sig) ≠ Proc.devRef .tc main_v162_2)]
theorem W24_out4 (c : Dev nD) : W24 m c (Proc.devRef .tc main_v162_0) = (dat11 (T23 m) c).arrAt 4 cfg11.N := by
  simp only [W24, Function.update_self, Function.update_of_ne (StableHlo.devRef_ne_of_ne (by decide : main_v162_0 ≠ main_v162_1) : (Proc.devRef .tc main_v162_0 : DevRef τ sig) ≠ Proc.devRef .tc main_v162_1), Function.update_of_ne (StableHlo.devRef_ne_of_ne (by decide : main_v162_0 ≠ main_v162_2) : (Proc.devRef .tc main_v162_0 : DevRef τ sig) ≠ Proc.devRef .tc main_v162_2)]
theorem W24_out5 (c : Dev nD) : W24 m c (Proc.devRef .tc main_v162_1) = (dat11 (T23 m) c).arrAt 5 cfg11.N := by
  simp only [W24, Function.update_self, Function.update_of_ne (StableHlo.devRef_ne_of_ne (by decide : main_v162_1 ≠ main_v162_2) : (Proc.devRef .tc main_v162_1 : DevRef τ sig) ≠ Proc.devRef .tc main_v162_2)]
theorem W24_out6 (c : Dev nD) : W24 m c (Proc.devRef .tc main_v162_2) = (dat11 (T23 m) c).arrAt 6 cfg11.N := by
  simp only [W24, Function.update_self]
set_option maxHeartbeats 1000000 in
theorem hF11_0 (c : Dev nD) : (dat11 (T23 m) c).arrAt 0 cfg11.N = T24 m c main_v158 :=
  ((dat11 (T23 m) c).arrAt_in 0 rfl _).trans ((A_eq11 (T23 m) c 0).trans (W24_of m c main_v158 (by decide)).symm)
set_option maxHeartbeats 1000000 in
theorem hF11_1 (c : Dev nD) : (dat11 (T23 m) c).arrAt 1 cfg11.N = T24 m c main_v145 :=
  ((dat11 (T23 m) c).arrAt_in 1 rfl _).trans ((A_eq11 (T23 m) c 1).trans (W24_of m c main_v145 (by decide)).symm)
set_option maxHeartbeats 1000000 in
theorem hF11_2 (c : Dev nD) : (dat11 (T23 m) c).arrAt 2 cfg11.N = T24 m c main_v28 :=
  ((dat11 (T23 m) c).arrAt_in 2 rfl _).trans ((A_eq11 (T23 m) c 2).trans (W24_of m c main_v28 (by decide)).symm)
set_option maxHeartbeats 1000000 in
theorem hF11_3 (c : Dev nD) : (dat11 (T23 m) c).arrAt 3 cfg11.N = T24 m c main_v161 :=
  ((dat11 (T23 m) c).arrAt_in 3 rfl _).trans ((A_eq11 (T23 m) c 3).trans (W24_of m c main_v161 (by decide)).symm)
set_option maxHeartbeats 1000000 in
theorem hF11 (c : Dev nD) (w : Fin cfg11.W) : (dat11 (T23 m) c).arrAt w cfg11.N = T24 m c (Pipeline.arrRef spec11 w) := by
  match w with
  | ⟨0, _⟩ => exact hF11_0 m c
  | ⟨1, _⟩ => exact hF11_1 m c
  | ⟨2, _⟩ => exact hF11_2 m c
  | ⟨3, _⟩ => exact hF11_3 m c
  | ⟨4, _⟩ => exact (W24_out4 m c).symm
  | ⟨5, _⟩ => exact (W24_out5 m c).symm
  | ⟨6, _⟩ => exact (W24_out6 m c).symm
theorem hrest11 (c : Dev nD) : ∀ b, b ∉ Finset.univ.image (Pipeline.arrRef spec11) → T24 m c b = T23 m c b :=
  fun b hb => W24_of m c b (fun hmem => hb (by
    simp only [List.mem_cons, List.mem_singleton, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩
    ))
theorem W26_of (c : Dev nD) (r : Ref sig .tc) (h : r ∉ ([main_v178] : List (Ref sig .tc))) : W26 m c r = W25 m c r := by
  simp only [W26, Function.update_of_ne (StableHlo.devRef_ne_of_ne (List.ne_of_not_mem_cons h) : (Proc.devRef .tc r : DevRef τ sig) ≠ Proc.devRef .tc main_v178)]
theorem W26_out5 (c : Dev nD) : W26 m c (Proc.devRef .tc main_v178) = (dat12 (T25 m) c).arrAt 5 cfg12.N := by
  simp only [W26, Function.update_self]
set_option maxHeartbeats 1000000 in
theorem hF12_0 (c : Dev nD) : (dat12 (T25 m) c).arrAt 0 cfg12.N = T26 m c main_v162_0 :=
  ((dat12 (T25 m) c).arrAt_in 0 rfl _).trans ((A_eq12 (T25 m) c 0).trans (W26_of m c main_v162_0 (by decide)).symm)
set_option maxHeartbeats 1000000 in
theorem hF12_1 (c : Dev nD) : (dat12 (T25 m) c).arrAt 1 cfg12.N = T26 m c main_v164 :=
  ((dat12 (T25 m) c).arrAt_in 1 rfl _).trans ((A_eq12 (T25 m) c 1).trans (W26_of m c main_v164 (by decide)).symm)
set_option maxHeartbeats 1000000 in
theorem hF12_2 (c : Dev nD) : (dat12 (T25 m) c).arrAt 2 cfg12.N = T26 m c main_v171 :=
  ((dat12 (T25 m) c).arrAt_in 2 rfl _).trans ((A_eq12 (T25 m) c 2).trans (W26_of m c main_v171 (by decide)).symm)
set_option maxHeartbeats 1000000 in
theorem hF12_3 (c : Dev nD) : (dat12 (T25 m) c).arrAt 3 cfg12.N = T26 m c main_v174 :=
  ((dat12 (T25 m) c).arrAt_in 3 rfl _).trans ((A_eq12 (T25 m) c 3).trans (W26_of m c main_v174 (by decide)).symm)
set_option maxHeartbeats 1000000 in
theorem hF12_4 (c : Dev nD) : (dat12 (T25 m) c).arrAt 4 cfg12.N = T26 m c main_v177 :=
  ((dat12 (T25 m) c).arrAt_in 4 rfl _).trans ((A_eq12 (T25 m) c 4).trans (W26_of m c main_v177 (by decide)).symm)
set_option maxHeartbeats 1000000 in
theorem hF12 (c : Dev nD) (w : Fin cfg12.W) : (dat12 (T25 m) c).arrAt w cfg12.N = T26 m c (Pipeline.arrRef spec12 w) := by
  match w with
  | ⟨0, _⟩ => exact hF12_0 m c
  | ⟨1, _⟩ => exact hF12_1 m c
  | ⟨2, _⟩ => exact hF12_2 m c
  | ⟨3, _⟩ => exact hF12_3 m c
  | ⟨4, _⟩ => exact hF12_4 m c
  | ⟨5, _⟩ => exact (W26_out5 m c).symm
theorem hrest12 (c : Dev nD) : ∀ b, b ∉ Finset.univ.image (Pipeline.arrRef spec12) → T26 m c b = T25 m c b :=
  fun b hb => W26_of m c b (fun hmem => hb (by
    simp only [List.mem_cons, List.mem_singleton, List.not_mem_nil, or_false] at hmem
    rcases hmem with rfl
    · exact Finset.mem_image.mpr ⟨5, Finset.mem_univ _, rfl⟩
    ))
theorem W28_of (c : Dev nD) (r : Ref sig .tc) (h : r ∉ ([main_v180] : List (Ref sig .tc))) : W28 m c r = W27 m c r := by
  simp only [W28, Function.update_of_ne (StableHlo.devRef_ne_of_ne (List.ne_of_not_mem_cons h) : (Proc.devRef .tc r : DevRef τ sig) ≠ Proc.devRef .tc main_v180)]
theorem W28_out3 (c : Dev nD) : W28 m c (Proc.devRef .tc main_v180) = (dat13 (T27 m) c).arrAt 3 cfg13.N := by
  simp only [W28, Function.update_self]
set_option maxHeartbeats 1000000 in
theorem hF13_0 (c : Dev nD) : (dat13 (T27 m) c).arrAt 0 cfg13.N = T28 m c main_v178 :=
  ((dat13 (T27 m) c).arrAt_in 0 rfl _).trans ((A_eq13 (T27 m) c 0).trans (W28_of m c main_v178 (by decide)).symm)
set_option maxHeartbeats 1000000 in
theorem hF13_1 (c : Dev nD) : (dat13 (T27 m) c).arrAt 1 cfg13.N = T28 m c main_arg8 :=
  ((dat13 (T27 m) c).arrAt_in 1 rfl _).trans ((A_eq13 (T27 m) c 1).trans (W28_of m c main_arg8 (by decide)).symm)
set_option maxHeartbeats 1000000 in
theorem hF13_2 (c : Dev nD) : (dat13 (T27 m) c).arrAt 2 cfg13.N = T28 m c main_v179 :=
  ((dat13 (T27 m) c).arrAt_in 2 rfl _).trans ((A_eq13 (T27 m) c 2).trans (W28_of m c main_v179 (by decide)).symm)
set_option maxHeartbeats 1000000 in
theorem hF13 (c : Dev nD) (w : Fin cfg13.W) : (dat13 (T27 m) c).arrAt w cfg13.N = T28 m c (Pipeline.arrRef spec13 w) := by
  match w with
  | ⟨0, _⟩ => exact hF13_0 m c
  | ⟨1, _⟩ => exact hF13_1 m c
  | ⟨2, _⟩ => exact hF13_2 m c
  | ⟨3, _⟩ => exact (W28_out3 m c).symm
theorem hrest13 (c : Dev nD) : ∀ b, b ∉ Finset.univ.image (Pipeline.arrRef spec13) → T28 m c b = T27 m c b :=
  fun b hb => W28_of m c b (fun hmem => hb (by
    simp only [List.mem_cons, List.mem_singleton, List.not_mem_nil, or_false] at hmem
    rcases hmem with rfl
    · exact Finset.mem_image.mpr ⟨3, Finset.mem_univ _, rfl⟩
    ))

/-! ## The proof data family -/

/-- Every pipeline's proof data, each at its region's entry contents: a literal match. -/
def pdats : (p : Fin 14) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c
  | ⟨6, _⟩ => fun c => dat6 (T13 m) c
  | ⟨7, _⟩ => fun c => dat7 (T15 m) c
  | ⟨8, _⟩ => fun c => dat8 (T17 m) c
  | ⟨9, _⟩ => fun c => dat9 (T19 m) c
  | ⟨10, _⟩ => fun c => dat10 (T21 m) c
  | ⟨11, _⟩ => fun c => dat11 (T23 m) c
  | ⟨12, _⟩ => fun c => dat12 (T25 m) c
  | ⟨13, _⟩ => fun c => dat13 (T27 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W28 m c) ∗ ∃ r, prngReg c r)

end Cert.Kernel.Reg

end
-- ==== Proof.K.RegsA.lean ====
import proofs.«147038_j12317966205319_1_alg».proof.Proof.K.Conts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The regions as segments of @main -/

/-- What the launch hands region 0 is the invariant the class's regions keep: the scoped buffers no window stages, and the
    generator register at some state. -/
theorem phiIn0 (c : Dev nD) :
    (iprop((∃ r, prngReg c r) ∗ Pipeline.prefHeld (pcfgs (F := F) 0).pre c (fun _ => fullShare) (adm (F := F) 0).1
      ∗ Pipeline.scopedRest (Pipeline.pin (pcfgs (F := F)) adm 0).spec c) : sProp 𝕄) ⊢ Pipeline.ΦA spec0 c := by
  unfold Pipeline.ΦA
  iintro ⟨Hp, -, Hr⟩
  isplitl [Hr]; · iexact Hr
  iexact Hp

/-- and it gives them back. -/
theorem phiOut0 (c : Dev nD) :
    (Pipeline.ΦA spec0 c : sProp 𝕄) ⊢ iprop((∃ r, prngReg c r) ∗ BI.emp ∗ Pipeline.scopedRest (Pipeline.pin (pcfgs (F := F)) adm 0).spec c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at `W1`, left at `W2`; its arrays split out of
    the unscoped buffers and put back at the exit contents; the generator register into the region's invariant and out;
    nothing owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn0 c).trans (hin0 (T1 m) c)
  hout c := by
    rw [Pipeline.ownSems0_none]
    exact (hout0 (T1 m) c).trans (phiOut0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 1 is the invariant the class's regions keep: the scoped buffers no window stages, and the
    generator register at some state. -/
theorem phiIn1 (c : Dev nD) :
    (iprop((∃ r, prngReg c r) ∗ Pipeline.prefHeld (pcfgs (F := F) 1).pre c (fun _ => fullShare) (adm (F := F) 1).1
      ∗ Pipeline.scopedRest (Pipeline.pin (pcfgs (F := F)) adm 1).spec c) : sProp 𝕄) ⊢ Pipeline.ΦA spec1 c := by
  unfold Pipeline.ΦA
  iintro ⟨Hp, -, Hr⟩
  isplitl [Hr]; · iexact Hr
  iexact Hp

/-- and it gives them back. -/
theorem phiOut1 (c : Dev nD) :
    (Pipeline.ΦA spec1 c : sProp 𝕄) ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- Region 1 over the thread state: entered from every unscoped buffer at `W3`, left at `W4`; its arrays split out of
    the unscoped buffers and put back at the exit contents; the generator register into the region's invariant and out;
    nothing owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn1 c).trans (hin1 (T3 m) c)
  hout c := by
    rw [Pipeline.ownSems0_none]
    exact (hout1 (T3 m) c).trans (phiOut1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 2 is the invariant the class's regions keep: the scoped buffers no window stages, and the
    generator register at some state. -/
theorem phiIn2 (c : Dev nD) :
    (iprop((∃ r, prngReg c r) ∗ Pipeline.prefHeld (pcfgs (F := F) 2).pre c (fun _ => fullShare) (adm (F := F) 2).1
      ∗ Pipeline.scopedRest (Pipeline.pin (pcfgs (F := F)) adm 2).spec c) : sProp 𝕄) ⊢ Pipeline.ΦA spec2 c := by
  unfold Pipeline.ΦA
  iintro ⟨Hp, -, Hr⟩
  isplitl [Hr]; · iexact Hr
  iexact Hp

/-- and it gives them back. -/
theorem phiOut2 (c : Dev nD) :
    (Pipeline.ΦA spec2 c : sProp 𝕄) ⊢ iprop((∃ r, prngReg c r) ∗ BI.emp ∗ Pipeline.scopedRest (Pipeline.pin (pcfgs (F := F)) adm 2).spec c) := by
  unfold Pipeline.ΦA
  iintro ⟨Hr, Hp⟩
  isplitl [Hp]; · iexact Hp
  isplitr; · iempintro
  iexact Hr

set_option backward.isDefEq.respectTransparency.types false in
/-- Region 2 over the thread state: entered from every unscoped buffer at `W5`, left at `W6`; its arrays split out of
    the unscoped buffers and put back at the exit contents; the generator register into the region's invariant and out;
    nothing owed; no semaphore of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn2 c).trans (hin2 (T5 m) c)
  hout c := by
    rw [Pipeline.ownSems0_none]
    exact (hout2 (T5 m) c).trans (phiOut2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 3 is the invariant the class's regions keep: the scoped buffers no window stages, and the
    generator register at some state. -/
theorem phiIn3 (c : Dev nD) :
    (iprop((∃ r, prngReg c r) ∗ Pipeline.prefHeld (pcfgs (F := F) 3).pre c (fun _ => fullShare) (adm (F := F) 3).1
      ∗ Pipeline.scopedRest (Pipeline.pin (pcfgs (F := F)) adm 3).spec c) : sProp 𝕄) ⊢ Pipeline.ΦA spec3 c := by
  unfold Pipeline.ΦA
  iintro ⟨Hp, -, Hr⟩
  isplitl [Hr]; · iexact Hr
  iexact Hp

/-- and it gives them back. -/
theorem phiOut3 (c : Dev nD) :
    (Pipeline.ΦA spec3 c : sProp 𝕄) ⊢ iprop((∃ r, prngReg c r) ∗ BI.emp ∗ Pipeline.scopedRest (Pipeline.pin (pcfgs (F := F)) adm 3).spec c) := by
  unfold Pipeline.ΦA
  iintro ⟨Hr, Hp⟩
  isplitl [Hp]; · iexact Hp
  isplitr; · iempintro
  iexact Hr

set_option backward.isDefEq.respectTransparency.types false in
/-- Region 3 over the thread state: entered from every unscoped buffer at `W7`, left at `W8`; its arrays split out of
    the unscoped buffers and put back at the exit contents; the generator register into the region's invariant and out;
    nothing owed; no semaphore of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn3 c).trans (hin3 (T7 m) c)
  hout c := by
    rw [Pipeline.ownSems0_none]
    exact (hout3 (T7 m) c).trans (phiOut3 c)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 4 is the invariant the class's regions keep: the scoped buffers no window stages, and the
    generator register at some state. -/
theorem phiIn4 (c : Dev nD) :
    (iprop((∃ r, prngReg c r) ∗ Pipeline.prefHeld (pcfgs (F := F) 4).pre c (fun _ => fullShare) (adm (F := F) 4).1
      ∗ Pipeline.scopedRest (Pipeline.pin (pcfgs (F := F)) adm 4).spec c) : sProp 𝕄) ⊢ Pipeline.ΦA spec4 c := by
  unfold Pipeline.ΦA
  iintro ⟨Hp, -, Hr⟩
  isplitl [Hr]; · iexact Hr
  iexact Hp

/-- and it gives them back. -/
theorem phiOut4 (c : Dev nD) :
    (Pipeline.ΦA spec4 c : sProp 𝕄) ⊢ iprop((∃ r, prngReg c r) ∗ BI.emp ∗ Pipeline.scopedRest (Pipeline.pin (pcfgs (F := F)) adm 4).spec c) := by
  unfold Pipeline.ΦA
  iintro ⟨Hr, Hp⟩
  isplitl [Hp]; · iexact Hp
  isplitr; · iempintro
  iexact Hr

set_option backward.isDefEq.respectTransparency.types false in
/-- Region 4 over the thread state: entered from every unscoped buffer at `W9`, left at `W10`; its arrays split out of
    the unscoped buffers and put back at the exit contents; the generator register into the region's invariant and out;
    nothing owed; no semaphore of the kernel's own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn4 c).trans (hin4 (T9 m) c)
  hout c := by
    rw [Pipeline.ownSems0_none]
    exact (hout4 (T9 m) c).trans (phiOut4 c)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T9 m c) (T10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.RegsB.lean ====
import proofs.«147038_j12317966205319_1_alg».proof.Proof.K.Conts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The regions as segments of @main -/

/-- What the launch hands region 5 is the invariant the class's regions keep: the scoped buffers no window stages, and the
    generator register at some state. -/
theorem phiIn5 (c : Dev nD) :
    (iprop((∃ r, prngReg c r) ∗ Pipeline.prefHeld (pcfgs (F := F) 5).pre c (fun _ => fullShare) (adm (F := F) 5).1
      ∗ Pipeline.scopedRest (Pipeline.pin (pcfgs (F := F)) adm 5).spec c) : sProp 𝕄) ⊢ Pipeline.ΦA spec5 c := by
  unfold Pipeline.ΦA
  iintro ⟨Hp, -, Hr⟩
  isplitl [Hr]; · iexact Hr
  iexact Hp

/-- and it gives them back. -/
theorem phiOut5 (c : Dev nD) :
    (Pipeline.ΦA spec5 c : sProp 𝕄) ⊢ iprop((∃ r, prngReg c r) ∗ BI.emp ∗ Pipeline.scopedRest (Pipeline.pin (pcfgs (F := F)) adm 5).spec c) := by
  unfold Pipeline.ΦA
  iintro ⟨Hr, Hp⟩
  isplitl [Hp]; · iexact Hp
  isplitr; · iempintro
  iexact Hr

set_option backward.isDefEq.respectTransparency.types false in
/-- Region 5 over the thread state: entered from every unscoped buffer at `W11`, left at `W12`; its arrays split out of
    the unscoped buffers and put back at the exit contents; the generator register into the region's invariant and out;
    nothing owed; no semaphore of the kernel's own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn5 c).trans (hin5 (T11 m) c)
  hout c := by
    rw [Pipeline.ownSems0_none]
    exact (hout5 (T11 m) c).trans (phiOut5 c)
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T11 m c) (T12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 6 is the invariant the class's regions keep: the scoped buffers no window stages, and the
    generator register at some state. -/
theorem phiIn6 (c : Dev nD) :
    (iprop((∃ r, prngReg c r) ∗ Pipeline.prefHeld (pcfgs (F := F) 6).pre c (fun _ => fullShare) (adm (F := F) 6).1
      ∗ Pipeline.scopedRest (Pipeline.pin (pcfgs (F := F)) adm 6).spec c) : sProp 𝕄) ⊢ Pipeline.ΦA spec6 c := by
  unfold Pipeline.ΦA
  iintro ⟨Hp, -, Hr⟩
  isplitl [Hr]; · iexact Hr
  iexact Hp

/-- and it gives them back. -/
theorem phiOut6 (c : Dev nD) :
    (Pipeline.ΦA spec6 c : sProp 𝕄) ⊢ iprop((∃ r, prngReg c r) ∗ BI.emp ∗ Pipeline.scopedRest (Pipeline.pin (pcfgs (F := F)) adm 6).spec c) := by
  unfold Pipeline.ΦA
  iintro ⟨Hr, Hp⟩
  isplitl [Hp]; · iexact Hp
  isplitr; · iempintro
  iexact Hr

set_option backward.isDefEq.respectTransparency.types false in
/-- Region 6 over the thread state: entered from every unscoped buffer at `W13`, left at `W14`; its arrays split out of
    the unscoped buffers and put back at the exit contents; the generator register into the region's invariant and out;
    nothing owed; no semaphore of the kernel's own. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (T13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn6 c).trans (hin6 (T13 m) c)
  hout c := by
    rw [Pipeline.ownSems0_none]
    exact (hout6 (T13 m) c).trans (phiOut6 c)
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T13 m c) (T14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 7 is the invariant the class's regions keep: the scoped buffers no window stages, and the
    generator register at some state. -/
theorem phiIn7 (c : Dev nD) :
    (iprop((∃ r, prngReg c r) ∗ Pipeline.prefHeld (pcfgs (F := F) 7).pre c (fun _ => fullShare) (adm (F := F) 7).1
      ∗ Pipeline.scopedRest (Pipeline.pin (pcfgs (F := F)) adm 7).spec c) : sProp 𝕄) ⊢ Pipeline.ΦA spec7 c := by
  unfold Pipeline.ΦA
  iintro ⟨Hp, -, Hr⟩
  isplitl [Hr]; · iexact Hr
  iexact Hp

/-- and it gives them back. -/
theorem phiOut7 (c : Dev nD) :
    (Pipeline.ΦA spec7 c : sProp 𝕄) ⊢ iprop((∃ r, prngReg c r) ∗ BI.emp ∗ Pipeline.scopedRest (Pipeline.pin (pcfgs (F := F)) adm 7).spec c) := by
  unfold Pipeline.ΦA
  iintro ⟨Hr, Hp⟩
  isplitl [Hp]; · iexact Hp
  isplitr; · iempintro
  iexact Hr

set_option backward.isDefEq.respectTransparency.types false in
/-- Region 7 over the thread state: entered from every unscoped buffer at `W15`, left at `W16`; its arrays split out of
    the unscoped buffers and put back at the exit contents; the generator register into the region's invariant and out;
    nothing owed; no semaphore of the kernel's own. -/
def reg7 : RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (T15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn7 c).trans (hin7 (T15 m) c)
  hout c := by
    rw [Pipeline.ownSems0_none]
    exact (hout7 (T15 m) c).trans (phiOut7 c)
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T15 m c) (T16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 8 is the invariant the class's regions keep: the scoped buffers no window stages, and the
    generator register at some state. -/
theorem phiIn8 (c : Dev nD) :
    (iprop((∃ r, prngReg c r) ∗ Pipeline.prefHeld (pcfgs (F := F) 8).pre c (fun _ => fullShare) (adm (F := F) 8).1
      ∗ Pipeline.scopedRest (Pipeline.pin (pcfgs (F := F)) adm 8).spec c) : sProp 𝕄) ⊢ Pipeline.ΦA spec8 c := by
  unfold Pipeline.ΦA
  iintro ⟨Hp, -, Hr⟩
  isplitl [Hr]; · iexact Hr
  iexact Hp

/-- and it gives them back. -/
theorem phiOut8 (c : Dev nD) :
    (Pipeline.ΦA spec8 c : sProp 𝕄) ⊢ iprop((∃ r, prngReg c r) ∗ BI.emp ∗ Pipeline.scopedRest (Pipeline.pin (pcfgs (F := F)) adm 8).spec c) := by
  unfold Pipeline.ΦA
  iintro ⟨Hr, Hp⟩
  isplitl [Hp]; · iexact Hp
  isplitr; · iempintro
  iexact Hr

set_option backward.isDefEq.respectTransparency.types false in
/-- Region 8 over the thread state: entered from every unscoped buffer at `W17`, left at `W18`; its arrays split out of
    the unscoped buffers and put back at the exit contents; the generator register into the region's invariant and out;
    nothing owed; no semaphore of the kernel's own. -/
def reg8 : RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (T17 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (T17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn8 c).trans (hin8 (T17 m) c)
  hout c := by
    rw [Pipeline.ownSems0_none]
    exact (hout8 (T17 m) c).trans (phiOut8 c)
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T17 m c) (T18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 9 is the invariant the class's regions keep: the scoped buffers no window stages, and the
    generator register at some state. -/
theorem phiIn9 (c : Dev nD) :
    (iprop((∃ r, prngReg c r) ∗ Pipeline.prefHeld (pcfgs (F := F) 9).pre c (fun _ => fullShare) (adm (F := F) 9).1
      ∗ Pipeline.scopedRest (Pipeline.pin (pcfgs (F := F)) adm 9).spec c) : sProp 𝕄) ⊢ Pipeline.ΦA spec9 c := by
  unfold Pipeline.ΦA
  iintro ⟨Hp, -, Hr⟩
  isplitl [Hr]; · iexact Hr
  iexact Hp

/-- and it gives them back. -/
theorem phiOut9 (c : Dev nD) :
    (Pipeline.ΦA spec9 c : sProp 𝕄) ⊢ iprop((∃ r, prngReg c r) ∗ BI.emp ∗ Pipeline.scopedRest (Pipeline.pin (pcfgs (F := F)) adm 9).spec c) := by
  unfold Pipeline.ΦA
  iintro ⟨Hr, Hp⟩
  isplitl [Hp]; · iexact Hp
  isplitr; · iempintro
  iexact Hr

set_option backward.isDefEq.respectTransparency.types false in
/-- Region 9 over the thread state: entered from every unscoped buffer at `W19`, left at `W20`; its arrays split out of
    the unscoped buffers and put back at the exit contents; the generator register into the region's invariant and out;
    nothing owed; no semaphore of the kernel's own. -/
def reg9 : RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (T19 m) c).loose
  hwaits := Pipeline.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (T19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn9 c).trans (hin9 (T19 m) c)
  hout c := by
    rw [Pipeline.ownSems0_none]
    exact (hout9 (T19 m) c).trans (phiOut9 c)
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T19 m c) (T20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.RegsC.lean ====
import proofs.«147038_j12317966205319_1_alg».proof.Proof.K.Conts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The regions as segments of @main -/

/-- What the launch hands region 10 is the invariant the class's regions keep: the scoped buffers no window stages, and the
    generator register at some state. -/
theorem phiIn10 (c : Dev nD) :
    (iprop((∃ r, prngReg c r) ∗ Pipeline.prefHeld (pcfgs (F := F) 10).pre c (fun _ => fullShare) (adm (F := F) 10).1
      ∗ Pipeline.scopedRest (Pipeline.pin (pcfgs (F := F)) adm 10).spec c) : sProp 𝕄) ⊢ Pipeline.ΦA spec10 c := by
  unfold Pipeline.ΦA
  iintro ⟨Hp, -, Hr⟩
  isplitl [Hr]; · iexact Hr
  iexact Hp

/-- and it gives them back. -/
theorem phiOut10 (c : Dev nD) :
    (Pipeline.ΦA spec10 c : sProp 𝕄) ⊢ iprop((∃ r, prngReg c r) ∗ BI.emp ∗ Pipeline.scopedRest (Pipeline.pin (pcfgs (F := F)) adm 10).spec c) := by
  unfold Pipeline.ΦA
  iintro ⟨Hr, Hp⟩
  isplitl [Hp]; · iexact Hp
  isplitr; · iempintro
  iexact Hr

set_option backward.isDefEq.respectTransparency.types false in
/-- Region 10 over the thread state: entered from every unscoped buffer at `W21`, left at `W22`; its arrays split out of
    the unscoped buffers and put back at the exit contents; the generator register into the region's invariant and out;
    nothing owed; no semaphore of the kernel's own. -/
def reg10 : RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (T21 m) c).loose
  hwaits := Pipeline.hwaits_of_owed_zero _ _ _ _ L lv 10 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec10 c (T21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (T21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn10 c).trans (hin10 (T21 m) c)
  hout c := by
    rw [Pipeline.ownSems0_none]
    exact (hout10 (T21 m) c).trans (phiOut10 c)
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (T21 m c) (T22 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 11 is the invariant the class's regions keep: the scoped buffers no window stages, and the
    generator register at some state. -/
theorem phiIn11 (c : Dev nD) :
    (iprop((∃ r, prngReg c r) ∗ Pipeline.prefHeld (pcfgs (F := F) 11).pre c (fun _ => fullShare) (adm (F := F) 11).1
      ∗ Pipeline.scopedRest (Pipeline.pin (pcfgs (F := F)) adm 11).spec c) : sProp 𝕄) ⊢ Pipeline.ΦA spec11 c := by
  unfold Pipeline.ΦA
  iintro ⟨Hp, -, Hr⟩
  isplitl [Hr]; · iexact Hr
  iexact Hp

/-- and it gives them back. -/
theorem phiOut11 (c : Dev nD) :
    (Pipeline.ΦA spec11 c : sProp 𝕄) ⊢ iprop((∃ r, prngReg c r) ∗ BI.emp ∗ Pipeline.scopedRest (Pipeline.pin (pcfgs (F := F)) adm 11).spec c) := by
  unfold Pipeline.ΦA
  iintro ⟨Hr, Hp⟩
  isplitl [Hp]; · iexact Hp
  isplitr; · iempintro
  iexact Hr

set_option backward.isDefEq.respectTransparency.types false in
/-- Region 11 over the thread state: entered from every unscoped buffer at `W23`, left at `W24`; its arrays split out of
    the unscoped buffers and put back at the exit contents; the generator register into the region's invariant and out;
    nothing owed; no semaphore of the kernel's own. -/
def reg11 : RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (T23 m) c).loose
  hwaits := Pipeline.hwaits_of_owed_zero _ _ _ _ L lv 11 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec11 c (T23 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (T23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn11 c).trans (hin11 (T23 m) c)
  hout c := by
    rw [Pipeline.ownSems0_none]
    exact (hout11 (T23 m) c).trans (phiOut11 c)
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (T23 m c) (T24 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 12 is the invariant the class's regions keep: the scoped buffers no window stages, and the
    generator register at some state. -/
theorem phiIn12 (c : Dev nD) :
    (iprop((∃ r, prngReg c r) ∗ Pipeline.prefHeld (pcfgs (F := F) 12).pre c (fun _ => fullShare) (adm (F := F) 12).1
      ∗ Pipeline.scopedRest (Pipeline.pin (pcfgs (F := F)) adm 12).spec c) : sProp 𝕄) ⊢ Pipeline.ΦA spec12 c := by
  unfold Pipeline.ΦA
  iintro ⟨Hp, -, Hr⟩
  isplitl [Hr]; · iexact Hr
  iexact Hp

/-- and it gives them back. -/
theorem phiOut12 (c : Dev nD) :
    (Pipeline.ΦA spec12 c : sProp 𝕄) ⊢ iprop((∃ r, prngReg c r) ∗ BI.emp ∗ Pipeline.scopedRest (Pipeline.pin (pcfgs (F := F)) adm 12).spec c) := by
  unfold Pipeline.ΦA
  iintro ⟨Hr, Hp⟩
  isplitl [Hp]; · iexact Hp
  isplitr; · iempintro
  iexact Hr

set_option backward.isDefEq.respectTransparency.types false in
/-- Region 12 over the thread state: entered from every unscoped buffer at `W25`, left at `W26`; its arrays split out of
    the unscoped buffers and put back at the exit contents; the generator register into the region's invariant and out;
    nothing owed; no semaphore of the kernel's own. -/
def reg12 : RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (T25 m) c).loose
  hwaits := Pipeline.hwaits_of_owed_zero _ _ _ _ L lv 12 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec12 c (T25 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (T25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn12 c).trans (hin12 (T25 m) c)
  hout c := by
    rw [Pipeline.ownSems0_none]
    exact (hout12 (T25 m) c).trans (phiOut12 c)
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (T25 m c) (T26 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 13 is the invariant the class's regions keep: the scoped buffers no window stages, and the
    generator register at some state. -/
theorem phiIn13 (c : Dev nD) :
    (iprop((∃ r, prngReg c r) ∗ Pipeline.prefHeld (pcfgs (F := F) 13).pre c (fun _ => fullShare) (adm (F := F) 13).1
      ∗ Pipeline.scopedRest (Pipeline.pin (pcfgs (F := F)) adm 13).spec c) : sProp 𝕄) ⊢ Pipeline.ΦA spec13 c := by
  unfold Pipeline.ΦA
  iintro ⟨Hp, -, Hr⟩
  isplitl [Hr]; · iexact Hr
  iexact Hp

/-- and it gives them back. -/
theorem phiOut13 (c : Dev nD) :
    (Pipeline.ΦA spec13 c : sProp 𝕄) ⊢ iprop((∃ r, prngReg c r) ∗ BI.emp ∗ Pipeline.scopedRest (Pipeline.pin (pcfgs (F := F)) adm 13).spec c) := by
  unfold Pipeline.ΦA
  iintro ⟨Hr, Hp⟩
  isplitl [Hp]; · iexact Hp
  isplitr; · iempintro
  iexact Hr

set_option backward.isDefEq.respectTransparency.types false in
/-- Region 13 over the thread state: entered from every unscoped buffer at `W27`, left at `W28`; its arrays split out of
    the unscoped buffers and put back at the exit contents; the generator register into the region's invariant and out;
    nothing owed; no semaphore of the kernel's own. -/
def reg13 : RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (T27 m) c).loose
  hwaits := Pipeline.hwaits_of_owed_zero _ _ _ _ L lv 13 fun _ _ => rfl
  pre c := iprop(StableHlo.held (c : Thread nD τ) (Pipeline.ucRefs τ sig) (W27 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec13 c (T27 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (T27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiIn13 c).trans (hin13 (T27 m) c)
  hout c := by
    rw [Pipeline.ownSems0_none]
    exact (hout13 (T27 m) c).trans (phiOut13 c)
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (T27 m c) (T28 m c) ((pdats m 13 c).arrAt · cfg13.N) (hF13 m c) (hrest13 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Reg

end
-- ==== Proof.K.Run.lean ====
import proofs.«147038_j12317966205319_1_alg».proof.Proof.K.RegsA
import proofs.«147038_j12317966205319_1_alg».proof.Proof.K.RegsB
import proofs.«147038_j12317966205319_1_alg».proof.Proof.K.RegsC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The launch: @main as the segments, the thread states chained -/

variable (ρ : Dev nD → PrngReg)
theorem hpre0 (c : Dev nD) : (iprop(StableHlo.held (c : Thread nD τ) (Pipeline.ucRefs τ sig) (V1 m c) ∗ R c) : sProp 𝕄) ⊢ (reg0 m).pre c := by
  rw [V1_eq]; exact .rfl
theorem hpost0 (c : Dev nD) : (reg0 m).post c ⊢ (iprop(StableHlo.held (c : Thread nD τ) (Pipeline.ucRefs τ sig) (V2 m (outsF m) c) ∗ R c) : sProp 𝕄) := by
  rw [V2_eq]; exact .rfl
theorem hpre1 (c : Dev nD) : (iprop(StableHlo.held (c : Thread nD τ) (Pipeline.ucRefs τ sig) (V3 m (outsF m) c) ∗ R c) : sProp 𝕄) ⊢ (reg1 m).pre c := by
  rw [V3_eq]; exact .rfl
theorem hpost1 (c : Dev nD) : (reg1 m).post c ⊢ (iprop(StableHlo.held (c : Thread nD τ) (Pipeline.ucRefs τ sig) (V4 m (outsF m) c) ∗ R c) : sProp 𝕄) := by
  rw [V4_eq]; exact .rfl
theorem hpre2 (c : Dev nD) : (iprop(StableHlo.held (c : Thread nD τ) (Pipeline.ucRefs τ sig) (V5 m (outsF m) c) ∗ R c) : sProp 𝕄) ⊢ (reg2 m).pre c := by
  rw [V5_eq]; exact .rfl
theorem hpost2 (c : Dev nD) : (reg2 m).post c ⊢ (iprop(StableHlo.held (c : Thread nD τ) (Pipeline.ucRefs τ sig) (V6 m (outsF m) c) ∗ R c) : sProp 𝕄) := by
  rw [V6_eq]; exact .rfl
theorem hpre3 (c : Dev nD) : (iprop(StableHlo.held (c : Thread nD τ) (Pipeline.ucRefs τ sig) (V7 m (outsF m) c) ∗ R c) : sProp 𝕄) ⊢ (reg3 m).pre c := by
  rw [V7_eq]; exact .rfl
theorem hpost3 (c : Dev nD) : (reg3 m).post c ⊢ (iprop(StableHlo.held (c : Thread nD τ) (Pipeline.ucRefs τ sig) (V8 m (outsF m) c) ∗ R c) : sProp 𝕄) := by
  rw [V8_eq]; exact .rfl
theorem hpre4 (c : Dev nD) : (iprop(StableHlo.held (c : Thread nD τ) (Pipeline.ucRefs τ sig) (V9 m (outsF m) c) ∗ R c) : sProp 𝕄) ⊢ (reg4 m).pre c := by
  rw [V9_eq]; exact .rfl
theorem hpost4 (c : Dev nD) : (reg4 m).post c ⊢ (iprop(StableHlo.held (c : Thread nD τ) (Pipeline.ucRefs τ sig) (V10 m (outsF m) c) ∗ R c) : sProp 𝕄) := by
  rw [V10_eq]; exact .rfl
theorem hpre5 (c : Dev nD) : (iprop(StableHlo.held (c : Thread nD τ) (Pipeline.ucRefs τ sig) (V11 m (outsF m) c) ∗ R c) : sProp 𝕄) ⊢ (reg5 m).pre c := by
  rw [V11_eq]; exact .rfl
theorem hpost5 (c : Dev nD) : (reg5 m).post c ⊢ (iprop(StableHlo.held (c : Thread nD τ) (Pipeline.ucRefs τ sig) (V12 m (outsF m) c) ∗ R c) : sProp 𝕄) := by
  rw [V12_eq]; exact .rfl
theorem hpre6 (c : Dev nD) : (iprop(StableHlo.held (c : Thread nD τ) (Pipeline.ucRefs τ sig) (V13 m (outsF m) c) ∗ R c) : sProp 𝕄) ⊢ (reg6 m).pre c := by
  rw [V13_eq]; exact .rfl
theorem hpost6 (c : Dev nD) : (reg6 m).post c ⊢ (iprop(StableHlo.held (c : Thread nD τ) (Pipeline.ucRefs τ sig) (V14 m (outsF m) c) ∗ R c) : sProp 𝕄) := by
  rw [V14_eq]; exact .rfl
theorem hpre7 (c : Dev nD) : (iprop(StableHlo.held (c : Thread nD τ) (Pipeline.ucRefs τ sig) (V15 m (outsF m) c) ∗ R c) : sProp 𝕄) ⊢ (reg7 m).pre c := by
  rw [V15_eq]; exact .rfl
theorem hpost7 (c : Dev nD) : (reg7 m).post c ⊢ (iprop(StableHlo.held (c : Thread nD τ) (Pipeline.ucRefs τ sig) (V16 m (outsF m) c) ∗ R c) : sProp 𝕄) := by
  rw [V16_eq]; exact .rfl
theorem hpre8 (c : Dev nD) : (iprop(StableHlo.held (c : Thread nD τ) (Pipeline.ucRefs τ sig) (V17 m (outsF m) c) ∗ R c) : sProp 𝕄) ⊢ (reg8 m).pre c := by
  rw [V17_eq]; exact .rfl
theorem hpost8 (c : Dev nD) : (reg8 m).post c ⊢ (iprop(StableHlo.held (c : Thread nD τ) (Pipeline.ucRefs τ sig) (V18 m (outsF m) c) ∗ R c) : sProp 𝕄) := by
  rw [V18_eq]; exact .rfl
theorem hpre9 (c : Dev nD) : (iprop(StableHlo.held (c : Thread nD τ) (Pipeline.ucRefs τ sig) (V19 m (outsF m) c) ∗ R c) : sProp 𝕄) ⊢ (reg9 m).pre c := by
  rw [V19_eq]; exact .rfl
theorem hpost9 (c : Dev nD) : (reg9 m).post c ⊢ (iprop(StableHlo.held (c : Thread nD τ) (Pipeline.ucRefs τ sig) (V20 m (outsF m) c) ∗ R c) : sProp 𝕄) := by
  rw [V20_eq]; exact .rfl
theorem hpre10 (c : Dev nD) : (iprop(StableHlo.held (c : Thread nD τ) (Pipeline.ucRefs τ sig) (V21 m (outsF m) c) ∗ R c) : sProp 𝕄) ⊢ (reg10 m).pre c := by
  rw [V21_eq]; exact .rfl
theorem hpost10 (c : Dev nD) : (reg10 m).post c ⊢ (iprop(StableHlo.held (c : Thread nD τ) (Pipeline.ucRefs τ sig) (V22 m (outsF m) c) ∗ R c) : sProp 𝕄) := by
  rw [V22_eq]; exact .rfl
theorem hpre11 (c : Dev nD) : (iprop(StableHlo.held (c : Thread nD τ) (Pipeline.ucRefs τ sig) (V23 m (outsF m) c) ∗ R c) : sProp 𝕄) ⊢ (reg11 m).pre c := by
  rw [V23_eq]; exact .rfl
theorem hpost11 (c : Dev nD) : (reg11 m).post c ⊢ (iprop(StableHlo.held (c : Thread nD τ) (Pipeline.ucRefs τ sig) (V24 m (outsF m) c) ∗ R c) : sProp 𝕄) := by
  rw [V24_eq]; exact .rfl
theorem hpre12 (c : Dev nD) : (iprop(StableHlo.held (c : Thread nD τ) (Pipeline.ucRefs τ sig) (V25 m (outsF m) c) ∗ R c) : sProp 𝕄) ⊢ (reg12 m).pre c := by
  rw [V25_eq]; exact .rfl
theorem hpost12 (c : Dev nD) : (reg12 m).post c ⊢ (iprop(StableHlo.held (c : Thread nD τ) (Pipeline.ucRefs τ sig) (V26 m (outsF m) c) ∗ R c) : sProp 𝕄) := by
  rw [V26_eq]; exact .rfl
theorem hpre13 (c : Dev nD) : (iprop(StableHlo.held (c : Thread nD τ) (Pipeline.ucRefs τ sig) (V27 m (outsF m) c) ∗ R c) : sProp 𝕄) ⊢ (reg13 m).pre c := by
  rw [V27_eq]; exact .rfl

/-- @main's 28 segments in order: a host segment per stretch from its boundary's contents, a region per pallas_call. -/
abbrev segsF (c : Dev nD) : List (Seg (pcfgs (F := F)) adm (pdats m) () defs₀ 𝒱₀ L lv) :=
  segs m (outsF m) 𝒱₀ L lv (fun _ c => R c) () (pdats m) (reg0 m) (reg1 m) (reg2 m) (reg3 m) (reg4 m) (reg5 m) (reg6 m) (reg7 m) (reg8 m) (reg9 m) (reg10 m) (reg11 m) (reg12 m) (reg13 m) c

set_option backward.isDefEq.respectTransparency.types false in
/-- THE RUN. At the compiled mesh, from any memory with zero counters: every weakly fair execution of @main on the TensorCores
    terminates, nothing faulting, and every final state has every unscoped buffer at the last contents `W28`: the launch
    memory taken through every host stretch and every region's write-backs. -/
theorem run_all :
    θ_run defs (onTc (τ := τ) (main (F := F))) ⟨m, fun _ => 0, ρ⟩
      (fun r => ∀ c : Dev nD, ∀ b ∈ Pipeline.ucRefs τ sig, r.2.mem (((c : Thread nD τ)).1, b) = W28 m c b) :=
  Pipeline.θ_run_regions_kit_dev (pcfgs (F := F)) adm (pdats m) () cellOf_inj emb₁ defs₀ 𝒱₀ L lv m ρ main
    (segsF m)
    (fun c Q => by
      rewrite [main_chain c, Seg.run_eq_chain,
        show (segsF m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()) ] from rfl]
      exact .rfl)
    (fun c => by simp only [segsF, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨(.rfl), hpre0 m c, hpost0 m c, hpre1 m c, hpost1 m c, hpre2 m c, hpost2 m c, hpre3 m c, hpost3 m c, hpre4 m c, hpost4 m c, hpre5 m c, hpost5 m c, hpre6 m c, hpost6 m c, hpre7 m c, hpost7 m c, hpre8 m c, hpost8 m c, hpre9 m c, hpost9 m c, hpre10 m c, hpost10 m c, hpre11 m c, hpost11 m c, hpre12 m c, hpost12 m c, hpre13 m c, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m c b)
    (hfin := fun c s' => by
      iintro ⟨⟨Hh, -⟩, HSI⟩
      unfold StableHlo.held
      imodintro
      iapply (pointsTo_read_all (Pipeline.ucRefs τ sig) (fun b => (((c : Thread nD τ)).1, b)) (W28 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W28_main_arg0 (c : Dev nD) : W28 m c main_arg0 = m ((c : Thread nD τ).loc main_arg0) :=
  (congrFun (V28_eq m c).symm _).trans (V28_main_arg0 m (outsF m) c)
theorem W28_main_arg1 (c : Dev nD) : W28 m c main_arg1 = m ((c : Thread nD τ).loc main_arg1) :=
  (congrFun (V28_eq m c).symm _).trans (V28_main_arg1 m (outsF m) c)
theorem W28_main_arg2 (c : Dev nD) : W28 m c main_arg2 = m ((c : Thread nD τ).loc main_arg2) :=
  (congrFun (V28_eq m c).symm _).trans (V28_main_arg2 m (outsF m) c)
theorem W28_main_arg3 (c : Dev nD) : W28 m c main_arg3 = m ((c : Thread nD τ).loc main_arg3) :=
  (congrFun (V28_eq m c).symm _).trans (V28_main_arg3 m (outsF m) c)
theorem W28_main_arg4 (c : Dev nD) : W28 m c main_arg4 = m ((c : Thread nD τ).loc main_arg4) :=
  (congrFun (V28_eq m c).symm _).trans (V28_main_arg4 m (outsF m) c)
theorem W28_main_arg5 (c : Dev nD) : W28 m c main_arg5 = m ((c : Thread nD τ).loc main_arg5) :=
  (congrFun (V28_eq m c).symm _).trans (V28_main_arg5 m (outsF m) c)
theorem W28_main_arg6 (c : Dev nD) : W28 m c main_arg6 = m ((c : Thread nD τ).loc main_arg6) :=
  (congrFun (V28_eq m c).symm _).trans (V28_main_arg6 m (outsF m) c)
theorem W28_main_arg7 (c : Dev nD) : W28 m c main_arg7 = m ((c : Thread nD τ).loc main_arg7) :=
  (congrFun (V28_eq m c).symm _).trans (V28_main_arg7 m (outsF m) c)
theorem W28_main_arg8 (c : Dev nD) : W28 m c main_arg8 = m ((c : Thread nD τ).loc main_arg8) :=
  (congrFun (V28_eq m c).symm _).trans (V28_main_arg8 m (outsF m) c)
theorem W28_main_arg9 (c : Dev nD) : W28 m c main_arg9 = m ((c : Thread nD τ).loc main_arg9) :=
  (congrFun (V28_eq m c).symm _).trans (V28_main_arg9 m (outsF m) c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W28_main_arg0 m c),
    (h c _ (mem_uc main_arg1 (by decide))).trans (W28_main_arg1 m c),
    (h c _ (mem_uc main_arg2 (by decide))).trans (W28_main_arg2 m c),
    (h c _ (mem_uc main_arg3 (by decide))).trans (W28_main_arg3 m c),
    (h c _ (mem_uc main_arg4 (by decide))).trans (W28_main_arg4 m c),
    (h c _ (mem_uc main_arg5 (by decide))).trans (W28_main_arg5 m c),
    (h c _ (mem_uc main_arg6 (by decide))).trans (W28_main_arg6 m c),
    (h c _ (mem_uc main_arg7 (by decide))).trans (W28_main_arg7 m c),
    (h c _ (mem_uc main_arg8 (by decide))).trans (W28_main_arg8 m c),
    (h c _ (mem_uc main_arg9 (by decide))).trans (W28_main_arg9 m c)⟩) (run_all m ρ)

/-- THE RESULT: the result buffer ends at what the last region leaves in it. -/
theorem result : θ_run defs (onTc (τ := τ) (main (F := F))) ⟨m, fun _ => 0, ρ⟩ (fun r => ∀ c : Dev nD,
      r.2.mem ((c.tc : Thread nD τ).loc main_v180) = outsF m 28 main_v180 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c _ (mem_uc main_v180 (by decide)),
    (h c _ (mem_uc main_arg0 (by decide))).trans (W28_main_arg0 m c),
    (h c _ (mem_uc main_arg1 (by decide))).trans (W28_main_arg1 m c),
    (h c _ (mem_uc main_arg2 (by decide))).trans (W28_main_arg2 m c),
    (h c _ (mem_uc main_arg3 (by decide))).trans (W28_main_arg3 m c),
    (h c _ (mem_uc main_arg4 (by decide))).trans (W28_main_arg4 m c),
    (h c _ (mem_uc main_arg5 (by decide))).trans (W28_main_arg5 m c),
    (h c _ (mem_uc main_arg6 (by decide))).trans (W28_main_arg6 m c),
    (h c _ (mem_uc main_arg7 (by decide))).trans (W28_main_arg7 m c),
    (h c _ (mem_uc main_arg8 (by decide))).trans (W28_main_arg8 m c),
    (h c _ (mem_uc main_arg9 (by decide))).trans (W28_main_arg9 m c)⟩) (run_all m ρ)

end Cert.Kernel.Reg

end
-- ==== Proof.Ref.FoldC0.lean ====
/- The first forty operations of the reference: the two rows of the edge list, the node degrees by a scatter-add of ones plus one, their power −1/2, its gathers along both ends of every edge and their product, its square, and the embedding product with its bias. Their fold over any contents that hold the first four arguments gives the stage functions of the five buffers the layers read. -/
import proofs.«147038_j12317966205319_1_alg».proof.Proof.Ref.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations before the first layer, in program order. -/
abbrev opsC0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    nullary main_cst_2 (constant S_ .f32 0xBF000000#32),
    unary main_cst_2 main_v10 (broadcastInDim S100000 ![] bcast_S_S100000 : (⟨S_, .f32⟩ : BufTy).Contents (Elt F) → (⟨S100000, .f32⟩ : BufTy).Contents (Elt F)),
    binary main_v9 main_v10 main_v11 (Host.powf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_4 (constantI S_ 32 0#32),
    unary main_c_4 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v18 main_v25 main_v26 (mulf : (⟨S1600000, .f32⟩ : BufTy).Contents (Elt F) → (⟨S1600000, .f32⟩ : BufTy).Contents (Elt F) → (⟨S1600000, .f32⟩ : BufTy).Contents (Elt F)),
    binary main_v11 main_v11 main_v27 (mulf : (⟨S100000, .f32⟩ : BufTy).Contents (Elt F) → (⟨S100000, .f32⟩ : BufTy).Contents (Elt F) → (⟨S100000, .f32⟩ : BufTy).Contents (Elt F)),
    binary main_arg0 main_arg2 main_v28 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg3 main_v29 (broadcastInDim S1x64 ![1] bcast_S64_S1x64_1 : (⟨S64, .f32⟩ : BufTy).Contents (Elt F) → (⟨S1x64, .f32⟩ : BufTy).Contents (Elt F)),
    unary main_v29 main_v30 (broadcastInDim S100000x64 ![0, 1] bcast_S1x64_S100000x64_0_1 : (⟨S1x64, .f32⟩ : BufTy).Contents (Elt F) → (⟨S100000x64, .f32⟩ : BufTy).Contents (Elt F)),
    binary main_v28 main_v30 main_v31 (addf : (⟨S100000x64, .f32⟩ : BufTy).Contents (Elt F) → (⟨S100000x64, .f32⟩ : BufTy).Contents (Elt F) → (⟨S100000x64, .f32⟩ : BufTy).Contents (Elt F)) ]

/-- The references that the operations before the first layer write, in order. -/
abbrev opsC0_W : List (Ref sig .tc) := [main_v0, main_v1, main_v2, main_v3, main_cst, main_v4, main_cst_0, main_v5, main_v6, main_v7, main_cst_1, main_v8, main_v9, main_cst_2, main_v10, main_v11, main_c, main_v12, main_v13, main_c_3, main_v14, main_v15, main_v16, main_v17, main_v18, main_c_4, main_v19, main_v20, main_c_5, main_v21, main_v22, main_v23, main_v24, main_v25, main_v26, main_v27, main_v28, main_v29, main_v30, main_v31]

theorem opsC0_writes : (opsC0 : List (HloOp τ sig (Elt F))).Forall fun op => op.writes ⊆ (opsC0_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A reference none of them writes keeps its contents. -/
theorem opsC0_keep (V : Valuation τ sig (Elt F)) {r : Ref sig .tc} (h : r ∉ opsC0_W) :
    after (opsC0 (F := F)) V (Proc.devRef .tc r) = V (Proc.devRef .tc r) :=
  after_of_writes_sub opsC0 V opsC0_writes h

/-- The source node list after the prologue. -/
theorem opsC0_v1 (x0 : (⟨S100000x32, .f32⟩ : BufTy).Contents (Elt F)) (x1 : (⟨S2x1600000, .i32⟩ : BufTy).Contents (Elt F)) (x2 : (⟨S32x64, .f32⟩ : BufTy).Contents (Elt F)) (x3 : (⟨S64, .f32⟩ : BufTy).Contents (Elt F)) (W : Valuation τ sig (Elt F))
    (a0 : W (Proc.devRef .tc main_arg0) = x0) (a1 : W (Proc.devRef .tc main_arg1) = x1)
    (a2 : W (Proc.devRef .tc main_arg2) = x2) (a3 : W (Proc.devRef .tc main_arg3) = x3) :
    after (opsC0 (F := F)) W (Proc.devRef .tc main_v1) = Stages.val_main_v1 (F := F) x1 := by
  after_results_simp
  rw [a1]
  rfl

/-- The target node list after the prologue. -/
theorem opsC0_v3 (x0 : (⟨S100000x32, .f32⟩ : BufTy).Contents (Elt F)) (x1 : (⟨S2x1600000, .i32⟩ : BufTy).Contents (Elt F)) (x2 : (⟨S32x64, .f32⟩ : BufTy).Contents (Elt F)) (x3 : (⟨S64, .f32⟩ : BufTy).Contents (Elt F)) (W : Valuation τ sig (Elt F))
    (a0 : W (Proc.devRef .tc main_arg0) = x0) (a1 : W (Proc.devRef .tc main_arg1) = x1)
    (a2 : W (Proc.devRef .tc main_arg2) = x2) (a3 : W (Proc.devRef .tc main_arg3) = x3) :
    after (opsC0 (F := F)) W (Proc.devRef .tc main_v3) = Stages.val_main_v3 (F := F) x1 := by
  after_results_simp
  rw [a1]
  rfl

/-- The edge weights (the product of the two end nodes' inverse square-root degrees) after the prologue. -/
theorem opsC0_v26 (x0 : (⟨S100000x32, .f32⟩ : BufTy).Contents (Elt F)) (x1 : (⟨S2x1600000, .i32⟩ : BufTy).Contents (Elt F)) (x2 : (⟨S32x64, .f32⟩ : BufTy).Contents (Elt F)) (x3 : (⟨S64, .f32⟩ : BufTy).Contents (Elt F)) (W : Valuation τ sig (Elt F))
    (a0 : W (Proc.devRef .tc main_arg0) = x0) (a1 : W (Proc.devRef .tc main_arg1) = x1)
    (a2 : W (Proc.devRef .tc main_arg2) = x2) (a3 : W (Proc.devRef .tc main_arg3) = x3) :
    after (opsC0 (F := F)) W (Proc.devRef .tc main_v26) = Stages.val_main_v26 (F := F) x1 := by
  after_results_simp
  rw [a1]
  rfl

/-- The self weights (the squared inverse square-root degree) after the prologue. -/
theorem opsC0_v27 (x0 : (⟨S100000x32, .f32⟩ : BufTy).Contents (Elt F)) (x1 : (⟨S2x1600000, .i32⟩ : BufTy).Contents (Elt F)) (x2 : (⟨S32x64, .f32⟩ : BufTy).Contents (Elt F)) (x3 : (⟨S64, .f32⟩ : BufTy).Contents (Elt F)) (W : Valuation τ sig (Elt F))
    (a0 : W (Proc.devRef .tc main_arg0) = x0) (a1 : W (Proc.devRef .tc main_arg1) = x1)
    (a2 : W (Proc.devRef .tc main_arg2) = x2) (a3 : W (Proc.devRef .tc main_arg3) = x3) :
    after (opsC0 (F := F)) W (Proc.devRef .tc main_v27) = Stages.val_main_v27 (F := F) x1 := by
  after_results_simp
  rw [a1]
  rfl

/-- The embedded features (the input times the embedding weights plus the embedding bias) after the prologue. -/
theorem opsC0_v31 (x0 : (⟨S100000x32, .f32⟩ : BufTy).Contents (Elt F)) (x1 : (⟨S2x1600000, .i32⟩ : BufTy).Contents (Elt F)) (x2 : (⟨S32x64, .f32⟩ : BufTy).Contents (Elt F)) (x3 : (⟨S64, .f32⟩ : BufTy).Contents (Elt F)) (W : Valuation τ sig (Elt F))
    (a0 : W (Proc.devRef .tc main_arg0) = x0) (a1 : W (Proc.devRef .tc main_arg1) = x1)
    (a2 : W (Proc.devRef .tc main_arg2) = x2) (a3 : W (Proc.devRef .tc main_arg3) = x3) :
    after (opsC0 (F := F)) W (Proc.devRef .tc main_v31) = Stages.val_main_v31 (F := F) x0 x2 x3 := by
  after_results_simp
  rw [a0, a2, a3]
  rfl

end Cert.ReferenceIdeal.RefValue

end
-- ==== Proof.Ref.FoldC1.lean ====
/- The sixty-five operations of the first graph-convolution layer of the reference: the layer's weight slice, the product with it, the gather along the source nodes, the edge scaling, the scatter-add along the target nodes, the self term and the bias, the column mean and centred variance, the normalisation, scale and shift, and the maximum with zero. Their fold over any contents that hold the layer's input, the edge-derived arrays of the prologue and the four parameter arguments is the stage function of the layer's output. -/
import proofs.«147038_j12317966205319_1_alg».proof.Proof.Ref.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the first layer, in program order. -/
abbrev opsC1 : List (HloOp τ sig (Elt F)) :=
  [ unary main_arg4 main_v32 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v32 main_v33 rfl shapeCasts_S1x64x64_S64x64,
    binary main_v31 main_v33 main_v34 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v35 (broadcastInDim S1600000 ![] bcast_S_S1600000 : (⟨S_, .i32⟩ : BufTy).Contents (Elt F) → (⟨S1600000, .i32⟩ : BufTy).Contents (Elt F)),
    binary main_v1 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v37 (broadcastInDim S1600000 ![] bcast_S_S1600000 : (⟨S_, .i32⟩ : BufTy).Contents (Elt F) → (⟨S1600000, .i32⟩ : BufTy).Contents (Elt F)),
    binary main_v1 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_v1 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v34 main_v40 main_v41 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v26 main_v42 (broadcastInDim S1600000x1 ![0] bcast_S1600000_S1600000x1_0 : (⟨S1600000, .f32⟩ : BufTy).Contents (Elt F) → (⟨S1600000x1, .f32⟩ : BufTy).Contents (Elt F)),
    unary main_v42 main_v43 (broadcastInDim S1600000x64 ![0, 1] bcast_S1600000x1_S1600000x64_0_1 : (⟨S1600000x1, .f32⟩ : BufTy).Contents (Elt F) → (⟨S1600000x64, .f32⟩ : BufTy).Contents (Elt F)),
    binary main_v41 main_v43 main_v44 (mulf : (⟨S1600000x64, .f32⟩ : BufTy).Contents (Elt F) → (⟨S1600000x64, .f32⟩ : BufTy).Contents (Elt F) → (⟨S1600000x64, .f32⟩ : BufTy).Contents (Elt F)),
    nullary main_cst_8 (constant S_ .f32 0x00000000#32),
    unary main_cst_8 main_v45 (broadcastInDim S100000x64 ![] bcast_S_S100000x64 : (⟨S_, .f32⟩ : BufTy).Contents (Elt F) → (⟨S100000x64, .f32⟩ : BufTy).Contents (Elt F)),
    unary main_v3 main_v46 (broadcastInDim S1600000x1 ![0] bcast_S1600000_S1600000x1_0 : (⟨S1600000, .i32⟩ : BufTy).Contents (Elt F) → (⟨S1600000x1, .i32⟩ : BufTy).Contents (Elt F)),
    ternary main_v45 main_v46 main_v44 main_v47 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v27 main_v48 (broadcastInDim S100000x1 ![0] bcast_S100000_S100000x1_0 : (⟨S100000, .f32⟩ : BufTy).Contents (Elt F) → (⟨S100000x1, .f32⟩ : BufTy).Contents (Elt F)),
    unary main_v48 main_v49 (broadcastInDim S100000x64 ![0, 1] bcast_S100000x1_S100000x64_0_1 : (⟨S100000x1, .f32⟩ : BufTy).Contents (Elt F) → (⟨S100000x64, .f32⟩ : BufTy).Contents (Elt F)),
    binary main_v34 main_v49 main_v50 (mulf : (⟨S100000x64, .f32⟩ : BufTy).Contents (Elt F) → (⟨S100000x64, .f32⟩ : BufTy).Contents (Elt F) → (⟨S100000x64, .f32⟩ : BufTy).Contents (Elt F)),
    binary main_v47 main_v50 main_v51 (addf : (⟨S100000x64, .f32⟩ : BufTy).Contents (Elt F) → (⟨S100000x64, .f32⟩ : BufTy).Contents (Elt F) → (⟨S100000x64, .f32⟩ : BufTy).Contents (Elt F)),
    unary main_arg5 main_v52 ((extractStridedSlice S1x64 ![0, 0] · slices_S4x64_S1x64_0_0) : (⟨S4x64, .f32⟩ : BufTy).Contents (Elt F) → (⟨S1x64, .f32⟩ : BufTy).Contents (Elt F)),
    reshape main_v52 main_v53 rfl shapeCasts_S1x64_S64,
    unary main_v53 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v51 main_v55 main_v56 (addf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x00000000#32),
    binary main_v56 main_cst_9 main_v57 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v58 (broadcastInDim S64 ![] bcast_S_S64 : (⟨S_, .f32⟩ : BufTy).Contents (Elt F) → (⟨S64, .f32⟩ : BufTy).Contents (Elt F)),
    binary main_v57 main_v58 main_v59 (Host.divf : (⟨S64, .f32⟩ : BufTy).Contents (Elt F) → (⟨S64, .f32⟩ : BufTy).Contents (Elt F) → (⟨S64, .f32⟩ : BufTy).Contents (Elt F)),
    unary main_v59 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v56 main_v61 main_v62 (subf : (⟨S100000x64, .f32⟩ : BufTy).Contents (Elt F) → (⟨S100000x64, .f32⟩ : BufTy).Contents (Elt F) → (⟨S100000x64, .f32⟩ : BufTy).Contents (Elt F)),
    binary main_v62 main_v62 main_v63 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x00000000#32),
    binary main_v63 main_cst_11 main_v64 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v65 (broadcastInDim S64 ![] bcast_S_S64 : (⟨S_, .f32⟩ : BufTy).Contents (Elt F) → (⟨S64, .f32⟩ : BufTy).Contents (Elt F)),
    binary main_v64 main_v65 main_v66 (Host.divf : (⟨S64, .f32⟩ : BufTy).Contents (Elt F) → (⟨S64, .f32⟩ : BufTy).Contents (Elt F) → (⟨S64, .f32⟩ : BufTy).Contents (Elt F)),
    unary main_arg6 main_v67 ((extractStridedSlice S1x64 ![0, 0] · slices_S4x64_S1x64_0_0) : (⟨S4x64, .f32⟩ : BufTy).Contents (Elt F) → (⟨S1x64, .f32⟩ : BufTy).Contents (Elt F)),
    reshape main_v67 main_v68 rfl shapeCasts_S1x64_S64,
    unary main_v59 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v56 main_v70 main_v71 (subf : (⟨S100000x64, .f32⟩ : BufTy).Contents (Elt F) → (⟨S100000x64, .f32⟩ : BufTy).Contents (Elt F) → (⟨S100000x64, .f32⟩ : BufTy).Contents (Elt F)),
    unary main_v68 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v73 main_v71 main_v74 (mulf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v75 (broadcastInDim S64 ![] bcast_S_S64 : (⟨S_, .f32⟩ : BufTy).Contents (Elt F) → (⟨S64, .f32⟩ : BufTy).Contents (Elt F)),
    binary main_v66 main_v75 main_v76 (addf : (⟨S64, .f32⟩ : BufTy).Contents (Elt F) → (⟨S64, .f32⟩ : BufTy).Contents (Elt F) → (⟨S64, .f32⟩ : BufTy).Contents (Elt F)),
    unary main_v76 main_v77 (Host.rsqrt : (⟨S64, .f32⟩ : BufTy).Contents (Elt F) → (⟨S64, .f32⟩ : BufTy).Contents (Elt F)),
    unary main_v77 main_v78 (broadcastInDim S1x64 ![1] bcast_S64_S1x64_1 : (⟨S64, .f32⟩ : BufTy).Contents (Elt F) → (⟨S1x64, .f32⟩ : BufTy).Contents (Elt F)),
    unary main_v78 main_v79 (broadcastInDim S100000x64 ![0, 1] bcast_S1x64_S100000x64_0_1 : (⟨S1x64, .f32⟩ : BufTy).Contents (Elt F) → (⟨S100000x64, .f32⟩ : BufTy).Contents (Elt F)),
    binary main_v74 main_v79 main_v80 (mulf : (⟨S100000x64, .f32⟩ : BufTy).Contents (Elt F) → (⟨S100000x64, .f32⟩ : BufTy).Contents (Elt F) → (⟨S100000x64, .f32⟩ : BufTy).Contents (Elt F)),
    unary main_arg7 main_v81 ((extractStridedSlice S1x64 ![0, 0] · slices_S4x64_S1x64_0_0) : (⟨S4x64, .f32⟩ : BufTy).Contents (Elt F) → (⟨S1x64, .f32⟩ : BufTy).Contents (Elt F)),
    reshape main_v81 main_v82 rfl shapeCasts_S1x64_S64,
    unary main_v82 main_v83 (broadcastInDim S1x64 ![1] bcast_S64_S1x64_1 : (⟨S64, .f32⟩ : BufTy).Contents (Elt F) → (⟨S1x64, .f32⟩ : BufTy).Contents (Elt F)),
    unary main_v83 main_v84 (broadcastInDim S100000x64 ![0, 1] bcast_S1x64_S100000x64_0_1 : (⟨S1x64, .f32⟩ : BufTy).Contents (Elt F) → (⟨S100000x64, .f32⟩ : BufTy).Contents (Elt F)),
    binary main_v80 main_v84 main_v85 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v85) (TRef.of (T := ⟨S100000x64, .f32⟩) main_call0_v0) (TRef.of (T := ⟨S100000x64, .f32⟩) main_v86) maximumf ]

/-- The references that the operations of the first layer write, in order. -/
abbrev opsC1_W : List (Ref sig .tc) := [main_v32, main_v33, main_v34, main_c_6, main_v35, main_v36, main_c_7, main_v37, main_v38, main_v39, main_v40, main_v41, main_v42, main_v43, main_v44, main_cst_8, main_v45, main_v46, main_v47, main_v48, main_v49, main_v50, main_v51, main_v52, main_v53, main_v54, main_v55, main_v56, main_cst_9, main_v57, main_cst_10, main_v58, main_v59, main_v60, main_v61, main_v62, main_v63, main_cst_11, main_v64, main_cst_12, main_v65, main_v66, main_v67, main_v68, main_v69, main_v70, main_v71, main_v72, main_v73, main_v74, main_cst_13, main_v75, main_v76, main_v77, main_v78, main_v79, main_v80, main_v81, main_v82, main_v83, main_v84, main_v85, main_call0_cst, main_call0_v0, main_v86]

theorem opsC1_writes : (opsC1 : List (HloOp τ sig (Elt F))).Forall fun op => op.writes ⊆ (opsC1_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A reference none of them writes keeps its contents. -/
theorem opsC1_keep (V : Valuation τ sig (Elt F)) {r : Ref sig .tc} (h : r ∉ opsC1_W) :
    after (opsC1 (F := F)) V (Proc.devRef .tc r) = V (Proc.devRef .tc r) :=
  after_of_writes_sub opsC1 V opsC1_writes h

set_option maxHeartbeats 2000000 in
/-- The layer's output buffer after the layer, from contents holding the layer's input, the source and target node lists,
    the edge weights, the self weights and the parameter arguments. -/
theorem opsC1_v86 (x0 : (⟨S100000x32, .f32⟩ : BufTy).Contents (Elt F)) (x1 : (⟨S2x1600000, .i32⟩ : BufTy).Contents (Elt F)) (x2 : (⟨S32x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (W : Valuation τ sig (Elt F))
    (hin : W (Proc.devRef .tc main_v31) = Stages.val_main_v31 (F := F) x0 x2 x3)
    (hsrc : W (Proc.devRef .tc main_v1) = Stages.val_main_v1 (F := F) x1)
    (hdst : W (Proc.devRef .tc main_v3) = Stages.val_main_v3 (F := F) x1)
    (hnorm : W (Proc.devRef .tc main_v26) = Stages.val_main_v26 (F := F) x1)
    (hself : W (Proc.devRef .tc main_v27) = Stages.val_main_v27 (F := F) x1)
    (a4 : W (Proc.devRef .tc main_arg4) = x4) (a5 : W (Proc.devRef .tc main_arg5) = x5)
    (a6 : W (Proc.devRef .tc main_arg6) = x6) (a7 : W (Proc.devRef .tc main_arg7) = x7) :
    after (opsC1 (F := F)) W (Proc.devRef .tc main_v86) = Stages.val_main_v86 (F := F) x0 x1 x2 x3 x4 x5 x6 x7 := by
  after_results_simp
  simp only [TRef.ofBuf, TRef.toBuf, cast_eq]
  rw [hin, hsrc, hdst, hnorm, hself, a4, a5, a6, a7]
  rfl

end Cert.ReferenceIdeal.RefValue

end
-- ==== Proof.Ref.FoldC2.lean ====
/- The sixty-five operations of the second graph-convolution layer of the reference: the layer's weight slice, the product with it, the gather along the source nodes, the edge scaling, the scatter-add along the target nodes, the self term and the bias, the column mean and centred variance, the normalisation, scale and shift, and the maximum with zero. Their fold over any contents that hold the layer's input, the edge-derived arrays of the prologue and the four parameter arguments is the stage function of the layer's output. -/
import proofs.«147038_j12317966205319_1_alg».proof.Proof.Ref.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the second layer, in program order. -/
abbrev opsC2 : List (HloOp τ sig (Elt F)) :=
  [ unary main_arg4 main_v87 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v87 main_v88 rfl shapeCasts_S1x64x64_S64x64,
    binary main_v86 main_v88 main_v89 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_14 (constantI S_ 32 0#32),
    unary main_c_14 main_v90 (broadcastInDim S1600000 ![] bcast_S_S1600000 : (⟨S_, .i32⟩ : BufTy).Contents (Elt F) → (⟨S1600000, .i32⟩ : BufTy).Contents (Elt F)),
    binary main_v1 main_v90 main_v91 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v92 (broadcastInDim S1600000 ![] bcast_S_S1600000 : (⟨S_, .i32⟩ : BufTy).Contents (Elt F) → (⟨S1600000, .i32⟩ : BufTy).Contents (Elt F)),
    binary main_v1 main_v92 main_v93 (addi : (⟨S1600000, .i32⟩ : BufTy).Contents (Elt F) → (⟨S1600000, .i32⟩ : BufTy).Contents (Elt F) → (⟨S1600000, .i32⟩ : BufTy).Contents (Elt F)),
    ternary main_v91 main_v93 main_v1 main_v94 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v94 main_v95 (broadcastInDim S1600000x1 ![0] bcast_S1600000_S1600000x1_0 : (⟨S1600000, .i32⟩ : BufTy).Contents (Elt F) → (⟨S1600000x1, .i32⟩ : BufTy).Contents (Elt F)),
    binary main_v89 main_v95 main_v96 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v26 main_v97 (broadcastInDim S1600000x1 ![0] bcast_S1600000_S1600000x1_0 : (⟨S1600000, .f32⟩ : BufTy).Contents (Elt F) → (⟨S1600000x1, .f32⟩ : BufTy).Contents (Elt F)),
    unary main_v97 main_v98 (broadcastInDim S1600000x64 ![0, 1] bcast_S1600000x1_S1600000x64_0_1 : (⟨S1600000x1, .f32⟩ : BufTy).Contents (Elt F) → (⟨S1600000x64, .f32⟩ : BufTy).Contents (Elt F)),
    binary main_v96 main_v98 main_v99 (mulf : (⟨S1600000x64, .f32⟩ : BufTy).Contents (Elt F) → (⟨S1600000x64, .f32⟩ : BufTy).Contents (Elt F) → (⟨S1600000x64, .f32⟩ : BufTy).Contents (Elt F)),
    nullary main_cst_16 (constant S_ .f32 0x00000000#32),
    unary main_cst_16 main_v100 (broadcastInDim S100000x64 ![] bcast_S_S100000x64 : (⟨S_, .f32⟩ : BufTy).Contents (Elt F) → (⟨S100000x64, .f32⟩ : BufTy).Contents (Elt F)),
    unary main_v3 main_v101 (broadcastInDim S1600000x1 ![0] bcast_S1600000_S1600000x1_0 : (⟨S1600000, .i32⟩ : BufTy).Contents (Elt F) → (⟨S1600000x1, .i32⟩ : BufTy).Contents (Elt F)),
    ternary main_v100 main_v101 main_v99 main_v102 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v27 main_v103 (broadcastInDim S100000x1 ![0] bcast_S100000_S100000x1_0 : (⟨S100000, .f32⟩ : BufTy).Contents (Elt F) → (⟨S100000x1, .f32⟩ : BufTy).Contents (Elt F)),
    unary main_v103 main_v104 (broadcastInDim S100000x64 ![0, 1] bcast_S100000x1_S100000x64_0_1 : (⟨S100000x1, .f32⟩ : BufTy).Contents (Elt F) → (⟨S100000x64, .f32⟩ : BufTy).Contents (Elt F)),
    binary main_v89 main_v104 main_v105 (mulf : (⟨S100000x64, .f32⟩ : BufTy).Contents (Elt F) → (⟨S100000x64, .f32⟩ : BufTy).Contents (Elt F) → (⟨S100000x64, .f32⟩ : BufTy).Contents (Elt F)),
    binary main_v102 main_v105 main_v106 (addf : (⟨S100000x64, .f32⟩ : BufTy).Contents (Elt F) → (⟨S100000x64, .f32⟩ : BufTy).Contents (Elt F) → (⟨S100000x64, .f32⟩ : BufTy).Contents (Elt F)),
    unary main_arg5 main_v107 ((extractStridedSlice S1x64 ![1, 0] · slices_S4x64_S1x64_1_0) : (⟨S4x64, .f32⟩ : BufTy).Contents (Elt F) → (⟨S1x64, .f32⟩ : BufTy).Contents (Elt F)),
    reshape main_v107 main_v108 rfl shapeCasts_S1x64_S64,
    unary main_v108 main_v109 (broadcastInDim S1x64 ![1] bcast_S64_S1x64_1 : (⟨S64, .f32⟩ : BufTy).Contents (Elt F) → (⟨S1x64, .f32⟩ : BufTy).Contents (Elt F)),
    unary main_v109 main_v110 (broadcastInDim S100000x64 ![0, 1] bcast_S1x64_S100000x64_0_1 : (⟨S1x64, .f32⟩ : BufTy).Contents (Elt F) → (⟨S100000x64, .f32⟩ : BufTy).Contents (Elt F)),
    binary main_v106 main_v110 main_v111 (addf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    binary main_v111 main_cst_17 main_v112 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v113 (broadcastInDim S64 ![] bcast_S_S64 : (⟨S_, .f32⟩ : BufTy).Contents (Elt F) → (⟨S64, .f32⟩ : BufTy).Contents (Elt F)),
    binary main_v112 main_v113 main_v114 (Host.divf : (⟨S64, .f32⟩ : BufTy).Contents (Elt F) → (⟨S64, .f32⟩ : BufTy).Contents (Elt F) → (⟨S64, .f32⟩ : BufTy).Contents (Elt F)),
    unary main_v114 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v111 main_v116 main_v117 (subf : (⟨S100000x64, .f32⟩ : BufTy).Contents (Elt F) → (⟨S100000x64, .f32⟩ : BufTy).Contents (Elt F) → (⟨S100000x64, .f32⟩ : BufTy).Contents (Elt F)),
    binary main_v117 main_v117 main_v118 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x00000000#32),
    binary main_v118 main_cst_19 main_v119 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_20 (constant S_ .f32 0x47C35000#32),
    unary main_cst_20 main_v120 (broadcastInDim S64 ![] bcast_S_S64 : (⟨S_, .f32⟩ : BufTy).Contents (Elt F) → (⟨S64, .f32⟩ : BufTy).Contents (Elt F)),
    binary main_v119 main_v120 main_v121 (Host.divf : (⟨S64, .f32⟩ : BufTy).Contents (Elt F) → (⟨S64, .f32⟩ : BufTy).Contents (Elt F) → (⟨S64, .f32⟩ : BufTy).Contents (Elt F)),
    unary main_arg6 main_v122 ((extractStridedSlice S1x64 ![1, 0] · slices_S4x64_S1x64_1_0) : (⟨S4x64, .f32⟩ : BufTy).Contents (Elt F) → (⟨S1x64, .f32⟩ : BufTy).Contents (Elt F)),
    reshape main_v122 main_v123 rfl shapeCasts_S1x64_S64,
    unary main_v114 main_v124 (broadcastInDim S1x64 ![1] bcast_S64_S1x64_1 : (⟨S64, .f32⟩ : BufTy).Contents (Elt F) → (⟨S1x64, .f32⟩ : BufTy).Contents (Elt F)),
    unary main_v124 main_v125 (broadcastInDim S100000x64 ![0, 1] bcast_S1x64_S100000x64_0_1 : (⟨S1x64, .f32⟩ : BufTy).Contents (Elt F) → (⟨S100000x64, .f32⟩ : BufTy).Contents (Elt F)),
    binary main_v111 main_v125 main_v126 (subf : (⟨S100000x64, .f32⟩ : BufTy).Contents (Elt F) → (⟨S100000x64, .f32⟩ : BufTy).Contents (Elt F) → (⟨S100000x64, .f32⟩ : BufTy).Contents (Elt F)),
    unary main_v123 main_v127 (broadcastInDim S1x64 ![1] bcast_S64_S1x64_1 : (⟨S64, .f32⟩ : BufTy).Contents (Elt F) → (⟨S1x64, .f32⟩ : BufTy).Contents (Elt F)),
    unary main_v127 main_v128 (broadcastInDim S100000x64 ![0, 1] bcast_S1x64_S100000x64_0_1 : (⟨S1x64, .f32⟩ : BufTy).Contents (Elt F) → (⟨S100000x64, .f32⟩ : BufTy).Contents (Elt F)),
    binary main_v128 main_v126 main_v129 (mulf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3727C5AC#32),
    unary main_cst_21 main_v130 (broadcastInDim S64 ![] bcast_S_S64 : (⟨S_, .f32⟩ : BufTy).Contents (Elt F) → (⟨S64, .f32⟩ : BufTy).Contents (Elt F)),
    binary main_v121 main_v130 main_v131 (addf : (⟨S64, .f32⟩ : BufTy).Contents (Elt F) → (⟨S64, .f32⟩ : BufTy).Contents (Elt F) → (⟨S64, .f32⟩ : BufTy).Contents (Elt F)),
    unary main_v131 main_v132 (Host.rsqrt : (⟨S64, .f32⟩ : BufTy).Contents (Elt F) → (⟨S64, .f32⟩ : BufTy).Contents (Elt F)),
    unary main_v132 main_v133 (broadcastInDim S1x64 ![1] bcast_S64_S1x64_1 : (⟨S64, .f32⟩ : BufTy).Contents (Elt F) → (⟨S1x64, .f32⟩ : BufTy).Contents (Elt F)),
    unary main_v133 main_v134 (broadcastInDim S100000x64 ![0, 1] bcast_S1x64_S100000x64_0_1 : (⟨S1x64, .f32⟩ : BufTy).Contents (Elt F) → (⟨S100000x64, .f32⟩ : BufTy).Contents (Elt F)),
    binary main_v129 main_v134 main_v135 (mulf : (⟨S100000x64, .f32⟩ : BufTy).Contents (Elt F) → (⟨S100000x64, .f32⟩ : BufTy).Contents (Elt F) → (⟨S100000x64, .f32⟩ : BufTy).Contents (Elt F)),
    unary main_arg7 main_v136 ((extractStridedSlice S1x64 ![1, 0] · slices_S4x64_S1x64_1_0) : (⟨S4x64, .f32⟩ : BufTy).Contents (Elt F) → (⟨S1x64, .f32⟩ : BufTy).Contents (Elt F)),
    reshape main_v136 main_v137 rfl shapeCasts_S1x64_S64,
    unary main_v137 main_v138 (broadcastInDim S1x64 ![1] bcast_S64_S1x64_1 : (⟨S64, .f32⟩ : BufTy).Contents (Elt F) → (⟨S1x64, .f32⟩ : BufTy).Contents (Elt F)),
    unary main_v138 main_v139 (broadcastInDim S100000x64 ![0, 1] bcast_S1x64_S100000x64_0_1 : (⟨S1x64, .f32⟩ : BufTy).Contents (Elt F) → (⟨S100000x64, .f32⟩ : BufTy).Contents (Elt F)),
    binary main_v135 main_v139 main_v140 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v140) (TRef.of (T := ⟨S100000x64, .f32⟩) main_call1_v0) (TRef.of (T := ⟨S100000x64, .f32⟩) main_v141) maximumf ]

/-- The references that the operations of the second layer write, in order. -/
abbrev opsC2_W : List (Ref sig .tc) := [main_v87, main_v88, main_v89, main_c_14, main_v90, main_v91, main_c_15, main_v92, main_v93, main_v94, main_v95, main_v96, main_v97, main_v98, main_v99, main_cst_16, main_v100, main_v101, main_v102, main_v103, main_v104, main_v105, main_v106, main_v107, main_v108, main_v109, main_v110, main_v111, main_cst_17, main_v112, main_cst_18, main_v113, main_v114, main_v115, main_v116, main_v117, main_v118, main_cst_19, main_v119, main_cst_20, main_v120, main_v121, main_v122, main_v123, main_v124, main_v125, main_v126, main_v127, main_v128, main_v129, main_cst_21, main_v130, main_v131, main_v132, main_v133, main_v134, main_v135, main_v136, main_v137, main_v138, main_v139, main_v140, main_call1_cst, main_call1_v0, main_v141]

theorem opsC2_writes : (opsC2 : List (HloOp τ sig (Elt F))).Forall fun op => op.writes ⊆ (opsC2_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A reference none of them writes keeps its contents. -/
theorem opsC2_keep (V : Valuation τ sig (Elt F)) {r : Ref sig .tc} (h : r ∉ opsC2_W) :
    after (opsC2 (F := F)) V (Proc.devRef .tc r) = V (Proc.devRef .tc r) :=
  after_of_writes_sub opsC2 V opsC2_writes h

set_option maxHeartbeats 2000000 in
/-- The layer's output buffer after the layer, from contents holding the layer's input, the source and target node lists,
    the edge weights, the self weights and the parameter arguments. -/
theorem opsC2_v141 (x0 : (⟨S100000x32, .f32⟩ : BufTy).Contents (Elt F)) (x1 : (⟨S2x1600000, .i32⟩ : BufTy).Contents (Elt F)) (x2 : (⟨S32x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (W : Valuation τ sig (Elt F))
    (hin : W (Proc.devRef .tc main_v86) = Stages.val_main_v86 (F := F) x0 x1 x2 x3 x4 x5 x6 x7)
    (hsrc : W (Proc.devRef .tc main_v1) = Stages.val_main_v1 (F := F) x1)
    (hdst : W (Proc.devRef .tc main_v3) = Stages.val_main_v3 (F := F) x1)
    (hnorm : W (Proc.devRef .tc main_v26) = Stages.val_main_v26 (F := F) x1)
    (hself : W (Proc.devRef .tc main_v27) = Stages.val_main_v27 (F := F) x1)
    (a4 : W (Proc.devRef .tc main_arg4) = x4) (a5 : W (Proc.devRef .tc main_arg5) = x5)
    (a6 : W (Proc.devRef .tc main_arg6) = x6) (a7 : W (Proc.devRef .tc main_arg7) = x7) :
    after (opsC2 (F := F)) W (Proc.devRef .tc main_v141) = Stages.val_main_v141 (F := F) x0 x1 x2 x3 x4 x5 x6 x7 := by
  after_results_simp
  simp only [TRef.ofBuf, TRef.toBuf, cast_eq]
  rw [hin, hsrc, hdst, hnorm, hself, a4, a5, a6, a7]
  rfl

end Cert.ReferenceIdeal.RefValue

end
-- ==== Proof.Ref.FoldC3.lean ====
/- The sixty-five operations of the third graph-convolution layer of the reference: the layer's weight slice, the product with it, the gather along the source nodes, the edge scaling, the scatter-add along the target nodes, the self term and the bias, the column mean and centred variance, the normalisation, scale and shift, and the maximum with zero. Their fold over any contents that hold the layer's input, the edge-derived arrays of the prologue and the four parameter arguments is the stage function of the layer's output. -/
import proofs.«147038_j12317966205319_1_alg».proof.Proof.Ref.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the third layer, in program order. -/
abbrev opsC3 : List (HloOp τ sig (Elt F)) :=
  [ unary main_arg4 main_v142 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v142 main_v143 rfl shapeCasts_S1x64x64_S64x64,
    binary main_v141 main_v143 main_v144 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_22 (constantI S_ 32 0#32),
    unary main_c_22 main_v145 (broadcastInDim S1600000 ![] bcast_S_S1600000 : (⟨S_, .i32⟩ : BufTy).Contents (Elt F) → (⟨S1600000, .i32⟩ : BufTy).Contents (Elt F)),
    binary main_v1 main_v145 main_v146 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v147 (broadcastInDim S1600000 ![] bcast_S_S1600000 : (⟨S_, .i32⟩ : BufTy).Contents (Elt F) → (⟨S1600000, .i32⟩ : BufTy).Contents (Elt F)),
    binary main_v1 main_v147 main_v148 (addi : (⟨S1600000, .i32⟩ : BufTy).Contents (Elt F) → (⟨S1600000, .i32⟩ : BufTy).Contents (Elt F) → (⟨S1600000, .i32⟩ : BufTy).Contents (Elt F)),
    ternary main_v146 main_v148 main_v1 main_v149 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v149 main_v150 (broadcastInDim S1600000x1 ![0] bcast_S1600000_S1600000x1_0 : (⟨S1600000, .i32⟩ : BufTy).Contents (Elt F) → (⟨S1600000x1, .i32⟩ : BufTy).Contents (Elt F)),
    binary main_v144 main_v150 main_v151 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v26 main_v152 (broadcastInDim S1600000x1 ![0] bcast_S1600000_S1600000x1_0 : (⟨S1600000, .f32⟩ : BufTy).Contents (Elt F) → (⟨S1600000x1, .f32⟩ : BufTy).Contents (Elt F)),
    unary main_v152 main_v153 (broadcastInDim S1600000x64 ![0, 1] bcast_S1600000x1_S1600000x64_0_1 : (⟨S1600000x1, .f32⟩ : BufTy).Contents (Elt F) → (⟨S1600000x64, .f32⟩ : BufTy).Contents (Elt F)),
    binary main_v151 main_v153 main_v154 (mulf : (⟨S1600000x64, .f32⟩ : BufTy).Contents (Elt F) → (⟨S1600000x64, .f32⟩ : BufTy).Contents (Elt F) → (⟨S1600000x64, .f32⟩ : BufTy).Contents (Elt F)),
    nullary main_cst_24 (constant S_ .f32 0x00000000#32),
    unary main_cst_24 main_v155 (broadcastInDim S100000x64 ![] bcast_S_S100000x64 : (⟨S_, .f32⟩ : BufTy).Contents (Elt F) → (⟨S100000x64, .f32⟩ : BufTy).Contents (Elt F)),
    unary main_v3 main_v156 (broadcastInDim S1600000x1 ![0] bcast_S1600000_S1600000x1_0 : (⟨S1600000, .i32⟩ : BufTy).Contents (Elt F) → (⟨S1600000x1, .i32⟩ : BufTy).Contents (Elt F)),
    ternary main_v155 main_v156 main_v154 main_v157 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v27 main_v158 (broadcastInDim S100000x1 ![0] bcast_S100000_S100000x1_0 : (⟨S100000, .f32⟩ : BufTy).Contents (Elt F) → (⟨S100000x1, .f32⟩ : BufTy).Contents (Elt F)),
    unary main_v158 main_v159 (broadcastInDim S100000x64 ![0, 1] bcast_S100000x1_S100000x64_0_1 : (⟨S100000x1, .f32⟩ : BufTy).Contents (Elt F) → (⟨S100000x64, .f32⟩ : BufTy).Contents (Elt F)),
    binary main_v144 main_v159 main_v160 (mulf : (⟨S100000x64, .f32⟩ : BufTy).Contents (Elt F) → (⟨S100000x64, .f32⟩ : BufTy).Contents (Elt F) → (⟨S100000x64, .f32⟩ : BufTy).Contents (Elt F)),
    binary main_v157 main_v160 main_v161 (addf : (⟨S100000x64, .f32⟩ : BufTy).Contents (Elt F) → (⟨S100000x64, .f32⟩ : BufTy).Contents (Elt F) → (⟨S100000x64, .f32⟩ : BufTy).Contents (Elt F)),
    unary main_arg5 main_v162 ((extractStridedSlice S1x64 ![2, 0] · slices_S4x64_S1x64_2_0) : (⟨S4x64, .f32⟩ : BufTy).Contents (Elt F) → (⟨S1x64, .f32⟩ : BufTy).Contents (Elt F)),
    reshape main_v162 main_v163 rfl shapeCasts_S1x64_S64,
    unary main_v163 main_v164 (broadcastInDim S1x64 ![1] bcast_S64_S1x64_1 : (⟨S64, .f32⟩ : BufTy).Contents (Elt F) → (⟨S1x64, .f32⟩ : BufTy).Contents (Elt F)),
    unary main_v164 main_v165 (broadcastInDim S100000x64 ![0, 1] bcast_S1x64_S100000x64_0_1 : (⟨S1x64, .f32⟩ : BufTy).Contents (Elt F) → (⟨S100000x64, .f32⟩ : BufTy).Contents (Elt F)),
    binary main_v161 main_v165 main_v166 (addf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x00000000#32),
    binary main_v166 main_cst_25 main_v167 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_26 (constant S_ .f32 0x47C35000#32),
    unary main_cst_26 main_v168 (broadcastInDim S64 ![] bcast_S_S64 : (⟨S_, .f32⟩ : BufTy).Contents (Elt F) → (⟨S64, .f32⟩ : BufTy).Contents (Elt F)),
    binary main_v167 main_v168 main_v169 (Host.divf : (⟨S64, .f32⟩ : BufTy).Contents (Elt F) → (⟨S64, .f32⟩ : BufTy).Contents (Elt F) → (⟨S64, .f32⟩ : BufTy).Contents (Elt F)),
    unary main_v169 main_v170 (broadcastInDim S1x64 ![1] bcast_S64_S1x64_1 : (⟨S64, .f32⟩ : BufTy).Contents (Elt F) → (⟨S1x64, .f32⟩ : BufTy).Contents (Elt F)),
    unary main_v170 main_v171 (broadcastInDim S100000x64 ![0, 1] bcast_S1x64_S100000x64_0_1 : (⟨S1x64, .f32⟩ : BufTy).Contents (Elt F) → (⟨S100000x64, .f32⟩ : BufTy).Contents (Elt F)),
    binary main_v166 main_v171 main_v172 (subf : (⟨S100000x64, .f32⟩ : BufTy).Contents (Elt F) → (⟨S100000x64, .f32⟩ : BufTy).Contents (Elt F) → (⟨S100000x64, .f32⟩ : BufTy).Contents (Elt F)),
    binary main_v172 main_v172 main_v173 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x00000000#32),
    binary main_v173 main_cst_27 main_v174 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_28 (constant S_ .f32 0x47C35000#32),
    unary main_cst_28 main_v175 (broadcastInDim S64 ![] bcast_S_S64 : (⟨S_, .f32⟩ : BufTy).Contents (Elt F) → (⟨S64, .f32⟩ : BufTy).Contents (Elt F)),
    binary main_v174 main_v175 main_v176 (Host.divf : (⟨S64, .f32⟩ : BufTy).Contents (Elt F) → (⟨S64, .f32⟩ : BufTy).Contents (Elt F) → (⟨S64, .f32⟩ : BufTy).Contents (Elt F)),
    unary main_arg6 main_v177 ((extractStridedSlice S1x64 ![2, 0] · slices_S4x64_S1x64_2_0) : (⟨S4x64, .f32⟩ : BufTy).Contents (Elt F) → (⟨S1x64, .f32⟩ : BufTy).Contents (Elt F)),
    reshape main_v177 main_v178 rfl shapeCasts_S1x64_S64,
    unary main_v169 main_v179 (broadcastInDim S1x64 ![1] bcast_S64_S1x64_1 : (⟨S64, .f32⟩ : BufTy).Contents (Elt F) → (⟨S1x64, .f32⟩ : BufTy).Contents (Elt F)),
    unary main_v179 main_v180 (broadcastInDim S100000x64 ![0, 1] bcast_S1x64_S100000x64_0_1 : (⟨S1x64, .f32⟩ : BufTy).Contents (Elt F) → (⟨S100000x64, .f32⟩ : BufTy).Contents (Elt F)),
    binary main_v166 main_v180 main_v181 (subf : (⟨S100000x64, .f32⟩ : BufTy).Contents (Elt F) → (⟨S100000x64, .f32⟩ : BufTy).Contents (Elt F) → (⟨S100000x64, .f32⟩ : BufTy).Contents (Elt F)),
    unary main_v178 main_v182 (broadcastInDim S1x64 ![1] bcast_S64_S1x64_1 : (⟨S64, .f32⟩ : BufTy).Contents (Elt F) → (⟨S1x64, .f32⟩ : BufTy).Contents (Elt F)),
    unary main_v182 main_v183 (broadcastInDim S100000x64 ![0, 1] bcast_S1x64_S100000x64_0_1 : (⟨S1x64, .f32⟩ : BufTy).Contents (Elt F) → (⟨S100000x64, .f32⟩ : BufTy).Contents (Elt F)),
    binary main_v183 main_v181 main_v184 (mulf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x3727C5AC#32),
    unary main_cst_29 main_v185 (broadcastInDim S64 ![] bcast_S_S64 : (⟨S_, .f32⟩ : BufTy).Contents (Elt F) → (⟨S64, .f32⟩ : BufTy).Contents (Elt F)),
    binary main_v176 main_v185 main_v186 (addf : (⟨S64, .f32⟩ : BufTy).Contents (Elt F) → (⟨S64, .f32⟩ : BufTy).Contents (Elt F) → (⟨S64, .f32⟩ : BufTy).Contents (Elt F)),
    unary main_v186 main_v187 (Host.rsqrt : (⟨S64, .f32⟩ : BufTy).Contents (Elt F) → (⟨S64, .f32⟩ : BufTy).Contents (Elt F)),
    unary main_v187 main_v188 (broadcastInDim S1x64 ![1] bcast_S64_S1x64_1 : (⟨S64, .f32⟩ : BufTy).Contents (Elt F) → (⟨S1x64, .f32⟩ : BufTy).Contents (Elt F)),
    unary main_v188 main_v189 (broadcastInDim S100000x64 ![0, 1] bcast_S1x64_S100000x64_0_1 : (⟨S1x64, .f32⟩ : BufTy).Contents (Elt F) → (⟨S100000x64, .f32⟩ : BufTy).Contents (Elt F)),
    binary main_v184 main_v189 main_v190 (mulf : (⟨S100000x64, .f32⟩ : BufTy).Contents (Elt F) → (⟨S100000x64, .f32⟩ : BufTy).Contents (Elt F) → (⟨S100000x64, .f32⟩ : BufTy).Contents (Elt F)),
    unary main_arg7 main_v191 ((extractStridedSlice S1x64 ![2, 0] · slices_S4x64_S1x64_2_0) : (⟨S4x64, .f32⟩ : BufTy).Contents (Elt F) → (⟨S1x64, .f32⟩ : BufTy).Contents (Elt F)),
    reshape main_v191 main_v192 rfl shapeCasts_S1x64_S64,
    unary main_v192 main_v193 (broadcastInDim S1x64 ![1] bcast_S64_S1x64_1 : (⟨S64, .f32⟩ : BufTy).Contents (Elt F) → (⟨S1x64, .f32⟩ : BufTy).Contents (Elt F)),
    unary main_v193 main_v194 (broadcastInDim S100000x64 ![0, 1] bcast_S1x64_S100000x64_0_1 : (⟨S1x64, .f32⟩ : BufTy).Contents (Elt F) → (⟨S100000x64, .f32⟩ : BufTy).Contents (Elt F)),
    binary main_v190 main_v194 main_v195 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v195) (TRef.of (T := ⟨S100000x64, .f32⟩) main_call2_v0) (TRef.of (T := ⟨S100000x64, .f32⟩) main_v196) maximumf ]

/-- The references that the operations of the third layer write, in order. -/
abbrev opsC3_W : List (Ref sig .tc) := [main_v142, main_v143, main_v144, main_c_22, main_v145, main_v146, main_c_23, main_v147, main_v148, main_v149, main_v150, main_v151, main_v152, main_v153, main_v154, main_cst_24, main_v155, main_v156, main_v157, main_v158, main_v159, main_v160, main_v161, main_v162, main_v163, main_v164, main_v165, main_v166, main_cst_25, main_v167, main_cst_26, main_v168, main_v169, main_v170, main_v171, main_v172, main_v173, main_cst_27, main_v174, main_cst_28, main_v175, main_v176, main_v177, main_v178, main_v179, main_v180, main_v181, main_v182, main_v183, main_v184, main_cst_29, main_v185, main_v186, main_v187, main_v188, main_v189, main_v190, main_v191, main_v192, main_v193, main_v194, main_v195, main_call2_cst, main_call2_v0, main_v196]

theorem opsC3_writes : (opsC3 : List (HloOp τ sig (Elt F))).Forall fun op => op.writes ⊆ (opsC3_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A reference none of them writes keeps its contents. -/
theorem opsC3_keep (V : Valuation τ sig (Elt F)) {r : Ref sig .tc} (h : r ∉ opsC3_W) :
    after (opsC3 (F := F)) V (Proc.devRef .tc r) = V (Proc.devRef .tc r) :=
  after_of_writes_sub opsC3 V opsC3_writes h

set_option maxHeartbeats 2000000 in
/-- The layer's output buffer after the layer, from contents holding the layer's input, the source and target node lists,
    the edge weights, the self weights and the parameter arguments. -/
theorem opsC3_v196 (x0 : (⟨S100000x32, .f32⟩ : BufTy).Contents (Elt F)) (x1 : (⟨S2x1600000, .i32⟩ : BufTy).Contents (Elt F)) (x2 : (⟨S32x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (W : Valuation τ sig (Elt F))
    (hin : W (Proc.devRef .tc main_v141) = Stages.val_main_v141 (F := F) x0 x1 x2 x3 x4 x5 x6 x7)
    (hsrc : W (Proc.devRef .tc main_v1) = Stages.val_main_v1 (F := F) x1)
    (hdst : W (Proc.devRef .tc main_v3) = Stages.val_main_v3 (F := F) x1)
    (hnorm : W (Proc.devRef .tc main_v26) = Stages.val_main_v26 (F := F) x1)
    (hself : W (Proc.devRef .tc main_v27) = Stages.val_main_v27 (F := F) x1)
    (a4 : W (Proc.devRef .tc main_arg4) = x4) (a5 : W (Proc.devRef .tc main_arg5) = x5)
    (a6 : W (Proc.devRef .tc main_arg6) = x6) (a7 : W (Proc.devRef .tc main_arg7) = x7) :
    after (opsC3 (F := F)) W (Proc.devRef .tc main_v196) = Stages.val_main_v196 (F := F) x0 x1 x2 x3 x4 x5 x6 x7 := by
  after_results_simp
  simp only [TRef.ofBuf, TRef.toBuf, cast_eq]
  rw [hin, hsrc, hdst, hnorm, hself, a4, a5, a6, a7]
  rfl

end Cert.ReferenceIdeal.RefValue

end
-- ==== Proof.Ref.FoldC4.lean ====
/- The sixty-five operations of the fourth graph-convolution layer of the reference: the layer's weight slice, the product with it, the gather along the source nodes, the edge scaling, the scatter-add along the target nodes, the self term and the bias, the column mean and centred variance, the normalisation, scale and shift, and the maximum with zero. Their fold over any contents that hold the layer's input, the edge-derived arrays of the prologue and the four parameter arguments is the stage function of the layer's output. -/
import proofs.«147038_j12317966205319_1_alg».proof.Proof.Ref.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the fourth layer, in program order. -/
abbrev opsC4 : List (HloOp τ sig (Elt F)) :=
  [ unary main_arg4 main_v197 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v197 main_v198 rfl shapeCasts_S1x64x64_S64x64,
    binary main_v196 main_v198 main_v199 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_30 (constantI S_ 32 0#32),
    unary main_c_30 main_v200 (broadcastInDim S1600000 ![] bcast_S_S1600000 : (⟨S_, .i32⟩ : BufTy).Contents (Elt F) → (⟨S1600000, .i32⟩ : BufTy).Contents (Elt F)),
    binary main_v1 main_v200 main_v201 (cmpi .slt : (⟨S1600000, .i32⟩ : BufTy).Contents (Elt F) → (⟨S1600000, .i32⟩ : BufTy).Contents (Elt F) → (⟨S1600000, .i1⟩ : BufTy).Contents (Elt F)),
    nullary main_c_31 (constantI S_ 32 100000#32),
    unary main_c_31 main_v202 (broadcastInDim S1600000 ![] bcast_S_S1600000 : (⟨S_, .i32⟩ : BufTy).Contents (Elt F) → (⟨S1600000, .i32⟩ : BufTy).Contents (Elt F)),
    binary main_v1 main_v202 main_v203 (addi : (⟨S1600000, .i32⟩ : BufTy).Contents (Elt F) → (⟨S1600000, .i32⟩ : BufTy).Contents (Elt F) → (⟨S1600000, .i32⟩ : BufTy).Contents (Elt F)),
    ternary main_v201 main_v203 main_v1 main_v204 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v204 main_v205 (broadcastInDim S1600000x1 ![0] bcast_S1600000_S1600000x1_0 : (⟨S1600000, .i32⟩ : BufTy).Contents (Elt F) → (⟨S1600000x1, .i32⟩ : BufTy).Contents (Elt F)),
    binary main_v199 main_v205 main_v206 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v26 main_v207 (broadcastInDim S1600000x1 ![0] bcast_S1600000_S1600000x1_0 : (⟨S1600000, .f32⟩ : BufTy).Contents (Elt F) → (⟨S1600000x1, .f32⟩ : BufTy).Contents (Elt F)),
    unary main_v207 main_v208 (broadcastInDim S1600000x64 ![0, 1] bcast_S1600000x1_S1600000x64_0_1 : (⟨S1600000x1, .f32⟩ : BufTy).Contents (Elt F) → (⟨S1600000x64, .f32⟩ : BufTy).Contents (Elt F)),
    binary main_v206 main_v208 main_v209 (mulf : (⟨S1600000x64, .f32⟩ : BufTy).Contents (Elt F) → (⟨S1600000x64, .f32⟩ : BufTy).Contents (Elt F) → (⟨S1600000x64, .f32⟩ : BufTy).Contents (Elt F)),
    nullary main_cst_32 (constant S_ .f32 0x00000000#32),
    unary main_cst_32 main_v210 (broadcastInDim S100000x64 ![] bcast_S_S100000x64 : (⟨S_, .f32⟩ : BufTy).Contents (Elt F) → (⟨S100000x64, .f32⟩ : BufTy).Contents (Elt F)),
    unary main_v3 main_v211 (broadcastInDim S1600000x1 ![0] bcast_S1600000_S1600000x1_0 : (⟨S1600000, .i32⟩ : BufTy).Contents (Elt F) → (⟨S1600000x1, .i32⟩ : BufTy).Contents (Elt F)),
    ternary main_v210 main_v211 main_v209 main_v212 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v27 main_v213 (broadcastInDim S100000x1 ![0] bcast_S100000_S100000x1_0 : (⟨S100000, .f32⟩ : BufTy).Contents (Elt F) → (⟨S100000x1, .f32⟩ : BufTy).Contents (Elt F)),
    unary main_v213 main_v214 (broadcastInDim S100000x64 ![0, 1] bcast_S100000x1_S100000x64_0_1 : (⟨S100000x1, .f32⟩ : BufTy).Contents (Elt F) → (⟨S100000x64, .f32⟩ : BufTy).Contents (Elt F)),
    binary main_v199 main_v214 main_v215 (mulf : (⟨S100000x64, .f32⟩ : BufTy).Contents (Elt F) → (⟨S100000x64, .f32⟩ : BufTy).Contents (Elt F) → (⟨S100000x64, .f32⟩ : BufTy).Contents (Elt F)),
    binary main_v212 main_v215 main_v216 (addf : (⟨S100000x64, .f32⟩ : BufTy).Contents (Elt F) → (⟨S100000x64, .f32⟩ : BufTy).Contents (Elt F) → (⟨S100000x64, .f32⟩ : BufTy).Contents (Elt F)),
    unary main_arg5 main_v217 ((extractStridedSlice S1x64 ![3, 0] · slices_S4x64_S1x64_3_0) : (⟨S4x64, .f32⟩ : BufTy).Contents (Elt F) → (⟨S1x64, .f32⟩ : BufTy).Contents (Elt F)),
    reshape main_v217 main_v218 rfl shapeCasts_S1x64_S64,
    unary main_v218 main_v219 (broadcastInDim S1x64 ![1] bcast_S64_S1x64_1 : (⟨S64, .f32⟩ : BufTy).Contents (Elt F) → (⟨S1x64, .f32⟩ : BufTy).Contents (Elt F)),
    unary main_v219 main_v220 (broadcastInDim S100000x64 ![0, 1] bcast_S1x64_S100000x64_0_1 : (⟨S1x64, .f32⟩ : BufTy).Contents (Elt F) → (⟨S100000x64, .f32⟩ : BufTy).Contents (Elt F)),
    binary main_v216 main_v220 main_v221 (addf : (⟨S100000x64, .f32⟩ : BufTy).Contents (Elt F) → (⟨S100000x64, .f32⟩ : BufTy).Contents (Elt F) → (⟨S100000x64, .f32⟩ : BufTy).Contents (Elt F)),
    nullary main_cst_33 (constant S_ .f32 0x00000000#32),
    binary main_v221 main_cst_33 main_v222 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_34 (constant S_ .f32 0x47C35000#32),
    unary main_cst_34 main_v223 (broadcastInDim S64 ![] bcast_S_S64 : (⟨S_, .f32⟩ : BufTy).Contents (Elt F) → (⟨S64, .f32⟩ : BufTy).Contents (Elt F)),
    binary main_v222 main_v223 main_v224 (Host.divf : (⟨S64, .f32⟩ : BufTy).Contents (Elt F) → (⟨S64, .f32⟩ : BufTy).Contents (Elt F) → (⟨S64, .f32⟩ : BufTy).Contents (Elt F)),
    unary main_v224 main_v225 (broadcastInDim S1x64 ![1] bcast_S64_S1x64_1 : (⟨S64, .f32⟩ : BufTy).Contents (Elt F) → (⟨S1x64, .f32⟩ : BufTy).Contents (Elt F)),
    unary main_v225 main_v226 (broadcastInDim S100000x64 ![0, 1] bcast_S1x64_S100000x64_0_1 : (⟨S1x64, .f32⟩ : BufTy).Contents (Elt F) → (⟨S100000x64, .f32⟩ : BufTy).Contents (Elt F)),
    binary main_v221 main_v226 main_v227 (subf : (⟨S100000x64, .f32⟩ : BufTy).Contents (Elt F) → (⟨S100000x64, .f32⟩ : BufTy).Contents (Elt F) → (⟨S100000x64, .f32⟩ : BufTy).Contents (Elt F)),
    binary main_v227 main_v227 main_v228 (mulf : (⟨S100000x64, .f32⟩ : BufTy).Contents (Elt F) → (⟨S100000x64, .f32⟩ : BufTy).Contents (Elt F) → (⟨S100000x64, .f32⟩ : BufTy).Contents (Elt F)),
    nullary main_cst_35 (constant S_ .f32 0x00000000#32),
    binary main_v228 main_cst_35 main_v229 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_36 (constant S_ .f32 0x47C35000#32),
    unary main_cst_36 main_v230 (broadcastInDim S64 ![] bcast_S_S64 : (⟨S_, .f32⟩ : BufTy).Contents (Elt F) → (⟨S64, .f32⟩ : BufTy).Contents (Elt F)),
    binary main_v229 main_v230 main_v231 (Host.divf : (⟨S64, .f32⟩ : BufTy).Contents (Elt F) → (⟨S64, .f32⟩ : BufTy).Contents (Elt F) → (⟨S64, .f32⟩ : BufTy).Contents (Elt F)),
    unary main_arg6 main_v232 ((extractStridedSlice S1x64 ![3, 0] · slices_S4x64_S1x64_3_0) : (⟨S4x64, .f32⟩ : BufTy).Contents (Elt F) → (⟨S1x64, .f32⟩ : BufTy).Contents (Elt F)),
    reshape main_v232 main_v233 rfl shapeCasts_S1x64_S64,
    unary main_v224 main_v234 (broadcastInDim S1x64 ![1] bcast_S64_S1x64_1 : (⟨S64, .f32⟩ : BufTy).Contents (Elt F) → (⟨S1x64, .f32⟩ : BufTy).Contents (Elt F)),
    unary main_v234 main_v235 (broadcastInDim S100000x64 ![0, 1] bcast_S1x64_S100000x64_0_1 : (⟨S1x64, .f32⟩ : BufTy).Contents (Elt F) → (⟨S100000x64, .f32⟩ : BufTy).Contents (Elt F)),
    binary main_v221 main_v235 main_v236 (subf : (⟨S100000x64, .f32⟩ : BufTy).Contents (Elt F) → (⟨S100000x64, .f32⟩ : BufTy).Contents (Elt F) → (⟨S100000x64, .f32⟩ : BufTy).Contents (Elt F)),
    unary main_v233 main_v237 (broadcastInDim S1x64 ![1] bcast_S64_S1x64_1 : (⟨S64, .f32⟩ : BufTy).Contents (Elt F) → (⟨S1x64, .f32⟩ : BufTy).Contents (Elt F)),
    unary main_v237 main_v238 (broadcastInDim S100000x64 ![0, 1] bcast_S1x64_S100000x64_0_1 : (⟨S1x64, .f32⟩ : BufTy).Contents (Elt F) → (⟨S100000x64, .f32⟩ : BufTy).Contents (Elt F)),
    binary main_v238 main_v236 main_v239 (mulf : (⟨S100000x64, .f32⟩ : BufTy).Contents (Elt F) → (⟨S100000x64, .f32⟩ : BufTy).Contents (Elt F) → (⟨S100000x64, .f32⟩ : BufTy).Contents (Elt F)),
    nullary main_cst_37 (constant S_ .f32 0x3727C5AC#32),
    unary main_cst_37 main_v240 (broadcastInDim S64 ![] bcast_S_S64 : (⟨S_, .f32⟩ : BufTy).Contents (Elt F) → (⟨S64, .f32⟩ : BufTy).Contents (Elt F)),
    binary main_v231 main_v240 main_v241 (addf : (⟨S64, .f32⟩ : BufTy).Contents (Elt F) → (⟨S64, .f32⟩ : BufTy).Contents (Elt F) → (⟨S64, .f32⟩ : BufTy).Contents (Elt F)),
    unary main_v241 main_v242 (Host.rsqrt : (⟨S64, .f32⟩ : BufTy).Contents (Elt F) → (⟨S64, .f32⟩ : BufTy).Contents (Elt F)),
    unary main_v242 main_v243 (broadcastInDim S1x64 ![1] bcast_S64_S1x64_1 : (⟨S64, .f32⟩ : BufTy).Contents (Elt F) → (⟨S1x64, .f32⟩ : BufTy).Contents (Elt F)),
    unary main_v243 main_v244 (broadcastInDim S100000x64 ![0, 1] bcast_S1x64_S100000x64_0_1 : (⟨S1x64, .f32⟩ : BufTy).Contents (Elt F) → (⟨S100000x64, .f32⟩ : BufTy).Contents (Elt F)),
    binary main_v239 main_v244 main_v245 (mulf : (⟨S100000x64, .f32⟩ : BufTy).Contents (Elt F) → (⟨S100000x64, .f32⟩ : BufTy).Contents (Elt F) → (⟨S100000x64, .f32⟩ : BufTy).Contents (Elt F)),
    unary main_arg7 main_v246 ((extractStridedSlice S1x64 ![3, 0] · slices_S4x64_S1x64_3_0) : (⟨S4x64, .f32⟩ : BufTy).Contents (Elt F) → (⟨S1x64, .f32⟩ : BufTy).Contents (Elt F)),
    reshape main_v246 main_v247 rfl shapeCasts_S1x64_S64,
    unary main_v247 main_v248 (broadcastInDim S1x64 ![1] bcast_S64_S1x64_1 : (⟨S64, .f32⟩ : BufTy).Contents (Elt F) → (⟨S1x64, .f32⟩ : BufTy).Contents (Elt F)),
    unary main_v248 main_v249 (broadcastInDim S100000x64 ![0, 1] bcast_S1x64_S100000x64_0_1 : (⟨S1x64, .f32⟩ : BufTy).Contents (Elt F) → (⟨S100000x64, .f32⟩ : BufTy).Contents (Elt F)),
    binary main_v245 main_v249 main_v250 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v250) (TRef.of (T := ⟨S100000x64, .f32⟩) main_call3_v0) (TRef.of (T := ⟨S100000x64, .f32⟩) main_v251) maximumf ]

/-- The references that the operations of the fourth layer write, in order. -/
abbrev opsC4_W : List (Ref sig .tc) := [main_v197, main_v198, main_v199, main_c_30, main_v200, main_v201, main_c_31, main_v202, main_v203, main_v204, main_v205, main_v206, main_v207, main_v208, main_v209, main_cst_32, main_v210, main_v211, main_v212, main_v213, main_v214, main_v215, main_v216, main_v217, main_v218, main_v219, main_v220, main_v221, main_cst_33, main_v222, main_cst_34, main_v223, main_v224, main_v225, main_v226, main_v227, main_v228, main_cst_35, main_v229, main_cst_36, main_v230, main_v231, main_v232, main_v233, main_v234, main_v235, main_v236, main_v237, main_v238, main_v239, main_cst_37, main_v240, main_v241, main_v242, main_v243, main_v244, main_v245, main_v246, main_v247, main_v248, main_v249, main_v250, main_call3_cst, main_call3_v0, main_v251]

theorem opsC4_writes : (opsC4 : List (HloOp τ sig (Elt F))).Forall fun op => op.writes ⊆ (opsC4_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A reference none of them writes keeps its contents. -/
theorem opsC4_keep (V : Valuation τ sig (Elt F)) {r : Ref sig .tc} (h : r ∉ opsC4_W) :
    after (opsC4 (F := F)) V (Proc.devRef .tc r) = V (Proc.devRef .tc r) :=
  after_of_writes_sub opsC4 V opsC4_writes h

set_option maxHeartbeats 2000000 in
/-- The layer's output buffer after the layer, from contents holding the layer's input, the source and target node lists,
    the edge weights, the self weights and the parameter arguments. -/
theorem opsC4_v251 (x0 : (⟨S100000x32, .f32⟩ : BufTy).Contents (Elt F)) (x1 : (⟨S2x1600000, .i32⟩ : BufTy).Contents (Elt F)) (x2 : (⟨S32x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (W : Valuation τ sig (Elt F))
    (hin : W (Proc.devRef .tc main_v196) = Stages.val_main_v196 (F := F) x0 x1 x2 x3 x4 x5 x6 x7)
    (hsrc : W (Proc.devRef .tc main_v1) = Stages.val_main_v1 (F := F) x1)
    (hdst : W (Proc.devRef .tc main_v3) = Stages.val_main_v3 (F := F) x1)
    (hnorm : W (Proc.devRef .tc main_v26) = Stages.val_main_v26 (F := F) x1)
    (hself : W (Proc.devRef .tc main_v27) = Stages.val_main_v27 (F := F) x1)
    (a4 : W (Proc.devRef .tc main_arg4) = x4) (a5 : W (Proc.devRef .tc main_arg5) = x5)
    (a6 : W (Proc.devRef .tc main_arg6) = x6) (a7 : W (Proc.devRef .tc main_arg7) = x7) :
    after (opsC4 (F := F)) W (Proc.devRef .tc main_v251) = Stages.val_main_v251 (F := F) x0 x1 x2 x3 x4 x5 x6 x7 := by
  after_results_simp
  simp only [TRef.ofBuf, TRef.toBuf, cast_eq]
  rw [hin, hsrc, hdst, hnorm, hself, a4, a5, a6, a7]
  rfl

end Cert.ReferenceIdeal.RefValue

end
-- ==== Proof.Ref.FoldC5.lean ====
/- The last nine operations of the reference: the column sums of the last layer's output, their quotient by the row count, the product with the output weights and the output bias. Their fold over any contents that hold the last layer's output and the two output arguments is the stage function of the result. -/
import proofs.«147038_j12317966205319_1_alg».proof.Proof.Ref.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations after the last layer, in program order. -/
abbrev opsC5 : List (HloOp τ sig (Elt F)) :=
  [ nullary main_cst_38 (constant S_ .f32 0x00000000#32),
    binary main_v251 main_cst_38 main_v252 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_v252 main_v253 (broadcastInDim S1x64 ![1] bcast_S64_S1x64_1 : (⟨S64, .f32⟩ : BufTy).Contents (Elt F) → (⟨S1x64, .f32⟩ : BufTy).Contents (Elt F)),
    nullary main_cst_39 (constant S_ .f32 0x47C35000#32),
    unary main_cst_39 main_v254 (broadcastInDim S1x64 ![] bcast_S_S1x64 : (⟨S_, .f32⟩ : BufTy).Contents (Elt F) → (⟨S1x64, .f32⟩ : BufTy).Contents (Elt F)),
    binary main_v253 main_v254 main_v255 (Host.divf : (⟨S1x64, .f32⟩ : BufTy).Contents (Elt F) → (⟨S1x64, .f32⟩ : BufTy).Contents (Elt F) → (⟨S1x64, .f32⟩ : BufTy).Contents (Elt F)),
    binary main_v255 main_arg8 main_v256 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_arg9 main_v257 (broadcastInDim S1x64 ![1] bcast_S64_S1x64_1 : (⟨S64, .f32⟩ : BufTy).Contents (Elt F) → (⟨S1x64, .f32⟩ : BufTy).Contents (Elt F)),
    binary main_v256 main_v257 main_v258 (addf : (⟨S1x64, .f32⟩ : BufTy).Contents (Elt F) → (⟨S1x64, .f32⟩ : BufTy).Contents (Elt F) → (⟨S1x64, .f32⟩ : BufTy).Contents (Elt F)) ]

/-- The references that the operations after the last layer write, in order. -/
abbrev opsC5_W : List (Ref sig .tc) := [main_cst_38, main_v252, main_v253, main_cst_39, main_v254, main_v255, main_v256, main_v257, main_v258]

theorem opsC5_writes : (opsC5 : List (HloOp τ sig (Elt F))).Forall fun op => op.writes ⊆ (opsC5_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A reference none of them writes keeps its contents. -/
theorem opsC5_keep (V : Valuation τ sig (Elt F)) {r : Ref sig .tc} (h : r ∉ opsC5_W) :
    after (opsC5 (F := F)) V (Proc.devRef .tc r) = V (Proc.devRef .tc r) :=
  after_of_writes_sub opsC5 V opsC5_writes h

/-- The result buffer after the tail, from contents holding the last layer's output and the output weights and bias. -/
theorem opsC5_v258 (x0 : (⟨S100000x32, .f32⟩ : BufTy).Contents (Elt F)) (x1 : (⟨S2x1600000, .i32⟩ : BufTy).Contents (Elt F)) (x2 : (⟨S32x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S64x64, .f32⟩ : BufTy).Contents (Elt F)) (x9 : (⟨S64, .f32⟩ : BufTy).Contents (Elt F)) (W : Valuation τ sig (Elt F))
    (h251 : W (Proc.devRef .tc main_v251) = Stages.val_main_v251 (F := F) x0 x1 x2 x3 x4 x5 x6 x7)
    (a8 : W (Proc.devRef .tc main_arg8) = x8) (a9 : W (Proc.devRef .tc main_arg9) = x9) :
    after (opsC5 (F := F)) W (Proc.devRef .tc main_v258) = Stages.val_main_v258 (F := F) x0 x1 x2 x3 x4 x5 x6 x7 x8 x9 := by
  after_results
  rw [h251, a8, a9]
  rfl

end Cert.ReferenceIdeal.RefValue

end
-- ==== Proof.Ref.Fold.lean ====
/- The reference's run as one fold. Its 309 operations are six stretches in a row: the prologue, the four
   graph-convolution layers, the tail. Each stretch's fold, from contents that hold what the stretch reads, gives the
   stage functions of the buffers later stretches read; no stretch writes an argument, and no layer writes one of the
   four edge-derived buffers of the prologue. So the fold of the whole list, from contents at which every argument
   buffer holds its array, holds at the result buffer the result's stage function of the ten arrays, and every
   argument buffer still holds its array. -/
import proofs.«147038_j12317966205319_1_alg».proof.Proof.Ref.RunFold
import proofs.«147038_j12317966205319_1_alg».proof.Proof.Ref.FoldC0
import proofs.«147038_j12317966205319_1_alg».proof.Proof.Ref.FoldC1
import proofs.«147038_j12317966205319_1_alg».proof.Proof.Ref.FoldC2
import proofs.«147038_j12317966205319_1_alg».proof.Proof.Ref.FoldC3
import proofs.«147038_j12317966205319_1_alg».proof.Proof.Ref.FoldC4
import proofs.«147038_j12317966205319_1_alg».proof.Proof.Ref.FoldC5
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The operation list is the six stretches in a row. -/
theorem ops_split :
    (RunFold.ops (F := F)) = opsC0 ++ (opsC1 ++ (opsC2 ++ (opsC3 ++ (opsC4 ++ opsC5)))) := rfl

/-- So its fold is the stretches' folds in turn. -/
theorem after_ops (V : Valuation τ sig (Elt F)) :
    after (RunFold.ops (F := F)) V
      = after opsC5 (after opsC4 (after opsC3 (after opsC2 (after opsC1 (after opsC0 V))))) := by
  rw [ops_split, after_append, after_append, after_append, after_append, after_append]

/-- The ten argument buffers. -/
abbrev argRefs : List (Ref sig .tc) :=
  [main_arg0, main_arg1, main_arg2, main_arg3, main_arg4, main_arg5, main_arg6, main_arg7, main_arg8, main_arg9]

/-- The prologue's four buffers that every layer reads: the source and target node lists, the edge weights, the self weights. -/
abbrev edgeRefs : List (Ref sig .tc) := [main_v1, main_v3, main_v26, main_v27]

section Invariants

variable (x0 : (⟨S100000x32, .f32⟩ : BufTy).Contents (Elt F)) (x1 : (⟨S2x1600000, .i32⟩ : BufTy).Contents (Elt F))
  (x2 : (⟨S32x64, .f32⟩ : BufTy).Contents (Elt F)) (x3 : (⟨S64, .f32⟩ : BufTy).Contents (Elt F))
  (x4 : (⟨S4x64x64, .f32⟩ : BufTy).Contents (Elt F)) (x5 : (⟨S4x64, .f32⟩ : BufTy).Contents (Elt F))
  (x6 : (⟨S4x64, .f32⟩ : BufTy).Contents (Elt F)) (x7 : (⟨S4x64, .f32⟩ : BufTy).Contents (Elt F))
  (x8 : (⟨S64x64, .f32⟩ : BufTy).Contents (Elt F)) (x9 : (⟨S64, .f32⟩ : BufTy).Contents (Elt F))

/-- Contents at which every argument buffer holds its array. -/
structure HoldsArgs (V : Valuation τ sig (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9

/-- Contents at which the four edge-derived buffers hold their stage functions of the edge list. -/
structure HoldsEdges (V : Valuation τ sig (Elt F)) : Prop where
  src : V (Proc.devRef .tc main_v1) = Stages.val_main_v1 (F := F) x1
  dst : V (Proc.devRef .tc main_v3) = Stages.val_main_v3 (F := F) x1
  norm : V (Proc.devRef .tc main_v26) = Stages.val_main_v26 (F := F) x1
  self : V (Proc.devRef .tc main_v27) = Stages.val_main_v27 (F := F) x1

end Invariants

section Kept

variable {x0 : (⟨S100000x32, .f32⟩ : BufTy).Contents (Elt F)} {x1 : (⟨S2x1600000, .i32⟩ : BufTy).Contents (Elt F)}
  {x2 : (⟨S32x64, .f32⟩ : BufTy).Contents (Elt F)} {x3 : (⟨S64, .f32⟩ : BufTy).Contents (Elt F)}
  {x4 : (⟨S4x64x64, .f32⟩ : BufTy).Contents (Elt F)} {x5 : (⟨S4x64, .f32⟩ : BufTy).Contents (Elt F)}
  {x6 : (⟨S4x64, .f32⟩ : BufTy).Contents (Elt F)} {x7 : (⟨S4x64, .f32⟩ : BufTy).Contents (Elt F)}
  {x8 : (⟨S64x64, .f32⟩ : BufTy).Contents (Elt F)} {x9 : (⟨S64, .f32⟩ : BufTy).Contents (Elt F)}
  {V V' : Valuation τ sig (Elt F)}

/-- Contents that agree with `V` at the argument buffers hold the arguments as `V` does. -/
theorem HoldsArgs.of_keep (h : HoldsArgs x0 x1 x2 x3 x4 x5 x6 x7 x8 x9 V)
    (hk : ∀ r ∈ (argRefs : List (Ref sig .tc)), V' (Proc.devRef .tc r) = V (Proc.devRef .tc r)) :
    HoldsArgs x0 x1 x2 x3 x4 x5 x6 x7 x8 x9 V' :=
  ⟨(hk main_arg0 (by decide)).trans h.a0, (hk main_arg1 (by decide)).trans h.a1, (hk main_arg2 (by decide)).trans h.a2,
   (hk main_arg3 (by decide)).trans h.a3, (hk main_arg4 (by decide)).trans h.a4, (hk main_arg5 (by decide)).trans h.a5,
   (hk main_arg6 (by decide)).trans h.a6, (hk main_arg7 (by decide)).trans h.a7, (hk main_arg8 (by decide)).trans h.a8,
   (hk main_arg9 (by decide)).trans h.a9⟩

/-- Contents that agree with `V` at the four edge-derived buffers hold them as `V` does. -/
theorem HoldsEdges.of_keep (h : HoldsEdges x1 V)
    (hk : ∀ r ∈ (edgeRefs : List (Ref sig .tc)), V' (Proc.devRef .tc r) = V (Proc.devRef .tc r)) :
    HoldsEdges x1 V' :=
  ⟨(hk main_v1 (by decide)).trans h.src, (hk main_v3 (by decide)).trans h.dst,
   (hk main_v26 (by decide)).trans h.norm, (hk main_v27 (by decide)).trans h.self⟩

/-! No stretch writes an argument buffer. -/

theorem HoldsArgs.after_C0 (h : HoldsArgs x0 x1 x2 x3 x4 x5 x6 x7 x8 x9 V) :
    HoldsArgs x0 x1 x2 x3 x4 x5 x6 x7 x8 x9 (after (opsC0 (F := F)) V) :=
  h.of_keep fun r hr => opsC0_keep V ((by decide : ∀ r ∈ (argRefs : List (Ref sig .tc)), r ∉ opsC0_W) r hr)
theorem HoldsArgs.after_C1 (h : HoldsArgs x0 x1 x2 x3 x4 x5 x6 x7 x8 x9 V) :
    HoldsArgs x0 x1 x2 x3 x4 x5 x6 x7 x8 x9 (after (opsC1 (F := F)) V) :=
  h.of_keep fun r hr => opsC1_keep V ((by decide : ∀ r ∈ (argRefs : List (Ref sig .tc)), r ∉ opsC1_W) r hr)
theorem HoldsArgs.after_C2 (h : HoldsArgs x0 x1 x2 x3 x4 x5 x6 x7 x8 x9 V) :
    HoldsArgs x0 x1 x2 x3 x4 x5 x6 x7 x8 x9 (after (opsC2 (F := F)) V) :=
  h.of_keep fun r hr => opsC2_keep V ((by decide : ∀ r ∈ (argRefs : List (Ref sig .tc)), r ∉ opsC2_W) r hr)
theorem HoldsArgs.after_C3 (h : HoldsArgs x0 x1 x2 x3 x4 x5 x6 x7 x8 x9 V) :
    HoldsArgs x0 x1 x2 x3 x4 x5 x6 x7 x8 x9 (after (opsC3 (F := F)) V) :=
  h.of_keep fun r hr => opsC3_keep V ((by decide : ∀ r ∈ (argRefs : List (Ref sig .tc)), r ∉ opsC3_W) r hr)
theorem HoldsArgs.after_C4 (h : HoldsArgs x0 x1 x2 x3 x4 x5 x6 x7 x8 x9 V) :
    HoldsArgs x0 x1 x2 x3 x4 x5 x6 x7 x8 x9 (after (opsC4 (F := F)) V) :=
  h.of_keep fun r hr => opsC4_keep V ((by decide : ∀ r ∈ (argRefs : List (Ref sig .tc)), r ∉ opsC4_W) r hr)
theorem HoldsArgs.after_C5 (h : HoldsArgs x0 x1 x2 x3 x4 x5 x6 x7 x8 x9 V) :
    HoldsArgs x0 x1 x2 x3 x4 x5 x6 x7 x8 x9 (after (opsC5 (F := F)) V) :=
  h.of_keep fun r hr => opsC5_keep V ((by decide : ∀ r ∈ (argRefs : List (Ref sig .tc)), r ∉ opsC5_W) r hr)

/-! No layer writes one of the four edge-derived buffers. -/

theorem HoldsEdges.after_C1 (h : HoldsEdges x1 V) : HoldsEdges x1 (after (opsC1 (F := F)) V) :=
  h.of_keep fun r hr => opsC1_keep V ((by decide : ∀ r ∈ (edgeRefs : List (Ref sig .tc)), r ∉ opsC1_W) r hr)
theorem HoldsEdges.after_C2 (h : HoldsEdges x1 V) : HoldsEdges x1 (after (opsC2 (F := F)) V) :=
  h.of_keep fun r hr => opsC2_keep V ((by decide : ∀ r ∈ (edgeRefs : List (Ref sig .tc)), r ∉ opsC2_W) r hr)
theorem HoldsEdges.after_C3 (h : HoldsEdges x1 V) : HoldsEdges x1 (after (opsC3 (F := F)) V) :=
  h.of_keep fun r hr => opsC3_keep V ((by decide : ∀ r ∈ (edgeRefs : List (Ref sig .tc)), r ∉ opsC3_W) r hr)

/-- The prologue's fold holds the four edge-derived buffers at their stage functions. -/
theorem HoldsArgs.edges_C0 (h : HoldsArgs x0 x1 x2 x3 x4 x5 x6 x7 x8 x9 V) :
    HoldsEdges x1 (after (opsC0 (F := F)) V) :=
  ⟨opsC0_v1 x0 x1 x2 x3 V h.a0 h.a1 h.a2 h.a3, opsC0_v3 x0 x1 x2 x3 V h.a0 h.a1 h.a2 h.a3,
   opsC0_v26 x0 x1 x2 x3 V h.a0 h.a1 h.a2 h.a3, opsC0_v27 x0 x1 x2 x3 V h.a0 h.a1 h.a2 h.a3⟩

/-- The fold of the whole list, from contents that hold the arguments: the result buffer holds the result's stage
    function of the ten arrays. The prologue gives the embedded features and the edge-derived buffers; each layer
    turns its input's stage function into its output's, the edge-derived buffers and the arguments untouched; the tail
    reads the last layer's output and the two output arguments. -/
theorem fold_result_of (h : HoldsArgs x0 x1 x2 x3 x4 x5 x6 x7 x8 x9 V) :
    after (RunFold.ops (F := F)) V (Proc.devRef .tc main_v258)
      = Stages.val_main_v258 (F := F) x0 x1 x2 x3 x4 x5 x6 x7 x8 x9 := by
  rw [after_ops]
  have A0 := h.after_C0
  have E0 := h.edges_C0
  have H0 := opsC0_v31 x0 x1 x2 x3 V h.a0 h.a1 h.a2 h.a3
  have A1 := A0.after_C1
  have E1 := E0.after_C1
  have H1 := opsC1_v86 x0 x1 x2 x3 x4 x5 x6 x7 _ H0 E0.src E0.dst E0.norm E0.self A0.a4 A0.a5 A0.a6 A0.a7
  have A2 := A1.after_C2
  have E2 := E1.after_C2
  have H2 := opsC2_v141 x0 x1 x2 x3 x4 x5 x6 x7 _ H1 E1.src E1.dst E1.norm E1.self A1.a4 A1.a5 A1.a6 A1.a7
  have A3 := A2.after_C3
  have E3 := E2.after_C3
  have H3 := opsC3_v196 x0 x1 x2 x3 x4 x5 x6 x7 _ H2 E2.src E2.dst E2.norm E2.self A2.a4 A2.a5 A2.a6 A2.a7
  have A4 := A3.after_C4
  have H4 := opsC4_v251 x0 x1 x2 x3 x4 x5 x6 x7 _ H3 E3.src E3.dst E3.norm E3.self A3.a4 A3.a5 A3.a6 A3.a7
  exact opsC5_v258 x0 x1 x2 x3 x4 x5 x6 x7 x8 x9 _ H4 A4.a8 A4.a9

/-- and every argument buffer still holds its array. -/
theorem fold_args_of (h : HoldsArgs x0 x1 x2 x3 x4 x5 x6 x7 x8 x9 V) :
    HoldsArgs x0 x1 x2 x3 x4 x5 x6 x7 x8 x9 (after (RunFold.ops (F := F)) V) := by
  rw [after_ops]
  exact h.after_C0.after_C1.after_C2.after_C3.after_C4.after_C5

end Kept

section Launch

variable (m : (ℓ : Loc nD τ sig) → Buf (Elt F) ℓ) (d : Dev nD)

/-- The launch contents hold, at each argument buffer, what the memory holds there. -/
theorem launch_holds :
    HoldsArgs (F := F) (m ((d.tc : Thread nD τ).loc main_arg0)) (m ((d.tc : Thread nD τ).loc main_arg1))
      (m ((d.tc : Thread nD τ).loc main_arg2)) (m ((d.tc : Thread nD τ).loc main_arg3))
      (m ((d.tc : Thread nD τ).loc main_arg4)) (m ((d.tc : Thread nD τ).loc main_arg5))
      (m ((d.tc : Thread nD τ).loc main_arg6)) (m ((d.tc : Thread nD τ).loc main_arg7))
      (m ((d.tc : Thread nD τ).loc main_arg8)) (m ((d.tc : Thread nD τ).loc main_arg9)) (launchContents m d) :=
  ⟨rfl, rfl, rfl, rfl, rfl, rfl, rfl, rfl, rfl, rfl⟩

/-- The fold of the reference's operations over the launch contents, at the result buffer, is the result's stage
    function of the ten argument arrays as the memory holds them at launch. -/
theorem fold_result :
    after (RunFold.ops (F := F)) (launchContents m d) (Proc.devRef .tc main_v258)
      = Stages.val_main_v258 (F := F) (m ((d.tc : Thread nD τ).loc main_arg0)) (m ((d.tc : Thread nD τ).loc main_arg1))
          (m ((d.tc : Thread nD τ).loc main_arg2)) (m ((d.tc : Thread nD τ).loc main_arg3))
          (m ((d.tc : Thread nD τ).loc main_arg4)) (m ((d.tc : Thread nD τ).loc main_arg5))
          (m ((d.tc : Thread nD τ).loc main_arg6)) (m ((d.tc : Thread nD τ).loc main_arg7))
          (m ((d.tc : Thread nD τ).loc main_arg8)) (m ((d.tc : Thread nD τ).loc main_arg9)) :=
  fold_result_of (launch_holds m d)

/-! No operation writes an argument: after the fold each argument buffer holds its launch contents. -/

theorem fold_arg0 : after (RunFold.ops (F := F)) (launchContents m d) (Proc.devRef .tc main_arg0) = m ((d.tc : Thread nD τ).loc main_arg0) :=
  (fold_args_of (launch_holds m d)).a0
theorem fold_arg1 : after (RunFold.ops (F := F)) (launchContents m d) (Proc.devRef .tc main_arg1) = m ((d.tc : Thread nD τ).loc main_arg1) :=
  (fold_args_of (launch_holds m d)).a1
theorem fold_arg2 : after (RunFold.ops (F := F)) (launchContents m d) (Proc.devRef .tc main_arg2) = m ((d.tc : Thread nD τ).loc main_arg2) :=
  (fold_args_of (launch_holds m d)).a2
theorem fold_arg3 : after (RunFold.ops (F := F)) (launchContents m d) (Proc.devRef .tc main_arg3) = m ((d.tc : Thread nD τ).loc main_arg3) :=
  (fold_args_of (launch_holds m d)).a3
theorem fold_arg4 : after (RunFold.ops (F := F)) (launchContents m d) (Proc.devRef .tc main_arg4) = m ((d.tc : Thread nD τ).loc main_arg4) :=
  (fold_args_of (launch_holds m d)).a4
theorem fold_arg5 : after (RunFold.ops (F := F)) (launchContents m d) (Proc.devRef .tc main_arg5) = m ((d.tc : Thread nD τ).loc main_arg5) :=
  (fold_args_of (launch_holds m d)).a5
theorem fold_arg6 : after (RunFold.ops (F := F)) (launchContents m d) (Proc.devRef .tc main_arg6) = m ((d.tc : Thread nD τ).loc main_arg6) :=
  (fold_args_of (launch_holds m d)).a6
theorem fold_arg7 : after (RunFold.ops (F := F)) (launchContents m d) (Proc.devRef .tc main_arg7) = m ((d.tc : Thread nD τ).loc main_arg7) :=
  (fold_args_of (launch_holds m d)).a7
theorem fold_arg8 : after (RunFold.ops (F := F)) (launchContents m d) (Proc.devRef .tc main_arg8) = m ((d.tc : Thread nD τ).loc main_arg8) :=
  (fold_args_of (launch_holds m d)).a8
theorem fold_arg9 : after (RunFold.ops (F := F)) (launchContents m d) (Proc.devRef .tc main_arg9) = m ((d.tc : Thread nD τ).loc main_arg9) :=
  (fold_args_of (launch_holds m d)).a9

end Launch

end Cert.ReferenceIdeal.RefValue

end
-- ==== Proof.LibStats.lean ====
/- The real and extended-real mathematics that joins a batch-normalisation kernel to its reference.
   The kernel forms the variance as E[h²] − E[h]² from tiled partial sums and binarises as (sign t + 1)/2;
   the reference forms E[(h − E h)²] from whole sums and binarises in the straight-through form t + (b − t).
   Every identity below that uses distributivity or cancellation is stated for FINITE (real) values: the
   extended reals lose both at ±∞. -/
import Idealize.ShloMosaic.PureOps.Ideal
import Idealize.ShloMosaic.PureOps.Ideal.Laws
import Mathlib.Data.EReal.Basic
import Mathlib.Data.EReal.Operations
import Mathlib.Data.EReal.Inv
import Mathlib.Data.Fintype.BigOperators
import Mathlib.Algebra.BigOperators.Fin
import Mathlib.Algebra.BigOperators.Ring.Finset
import Mathlib.Algebra.Order.BigOperators.Ring.Finset
import Mathlib.Logic.Equiv.Fin.Basic
import Mathlib.Analysis.SpecialFunctions.Sqrt
import Mathlib.Tactic.Ring
import Mathlib.Tactic.FieldSimp
import Mathlib.Tactic.NormNum
import Mathlib.Tactic.Positivity

noncomputable section

namespace Cert.LibStats

open Idealize.ShloMosaic
open scoped BigOperators

/-! ### Coercion and finite sums -/

/-- The coercion ℝ → EReal commutes with finite sums (induction on the index set; the coercion is additive). -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum of extended reals that are all real is a real. -/
theorem sum_real {ι : Type*} (s : Finset ι) (h : ι → EReal) (hr : ∀ i ∈ s, ∃ r : ℝ, h i = r) :
    ∃ r : ℝ, ∑ i ∈ s, h i = r := by
  classical
  revert hr
  refine Finset.induction_on s (fun _ => ⟨0, by simp⟩) ?_
  intro a s ha ih hr
  obtain ⟨r, hr'⟩ := ih (fun i hi => hr i (Finset.mem_insert_of_mem hi))
  obtain ⟨q, hq⟩ := hr a (Finset.mem_insert_self a s)
  exact ⟨q + r, by rw [Finset.sum_insert ha, hq, hr', EReal.coe_add]⟩

/-! ### The straight-through form, the sign idiom, binarisation -/

/-- The straight-through form t + (b − t) is b at a finite t, for EVERY extended real b: at b = ±∞ both
    sides are that infinity (a finite summand does not move it), and on the reals it is cancellation. -/
theorem add_sub_self_real (t : ℝ) (b : EReal) : (t : EReal) + (b - (t : EReal)) = b := by
  induction b using EReal.rec with
  | bot => rw [EReal.bot_sub, EReal.add_bot]
  | top => rw [EReal.top_sub_coe, EReal.coe_add_top]
  | coe r => rw [← EReal.coe_sub, ← EReal.coe_add]; congr 1; ring

/-- The sign idiom (±1 by the sign where |x| > 0, else x itself) is the order sign, on every extended
    real: |x| > 0 exactly off zero, and at zero the idiom returns x = 0 = sign 0. -/
theorem sign_idiom (x : EReal) :
    (if (0 : EReal) < max x (-x) then (if x < 0 then (-1 : EReal) else 1) else x) = Ideal.sign x := by
  by_cases hlt : x < 0
  · rw [if_pos ((Ideal.zero_lt_max_neg_iff _).mpr hlt.ne), if_pos hlt, Ideal.sign_of_neg hlt]
  · by_cases hgt : 0 < x
    · rw [if_pos ((Ideal.zero_lt_max_neg_iff _).mpr hgt.ne'), if_neg hlt, Ideal.sign_of_pos hgt]
    · have h0 : x = 0 := le_antisymm (not_lt.mp hgt) (not_lt.mp hlt)
      subst h0
      rw [if_neg (fun h => ((Ideal.zero_lt_max_neg_iff _).mp h) rfl), Ideal.sign_zero]

/-- A binarised finite value is the real (sign x + 1) / 2: sign, the sum and the product all stay in ℝ. -/
theorem binz_real (x : ℝ) :
    (Ideal.sign (x : EReal) + 1) * (((1/2 : ℝ)) : EReal)
      = ((((SignType.sign x : ℝ) + 1) * (1/2) : ℝ) : EReal) := by
  rw [Ideal.sign_coe, ← EReal.coe_one, ← EReal.coe_add, ← EReal.coe_mul]

/-! ### Quotient, reciprocal square root, absolute value on the reals -/

/-- Ideal.div of two reals, the divisor nonzero, is the real quotient (division by a nonzero real is the
    product with its reciprocal, and the product of two reals is real). -/
theorem div_real (a b : ℝ) (hb : b ≠ 0) : Ideal.div (a : EReal) (b : EReal) = ((a / b : ℝ) : EReal) := by
  rw [Ideal.div_coe hb, ← EReal.coe_mul, mul_one_div]

/-- Ideal.rsqrt of a positive real is the real 1/√x. -/
theorem rsqrt_real (x : ℝ) (hx : 0 < x) : Ideal.rsqrt (x : EReal) = (((Real.sqrt x)⁻¹ : ℝ) : EReal) := by
  rw [Ideal.rsqrt_coe, if_neg (not_lt.mpr hx.le), if_neg hx.ne']

/-- and that real is positive. -/
theorem rsqrt_real_pos (x : ℝ) (hx : 0 < x) : 0 < (Real.sqrt x)⁻¹ :=
  inv_pos.mpr (Real.sqrt_pos.mpr hx)

/-- Absolute value in the spelling max x (−x), on a real: the coercion is monotone, so it commutes with max. -/
theorem abs_real (x : ℝ) : max (x : EReal) (-(x : EReal)) = ((|x| : ℝ) : EReal) := by
  rw [← EReal.coe_neg, abs_eq_max_neg]
  exact (EReal.coe_strictMono.monotone.map_max).symm

/-! ### The two forms of the variance -/

/-- The sum of squared deviations from ANY μ, expanded: Σ(hᵢ − μ)² = Σhᵢ² − 2μ Σhᵢ + n μ². -/
theorem sum_centred {ι : Type*} [Fintype ι] (h : ι → ℝ) (μ : ℝ) :
    ∑ i, (h i - μ) * (h i - μ)
      = (∑ i, h i * h i) - 2 * μ * (∑ i, h i) + (Fintype.card ι : ℝ) * (μ * μ) := by
  have e : ∀ i, (h i - μ) * (h i - μ) = h i * h i - 2 * μ * h i + μ * μ := fun i => by ring
  simp only [e, Finset.sum_add_distrib, Finset.sum_sub_distrib, ← Finset.mul_sum, Finset.sum_const,
    Finset.card_univ, nsmul_eq_mul]
  ring

/-- The two variance forms agree over the reals: with μ = Σh / N and N the number of terms, the expansion
    above is Σh² − N μ², and dividing by N gives E[h²] − μ². -/
theorem var_forms {ι : Type*} [Fintype ι] (h : ι → ℝ) (N : ℝ) (h0 : N ≠ 0) (hN : N = Fintype.card ι) :
    (∑ i, (h i - (∑ j, h j) / N) * (h i - (∑ j, h j) / N)) / N
      = (∑ i, h i * h i) / N - ((∑ j, h j) / N) * ((∑ j, h j) / N) := by
  rw [sum_centred, ← hN]
  field_simp
  ring

/-- The centred form is nonnegative: a sum of squares over a positive count. -/
theorem var_nonneg {ι : Type*} [Fintype ι] (h : ι → ℝ) (μ N : ℝ) (hN : 0 < N) :
    0 ≤ (∑ i, (h i - μ) * (h i - μ)) / N :=
  div_nonneg (Finset.sum_nonneg fun i _ => mul_self_nonneg _) hN.le

/-- The mean of real-valued data is a real. -/
theorem mean_real {ι : Type*} [Fintype ι] (h : ι → EReal) (hr : ∀ i, ∃ r : ℝ, h i = r) (N : ℝ) (h0 : N ≠ 0) :
    ∃ μ : ℝ, Ideal.div (∑ i, h i) (N : EReal) = μ := by
  obtain ⟨S, hS⟩ := sum_real Finset.univ h (fun i _ => hr i)
  exact ⟨S / N, by rw [hS, div_real S N h0]⟩

/-- The same two facts on the extended reals, for real-valued data, with Ideal.div for the quotients: both
    forms are ONE nonnegative real. Every subterm is a real, so each operation is the real one. -/
theorem var_forms_ereal {ι : Type*} [Fintype ι] (h : ι → EReal) (hr : ∀ i, ∃ r : ℝ, h i = r) (N : ℝ)
    (hpos : 0 < N) (hN : N = Fintype.card ι) :
    ∃ v : ℝ, 0 ≤ v ∧
      Ideal.div (∑ i, (h i - Ideal.div (∑ j, h j) (N : EReal)) * (h i - Ideal.div (∑ j, h j) (N : EReal)))
          (N : EReal) = (v : EReal)
      ∧ Ideal.div (∑ i, h i * h i) (N : EReal)
          - Ideal.div (∑ j, h j) (N : EReal) * Ideal.div (∑ j, h j) (N : EReal) = (v : EReal) := by
  choose g hg using hr
  have h0 : N ≠ 0 := hpos.ne'
  refine ⟨(∑ i, (g i - (∑ j, g j) / N) * (g i - (∑ j, g j) / N)) / N, var_nonneg g _ N hpos, ?_, ?_⟩
  · simp only [hg, ← coe_sum, div_real _ _ h0, ← EReal.coe_sub, ← EReal.coe_mul]
  · rw [var_forms g N h0 hN]
    simp only [hg, ← coe_sum, div_real _ _ h0, ← EReal.coe_sub, ← EReal.coe_mul]

/-! ### Tiled sums and the running accumulator -/

/-- A sum over T·R rows is the sum over T tiles of the sums over the R rows of each tile: reindex by the
    bijection Fin T × Fin R ≃ Fin (T·R), then sum a product type one factor at a time. Any commutative
    monoid, so also the extended reals with no finiteness. -/
theorem sum_tiles {M : Type*} [AddCommMonoid M] (T R : ℕ) (f : Fin (T * R) → M) :
    ∑ i, f i = ∑ t : Fin T, ∑ r : Fin R, f (finProdFinEquiv (t, r)) :=
  calc ∑ i, f i = ∑ p : Fin T × Fin R, f (finProdFinEquiv p) := (finProdFinEquiv.sum_comp f).symm
    _ = ∑ t : Fin T, ∑ r : Fin R, f (finProdFinEquiv (t, r)) := Fintype.sum_prod_type _

/-- A running accumulator that is reset to zero at the first tile and then adds each tile's partial sum
    holds, after tile n, the sum of the first n+1 partial sums. -/
theorem acc_eq_sum {M : Type*} [AddCommMonoid M] (s acc : ℕ → M) (h0 : acc 0 = 0 + s 0)
    (hs : ∀ n, acc (n + 1) = acc n + s (n + 1)) (n : ℕ) : acc n = ∑ t ∈ Finset.range (n + 1), s t := by
  induction n with
  | zero => rw [h0, zero_add, Finset.sum_range_succ, Finset.sum_range_zero, zero_add]
  | succ n ih => rw [hs, ih, Finset.sum_range_succ s (n + 1)]

/-! ### The float literals of the certificate, as the extended reals their patterns denote -/

section Consts

/-- The pattern of +0.0 denotes 0. -/
theorem ofBits_zero : Ideal.ofBits .f32 0x00000000#32 = 0 := Ideal.ofBits_zero_f32

/-- The pattern of 1.0 (exponent field 127, zero fraction) denotes the real 1. -/
theorem ofBits_one : Ideal.ofBits .f32 0x3F800000#32 = ((1 : ℝ) : EReal) := by
  simp [Ideal.ofBits, Ideal.ieee, -EReal.coe_mul]; norm_num

/-- The pattern of −1.0 (that of 1.0 with the sign bit set) denotes the real −1. -/
theorem ofBits_negone : Ideal.ofBits .f32 0xBF800000#32 = ((-1 : ℝ) : EReal) := by
  simp [Ideal.ofBits, Ideal.ieee, -EReal.coe_mul]; norm_num

/-- The pattern of 0.5 (exponent field 126) denotes the real 1/2. -/
theorem ofBits_half : Ideal.ofBits .f32 0x3F000000#32 = ((1/2 : ℝ) : EReal) := by
  simp [Ideal.ofBits, Ideal.ieee, -EReal.coe_mul]; norm_num

/-- The pattern of 262144.0 = 2¹⁸ (exponent field 145) denotes the real 262144, the number of rows. -/
theorem ofBits_N : Ideal.ofBits .f32 0x48800000#32 = ((262144 : ℝ) : EReal) := by
  simp [Ideal.ofBits, Ideal.ieee, -EReal.coe_mul]; norm_num

/-- The variance offset's pattern (exponent field 110, fraction 2606508) denotes the positive real
    (2²³ + 2606508) · 2⁻⁴⁰ = 10995116 · 2⁻⁴⁰, about 10⁻⁵. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The pattern with the sign bit set, an all-ones exponent and zero fraction denotes −∞. -/
theorem ofBits_neginf : Ideal.ofBits .f32 0xFF800000#32 = ⊥ := by
  simp [Ideal.ofBits, Ideal.ieee]

end Consts

end Cert.LibStats

end
-- ==== Proof.Bridge.Finite.lean ====
import proofs.«147038_j12317966205319_1_alg».proof.Defs
import proofs.«147038_j12317966205319_1_alg».proof.Proof.LibStats
import Idealize.ShloMosaic.Lib.ReduceAll
import Idealize.ShloMosaic.Lib.IdealHost
import Idealize.ShloMosaic.Lib.ValueIdx
import Idealize.ShloMosaic.PureOps.Ideal.Laws

noncomputable section

namespace Cert.Bridge

open Idealize.ShloMosaic Idealize.SL.Sem
open Idealize.ShloMosaic.ValueIdx
open Cert.Pre_finite_inputs

variable [Cert.Pre_finite_inputs.Facts]

/-! # Every float argument is real-valued: the precondition, decoded -/

/-! ## One element -/

/-- The word of +∞ is the top of the extended reals. -/
theorem ofBits_posinf : Ideal.ofBits .f32 0x7F800000#32 = (⊤ : EReal) := by simp [Ideal.ofBits, Ideal.ieee]

/-- An extended real whose absolute value, the larger of it and its negation, is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The element test: the comparison "absolute value below the word of +∞" gives the word 1 only at a real. -/
theorem real_of_test (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  refine real_of_abs_lt_top x ?_
  rw [Ideal.hostAbsf_def, Ideal.absf_def, Ideal.cmpf_def] at h
  rw [show FloatOps.ofBits (F := Ideal) .f32 0x7F800000#32 = (⊤ : EReal) from ofBits_posinf] at h
  by_contra hn
  have hz : Ideal.cmp .olt (max x (-x)) (⊤ : EReal) = 0#1 := by
    show BitVec.ofBool (decide (max x (-x) < (⊤ : EReal))) = 0#1
    rw [decide_eq_false hn]; rfl
  rw [hz] at h
  exact absurd h (by decide)

/-! ## One array: the reduction by "and" of the element tests is the word 1 only if every element is a real -/

/-- The result of the predicate has one index. -/
theorem idx_subsingleton : Subsingleton S_.Idx := ⟨fun a b => funext fun d => d.elim0⟩

/-- `jnp.all (|x| < +∞)` is the word 1 only if every element of `x` is a real. -/
theorem all_real {S : Shape} {axes : List (Fin S.rank)} (hb : S_.BroadcastsInDim S (![] : Fin 0 → Fin S.rank))
    (hr : S.ReducesTo axes S_) (hpos : 0 < S_.numel) (x : FVec Ideal S .f32)
    (e : Host.reduce IntOp.andi (cmpf .olt (Host.absf x) (broadcastInDim S ![] hb (constant S_ .f32 0x7F800000#32)))
          (constantI S_ 1 1#1) hr hpos ix0 = 1#1)
    (i : S.Idx) : ∃ r : ℝ, x i = (r : EReal) := by
  haveI := idx_subsingleton
  have e' := Host.reduce_andi_all _ _ hr hpos ix0 e i
  rw [cmpf_apply, broadcastInDim_scalar_apply] at e'
  exact real_of_test (x i) e'

/-! ## The printed predicate -/

/-- The predicate all ones: each float argument is real-valued. -/
theorem fn_real (a0 : FVec Ideal S100000x32 .f32) (a1 : IVec S2x1600000 32) (a2 : FVec Ideal S32x64 .f32)
    (a3 : FVec Ideal S64 .f32) (a4 : FVec Ideal S4x64x64 .f32) (a5 a6 a7 : FVec Ideal S4x64 .f32)
    (a8 : FVec Ideal S64x64 .f32) (a9 : FVec Ideal S64 .f32)
    (h : fn (F := Ideal) a0 a1 a2 a3 a4 a5 a6 a7 a8 a9 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal)) := by
  have e := congrFun h ix0
  dsimp only [fn, fn_part1, fn_part2] at e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨all_real _ _ _ a0 h0, all_real _ _ _ a2 h2, all_real _ _ _ a3 h3, all_real _ _ _ a4 h4, all_real _ _ _ a5 h5,
    all_real _ _ _ a6 h6, all_real _ _ _ a7 h7, all_real _ _ _ a8 h8, all_real _ _ _ a9 h9⟩

/-! ## The precondition of the idealized kernel: every float argument array is real-valued, on every device -/

theorem finite_arg0 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ x : ℝ, m ((c.tc : Thread Cert.KernelIdeal.nD Cert.KernelIdeal.τ).loc Cert.KernelIdeal.main_arg0) i = (x : EReal) :=
  (fn_real _ _ _ _ _ _ _ _ _ _ (hpre c)).1

theorem finite_arg2 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ x : ℝ, m ((c.tc : Thread Cert.KernelIdeal.nD Cert.KernelIdeal.τ).loc Cert.KernelIdeal.main_arg2) i = (x : EReal) :=
  (fn_real _ _ _ _ _ _ _ _ _ _ (hpre c)).2.1

theorem finite_arg3 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ x : ℝ, m ((c.tc : Thread Cert.KernelIdeal.nD Cert.KernelIdeal.τ).loc Cert.KernelIdeal.main_arg3) i = (x : EReal) :=
  (fn_real _ _ _ _ _ _ _ _ _ _ (hpre c)).2.2.1

theorem finite_arg4 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ x : ℝ, m ((c.tc : Thread Cert.KernelIdeal.nD Cert.KernelIdeal.τ).loc Cert.KernelIdeal.main_arg4) i = (x : EReal) :=
  (fn_real _ _ _ _ _ _ _ _ _ _ (hpre c)).2.2.2.1

theorem finite_arg5 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ x : ℝ, m ((c.tc : Thread Cert.KernelIdeal.nD Cert.KernelIdeal.τ).loc Cert.KernelIdeal.main_arg5) i = (x : EReal) :=
  (fn_real _ _ _ _ _ _ _ _ _ _ (hpre c)).2.2.2.2.1

theorem finite_arg6 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ x : ℝ, m ((c.tc : Thread Cert.KernelIdeal.nD Cert.KernelIdeal.τ).loc Cert.KernelIdeal.main_arg6) i = (x : EReal) :=
  (fn_real _ _ _ _ _ _ _ _ _ _ (hpre c)).2.2.2.2.2.1

theorem finite_arg7 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ x : ℝ, m ((c.tc : Thread Cert.KernelIdeal.nD Cert.KernelIdeal.τ).loc Cert.KernelIdeal.main_arg7) i = (x : EReal) :=
  (fn_real _ _ _ _ _ _ _ _ _ _ (hpre c)).2.2.2.2.2.2.1

theorem finite_arg8 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ x : ℝ, m ((c.tc : Thread Cert.KernelIdeal.nD Cert.KernelIdeal.τ).loc Cert.KernelIdeal.main_arg8) i = (x : EReal) :=
  (fn_real _ _ _ _ _ _ _ _ _ _ (hpre c)).2.2.2.2.2.2.2.1

theorem finite_arg9 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ x : ℝ, m ((c.tc : Thread Cert.KernelIdeal.nD Cert.KernelIdeal.τ).loc Cert.KernelIdeal.main_arg9) i = (x : EReal) :=
  (fn_real _ _ _ _ _ _ _ _ _ _ (hpre c)).2.2.2.2.2.2.2.2

end Cert.Bridge

end
-- ==== Proof.Ref.StageFns.lean ====
/- The reference's stages as functions of their operand arrays, each given index by index on the extended reals:
   the embedding (a product with a weight matrix plus a bias row), one graph-convolution layer in its pieces (the
   product with the layer's weights; the aggregation over incoming edges, kept as the host's gather, edge scaling and
   scatter-add; the self term and bias; the column mean and the centred variance, both quotients by the row count
   100000; the normalisation by the reciprocal square root of variance plus the offset, scale and shift; the maximum
   with zero), and the pooling (the column mean times the output weights plus the output bias). Rows are r : Fin 100000,
   columns j : Fin 64; a contraction is a sum over k, a column sum a sum over r. -/
import proofs.«147038_j12317966205319_1_alg».proof.Proof.Ref.Stages

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ### The arrays' types -/

/-- Node features, 100000 rows of 64 columns. -/
abbrev Feat := (⟨S100000x64, .f32⟩ : BufTy).Contents (Elt Ideal)
/-- The input features, 100000 rows of 32 columns. -/
abbrev FeatIn := (⟨S100000x32, .f32⟩ : BufTy).Contents (Elt Ideal)
/-- The embedding weights, 32 by 64. -/
abbrev WIn := (⟨S32x64, .f32⟩ : BufTy).Contents (Elt Ideal)
/-- A square weight matrix, 64 by 64. -/
abbrev WSq := (⟨S64x64, .f32⟩ : BufTy).Contents (Elt Ideal)
/-- One value per column. -/
abbrev Row := (⟨S64, .f32⟩ : BufTy).Contents (Elt Ideal)
/-- One value per node. -/
abbrev Col := (⟨S100000, .f32⟩ : BufTy).Contents (Elt Ideal)
/-- The result, one row of 64 columns. -/
abbrev Out := (⟨S1x64, .f32⟩ : BufTy).Contents (Elt Ideal)
/-- The four layers' weight matrices, and the four layers' rows of a per-column parameter. -/
abbrev WLayers := (⟨S4x64x64, .f32⟩ : BufTy).Contents (Elt Ideal)
abbrev RowLayers := (⟨S4x64, .f32⟩ : BufTy).Contents (Elt Ideal)
/-- A node number per edge, and a weight per edge and column. -/
abbrev EdgeNode := (⟨S1600000x1, .i32⟩ : BufTy).Contents (Elt Ideal)
abbrev EdgeW := (⟨S1600000x64, .f32⟩ : BufTy).Contents (Elt Ideal)

/-- The edge list: a row of source nodes and a row of target nodes. -/
abbrev EdgeList := (⟨S2x1600000, .i32⟩ : BufTy).Contents (Elt Ideal)

/-! ### The edge-derived arrays

What every layer reads of the edge list, as the reference computes it (integer selections and the degree
normalisation; none of it is opened here): every edge's source node and target node as columns, every edge's weight
(the product of its two end nodes' degrees to the power −1/2) along the columns, every node's self weight (the square
of its degree to the power −1/2). Each layer recomputes the three edge arrays by the same operations. -/

abbrev srcF (e : EdgeList) : EdgeNode := Stages.val_main_v40 (F := Ideal) e
abbrev nrmF (e : EdgeList) : EdgeW := Stages.val_main_v43 (F := Ideal) e
abbrev dstF (e : EdgeList) : EdgeNode := Stages.val_main_v46 (F := Ideal) e
abbrev selfF (e : EdgeList) : Col := Stages.val_main_v27 (F := Ideal) e

/-! ### The stage functions -/

/-- The embedding: x · W + b. -/
def embedF (x : FeatIn) (w : WIn) (b : Row) : Feat :=
  fun i => (∑ k : Fin 32, x (ix2 (i 0) k) * w (ix2 k (i 1))) + b (ix1 (i 1))

theorem embedF_apply (x : FeatIn) (w : WIn) (b : Row) (r : Fin 100000) (j : Fin 64) :
    embedF x w b (ix2 r j) = (∑ k : Fin 32, x (ix2 r k) * w (ix2 k j)) + b (ix1 j) := rfl

/-- Layer l's weight matrix out of the four, and layer l's row out of the four. -/
def sliceSq (w : WLayers) (l : Fin 4) : WSq := fun i => w (ix3 l (i 0) (i 1))
def sliceRow (p : RowLayers) (l : Fin 4) : Row := fun j => p (ix2 l (j 0))

theorem sliceSq_apply (w : WLayers) (l : Fin 4) (k j : Fin 64) : sliceSq w l (ix2 k j) = w (ix3 l k j) := rfl
theorem sliceRow_apply (p : RowLayers) (l : Fin 4) (j : Fin 64) : sliceRow p l (ix1 j) = p (ix2 l j) := rfl

/-- The product with a layer's weights: h · W. -/
def xwF (h : Feat) (w : WSq) : Feat :=
  fun i => ∑ k : Fin 64, h (ix2 (i 0) k) * w (ix2 k (i 1))

theorem xwF_apply (h : Feat) (w : WSq) (r : Fin 100000) (j : Fin 64) :
    xwF h w (ix2 r j) = ∑ k : Fin 64, h (ix2 r k) * w (ix2 k j) := rfl

/-- The aggregation over incoming edges, as the host computes it: the rows of `xw` gathered at every edge's source
    node, scaled by the edge's weight, scatter-added at the edge's target node into zeros. Not opened: both programs
    compute it by these same operations. -/
def aggF (xw : Feat) (src : EdgeNode) (nrm : EdgeW) (dst : EdgeNode) : Feat :=
  Host.scatterAdd scatter_S100000x64_S1600000x1_S1600000x64_1_0_0_1
    (broadcastInDim S100000x64 ![] bcast_S_S100000x64 (constant (F := Ideal) S_ .f32 0x00000000#32)) dst
    (mulf (Host.gather gather_S100000x64_S1600000x1_S1600000x64_1_0_n_n_0_1_164 xw src) nrm)

/-- The aggregate plus the self term plus the layer's bias. -/
def hpreF (agg xw : Feat) (selfw : Col) (b : Row) : Feat :=
  fun i => agg i + xw i * selfw (ix1 (i 0)) + b (ix1 (i 1))

theorem hpreF_apply (agg xw : Feat) (selfw : Col) (b : Row) (r : Fin 100000) (j : Fin 64) :
    hpreF agg xw selfw b (ix2 r j) = agg (ix2 r j) + xw (ix2 r j) * selfw (ix1 r) + b (ix1 j) := rfl

/-- The column sums. -/
def colSumF (h : Feat) : Row := fun j => ∑ r : Fin 100000, h (ix2 r (j 0))

theorem colSumF_apply (h : Feat) (j : Fin 64) : colSumF h (ix1 j) = ∑ r : Fin 100000, h (ix2 r j) := rfl

/-- The column means: the column sums over the row count (the word of 100000.0). -/
def meanF (h : Feat) : Row := fun j => Ideal.div (colSumF h j) (Ideal.ofBits .f32 0x47C35000#32)

theorem meanF_apply (h : Feat) (j : Fin 64) :
    meanF h (ix1 j) = Ideal.div (∑ r : Fin 100000, h (ix2 r j)) (Ideal.ofBits .f32 0x47C35000#32) := rfl

/-- The centred (biased) column variances: the mean of the squared deviations from the column mean. -/
def varF (h : Feat) : Row :=
  fun j => Ideal.div (∑ r : Fin 100000, (h (ix2 r (j 0)) - meanF h j) * (h (ix2 r (j 0)) - meanF h j))
    (Ideal.ofBits .f32 0x47C35000#32)

theorem varF_apply (h : Feat) (j : Fin 64) :
    varF h (ix1 j) = Ideal.div (∑ r : Fin 100000, (h (ix2 r j) - meanF h (ix1 j)) * (h (ix2 r j) - meanF h (ix1 j)))
      (Ideal.ofBits .f32 0x47C35000#32) := rfl

/-- Normalise, scale and shift: γ · (h − mean) · rsqrt (variance + offset) + β, the offset's word kept as it is. -/
def normF (h : Feat) (g bt : Row) : Feat :=
  fun i => g (ix1 (i 1)) * (h i - meanF h (ix1 (i 1)))
      * Ideal.rsqrt (varF h (ix1 (i 1)) + Ideal.ofBits .f32 0x3727C5AC#32) + bt (ix1 (i 1))

theorem normF_apply (h : Feat) (g bt : Row) (r : Fin 100000) (j : Fin 64) :
    normF h g bt (ix2 r j) = g (ix1 j) * (h (ix2 r j) - meanF h (ix1 j))
      * Ideal.rsqrt (varF h (ix1 j) + Ideal.ofBits .f32 0x3727C5AC#32) + bt (ix1 j) := rfl

/-- The maximum with zero. -/
def reluF (h : Feat) : Feat := fun i => max (h i) 0

theorem reluF_apply (h : Feat) (i : S100000x64.Idx) : reluF h i = max (h i) 0 := rfl

/-- The pooling: the column means times the output weights plus the output bias. -/
def poolF (h : Feat) (w : WSq) (b : Row) : Out :=
  fun i => (∑ k : Fin 64, Ideal.div (∑ r : Fin 100000, h (ix2 r k)) (Ideal.ofBits .f32 0x47C35000#32) * w (ix2 k (i 1)))
    + b (ix1 (i 1))

theorem poolF_apply (h : Feat) (w : WSq) (b : Row) (j : Fin 64) :
    poolF h w b (ix2 0 j) = (∑ k : Fin 64, Ideal.div (∑ r : Fin 100000, h (ix2 r k)) (Ideal.ofBits .f32 0x47C35000#32) * w (ix2 k j))
      + b (ix1 j) := rfl

/-- One graph-convolution layer: the product with layer l's weights, the aggregate, the self term and bias, the
    normalisation with layer l's scale and shift, the maximum with zero. -/
def layerF (h : Feat) (src : EdgeNode) (nrm : EdgeW) (dst : EdgeNode) (selfw : Col)
    (w : WLayers) (b g bt : RowLayers) (l : Fin 4) : Feat :=
  reluF (normF (hpreF (aggF (xwF h (sliceSq w l)) src nrm dst) (xwF h (sliceSq w l)) selfw (sliceRow b l))
    (sliceRow g l) (sliceRow bt l))

end Cert.ReferenceIdeal.RefValue

end
-- ==== Proof.Bridge.Args.lean ====
import proofs.«147038_j12317966205319_1_alg».proof.Proof.KI.Conts
import proofs.«147038_j12317966205319_1_alg».proof.Proof.Ref.StageFns

noncomputable section

namespace Cert.Bridge

open Cert.KernelIdeal Cert.KernelIdeal.Gen Cert.KernelIdeal.Reg
open Idealize.ShloMosaic Idealize.ShloMosaic.TcCoe Idealize.SL.Sem
open Cert.ReferenceIdeal.RefValue (FeatIn EdgeList WIn Row WLayers RowLayers WSq)

/-! # The ten argument arrays, as launched

The features, the edge list, the embedding weights and bias, the four layers' weight matrices, their bias, scale and
shift rows, the output weights and the output bias: what the launch memory holds at each argument buffer of a core. -/

variable (m : (ℓ : Loc nD τ sig) → Buf (Elt Ideal) ℓ)

abbrev arg0 (c : Dev nD) : FeatIn := m ((c.tc : Thread nD τ).loc main_arg0)
abbrev arg1 (c : Dev nD) : EdgeList := m ((c.tc : Thread nD τ).loc main_arg1)
abbrev arg2 (c : Dev nD) : WIn := m ((c.tc : Thread nD τ).loc main_arg2)
abbrev arg3 (c : Dev nD) : Row := m ((c.tc : Thread nD τ).loc main_arg3)
abbrev arg4 (c : Dev nD) : WLayers := m ((c.tc : Thread nD τ).loc main_arg4)
abbrev arg5 (c : Dev nD) : RowLayers := m ((c.tc : Thread nD τ).loc main_arg5)
abbrev arg6 (c : Dev nD) : RowLayers := m ((c.tc : Thread nD τ).loc main_arg6)
abbrev arg7 (c : Dev nD) : RowLayers := m ((c.tc : Thread nD τ).loc main_arg7)
abbrev arg8 (c : Dev nD) : WSq := m ((c.tc : Thread nD τ).loc main_arg8)
abbrev arg9 (c : Dev nD) : Row := m ((c.tc : Thread nD τ).loc main_arg9)

end Cert.Bridge

end
-- ==== Proof.KI.HostEmb.lean ====
/- The edge-derived arrays of the graph convolution — sources, destinations, degrees, their −1/2 powers, the edge
   weights dinv[src]·dinv[dst], the self weights dinv², and the aggregate Σ over edges into d of xw[src]·weight — each
   as one function of the edge list at the ideal values; and what the buffers read by the embedding product hold when
   it starts: the features and the weights as launched, the bias vector as one row. -/
import proofs.«147038_j12317966205319_1_alg».proof.Proof.Gen.KernelIdeal.Regions
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Reg

open Idealize.ShloMosaic Idealize.ShloMosaic.TcCoe
open Idealize.ShloMosaic.ValueIdx
open Cert.KernelIdeal Cert.KernelIdeal.Gen
/-! ## The edge-derived arrays, each one function of the edge list

The edge list is a [2, E] array of node numbers: row 0 the sources, row 1 the destinations. -/

/-- The edge list's contents. -/
abbrev EdgeArr : Type := IVec S2x1600000 32
/-- A node-feature matrix [N, 64]. -/
abbrev FeatArr : Type := FVec Ideal S100000x64 .f32

/-- Row 0 of the edge list: the source of every edge. -/
def srcOf (e : EdgeArr) : IVec S1600000 32 :=
  fun i => shapeCast S1600000 (extractStridedSlice S1x1600000 ![0, 0] e slices_S2x1600000_S1x1600000_0_0) shapeCasts_S1x1600000_S1600000 i
/-- Row 1 of the edge list: the destination of every edge. -/
def dstOf (e : EdgeArr) : IVec S1600000 32 :=
  fun i => shapeCast S1600000 (extractStridedSlice S1x1600000 ![1, 0] e slices_S2x1600000_S1x1600000_1_0) shapeCasts_S1x1600000_S1600000 i

/-- A node number below zero counted from the end: x + N where x < 0, else x. -/
def wrapOf (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- The degree of every node: the number of edges that end at it, plus one. -/
def degOf (e : EdgeArr) : FVec Ideal S100000 .f32 :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dstOf e))
      (broadcastInDim S1600000 ![] bcast_S_S1600000 (constant (F := Ideal) S_ .f32 0x3F800000#32)))
    (broadcastInDim S100000 ![] bcast_S_S100000 (constant (F := Ideal) S_ .f32 0x3F800000#32))

/-- The degree to the power −1/2. -/
def dinvOf (e : EdgeArr) : FVec Ideal S100000 .f32 :=
  Host.powf (degOf e) (broadcastInDim S100000 ![] bcast_S_S100000 (constant (F := Ideal) S_ .f32 0xBF000000#32))

/-- The weight of every edge: the product of its two ends' degree factors. -/
def normEOf (e : EdgeArr) : FVec Ideal S1600000 .f32 :=
  mulf (Host.gather gather_S100000_S1600000x1_S1600000_n_0_n_n_0_1_1 (dinvOf e)
      (broadcastInDim S1600000x1 ![0] bcast_S1600000_S1600000x1_0 (wrapOf (srcOf e))))
    (Host.gather gather_S100000_S1600000x1_S1600000_n_0_n_n_0_1_1 (dinvOf e)
      (broadcastInDim S1600000x1 ![0] bcast_S1600000_S1600000x1_0 (wrapOf (dstOf e))))

/-- The weight of every node's own row: its degree factor squared, as a column. -/
def selfnOf (e : EdgeArr) : FVec Ideal S100000x1 .f32 :=
  fun i => shapeCast S100000x1 (mulf (dinvOf e) (dinvOf e)) shapeCasts_S100000_S100000x1 i

/-- The aggregate of a feature matrix over the edges: row d is the sum over the edges that end at d of the source's
    row times the edge's weight. -/
def aggOf (xw : FeatArr) (e : EdgeArr) : FeatArr :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dstOf e))
    (mulf (Host.gather gather_S100000x64_S1600000x1_S1600000x64_1_0_n_n_0_1_164 xw
        (broadcastInDim S1600000x1 ![0] bcast_S1600000_S1600000x1_0 (wrapOf (srcOf e))))
      (broadcastInDim S1600000x64 ![0, 1] bcast_S1600000x1_S1600000x64_0_1
        (broadcastInDim S1600000x1 ![0] bcast_S1600000_S1600000x1_0 (normEOf e))))

/-- A stack of matrices cut to one member along axis 0 reads, at (u, a, b), the stack at (r, a, b), r the offset. -/
theorem slice3_axis0_apply {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩) (u : Fin 1) (a : Fin n1) (b : Fin n2)
    (r : Fin n0) (hr : r.val = o) :
    extractStridedSlice ⟨3, ![1, n1, n2]⟩ ![o, 0, 0] X h (ix3 u a b) = X (ix3 r a b) :=
  extractStridedSlice_apply _ _ _ _ _ (fun ax => by
    match ax with
    | ⟨0, _⟩ => show r.val = o + u.val; omega
    | ⟨1, _⟩ => exact (Nat.zero_add _).symm
    | ⟨2, _⟩ => exact (Nat.zero_add _).symm)

variable (m : (ℓ : Loc nD τ sig) → Buf (Elt Ideal) ℓ) (outs : Outs (F := Ideal))

/-! ## What the first host stretch leaves: the entry of the embedding product -/

theorem V1_src (c : Dev nD) : V1 m c main_v1 = srcOf (m (c, main_arg1)) := by
  show StableHlo.after hostOps0 _ (Proc.devRef .tc main_v1) = _
  after_results
  rfl

theorem V1_dst (c : Dev nD) : V1 m c main_v3 = dstOf (m (c, main_arg1)) := by
  show StableHlo.after hostOps0 _ (Proc.devRef .tc main_v3) = _
  after_results
  rfl

set_option maxHeartbeats 1000000 in
theorem V1_normE (c : Dev nD) : V1 m c main_v26 = normEOf (m (c, main_arg1)) := by
  show StableHlo.after hostOps0 _ (Proc.devRef .tc main_v26) = _
  after_results_simp
  rfl

set_option maxHeartbeats 1000000 in
theorem V1_selfn (c : Dev nD) : V1 m c main_v28 = selfnOf (m (c, main_arg1)) := by
  show StableHlo.after hostOps0 _ (Proc.devRef .tc main_v28) = _
  after_results_simp
  rfl

/-- The embedding product's left factor: the node features as launched. -/
theorem emb_x (c : Dev nD) : V1 m c main_arg0 = m (c, main_arg0) := V1_of m c main_arg0 (by decide)
/-- Its right factor: the embedding weights as launched. -/
theorem emb_w (c : Dev nD) : V1 m c main_arg2 = m (c, main_arg2) := V1_of m c main_arg2 (by decide)
/-- Its bias row: the embedding bias vector as one row. -/
theorem emb_b (c : Dev nD) (u : Fin 1) (j : Fin 64) :
    (V1 m c main_v29 : S1x64.Idx → EReal) (ix2 u j) = (m (c, main_arg3) : S64.Idx → EReal) (ix1 j) := by
  show StableHlo.after hostOps0 _ (Proc.devRef .tc main_v29) (ix2 u j) = _
  after_results
  exact shapeCast_a_1a_apply _ _ u j

/-! ## What the embedding product leaves for the first layer -/

/-- A buffer neither the first host stretch nor the embedding product writes is as launched. -/
theorem V2_keep (c : Dev nD) (r : Ref sig .tc) (ha : r ∉ hostOps0_W) (hb : r ∉ ([main_v30] : List (Ref sig .tc))) :
    V2 m outs c r = V0 m c r := (V2_of m outs c r hb).trans (V1_of m c r ha)

theorem V2_x (c : Dev nD) : V2 m outs c main_v30 = outs 2 main_v30 c := Function.update_self ..
theorem V2_src (c : Dev nD) : V2 m outs c main_v1 = srcOf (m (c, main_arg1)) :=
  (V2_of m outs c main_v1 (by decide)).trans (V1_src m c)
theorem V2_dst (c : Dev nD) : V2 m outs c main_v3 = dstOf (m (c, main_arg1)) :=
  (V2_of m outs c main_v3 (by decide)).trans (V1_dst m c)
theorem V2_normE (c : Dev nD) : V2 m outs c main_v26 = normEOf (m (c, main_arg1)) :=
  (V2_of m outs c main_v26 (by decide)).trans (V1_normE m c)
theorem V2_selfn (c : Dev nD) : V2 m outs c main_v28 = selfnOf (m (c, main_arg1)) :=
  (V2_of m outs c main_v28 (by decide)).trans (V1_selfn m c)
theorem V2_arg4 (c : Dev nD) : V2 m outs c main_arg4 = m (c, main_arg4) := V2_keep m outs c main_arg4 (by decide) (by decide)
theorem V2_arg5 (c : Dev nD) : V2 m outs c main_arg5 = m (c, main_arg5) := V2_keep m outs c main_arg5 (by decide) (by decide)
theorem V2_arg6 (c : Dev nD) : V2 m outs c main_arg6 = m (c, main_arg6) := V2_keep m outs c main_arg6 (by decide) (by decide)
theorem V2_arg7 (c : Dev nD) : V2 m outs c main_arg7 = m (c, main_arg7) := V2_keep m outs c main_arg7 (by decide) (by decide)
theorem V2_arg8 (c : Dev nD) : V2 m outs c main_arg8 = m (c, main_arg8) := V2_keep m outs c main_arg8 (by decide) (by decide)
theorem V2_arg9 (c : Dev nD) : V2 m outs c main_arg9 = m (c, main_arg9) := V2_keep m outs c main_arg9 (by decide) (by decide)

end Cert.KernelIdeal.Reg
-- ==== Proof.KI.Val0.lean ====
import proofs.«147038_j12317966205319_1_alg».proof.Proof.KI.Fr0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the buffer contents when the region is entered, over the extended reals
variable (V : (c : Dev nD) → (b : Ref sig .tc) → Buf (Elt Ideal) ((c : Thread nD τ).loc b))

/-! # The value of a product of rows with a weight matrix, plus a bias row, over the extended reals

Row `r` of the output depends on row `r` of the left operand alone, on the whole weight matrix and on the whole bias
row: entry `(r, j)` is the sum over `k` of `x (r, k) * w (k, j)`, plus `b (0, j)`. Over the extended reals the
two narrowings to sixteen bits are the identity and the accumulator starts at zero, so nothing else is left. -/

/-! ## The entry arrays, at their literal types -/

/-- The left operand: a hundred thousand rows. -/
abbrev val0_0 (c : Dev nD) : S100000x32.Idx → EReal := V c (Pipeline.arrRef spec0 0)
/-- The weight matrix. -/
abbrev val0_1 (c : Dev nD) : S32x64.Idx → EReal := V c (Pipeline.arrRef spec0 1)
/-- The bias row. -/
abbrev val0_2 (c : Dev nD) : S1x64.Idx → EReal := V c (Pipeline.arrRef spec0 2)

/-- The output as one function of the three entry arrays, index by index. -/
abbrev val0_3 (c : Dev nD) : S100000x64.Idx → EReal := fun i =>
  (∑ k : Fin 32, val0_0 V c (ix2 (i 0) k) * val0_1 V c (ix2 k (i 1))) + val0_2 V c (ix2 (0 : Fin 1) (i 1))

/-! ## The contraction read at an index

The product contracts the left operand's columns with the weight matrix's rows. At output index `(p, q)` and
contraction coordinate `k` the left factor sits at `(p, k)` and the right factor at `(k, q)`. -/

theorem idx0_lhs_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem idx0_lhs_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem idx0_rhs_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem idx0_rhs_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- A product accumulated from zero, read at `(p, q)`: the sum over the contraction coordinate. -/
theorem val0_dot (a : FVec Ideal S10000x32 .bf16) (b : FVec Ideal S32x64 .bf16) (p : Fin 10000) (q : Fin 64) :
    matmul dot_S10000x32_S32x64_S10000x64_1_0_0_1_n_n none a b (constant (F := Ideal) S10000x64 .f32 0x00000000#32) (ix2 p q)
      = ∑ k : Fin 32, a (ix2 p k) * b (ix2 k q) := by
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k := funext fun ax => Fin.ext (by
    match ax with
    | ⟨0, _⟩ => exact idx0_lhs_0 _ _
    | ⟨1, _⟩ => exact (idx0_lhs_1 _ _).trans hk)
  have er : dot_S10000x32_S32x64_S10000x64_1_0_0_1_n_n.rhsIdx (ix2 p q) ((contrEquiv1 dot_S10000x32_S32x64_S10000x64_1_0_0_1_n_n 32 rfl rfl).symm k) = ix2 k q := funext fun ax => Fin.ext (by
    match ax with
    | ⟨0, _⟩ => exact (idx0_rhs_0 _ _).trans hk
    | ⟨1, _⟩ => exact idx0_rhs_1 _ _)
  rw [el, er]

/-! ## The body's payload at an index -/

/-- What the body stores at `(p, q)` of the tile, from the three blocks it loaded: the contraction of row `p` of
    the row tile with column `q` of the weight matrix, plus the bias at `q`. -/
theorem val0_pay (x0 : Vec Ideal S10000x32 .f32) (x1 : Vec Ideal S32x64 .f32) (x2 : Vec Ideal S1x64 .f32) (p : Fin 10000) (q : Fin 64) :
    k0_pay1 (F := Ideal) x0 x1 x2 (ix2 p q) = (∑ k : Fin 32, x0 (ix2 p k) * x1 (ix2 k q)) + x2 (ix2 (0 : Fin 1) q) := by
  unfold k0_pay1
  show matmul dot_S10000x32_S32x64_S10000x64_1_0_0_1_n_n none (truncf .bf16 x0 bitsLt_bf16_f32) (truncf .bf16 x1 bitsLt_bf16_f32)
        (constant (F := Ideal) S10000x64 .f32 0x00000000#32) (ix2 p q)
      + broadcastTo S10000x64 (shapeCast S1x64 x2 shapeCasts_S1x64_S1x64) broadcasts_S1x64_S10000x64 (ix2 p q) = _
  have ha : ∀ i, (truncf .bf16 x0 bitsLt_bf16_f32 : FVec Ideal S10000x32 .bf16) i = x0 i := fun _ => rfl
  have hb : ∀ i, (truncf .bf16 x1 bitsLt_bf16_f32 : FVec Ideal S32x64 .bf16) i = x1 i := fun _ => rfl
  refine congrArg₂ (· + ·) ((val0_dot _ _ p q).trans (Finset.sum_congr rfl fun k _ => congrArg₂ (· * ·) (ha _) (hb _))) ?_
  exact (broadcastTo_1b_ab_apply (shapeCast S1x64 x2 shapeCasts_S1x64_S1x64) broadcasts_S1x64_S10000x64 p q).trans
    (congrFun (shapeCast_self x2 shapeCasts_S1x64_S1x64) (ix2 (0 : Fin 1) q))

/-! ## Where each window's block sits in its array -/

theorem idx0_hz : (![0, 0] : Fin 2 → Nat) = fun _ => 0 := funext fun a => by fin_cases a <;> rfl

/-- The printed index maps, decided over the ten points: the row tile and the output tile are at block row `t`,
    block column 0; the weight matrix and the bias row are their arrays whole. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the row tile at point `t` is entry `(t * 10000 + p, k)` of the left operand. -/
theorem val0_0_blk (c : Dev nD) (t : Fin cfg0.N) (p : Fin 10000) (k : Fin 32) (r : Fin 100000) (hr : r.val = t.val * 10000 + p.val) :
    (iblk0 V c 0 t : S10000x32.Idx → EReal) (ix2 p k) = val0_0 V c (ix2 r k) := by
  show V c (Pipeline.arrRef spec0 0) (((cfg0.win 0).blk t).view.emb (ix2 p k)) = V c (Pipeline.arrRef spec0 0) (ix2 r k)
  obtain ⟨ea, eb, -⟩ := idx0_facts t
  refine congrArg _ (funext fun ax => Fin.ext ?_)
  match ax with
  | ⟨0, _⟩ => show win0_0.index t (0 : Fin 2) * 10000 + 1 * p.val = r.val; omega
  | ⟨1, _⟩ => show win0_0.index t (1 : Fin 2) * 32 + 1 * k.val = k.val; omega

/-- The weight matrix's block is the matrix, at every point. -/
theorem val0_1_blk (c : Dev nD) (t : Fin cfg0.N) (k : Fin 32) (q : Fin 64) :
    (iblk0 V c 1 t : S32x64.Idx → EReal) (ix2 k q) = val0_1 V c (ix2 k q) := by
  show V c (Pipeline.arrRef spec0 1) (((cfg0.win 1).blk t).view.emb (ix2 k q)) = V c (Pipeline.arrRef spec0 1) (ix2 k q)
  obtain ⟨-, -, ec, ed, -⟩ := idx0_facts t
  refine congrArg _ (funext fun ax => Fin.ext ?_)
  match ax with
  | ⟨0, _⟩ => show win0_1.index t (0 : Fin 2) * 32 + 1 * k.val = k.val; omega
  | ⟨1, _⟩ => show win0_1.index t (1 : Fin 2) * 64 + 1 * q.val = q.val; omega

/-- The bias row's block is the row, at every point. -/
theorem val0_2_blk (c : Dev nD) (t : Fin cfg0.N) (q : Fin 64) :
    (iblk0 V c 2 t : S1x64.Idx → EReal) (ix2 (0 : Fin 1) q) = val0_2 V c (ix2 (0 : Fin 1) q) := by
  show V c (Pipeline.arrRef spec0 2) (((cfg0.win 2).blk t).view.emb (ix2 (0 : Fin 1) q)) = V c (Pipeline.arrRef spec0 2) (ix2 (0 : Fin 1) q)
  obtain ⟨-, -, -, -, ee, ef, -⟩ := idx0_facts t
  refine congrArg _ (funext fun ax => Fin.ext ?_)
  match ax with
  | ⟨0, _⟩ => show win0_2.index t (0 : Fin 2) * 1 + 1 * (0 : Fin 1).val = (0 : Fin 1).val; omega
  | ⟨1, _⟩ => show win0_2.index t (1 : Fin 2) * 64 + 1 * q.val = q.val; omega

/-! ## What a point writes back -/

/-- What point `t` writes back to the output is block `t` of the closed form: rows `t * 10000` to
    `t * 10000 + 9999`. -/
theorem flushed0_3 (c : Dev nD) (t : Fin cfg0.N) :
    (dat0 (F := Ideal) V c).flushed 3 t = ((cfg0.win 3).blk t).view.read (Elt Ideal) (val0_3 V c) := by
  show (cfg0.win 3).cut (grid0.coords t) ((dat0 (F := Ideal) V c).after 3 t) = _
  rw [after0_3]
  unfold out0_3
  rw [View.canon_unit_zero idx0_hz]
  simp only [View.ld_unit_zero (S := S10000x32) idx0_hz, View.ld_unit_zero (S := S32x64) idx0_hz, View.ld_unit_zero (S := S1x64) idx0_hz]
  obtain ⟨-, -, -, -, -, -, eg, eh⟩ := idx0_facts t
  have ht : t.val < 10 := lt_of_lt_of_eq t.isLt N_0
  funext j
  obtain ⟨p, q, rfl⟩ : ∃ (p : Fin 10000) (q : Fin 64), j = ix2 p q := ⟨j 0, j 1, eq_ix2 j⟩
  have hp : p.val < 10000 := p.isLt
  refine (val0_pay (iblk0 V c 0 t) (iblk0 V c 1 t) (iblk0 V c 2 t) p q).trans ?_
  have hE : ((cfg0.win 3).blk t).view.emb (ix2 p q) = (ix2 (⟨t.val * 10000 + p.val, by omega⟩ : Fin 100000) q : S100000x64.Idx) :=
    funext fun ax => Fin.ext (by
      match ax with
      | ⟨0, _⟩ => show win0_3.index t (0 : Fin 2) * 10000 + 1 * p.val = t.val * 10000 + p.val; omega
      | ⟨1, _⟩ => show win0_3.index t (1 : Fin 2) * 64 + 1 * q.val = q.val; omega)
  show _ = val0_3 V c (((cfg0.win 3).blk t).view.emb (ix2 p q))
  rw [hE]
  exact congrArg₂ (· + ·)
    (Finset.sum_congr rfl fun k _ => congrArg₂ (· * ·) (val0_0_blk V c t p k _ rfl) (val0_1_blk V c t k q))
    (val0_2_blk V c t q)

/-! ## The ten tiles cover the output -/

/-- An index of the output is in point `t`'s block iff each coordinate is in the block's range on its axis. -/
theorem idx0_mem_3 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole (Pipeline.arrRef spec0 3)).slice (win0_3.rect t)).set ↔ _
  rw [View.set_slice_whole, Rect.mem_set_unit]
  exact Iff.rfl

/-- Row `r` of the output is in the block of point `r / 10000`, which writes back. -/
theorem idx0_cover_3 (i : S100000x64.Idx) :
    ∃ t : Fin cfg0.N, (cfg0.win 3).flush t = true ∧ i ∈ ((cfg0.win 3).blk t).view.set := by
  have hia : (i 0).val < 100000 := (i 0).isLt
  have hib : (i 1).val < 64 := (i 1).isLt
  have ht : (i 0).val / 10000 < cfg0.N := by rw [show cfg0.N = 10 from N_0]; omega
  obtain ⟨-, -, -, -, -, -, eg, eh⟩ := idx0_facts ⟨(i 0).val / 10000, ht⟩
  have hv : (⟨(i 0).val / 10000, ht⟩ : Fin cfg0.N).val = (i 0).val / 10000 := rfl
  refine ⟨⟨(i 0).val / 10000, ht⟩, flush0_3 _, ?_⟩
  rw [idx0_mem_3]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    omega

/-! ## The output array after the region -/

/-- After the ten points the output array is the closed form everywhere: entry `(r, j)` is the sum over `k` of
    `x (r, k) * w (k, j)`, plus `b (0, j)`, of the arrays as the region found them. -/
theorem arr0_3 (c : Dev nD) : (dat0 (F := Ideal) V c).arrAt 3 cfg0.N = fun i : S100000x64.Idx =>
    (∑ k : Fin 32, val0_0 V c (ix2 (i 0) k) * val0_1 V c (ix2 k (i 1))) + val0_2 V c (ix2 (0 : Fin 1) (i 1)) :=
  (dat0 (F := Ideal) V c).arrAt_eq_of_cover 3 (val0_3 V c) (fun t _ => flushed0_3 V c t) (idx0_cover_3)

end Cert.KernelIdeal.Reg

end
-- ==== Proof.Alg.Consts.lean ====
/- The float literals of the claim, as the extended reals their patterns denote, and the zero pattern as the
   neutral summand of the extended reals. -/
import Idealize.ShloMosaic.PureOps.Ideal
import Idealize.ShloMosaic.PureOps.Ideal.Laws
import Mathlib.Data.EReal.Basic
import Mathlib.Data.EReal.Operations
import Mathlib.Tactic.NormNum

noncomputable section

namespace Cert.Alg

open Idealize.ShloMosaic

/-- The pattern of 100000.0 (exponent field 143, fraction 4411392) denotes the real
    (2²³ + 4411392) · 2⁻⁷ = 100000, the number of rows. -/
theorem ofBits_N : Ideal.ofBits .f32 0x47C35000#32 = ((100000 : ℝ) : EReal) := by
  simp [Ideal.ofBits, Ideal.ieee, -EReal.coe_mul]; norm_num

/-- The pattern of −0.5 (sign bit set, exponent field 126, zero fraction) denotes the real −1/2. -/
theorem ofBits_neghalf : Ideal.ofBits .f32 0xBF000000#32 = ((-(1/2) : ℝ) : EReal) := by
  simp [Ideal.ofBits, Ideal.ieee, -EReal.coe_mul]; norm_num

/-- The pattern of 1.0 (exponent field 127, zero fraction) denotes the real 1. -/
theorem ofBits_one : Ideal.ofBits .f32 0x3F800000#32 = ((1 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- Adding the zero pattern on the right changes no extended real (0 is neutral at ±∞ too). -/
theorem add_zero_word (x : EReal) : x + Ideal.ofBits .f32 0x00000000#32 = x := by
  rw [ofBits_zero, add_zero]

/-- Adding the zero pattern on the left changes no extended real. -/
theorem zero_word_add (x : EReal) : Ideal.ofBits .f32 0x00000000#32 + x = x := by
  rw [ofBits_zero, zero_add]

end Cert.Alg

end
-- ==== Proof.Alg.Real.lean ====
/- Realness carried through the stages of a graph convolution with batch normalisation: every stage maps
   real-valued data (extended reals that are real numbers) to real-valued data. Sums, differences, products
   and maxima of reals are reals; the reciprocal square root of a positive real and a negative-half power of
   a positive real are positive reals; division by the row count is multiplication by its reciprocal. -/
import Idealize.ShloMosaic.PureOps.Ideal
import Idealize.ShloMosaic.PureOps.Ideal.Laws
import Mathlib.Data.EReal.Basic
import Mathlib.Data.EReal.Operations
import Mathlib.Analysis.SpecialFunctions.Pow.Real
import Mathlib.Analysis.SpecialFunctions.Sqrt
import Mathlib.Tactic.NormNum
import proofs.«147038_j12317966205319_1_alg».proof.Proof.LibStats
import proofs.«147038_j12317966205319_1_alg».proof.Proof.Alg.Consts

noncomputable section

namespace Cert.Alg

open Idealize.ShloMosaic
open scoped BigOperators

/-! ### Sums, differences, products, maxima of reals -/

/-- The sum of two reals is a real. -/
theorem real_add {a b : EReal} (ha : ∃ x : ℝ, a = x) (hb : ∃ y : ℝ, b = y) : ∃ z : ℝ, a + b = z := by
  obtain ⟨x, rfl⟩ := ha; obtain ⟨y, rfl⟩ := hb
  exact ⟨x + y, (EReal.coe_add x y).symm⟩

/-- The difference of two reals is a real. -/
theorem real_sub {a b : EReal} (ha : ∃ x : ℝ, a = x) (hb : ∃ y : ℝ, b = y) : ∃ z : ℝ, a - b = z := by
  obtain ⟨x, rfl⟩ := ha; obtain ⟨y, rfl⟩ := hb
  exact ⟨x - y, (EReal.coe_sub x y).symm⟩

/-- The product of two reals is a real. -/
theorem real_mul {a b : EReal} (ha : ∃ x : ℝ, a = x) (hb : ∃ y : ℝ, b = y) : ∃ z : ℝ, a * b = z := by
  obtain ⟨x, rfl⟩ := ha; obtain ⟨y, rfl⟩ := hb
  exact ⟨x * y, (EReal.coe_mul x y).symm⟩

/-- The maximum of a real and zero is a nonnegative real (the coercion is monotone, so it commutes with max). -/
theorem real_max_zero {a : EReal} (ha : ∃ x : ℝ, a = x) : ∃ z : ℝ, 0 ≤ z ∧ max a 0 = z := by
  obtain ⟨x, rfl⟩ := ha
  refine ⟨max x 0, le_max_right _ _, ?_⟩
  rw [← EReal.coe_zero]
  exact (EReal.coe_strictMono.monotone.map_max).symm

/-- The product of two positive reals is a positive real. -/
theorem pos_mul {a b : EReal} (ha : ∃ x : ℝ, 0 < x ∧ a = x) (hb : ∃ y : ℝ, 0 < y ∧ b = y) :
    ∃ z : ℝ, 0 < z ∧ a * b = z := by
  obtain ⟨x, hx, rfl⟩ := ha; obtain ⟨y, hy, rfl⟩ := hb
  exact ⟨x * y, mul_pos hx hy, (EReal.coe_mul x y).symm⟩

/-- A positive real is in particular a real. -/
theorem real_of_pos {a : EReal} (ha : ∃ x : ℝ, 0 < x ∧ a = x) : ∃ x : ℝ, a = x := by
  obtain ⟨x, _, h⟩ := ha; exact ⟨x, h⟩

/-- A real that is at least one is in particular a real. -/
theorem real_of_one_le {a : EReal} (ha : ∃ x : ℝ, 1 ≤ x ∧ a = x) : ∃ x : ℝ, a = x := by
  obtain ⟨x, _, h⟩ := ha; exact ⟨x, h⟩

/-! ### The linear stages -/

/-- A finite sum of products of reals is a real (each product is a real, and a finite sum of reals is one). -/
theorem real_sum_mul {ι : Type*} [Fintype ι] (f g : ι → EReal) (hf : ∀ k, ∃ x : ℝ, f k = x)
    (hg : ∀ k, ∃ y : ℝ, g k = y) : ∃ z : ℝ, ∑ k, f k * g k = z :=
  Cert.LibStats.sum_real Finset.univ _ (fun k _ => real_mul (hf k) (hg k))

/-- A row of a product of matrices plus a bias, all entries real, is a real. -/
theorem real_sum_mul_add {ι : Type*} [Fintype ι] (f g : ι → EReal) (b : EReal) (hf : ∀ k, ∃ x : ℝ, f k = x)
    (hg : ∀ k, ∃ y : ℝ, g k = y) (hb : ∃ y : ℝ, b = y) : ∃ z : ℝ, (∑ k, f k * g k) + b = z :=
  real_add (real_sum_mul f g hf hg) hb

/-- The combined value a + b·c + d of reals is a real. -/
theorem real_add_mul_add {a b c d : EReal} (ha : ∃ x : ℝ, a = x) (hb : ∃ x : ℝ, b = x) (hc : ∃ x : ℝ, c = x)
    (hd : ∃ x : ℝ, d = x) : ∃ z : ℝ, a + b * c + d = z :=
  real_add (real_add ha (real_mul hb hc)) hd

/-- A finite sum of reals over the whole index type is a real. -/
theorem real_sum {ι : Type*} [Fintype ι] (f : ι → EReal) (hf : ∀ k, ∃ x : ℝ, f k = x) : ∃ z : ℝ, ∑ k, f k = z :=
  Cert.LibStats.sum_real Finset.univ f (fun k _ => hf k)

/-- A finite sum of squares of reals is a real. -/
theorem real_sum_sq {ι : Type*} [Fintype ι] (f : ι → EReal) (hf : ∀ k, ∃ x : ℝ, f k = x) :
    ∃ z : ℝ, ∑ k, f k * f k = z :=
  real_sum_mul f f hf hf

/-! ### Division by the row count -/

/-- Division by the row count 100000 is multiplication by the real 1/100000, on EVERY extended real (division by
    a nonzero real is the product with its reciprocal, at the infinities too). -/
theorem div_N_eq_mul (S : EReal) :
    Ideal.div S (Ideal.ofBits .f32 0x47C35000#32) = S * ((1 / 100000 : ℝ) : EReal) := by
  rw [ofBits_N, Ideal.div_coe (by norm_num : (100000 : ℝ) ≠ 0)]

/-- A real divided by the row count is a real. -/
theorem real_div_N {S : EReal} (hS : ∃ x : ℝ, S = x) :
    ∃ z : ℝ, Ideal.div S (Ideal.ofBits .f32 0x47C35000#32) = z := by
  rw [div_N_eq_mul]; exact real_mul hS ⟨_, rfl⟩

/-- A real times the reciprocal of the row count is a real. -/
theorem real_mul_inv_N {S : EReal} (hS : ∃ x : ℝ, S = x) : ∃ z : ℝ, S * ((1 / 100000 : ℝ) : EReal) = z :=
  real_mul hS ⟨_, rfl⟩

/-! ### The reciprocal square root of the offset variance -/

/-- The reciprocal square root of a nonnegative real plus a positive real is a positive real. -/
theorem rsqrt_add_pos (v e : ℝ) (hv : 0 ≤ v) (he : 0 < e) :
    ∃ s : ℝ, 0 < s ∧ Ideal.rsqrt ((v : EReal) + (e : EReal)) = s := by
  have hpos : 0 < v + e := add_pos_of_nonneg_of_pos hv he
  refine ⟨(Real.sqrt (v + e))⁻¹, Cert.LibStats.rsqrt_real_pos _ hpos, ?_⟩
  rw [← EReal.coe_add, Cert.LibStats.rsqrt_real _ hpos]

/-- With the variance offset's pattern 0x3727C5AC (a positive real, about 10⁻⁵): the reciprocal square root of a
    nonnegative real variance plus the offset is a positive real. -/
theorem rsqrt_var_eps_pos {var : EReal} (hvar : ∃ v : ℝ, 0 ≤ v ∧ var = v) :
    ∃ s : ℝ, 0 < s ∧ Ideal.rsqrt (var + Ideal.ofBits .f32 0x3727C5AC#32) = s := by
  obtain ⟨v, hv, rfl⟩ := hvar
  obtain ⟨e, he, heq⟩ := Cert.LibStats.ofBits_eps
  rw [heq]
  exact rsqrt_add_pos v e hv he

/-! ### The normalised, rectified value -/

/-- The value max (γ·(h − μ)·s + β) 0 of reals h, μ, γ, β, s is a nonnegative real. -/
theorem real_norm_relu {h mu gamma beta s : EReal} (hh : ∃ x : ℝ, h = x) (hmu : ∃ x : ℝ, mu = x)
    (hg : ∃ x : ℝ, gamma = x) (hb : ∃ x : ℝ, beta = x) (hs : ∃ x : ℝ, s = x) :
    ∃ z : ℝ, 0 ≤ z ∧ max (gamma * (h - mu) * s + beta) 0 = z :=
  real_max_zero (real_add (real_mul (real_mul hg (real_sub hh hmu)) hs) hb)

/-- The same with s the reciprocal square root of a nonnegative real variance plus the offset 0x3727C5AC. -/
theorem real_norm_relu_rsqrt {h mu gamma beta var : EReal} (hh : ∃ x : ℝ, h = x) (hmu : ∃ x : ℝ, mu = x)
    (hg : ∃ x : ℝ, gamma = x) (hb : ∃ x : ℝ, beta = x) (hvar : ∃ v : ℝ, 0 ≤ v ∧ var = v) :
    ∃ z : ℝ, 0 ≤ z ∧
      max (gamma * (h - mu) * Ideal.rsqrt (var + Ideal.ofBits .f32 0x3727C5AC#32) + beta) 0 = z :=
  real_norm_relu hh hmu hg hb (real_of_pos (rsqrt_var_eps_pos hvar))

/-! ### The degree's negative-half power -/

/-- A positive real raised to the pattern of −0.5 is a positive real (the real power x ^ (−1/2) of a positive x). -/
theorem pow_neghalf_pos_of_pos {a : EReal} (ha : ∃ x : ℝ, 0 < x ∧ a = x) :
    ∃ p : ℝ, 0 < p ∧ Ideal.pow a (Ideal.ofBits .f32 0xBF000000#32) = p := by
  obtain ⟨x, hx, rfl⟩ := ha
  refine ⟨x ^ (-(1 / 2) : ℝ), Real.rpow_pos_of_pos hx _, ?_⟩
  rw [ofBits_neghalf, Ideal.pow_coe_coe]
  rfl

/-- In particular a real degree d ≥ 1 raised to the pattern of −0.5 is a positive real. -/
theorem pow_neghalf_pos {a : EReal} (ha : ∃ x : ℝ, 1 ≤ x ∧ a = x) :
    ∃ p : ℝ, 0 < p ∧ Ideal.pow a (Ideal.ofBits .f32 0xBF000000#32) = p := by
  obtain ⟨x, hx, rfl⟩ := ha
  exact pow_neghalf_pos_of_pos ⟨x, lt_of_lt_of_le one_pos hx, rfl⟩

end Cert.Alg

end
-- ==== Proof.Bridge.EmbCore.lean ====
import proofs.«147038_j12317966205319_1_alg».proof.Proof.KI.Val0
import proofs.«147038_j12317966205319_1_alg».proof.Proof.Ref.StageFns
import proofs.«147038_j12317966205319_1_alg».proof.Proof.Alg.Real

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat FeatIn WIn Row embedF)
open scoped BigOperators

/-! # The embedding: the first region's output array is x · W + b

The first region leaves, at row `r` and column `j` of its output, the sum over the 32 input columns `k` of
`x (r, k) * w (k, j)`, plus its bias row at `j`. When its three operand arrays hold the features, the weights and the
bias vector laid out as one row, that is the embedding function of the three. -/

variable (V : (c : Dev nD) → (b : Ref sig .tc) → Buf (Elt Ideal) ((c : Thread nD τ).loc b))

/-- The first region's output from what its operand arrays hold. -/
theorem emb_core (c : Dev nD) (x : FeatIn) (w : WIn) (b : Row)
    (hx : (val0_0 V c : S100000x32.Idx → EReal) = x) (hw : (val0_1 V c : S32x64.Idx → EReal) = w)
    (hb : ∀ (u : Fin 1) (j : Fin 64), val0_2 V c (ix2 u j) = b (ix1 j)) :
    (dat0 (F := Ideal) V c).arrAt 3 cfg0.N = embedF x w b := by
  rw [arr0_3]
  funext i
  show (∑ k : Fin 32, val0_0 V c (ix2 (i 0) k) * val0_1 V c (ix2 k (i 1))) + val0_2 V c (ix2 (0 : Fin 1) (i 1))
    = (∑ k : Fin 32, x (ix2 (i 0) k) * w (ix2 k (i 1))) + b (ix1 (i 1))
  exact congrArg₂ (· + ·)
    (Finset.sum_congr rfl fun k _ => congrArg₂ (· * ·) (congrFun hx _) (congrFun hw _))
    (hb 0 (i 1))

/-- Every entry of the embedding of real arrays is real: a finite sum of products of reals, plus a real. -/
theorem embedF_real (x : FeatIn) (w : WIn) (b : Row) (hx : ∀ i, ∃ r : ℝ, x i = r) (hw : ∀ i, ∃ r : ℝ, w i = r)
    (hb : ∀ i, ∃ r : ℝ, b i = r) (i : S100000x64.Idx) : ∃ r : ℝ, embedF x w b i = r :=
  Cert.Alg.real_sum_mul_add (fun k : Fin 32 => x (ix2 (i 0) k)) (fun k : Fin 32 => w (ix2 k (i 1))) (b (ix1 (i 1)))
    (fun k => hx _) (fun k => hw _) (hb _)

end Cert.Bridge

end
-- ==== Proof.Ref.AtEmbed.lean ====
/- The reference's embedding stage is the embedding function of its three operand arrays: the product's element is the
   sum over the 32 input columns, and the bias row, broadcast first to one row and then to every row, is read at the
   element's column. -/
import proofs.«147038_j12317966205319_1_alg».proof.Proof.Ref.StageFns

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable (x0 : FeatIn) (x2 : WIn) (x3 : Row)

/-- The embedded features are x · W + b, index by index. -/
theorem embed_eq : Stages.val_main_v31 (F := Ideal) x0 x2 x3 = embedF x0 x2 x3 := by
  funext i
  obtain ⟨r, j, rfl⟩ : ∃ (r : Fin 100000) (j : Fin 64), i = ix2 r j := ⟨i 0, i 1, eq_ix2 i⟩
  have el : ∀ k : Fin 32, Stages.lidx_main_v28 (ix2 r j) k = ix2 r k := fun k =>
    funext fun a => Fin.ext (by match a with | ⟨0, _⟩ => rfl | ⟨1, _⟩ => rfl)
  have er : ∀ k : Fin 32, Stages.ridx_main_v28 (ix2 r j) k = ix2 k j := fun k =>
    funext fun a => Fin.ext (by match a with | ⟨0, _⟩ => rfl | ⟨1, _⟩ => rfl)
  have eb : Stages.idx_main_v29 (Stages.idx_main_v30 (ix2 r j)) = ix1 j :=
    funext fun a => Fin.ext (by match a with | ⟨0, _⟩ => rfl)
  rw [Stages.val_main_v31_apply, Stages.val_main_v28_apply, Stages.val_main_v30_apply, Stages.val_main_v29_apply, eb]
  simp only [el, er, Ideal.addf_def]
  rfl

/-- At row r and column j. -/
theorem embed_at (r : Fin 100000) (j : Fin 64) :
    Stages.val_main_v31 (F := Ideal) x0 x2 x3 (ix2 r j) = (∑ k : Fin 32, x0 (ix2 r k) * x2 (ix2 k j)) + x3 (ix1 j) := by
  rw [embed_eq]; rfl

end Cert.ReferenceIdeal.RefValue

end
-- ==== Proof.Bridge.Emb.lean ====
import proofs.«147038_j12317966205319_1_alg».proof.Proof.KI.Conts
import proofs.«147038_j12317966205319_1_alg».proof.Proof.Bridge.Args
import proofs.«147038_j12317966205319_1_alg».proof.Proof.KI.HostEmb
import proofs.«147038_j12317966205319_1_alg».proof.Proof.Bridge.EmbCore
import proofs.«147038_j12317966205319_1_alg».proof.Proof.Ref.AtEmbed

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat FeatIn WIn Row embedF)
open scoped BigOperators

/-! # The embedding: what the first region leaves is the reference's embedded features

The first region's operand arrays are the features and the embedding weights as launched and the embedding bias as
one row; so its output is the embedding function of the three argument arrays, which is the reference's embedding
stage of them. -/

variable (m : (ℓ : Loc nD τ sig) → Buf (Elt Ideal) ℓ)

/-- What the first region leaves is the embedding of the three argument arrays. -/
theorem emb_eq (c : Dev nD) : outsF m 2 main_v30 c = embedF (arg0 m c) (arg2 m c) (arg3 m c) := by
  show W2 m c (Proc.devRef .tc main_v30) = _
  rw [W2_out3]
  exact emb_core (T1 m) c (arg0 m c) (arg2 m c) (arg3 m c) (emb_x m c) (emb_w m c) (fun u j => emb_b m c u j)

/-- It is the reference's embedding stage of them. -/
theorem emb_stage (c : Dev nD) :
    outsF m 2 main_v30 c = Cert.ReferenceIdeal.Stages.val_main_v31 (F := Ideal) (arg0 m c) (arg2 m c) (arg3 m c) :=
  (emb_eq m c).trans (Cert.ReferenceIdeal.RefValue.embed_eq (arg0 m c) (arg2 m c) (arg3 m c)).symm

/-- Its entries are real when the three argument arrays' are. -/
theorem emb_real (c : Dev nD) (h0 : ∀ i, ∃ x : ℝ, arg0 m c i = x) (h2 : ∀ i, ∃ x : ℝ, arg2 m c i = x)
    (h3 : ∀ i, ∃ x : ℝ, arg3 m c i = x) (i : S100000x64.Idx) :
    ∃ x : ℝ, (outsF m 2 main_v30 c : S100000x64.Idx → EReal) i = (x : EReal) := by
  rw [emb_eq]
  exact embedF_real _ _ _ h0 h2 h3 i

end Cert.Bridge

end
-- ==== Proof.KI.HostL0.lean ====
/- Layer 0 of the graph convolution, at the ideal values: what the buffers read by the layer's product, its combine
   and its normalisation hold when each starts. The product reads the previous features, member 0 of the stacked
   weights and a zero row; the combine reads the aggregate of the product over the edges, the product, the self weights
   and row 0 of the stacked biases; the normalisation reads the combine's output, the mean Σ/100000, the reciprocal
   deviation rsqrt(Σ²/100000 − mean² + ε) and rows 0 of the stacked scales and shifts. -/
import proofs.«147038_j12317966205319_1_alg».proof.Proof.Gen.KernelIdeal.Regions
import Idealize.ShloMosaic.Lib.ValueIdx
import Idealize.ShloMosaic.Lib.ValueLayout
import Idealize.ShloMosaic.Lib.IdealHost
import Idealize.ShloMosaic.PureOps.Ideal.Laws
import proofs.«147038_j12317966205319_1_alg».proof.Proof.KI.HostEmb

set_option maxRecDepth 16384

noncomputable section

namespace Cert.KernelIdeal.Reg

open Idealize.ShloMosaic Idealize.ShloMosaic.TcCoe
open Idealize.ShloMosaic.ValueIdx
open Cert.KernelIdeal Cert.KernelIdeal.Gen

variable (m : (ℓ : Loc nD τ sig) → Buf (Elt Ideal) ℓ) (outs : Outs (F := Ideal))

/-! ## Buffers the layer does not write -/

theorem V4_keep_L0 (c : Dev nD) (r : Ref sig .tc) (ha : r ∉ hostOps1_W) (hb : r ∉ ([main_v34] : List (Ref sig .tc))) :
    V4 m outs c r = V2 m outs c r := (V4_of m outs c r hb).trans (V3_of m outs c r ha)
theorem V6_keep_L0 (c : Dev nD) (r : Ref sig .tc) (ha : r ∉ hostOps1_W) (hb : r ∉ ([main_v34] : List (Ref sig .tc)))
    (hc : r ∉ hostOps2_W) (hd : r ∉ ([main_v51_0, main_v51_1, main_v51_2] : List (Ref sig .tc))) :
    V6 m outs c r = V2 m outs c r :=
  (V6_of m outs c r hd).trans ((V5_of m outs c r hc).trans (V4_keep_L0 m outs c r ha hb))
theorem V8_keep_L0 (c : Dev nD) (r : Ref sig .tc) (ha : r ∉ hostOps1_W) (hb : r ∉ ([main_v34] : List (Ref sig .tc)))
    (hc : r ∉ hostOps2_W) (hd : r ∉ ([main_v51_0, main_v51_1, main_v51_2] : List (Ref sig .tc)))
    (he : r ∉ hostOps3_W) (hf : r ∉ ([main_v67] : List (Ref sig .tc))) :
    V8 m outs c r = V2 m outs c r :=
  (V8_of m outs c r hf).trans ((V7_of m outs c r he).trans (V6_keep_L0 m outs c r ha hb hc hd))

/-! ## The entry of the layer's product: features, the layer's weight matrix, a zero row -/

theorem mm_x_L0 (c : Dev nD) : V3 m outs c main_v30 = outs 2 main_v30 c :=
  (V3_of m outs c main_v30 (by decide)).trans (V2_x m outs c)

theorem mm_w_L0 (c : Dev nD) (k j : Fin 64) :
    (V3 m outs c main_v32 : S64x64.Idx → EReal) (ix2 k j) = (m (c, main_arg4) : S4x64x64.Idx → EReal) (ix3 (0 : Fin 4) k j) := by
  show StableHlo.after hostOps1 _ (Proc.devRef .tc main_v32) (ix2 k j) = _
  after_results
  show shapeCast S64x64 (extractStridedSlice S1x64x64 _ (V2 m outs c main_arg4 : S4x64x64.Idx → EReal) _) _ (ix2 k j) = _
  rw [V2_arg4]
  exact (shapeCast_1ab_ab_apply _ _ k j).trans (slice3_axis0_apply _ _ _ _ k j (0 : Fin 4) rfl)

theorem mm_b_L0 (c : Dev nD) (u : Fin 1) (j : Fin 64) : (V3 m outs c main_v33 : S1x64.Idx → EReal) (ix2 u j) = (0 : EReal) := by
  show StableHlo.after hostOps1 _ (Proc.devRef .tc main_v33) (ix2 u j) = _
  after_results
  exact Ideal.ofBits_zero_f32

/-! ## The entry of the layer's combine: the aggregate, the product, the self weights, the layer's bias row -/

theorem V4_xw_L0 (c : Dev nD) : V4 m outs c main_v34 = outs 4 main_v34 c := Function.update_self ..

theorem cb_agg_L0 (c : Dev nD) : V5 m outs c main_v47 = aggOf (outs 4 main_v34 c) (m (c, main_arg1)) := by
  show StableHlo.after hostOps2 _ (Proc.devRef .tc main_v47) = _
  after_results_simp
  rw [V4_xw_L0, (V4_keep_L0 m outs c main_v1 (by decide) (by decide)).trans (V2_src m outs c),
    (V4_keep_L0 m outs c main_v3 (by decide) (by decide)).trans (V2_dst m outs c),
    (V4_keep_L0 m outs c main_v26 (by decide) (by decide)).trans (V2_normE m outs c)]
  rfl

theorem cb_xw_L0 (c : Dev nD) : V5 m outs c main_v34 = outs 4 main_v34 c :=
  (V5_of m outs c main_v34 (by decide)).trans (V4_xw_L0 m outs c)

theorem cb_selfn_L0 (c : Dev nD) : V5 m outs c main_v28 = selfnOf (m (c, main_arg1)) :=
  (V5_of m outs c main_v28 (by decide)).trans ((V4_keep_L0 m outs c main_v28 (by decide) (by decide)).trans (V2_selfn m outs c))

theorem cb_convb_L0 (c : Dev nD) (u : Fin 1) (j : Fin 64) :
    (V5 m outs c main_v50 : S1x64.Idx → EReal) (ix2 u j) = (m (c, main_arg5) : S4x64.Idx → EReal) (ix2 (0 : Fin 4) j) := by
  show StableHlo.after hostOps2 _ (Proc.devRef .tc main_v50) (ix2 u j) = _
  after_results
  show shapeCast S1x64 (shapeCast S64 (extractStridedSlice S1x64 _ (V4 m outs c main_arg5 : S4x64.Idx → EReal) _) _) _ (ix2 u j) = _
  rw [(V4_keep_L0 m outs c main_arg5 (by decide) (by decide)).trans (V2_arg5 m outs c)]
  exact (shapeCast_a_1a_apply _ _ u j).trans ((shapeCast_1a_a_apply _ _ j).trans
    (slice2_axis0_apply _ _ _ (0 : Fin 1) j (0 : Fin 4) rfl))

/-! ## The entry of the layer's normalisation: the combine's three outputs, the mean and the reciprocal deviation
    computed from its two column sums, the layer's scale and shift rows -/

theorem V6_hpre_L0 (c : Dev nD) : V6 m outs c main_v51_0 = outs 6 main_v51_0 c := by
  show Function.update (Function.update (Function.update (V5 m outs c) main_v51_0 _) main_v51_1 _) main_v51_2 _ main_v51_0 = _
  rw [Function.update_of_ne (StableHlo.devRef_ne_of_ne (by decide)), Function.update_of_ne (StableHlo.devRef_ne_of_ne (by decide)),
    Function.update_self]
theorem V6_sum_L0 (c : Dev nD) : V6 m outs c main_v51_1 = outs 6 main_v51_1 c := by
  show Function.update (Function.update (Function.update (V5 m outs c) main_v51_0 _) main_v51_1 _) main_v51_2 _ main_v51_1 = _
  rw [Function.update_of_ne (StableHlo.devRef_ne_of_ne (by decide)), Function.update_self]
theorem V6_sumsq_L0 (c : Dev nD) : V6 m outs c main_v51_2 = outs 6 main_v51_2 c := Function.update_self ..

theorem bn_hpre_L0 (c : Dev nD) : V7 m outs c main_v51_0 = outs 6 main_v51_0 c :=
  (V7_of m outs c main_v51_0 (by decide)).trans (V6_hpre_L0 m outs c)

theorem bn_mu_L0 (c : Dev nD) (u : Fin 1) (j : Fin 64) :
    (V7 m outs c main_v53 : S1x64.Idx → EReal) (ix2 u j)
      = Ideal.div ((outs 6 main_v51_1 c : S1x64.Idx → EReal) (ix2 u j)) (Ideal.ofBits .f32 0x47C35000#32) := by
  show StableHlo.after hostOps3 _ (Proc.devRef .tc main_v53) (ix2 u j) = _
  after_results
  rw [V6_sum_L0]
  rfl

theorem bn_invstd_L0 (c : Dev nD) (u : Fin 1) (j : Fin 64) :
    (V7 m outs c main_v60 : S1x64.Idx → EReal) (ix2 u j)
      = Ideal.rsqrt ((Ideal.div ((outs 6 main_v51_2 c : S1x64.Idx → EReal) (ix2 u j)) (Ideal.ofBits .f32 0x47C35000#32)
            - Ideal.div ((outs 6 main_v51_1 c : S1x64.Idx → EReal) (ix2 u j)) (Ideal.ofBits .f32 0x47C35000#32)
              * Ideal.div ((outs 6 main_v51_1 c : S1x64.Idx → EReal) (ix2 u j)) (Ideal.ofBits .f32 0x47C35000#32))
          + Ideal.ofBits .f32 0x3727C5AC#32) := by
  show StableHlo.after hostOps3 _ (Proc.devRef .tc main_v60) (ix2 u j) = _
  after_results
  rw [V6_sum_L0, V6_sumsq_L0]
  rfl

theorem bn_gamma_L0 (c : Dev nD) (u : Fin 1) (j : Fin 64) :
    (V7 m outs c main_v63 : S1x64.Idx → EReal) (ix2 u j) = (m (c, main_arg6) : S4x64.Idx → EReal) (ix2 (0 : Fin 4) j) := by
  show StableHlo.after hostOps3 _ (Proc.devRef .tc main_v63) (ix2 u j) = _
  after_results
  show shapeCast S1x64 (shapeCast S64 (extractStridedSlice S1x64 _ (V6 m outs c main_arg6 : S4x64.Idx → EReal) _) _) _ (ix2 u j) = _
  rw [(V6_keep_L0 m outs c main_arg6 (by decide) (by decide) (by decide) (by decide)).trans (V2_arg6 m outs c)]
  exact (shapeCast_a_1a_apply _ _ u j).trans ((shapeCast_1a_a_apply _ _ j).trans
    (slice2_axis0_apply _ _ _ (0 : Fin 1) j (0 : Fin 4) rfl))

theorem bn_beta_L0 (c : Dev nD) (u : Fin 1) (j : Fin 64) :
    (V7 m outs c main_v66 : S1x64.Idx → EReal) (ix2 u j) = (m (c, main_arg7) : S4x64.Idx → EReal) (ix2 (0 : Fin 4) j) := by
  show StableHlo.after hostOps3 _ (Proc.devRef .tc main_v66) (ix2 u j) = _
  after_results
  show shapeCast S1x64 (shapeCast S64 (extractStridedSlice S1x64 _ (V6 m outs c main_arg7 : S4x64.Idx → EReal) _) _) _ (ix2 u j) = _
  rw [(V6_keep_L0 m outs c main_arg7 (by decide) (by decide) (by decide) (by decide)).trans (V2_arg7 m outs c)]
  exact (shapeCast_a_1a_apply _ _ u j).trans ((shapeCast_1a_a_apply _ _ j).trans
    (slice2_axis0_apply _ _ _ (0 : Fin 1) j (0 : Fin 4) rfl))

/-! ## What the layer leaves for the next -/

theorem V8_x (c : Dev nD) : V8 m outs c main_v67 = outs 8 main_v67 c := Function.update_self ..
theorem V8_src (c : Dev nD) : V8 m outs c main_v1 = srcOf (m (c, main_arg1)) :=
  (V8_keep_L0 m outs c main_v1 (by decide) (by decide) (by decide) (by decide) (by decide) (by decide)).trans (V2_src m outs c)
theorem V8_dst (c : Dev nD) : V8 m outs c main_v3 = dstOf (m (c, main_arg1)) :=
  (V8_keep_L0 m outs c main_v3 (by decide) (by decide) (by decide) (by decide) (by decide) (by decide)).trans (V2_dst m outs c)
theorem V8_normE (c : Dev nD) : V8 m outs c main_v26 = normEOf (m (c, main_arg1)) :=
  (V8_keep_L0 m outs c main_v26 (by decide) (by decide) (by decide) (by decide) (by decide) (by decide)).trans (V2_normE m outs c)
theorem V8_selfn (c : Dev nD) : V8 m outs c main_v28 = selfnOf (m (c, main_arg1)) :=
  (V8_keep_L0 m outs c main_v28 (by decide) (by decide) (by decide) (by decide) (by decide) (by decide)).trans (V2_selfn m outs c)
theorem V8_arg4 (c : Dev nD) : V8 m outs c main_arg4 = m (c, main_arg4) :=
  (V8_keep_L0 m outs c main_arg4 (by decide) (by decide) (by decide) (by decide) (by decide) (by decide)).trans (V2_arg4 m outs c)
theorem V8_arg5 (c : Dev nD) : V8 m outs c main_arg5 = m (c, main_arg5) :=
  (V8_keep_L0 m outs c main_arg5 (by decide) (by decide) (by decide) (by decide) (by decide) (by decide)).trans (V2_arg5 m outs c)
theorem V8_arg6 (c : Dev nD) : V8 m outs c main_arg6 = m (c, main_arg6) :=
  (V8_keep_L0 m outs c main_arg6 (by decide) (by decide) (by decide) (by decide) (by decide) (by decide)).trans (V2_arg6 m outs c)
theorem V8_arg7 (c : Dev nD) : V8 m outs c main_arg7 = m (c, main_arg7) :=
  (V8_keep_L0 m outs c main_arg7 (by decide) (by decide) (by decide) (by decide) (by decide) (by decide)).trans (V2_arg7 m outs c)
theorem V8_arg8 (c : Dev nD) : V8 m outs c main_arg8 = m (c, main_arg8) :=
  (V8_keep_L0 m outs c main_arg8 (by decide) (by decide) (by decide) (by decide) (by decide) (by decide)).trans (V2_arg8 m outs c)
theorem V8_arg9 (c : Dev nD) : V8 m outs c main_arg9 = m (c, main_arg9) :=
  (V8_keep_L0 m outs c main_arg9 (by decide) (by decide) (by decide) (by decide) (by decide) (by decide)).trans (V2_arg9 m outs c)

end Cert.KernelIdeal.Reg
-- ==== Proof.KI.Val1.lean ====
import proofs.«147038_j12317966205319_1_alg».proof.Proof.KI.Fr1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the buffer contents when the region is entered, over the extended reals
variable (V : (c : Dev nD) → (b : Ref sig .tc) → Buf (Elt Ideal) ((c : Thread nD τ).loc b))

/-! # The value of a product of rows with a weight matrix, plus a bias row, over the extended reals

Row `r` of the output depends on row `r` of the left operand alone, on the whole weight matrix and on the whole bias
row: entry `(r, j)` is the sum over `k` of `x (r, k) * w (k, j)`, plus `b (0, j)`. Over the extended reals the
two narrowings to sixteen bits are the identity and the accumulator starts at zero, so nothing else is left. -/

/-! ## The entry arrays, at their literal types -/

/-- The left operand: a hundred thousand rows. -/
abbrev val1_0 (c : Dev nD) : S100000x64.Idx → EReal := V c (Pipeline.arrRef spec1 0)
/-- The weight matrix. -/
abbrev val1_1 (c : Dev nD) : S64x64.Idx → EReal := V c (Pipeline.arrRef spec1 1)
/-- The bias row. -/
abbrev val1_2 (c : Dev nD) : S1x64.Idx → EReal := V c (Pipeline.arrRef spec1 2)

/-- The output as one function of the three entry arrays, index by index. -/
abbrev val1_3 (c : Dev nD) : S100000x64.Idx → EReal := fun i =>
  (∑ k : Fin 64, val1_0 V c (ix2 (i 0) k) * val1_1 V c (ix2 k (i 1))) + val1_2 V c (ix2 (0 : Fin 1) (i 1))

/-! ## The contraction read at an index

The product contracts the left operand's columns with the weight matrix's rows. At output index `(p, q)` and
contraction coordinate `k` the left factor sits at `(p, k)` and the right factor at `(k, q)`. -/

theorem idx1_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem idx1_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem idx1_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem idx1_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product accumulated from zero, read at `(p, q)`: the sum over the contraction coordinate. -/
theorem val1_dot (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun ax => Fin.ext (by
    match ax with
    | ⟨0, _⟩ => exact idx1_lhs_0 _ _
    | ⟨1, _⟩ => exact (idx1_lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun ax => Fin.ext (by
    match ax with
    | ⟨0, _⟩ => exact (idx1_rhs_0 _ _).trans hk
    | ⟨1, _⟩ => exact idx1_rhs_1 _ _)
  rw [el, er]

/-! ## The body's payload at an index -/

/-- What the body stores at `(p, q)` of the tile, from the three blocks it loaded: the contraction of row `p` of
    the row tile with column `q` of the weight matrix, plus the bias at `q`. -/
theorem val1_pay (x0 : Vec Ideal S10000x64 .f32) (x1 : Vec Ideal S64x64 .f32) (x2 : Vec Ideal S1x64 .f32) (p : Fin 10000) (q : Fin 64) :
    k1_pay1 (F := Ideal) x0 x1 x2 (ix2 p q) = (∑ k : Fin 64, x0 (ix2 p k) * x1 (ix2 k q)) + x2 (ix2 (0 : Fin 1) q) := by
  unfold k1_pay1
  show matmul dot_S10000x64_S64x64_S10000x64_1_0_0_1_n_n none (truncf .bf16 (shapeCast S10000x64 x0 shapeCasts_S10000x64_S10000x64) bitsLt_bf16_f32) (truncf .bf16 (shapeCast S64x64 x1 shapeCasts_S64x64_S64x64) bitsLt_bf16_f32)
        (constant (F := Ideal) S10000x64 .f32 0x00000000#32) (ix2 p q)
      + broadcastTo S10000x64 (shapeCast S1x64 x2 shapeCasts_S1x64_S1x64) broadcasts_S1x64_S10000x64 (ix2 p q) = _
  have ha : ∀ i, (truncf .bf16 (shapeCast S10000x64 x0 shapeCasts_S10000x64_S10000x64) bitsLt_bf16_f32 : FVec Ideal S10000x64 .bf16) i = x0 i := fun i => congrFun (shapeCast_self x0 shapeCasts_S10000x64_S10000x64) i
  have hb : ∀ i, (truncf .bf16 (shapeCast S64x64 x1 shapeCasts_S64x64_S64x64) bitsLt_bf16_f32 : FVec Ideal S64x64 .bf16) i = x1 i := fun i => congrFun (shapeCast_self x1 shapeCasts_S64x64_S64x64) i
  refine congrArg₂ (· + ·) ((val1_dot _ _ p q).trans (Finset.sum_congr rfl fun k _ => congrArg₂ (· * ·) (ha _) (hb _))) ?_
  exact (broadcastTo_1b_ab_apply (shapeCast S1x64 x2 shapeCasts_S1x64_S1x64) broadcasts_S1x64_S10000x64 p q).trans
    (congrFun (shapeCast_self x2 shapeCasts_S1x64_S1x64) (ix2 (0 : Fin 1) q))

/-! ## Where each window's block sits in its array -/

theorem idx1_hz : (![0, 0] : Fin 2 → Nat) = fun _ => 0 := funext fun a => by fin_cases a <;> rfl

/-- The printed index maps, decided over the ten points: the row tile and the output tile are at block row `t`,
    block column 0; the weight matrix and the bias row are their arrays whole. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, k)` of the row tile at point `t` is entry `(t * 10000 + p, k)` of the left operand. -/
theorem val1_0_blk (c : Dev nD) (t : Fin cfg1.N) (p : Fin 10000) (k : Fin 64) (r : Fin 100000) (hr : r.val = t.val * 10000 + p.val) :
    (iblk1 V c 0 t : S10000x64.Idx → EReal) (ix2 p k) = val1_0 V c (ix2 r k) := by
  show V c (Pipeline.arrRef spec1 0) (((cfg1.win 0).blk t).view.emb (ix2 p k)) = V c (Pipeline.arrRef spec1 0) (ix2 r k)
  obtain ⟨ea, eb, -⟩ := idx1_facts t
  refine congrArg _ (funext fun ax => Fin.ext ?_)
  match ax with
  | ⟨0, _⟩ => show win1_0.index t (0 : Fin 2) * 10000 + 1 * p.val = r.val; omega
  | ⟨1, _⟩ => show win1_0.index t (1 : Fin 2) * 64 + 1 * k.val = k.val; omega

/-- The weight matrix's block is the matrix, at every point. -/
theorem val1_1_blk (c : Dev nD) (t : Fin cfg1.N) (k : Fin 64) (q : Fin 64) :
    (iblk1 V c 1 t : S64x64.Idx → EReal) (ix2 k q) = val1_1 V c (ix2 k q) := by
  show V c (Pipeline.arrRef spec1 1) (((cfg1.win 1).blk t).view.emb (ix2 k q)) = V c (Pipeline.arrRef spec1 1) (ix2 k q)
  obtain ⟨-, -, ec, ed, -⟩ := idx1_facts t
  refine congrArg _ (funext fun ax => Fin.ext ?_)
  match ax with
  | ⟨0, _⟩ => show win1_1.index t (0 : Fin 2) * 64 + 1 * k.val = k.val; omega
  | ⟨1, _⟩ => show win1_1.index t (1 : Fin 2) * 64 + 1 * q.val = q.val; omega

/-- The bias row's block is the row, at every point. -/
theorem val1_2_blk (c : Dev nD) (t : Fin cfg1.N) (q : Fin 64) :
    (iblk1 V c 2 t : S1x64.Idx → EReal) (ix2 (0 : Fin 1) q) = val1_2 V c (ix2 (0 : Fin 1) q) := by
  show V c (Pipeline.arrRef spec1 2) (((cfg1.win 2).blk t).view.emb (ix2 (0 : Fin 1) q)) = V c (Pipeline.arrRef spec1 2) (ix2 (0 : Fin 1) q)
  obtain ⟨-, -, -, -, ee, ef, -⟩ := idx1_facts t
  refine congrArg _ (funext fun ax => Fin.ext ?_)
  match ax with
  | ⟨0, _⟩ => show win1_2.index t (0 : Fin 2) * 1 + 1 * (0 : Fin 1).val = (0 : Fin 1).val; omega
  | ⟨1, _⟩ => show win1_2.index t (1 : Fin 2) * 64 + 1 * q.val = q.val; omega

/-! ## What a point writes back -/

/-- What point `t` writes back to the output is block `t` of the closed form: rows `t * 10000` to
    `t * 10000 + 9999`. -/
theorem flushed1_3 (c : Dev nD) (t : Fin cfg1.N) :
    (dat1 (F := Ideal) V c).flushed 3 t = ((cfg1.win 3).blk t).view.read (Elt Ideal) (val1_3 V c) := by
  show (cfg1.win 3).cut (grid1.coords t) ((dat1 (F := Ideal) V c).after 3 t) = _
  rw [after1_3]
  unfold out1_3
  rw [View.canon_unit_zero idx1_hz]
  simp only [View.ld_unit_zero (S := S10000x64) idx1_hz, View.ld_unit_zero (S := S64x64) idx1_hz, View.ld_unit_zero (S := S1x64) idx1_hz]
  obtain ⟨-, -, -, -, -, -, eg, eh⟩ := idx1_facts t
  have ht : t.val < 10 := lt_of_lt_of_eq t.isLt N_1
  funext j
  obtain ⟨p, q, rfl⟩ : ∃ (p : Fin 10000) (q : Fin 64), j = ix2 p q := ⟨j 0, j 1, eq_ix2 j⟩
  have hp : p.val < 10000 := p.isLt
  refine (val1_pay (iblk1 V c 0 t) (iblk1 V c 1 t) (iblk1 V c 2 t) p q).trans ?_
  have hE : ((cfg1.win 3).blk t).view.emb (ix2 p q) = (ix2 (⟨t.val * 10000 + p.val, by omega⟩ : Fin 100000) q : S100000x64.Idx) :=
    funext fun ax => Fin.ext (by
      match ax with
      | ⟨0, _⟩ => show win1_3.index t (0 : Fin 2) * 10000 + 1 * p.val = t.val * 10000 + p.val; omega
      | ⟨1, _⟩ => show win1_3.index t (1 : Fin 2) * 64 + 1 * q.val = q.val; omega)
  show _ = val1_3 V c (((cfg1.win 3).blk t).view.emb (ix2 p q))
  rw [hE]
  exact congrArg₂ (· + ·)
    (Finset.sum_congr rfl fun k _ => congrArg₂ (· * ·) (val1_0_blk V c t p k _ rfl) (val1_1_blk V c t k q))
    (val1_2_blk V c t q)

/-! ## The ten tiles cover the output -/

/-- An index of the output is in point `t`'s block iff each coordinate is in the block's range on its axis. -/
theorem idx1_mem_3 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole (Pipeline.arrRef spec1 3)).slice (win1_3.rect t)).set ↔ _
  rw [View.set_slice_whole, Rect.mem_set_unit]
  exact Iff.rfl

/-- Row `r` of the output is in the block of point `r / 10000`, which writes back. -/
theorem idx1_cover_3 (i : S100000x64.Idx) :
    ∃ t : Fin cfg1.N, (cfg1.win 3).flush t = true ∧ i ∈ ((cfg1.win 3).blk t).view.set := by
  have hia : (i 0).val < 100000 := (i 0).isLt
  have hib : (i 1).val < 64 := (i 1).isLt
  have ht : (i 0).val / 10000 < cfg1.N := by rw [show cfg1.N = 10 from N_1]; omega
  obtain ⟨-, -, -, -, -, -, eg, eh⟩ := idx1_facts ⟨(i 0).val / 10000, ht⟩
  have hv : (⟨(i 0).val / 10000, ht⟩ : Fin cfg1.N).val = (i 0).val / 10000 := rfl
  refine ⟨⟨(i 0).val / 10000, ht⟩, flush1_3 _, ?_⟩
  rw [idx1_mem_3]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    omega

/-! ## The output array after the region -/

/-- After the ten points the output array is the closed form everywhere: entry `(r, j)` is the sum over `k` of
    `x (r, k) * w (k, j)`, plus `b (0, j)`, of the arrays as the region found them. -/
theorem arr1_3 (c : Dev nD) : (dat1 (F := Ideal) V c).arrAt 3 cfg1.N = fun i : S100000x64.Idx =>
    (∑ k : Fin 64, val1_0 V c (ix2 (i 0) k) * val1_1 V c (ix2 k (i 1))) + val1_2 V c (ix2 (0 : Fin 1) (i 1)) :=
  (dat1 (F := Ideal) V c).arrAt_eq_of_cover 3 (val1_3 V c) (fun t _ => flushed1_3 V c t) (idx1_cover_3)

end Cert.KernelIdeal.Reg

end
-- ==== Proof.KI.Val3.lean ====
import proofs.«147038_j12317966205319_1_alg».proof.Proof.KI.Fr3
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered, over the extended reals
variable (V : (c : Dev nD) → (b : Ref sig .tc) → Buf (Elt Ideal) ((c : Thread nD τ).loc b))

/-! # The normalize-and-clamp region over the extended reals: the output array, index by index -/

/-! ## The entry arrays, at their literal types: the rows (window 0) and the four single rows (windows 1 … 4) -/

abbrev val3_0 (c : Dev nD) : S100000x64.Idx → EReal := V c (Pipeline.arrRef spec3 0)
abbrev val3_1 (c : Dev nD) : S1x64.Idx → EReal := V c (Pipeline.arrRef spec3 1)
abbrev val3_2 (c : Dev nD) : S1x64.Idx → EReal := V c (Pipeline.arrRef spec3 2)
abbrev val3_3 (c : Dev nD) : S1x64.Idx → EReal := V c (Pipeline.arrRef spec3 3)
abbrev val3_4 (c : Dev nD) : S1x64.Idx → EReal := V c (Pipeline.arrRef spec3 4)

/-- The zero offsets of every access, however spelt. -/
theorem idx3_zero : (![0, 0] : Fin 2 → Nat) = fun _ => 0 := funext fun a => by fin_cases a <;> rfl

/-! ## The payload at an index: each single row is read at its column, whatever the row of the block -/

/-- At row `p`, column `q` of a block: the row of window 3 times (the entry less the row of window 1), times the row of
    window 2, plus the row of window 4, and the larger of that and zero. -/
theorem pay3_apply (xa : Vec Ideal S10000x64 .f32) (xd xb xc xe : Vec Ideal S1x64 .f32) (p : Fin 10000) (q : Fin 64) :
    k3_pay1 xa xd xb xc xe (ix2 p q)
      = max (xd (ix2 0 q) * (xa (ix2 p q) - xb (ix2 0 q)) * xc (ix2 0 q) + xe (ix2 0 q)) 0 := by
  unfold k3_pay1
  simp only [maximumf_apply, addf_apply, mulf_apply, subf_apply, broadcast_apply, shapeCast_self,
    broadcastTo_1b_ab_apply]
  exact congrArg (max _) Ideal.ofBits_zero_f32

/-! ## The windows' block indices, decided over the grid -/

/-- The rows window and the output window move together, one block of rows per point; the four single rows stay put. -/
theorem idx3_facts : ∀ t : Fin cfg3.N,
    win3_0.index t (0 : Fin 2) = win3_5.index t (0 : Fin 2) ∧ win3_0.index t (1 : Fin 2) = win3_5.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 9 ∧ win3_5.index t (1 : Fin 2) = 0 :=
  (by decide +kernel : ∀ t : Fin grid3.N, _)

/-- Every block of rows of the output is some point's. -/
theorem idx3_onto : ∀ b : Fin 10, ∃ t : Fin cfg3.N, win3_5.index t = ![b.val, 0] :=
  (by decide +kernel : ∀ b : Fin 10, ∃ t : Fin grid3.N, win3_5.index t = ![b.val, 0])

/-! ## The closed form, and what a point writes back -/

/-- The output array's closed form: at row `i 0`, column `i 1`, the entry of window 0 normalized by the single rows at
    that column, and the larger of that and zero. -/
abbrev val3_5 (c : Dev nD) : S100000x64.Idx → EReal := fun i =>
  max (val3_3 V c (ix2 0 (i 1)) * (val3_0 V c (ix2 (i 0) (i 1)) - val3_1 V c (ix2 0 (i 1))) * val3_2 V c (ix2 0 (i 1)) + val3_4 V c (ix2 0 (i 1))) 0

/-! ## A window's block at a point reads its entry array at the block's coordinates -/

theorem val3_blk_0 (c : Dev nD) (t : Fin cfg3.N) (y : S10000x64.Idx) :
    iblk3 V c 0 t y = val3_0 V c (((cfg3.win 0).blk t).view.emb y) := rfl
theorem val3_blk_1 (c : Dev nD) (t : Fin cfg3.N) (y : S1x64.Idx) :
    iblk3 V c 1 t y = val3_1 V c (((cfg3.win 1).blk t).view.emb y) := rfl
theorem val3_blk_2 (c : Dev nD) (t : Fin cfg3.N) (y : S1x64.Idx) :
    iblk3 V c 2 t y = val3_2 V c (((cfg3.win 2).blk t).view.emb y) := rfl
theorem val3_blk_3 (c : Dev nD) (t : Fin cfg3.N) (y : S1x64.Idx) :
    iblk3 V c 3 t y = val3_3 V c (((cfg3.win 3).blk t).view.emb y) := rfl
theorem val3_blk_4 (c : Dev nD) (t : Fin cfg3.N) (y : S1x64.Idx) :
    iblk3 V c 4 t y = val3_4 V c (((cfg3.win 4).blk t).view.emb y) := rfl
/-- and the closed form's block reads the closed form there. -/
theorem val3_blk_5 (c : Dev nD) (t : Fin cfg3.N) (j : S10000x64.Idx) :
    ((cfg3.win 5).blk t).view.read (Elt Ideal) (val3_5 V c) j = val3_5 V c (((cfg3.win 5).blk t).view.emb j) := rfl

/-- What point `t` writes back is block `t` of the closed form. -/
theorem flushed3_5 (c : Dev nD) (t : Fin cfg3.N) :
    (dat3 (F := Ideal) V c).flushed 5 t = ((cfg3.win 5).blk t).view.read (Elt Ideal) (val3_5 V c) := by
  show (cfg3.win 5).cut (grid3.coords t) ((dat3 (F := Ideal) V c).after 5 t) = _
  rw [after3_5]
  unfold out3_5
  rw [View.canon_unit_zero idx3_zero]
  simp only [View.ld_unit_zero (S := S10000x64) idx3_zero, View.ld_unit_zero (S := S1x64) idx3_zero]
  obtain ⟨ea0, ea1, eb0, eb1, ec0, ec1, ed0, ed1, ee0, ee1, ef0, ef1⟩ := idx3_facts t
  funext (j : S10000x64.Idx)
  have hj0 : (j 0).val < 10000 := (j 0).isLt
  have hj1 : (j 1).val < 64 := (j 1).isLt
  refine ((congrArg (k3_pay1 (iblk3 V c 0 t) (iblk3 V c 3 t) (iblk3 V c 1 t) (iblk3 V c 2 t) (iblk3 V c 4 t)) (eq_ix2 j)).trans
    (pay3_apply (iblk3 V c 0 t) (iblk3 V c 3 t) (iblk3 V c 1 t) (iblk3 V c 2 t) (iblk3 V c 4 t) (j 0) (j 1))).trans ?_
  have ha : ((cfg3.win 0).blk t).view.emb (ix2 (j 0) (j 1)) = ix2 ((((cfg3.win 5).blk t).view.emb j : S100000x64.Idx) 0) ((((cfg3.win 5).blk t).view.emb j : S100000x64.Idx) 1) := by
    funext a; apply Fin.ext
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 64 + 1 * (j 1).val = win3_5.index t (1 : Fin 2) * 64 + 1 * (j 1).val; omega
  have hb : ((cfg3.win 1).blk t).view.emb (ix2 0 (j 1)) = ix2 0 ((((cfg3.win 5).blk t).view.emb j : S100000x64.Idx) 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_5.index t (1 : Fin 2) * 64 + 1 * (j 1).val; omega
  have hc : ((cfg3.win 2).blk t).view.emb (ix2 0 (j 1)) = ix2 0 ((((cfg3.win 5).blk t).view.emb j : S100000x64.Idx) 1) := by
    funext a; apply Fin.ext
    match a with
    | ⟨0, _⟩ => show win3_2.index t (0 : Fin 2) * 1 + 1 * 0 = 0; omega
    | ⟨1, _⟩ => show win3_2.index t (1 : Fin 2) * 64 + 1 * (j 1).val = win3_5.index t (1 : Fin 2) * 64 + 1 * (j 1).val; omega
  have hd : ((cfg3.win 3).blk t).view.emb (ix2 0 (j 1)) = ix2 0 ((((cfg3.win 5).blk t).view.emb j : S100000x64.Idx) 1) := by
    funext a; apply Fin.ext
    match a with
    | ⟨0, _⟩ => show win3_3.index t (0 : Fin 2) * 1 + 1 * 0 = 0; omega
    | ⟨1, _⟩ => show win3_3.index t (1 : Fin 2) * 64 + 1 * (j 1).val = win3_5.index t (1 : Fin 2) * 64 + 1 * (j 1).val; omega
  have he : ((cfg3.win 4).blk t).view.emb (ix2 0 (j 1)) = ix2 0 ((((cfg3.win 5).blk t).view.emb j : S100000x64.Idx) 1) := by
    funext a; apply Fin.ext
    match a with
    | ⟨0, _⟩ => show win3_4.index t (0 : Fin 2) * 1 + 1 * 0 = 0; omega
    | ⟨1, _⟩ => show win3_4.index t (1 : Fin 2) * 64 + 1 * (j 1).val = win3_5.index t (1 : Fin 2) * 64 + 1 * (j 1).val; omega
  exact (congrArg (fun z : EReal => max z 0)
    (congrArg₂ (fun x y : EReal => x + y)
      (congrArg₂ (fun x y : EReal => x * y)
        (congrArg₂ (fun x y : EReal => x * y) ((val3_blk_3 V c t (ix2 0 (j 1))).trans (congrArg (val3_3 V c) hd))
          (congrArg₂ (fun x y : EReal => x - y) ((val3_blk_0 V c t (ix2 (j 0) (j 1))).trans (congrArg (val3_0 V c) ha)) ((val3_blk_1 V c t (ix2 0 (j 1))).trans (congrArg (val3_1 V c) hb))))
        ((val3_blk_2 V c t (ix2 0 (j 1))).trans (congrArg (val3_2 V c) hc)))
      ((val3_blk_4 V c t (ix2 0 (j 1))).trans (congrArg (val3_4 V c) he)))).trans (val3_blk_5 V c t j).symm

/-! ## From the blocks to the array -/

/-- An index of the array is in point `t`'s block iff each coordinate is in the block's range on its axis. -/
theorem idx3_mem (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole (Pipeline.arrRef spec3 5)).slice (win3_5.rect t)).set ↔ _
  rw [View.set_slice_whole, Rect.mem_set_unit]
  exact Iff.rfl

/-- Every index of the array is in the block of the point its row divided by 10000 names; every point writes back. -/
theorem idx3_cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := idx3_onto ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [idx3_mem]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- The output array after the region: at row `i 0`, column `i 1`, the row of window 3 times (the entry of window 0 less
    the row of window 1), times the row of window 2, plus the row of window 4, and the larger of that and zero. -/
theorem arr3_5 (c : Dev nD) : (dat3 (F := Ideal) V c).arrAt 5 cfg3.N = fun (i : S100000x64.Idx) =>
    max (val3_3 V c (ix2 0 (i 1)) * (val3_0 V c (ix2 (i 0) (i 1)) - val3_1 V c (ix2 0 (i 1))) * val3_2 V c (ix2 0 (i 1)) + val3_4 V c (ix2 0 (i 1))) 0 :=
  (dat3 (F := Ideal) V c).arrAt_eq_of_cover 5 (val3_5 V c) (fun t _ => flushed3_5 V c t) idx3_cover

/-- The same at row `r`, column `j`. -/
theorem arr3_5_apply (c : Dev nD) (r : Fin 100000) (j : Fin 64) :
    (dat3 (F := Ideal) V c).arrAt 5 cfg3.N (ix2 r j) = max (val3_3 V c (ix2 0 j) * (val3_0 V c (ix2 r j) - val3_1 V c (ix2 0 j)) * val3_2 V c (ix2 0 j) + val3_4 V c (ix2 0 j)) 0 :=
  congrFun (arr3_5 V c) (ix2 r j)

end Cert.KernelIdeal.Reg

end
-- ==== Proof.Alg.Var.lean ====
/- The two forms of the batch variance over 100000 rows, on the extended reals, for real-valued data: the mean of
   squared deviations from the mean and the mean of squares minus the squared mean are ONE nonnegative real,
   with every quotient the division by the pattern of 100000.0. The identity uses distributivity and
   cancellation, which the extended reals lose at ±∞: hence the realness hypothesis. -/
import Idealize.ShloMosaic.PureOps.Ideal
import Idealize.ShloMosaic.PureOps.Ideal.Laws
import Mathlib.Data.EReal.Basic
import Mathlib.Data.EReal.Operations
import Mathlib.Data.Fintype.Card
import Mathlib.Data.Fintype.BigOperators
import Mathlib.Tactic.NormNum
import proofs.«147038_j12317966205319_1_alg».proof.Proof.LibStats
import proofs.«147038_j12317966205319_1_alg».proof.Proof.Alg.Consts

noncomputable section

namespace Cert.Alg

open Idealize.ShloMosaic
open scoped BigOperators

/-- Both variance forms over the 100000 rows are one nonnegative real v: the centred form
    (Σ (h − Σh/N)²)/N and the moment form (Σ h²)/N − (Σh/N)², N the pattern of 100000.0. -/
theorem var_forms_N (hpre : Fin 100000 → EReal) (hr : ∀ r, ∃ x : ℝ, hpre r = x) :
    ∃ v : ℝ, 0 ≤ v ∧
      Ideal.div (∑ r, (hpre r - Ideal.div (∑ r, hpre r) (Ideal.ofBits .f32 0x47C35000#32))
                    * (hpre r - Ideal.div (∑ r, hpre r) (Ideal.ofBits .f32 0x47C35000#32)))
          (Ideal.ofBits .f32 0x47C35000#32) = (v : EReal)
      ∧ Ideal.div (∑ r, hpre r * hpre r) (Ideal.ofBits .f32 0x47C35000#32)
          - Ideal.div (∑ r, hpre r) (Ideal.ofBits .f32 0x47C35000#32)
            * Ideal.div (∑ r, hpre r) (Ideal.ofBits .f32 0x47C35000#32) = (v : EReal) := by
  rw [ofBits_N]
  exact Cert.LibStats.var_forms_ereal hpre hr (100000 : ℝ) (by norm_num)
    (by rw [Fintype.card_fin]; norm_num)

/-- So the two forms are equal. -/
theorem var_centred_eq_moment (hpre : Fin 100000 → EReal) (hr : ∀ r, ∃ x : ℝ, hpre r = x) :
    Ideal.div (∑ r, (hpre r - Ideal.div (∑ r, hpre r) (Ideal.ofBits .f32 0x47C35000#32))
                  * (hpre r - Ideal.div (∑ r, hpre r) (Ideal.ofBits .f32 0x47C35000#32)))
        (Ideal.ofBits .f32 0x47C35000#32)
      = Ideal.div (∑ r, hpre r * hpre r) (Ideal.ofBits .f32 0x47C35000#32)
          - Ideal.div (∑ r, hpre r) (Ideal.ofBits .f32 0x47C35000#32)
            * Ideal.div (∑ r, hpre r) (Ideal.ofBits .f32 0x47C35000#32) := by
  obtain ⟨v, _, h1, h2⟩ := var_forms_N hpre hr
  rw [h1, h2]

/-- The centred form is a nonnegative real. -/
theorem var_centred_nonneg (hpre : Fin 100000 → EReal) (hr : ∀ r, ∃ x : ℝ, hpre r = x) :
    ∃ v : ℝ, 0 ≤ v ∧
      Ideal.div (∑ r, (hpre r - Ideal.div (∑ r, hpre r) (Ideal.ofBits .f32 0x47C35000#32))
                    * (hpre r - Ideal.div (∑ r, hpre r) (Ideal.ofBits .f32 0x47C35000#32)))
          (Ideal.ofBits .f32 0x47C35000#32) = (v : EReal) := by
  obtain ⟨v, hv, h1, _⟩ := var_forms_N hpre hr
  exact ⟨v, hv, h1⟩

/-- The moment form is a nonnegative real. -/
theorem var_moment_nonneg (hpre : Fin 100000 → EReal) (hr : ∀ r, ∃ x : ℝ, hpre r = x) :
    ∃ v : ℝ, 0 ≤ v ∧
      Ideal.div (∑ r, hpre r * hpre r) (Ideal.ofBits .f32 0x47C35000#32)
          - Ideal.div (∑ r, hpre r) (Ideal.ofBits .f32 0x47C35000#32)
            * Ideal.div (∑ r, hpre r) (Ideal.ofBits .f32 0x47C35000#32) = (v : EReal) := by
  obtain ⟨v, hv, _, h2⟩ := var_forms_N hpre hr
  exact ⟨v, hv, h2⟩

/-- The mean over the 100000 rows of real-valued data is a real. -/
theorem mean_N_real (hpre : Fin 100000 → EReal) (hr : ∀ r, ∃ x : ℝ, hpre r = x) :
    ∃ m : ℝ, Ideal.div (∑ r, hpre r) (Ideal.ofBits .f32 0x47C35000#32) = (m : EReal) := by
  rw [ofBits_N]
  exact Cert.LibStats.mean_real hpre hr (100000 : ℝ) (by norm_num)

end Cert.Alg

end
-- ==== Proof.Bridge.StageFacts.lean ====
import proofs.«147038_j12317966205319_1_alg».proof.Proof.Ref.StageFns
import proofs.«147038_j12317966205319_1_alg».proof.Proof.Alg.Real
import proofs.«147038_j12317966205319_1_alg».proof.Proof.Alg.Var

noncomputable section

namespace Cert.Bridge

open Idealize.ShloMosaic
open Idealize.ShloMosaic.ValueIdx
open Cert.ReferenceIdeal Cert.ReferenceIdeal.RefValue
open scoped BigOperators

/-! # Facts about the stage functions that every layer uses

The mean and the centred variance of a column spelled out; the centred variance of real data as its moment form; and
realness of each stage function's entries from realness of its operands' entries. -/

/-- Every entry of a product of real matrices is real. -/
theorem xwF_real (h : Feat) (w : WSq) (hh : ∀ i, ∃ x : ℝ, h i = x) (hw : ∀ i, ∃ x : ℝ, w i = x)
    (i : S100000x64.Idx) : ∃ x : ℝ, xwF h w i = x :=
  Cert.Alg.real_sum_mul (fun k : Fin 64 => h (ix2 (i 0) k)) (fun k : Fin 64 => w (ix2 k (i 1))) (fun k => hh _) (fun k => hw _)

/-- The mean of a column of real data, as the stage function spells it. -/
theorem meanF_at (hp : Feat) (j : Fin 64) :
    meanF hp (ix1 j) = Ideal.div (∑ r : Fin 100000, hp (ix2 r j)) (Ideal.ofBits .f32 0x47C35000#32) := rfl

/-- On real data the centred variance of a column is its moment form. -/
theorem varF_moment (hp : Feat) (hreal : ∀ i, ∃ x : ℝ, hp i = x) (j : Fin 64) :
    varF hp (ix1 j) = Ideal.div (∑ r : Fin 100000, hp (ix2 r j) * hp (ix2 r j)) (Ideal.ofBits .f32 0x47C35000#32)
      - Ideal.div (∑ r : Fin 100000, hp (ix2 r j)) (Ideal.ofBits .f32 0x47C35000#32) * Ideal.div (∑ r : Fin 100000, hp (ix2 r j)) (Ideal.ofBits .f32 0x47C35000#32) :=
  Cert.Alg.var_centred_eq_moment (fun r : Fin 100000 => hp (ix2 r j)) (fun r => hreal _)

/-- Every entry of the combined array is real when the aggregate, the product, the self weights and the bias are. -/
theorem hpreF_real (agg xw : Feat) (selfw : Col) (b : Row) (ha : ∀ i, ∃ x : ℝ, agg i = x) (hx : ∀ i, ∃ x : ℝ, xw i = x)
    (hs : ∀ i, ∃ x : ℝ, selfw i = x) (hb : ∀ i, ∃ x : ℝ, b i = x) (i : S100000x64.Idx) :
    ∃ x : ℝ, hpreF agg xw selfw b i = x :=
  Cert.Alg.real_add_mul_add (ha i) (hx i) (hs _) (hb _)

/-- Every entry of the normalised array cut off at zero is real when the data, the scale and the shift are. -/
theorem relu_norm_real (hp : Feat) (g bt : Row) (hreal : ∀ i, ∃ x : ℝ, hp i = x) (hg : ∀ i, ∃ x : ℝ, g i = x)
    (hbt : ∀ i, ∃ x : ℝ, bt i = x) (i : S100000x64.Idx) : ∃ x : ℝ, reluF (normF hp g bt) i = x := by
  obtain ⟨r, j, rfl⟩ : ∃ (r : Fin 100000) (j : Fin 64), i = ix2 r j := ⟨i 0, i 1, eq_ix2 i⟩
  obtain ⟨z, -, hz⟩ := Cert.Alg.real_norm_relu_rsqrt (h := hp (ix2 r j)) (mu := meanF hp (ix1 j)) (gamma := g (ix1 j))
    (beta := bt (ix1 j)) (var := varF hp (ix1 j)) (hreal _)
    (Cert.Alg.mean_N_real (fun r : Fin 100000 => hp (ix2 r j)) (fun r => hreal _)) (hg _) (hbt _)
    (Cert.Alg.var_centred_nonneg (fun r : Fin 100000 => hp (ix2 r j)) (fun r => hreal _))
  exact ⟨z, hz⟩

end Cert.Bridge

end
-- ==== Proof.Bridge.L0Core.lean ====
import proofs.«147038_j12317966205319_1_alg».proof.Proof.KI.Val1
import proofs.«147038_j12317966205319_1_alg».proof.Proof.KI.Val3
import proofs.«147038_j12317966205319_1_alg».proof.Proof.Ref.StageFns
import proofs.«147038_j12317966205319_1_alg».proof.Proof.Alg.Real
import proofs.«147038_j12317966205319_1_alg».proof.Proof.Alg.Var
import proofs.«147038_j12317966205319_1_alg».proof.Proof.Bridge.StageFacts

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat WSq Row xwF meanF varF colSumF normF reluF)
open scoped BigOperators

/-! # One layer's two pointwise-in-rows regions against the layer's stage functions

The product region leaves, at `(r, j)`, the sum over `k` of `h (r, k) * w (k, j)` plus a bias row that is zero: the
product `h · W`. The normalising region leaves `max (γ · (hpre − μ) · s + β) 0` with `μ` the column sum over the row
count and `s` the reciprocal square root of the moment form of the variance plus the offset; on real data the moment
form is the centred form, so this is the maximum with zero of the normalised array. -/

variable (V : (c : Dev nD) → (b : Ref sig .tc) → Buf (Elt Ideal) ((c : Thread nD τ).loc b))

/-- The product region's output from what its operand arrays hold: the bias row is zero, so the product alone. -/
theorem xw_core_L0 (c : Dev nD) (h : Feat) (w : WSq)
    (hx : (val1_0 V c : S100000x64.Idx → EReal) = h)
    (hw : ∀ (k j : Fin 64), val1_1 V c (ix2 k j) = w (ix2 k j))
    (hb : ∀ (u : Fin 1) (j : Fin 64), val1_2 V c (ix2 u j) = 0) :
    (dat1 (F := Ideal) V c).arrAt 3 cfg1.N = xwF h w := by
  rw [arr1_3]
  funext i
  show (∑ k : Fin 64, val1_0 V c (ix2 (i 0) k) * val1_1 V c (ix2 k (i 1))) + val1_2 V c (ix2 (0 : Fin 1) (i 1))
    = ∑ k : Fin 64, h (ix2 (i 0) k) * w (ix2 k (i 1))
  exact (congrArg₂ (· + ·)
    (Finset.sum_congr rfl fun k _ => congrArg₂ (· * ·) (congrFun hx _) (hw k (i 1)))
    (hb 0 (i 1))).trans (add_zero _)

/-- The normalising region's output from what its operand arrays hold: `S1` and `S2` are the column sums and the
    column sums of squares of `hp`; the mean row is `S1 / N`, the scale row the reciprocal square root of
    `S2 / N − (S1 / N)² + offset`. With `hp` real-valued that is the normalised array, cut off below at zero. -/
theorem bn_core_L0 (c : Dev nD) (hp : Feat) (g bt : Row) (S1 S2 : S1x64.Idx → EReal)
    (hh : (val3_0 V c : S100000x64.Idx → EReal) = hp)
    (hmu : ∀ (u : Fin 1) (j : Fin 64), val3_1 V c (ix2 u j) = Ideal.div (S1 (ix2 u j)) (Ideal.ofBits .f32 0x47C35000#32))
    (hsd : ∀ (u : Fin 1) (j : Fin 64), val3_2 V c (ix2 u j)
      = Ideal.rsqrt ((Ideal.div (S2 (ix2 u j)) (Ideal.ofBits .f32 0x47C35000#32) - Ideal.div (S1 (ix2 u j)) (Ideal.ofBits .f32 0x47C35000#32) * Ideal.div (S1 (ix2 u j)) (Ideal.ofBits .f32 0x47C35000#32)) + (Ideal.ofBits .f32 0x3727C5AC#32)))
    (hg : ∀ (u : Fin 1) (j : Fin 64), val3_3 V c (ix2 u j) = g (ix1 j))
    (hbt : ∀ (u : Fin 1) (j : Fin 64), val3_4 V c (ix2 u j) = bt (ix1 j))
    (hS1 : ∀ j : Fin 64, S1 (ix2 (0 : Fin 1) j) = ∑ r : Fin 100000, hp (ix2 r j))
    (hS2 : ∀ j : Fin 64, S2 (ix2 (0 : Fin 1) j) = ∑ r : Fin 100000, hp (ix2 r j) * hp (ix2 r j))
    (hreal : ∀ i, ∃ x : ℝ, hp i = x) :
    (dat3 (F := Ideal) V c).arrAt 5 cfg3.N = reluF (normF hp g bt) := by
  funext i
  obtain ⟨r, j, rfl⟩ : ∃ (r : Fin 100000) (j : Fin 64), i = ix2 r j := ⟨i 0, i 1, eq_ix2 i⟩
  refine (arr3_5_apply V c r j).trans ?_
  show _ = max (g (ix1 j) * (hp (ix2 r j) - meanF hp (ix1 j)) * Ideal.rsqrt (varF hp (ix1 j) + (Ideal.ofBits .f32 0x3727C5AC#32)) + bt (ix1 j)) 0
  rw [varF_moment hp hreal j, meanF_at hp j, hg 0 j, hbt 0 j, hmu 0 j, hsd 0 j, hS1 j, hS2 j, congrFun hh (ix2 r j)]

end Cert.Bridge

end
-- ==== Proof.KI.Val2.lean ====
import proofs.«147038_j12317966205319_1_alg».proof.Proof.KI.Fr2
import proofs.«147038_j12317966205319_1_alg».proof.Proof.LibStats
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## Each case's pieces, read back: the payloads at the input blocks (any F) -/

section Pieces

variable {F : FTy → Type} [FloatOps F] [Named F]

variable (c : Dev nD) (i : grid2.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

/-- Every access of the body is at offset zero of a whole block. -/
theorem idx2_zero : (![0, 0] : Fin 2 → Nat) = fun _ => 0 := funext fun a => by fin_cases a <;> rfl

/-- First point, window 4: the one covering store's payload, its loads reading the whole input blocks. -/
theorem out2_A_4 (hc : k2_cond i) (x0 : Vec F S10000x64 .f32) (x1 : Vec F S10000x64 .f32) (x2 : Vec F S10000x1 .f32) (x3 : Vec F S1x64 .f32) :
    (out2_A c i arg1 harg1 arg2 harg2 arg3 harg3 arg4 harg4 arg5 harg5 arg6 harg6 arg7 harg7 hc x0 x1 x2 x3).1 = k2_pay3 x0 x1 x2 x3 := by
  unfold out2_A
  dsimp only
  rw [View.read_writes_eq_canon _ _ _ (cover2_4_A c i arg1 harg1 arg2 harg2 arg3 harg3 arg4 harg4 arg5 harg5 arg6 harg6 arg7 harg7 hc x0 x1 x2 x3)]
  unfold sound_kernel2_A
  dsimp only
  sl_unfold_words
  rw [View.canon_unit_zero (S := S10000x64) idx2_zero]
  simp only [View.readAt_eq_ld, harg1.read_unread, harg2.read_unread, harg3.read_unread, harg4.read_unread,
    View.ld_unit_zero (S := S10000x64) idx2_zero, View.ld_unit_zero (S := S10000x1) idx2_zero, View.ld_unit_zero (S := S1x64) idx2_zero]

/-- First point, window 5: the zero row is stored, read back, and the tile's column sums added to it. -/
theorem out2_A_5 (hc : k2_cond i) (x0 : Vec F S10000x64 .f32) (x1 : Vec F S10000x64 .f32) (x2 : Vec F S10000x1 .f32) (x3 : Vec F S1x64 .f32) :
    (out2_A c i arg1 harg1 arg2 harg2 arg3 harg3 arg4 harg4 arg5 harg5 arg6 harg6 arg7 harg7 hc x0 x1 x2 x3).2.1 = k2_pay4 x0 x1 x2 x3 (k2_pay1 (F := F)) := by
  unfold out2_A
  dsimp only
  rw [View.read_writes_eq_canon _ _ _ (cover2_5_A c i arg1 harg1 arg2 harg2 arg3 harg3 arg4 harg4 arg5 harg5 arg6 harg6 arg7 harg7 hc x0 x1 x2 x3)]
  unfold sound_kernel2_A
  dsimp only
  sl_unfold_words
  rw [View.canon_cons_unit_zero (S := S1x64) idx2_zero, View.readCov_unit_zero (S := S1x64) _ idx2_zero]
  simp only [View.readAt_eq_ld, harg1.read_unread, harg2.read_unread, harg3.read_unread, harg4.read_unread,
    View.ld_unit_zero (S := S10000x64) idx2_zero, View.ld_unit_zero (S := S10000x1) idx2_zero, View.ld_unit_zero (S := S1x64) idx2_zero]

/-- First point, window 6: the same with the column sums of squares. -/
theorem out2_A_6 (hc : k2_cond i) (x0 : Vec F S10000x64 .f32) (x1 : Vec F S10000x64 .f32) (x2 : Vec F S10000x1 .f32) (x3 : Vec F S1x64 .f32) :
    (out2_A c i arg1 harg1 arg2 harg2 arg3 harg3 arg4 harg4 arg5 harg5 arg6 harg6 arg7 harg7 hc x0 x1 x2 x3).2.2 = k2_pay5 x0 x1 x2 x3 (k2_pay2 (F := F)) := by
  unfold out2_A
  dsimp only
  rw [View.read_writes_eq_canon _ _ _ (cover2_6_A c i arg1 harg1 arg2 harg2 arg3 harg3 arg4 harg4 arg5 harg5 arg6 harg6 arg7 harg7 hc x0 x1 x2 x3)]
  unfold sound_kernel2_A
  dsimp only
  sl_unfold_words
  rw [View.canon_cons_unit_zero (S := S1x64) idx2_zero, View.readCov_unit_zero (S := S1x64) _ idx2_zero]
  simp only [View.readAt_eq_ld, harg1.read_unread, harg2.read_unread, harg3.read_unread, harg4.read_unread,
    View.ld_unit_zero (S := S10000x64) idx2_zero, View.ld_unit_zero (S := S10000x1) idx2_zero, View.ld_unit_zero (S := S1x64) idx2_zero]

/-- Later points, window 4. -/
theorem out2_B_4 (hc : ¬k2_cond i) (x0 : Vec F S10000x64 .f32) (x1 : Vec F S10000x64 .f32) (x2 : Vec F S10000x1 .f32) (x3 : Vec F S1x64 .f32) (xo5 : Vec F S1x64 .f32) (xo6 : Vec F S1x64 .f32) :
    (out2_B c i arg1 harg1 arg2 harg2 arg3 harg3 arg4 harg4 arg5 harg5 arg6 harg6 arg7 harg7 hc x0 x1 x2 x3 xo5 xo6).1 = k2_pay3 x0 x1 x2 x3 := by
  unfold out2_B
  dsimp only
  rw [View.read_writes_eq_canon _ _ _ (cover2_4_B c i arg1 harg1 arg2 harg2 arg3 harg3 arg4 harg4 arg5 harg5 arg6 harg6 arg7 harg7 hc x0 x1 x2 x3 xo5 xo6)]
  unfold sound_kernel2_B
  dsimp only
  sl_unfold_words
  rw [View.canon_unit_zero (S := S10000x64) idx2_zero]
  simp only [View.readAt_eq_ld, harg1.read_unread, harg2.read_unread, harg3.read_unread, harg4.read_unread, harg6.read_unread, harg7.read_unread,
    View.ld_unit_zero (S := S10000x64) idx2_zero, View.ld_unit_zero (S := S10000x1) idx2_zero, View.ld_unit_zero (S := S1x64) idx2_zero]

/-- Later points, window 5: the running row plus the tile's column sums. -/
theorem out2_B_5 (hc : ¬k2_cond i) (x0 : Vec F S10000x64 .f32) (x1 : Vec F S10000x64 .f32) (x2 : Vec F S10000x1 .f32) (x3 : Vec F S1x64 .f32) (xo5 : Vec F S1x64 .f32) (xo6 : Vec F S1x64 .f32) :
    (out2_B c i arg1 harg1 arg2 harg2 arg3 harg3 arg4 harg4 arg5 harg5 arg6 harg6 arg7 harg7 hc x0 x1 x2 x3 xo5 xo6).2.1 = k2_pay4 x0 x1 x2 x3 xo5 := by
  unfold out2_B
  dsimp only
  rw [View.read_writes_eq_canon _ _ _ (cover2_5_B c i arg1 harg1 arg2 harg2 arg3 harg3 arg4 harg4 arg5 harg5 arg6 harg6 arg7 harg7 hc x0 x1 x2 x3 xo5 xo6)]
  unfold sound_kernel2_B
  dsimp only
  sl_unfold_words
  rw [View.canon_unit_zero (S := S1x64) idx2_zero]
  simp only [View.readAt_eq_ld, harg1.read_unread, harg2.read_unread, harg3.read_unread, harg4.read_unread, harg6.read_unread, harg7.read_unread,
    View.ld_unit_zero (S := S10000x64) idx2_zero, View.ld_unit_zero (S := S10000x1) idx2_zero, View.ld_unit_zero (S := S1x64) idx2_zero]

/-- Later points, window 6. -/
theorem out2_B_6 (hc : ¬k2_cond i) (x0 : Vec F S10000x64 .f32) (x1 : Vec F S10000x64 .f32) (x2 : Vec F S10000x1 .f32) (x3 : Vec F S1x64 .f32) (xo5 : Vec F S1x64 .f32) (xo6 : Vec F S1x64 .f32) :
    (out2_B c i arg1 harg1 arg2 harg2 arg3 harg3 arg4 harg4 arg5 harg5 arg6 harg6 arg7 harg7 hc x0 x1 x2 x3 xo5 xo6).2.2 = k2_pay5 x0 x1 x2 x3 xo6 := by
  unfold out2_B
  dsimp only
  rw [View.read_writes_eq_canon _ _ _ (cover2_6_B c i arg1 harg1 arg2 harg2 arg3 harg3 arg4 harg4 arg5 harg5 arg6 harg6 arg7 harg7 hc x0 x1 x2 x3 xo5 xo6)]
  unfold sound_kernel2_B
  dsimp only
  sl_unfold_words
  rw [View.canon_unit_zero (S := S1x64) idx2_zero]
  simp only [View.readAt_eq_ld, harg1.read_unread, harg2.read_unread, harg3.read_unread, harg4.read_unread, harg6.read_unread, harg7.read_unread,
    View.ld_unit_zero (S := S10000x64) idx2_zero, View.ld_unit_zero (S := S10000x1) idx2_zero, View.ld_unit_zero (S := S1x64) idx2_zero]

end Pieces

/-! ## The payloads at the extended reals, entry by entry -/

section Payloads

/-- An entry of the tile's hpre block: agg + xw * selfn (selfn's one column spread along the row) + convb (its one row
    spread down the rows). -/
theorem k2_pay3_apply (x0 : Vec Ideal S10000x64 .f32) (x1 : Vec Ideal S10000x64 .f32) (x2 : Vec Ideal S10000x1 .f32) (x3 : Vec Ideal S1x64 .f32)
    (a : Fin 10000) (j : Fin 64) :
    k2_pay3 x0 x1 x2 x3 (ix2 a j) = x0 (ix2 a j) + x1 (ix2 a j) * x2 (ix2 a 0) + x3 (ix2 0 j) := by
  simp only [k2_pay3, addf_apply, mulf_apply, shapeCast_self]
  rw [broadcastTo_apply x2 broadcasts_S10000x1_S10000x64 (ix2 a j) (ix2 a 0) (by intro b; fin_cases b <;> rfl),
    broadcastTo_apply x3 broadcasts_S1x64_S10000x64 (ix2 a j) (ix2 0 j) (by intro b; fin_cases b <;> rfl)]

/-- The zero row the first point stores. -/
theorem k2_pay1_apply (i : S1x64.Idx) : k2_pay1 (F := Ideal) i = 0 := Cert.LibStats.ofBits_zero
theorem k2_pay2_apply (i : S1x64.Idx) : k2_pay2 (F := Ideal) i = 0 := Cert.LibStats.ofBits_zero

/-- The running row of sums after a point: what it held plus the tile's column sum. -/
theorem k2_pay4_apply (x0 : Vec Ideal S10000x64 .f32) (x1 : Vec Ideal S10000x64 .f32) (x2 : Vec Ideal S10000x1 .f32) (x3 : Vec Ideal S1x64 .f32)
    (xo : Vec Ideal S1x64 .f32) (j : Fin 64) :
    k2_pay4 x0 x1 x2 x3 xo (ix2 0 j) = xo (ix2 0 j) + ∑ a : Fin 10000, k2_pay3 x0 x1 x2 x3 (ix2 a j) := by
  simp only [k2_pay4, addf_apply, shapeCast_self]
  refine congrArg (xo (ix2 0 j) + ·) ?_
  refine (shapeCast_addUnit_apply ![64] _ shapeCasts_S64_S1x64 (ix2 0 j)).trans ?_
  refine (Ideal.multiReduction_add_single (k2_pay3 x0 x1 x2 x3) _ reduces_S10000x64_S64 _ _ _).trans ?_
  exact Finset.sum_congr rfl fun a _ => congrArg (k2_pay3 x0 x1 x2 x3) (Shape.idx_ext₂ rfl rfl)

/-- The running row of sums of squares. -/
theorem k2_pay5_apply (x0 : Vec Ideal S10000x64 .f32) (x1 : Vec Ideal S10000x64 .f32) (x2 : Vec Ideal S10000x1 .f32) (x3 : Vec Ideal S1x64 .f32)
    (xo : Vec Ideal S1x64 .f32) (j : Fin 64) :
    k2_pay5 x0 x1 x2 x3 xo (ix2 0 j)
      = xo (ix2 0 j) + ∑ a : Fin 10000, k2_pay3 x0 x1 x2 x3 (ix2 a j) * k2_pay3 x0 x1 x2 x3 (ix2 a j) := by
  simp only [k2_pay5, addf_apply, shapeCast_self]
  refine congrArg (xo (ix2 0 j) + ·) ?_
  refine (shapeCast_addUnit_apply ![64] _ shapeCasts_S64_S1x64 (ix2 0 j)).trans ?_
  refine (Ideal.multiReduction_add_single (mulf (k2_pay3 x0 x1 x2 x3) (k2_pay3 x0 x1 x2 x3)) _ reduces_S10000x64_S64 _ _ _).trans ?_
  exact Finset.sum_congr rfl fun a _ => congrArg (mulf (k2_pay3 x0 x1 x2 x3) (k2_pay3 x0 x1 x2 x3)) (Shape.idx_ext₂ rfl rfl)

end Payloads

/-! ## The three output arrays after the run -/

section Value

variable (V : (c : Dev nD) → (b : Ref sig .tc) → Buf (Elt Ideal) ((c : Thread nD τ).loc b))

/-- The four input arrays as the region finds them: agg, xw, the one-column selfn, the one-row convb. -/
abbrev val2_0 (c : Dev nD) : S100000x64.Idx → EReal := V c (Pipeline.arrRef spec2 0)
abbrev val2_1 (c : Dev nD) : S100000x64.Idx → EReal := V c (Pipeline.arrRef spec2 1)
abbrev val2_2 (c : Dev nD) : S100000x1.Idx → EReal := V c (Pipeline.arrRef spec2 2)
abbrev val2_3 (c : Dev nD) : S1x64.Idx → EReal := V c (Pipeline.arrRef spec2 3)

/-- hpre at row r, column j: agg + xw * selfn + convb. -/
abbrev val2_hpre (c : Dev nD) (r : Fin 100000) (j : Fin 64) : EReal :=
  val2_0 V c (ix2 r j) + val2_1 V c (ix2 r j) * val2_2 V c (ix2 r 0) + val2_3 V c (ix2 0 j)

/-- The three results as whole-array functions: hpre, its column sums, the column sums of its square. -/
abbrev val2_4 (c : Dev nD) : S100000x64.Idx → EReal := fun i => val2_hpre V c (i 0) (i 1)
abbrev val2_5 (c : Dev nD) : S1x64.Idx → EReal := fun i => ∑ r : Fin 100000, val2_hpre V c r (i 1)
abbrev val2_6 (c : Dev nD) : S1x64.Idx → EReal := fun i => ∑ r : Fin 100000, val2_hpre V c r (i 1) * val2_hpre V c r (i 1)

/-- The input blocks at point t. -/
abbrev iblk2_0 (c : Dev nD) (t : Fin cfg2.N) : Vec Ideal S10000x64 .f32 := iblk2 V c 0 t
abbrev iblk2_1 (c : Dev nD) (t : Fin cfg2.N) : Vec Ideal S10000x64 .f32 := iblk2 V c 1 t
abbrev iblk2_2 (c : Dev nD) (t : Fin cfg2.N) : Vec Ideal S10000x1 .f32 := iblk2 V c 2 t
abbrev iblk2_3 (c : Dev nD) (t : Fin cfg2.N) : Vec Ideal S1x64 .f32 := iblk2 V c 3 t

/-- Each window's block index at each point: the row-tiled windows are at tile t, the one-row windows at block 0. -/
theorem idx2_facts : ∀ t : Fin cfg2.N,
    (win2_0.index t 0 = t.val ∧ win2_0.index t 1 = 0) ∧ (win2_1.index t 0 = t.val ∧ win2_1.index t 1 = 0)
    ∧ (win2_2.index t 0 = t.val ∧ win2_2.index t 1 = 0) ∧ (win2_3.index t 0 = 0 ∧ win2_3.index t 1 = 0)
    ∧ (win2_4.index t 0 = t.val ∧ win2_4.index t 1 = 0) ∧ (win2_5.index t 0 = 0 ∧ win2_5.index t 1 = 0)
    ∧ (win2_6.index t 0 = 0 ∧ win2_6.index t 1 = 0) :=
  (by decide +kernel : ∀ t : Fin grid2.N,
    (win2_0.index t 0 = t.val ∧ win2_0.index t 1 = 0) ∧ (win2_1.index t 0 = t.val ∧ win2_1.index t 1 = 0)
    ∧ (win2_2.index t 0 = t.val ∧ win2_2.index t 1 = 0) ∧ (win2_3.index t 0 = 0 ∧ win2_3.index t 1 = 0)
    ∧ (win2_4.index t 0 = t.val ∧ win2_4.index t 1 = 0) ∧ (win2_5.index t 0 = 0 ∧ win2_5.index t 1 = 0)
    ∧ (win2_6.index t 0 = 0 ∧ win2_6.index t 1 = 0))

/-- Row a of tile t is row 10000 t + a of the array. -/
def idx2_row (t : Fin cfg2.N) (a : Fin 10000) : Fin 100000 :=
  ⟨10000 * t.val + a.val, by have := t.isLt; have hN : cfg2.N = 10 := N_2; have := a.isLt; omega⟩

/-- The input blocks read entry by entry off their arrays. -/
theorem iblk2_0_apply (c : Dev nD) (t : Fin cfg2.N) (a : Fin 10000) (j : Fin 64) :
    iblk2_0 V c t (ix2 a j) = val2_0 V c (ix2 (idx2_row t a) j) := by
  obtain ⟨⟨h0, h1⟩, -⟩ := idx2_facts t
  show ((cfg2.win 0).blk t).view.read (Elt Ideal) (V c (Pipeline.arrRef spec2 0)) (ix2 a j) = V c (Pipeline.arrRef spec2 0) (ix2 (idx2_row t a) j)
  rw [View.read_apply]
  show V c (Pipeline.arrRef spec2 0) _ = V c (Pipeline.arrRef spec2 0) _
  congr 1
  funext b
  apply Fin.ext
  match b with
  | ⟨0, _⟩ => show win2_0.index t 0 * 10000 + 1 * a.val = 10000 * t.val + a.val; rw [h0]; omega
  | ⟨1, _⟩ => show win2_0.index t 1 * 64 + 1 * j.val = j.val; rw [h1]; omega
theorem iblk2_1_apply (c : Dev nD) (t : Fin cfg2.N) (a : Fin 10000) (j : Fin 64) :
    iblk2_1 V c t (ix2 a j) = val2_1 V c (ix2 (idx2_row t a) j) := by
  obtain ⟨-, ⟨h0, h1⟩, -⟩ := idx2_facts t
  show ((cfg2.win 1).blk t).view.read (Elt Ideal) (V c (Pipeline.arrRef spec2 1)) (ix2 a j) = V c (Pipeline.arrRef spec2 1) (ix2 (idx2_row t a) j)
  rw [View.read_apply]
  show V c (Pipeline.arrRef spec2 1) _ = V c (Pipeline.arrRef spec2 1) _
  congr 1
  funext b
  apply Fin.ext
  match b with
  | ⟨0, _⟩ => show win2_1.index t 0 * 10000 + 1 * a.val = 10000 * t.val + a.val; rw [h0]; omega
  | ⟨1, _⟩ => show win2_1.index t 1 * 64 + 1 * j.val = j.val; rw [h1]; omega
theorem iblk2_2_apply (c : Dev nD) (t : Fin cfg2.N) (a : Fin 10000) :
    iblk2_2 V c t (ix2 a 0) = val2_2 V c (ix2 (idx2_row t a) 0) := by
  obtain ⟨-, -, ⟨h0, h1⟩, -⟩ := idx2_facts t
  show ((cfg2.win 2).blk t).view.read (Elt Ideal) (V c (Pipeline.arrRef spec2 2)) (ix2 a 0) = V c (Pipeline.arrRef spec2 2) (ix2 (idx2_row t a) 0)
  rw [View.read_apply]
  show V c (Pipeline.arrRef spec2 2) _ = V c (Pipeline.arrRef spec2 2) _
  congr 1
  funext b
  apply Fin.ext
  match b with
  | ⟨0, _⟩ => show win2_2.index t 0 * 10000 + 1 * a.val = 10000 * t.val + a.val; rw [h0]; omega
  | ⟨1, _⟩ => show win2_2.index t 1 * 1 + 1 * 0 = 0; rw [h1]
theorem iblk2_3_apply (c : Dev nD) (t : Fin cfg2.N) (j : Fin 64) :
    iblk2_3 V c t (ix2 0 j) = val2_3 V c (ix2 0 j) := by
  obtain ⟨-, -, -, ⟨h0, h1⟩, -⟩ := idx2_facts t
  show ((cfg2.win 3).blk t).view.read (Elt Ideal) (V c (Pipeline.arrRef spec2 3)) (ix2 0 j) = V c (Pipeline.arrRef spec2 3) (ix2 0 j)
  rw [View.read_apply]
  show V c (Pipeline.arrRef spec2 3) _ = V c (Pipeline.arrRef spec2 3) _
  congr 1
  funext b
  apply Fin.ext
  match b with
  | ⟨0, _⟩ => show win2_3.index t 0 * 1 + 1 * 0 = 0; rw [h0]
  | ⟨1, _⟩ => show win2_3.index t 1 * 64 + 1 * j.val = j.val; rw [h1]; omega

/-- So an entry of the tile's hpre block is hpre at that row of the array. -/
theorem k2_pay3_iblk (c : Dev nD) (t : Fin cfg2.N) (a : Fin 10000) (j : Fin 64) :
    k2_pay3 (iblk2_0 V c t) (iblk2_1 V c t) (iblk2_2 V c t) (iblk2_3 V c t) (ix2 a j) = val2_hpre V c (idx2_row t a) j := by
  rw [k2_pay3_apply, iblk2_0_apply, iblk2_1_apply, iblk2_2_apply, iblk2_3_apply]

/-- Window 4 after the body at any point: the tile's hpre block. -/
theorem outsAt2_4_eq (c : Dev nD) (t : Fin cfg2.N) :
    (outsAt2 V c t.val t.isLt).1 = k2_pay3 (iblk2_0 V c t) (iblk2_1 V c t) (iblk2_2 V c t) (iblk2_3 V c t) := by
  by_cases h0 : t.val = 0
  · rw [outsAt2_A V c t h0]
    unfold out2_A_at
    exact out2_A_4 (F := Ideal) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) ((k2_hcond t).mpr h0) (iblk2 V c 0 t) (iblk2 V c 1 t) (iblk2 V c 2 t) (iblk2 V c 3 t)
  · rw [outsAt2_B V c t h0]
    unfold out2_B_at
    exact out2_B_4 (F := Ideal) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (fun h => h0 ((k2_hcond t).mp h)) (iblk2 V c 0 t) (iblk2 V c 1 t) (iblk2 V c 2 t) (iblk2 V c 3 t)
      (outsAt2 V c (t.val - 1) (Nat.lt_of_le_of_lt (Nat.sub_le _ _) t.isLt)).2.1
      (outsAt2 V c (t.val - 1) (Nat.lt_of_le_of_lt (Nat.sub_le _ _) t.isLt)).2.2

/-- Tile s's column sums of hpre and of its square, at column j (zero past the grid). -/
def val2_colsum (c : Dev nD) (j : Fin 64) (s : ℕ) : EReal :=
  if h : s < cfg2.N then ∑ a : Fin 10000, val2_hpre V c (idx2_row ⟨s, h⟩ a) j else 0
def val2_colsq (c : Dev nD) (j : Fin 64) (s : ℕ) : EReal :=
  if h : s < cfg2.N then ∑ a : Fin 10000, val2_hpre V c (idx2_row ⟨s, h⟩ a) j * val2_hpre V c (idx2_row ⟨s, h⟩ a) j else 0

/-- The accumulators after the first point: zero plus the tile's column sums. -/
theorem outsAt2_5_zero (c : Dev nD) (j : Fin 64) (t : Fin cfg2.N) (h0 : t.val = 0) :
    (outsAt2 V c t.val t.isLt).2.1 (ix2 0 j) = val2_colsum V c j t.val := by
  rw [outsAt2_A V c t h0]
  unfold out2_A_at
  refine (congrFun (out2_A_5 (F := Ideal) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) ((k2_hcond t).mpr h0) (iblk2 V c 0 t) (iblk2 V c 1 t) (iblk2 V c 2 t) (iblk2 V c 3 t)) (ix2 0 j)).trans ?_
  refine (k2_pay4_apply (iblk2_0 V c t) (iblk2_1 V c t) (iblk2_2 V c t) (iblk2_3 V c t) (k2_pay1 (F := Ideal)) j).trans ?_
  rw [k2_pay1_apply, zero_add]
  unfold val2_colsum
  rw [dif_pos t.isLt]
  exact Finset.sum_congr rfl fun a _ => k2_pay3_iblk V c t a j
theorem outsAt2_6_zero (c : Dev nD) (j : Fin 64) (t : Fin cfg2.N) (h0 : t.val = 0) :
    (outsAt2 V c t.val t.isLt).2.2 (ix2 0 j) = val2_colsq V c j t.val := by
  rw [outsAt2_A V c t h0]
  unfold out2_A_at
  refine (congrFun (out2_A_6 (F := Ideal) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) ((k2_hcond t).mpr h0) (iblk2 V c 0 t) (iblk2 V c 1 t) (iblk2 V c 2 t) (iblk2 V c 3 t)) (ix2 0 j)).trans ?_
  refine (k2_pay5_apply (iblk2_0 V c t) (iblk2_1 V c t) (iblk2_2 V c t) (iblk2_3 V c t) (k2_pay2 (F := Ideal)) j).trans ?_
  rw [k2_pay2_apply, zero_add]
  unfold val2_colsq
  rw [dif_pos t.isLt]
  exact Finset.sum_congr rfl fun a _ => by rw [k2_pay3_iblk V c t a j]

/-- After a later point: what the point before left plus the tile's column sums. -/
theorem outsAt2_5_step (c : Dev nD) (j : Fin 64) (t : Fin cfg2.N) (h0 : ¬t.val = 0) :
    (outsAt2 V c t.val t.isLt).2.1 (ix2 0 j) = (outsAt2 V c (t.val - 1) (Nat.lt_of_le_of_lt (Nat.sub_le _ _) t.isLt)).2.1 (ix2 0 j) + val2_colsum V c j t.val := by
  rw [outsAt2_B V c t h0]
  unfold out2_B_at
  refine (congrFun (out2_B_5 (F := Ideal) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (fun h => h0 ((k2_hcond t).mp h)) (iblk2 V c 0 t) (iblk2 V c 1 t) (iblk2 V c 2 t) (iblk2 V c 3 t)
    (outsAt2 V c (t.val - 1) (Nat.lt_of_le_of_lt (Nat.sub_le _ _) t.isLt)).2.1
    (outsAt2 V c (t.val - 1) (Nat.lt_of_le_of_lt (Nat.sub_le _ _) t.isLt)).2.2) (ix2 0 j)).trans ?_
  refine (k2_pay4_apply (iblk2_0 V c t) (iblk2_1 V c t) (iblk2_2 V c t) (iblk2_3 V c t) (outsAt2 V c (t.val - 1) (Nat.lt_of_le_of_lt (Nat.sub_le _ _) t.isLt)).2.1 j).trans ?_
  refine congrArg ((outsAt2 V c (t.val - 1) (Nat.lt_of_le_of_lt (Nat.sub_le _ _) t.isLt)).2.1 (ix2 0 j) + ·) ?_
  unfold val2_colsum
  rw [dif_pos t.isLt]
  exact Finset.sum_congr rfl fun a _ => k2_pay3_iblk V c t a j
theorem outsAt2_6_step (c : Dev nD) (j : Fin 64) (t : Fin cfg2.N) (h0 : ¬t.val = 0) :
    (outsAt2 V c t.val t.isLt).2.2 (ix2 0 j) = (outsAt2 V c (t.val - 1) (Nat.lt_of_le_of_lt (Nat.sub_le _ _) t.isLt)).2.2 (ix2 0 j) + val2_colsq V c j t.val := by
  rw [outsAt2_B V c t h0]
  unfold out2_B_at
  refine (congrFun (out2_B_6 (F := Ideal) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (fun h => h0 ((k2_hcond t).mp h)) (iblk2 V c 0 t) (iblk2 V c 1 t) (iblk2 V c 2 t) (iblk2 V c 3 t)
    (outsAt2 V c (t.val - 1) (Nat.lt_of_le_of_lt (Nat.sub_le _ _) t.isLt)).2.1
    (outsAt2 V c (t.val - 1) (Nat.lt_of_le_of_lt (Nat.sub_le _ _) t.isLt)).2.2) (ix2 0 j)).trans ?_
  refine (k2_pay5_apply (iblk2_0 V c t) (iblk2_1 V c t) (iblk2_2 V c t) (iblk2_3 V c t) (outsAt2 V c (t.val - 1) (Nat.lt_of_le_of_lt (Nat.sub_le _ _) t.isLt)).2.2 j).trans ?_
  refine congrArg ((outsAt2 V c (t.val - 1) (Nat.lt_of_le_of_lt (Nat.sub_le _ _) t.isLt)).2.2 (ix2 0 j) + ·) ?_
  unfold val2_colsq
  rw [dif_pos t.isLt]
  exact Finset.sum_congr rfl fun a _ => by rw [k2_pay3_iblk V c t a j]

/-- So after point n they hold the sums over tiles 0 … n, by induction on the point. -/
theorem outsAt2_5_eq (c : Dev nD) (j : Fin 64) : ∀ (n : ℕ) (h : n < cfg2.N),
    (outsAt2 V c n h).2.1 (ix2 0 j) = ∑ s ∈ Finset.range (n + 1), val2_colsum V c j s
  | 0, h => by rw [Finset.sum_range_one]; exact outsAt2_5_zero V c j ⟨0, h⟩ rfl
  | n + 1, h => by
    rw [Finset.sum_range_succ _ (n + 1), ← outsAt2_5_eq c j n (Nat.lt_of_succ_lt h)]
    exact outsAt2_5_step V c j ⟨n + 1, h⟩ (Nat.succ_ne_zero n)
theorem outsAt2_6_eq (c : Dev nD) (j : Fin 64) : ∀ (n : ℕ) (h : n < cfg2.N),
    (outsAt2 V c n h).2.2 (ix2 0 j) = ∑ s ∈ Finset.range (n + 1), val2_colsq V c j s
  | 0, h => by rw [Finset.sum_range_one]; exact outsAt2_6_zero V c j ⟨0, h⟩ rfl
  | n + 1, h => by
    rw [Finset.sum_range_succ _ (n + 1), ← outsAt2_6_eq c j n (Nat.lt_of_succ_lt h)]
    exact outsAt2_6_step V c j ⟨n + 1, h⟩ (Nat.succ_ne_zero n)

/-- The ten tiles' column sums regroup to the sum over all rows: rows = tiles × rows of a tile. -/
theorem val2_colsum_total (c : Dev nD) (j : Fin 64) :
    ∑ s ∈ Finset.range 10, val2_colsum V c j s = ∑ r : Fin 100000, val2_hpre V c r j := by
  have hN : cfg2.N = 10 := N_2
  rw [← Fin.sum_univ_eq_sum_range (fun s => val2_colsum V c j s) 10]
  refine Eq.trans ?_ (Cert.LibStats.sum_tiles 10 10000 (fun r : Fin (10 * 10000) => val2_hpre V c r j)).symm
  refine Finset.sum_congr rfl fun s _ => ?_
  unfold val2_colsum
  rw [dif_pos (lt_of_lt_of_eq s.isLt hN.symm)]
  refine Finset.sum_congr rfl fun a _ => ?_
  have e : idx2_row ⟨s.val, lt_of_lt_of_eq s.isLt hN.symm⟩ a = (finProdFinEquiv (s, a) : Fin (10 * 10000)) :=
    Fin.ext (by rw [finProdFinEquiv_apply_val]; show 10000 * s.val + a.val = a.val + 10000 * s.val; omega)
  rw [e]
theorem val2_colsq_total (c : Dev nD) (j : Fin 64) :
    ∑ s ∈ Finset.range 10, val2_colsq V c j s = ∑ r : Fin 100000, val2_hpre V c r j * val2_hpre V c r j := by
  have hN : cfg2.N = 10 := N_2
  rw [← Fin.sum_univ_eq_sum_range (fun s => val2_colsq V c j s) 10]
  refine Eq.trans ?_ (Cert.LibStats.sum_tiles 10 10000 (fun r : Fin (10 * 10000) => val2_hpre V c r j * val2_hpre V c r j)).symm
  refine Finset.sum_congr rfl fun s _ => ?_
  unfold val2_colsq
  rw [dif_pos (lt_of_lt_of_eq s.isLt hN.symm)]
  refine Finset.sum_congr rfl fun a _ => ?_
  have e : idx2_row ⟨s.val, lt_of_lt_of_eq s.isLt hN.symm⟩ a = (finProdFinEquiv (s, a) : Fin (10 * 10000)) :=
    Fin.ext (by rw [finProdFinEquiv_apply_val]; show 10000 * s.val + a.val = a.val + 10000 * s.val; omega)
  rw [e]

/-- After the last point the accumulators hold the sums over all rows. -/
theorem outsAt2_5_last (c : Dev nD) :
    (outsAt2 V c t2_9.val t2_9.isLt).2.1 = val2_5 V c := by
  funext i
  obtain ⟨i0, i1, rfl⟩ : ∃ (i0 : Fin 1) (i1 : Fin 64), i = ix2 i0 i1 := ⟨i 0, i 1, eq_ix2 i⟩
  obtain rfl : i0 = 0 := Subsingleton.elim _ _
  exact (outsAt2_5_eq V c i1 9 t2_9.isLt).trans (val2_colsum_total V c i1)
theorem outsAt2_6_last (c : Dev nD) :
    (outsAt2 V c t2_9.val t2_9.isLt).2.2 = val2_6 V c := by
  funext i
  obtain ⟨i0, i1, rfl⟩ : ∃ (i0 : Fin 1) (i1 : Fin 64), i = ix2 i0 i1 := ⟨i 0, i 1, eq_ix2 i⟩
  obtain rfl : i0 = 0 := Subsingleton.elim _ _
  exact (outsAt2_6_eq V c i1 9 t2_9.isLt).trans (val2_colsq_total V c i1)

/-- What each flushing point writes back is its block of the whole-array function. -/
theorem flushed2_4 (c : Dev nD) (t : Fin cfg2.N) (hf : (cfg2.win 4).flush t = true) :
    (dat2 (F := Ideal) V c).flushed 4 t
      = ((cfg2.win 4).blk t).view.read (Elt Ideal) (val2_4 V c) := by
  obtain ⟨-, -, -, -, ⟨h0, h1⟩, -⟩ := idx2_facts t
  show (cfg2.win 4).cut (grid2.coords t) ((dat2 (F := Ideal) V c).after 4 t) = _
  rw [after2_4, outsAt2_4_eq]
  funext y
  obtain ⟨a, j, rfl⟩ : ∃ (a : Fin 10000) (j : Fin 64), y = ix2 a j := ⟨y 0, y 1, eq_ix2 y⟩
  rw [View.read_apply]
  show k2_pay3 (iblk2_0 V c t) (iblk2_1 V c t) (iblk2_2 V c t) (iblk2_3 V c t) (ix2 a j)
    = val2_hpre V c (((cfg2.win 4).blk t).view.emb (ix2 a j) 0) (((cfg2.win 4).blk t).view.emb (ix2 a j) 1)
  have e0 : idx2_row t a = ((cfg2.win 4).blk t).view.emb (ix2 a j) 0 :=
    Fin.ext (by show 10000 * t.val + a.val = win2_4.index t 0 * 10000 + 1 * a.val; rw [h0]; omega)
  have e1 : j = ((cfg2.win 4).blk t).view.emb (ix2 a j) 1 :=
    Fin.ext (by show j.val = win2_4.index t 1 * 64 + 1 * j.val; rw [h1]; omega)
  exact (k2_pay3_iblk V c t a j).trans (congrArg₂ (fun r' j' => val2_hpre V c r' j') e0 e1)

theorem flushed2_5 (c : Dev nD) (t : Fin cfg2.N) (hf : (cfg2.win 5).flush t = true) :
    (dat2 (F := Ideal) V c).flushed 5 t
      = ((cfg2.win 5).blk t).view.read (Elt Ideal) (val2_5 V c) := by
  have hN : cfg2.N = 10 := N_2
  have h9 : t.val = 9 := by have := (flush2_5 t).mp hf; have := t.isLt; omega
  obtain rfl : t = t2_9 := Fin.ext h9
  show (cfg2.win 5).cut (grid2.coords t2_9) ((dat2 (F := Ideal) V c).after 5 t2_9) = _
  rw [after2_5, outsAt2_5_last]
  have hz' : (fun a : Fin 2 => win2_5.index t2_9 a * S1x64.size a) = fun _ => 0 := funext fun a => by fin_cases a <;> decide
  exact (Memref.read_access_unit_zero (Elt Ideal) (Pipeline.arrRef spec2 5) hz' (fun a => by rw [congrFun hz' a]; simp)
    (val2_5 V c)).symm

theorem flushed2_6 (c : Dev nD) (t : Fin cfg2.N) (hf : (cfg2.win 6).flush t = true) :
    (dat2 (F := Ideal) V c).flushed 6 t
      = ((cfg2.win 6).blk t).view.read (Elt Ideal) (val2_6 V c) := by
  have hN : cfg2.N = 10 := N_2
  have h9 : t.val = 9 := by have := (flush2_6 t).mp hf; have := t.isLt; omega
  obtain rfl : t = t2_9 := Fin.ext h9
  show (cfg2.win 6).cut (grid2.coords t2_9) ((dat2 (F := Ideal) V c).after 6 t2_9) = _
  rw [after2_6, outsAt2_6_last]
  have hz' : (fun a : Fin 2 => win2_6.index t2_9 a * S1x64.size a) = fun _ => 0 := funext fun a => by fin_cases a <;> decide
  exact (Memref.read_access_unit_zero (Elt Ideal) (Pipeline.arrRef spec2 6) hz' (fun a => by rw [congrFun hz' a]; simp)
    (val2_6 V c)).symm

set_option maxHeartbeats 1000000 in
/-- WINDOW 4: every point writes its tile back; the tiles cover the rows. -/
theorem arr2_4 (c : Dev nD) : (dat2 (F := Ideal) V c).arrAt 4 cfg2.N = fun i => val2_hpre V c (i 0) (i 1) :=
  (dat2 (F := Ideal) V c).arrAt_eq_of_cover 4 (val2_4 V c) (flushed2_4 V c) fun i => by
    -- row i 0 lies in tile (i 0) / 10000
    have hi0 : (i 0 : Nat) < 100000 := (i 0).isLt
    have hi1 : (i 1 : Nat) < 64 := (i 1).isLt
    have hN : cfg2.N = 10 := N_2
    have ht : (i 0 : Nat) / 10000 < cfg2.N := by rw [hN]; omega
    refine ⟨⟨(i 0 : Nat) / 10000, ht⟩, flush2_4 _, ?_⟩
    obtain ⟨-, -, -, -, ⟨h0, h1⟩, -⟩ := idx2_facts ⟨(i 0 : Nat) / 10000, ht⟩
    show i ∈ ((View.whole (Pipeline.arrRef spec2 4)).slice (win2_4.rect ⟨(i 0 : Nat) / 10000, ht⟩)).set
    rw [View.set_slice_whole, Rect.mem_set_unit]
    intro a
    match a with
    | ⟨0, _⟩ =>
      show win2_4.index ⟨(i 0 : Nat) / 10000, ht⟩ 0 * win2_4.size 0 ≤ (i 0 : Nat)
        ∧ (i 0 : Nat) < win2_4.index ⟨(i 0 : Nat) / 10000, ht⟩ 0 * win2_4.size 0 + win2_4.xsize (grid2.coords ⟨(i 0 : Nat) / 10000, ht⟩) 0
      rw [h0]
      show (i 0 : Nat) / 10000 * 10000 ≤ (i 0 : Nat) ∧ (i 0 : Nat) < (i 0 : Nat) / 10000 * 10000 + 10000
      omega
    | ⟨1, _⟩ =>
      show win2_4.index ⟨(i 0 : Nat) / 10000, ht⟩ 1 * win2_4.size 1 ≤ (i 1 : Nat)
        ∧ (i 1 : Nat) < win2_4.index ⟨(i 0 : Nat) / 10000, ht⟩ 1 * win2_4.size 1 + win2_4.xsize (grid2.coords ⟨(i 0 : Nat) / 10000, ht⟩) 1
      rw [h1]
      show 0 * 64 ≤ (i 1 : Nat) ∧ (i 1 : Nat) < 0 * 64 + 64
      omega

set_option maxHeartbeats 1000000 in
/-- WINDOW 5: the last point writes the row of sums back. -/
theorem arr2_5 (c : Dev nD) : (dat2 (F := Ideal) V c).arrAt 5 cfg2.N = fun i => ∑ r : Fin 100000, val2_hpre V c r (i 1) :=
  (dat2 (F := Ideal) V c).arrAt_eq_of_cover 5 (val2_5 V c) (flushed2_5 V c) fun i =>
    ⟨t2_9, (flush2_5 t2_9).mpr rfl, by
      show i ∈ ((View.whole (Pipeline.arrRef spec2 5)).slice (win2_5.rect t2_9)).set
      rw [View.set_slice_whole, Rect.mem_set_unit]
      intro a
      have h0 : (i 0 : Nat) < 1 := (i 0).isLt
      have h1 : (i 1 : Nat) < 64 := (i 1).isLt
      match a with
      | ⟨0, _⟩ => show win2_5.index t2_9 0 * win2_5.size 0 ≤ (i 0 : Nat) ∧ (i 0 : Nat) < win2_5.index t2_9 0 * win2_5.size 0 + win2_5.xsize (grid2.coords t2_9) 0
                  rw [show win2_5.index t2_9 0 * win2_5.size 0 = 0 from by decide +kernel, show win2_5.xsize (grid2.coords t2_9) 0 = 1 from by decide +kernel]; omega
      | ⟨1, _⟩ => show win2_5.index t2_9 1 * win2_5.size 1 ≤ (i 1 : Nat) ∧ (i 1 : Nat) < win2_5.index t2_9 1 * win2_5.size 1 + win2_5.xsize (grid2.coords t2_9) 1
                  rw [show win2_5.index t2_9 1 * win2_5.size 1 = 0 from by decide +kernel, show win2_5.xsize (grid2.coords t2_9) 1 = 64 from by decide +kernel]; omega⟩

set_option maxHeartbeats 1000000 in
/-- WINDOW 6: and the row of sums of squares. -/
theorem arr2_6 (c : Dev nD) :
    (dat2 (F := Ideal) V c).arrAt 6 cfg2.N = fun i => ∑ r : Fin 100000, val2_hpre V c r (i 1) * val2_hpre V c r (i 1) :=
  (dat2 (F := Ideal) V c).arrAt_eq_of_cover 6 (val2_6 V c) (flushed2_6 V c) fun i =>
    ⟨t2_9, (flush2_6 t2_9).mpr rfl, by
      show i ∈ ((View.whole (Pipeline.arrRef spec2 6)).slice (win2_6.rect t2_9)).set
      rw [View.set_slice_whole, Rect.mem_set_unit]
      intro a
      have h0 : (i 0 : Nat) < 1 := (i 0).isLt
      have h1 : (i 1 : Nat) < 64 := (i 1).isLt
      match a with
      | ⟨0, _⟩ => show win2_6.index t2_9 0 * win2_6.size 0 ≤ (i 0 : Nat) ∧ (i 0 : Nat) < win2_6.index t2_9 0 * win2_6.size 0 + win2_6.xsize (grid2.coords t2_9) 0
                  rw [show win2_6.index t2_9 0 * win2_6.size 0 = 0 from by decide +kernel, show win2_6.xsize (grid2.coords t2_9) 0 = 1 from by decide +kernel]; omega
      | ⟨1, _⟩ => show win2_6.index t2_9 1 * win2_6.size 1 ≤ (i 1 : Nat) ∧ (i 1 : Nat) < win2_6.index t2_9 1 * win2_6.size 1 + win2_6.xsize (grid2.coords t2_9) 1
                  rw [show win2_6.index t2_9 1 * win2_6.size 1 = 0 from by decide +kernel, show win2_6.xsize (grid2.coords t2_9) 1 = 64 from by decide +kernel]; omega⟩

end Value

end Cert.KernelIdeal.Reg

end
-- ==== Proof.Bridge.L0CoreB.lean ====
import proofs.«147038_j12317966205319_1_alg».proof.Proof.KI.Val2
import proofs.«147038_j12317966205319_1_alg».proof.Proof.Ref.StageFns
import proofs.«147038_j12317966205319_1_alg».proof.Proof.Alg.Real
import proofs.«147038_j12317966205319_1_alg».proof.Proof.Bridge.StageFacts

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat Col Row hpreF)
open scoped BigOperators

/-! # One layer's combining region against the layer's stage function

The combining region leaves, at `(r, j)`, the aggregate plus the product times the node's self weight plus the layer's
bias at `j`; and in its two accumulated rows the column sums of that array and of its squares. -/

variable (V : (c : Dev nD) → (b : Ref sig .tc) → Buf (Elt Ideal) ((c : Thread nD τ).loc b))

/-- The region's value at `(r, j)` is the stage function's, when its four operand arrays hold the aggregate, the
    product, the self weights as a column and the bias as a row. -/
theorem hpre_at_L0 (c : Dev nD) (agg xw : Feat) (selfw : Col) (b : Row)
    (ha : (val2_0 V c : S100000x64.Idx → EReal) = agg) (hx : (val2_1 V c : S100000x64.Idx → EReal) = xw)
    (hs : ∀ (r : Fin 100000) (u : Fin 1), val2_2 V c (ix2 r u) = selfw (ix1 r))
    (hb : ∀ (u : Fin 1) (j : Fin 64), val2_3 V c (ix2 u j) = b (ix1 j)) (r : Fin 100000) (j : Fin 64) :
    val2_hpre V c r j = hpreF agg xw selfw b (ix2 r j) := by
  show val2_0 V c (ix2 r j) + val2_1 V c (ix2 r j) * val2_2 V c (ix2 r 0) + val2_3 V c (ix2 0 j)
    = agg (ix2 r j) + xw (ix2 r j) * selfw (ix1 r) + b (ix1 j)
  rw [hs r 0, hb 0 j, congrFun ha (ix2 r j), congrFun hx (ix2 r j)]

/-- The region's first output is the stage function's array. -/
theorem hpre_core_L0 (c : Dev nD) (agg xw : Feat) (selfw : Col) (b : Row)
    (ha : (val2_0 V c : S100000x64.Idx → EReal) = agg) (hx : (val2_1 V c : S100000x64.Idx → EReal) = xw)
    (hs : ∀ (r : Fin 100000) (u : Fin 1), val2_2 V c (ix2 r u) = selfw (ix1 r))
    (hb : ∀ (u : Fin 1) (j : Fin 64), val2_3 V c (ix2 u j) = b (ix1 j)) :
    (dat2 (F := Ideal) V c).arrAt 4 cfg2.N = hpreF agg xw selfw b := by
  rw [arr2_4]
  funext i
  obtain ⟨r, j, rfl⟩ : ∃ (r : Fin 100000) (j : Fin 64), i = ix2 r j := ⟨i 0, i 1, eq_ix2 i⟩
  exact hpre_at_L0 V c agg xw selfw b ha hx hs hb r j

/-- Its second output holds, at every column, the column sum of that array. -/
theorem sum_core_L0 (c : Dev nD) (agg xw : Feat) (selfw : Col) (b : Row)
    (ha : (val2_0 V c : S100000x64.Idx → EReal) = agg) (hx : (val2_1 V c : S100000x64.Idx → EReal) = xw)
    (hs : ∀ (r : Fin 100000) (u : Fin 1), val2_2 V c (ix2 r u) = selfw (ix1 r))
    (hb : ∀ (u : Fin 1) (j : Fin 64), val2_3 V c (ix2 u j) = b (ix1 j)) (u : Fin 1) (j : Fin 64) :
    ((dat2 (F := Ideal) V c).arrAt 5 cfg2.N : S1x64.Idx → EReal) (ix2 u j)
      = ∑ r : Fin 100000, hpreF agg xw selfw b (ix2 r j) := by
  refine (congrFun (show (dat2 (F := Ideal) V c).arrAt 5 cfg2.N = val2_5 V c from arr2_5 V c) (ix2 u j)).trans ?_
  show (∑ r : Fin 100000, val2_hpre V c r j) = ∑ r : Fin 100000, hpreF agg xw selfw b (ix2 r j)
  exact Finset.sum_congr rfl fun r _ => hpre_at_L0 V c agg xw selfw b ha hx hs hb r j

/-- Its third output holds, at every column, the column sum of that array's squares. -/
theorem sumsq_core_L0 (c : Dev nD) (agg xw : Feat) (selfw : Col) (b : Row)
    (ha : (val2_0 V c : S100000x64.Idx → EReal) = agg) (hx : (val2_1 V c : S100000x64.Idx → EReal) = xw)
    (hs : ∀ (r : Fin 100000) (u : Fin 1), val2_2 V c (ix2 r u) = selfw (ix1 r))
    (hb : ∀ (u : Fin 1) (j : Fin 64), val2_3 V c (ix2 u j) = b (ix1 j)) (u : Fin 1) (j : Fin 64) :
    ((dat2 (F := Ideal) V c).arrAt 6 cfg2.N : S1x64.Idx → EReal) (ix2 u j)
      = ∑ r : Fin 100000, hpreF agg xw selfw b (ix2 r j) * hpreF agg xw selfw b (ix2 r j) := by
  refine (congrFun (show (dat2 (F := Ideal) V c).arrAt 6 cfg2.N = val2_6 V c from arr2_6 V c) (ix2 u j)).trans ?_
  show (∑ r : Fin 100000, val2_hpre V c r j * val2_hpre V c r j)
    = ∑ r : Fin 100000, hpreF agg xw selfw b (ix2 r j) * hpreF agg xw selfw b (ix2 r j)
  exact Finset.sum_congr rfl fun r _ =>
    congrArg₂ (· * ·) (hpre_at_L0 V c agg xw selfw b ha hx hs hb r j) (hpre_at_L0 V c agg xw selfw b ha hx hs hb r j)

end Cert.Bridge

end
-- ==== Proof.Bridge.Edges.lean ====
import proofs.«147038_j12317966205319_1_alg».proof.Proof.KI.HostEmb
import proofs.«147038_j12317966205319_1_alg».proof.Proof.Ref.StageFns

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat Col EdgeList EdgeNode EdgeW aggF srcF nrmF dstF selfF)
open scoped BigOperators

/-! # The edge-derived arrays are the same in the two programs

Both programs compute, from the edge list, every edge's source and target node, every edge's weight and every node's
self weight by the same operations in the same order. So the aggregate over incoming edges of a feature matrix is the
same function of the matrix and the edge list in both, and the self weights laid out as a column read the same values
as the self weights laid out as a vector. -/

/-- A vector laid out as a column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The aggregate over incoming edges: the same gather, edge scaling and scatter-add of the same operands. -/
theorem aggOf_eq (xw : FeatArr) (e : EdgeArr) : aggOf xw e = aggF xw (srcF e) (nrmF e) (dstF e) := rfl

/-- The self weights as a column read the self weights as a vector. -/
theorem selfnOf_at (e : EdgeArr) (r : Fin 100000) (u : Fin 1) :
    (selfnOf e : S100000x1.Idx → EReal) (ix2 r u) = selfF e (ix1 r) :=
  (shapeCast_a_a1_apply (mulf (dinvOf e) (dinvOf e)) shapeCasts_S100000_S100000x1 r u).trans rfl

end Cert.Bridge

end
-- ==== Proof.Bridge.L0.lean ====
import proofs.«147038_j12317966205319_1_alg».proof.Proof.KI.Conts
import proofs.«147038_j12317966205319_1_alg».proof.Proof.Bridge.Args
import proofs.«147038_j12317966205319_1_alg».proof.Proof.KI.HostL0
import proofs.«147038_j12317966205319_1_alg».proof.Proof.Bridge.L0Core
import proofs.«147038_j12317966205319_1_alg».proof.Proof.Bridge.L0CoreB
import proofs.«147038_j12317966205319_1_alg».proof.Proof.Bridge.Edges

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat Col Row WSq WLayers RowLayers EdgeList xwF aggF hpreF normF reluF layerF sliceSq sliceRow srcF nrmF dstF selfF)
open scoped BigOperators

/-! # One graph-convolution layer: what its three regions leave is the layer's stage functions of its input

From what the layer's input array holds: the product region leaves the product with the layer's weight matrix; the
combining region the aggregate over incoming edges plus the self term plus the layer's bias, with its column sums
and column sums of squares; the normalising region, when that combined array is real-valued, its normalisation
with the layer's scale and shift cut off at zero. -/

variable (m : (ℓ : Loc nD τ sig) → Buf (Elt Ideal) ℓ)

/-- The product region: the layer's input times the layer's weight matrix. -/
theorem xw_L0 (c : Dev nD) (h : Feat) (hin : outsF m 2 main_v30 c = h) :
    outsF m 4 main_v34 c = xwF h (sliceSq (arg4 m c) (0 : Fin 4)) := by
  have hV : ∀ b : Ref sig .tc, T3 m c b = V3 m (outsF m) c b := fun b => (congrFun (V3_eq m c) _).symm
  show W4 m c (Proc.devRef .tc main_v34) = _
  rw [W4_out3]
  refine xw_core_L0 (T3 m) c h (sliceSq (arg4 m c) (0 : Fin 4)) ?_ ?_ ?_
  · exact ((hV main_v30).trans (mm_x_L0 m (outsF m) c)).trans hin
  · intro k j
    exact (congrFun (hV main_v32) (ix2 k j)).trans (mm_w_L0 m (outsF m) c k j)
  · intro u j
    exact (congrFun (hV main_v33) (ix2 u j)).trans (mm_b_L0 m (outsF m) c u j)

/-- The combining region's operand arrays, from what the product region left. -/
theorem hpre_L0 (c : Dev nD) (xw : Feat) (hxw : outsF m 4 main_v34 c = xw) :
    outsF m 6 main_v51_0 c
      = hpreF (aggF xw (srcF (arg1 m c)) (nrmF (arg1 m c)) (dstF (arg1 m c))) xw (selfF (arg1 m c))
          (sliceRow (arg5 m c) (0 : Fin 4)) := by
  have hV : ∀ b : Ref sig .tc, T5 m c b = V5 m (outsF m) c b := fun b => (congrFun (V5_eq m c) _).symm
  show W6 m c (Proc.devRef .tc main_v51_0) = _
  rw [W6_out4]
  refine hpre_core_L0 (T5 m) c _ xw _ _ ?_ ?_ ?_ ?_
  · exact ((hV main_v47).trans (cb_agg_L0 m (outsF m) c)).trans
      ((congrArg (fun y => aggOf y (m (c, main_arg1))) hxw).trans (aggOf_eq xw (arg1 m c)))
  · exact ((hV main_v34).trans (cb_xw_L0 m (outsF m) c)).trans hxw
  · intro r u
    exact (congrFun ((hV main_v28).trans (cb_selfn_L0 m (outsF m) c)) (ix2 r u)).trans (selfnOf_at (arg1 m c) r u)
  · intro u j
    exact (congrFun (hV main_v50) (ix2 u j)).trans (cb_convb_L0 m (outsF m) c u j)

/-- Its second output: the column sums of the combined array. -/
theorem sum_L0 (c : Dev nD) (xw : Feat) (hxw : outsF m 4 main_v34 c = xw) (u : Fin 1) (j : Fin 64) :
    (outsF m 6 main_v51_1 c : S1x64.Idx → EReal) (ix2 u j)
      = ∑ r : Fin 100000, hpreF (aggF xw (srcF (arg1 m c)) (nrmF (arg1 m c)) (dstF (arg1 m c))) xw (selfF (arg1 m c))
          (sliceRow (arg5 m c) (0 : Fin 4)) (ix2 r j) := by
  have hV : ∀ b : Ref sig .tc, T5 m c b = V5 m (outsF m) c b := fun b => (congrFun (V5_eq m c) _).symm
  show W6 m c (Proc.devRef .tc main_v51_1) (ix2 u j) = _
  rw [W6_out5]
  refine sum_core_L0 (T5 m) c _ xw _ _ ?_ ?_ ?_ ?_ u j
  · exact ((hV main_v47).trans (cb_agg_L0 m (outsF m) c)).trans
      ((congrArg (fun y => aggOf y (m (c, main_arg1))) hxw).trans (aggOf_eq xw (arg1 m c)))
  · exact ((hV main_v34).trans (cb_xw_L0 m (outsF m) c)).trans hxw
  · intro r u
    exact (congrFun ((hV main_v28).trans (cb_selfn_L0 m (outsF m) c)) (ix2 r u)).trans (selfnOf_at (arg1 m c) r u)
  · intro u j
    exact (congrFun (hV main_v50) (ix2 u j)).trans (cb_convb_L0 m (outsF m) c u j)

/-- Its third output: the column sums of the combined array's squares. -/
theorem sumsq_L0 (c : Dev nD) (xw : Feat) (hxw : outsF m 4 main_v34 c = xw) (u : Fin 1) (j : Fin 64) :
    (outsF m 6 main_v51_2 c : S1x64.Idx → EReal) (ix2 u j)
      = ∑ r : Fin 100000, hpreF (aggF xw (srcF (arg1 m c)) (nrmF (arg1 m c)) (dstF (arg1 m c))) xw (selfF (arg1 m c))
            (sliceRow (arg5 m c) (0 : Fin 4)) (ix2 r j)
          * hpreF (aggF xw (srcF (arg1 m c)) (nrmF (arg1 m c)) (dstF (arg1 m c))) xw (selfF (arg1 m c))
            (sliceRow (arg5 m c) (0 : Fin 4)) (ix2 r j) := by
  have hV : ∀ b : Ref sig .tc, T5 m c b = V5 m (outsF m) c b := fun b => (congrFun (V5_eq m c) _).symm
  show W6 m c (Proc.devRef .tc main_v51_2) (ix2 u j) = _
  rw [W6_out6]
  refine sumsq_core_L0 (T5 m) c _ xw _ _ ?_ ?_ ?_ ?_ u j
  · exact ((hV main_v47).trans (cb_agg_L0 m (outsF m) c)).trans
      ((congrArg (fun y => aggOf y (m (c, main_arg1))) hxw).trans (aggOf_eq xw (arg1 m c)))
  · exact ((hV main_v34).trans (cb_xw_L0 m (outsF m) c)).trans hxw
  · intro r u
    exact (congrFun ((hV main_v28).trans (cb_selfn_L0 m (outsF m) c)) (ix2 r u)).trans (selfnOf_at (arg1 m c) r u)
  · intro u j
    exact (congrFun (hV main_v50) (ix2 u j)).trans (cb_convb_L0 m (outsF m) c u j)

/-- The normalising region, from what the combining region left, the combined array real-valued. -/
theorem bn_L0 (c : Dev nD) (hp : Feat) (hhp : outsF m 6 main_v51_0 c = hp)
    (hS1 : ∀ (u : Fin 1) (j : Fin 64), (outsF m 6 main_v51_1 c : S1x64.Idx → EReal) (ix2 u j) = ∑ r : Fin 100000, hp (ix2 r j))
    (hS2 : ∀ (u : Fin 1) (j : Fin 64), (outsF m 6 main_v51_2 c : S1x64.Idx → EReal) (ix2 u j)
      = ∑ r : Fin 100000, hp (ix2 r j) * hp (ix2 r j))
    (hreal : ∀ i, ∃ x : ℝ, hp i = x) :
    outsF m 8 main_v67 c = reluF (normF hp (sliceRow (arg6 m c) (0 : Fin 4)) (sliceRow (arg7 m c) (0 : Fin 4))) := by
  have hV : ∀ b : Ref sig .tc, T7 m c b = V7 m (outsF m) c b := fun b => (congrFun (V7_eq m c) _).symm
  show W8 m c (Proc.devRef .tc main_v67) = _
  rw [W8_out5]
  refine bn_core_L0 (T7 m) c hp _ _ (outsF m 6 main_v51_1 c) (outsF m 6 main_v51_2 c) ?_ ?_ ?_ ?_ ?_ (hS1 0) (hS2 0) hreal
  · exact ((hV main_v51_0).trans (bn_hpre_L0 m (outsF m) c)).trans hhp
  · intro u j
    exact (congrFun (hV main_v53) (ix2 u j)).trans (bn_mu_L0 m (outsF m) c u j)
  · intro u j
    exact (congrFun (hV main_v60) (ix2 u j)).trans (bn_invstd_L0 m (outsF m) c u j)
  · intro u j
    exact (congrFun (hV main_v63) (ix2 u j)).trans (bn_gamma_L0 m (outsF m) c u j)
  · intro u j
    exact (congrFun (hV main_v66) (ix2 u j)).trans (bn_beta_L0 m (outsF m) c u j)

/-- The whole layer: what its last region leaves is the layer function of its input, given that the combined array
    is real-valued. -/
theorem layer_L0 (c : Dev nD) (h : Feat) (hin : outsF m 2 main_v30 c = h)
    (hreal : ∀ i, ∃ x : ℝ,
      hpreF (aggF (xwF h (sliceSq (arg4 m c) (0 : Fin 4))) (srcF (arg1 m c)) (nrmF (arg1 m c)) (dstF (arg1 m c)))
        (xwF h (sliceSq (arg4 m c) (0 : Fin 4))) (selfF (arg1 m c)) (sliceRow (arg5 m c) (0 : Fin 4)) i = x) :
    outsF m 8 main_v67 c
      = layerF h (srcF (arg1 m c)) (nrmF (arg1 m c)) (dstF (arg1 m c)) (selfF (arg1 m c))
          (arg4 m c) (arg5 m c) (arg6 m c) (arg7 m c) (0 : Fin 4) :=
  bn_L0 m c _ (hpre_L0 m c _ (xw_L0 m c h hin)) (sum_L0 m c _ (xw_L0 m c h hin)) (sumsq_L0 m c _ (xw_L0 m c h hin)) hreal

end Cert.Bridge

end
-- ==== Proof.KI.HostL1.lean ====
/- Layer 1 of the graph convolution, at the ideal values: what the buffers read by the layer's product, its combine
   and its normalisation hold when each starts. The product reads the previous features, member 1 of the stacked
   weights and a zero row; the combine reads the aggregate of the product over the edges, the product, the self weights
   and row 1 of the stacked biases; the normalisation reads the combine's output, the mean Σ/100000, the reciprocal
   deviation rsqrt(Σ²/100000 − mean² + ε) and rows 1 of the stacked scales and shifts. -/
import proofs.«147038_j12317966205319_1_alg».proof.Proof.Gen.KernelIdeal.Regions
import Idealize.ShloMosaic.Lib.ValueIdx
import Idealize.ShloMosaic.Lib.ValueLayout
import Idealize.ShloMosaic.Lib.IdealHost
import Idealize.ShloMosaic.PureOps.Ideal.Laws
import proofs.«147038_j12317966205319_1_alg».proof.Proof.KI.HostL0

set_option maxRecDepth 16384

noncomputable section

namespace Cert.KernelIdeal.Reg

open Idealize.ShloMosaic Idealize.ShloMosaic.TcCoe
open Idealize.ShloMosaic.ValueIdx
open Cert.KernelIdeal Cert.KernelIdeal.Gen

variable (m : (ℓ : Loc nD τ sig) → Buf (Elt Ideal) ℓ) (outs : Outs (F := Ideal))

/-! ## Buffers the layer does not write -/

theorem V10_keep_L1 (c : Dev nD) (r : Ref sig .tc) (ha : r ∉ hostOps4_W) (hb : r ∉ ([main_v71] : List (Ref sig .tc))) :
    V10 m outs c r = V8 m outs c r := (V10_of m outs c r hb).trans (V9_of m outs c r ha)
theorem V12_keep_L1 (c : Dev nD) (r : Ref sig .tc) (ha : r ∉ hostOps4_W) (hb : r ∉ ([main_v71] : List (Ref sig .tc)))
    (hc : r ∉ hostOps5_W) (hd : r ∉ ([main_v88_0, main_v88_1, main_v88_2] : List (Ref sig .tc))) :
    V12 m outs c r = V8 m outs c r :=
  (V12_of m outs c r hd).trans ((V11_of m outs c r hc).trans (V10_keep_L1 m outs c r ha hb))
theorem V14_keep_L1 (c : Dev nD) (r : Ref sig .tc) (ha : r ∉ hostOps4_W) (hb : r ∉ ([main_v71] : List (Ref sig .tc)))
    (hc : r ∉ hostOps5_W) (hd : r ∉ ([main_v88_0, main_v88_1, main_v88_2] : List (Ref sig .tc)))
    (he : r ∉ hostOps6_W) (hf : r ∉ ([main_v104] : List (Ref sig .tc))) :
    V14 m outs c r = V8 m outs c r :=
  (V14_of m outs c r hf).trans ((V13_of m outs c r he).trans (V12_keep_L1 m outs c r ha hb hc hd))

/-! ## The entry of the layer's product: features, the layer's weight matrix, a zero row -/

theorem mm_x_L1 (c : Dev nD) : V9 m outs c main_v67 = outs 8 main_v67 c :=
  (V9_of m outs c main_v67 (by decide)).trans (V8_x m outs c)

theorem mm_w_L1 (c : Dev nD) (k j : Fin 64) :
    (V9 m outs c main_v69 : S64x64.Idx → EReal) (ix2 k j) = (m (c, main_arg4) : S4x64x64.Idx → EReal) (ix3 (1 : Fin 4) k j) := by
  show StableHlo.after hostOps4 _ (Proc.devRef .tc main_v69) (ix2 k j) = _
  after_results
  show shapeCast S64x64 (extractStridedSlice S1x64x64 _ (V8 m outs c main_arg4 : S4x64x64.Idx → EReal) _) _ (ix2 k j) = _
  rw [V8_arg4]
  exact (shapeCast_1ab_ab_apply _ _ k j).trans (slice3_axis0_apply _ _ _ _ k j (1 : Fin 4) rfl)

theorem mm_b_L1 (c : Dev nD) (u : Fin 1) (j : Fin 64) : (V9 m outs c main_v70 : S1x64.Idx → EReal) (ix2 u j) = (0 : EReal) := by
  show StableHlo.after hostOps4 _ (Proc.devRef .tc main_v70) (ix2 u j) = _
  after_results
  exact Ideal.ofBits_zero_f32

/-! ## The entry of the layer's combine: the aggregate, the product, the self weights, the layer's bias row -/

theorem V10_xw_L1 (c : Dev nD) : V10 m outs c main_v71 = outs 10 main_v71 c := Function.update_self ..

theorem cb_agg_L1 (c : Dev nD) : V11 m outs c main_v84 = aggOf (outs 10 main_v71 c) (m (c, main_arg1)) := by
  show StableHlo.after hostOps5 _ (Proc.devRef .tc main_v84) = _
  after_results_simp
  rw [V10_xw_L1, (V10_keep_L1 m outs c main_v1 (by decide) (by decide)).trans (V8_src m outs c),
    (V10_keep_L1 m outs c main_v3 (by decide) (by decide)).trans (V8_dst m outs c),
    (V10_keep_L1 m outs c main_v26 (by decide) (by decide)).trans (V8_normE m outs c)]
  rfl

theorem cb_xw_L1 (c : Dev nD) : V11 m outs c main_v71 = outs 10 main_v71 c :=
  (V11_of m outs c main_v71 (by decide)).trans (V10_xw_L1 m outs c)

theorem cb_selfn_L1 (c : Dev nD) : V11 m outs c main_v28 = selfnOf (m (c, main_arg1)) :=
  (V11_of m outs c main_v28 (by decide)).trans ((V10_keep_L1 m outs c main_v28 (by decide) (by decide)).trans (V8_selfn m outs c))

theorem cb_convb_L1 (c : Dev nD) (u : Fin 1) (j : Fin 64) :
    (V11 m outs c main_v87 : S1x64.Idx → EReal) (ix2 u j) = (m (c, main_arg5) : S4x64.Idx → EReal) (ix2 (1 : Fin 4) j) := by
  show StableHlo.after hostOps5 _ (Proc.devRef .tc main_v87) (ix2 u j) = _
  after_results
  show shapeCast S1x64 (shapeCast S64 (extractStridedSlice S1x64 _ (V10 m outs c main_arg5 : S4x64.Idx → EReal) _) _) _ (ix2 u j) = _
  rw [(V10_keep_L1 m outs c main_arg5 (by decide) (by decide)).trans (V8_arg5 m outs c)]
  exact (shapeCast_a_1a_apply _ _ u j).trans ((shapeCast_1a_a_apply _ _ j).trans
    (slice2_axis0_apply _ _ _ (0 : Fin 1) j (1 : Fin 4) rfl))

/-! ## The entry of the layer's normalisation: the combine's three outputs, the mean and the reciprocal deviation
    computed from its two column sums, the layer's scale and shift rows -/

theorem V12_hpre_L1 (c : Dev nD) : V12 m outs c main_v88_0 = outs 12 main_v88_0 c := by
  show Function.update (Function.update (Function.update (V11 m outs c) main_v88_0 _) main_v88_1 _) main_v88_2 _ main_v88_0 = _
  rw [Function.update_of_ne (StableHlo.devRef_ne_of_ne (by decide)), Function.update_of_ne (StableHlo.devRef_ne_of_ne (by decide)),
    Function.update_self]
theorem V12_sum_L1 (c : Dev nD) : V12 m outs c main_v88_1 = outs 12 main_v88_1 c := by
  show Function.update (Function.update (Function.update (V11 m outs c) main_v88_0 _) main_v88_1 _) main_v88_2 _ main_v88_1 = _
  rw [Function.update_of_ne (StableHlo.devRef_ne_of_ne (by decide)), Function.update_self]
theorem V12_sumsq_L1 (c : Dev nD) : V12 m outs c main_v88_2 = outs 12 main_v88_2 c := Function.update_self ..

theorem bn_hpre_L1 (c : Dev nD) : V13 m outs c main_v88_0 = outs 12 main_v88_0 c :=
  (V13_of m outs c main_v88_0 (by decide)).trans (V12_hpre_L1 m outs c)

theorem bn_mu_L1 (c : Dev nD) (u : Fin 1) (j : Fin 64) :
    (V13 m outs c main_v90 : S1x64.Idx → EReal) (ix2 u j)
      = Ideal.div ((outs 12 main_v88_1 c : S1x64.Idx → EReal) (ix2 u j)) (Ideal.ofBits .f32 0x47C35000#32) := by
  show StableHlo.after hostOps6 _ (Proc.devRef .tc main_v90) (ix2 u j) = _
  after_results
  rw [V12_sum_L1]
  rfl

theorem bn_invstd_L1 (c : Dev nD) (u : Fin 1) (j : Fin 64) :
    (V13 m outs c main_v97 : S1x64.Idx → EReal) (ix2 u j)
      = Ideal.rsqrt ((Ideal.div ((outs 12 main_v88_2 c : S1x64.Idx → EReal) (ix2 u j)) (Ideal.ofBits .f32 0x47C35000#32)
            - Ideal.div ((outs 12 main_v88_1 c : S1x64.Idx → EReal) (ix2 u j)) (Ideal.ofBits .f32 0x47C35000#32)
              * Ideal.div ((outs 12 main_v88_1 c : S1x64.Idx → EReal) (ix2 u j)) (Ideal.ofBits .f32 0x47C35000#32))
          + Ideal.ofBits .f32 0x3727C5AC#32) := by
  show StableHlo.after hostOps6 _ (Proc.devRef .tc main_v97) (ix2 u j) = _
  after_results
  rw [V12_sum_L1, V12_sumsq_L1]
  rfl

theorem bn_gamma_L1 (c : Dev nD) (u : Fin 1) (j : Fin 64) :
    (V13 m outs c main_v100 : S1x64.Idx → EReal) (ix2 u j) = (m (c, main_arg6) : S4x64.Idx → EReal) (ix2 (1 : Fin 4) j) := by
  show StableHlo.after hostOps6 _ (Proc.devRef .tc main_v100) (ix2 u j) = _
  after_results
  show shapeCast S1x64 (shapeCast S64 (extractStridedSlice S1x64 _ (V12 m outs c main_arg6 : S4x64.Idx → EReal) _) _) _ (ix2 u j) = _
  rw [(V12_keep_L1 m outs c main_arg6 (by decide) (by decide) (by decide) (by decide)).trans (V8_arg6 m outs c)]
  exact (shapeCast_a_1a_apply _ _ u j).trans ((shapeCast_1a_a_apply _ _ j).trans
    (slice2_axis0_apply _ _ _ (0 : Fin 1) j (1 : Fin 4) rfl))

theorem bn_beta_L1 (c : Dev nD) (u : Fin 1) (j : Fin 64) :
    (V13 m outs c main_v103 : S1x64.Idx → EReal) (ix2 u j) = (m (c, main_arg7) : S4x64.Idx → EReal) (ix2 (1 : Fin 4) j) := by
  show StableHlo.after hostOps6 _ (Proc.devRef .tc main_v103) (ix2 u j) = _
  after_results
  show shapeCast S1x64 (shapeCast S64 (extractStridedSlice S1x64 _ (V12 m outs c main_arg7 : S4x64.Idx → EReal) _) _) _ (ix2 u j) = _
  rw [(V12_keep_L1 m outs c main_arg7 (by decide) (by decide) (by decide) (by decide)).trans (V8_arg7 m outs c)]
  exact (shapeCast_a_1a_apply _ _ u j).trans ((shapeCast_1a_a_apply _ _ j).trans
    (slice2_axis0_apply _ _ _ (0 : Fin 1) j (1 : Fin 4) rfl))

/-! ## What the layer leaves for the next -/

theorem V14_x (c : Dev nD) : V14 m outs c main_v104 = outs 14 main_v104 c := Function.update_self ..
theorem V14_src (c : Dev nD) : V14 m outs c main_v1 = srcOf (m (c, main_arg1)) :=
  (V14_keep_L1 m outs c main_v1 (by decide) (by decide) (by decide) (by decide) (by decide) (by decide)).trans (V8_src m outs c)
theorem V14_dst (c : Dev nD) : V14 m outs c main_v3 = dstOf (m (c, main_arg1)) :=
  (V14_keep_L1 m outs c main_v3 (by decide) (by decide) (by decide) (by decide) (by decide) (by decide)).trans (V8_dst m outs c)
theorem V14_normE (c : Dev nD) : V14 m outs c main_v26 = normEOf (m (c, main_arg1)) :=
  (V14_keep_L1 m outs c main_v26 (by decide) (by decide) (by decide) (by decide) (by decide) (by decide)).trans (V8_normE m outs c)
theorem V14_selfn (c : Dev nD) : V14 m outs c main_v28 = selfnOf (m (c, main_arg1)) :=
  (V14_keep_L1 m outs c main_v28 (by decide) (by decide) (by decide) (by decide) (by decide) (by decide)).trans (V8_selfn m outs c)
theorem V14_arg4 (c : Dev nD) : V14 m outs c main_arg4 = m (c, main_arg4) :=
  (V14_keep_L1 m outs c main_arg4 (by decide) (by decide) (by decide) (by decide) (by decide) (by decide)).trans (V8_arg4 m outs c)
theorem V14_arg5 (c : Dev nD) : V14 m outs c main_arg5 = m (c, main_arg5) :=
  (V14_keep_L1 m outs c main_arg5 (by decide) (by decide) (by decide) (by decide) (by decide) (by decide)).trans (V8_arg5 m outs c)
theorem V14_arg6 (c : Dev nD) : V14 m outs c main_arg6 = m (c, main_arg6) :=
  (V14_keep_L1 m outs c main_arg6 (by decide) (by decide) (by decide) (by decide) (by decide) (by decide)).trans (V8_arg6 m outs c)
theorem V14_arg7 (c : Dev nD) : V14 m outs c main_arg7 = m (c, main_arg7) :=
  (V14_keep_L1 m outs c main_arg7 (by decide) (by decide) (by decide) (by decide) (by decide) (by decide)).trans (V8_arg7 m outs c)
theorem V14_arg8 (c : Dev nD) : V14 m outs c main_arg8 = m (c, main_arg8) :=
  (V14_keep_L1 m outs c main_arg8 (by decide) (by decide) (by decide) (by decide) (by decide) (by decide)).trans (V8_arg8 m outs c)
theorem V14_arg9 (c : Dev nD) : V14 m outs c main_arg9 = m (c, main_arg9) :=
  (V14_keep_L1 m outs c main_arg9 (by decide) (by decide) (by decide) (by decide) (by decide) (by decide)).trans (V8_arg9 m outs c)

end Cert.KernelIdeal.Reg
-- ==== Proof.KI.Val4.lean ====
import proofs.«147038_j12317966205319_1_alg».proof.Proof.KI.Fr4
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the buffer contents when the region is entered, over the extended reals
variable (V : (c : Dev nD) → (b : Ref sig .tc) → Buf (Elt Ideal) ((c : Thread nD τ).loc b))

/-! # The value of a product of rows with a weight matrix, plus a bias row, over the extended reals

Row `r` of the output depends on row `r` of the left operand alone, on the whole weight matrix and on the whole bias
row: entry `(r, j)` is the sum over `k` of `x (r, k) * w (k, j)`, plus `b (0, j)`. Over the extended reals the
two narrowings to sixteen bits are the identity and the accumulator starts at zero, so nothing else is left. -/

/-! ## The entry arrays, at their literal types -/

/-- The left operand: a hundred thousand rows. -/
abbrev val4_0 (c : Dev nD) : S100000x64.Idx → EReal := V c (Pipeline.arrRef spec4 0)
/-- The weight matrix. -/
abbrev val4_1 (c : Dev nD) : S64x64.Idx → EReal := V c (Pipeline.arrRef spec4 1)
/-- The bias row. -/
abbrev val4_2 (c : Dev nD) : S1x64.Idx → EReal := V c (Pipeline.arrRef spec4 2)

/-- The output as one function of the three entry arrays, index by index. -/
abbrev val4_3 (c : Dev nD) : S100000x64.Idx → EReal := fun i =>
  (∑ k : Fin 64, val4_0 V c (ix2 (i 0) k) * val4_1 V c (ix2 k (i 1))) + val4_2 V c (ix2 (0 : Fin 1) (i 1))

/-! ## The contraction read at an index

The product contracts the left operand's columns with the weight matrix's rows. At output index `(p, q)` and
contraction coordinate `k` the left factor sits at `(p, k)` and the right factor at `(k, q)`. -/

theorem idx4_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem idx4_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem idx4_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem idx4_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product accumulated from zero, read at `(p, q)`: the sum over the contraction coordinate. -/
theorem val4_dot (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun ax => Fin.ext (by
    match ax with
    | ⟨0, _⟩ => exact idx4_lhs_0 _ _
    | ⟨1, _⟩ => exact (idx4_lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun ax => Fin.ext (by
    match ax with
    | ⟨0, _⟩ => exact (idx4_rhs_0 _ _).trans hk
    | ⟨1, _⟩ => exact idx4_rhs_1 _ _)
  rw [el, er]

/-! ## The body's payload at an index -/

/-- What the body stores at `(p, q)` of the tile, from the three blocks it loaded: the contraction of row `p` of
    the row tile with column `q` of the weight matrix, plus the bias at `q`. -/
theorem val4_pay (x0 : Vec Ideal S10000x64 .f32) (x1 : Vec Ideal S64x64 .f32) (x2 : Vec Ideal S1x64 .f32) (p : Fin 10000) (q : Fin 64) :
    k4_pay1 (F := Ideal) x0 x1 x2 (ix2 p q) = (∑ k : Fin 64, x0 (ix2 p k) * x1 (ix2 k q)) + x2 (ix2 (0 : Fin 1) q) := by
  unfold k4_pay1
  show matmul dot_S10000x64_S64x64_S10000x64_1_0_0_1_n_n none (truncf .bf16 (shapeCast S10000x64 x0 shapeCasts_S10000x64_S10000x64) bitsLt_bf16_f32) (truncf .bf16 (shapeCast S64x64 x1 shapeCasts_S64x64_S64x64) bitsLt_bf16_f32)
        (constant (F := Ideal) S10000x64 .f32 0x00000000#32) (ix2 p q)
      + broadcastTo S10000x64 (shapeCast S1x64 x2 shapeCasts_S1x64_S1x64) broadcasts_S1x64_S10000x64 (ix2 p q) = _
  have ha : ∀ i, (truncf .bf16 (shapeCast S10000x64 x0 shapeCasts_S10000x64_S10000x64) bitsLt_bf16_f32 : FVec Ideal S10000x64 .bf16) i = x0 i := fun i => congrFun (shapeCast_self x0 shapeCasts_S10000x64_S10000x64) i
  have hb : ∀ i, (truncf .bf16 (shapeCast S64x64 x1 shapeCasts_S64x64_S64x64) bitsLt_bf16_f32 : FVec Ideal S64x64 .bf16) i = x1 i := fun i => congrFun (shapeCast_self x1 shapeCasts_S64x64_S64x64) i
  refine congrArg₂ (· + ·) ((val4_dot _ _ p q).trans (Finset.sum_congr rfl fun k _ => congrArg₂ (· * ·) (ha _) (hb _))) ?_
  exact (broadcastTo_1b_ab_apply (shapeCast S1x64 x2 shapeCasts_S1x64_S1x64) broadcasts_S1x64_S10000x64 p q).trans
    (congrFun (shapeCast_self x2 shapeCasts_S1x64_S1x64) (ix2 (0 : Fin 1) q))

/-! ## Where each window's block sits in its array -/

theorem idx4_hz : (![0, 0] : Fin 2 → Nat) = fun _ => 0 := funext fun a => by fin_cases a <;> rfl

/-- The printed index maps, decided over the ten points: the row tile and the output tile are at block row `t`,
    block column 0; the weight matrix and the bias row are their arrays whole. -/
theorem idx4_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry `(p, k)` of the row tile at point `t` is entry `(t * 10000 + p, k)` of the left operand. -/
theorem val4_0_blk (c : Dev nD) (t : Fin cfg4.N) (p : Fin 10000) (k : Fin 64) (r : Fin 100000) (hr : r.val = t.val * 10000 + p.val) :
    (iblk4 V c 0 t : S10000x64.Idx → EReal) (ix2 p k) = val4_0 V c (ix2 r k) := by
  show V c (Pipeline.arrRef spec4 0) (((cfg4.win 0).blk t).view.emb (ix2 p k)) = V c (Pipeline.arrRef spec4 0) (ix2 r k)
  obtain ⟨ea, eb, -⟩ := idx4_facts t
  refine congrArg _ (funext fun ax => Fin.ext ?_)
  match ax with
  | ⟨0, _⟩ => show win4_0.index t (0 : Fin 2) * 10000 + 1 * p.val = r.val; omega
  | ⟨1, _⟩ => show win4_0.index t (1 : Fin 2) * 64 + 1 * k.val = k.val; omega

/-- The weight matrix's block is the matrix, at every point. -/
theorem val4_1_blk (c : Dev nD) (t : Fin cfg4.N) (k : Fin 64) (q : Fin 64) :
    (iblk4 V c 1 t : S64x64.Idx → EReal) (ix2 k q) = val4_1 V c (ix2 k q) := by
  show V c (Pipeline.arrRef spec4 1) (((cfg4.win 1).blk t).view.emb (ix2 k q)) = V c (Pipeline.arrRef spec4 1) (ix2 k q)
  obtain ⟨-, -, ec, ed, -⟩ := idx4_facts t
  refine congrArg _ (funext fun ax => Fin.ext ?_)
  match ax with
  | ⟨0, _⟩ => show win4_1.index t (0 : Fin 2) * 64 + 1 * k.val = k.val; omega
  | ⟨1, _⟩ => show win4_1.index t (1 : Fin 2) * 64 + 1 * q.val = q.val; omega

/-- The bias row's block is the row, at every point. -/
theorem val4_2_blk (c : Dev nD) (t : Fin cfg4.N) (q : Fin 64) :
    (iblk4 V c 2 t : S1x64.Idx → EReal) (ix2 (0 : Fin 1) q) = val4_2 V c (ix2 (0 : Fin 1) q) := by
  show V c (Pipeline.arrRef spec4 2) (((cfg4.win 2).blk t).view.emb (ix2 (0 : Fin 1) q)) = V c (Pipeline.arrRef spec4 2) (ix2 (0 : Fin 1) q)
  obtain ⟨-, -, -, -, ee, ef, -⟩ := idx4_facts t
  refine congrArg _ (funext fun ax => Fin.ext ?_)
  match ax with
  | ⟨0, _⟩ => show win4_2.index t (0 : Fin 2) * 1 + 1 * (0 : Fin 1).val = (0 : Fin 1).val; omega
  | ⟨1, _⟩ => show win4_2.index t (1 : Fin 2) * 64 + 1 * q.val = q.val; omega

/-! ## What a point writes back -/

/-- What point `t` writes back to the output is block `t` of the closed form: rows `t * 10000` to
    `t * 10000 + 9999`. -/
theorem flushed4_3 (c : Dev nD) (t : Fin cfg4.N) :
    (dat4 (F := Ideal) V c).flushed 3 t = ((cfg4.win 3).blk t).view.read (Elt Ideal) (val4_3 V c) := by
  show (cfg4.win 3).cut (grid4.coords t) ((dat4 (F := Ideal) V c).after 3 t) = _
  rw [after4_3]
  unfold out4_3
  rw [View.canon_unit_zero idx4_hz]
  simp only [View.ld_unit_zero (S := S10000x64) idx4_hz, View.ld_unit_zero (S := S64x64) idx4_hz, View.ld_unit_zero (S := S1x64) idx4_hz]
  obtain ⟨-, -, -, -, -, -, eg, eh⟩ := idx4_facts t
  have ht : t.val < 10 := lt_of_lt_of_eq t.isLt N_4
  funext j
  obtain ⟨p, q, rfl⟩ : ∃ (p : Fin 10000) (q : Fin 64), j = ix2 p q := ⟨j 0, j 1, eq_ix2 j⟩
  have hp : p.val < 10000 := p.isLt
  refine (val4_pay (iblk4 V c 0 t) (iblk4 V c 1 t) (iblk4 V c 2 t) p q).trans ?_
  have hE : ((cfg4.win 3).blk t).view.emb (ix2 p q) = (ix2 (⟨t.val * 10000 + p.val, by omega⟩ : Fin 100000) q : S100000x64.Idx) :=
    funext fun ax => Fin.ext (by
      match ax with
      | ⟨0, _⟩ => show win4_3.index t (0 : Fin 2) * 10000 + 1 * p.val = t.val * 10000 + p.val; omega
      | ⟨1, _⟩ => show win4_3.index t (1 : Fin 2) * 64 + 1 * q.val = q.val; omega)
  show _ = val4_3 V c (((cfg4.win 3).blk t).view.emb (ix2 p q))
  rw [hE]
  exact congrArg₂ (· + ·)
    (Finset.sum_congr rfl fun k _ => congrArg₂ (· * ·) (val4_0_blk V c t p k _ rfl) (val4_1_blk V c t k q))
    (val4_2_blk V c t q)

/-! ## The ten tiles cover the output -/

/-- An index of the output is in point `t`'s block iff each coordinate is in the block's range on its axis. -/
theorem idx4_mem_3 (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole (Pipeline.arrRef spec4 3)).slice (win4_3.rect t)).set ↔ _
  rw [View.set_slice_whole, Rect.mem_set_unit]
  exact Iff.rfl

/-- Row `r` of the output is in the block of point `r / 10000`, which writes back. -/
theorem idx4_cover_3 (i : S100000x64.Idx) :
    ∃ t : Fin cfg4.N, (cfg4.win 3).flush t = true ∧ i ∈ ((cfg4.win 3).blk t).view.set := by
  have hia : (i 0).val < 100000 := (i 0).isLt
  have hib : (i 1).val < 64 := (i 1).isLt
  have ht : (i 0).val / 10000 < cfg4.N := by rw [show cfg4.N = 10 from N_4]; omega
  obtain ⟨-, -, -, -, -, -, eg, eh⟩ := idx4_facts ⟨(i 0).val / 10000, ht⟩
  have hv : (⟨(i 0).val / 10000, ht⟩ : Fin cfg4.N).val = (i 0).val / 10000 := rfl
  refine ⟨⟨(i 0).val / 10000, ht⟩, flush4_3 _, ?_⟩
  rw [idx4_mem_3]
  intro a
  match a with
  | ⟨0, _⟩ =>
    show win4_3.index ⟨(i 0).val / 10000, ht⟩ (0 : Fin 2) * 10000 ≤ (i 0).val ∧ (i 0).val < win4_3.index ⟨(i 0).val / 10000, ht⟩ (0 : Fin 2) * 10000 + 10000
    omega
  | ⟨1, _⟩ =>
    show win4_3.index ⟨(i 0).val / 10000, ht⟩ (1 : Fin 2) * 64 ≤ (i 1).val ∧ (i 1).val < win4_3.index ⟨(i 0).val / 10000, ht⟩ (1 : Fin 2) * 64 + 64
    omega

/-! ## The output array after the region -/

/-- After the ten points the output array is the closed form everywhere: entry `(r, j)` is the sum over `k` of
    `x (r, k) * w (k, j)`, plus `b (0, j)`, of the arrays as the region found them. -/
theorem arr4_3 (c : Dev nD) : (dat4 (F := Ideal) V c).arrAt 3 cfg4.N = fun i : S100000x64.Idx =>
    (∑ k : Fin 64, val4_0 V c (ix2 (i 0) k) * val4_1 V c (ix2 k (i 1))) + val4_2 V c (ix2 (0 : Fin 1) (i 1)) :=
  (dat4 (F := Ideal) V c).arrAt_eq_of_cover 3 (val4_3 V c) (fun t _ => flushed4_3 V c t) (idx4_cover_3)

end Cert.KernelIdeal.Reg

end
-- ==== Proof.KI.Val6.lean ====
import proofs.«147038_j12317966205319_1_alg».proof.Proof.KI.Fr6
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered, over the extended reals
variable (V : (c : Dev nD) → (b : Ref sig .tc) → Buf (Elt Ideal) ((c : Thread nD τ).loc b))

/-! # The normalize-and-clamp region over the extended reals: the output array, index by index -/

/-! ## The entry arrays, at their literal types: the rows (window 0) and the four single rows (windows 1 … 4) -/

abbrev val6_0 (c : Dev nD) : S100000x64.Idx → EReal := V c (Pipeline.arrRef spec6 0)
abbrev val6_1 (c : Dev nD) : S1x64.Idx → EReal := V c (Pipeline.arrRef spec6 1)
abbrev val6_2 (c : Dev nD) : S1x64.Idx → EReal := V c (Pipeline.arrRef spec6 2)
abbrev val6_3 (c : Dev nD) : S1x64.Idx → EReal := V c (Pipeline.arrRef spec6 3)
abbrev val6_4 (c : Dev nD) : S1x64.Idx → EReal := V c (Pipeline.arrRef spec6 4)

/-- The zero offsets of every access, however spelt. -/
theorem idx6_zero : (![0, 0] : Fin 2 → Nat) = fun _ => 0 := funext fun a => by fin_cases a <;> rfl

/-! ## The payload at an index: each single row is read at its column, whatever the row of the block -/

/-- At row `p`, column `q` of a block: the row of window 3 times (the entry less the row of window 1), times the row of
    window 2, plus the row of window 4, and the larger of that and zero. -/
theorem pay6_apply (xa : Vec Ideal S10000x64 .f32) (xd xb xc xe : Vec Ideal S1x64 .f32) (p : Fin 10000) (q : Fin 64) :
    k6_pay1 xa xd xb xc xe (ix2 p q)
      = max (xd (ix2 0 q) * (xa (ix2 p q) - xb (ix2 0 q)) * xc (ix2 0 q) + xe (ix2 0 q)) 0 := by
  unfold k6_pay1
  simp only [maximumf_apply, addf_apply, mulf_apply, subf_apply, broadcast_apply, shapeCast_self,
    broadcastTo_1b_ab_apply]
  exact congrArg (max _) Ideal.ofBits_zero_f32

/-! ## The windows' block indices, decided over the grid -/

/-- The rows window and the output window move together, one block of rows per point; the four single rows stay put. -/
theorem idx6_facts : ∀ t : Fin cfg6.N,
    win6_0.index t (0 : Fin 2) = win6_5.index t (0 : Fin 2) ∧ win6_0.index t (1 : Fin 2) = win6_5.index t (1 : Fin 2)
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) ≤ 9 ∧ win6_5.index t (1 : Fin 2) = 0 :=
  (by decide +kernel : ∀ t : Fin grid6.N, _)

/-- Every block of rows of the output is some point's. -/
theorem idx6_onto : ∀ b : Fin 10, ∃ t : Fin cfg6.N, win6_5.index t = ![b.val, 0] :=
  (by decide +kernel : ∀ b : Fin 10, ∃ t : Fin grid6.N, win6_5.index t = ![b.val, 0])

/-! ## The closed form, and what a point writes back -/

/-- The output array's closed form: at row `i 0`, column `i 1`, the entry of window 0 normalized by the single rows at
    that column, and the larger of that and zero. -/
abbrev val6_5 (c : Dev nD) : S100000x64.Idx → EReal := fun i =>
  max (val6_3 V c (ix2 0 (i 1)) * (val6_0 V c (ix2 (i 0) (i 1)) - val6_1 V c (ix2 0 (i 1))) * val6_2 V c (ix2 0 (i 1)) + val6_4 V c (ix2 0 (i 1))) 0

/-! ## A window's block at a point reads its entry array at the block's coordinates -/

theorem val6_blk_0 (c : Dev nD) (t : Fin cfg6.N) (y : S10000x64.Idx) :
    iblk6 V c 0 t y = val6_0 V c (((cfg6.win 0).blk t).view.emb y) := rfl
theorem val6_blk_1 (c : Dev nD) (t : Fin cfg6.N) (y : S1x64.Idx) :
    iblk6 V c 1 t y = val6_1 V c (((cfg6.win 1).blk t).view.emb y) := rfl
theorem val6_blk_2 (c : Dev nD) (t : Fin cfg6.N) (y : S1x64.Idx) :
    iblk6 V c 2 t y = val6_2 V c (((cfg6.win 2).blk t).view.emb y) := rfl
theorem val6_blk_3 (c : Dev nD) (t : Fin cfg6.N) (y : S1x64.Idx) :
    iblk6 V c 3 t y = val6_3 V c (((cfg6.win 3).blk t).view.emb y) := rfl
theorem val6_blk_4 (c : Dev nD) (t : Fin cfg6.N) (y : S1x64.Idx) :
    iblk6 V c 4 t y = val6_4 V c (((cfg6.win 4).blk t).view.emb y) := rfl
/-- and the closed form's block reads the closed form there. -/
theorem val6_blk_5 (c : Dev nD) (t : Fin cfg6.N) (j : S10000x64.Idx) :
    ((cfg6.win 5).blk t).view.read (Elt Ideal) (val6_5 V c) j = val6_5 V c (((cfg6.win 5).blk t).view.emb j) := rfl

/-- What point `t` writes back is block `t` of the closed form. -/
theorem flushed6_5 (c : Dev nD) (t : Fin cfg6.N) :
    (dat6 (F := Ideal) V c).flushed 5 t = ((cfg6.win 5).blk t).view.read (Elt Ideal) (val6_5 V c) := by
  show (cfg6.win 5).cut (grid6.coords t) ((dat6 (F := Ideal) V c).after 5 t) = _
  rw [after6_5]
  unfold out6_5
  rw [View.canon_unit_zero idx6_zero]
  simp only [View.ld_unit_zero (S := S10000x64) idx6_zero, View.ld_unit_zero (S := S1x64) idx6_zero]
  obtain ⟨ea0, ea1, eb0, eb1, ec0, ec1, ed0, ed1, ee0, ee1, ef0, ef1⟩ := idx6_facts t
  funext (j : S10000x64.Idx)
  have hj0 : (j 0).val < 10000 := (j 0).isLt
  have hj1 : (j 1).val < 64 := (j 1).isLt
  refine ((congrArg (k6_pay1 (iblk6 V c 0 t) (iblk6 V c 3 t) (iblk6 V c 1 t) (iblk6 V c 2 t) (iblk6 V c 4 t)) (eq_ix2 j)).trans
    (pay6_apply (iblk6 V c 0 t) (iblk6 V c 3 t) (iblk6 V c 1 t) (iblk6 V c 2 t) (iblk6 V c 4 t) (j 0) (j 1))).trans ?_
  have ha : ((cfg6.win 0).blk t).view.emb (ix2 (j 0) (j 1)) = ix2 ((((cfg6.win 5).blk t).view.emb j : S100000x64.Idx) 0) ((((cfg6.win 5).blk t).view.emb j : S100000x64.Idx) 1) := by
    funext a; apply Fin.ext
    match a with
    | ⟨0, _⟩ => show win6_0.index t (0 : Fin 2) * 10000 + 1 * (j 0).val = win6_5.index t (0 : Fin 2) * 10000 + 1 * (j 0).val; omega
    | ⟨1, _⟩ => show win6_0.index t (1 : Fin 2) * 64 + 1 * (j 1).val = win6_5.index t (1 : Fin 2) * 64 + 1 * (j 1).val; omega
  have hb : ((cfg6.win 1).blk t).view.emb (ix2 0 (j 1)) = ix2 0 ((((cfg6.win 5).blk t).view.emb j : S100000x64.Idx) 1) := by
    funext a; apply Fin.ext
    match a with
    | ⟨0, _⟩ => show win6_1.index t (0 : Fin 2) * 1 + 1 * 0 = 0; omega
    | ⟨1, _⟩ => show win6_1.index t (1 : Fin 2) * 64 + 1 * (j 1).val = win6_5.index t (1 : Fin 2) * 64 + 1 * (j 1).val; omega
  have hc : ((cfg6.win 2).blk t).view.emb (ix2 0 (j 1)) = ix2 0 ((((cfg6.win 5).blk t).view.emb j : S100000x64.Idx) 1) := by
    funext a; apply Fin.ext
    match a with
    | ⟨0, _⟩ => show win6_2.index t (0 : Fin 2) * 1 + 1 * 0 = 0; omega
    | ⟨1, _⟩ => show win6_2.index t (1 : Fin 2) * 64 + 1 * (j 1).val = win6_5.index t (1 : Fin 2) * 64 + 1 * (j 1).val; omega
  have hd : ((cfg6.win 3).blk t).view.emb (ix2 0 (j 1)) = ix2 0 ((((cfg6.win 5).blk t).view.emb j : S100000x64.Idx) 1) := by
    funext a; apply Fin.ext
    match a with
    | ⟨0, _⟩ => show win6_3.index t (0 : Fin 2) * 1 + 1 * 0 = 0; omega
    | ⟨1, _⟩ => show win6_3.index t (1 : Fin 2) * 64 + 1 * (j 1).val = win6_5.index t (1 : Fin 2) * 64 + 1 * (j 1).val; omega
  have he : ((cfg6.win 4).blk t).view.emb (ix2 0 (j 1)) = ix2 0 ((((cfg6.win 5).blk t).view.emb j : S100000x64.Idx) 1) := by
    funext a; apply Fin.ext
    match a with
    | ⟨0, _⟩ => show win6_4.index t (0 : Fin 2) * 1 + 1 * 0 = 0; omega
    | ⟨1, _⟩ => show win6_4.index t (1 : Fin 2) * 64 + 1 * (j 1).val = win6_5.index t (1 : Fin 2) * 64 + 1 * (j 1).val; omega
  exact (congrArg (fun z : EReal => max z 0)
    (congrArg₂ (fun x y : EReal => x + y)
      (congrArg₂ (fun x y : EReal => x * y)
        (congrArg₂ (fun x y : EReal => x * y) ((val6_blk_3 V c t (ix2 0 (j 1))).trans (congrArg (val6_3 V c) hd))
          (congrArg₂ (fun x y : EReal => x - y) ((val6_blk_0 V c t (ix2 (j 0) (j 1))).trans (congrArg (val6_0 V c) ha)) ((val6_blk_1 V c t (ix2 0 (j 1))).trans (congrArg (val6_1 V c) hb))))
        ((val6_blk_2 V c t (ix2 0 (j 1))).trans (congrArg (val6_2 V c) hc)))
      ((val6_blk_4 V c t (ix2 0 (j 1))).trans (congrArg (val6_4 V c) he)))).trans (val6_blk_5 V c t j).symm

/-! ## From the blocks to the array -/

/-- An index of the array is in point `t`'s block iff each coordinate is in the block's range on its axis. -/
theorem idx6_mem (t : Fin cfg6.N) (i : S100000x64.Idx) :
    i ∈ ((cfg6.win 5).blk t).view.set ↔ ∀ a : Fin 2, win6_5.index t a * S10000x64.size a ≤ (i a).val ∧ (i a).val < win6_5.index t a * S10000x64.size a + S10000x64.size a := by
  show i ∈ ((View.whole (Pipeline.arrRef spec6 5)).slice (win6_5.rect t)).set ↔ _
  rw [View.set_slice_whole, Rect.mem_set_unit]
  exact Iff.rfl

/-- Every index of the array is in the block of the point its row divided by 10000 names; every point writes back. -/
theorem idx6_cover (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  obtain ⟨t, ht⟩ := idx6_onto ⟨(i 0).val / 10000, by omega⟩
  have q0 : win6_5.index t (0 : Fin 2) = (i 0).val / 10000 := congrFun ht 0
  have q1 : win6_5.index t (1 : Fin 2) = 0 := congrFun ht 1
  refine ⟨t, flush6_5 t, ?_⟩
  rw [idx6_mem]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 64 ≤ (i 1).val ∧ (i 1).val < win6_5.index t (1 : Fin 2) * 64 + 64; omega

/-- The output array after the region: at row `i 0`, column `i 1`, the row of window 3 times (the entry of window 0 less
    the row of window 1), times the row of window 2, plus the row of window 4, and the larger of that and zero. -/
theorem arr6_5 (c : Dev nD) : (dat6 (F := Ideal) V c).arrAt 5 cfg6.N = fun (i : S100000x64.Idx) =>
    max (val6_3 V c (ix2 0 (i 1)) * (val6_0 V c (ix2 (i 0) (i 1)) - val6_1 V c (ix2 0 (i 1))) * val6_2 V c (ix2 0 (i 1)) + val6_4 V c (ix2 0 (i 1))) 0 :=
  (dat6 (F := Ideal) V c).arrAt_eq_of_cover 5 (val6_5 V c) (fun t _ => flushed6_5 V c t) idx6_cover

/-- The same at row `r`, column `j`. -/
theorem arr6_5_apply (c : Dev nD) (r : Fin 100000) (j : Fin 64) :
    (dat6 (F := Ideal) V c).arrAt 5 cfg6.N (ix2 r j) = max (val6_3 V c (ix2 0 j) * (val6_0 V c (ix2 r j) - val6_1 V c (ix2 0 j)) * val6_2 V c (ix2 0 j) + val6_4 V c (ix2 0 j)) 0 :=
  congrFun (arr6_5 V c) (ix2 r j)

end Cert.KernelIdeal.Reg

end
-- ==== Proof.Bridge.L1Core.lean ====
import proofs.«147038_j12317966205319_1_alg».proof.Proof.KI.Val4
import proofs.«147038_j12317966205319_1_alg».proof.Proof.KI.Val6
import proofs.«147038_j12317966205319_1_alg».proof.Proof.Ref.StageFns
import proofs.«147038_j12317966205319_1_alg».proof.Proof.Alg.Real
import proofs.«147038_j12317966205319_1_alg».proof.Proof.Alg.Var
import proofs.«147038_j12317966205319_1_alg».proof.Proof.Bridge.StageFacts

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat WSq Row xwF meanF varF colSumF normF reluF)
open scoped BigOperators

/-! # One layer's two pointwise-in-rows regions against the layer's stage functions

The product region leaves, at `(r, j)`, the sum over `k` of `h (r, k) * w (k, j)` plus a bias row that is zero: the
product `h · W`. The normalising region leaves `max (γ · (hpre − μ) · s + β) 0` with `μ` the column sum over the row
count and `s` the reciprocal square root of the moment form of the variance plus the offset; on real data the moment
form is the centred form, so this is the maximum with zero of the normalised array. -/

variable (V : (c : Dev nD) → (b : Ref sig .tc) → Buf (Elt Ideal) ((c : Thread nD τ).loc b))

/-- The product region's output from what its operand arrays hold: the bias row is zero, so the product alone. -/
theorem xw_core_L1 (c : Dev nD) (h : Feat) (w : WSq)
    (hx : (val4_0 V c : S100000x64.Idx → EReal) = h)
    (hw : ∀ (k j : Fin 64), val4_1 V c (ix2 k j) = w (ix2 k j))
    (hb : ∀ (u : Fin 1) (j : Fin 64), val4_2 V c (ix2 u j) = 0) :
    (dat4 (F := Ideal) V c).arrAt 3 cfg4.N = xwF h w := by
  rw [arr4_3]
  funext i
  show (∑ k : Fin 64, val4_0 V c (ix2 (i 0) k) * val4_1 V c (ix2 k (i 1))) + val4_2 V c (ix2 (0 : Fin 1) (i 1))
    = ∑ k : Fin 64, h (ix2 (i 0) k) * w (ix2 k (i 1))
  exact (congrArg₂ (· + ·)
    (Finset.sum_congr rfl fun k _ => congrArg₂ (· * ·) (congrFun hx _) (hw k (i 1)))
    (hb 0 (i 1))).trans (add_zero _)

/-- The normalising region's output from what its operand arrays hold: `S1` and `S2` are the column sums and the
    column sums of squares of `hp`; the mean row is `S1 / N`, the scale row the reciprocal square root of
    `S2 / N − (S1 / N)² + offset`. With `hp` real-valued that is the normalised array, cut off below at zero. -/
theorem bn_core_L1 (c : Dev nD) (hp : Feat) (g bt : Row) (S1 S2 : S1x64.Idx → EReal)
    (hh : (val6_0 V c : S100000x64.Idx → EReal) = hp)
    (hmu : ∀ (u : Fin 1) (j : Fin 64), val6_1 V c (ix2 u j) = Ideal.div (S1 (ix2 u j)) (Ideal.ofBits .f32 0x47C35000#32))
    (hsd : ∀ (u : Fin 1) (j : Fin 64), val6_2 V c (ix2 u j)
      = Ideal.rsqrt ((Ideal.div (S2 (ix2 u j)) (Ideal.ofBits .f32 0x47C35000#32) - Ideal.div (S1 (ix2 u j)) (Ideal.ofBits .f32 0x47C35000#32) * Ideal.div (S1 (ix2 u j)) (Ideal.ofBits .f32 0x47C35000#32)) + (Ideal.ofBits .f32 0x3727C5AC#32)))
    (hg : ∀ (u : Fin 1) (j : Fin 64), val6_3 V c (ix2 u j) = g (ix1 j))
    (hbt : ∀ (u : Fin 1) (j : Fin 64), val6_4 V c (ix2 u j) = bt (ix1 j))
    (hS1 : ∀ j : Fin 64, S1 (ix2 (0 : Fin 1) j) = ∑ r : Fin 100000, hp (ix2 r j))
    (hS2 : ∀ j : Fin 64, S2 (ix2 (0 : Fin 1) j) = ∑ r : Fin 100000, hp (ix2 r j) * hp (ix2 r j))
    (hreal : ∀ i, ∃ x : ℝ, hp i = x) :
    (dat6 (F := Ideal) V c).arrAt 5 cfg6.N = reluF (normF hp g bt) := by
  funext i
  obtain ⟨r, j, rfl⟩ : ∃ (r : Fin 100000) (j : Fin 64), i = ix2 r j := ⟨i 0, i 1, eq_ix2 i⟩
  refine (arr6_5_apply V c r j).trans ?_
  show _ = max (g (ix1 j) * (hp (ix2 r j) - meanF hp (ix1 j)) * Ideal.rsqrt (varF hp (ix1 j) + (Ideal.ofBits .f32 0x3727C5AC#32)) + bt (ix1 j)) 0
  rw [varF_moment hp hreal j, meanF_at hp j, hg 0 j, hbt 0 j, hmu 0 j, hsd 0 j, hS1 j, hS2 j, congrFun hh (ix2 r j)]

end Cert.Bridge

end
-- ==== Proof.KI.Val5.lean ====
import proofs.«147038_j12317966205319_1_alg».proof.Proof.KI.Fr5
import proofs.«147038_j12317966205319_1_alg».proof.Proof.LibStats
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## Each case's pieces, read back: the payloads at the input blocks (any F) -/

section Pieces

variable {F : FTy → Type} [FloatOps F] [Named F]

variable (c : Dev nD) (i : grid5.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

/-- Every access of the body is at offset zero of a whole block. -/
theorem idx5_zero : (![0, 0] : Fin 2 → Nat) = fun _ => 0 := funext fun a => by fin_cases a <;> rfl

/-- First point, window 4: the one covering store's payload, its loads reading the whole input blocks. -/
theorem out5_A_4 (hc : k5_cond i) (x0 : Vec F S10000x64 .f32) (x1 : Vec F S10000x64 .f32) (x2 : Vec F S10000x1 .f32) (x3 : Vec F S1x64 .f32) :
    (out5_A c i arg1 harg1 arg2 harg2 arg3 harg3 arg4 harg4 arg5 harg5 arg6 harg6 arg7 harg7 hc x0 x1 x2 x3).1 = k5_pay3 x0 x1 x2 x3 := by
  unfold out5_A
  dsimp only
  rw [View.read_writes_eq_canon _ _ _ (cover5_4_A c i arg1 harg1 arg2 harg2 arg3 harg3 arg4 harg4 arg5 harg5 arg6 harg6 arg7 harg7 hc x0 x1 x2 x3)]
  unfold sound_kernel5_A
  dsimp only
  sl_unfold_words
  rw [View.canon_unit_zero (S := S10000x64) idx5_zero]
  simp only [View.readAt_eq_ld, harg1.read_unread, harg2.read_unread, harg3.read_unread, harg4.read_unread,
    View.ld_unit_zero (S := S10000x64) idx5_zero, View.ld_unit_zero (S := S10000x1) idx5_zero, View.ld_unit_zero (S := S1x64) idx5_zero]

/-- First point, window 5: the zero row is stored, read back, and the tile's column sums added to it. -/
theorem out5_A_5 (hc : k5_cond i) (x0 : Vec F S10000x64 .f32) (x1 : Vec F S10000x64 .f32) (x2 : Vec F S10000x1 .f32) (x3 : Vec F S1x64 .f32) :
    (out5_A c i arg1 harg1 arg2 harg2 arg3 harg3 arg4 harg4 arg5 harg5 arg6 harg6 arg7 harg7 hc x0 x1 x2 x3).2.1 = k5_pay4 x0 x1 x2 x3 (k5_pay1 (F := F)) := by
  unfold out5_A
  dsimp only
  rw [View.read_writes_eq_canon _ _ _ (cover5_5_A c i arg1 harg1 arg2 harg2 arg3 harg3 arg4 harg4 arg5 harg5 arg6 harg6 arg7 harg7 hc x0 x1 x2 x3)]
  unfold sound_kernel5_A
  dsimp only
  sl_unfold_words
  rw [View.canon_cons_unit_zero (S := S1x64) idx5_zero, View.readCov_unit_zero (S := S1x64) _ idx5_zero]
  simp only [View.readAt_eq_ld, harg1.read_unread, harg2.read_unread, harg3.read_unread, harg4.read_unread,
    View.ld_unit_zero (S := S10000x64) idx5_zero, View.ld_unit_zero (S := S10000x1) idx5_zero, View.ld_unit_zero (S := S1x64) idx5_zero]

/-- First point, window 6: the same with the column sums of squares. -/
theorem out5_A_6 (hc : k5_cond i) (x0 : Vec F S10000x64 .f32) (x1 : Vec F S10000x64 .f32) (x2 : Vec F S10000x1 .f32) (x3 : Vec F S1x64 .f32) :
    (out5_A c i arg1 harg1 arg2 harg2 arg3 harg3 arg4 harg4 arg5 harg5 arg6 harg6 arg7 harg7 hc x0 x1 x2 x3).2.2 = k5_pay5 x0 x1 x2 x3 (k5_pay2 (F := F)) := by
  unfold out5_A
  dsimp only
  rw [View.read_writes_eq_canon _ _ _ (cover5_6_A c i arg1 harg1 arg2 harg2 arg3 harg3 arg4 harg4 arg5 harg5 arg6 harg6 arg7 harg7 hc x0 x1 x2 x3)]
  unfold sound_kernel5_A
  dsimp only
  sl_unfold_words
  rw [View.canon_cons_unit_zero (S := S1x64) idx5_zero, View.readCov_unit_zero (S := S1x64) _ idx5_zero]
  simp only [View.readAt_eq_ld, harg1.read_unread, harg2.read_unread, harg3.read_unread, harg4.read_unread,
    View.ld_unit_zero (S := S10000x64) idx5_zero, View.ld_unit_zero (S := S10000x1) idx5_zero, View.ld_unit_zero (S := S1x64) idx5_zero]

/-- Later points, window 4. -/
theorem out5_B_4 (hc : ¬k5_cond i) (x0 : Vec F S10000x64 .f32) (x1 : Vec F S10000x64 .f32) (x2 : Vec F S10000x1 .f32) (x3 : Vec F S1x64 .f32) (xo5 : Vec F S1x64 .f32) (xo6 : Vec F S1x64 .f32) :
    (out5_B c i arg1 harg1 arg2 harg2 arg3 harg3 arg4 harg4 arg5 harg5 arg6 harg6 arg7 harg7 hc x0 x1 x2 x3 xo5 xo6).1 = k5_pay3 x0 x1 x2 x3 := by
  unfold out5_B
  dsimp only
  rw [View.read_writes_eq_canon _ _ _ (cover5_4_B c i arg1 harg1 arg2 harg2 arg3 harg3 arg4 harg4 arg5 harg5 arg6 harg6 arg7 harg7 hc x0 x1 x2 x3 xo5 xo6)]
  unfold sound_kernel5_B
  dsimp only
  sl_unfold_words
  rw [View.canon_unit_zero (S := S10000x64) idx5_zero]
  simp only [View.readAt_eq_ld, harg1.read_unread, harg2.read_unread, harg3.read_unread, harg4.read_unread, harg6.read_unread, harg7.read_unread,
    View.ld_unit_zero (S := S10000x64) idx5_zero, View.ld_unit_zero (S := S10000x1) idx5_zero, View.ld_unit_zero (S := S1x64) idx5_zero]

/-- Later points, window 5: the running row plus the tile's column sums. -/
theorem out5_B_5 (hc : ¬k5_cond i) (x0 : Vec F S10000x64 .f32) (x1 : Vec F S10000x64 .f32) (x2 : Vec F S10000x1 .f32) (x3 : Vec F S1x64 .f32) (xo5 : Vec F S1x64 .f32) (xo6 : Vec F S1x64 .f32) :
    (out5_B c i arg1 harg1 arg2 harg2 arg3 harg3 arg4 harg4 arg5 harg5 arg6 harg6 arg7 harg7 hc x0 x1 x2 x3 xo5 xo6).2.1 = k5_pay4 x0 x1 x2 x3 xo5 := by
  unfold out5_B
  dsimp only
  rw [View.read_writes_eq_canon _ _ _ (cover5_5_B c i arg1 harg1 arg2 harg2 arg3 harg3 arg4 harg4 arg5 harg5 arg6 harg6 arg7 harg7 hc x0 x1 x2 x3 xo5 xo6)]
  unfold sound_kernel5_B
  dsimp only
  sl_unfold_words
  rw [View.canon_unit_zero (S := S1x64) idx5_zero]
  simp only [View.readAt_eq_ld, harg1.read_unread, harg2.read_unread, harg3.read_unread, harg4.read_unread, harg6.read_unread, harg7.read_unread,
    View.ld_unit_zero (S := S10000x64) idx5_zero, View.ld_unit_zero (S := S10000x1) idx5_zero, View.ld_unit_zero (S := S1x64) idx5_zero]

/-- Later points, window 6. -/
theorem out5_B_6 (hc : ¬k5_cond i) (x0 : Vec F S10000x64 .f32) (x1 : Vec F S10000x64 .f32) (x2 : Vec F S10000x1 .f32) (x3 : Vec F S1x64 .f32) (xo5 : Vec F S1x64 .f32) (xo6 : Vec F S1x64 .f32) :
    (out5_B c i arg1 harg1 arg2 harg2 arg3 harg3 arg4 harg4 arg5 harg5 arg6 harg6 arg7 harg7 hc x0 x1 x2 x3 xo5 xo6).2.2 = k5_pay5 x0 x1 x2 x3 xo6 := by
  unfold out5_B
  dsimp only
  rw [View.read_writes_eq_canon _ _ _ (cover5_6_B c i arg1 harg1 arg2 harg2 arg3 harg3 arg4 harg4 arg5 harg5 arg6 harg6 arg7 harg7 hc x0 x1 x2 x3 xo5 xo6)]
  unfold sound_kernel5_B
  dsimp only
  sl_unfold_words
  rw [View.canon_unit_zero (S := S1x64) idx5_zero]
  simp only [View.readAt_eq_ld, harg1.read_unread, harg2.read_unread, harg3.read_unread, harg4.read_unread, harg6.read_unread, harg7.read_unread,
    View.ld_unit_zero (S := S10000x64) idx5_zero, View.ld_unit_zero (S := S10000x1) idx5_zero, View.ld_unit_zero (S := S1x64) idx5_zero]

end Pieces

/-! ## The payloads at the extended reals, entry by entry -/

section Payloads

/-- An entry of the tile's hpre block: agg + xw * selfn (selfn's one column spread along the row) + convb (its one row
    spread down the rows). -/
theorem k5_pay3_apply (x0 : Vec Ideal S10000x64 .f32) (x1 : Vec Ideal S10000x64 .f32) (x2 : Vec Ideal S10000x1 .f32) (x3 : Vec Ideal S1x64 .f32)
    (a : Fin 10000) (j : Fin 64) :
    k5_pay3 x0 x1 x2 x3 (ix2 a j) = x0 (ix2 a j) + x1 (ix2 a j) * x2 (ix2 a 0) + x3 (ix2 0 j) := by
  simp only [k5_pay3, addf_apply, mulf_apply, shapeCast_self]
  rw [broadcastTo_apply x2 broadcasts_S10000x1_S10000x64 (ix2 a j) (ix2 a 0) (by intro b; fin_cases b <;> rfl),
    broadcastTo_apply x3 broadcasts_S1x64_S10000x64 (ix2 a j) (ix2 0 j) (by intro b; fin_cases b <;> rfl)]

/-- The zero row the first point stores. -/
theorem k5_pay1_apply (i : S1x64.Idx) : k5_pay1 (F := Ideal) i = 0 := Cert.LibStats.ofBits_zero
theorem k5_pay2_apply (i : S1x64.Idx) : k5_pay2 (F := Ideal) i = 0 := Cert.LibStats.ofBits_zero

/-- The running row of sums after a point: what it held plus the tile's column sum. -/
theorem k5_pay4_apply (x0 : Vec Ideal S10000x64 .f32) (x1 : Vec Ideal S10000x64 .f32) (x2 : Vec Ideal S10000x1 .f32) (x3 : Vec Ideal S1x64 .f32)
    (xo : Vec Ideal S1x64 .f32) (j : Fin 64) :
    k5_pay4 x0 x1 x2 x3 xo (ix2 0 j) = xo (ix2 0 j) + ∑ a : Fin 10000, k5_pay3 x0 x1 x2 x3 (ix2 a j) := by
  simp only [k5_pay4, addf_apply, shapeCast_self]
  refine congrArg (xo (ix2 0 j) + ·) ?_
  refine (shapeCast_addUnit_apply ![64] _ shapeCasts_S64_S1x64 (ix2 0 j)).trans ?_
  refine (Ideal.multiReduction_add_single (k5_pay3 x0 x1 x2 x3) _ reduces_S10000x64_S64 _ _ _).trans ?_
  exact Finset.sum_congr rfl fun a _ => congrArg (k5_pay3 x0 x1 x2 x3) (Shape.idx_ext₂ rfl rfl)

/-- The running row of sums of squares. -/
theorem k5_pay5_apply (x0 : Vec Ideal S10000x64 .f32) (x1 : Vec Ideal S10000x64 .f32) (x2 : Vec Ideal S10000x1 .f32) (x3 : Vec Ideal S1x64 .f32)
    (xo : Vec Ideal S1x64 .f32) (j : Fin 64) :
    k5_pay5 x0 x1 x2 x3 xo (ix2 0 j)
      = xo (ix2 0 j) + ∑ a : Fin 10000, k5_pay3 x0 x1 x2 x3 (ix2 a j) * k5_pay3 x0 x1 x2 x3 (ix2 a j) := by
  simp only [k5_pay5, addf_apply, shapeCast_self]
  refine congrArg (xo (ix2 0 j) + ·) ?_
  refine (shapeCast_addUnit_apply ![64] _ shapeCasts_S64_S1x64 (ix2 0 j)).trans ?_
  refine (Ideal.multiReduction_add_single (mulf (k5_pay3 x0 x1 x2 x3) (k5_pay3 x0 x1 x2 x3)) _ reduces_S10000x64_S64 _ _ _).trans ?_
  exact Finset.sum_congr rfl fun a _ => congrArg (mulf (k5_pay3 x0 x1 x2 x3) (k5_pay3 x0 x1 x2 x3)) (Shape.idx_ext₂ rfl rfl)

end Payloads

/-! ## The three output arrays after the run -/

section Value

variable (V : (c : Dev nD) → (b : Ref sig .tc) → Buf (Elt Ideal) ((c : Thread nD τ).loc b))

/-- The four input arrays as the region finds them: agg, xw, the one-column selfn, the one-row convb. -/
abbrev val5_0 (c : Dev nD) : S100000x64.Idx → EReal := V c (Pipeline.arrRef spec5 0)
abbrev val5_1 (c : Dev nD) : S100000x64.Idx → EReal := V c (Pipeline.arrRef spec5 1)
abbrev val5_2 (c : Dev nD) : S100000x1.Idx → EReal := V c (Pipeline.arrRef spec5 2)
abbrev val5_3 (c : Dev nD) : S1x64.Idx → EReal := V c (Pipeline.arrRef spec5 3)

/-- hpre at row r, column j: agg + xw * selfn + convb. -/
abbrev val5_hpre (c : Dev nD) (r : Fin 100000) (j : Fin 64) : EReal :=
  val5_0 V c (ix2 r j) + val5_1 V c (ix2 r j) * val5_2 V c (ix2 r 0) + val5_3 V c (ix2 0 j)

/-- The three results as whole-array functions: hpre, its column sums, the column sums of its square. -/
abbrev val5_4 (c : Dev nD) : S100000x64.Idx → EReal := fun i => val5_hpre V c (i 0) (i 1)
abbrev val5_5 (c : Dev nD) : S1x64.Idx → EReal := fun i => ∑ r : Fin 100000, val5_hpre V c r (i 1)
abbrev val5_6 (c : Dev nD) : S1x64.Idx → EReal := fun i => ∑ r : Fin 100000, val5_hpre V c r (i 1) * val5_hpre V c r (i 1)

/-- The input blocks at point t. -/
abbrev iblk5_0 (c : Dev nD) (t : Fin cfg5.N) : Vec Ideal S10000x64 .f32 := iblk5 V c 0 t
abbrev iblk5_1 (c : Dev nD) (t : Fin cfg5.N) : Vec Ideal S10000x64 .f32 := iblk5 V c 1 t
abbrev iblk5_2 (c : Dev nD) (t : Fin cfg5.N) : Vec Ideal S10000x1 .f32 := iblk5 V c 2 t
abbrev iblk5_3 (c : Dev nD) (t : Fin cfg5.N) : Vec Ideal S1x64 .f32 := iblk5 V c 3 t

/-- Each window's block index at each point: the row-tiled windows are at tile t, the one-row windows at block 0. -/
theorem idx5_facts : ∀ t : Fin cfg5.N,
    (win5_0.index t 0 = t.val ∧ win5_0.index t 1 = 0) ∧ (win5_1.index t 0 = t.val ∧ win5_1.index t 1 = 0)
    ∧ (win5_2.index t 0 = t.val ∧ win5_2.index t 1 = 0) ∧ (win5_3.index t 0 = 0 ∧ win5_3.index t 1 = 0)
    ∧ (win5_4.index t 0 = t.val ∧ win5_4.index t 1 = 0) ∧ (win5_5.index t 0 = 0 ∧ win5_5.index t 1 = 0)
    ∧ (win5_6.index t 0 = 0 ∧ win5_6.index t 1 = 0) :=
  (by decide +kernel : ∀ t : Fin grid5.N,
    (win5_0.index t 0 = t.val ∧ win5_0.index t 1 = 0) ∧ (win5_1.index t 0 = t.val ∧ win5_1.index t 1 = 0)
    ∧ (win5_2.index t 0 = t.val ∧ win5_2.index t 1 = 0) ∧ (win5_3.index t 0 = 0 ∧ win5_3.index t 1 = 0)
    ∧ (win5_4.index t 0 = t.val ∧ win5_4.index t 1 = 0) ∧ (win5_5.index t 0 = 0 ∧ win5_5.index t 1 = 0)
    ∧ (win5_6.index t 0 = 0 ∧ win5_6.index t 1 = 0))

/-- Row a of tile t is row 10000 t + a of the array. -/
def idx5_row (t : Fin cfg5.N) (a : Fin 10000) : Fin 100000 :=
  ⟨10000 * t.val + a.val, by have := t.isLt; have hN : cfg5.N = 10 := N_5; have := a.isLt; omega⟩

/-- The input blocks read entry by entry off their arrays. -/
theorem iblk5_0_apply (c : Dev nD) (t : Fin cfg5.N) (a : Fin 10000) (j : Fin 64) :
    iblk5_0 V c t (ix2 a j) = val5_0 V c (ix2 (idx5_row t a) j) := by
  obtain ⟨⟨h0, h1⟩, -⟩ := idx5_facts t
  show ((cfg5.win 0).blk t).view.read (Elt Ideal) (V c (Pipeline.arrRef spec5 0)) (ix2 a j) = V c (Pipeline.arrRef spec5 0) (ix2 (idx5_row t a) j)
  rw [View.read_apply]
  show V c (Pipeline.arrRef spec5 0) _ = V c (Pipeline.arrRef spec5 0) _
  congr 1
  funext b
  apply Fin.ext
  match b with
  | ⟨0, _⟩ => show win5_0.index t 0 * 10000 + 1 * a.val = 10000 * t.val + a.val; rw [h0]; omega
  | ⟨1, _⟩ => show win5_0.index t 1 * 64 + 1 * j.val = j.val; rw [h1]; omega
theorem iblk5_1_apply (c : Dev nD) (t : Fin cfg5.N) (a : Fin 10000) (j : Fin 64) :
    iblk5_1 V c t (ix2 a j) = val5_1 V c (ix2 (idx5_row t a) j) := by
  obtain ⟨-, ⟨h0, h1⟩, -⟩ := idx5_facts t
  show ((cfg5.win 1).blk t).view.read (Elt Ideal) (V c (Pipeline.arrRef spec5 1)) (ix2 a j) = V c (Pipeline.arrRef spec5 1) (ix2 (idx5_row t a) j)
  rw [View.read_apply]
  show V c (Pipeline.arrRef spec5 1) _ = V c (Pipeline.arrRef spec5 1) _
  congr 1
  funext b
  apply Fin.ext
  match b with
  | ⟨0, _⟩ => show win5_1.index t 0 * 10000 + 1 * a.val = 10000 * t.val + a.val; rw [h0]; omega
  | ⟨1, _⟩ => show win5_1.index t 1 * 64 + 1 * j.val = j.val; rw [h1]; omega
theorem iblk5_2_apply (c : Dev nD) (t : Fin cfg5.N) (a : Fin 10000) :
    iblk5_2 V c t (ix2 a 0) = val5_2 V c (ix2 (idx5_row t a) 0) := by
  obtain ⟨-, -, ⟨h0, h1⟩, -⟩ := idx5_facts t
  show ((cfg5.win 2).blk t).view.read (Elt Ideal) (V c (Pipeline.arrRef spec5 2)) (ix2 a 0) = V c (Pipeline.arrRef spec5 2) (ix2 (idx5_row t a) 0)
  rw [View.read_apply]
  show V c (Pipeline.arrRef spec5 2) _ = V c (Pipeline.arrRef spec5 2) _
  congr 1
  funext b
  apply Fin.ext
  match b with
  | ⟨0, _⟩ => show win5_2.index t 0 * 10000 + 1 * a.val = 10000 * t.val + a.val; rw [h0]; omega
  | ⟨1, _⟩ => show win5_2.index t 1 * 1 + 1 * 0 = 0; rw [h1]
theorem iblk5_3_apply (c : Dev nD) (t : Fin cfg5.N) (j : Fin 64) :
    iblk5_3 V c t (ix2 0 j) = val5_3 V c (ix2 0 j) := by
  obtain ⟨-, -, -, ⟨h0, h1⟩, -⟩ := idx5_facts t
  show ((cfg5.win 3).blk t).view.read (Elt Ideal) (V c (Pipeline.arrRef spec5 3)) (ix2 0 j) = V c (Pipeline.arrRef spec5 3) (ix2 0 j)
  rw [View.read_apply]
  show V c (Pipeline.arrRef spec5 3) _ = V c (Pipeline.arrRef spec5 3) _
  congr 1
  funext b
  apply Fin.ext
  match b with
  | ⟨0, _⟩ => show win5_3.index t 0 * 1 + 1 * 0 = 0; rw [h0]
  | ⟨1, _⟩ => show win5_3.index t 1 * 64 + 1 * j.val = j.val; rw [h1]; omega

/-- So an entry of the tile's hpre block is hpre at that row of the array. -/
theorem k5_pay3_iblk (c : Dev nD) (t : Fin cfg5.N) (a : Fin 10000) (j : Fin 64) :
    k5_pay3 (iblk5_0 V c t) (iblk5_1 V c t) (iblk5_2 V c t) (iblk5_3 V c t) (ix2 a j) = val5_hpre V c (idx5_row t a) j := by
  rw [k5_pay3_apply, iblk5_0_apply, iblk5_1_apply, iblk5_2_apply, iblk5_3_apply]

/-- Window 4 after the body at any point: the tile's hpre block. -/
theorem outsAt5_4_eq (c : Dev nD) (t : Fin cfg5.N) :
    (outsAt5 V c t.val t.isLt).1 = k5_pay3 (iblk5_0 V c t) (iblk5_1 V c t) (iblk5_2 V c t) (iblk5_3 V c t) := by
  by_cases h0 : t.val = 0
  · rw [outsAt5_A V c t h0]
    unfold out5_A_at
    exact out5_A_4 (F := Ideal) c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) ((k5_hcond t).mpr h0) (iblk5 V c 0 t) (iblk5 V c 1 t) (iblk5 V c 2 t) (iblk5 V c 3 t)
  · rw [outsAt5_B V c t h0]
    unfold out5_B_at
    exact out5_B_4 (F := Ideal) c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) (fun h => h0 ((k5_hcond t).mp h)) (iblk5 V c 0 t) (iblk5 V c 1 t) (iblk5 V c 2 t) (iblk5 V c 3 t)
      (outsAt5 V c (t.val - 1) (Nat.lt_of_le_of_lt (Nat.sub_le _ _) t.isLt)).2.1
      (outsAt5 V c (t.val - 1) (Nat.lt_of_le_of_lt (Nat.sub_le _ _) t.isLt)).2.2

/-- Tile s's column sums of hpre and of its square, at column j (zero past the grid). -/
def val5_colsum (c : Dev nD) (j : Fin 64) (s : ℕ) : EReal :=
  if h : s < cfg5.N then ∑ a : Fin 10000, val5_hpre V c (idx5_row ⟨s, h⟩ a) j else 0
def val5_colsq (c : Dev nD) (j : Fin 64) (s : ℕ) : EReal :=
  if h : s < cfg5.N then ∑ a : Fin 10000, val5_hpre V c (idx5_row ⟨s, h⟩ a) j * val5_hpre V c (idx5_row ⟨s, h⟩ a) j else 0

/-- The accumulators after the first point: zero plus the tile's column sums. -/
theorem outsAt5_5_zero (c : Dev nD) (j : Fin 64) (t : Fin cfg5.N) (h0 : t.val = 0) :
    (outsAt5 V c t.val t.isLt).2.1 (ix2 0 j) = val5_colsum V c j t.val := by
  rw [outsAt5_A V c t h0]
  unfold out5_A_at
  refine (congrFun (out5_A_5 (F := Ideal) c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) ((k5_hcond t).mpr h0) (iblk5 V c 0 t) (iblk5 V c 1 t) (iblk5 V c 2 t) (iblk5 V c 3 t)) (ix2 0 j)).trans ?_
  refine (k5_pay4_apply (iblk5_0 V c t) (iblk5_1 V c t) (iblk5_2 V c t) (iblk5_3 V c t) (k5_pay1 (F := Ideal)) j).trans ?_
  rw [k5_pay1_apply, zero_add]
  unfold val5_colsum
  rw [dif_pos t.isLt]
  exact Finset.sum_congr rfl fun a _ => k5_pay3_iblk V c t a j
theorem outsAt5_6_zero (c : Dev nD) (j : Fin 64) (t : Fin cfg5.N) (h0 : t.val = 0) :
    (outsAt5 V c t.val t.isLt).2.2 (ix2 0 j) = val5_colsq V c j t.val := by
  rw [outsAt5_A V c t h0]
  unfold out5_A_at
  refine (congrFun (out5_A_6 (F := Ideal) c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) ((k5_hcond t).mpr h0) (iblk5 V c 0 t) (iblk5 V c 1 t) (iblk5 V c 2 t) (iblk5 V c 3 t)) (ix2 0 j)).trans ?_
  refine (k5_pay5_apply (iblk5_0 V c t) (iblk5_1 V c t) (iblk5_2 V c t) (iblk5_3 V c t) (k5_pay2 (F := Ideal)) j).trans ?_
  rw [k5_pay2_apply, zero_add]
  unfold val5_colsq
  rw [dif_pos t.isLt]
  exact Finset.sum_congr rfl fun a _ => by rw [k5_pay3_iblk V c t a j]

/-- After a later point: what the point before left plus the tile's column sums. -/
theorem outsAt5_5_step (c : Dev nD) (j : Fin 64) (t : Fin cfg5.N) (h0 : ¬t.val = 0) :
    (outsAt5 V c t.val t.isLt).2.1 (ix2 0 j) = (outsAt5 V c (t.val - 1) (Nat.lt_of_le_of_lt (Nat.sub_le _ _) t.isLt)).2.1 (ix2 0 j) + val5_colsum V c j t.val := by
  rw [outsAt5_B V c t h0]
  unfold out5_B_at
  refine (congrFun (out5_B_5 (F := Ideal) c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) (fun h => h0 ((k5_hcond t).mp h)) (iblk5 V c 0 t) (iblk5 V c 1 t) (iblk5 V c 2 t) (iblk5 V c 3 t)
    (outsAt5 V c (t.val - 1) (Nat.lt_of_le_of_lt (Nat.sub_le _ _) t.isLt)).2.1
    (outsAt5 V c (t.val - 1) (Nat.lt_of_le_of_lt (Nat.sub_le _ _) t.isLt)).2.2) (ix2 0 j)).trans ?_
  refine (k5_pay4_apply (iblk5_0 V c t) (iblk5_1 V c t) (iblk5_2 V c t) (iblk5_3 V c t) (outsAt5 V c (t.val - 1) (Nat.lt_of_le_of_lt (Nat.sub_le _ _) t.isLt)).2.1 j).trans ?_
  refine congrArg ((outsAt5 V c (t.val - 1) (Nat.lt_of_le_of_lt (Nat.sub_le _ _) t.isLt)).2.1 (ix2 0 j) + ·) ?_
  unfold val5_colsum
  rw [dif_pos t.isLt]
  exact Finset.sum_congr rfl fun a _ => k5_pay3_iblk V c t a j
theorem outsAt5_6_step (c : Dev nD) (j : Fin 64) (t : Fin cfg5.N) (h0 : ¬t.val = 0) :
    (outsAt5 V c t.val t.isLt).2.2 (ix2 0 j) = (outsAt5 V c (t.val - 1) (Nat.lt_of_le_of_lt (Nat.sub_le _ _) t.isLt)).2.2 (ix2 0 j) + val5_colsq V c j t.val := by
  rw [outsAt5_B V c t h0]
  unfold out5_B_at
  refine (congrFun (out5_B_6 (F := Ideal) c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) (fun h => h0 ((k5_hcond t).mp h)) (iblk5 V c 0 t) (iblk5 V c 1 t) (iblk5 V c 2 t) (iblk5 V c 3 t)
    (outsAt5 V c (t.val - 1) (Nat.lt_of_le_of_lt (Nat.sub_le _ _) t.isLt)).2.1
    (outsAt5 V c (t.val - 1) (Nat.lt_of_le_of_lt (Nat.sub_le _ _) t.isLt)).2.2) (ix2 0 j)).trans ?_
  refine (k5_pay5_apply (iblk5_0 V c t) (iblk5_1 V c t) (iblk5_2 V c t) (iblk5_3 V c t) (outsAt5 V c (t.val - 1) (Nat.lt_of_le_of_lt (Nat.sub_le _ _) t.isLt)).2.2 j).trans ?_
  refine congrArg ((outsAt5 V c (t.val - 1) (Nat.lt_of_le_of_lt (Nat.sub_le _ _) t.isLt)).2.2 (ix2 0 j) + ·) ?_
  unfold val5_colsq
  rw [dif_pos t.isLt]
  exact Finset.sum_congr rfl fun a _ => by rw [k5_pay3_iblk V c t a j]

/-- So after point n they hold the sums over tiles 0 … n, by induction on the point. -/
theorem outsAt5_5_eq (c : Dev nD) (j : Fin 64) : ∀ (n : ℕ) (h : n < cfg5.N),
    (outsAt5 V c n h).2.1 (ix2 0 j) = ∑ s ∈ Finset.range (n + 1), val5_colsum V c j s
  | 0, h => by rw [Finset.sum_range_one]; exact outsAt5_5_zero V c j ⟨0, h⟩ rfl
  | n + 1, h => by
    rw [Finset.sum_range_succ _ (n + 1), ← outsAt5_5_eq c j n (Nat.lt_of_succ_lt h)]
    exact outsAt5_5_step V c j ⟨n + 1, h⟩ (Nat.succ_ne_zero n)
theorem outsAt5_6_eq (c : Dev nD) (j : Fin 64) : ∀ (n : ℕ) (h : n < cfg5.N),
    (outsAt5 V c n h).2.2 (ix2 0 j) = ∑ s ∈ Finset.range (n + 1), val5_colsq V c j s
  | 0, h => by rw [Finset.sum_range_one]; exact outsAt5_6_zero V c j ⟨0, h⟩ rfl
  | n + 1, h => by
    rw [Finset.sum_range_succ _ (n + 1), ← outsAt5_6_eq c j n (Nat.lt_of_succ_lt h)]
    exact outsAt5_6_step V c j ⟨n + 1, h⟩ (Nat.succ_ne_zero n)

/-- The ten tiles' column sums regroup to the sum over all rows: rows = tiles × rows of a tile. -/
theorem val5_colsum_total (c : Dev nD) (j : Fin 64) :
    ∑ s ∈ Finset.range 10, val5_colsum V c j s = ∑ r : Fin 100000, val5_hpre V c r j := by
  have hN : cfg5.N = 10 := N_5
  rw [← Fin.sum_univ_eq_sum_range (fun s => val5_colsum V c j s) 10]
  refine Eq.trans ?_ (Cert.LibStats.sum_tiles 10 10000 (fun r : Fin (10 * 10000) => val5_hpre V c r j)).symm
  refine Finset.sum_congr rfl fun s _ => ?_
  unfold val5_colsum
  rw [dif_pos (lt_of_lt_of_eq s.isLt hN.symm)]
  refine Finset.sum_congr rfl fun a _ => ?_
  have e : idx5_row ⟨s.val, lt_of_lt_of_eq s.isLt hN.symm⟩ a = (finProdFinEquiv (s, a) : Fin (10 * 10000)) :=
    Fin.ext (by rw [finProdFinEquiv_apply_val]; show 10000 * s.val + a.val = a.val + 10000 * s.val; omega)
  rw [e]
theorem val5_colsq_total (c : Dev nD) (j : Fin 64) :
    ∑ s ∈ Finset.range 10, val5_colsq V c j s = ∑ r : Fin 100000, val5_hpre V c r j * val5_hpre V c r j := by
  have hN : cfg5.N = 10 := N_5
  rw [← Fin.sum_univ_eq_sum_range (fun s => val5_colsq V c j s) 10]
  refine Eq.trans ?_ (Cert.LibStats.sum_tiles 10 10000 (fun r : Fin (10 * 10000) => val5_hpre V c r j * val5_hpre V c r j)).symm
  refine Finset.sum_congr rfl fun s _ => ?_
  unfold val5_colsq
  rw [dif_pos (lt_of_lt_of_eq s.isLt hN.symm)]
  refine Finset.sum_congr rfl fun a _ => ?_
  have e : idx5_row ⟨s.val, lt_of_lt_of_eq s.isLt hN.symm⟩ a = (finProdFinEquiv (s, a) : Fin (10 * 10000)) :=
    Fin.ext (by rw [finProdFinEquiv_apply_val]; show 10000 * s.val + a.val = a.val + 10000 * s.val; omega)
  rw [e]

/-- After the last point the accumulators hold the sums over all rows. -/
theorem outsAt5_5_last (c : Dev nD) :
    (outsAt5 V c t5_9.val t5_9.isLt).2.1 = val5_5 V c := by
  funext i
  obtain ⟨i0, i1, rfl⟩ : ∃ (i0 : Fin 1) (i1 : Fin 64), i = ix2 i0 i1 := ⟨i 0, i 1, eq_ix2 i⟩
  obtain rfl : i0 = 0 := Subsingleton.elim _ _
  exact (outsAt5_5_eq V c i1 9 t5_9.isLt).trans (val5_colsum_total V c i1)
theorem outsAt5_6_last (c : Dev nD) :
    (outsAt5 V c t5_9.val t5_9.isLt).2.2 = val5_6 V c := by
  funext i
  obtain ⟨i0, i1, rfl⟩ : ∃ (i0 : Fin 1) (i1 : Fin 64), i = ix2 i0 i1 := ⟨i 0, i 1, eq_ix2 i⟩
  obtain rfl : i0 = 0 := Subsingleton.elim _ _
  exact (outsAt5_6_eq V c i1 9 t5_9.isLt).trans (val5_colsq_total V c i1)

/-- What each flushing point writes back is its block of the whole-array function. -/
theorem flushed5_4 (c : Dev nD) (t : Fin cfg5.N) (hf : (cfg5.win 4).flush t = true) :
    (dat5 (F := Ideal) V c).flushed 4 t
      = ((cfg5.win 4).blk t).view.read (Elt Ideal) (val5_4 V c) := by
  obtain ⟨-, -, -, -, ⟨h0, h1⟩, -⟩ := idx5_facts t
  show (cfg5.win 4).cut (grid5.coords t) ((dat5 (F := Ideal) V c).after 4 t) = _
  rw [after5_4, outsAt5_4_eq]
  funext y
  obtain ⟨a, j, rfl⟩ : ∃ (a : Fin 10000) (j : Fin 64), y = ix2 a j := ⟨y 0, y 1, eq_ix2 y⟩
  rw [View.read_apply]
  show k5_pay3 (iblk5_0 V c t) (iblk5_1 V c t) (iblk5_2 V c t) (iblk5_3 V c t) (ix2 a j)
    = val5_hpre V c (((cfg5.win 4).blk t).view.emb (ix2 a j) 0) (((cfg5.win 4).blk t).view.emb (ix2 a j) 1)
  have e0 : idx5_row t a = ((cfg5.win 4).blk t).view.emb (ix2 a j) 0 :=
    Fin.ext (by show 10000 * t.val + a.val = win5_4.index t 0 * 10000 + 1 * a.val; rw [h0]; omega)
  have e1 : j = ((cfg5.win 4).blk t).view.emb (ix2 a j) 1 :=
    Fin.ext (by show j.val = win5_4.index t 1 * 64 + 1 * j.val; rw [h1]; omega)
  exact (k5_pay3_iblk V c t a j).trans (congrArg₂ (fun r' j' => val5_hpre V c r' j') e0 e1)

theorem flushed5_5 (c : Dev nD) (t : Fin cfg5.N) (hf : (cfg5.win 5).flush t = true) :
    (dat5 (F := Ideal) V c).flushed 5 t
      = ((cfg5.win 5).blk t).view.read (Elt Ideal) (val5_5 V c) := by
  have hN : cfg5.N = 10 := N_5
  have h9 : t.val = 9 := by have := (flush5_5 t).mp hf; have := t.isLt; omega
  obtain rfl : t = t5_9 := Fin.ext h9
  show (cfg5.win 5).cut (grid5.coords t5_9) ((dat5 (F := Ideal) V c).after 5 t5_9) = _
  rw [after5_5, outsAt5_5_last]
  have hz' : (fun a : Fin 2 => win5_5.index t5_9 a * S1x64.size a) = fun _ => 0 := funext fun a => by fin_cases a <;> decide
  exact (Memref.read_access_unit_zero (Elt Ideal) (Pipeline.arrRef spec5 5) hz' (fun a => by rw [congrFun hz' a]; simp)
    (val5_5 V c)).symm

theorem flushed5_6 (c : Dev nD) (t : Fin cfg5.N) (hf : (cfg5.win 6).flush t = true) :
    (dat5 (F := Ideal) V c).flushed 6 t
      = ((cfg5.win 6).blk t).view.read (Elt Ideal) (val5_6 V c) := by
  have hN : cfg5.N = 10 := N_5
  have h9 : t.val = 9 := by have := (flush5_6 t).mp hf; have := t.isLt; omega
  obtain rfl : t = t5_9 := Fin.ext h9
  show (cfg5.win 6).cut (grid5.coords t5_9) ((dat5 (F := Ideal) V c).after 6 t5_9) = _
  rw [after5_6, outsAt5_6_last]
  have hz' : (fun a : Fin 2 => win5_6.index t5_9 a * S1x64.size a) = fun _ => 0 := funext fun a => by fin_cases a <;> decide
  exact (Memref.read_access_unit_zero (Elt Ideal) (Pipeline.arrRef spec5 6) hz' (fun a => by rw [congrFun hz' a]; simp)
    (val5_6 V c)).symm

set_option maxHeartbeats 1000000 in
/-- WINDOW 4: every point writes its tile back; the tiles cover the rows. -/
theorem arr5_4 (c : Dev nD) : (dat5 (F := Ideal) V c).arrAt 4 cfg5.N = fun i => val5_hpre V c (i 0) (i 1) :=
  (dat5 (F := Ideal) V c).arrAt_eq_of_cover 4 (val5_4 V c) (flushed5_4 V c) fun i => by
    -- row i 0 lies in tile (i 0) / 10000
    have hi0 : (i 0 : Nat) < 100000 := (i 0).isLt
    have hi1 : (i 1 : Nat) < 64 := (i 1).isLt
    have hN : cfg5.N = 10 := N_5
    have ht : (i 0 : Nat) / 10000 < cfg5.N := by rw [hN]; omega
    refine ⟨⟨(i 0 : Nat) / 10000, ht⟩, flush5_4 _, ?_⟩
    obtain ⟨-, -, -, -, ⟨h0, h1⟩, -⟩ := idx5_facts ⟨(i 0 : Nat) / 10000, ht⟩
    show i ∈ ((View.whole (Pipeline.arrRef spec5 4)).slice (win5_4.rect ⟨(i 0 : Nat) / 10000, ht⟩)).set
    rw [View.set_slice_whole, Rect.mem_set_unit]
    intro a
    match a with
    | ⟨0, _⟩ =>
      show win5_4.index ⟨(i 0 : Nat) / 10000, ht⟩ 0 * win5_4.size 0 ≤ (i 0 : Nat)
        ∧ (i 0 : Nat) < win5_4.index ⟨(i 0 : Nat) / 10000, ht⟩ 0 * win5_4.size 0 + win5_4.xsize (grid5.coords ⟨(i 0 : Nat) / 10000, ht⟩) 0
      rw [h0]
      show (i 0 : Nat) / 10000 * 10000 ≤ (i 0 : Nat) ∧ (i 0 : Nat) < (i 0 : Nat) / 10000 * 10000 + 10000
      omega
    | ⟨1, _⟩ =>
      show win5_4.index ⟨(i 0 : Nat) / 10000, ht⟩ 1 * win5_4.size 1 ≤ (i 1 : Nat)
        ∧ (i 1 : Nat) < win5_4.index ⟨(i 0 : Nat) / 10000, ht⟩ 1 * win5_4.size 1 + win5_4.xsize (grid5.coords ⟨(i 0 : Nat) / 10000, ht⟩) 1
      rw [h1]
      show 0 * 64 ≤ (i 1 : Nat) ∧ (i 1 : Nat) < 0 * 64 + 64
      omega

set_option maxHeartbeats 1000000 in
/-- WINDOW 5: the last point writes the row of sums back. -/
theorem arr5_5 (c : Dev nD) : (dat5 (F := Ideal) V c).arrAt 5 cfg5.N = fun i => ∑ r : Fin 100000, val5_hpre V c r (i 1) :=
  (dat5 (F := Ideal) V c).arrAt_eq_of_cover 5 (val5_5 V c) (flushed5_5 V c) fun i =>
    ⟨t5_9, (flush5_5 t5_9).mpr rfl, by
      show i ∈ ((View.whole (Pipeline.arrRef spec5 5)).slice (win5_5.rect t5_9)).set
      rw [View.set_slice_whole, Rect.mem_set_unit]
      intro a
      have h0 : (i 0 : Nat) < 1 := (i 0).isLt
      have h1 : (i 1 : Nat) < 64 := (i 1).isLt
      match a with
      | ⟨0, _⟩ => show win5_5.index t5_9 0 * win5_5.size 0 ≤ (i 0 : Nat) ∧ (i 0 : Nat) < win5_5.index t5_9 0 * win5_5.size 0 + win5_5.xsize (grid5.coords t5_9) 0
                  rw [show win5_5.index t5_9 0 * win5_5.size 0 = 0 from by decide +kernel, show win5_5.xsize (grid5.coords t5_9) 0 = 1 from by decide +kernel]; omega
      | ⟨1, _⟩ => show win5_5.index t5_9 1 * win5_5.size 1 ≤ (i 1 : Nat) ∧ (i 1 : Nat) < win5_5.index t5_9 1 * win5_5.size 1 + win5_5.xsize (grid5.coords t5_9) 1
                  rw [show win5_5.index t5_9 1 * win5_5.size 1 = 0 from by decide +kernel, show win5_5.xsize (grid5.coords t5_9) 1 = 64 from by decide +kernel]; omega⟩

set_option maxHeartbeats 1000000 in
/-- WINDOW 6: and the row of sums of squares. -/
theorem arr5_6 (c : Dev nD) :
    (dat5 (F := Ideal) V c).arrAt 6 cfg5.N = fun i => ∑ r : Fin 100000, val5_hpre V c r (i 1) * val5_hpre V c r (i 1) :=
  (dat5 (F := Ideal) V c).arrAt_eq_of_cover 6 (val5_6 V c) (flushed5_6 V c) fun i =>
    ⟨t5_9, (flush5_6 t5_9).mpr rfl, by
      show i ∈ ((View.whole (Pipeline.arrRef spec5 6)).slice (win5_6.rect t5_9)).set
      rw [View.set_slice_whole, Rect.mem_set_unit]
      intro a
      have h0 : (i 0 : Nat) < 1 := (i 0).isLt
      have h1 : (i 1 : Nat) < 64 := (i 1).isLt
      match a with
      | ⟨0, _⟩ => show win5_6.index t5_9 0 * win5_6.size 0 ≤ (i 0 : Nat) ∧ (i 0 : Nat) < win5_6.index t5_9 0 * win5_6.size 0 + win5_6.xsize (grid5.coords t5_9) 0
                  rw [show win5_6.index t5_9 0 * win5_6.size 0 = 0 from by decide +kernel, show win5_6.xsize (grid5.coords t5_9) 0 = 1 from by decide +kernel]; omega
      | ⟨1, _⟩ => show win5_6.index t5_9 1 * win5_6.size 1 ≤ (i 1 : Nat) ∧ (i 1 : Nat) < win5_6.index t5_9 1 * win5_6.size 1 + win5_6.xsize (grid5.coords t5_9) 1
                  rw [show win5_6.index t5_9 1 * win5_6.size 1 = 0 from by decide +kernel, show win5_6.xsize (grid5.coords t5_9) 1 = 64 from by decide +kernel]; omega⟩

end Value

end Cert.KernelIdeal.Reg

end
-- ==== Proof.Bridge.L1CoreB.lean ====
import proofs.«147038_j12317966205319_1_alg».proof.Proof.KI.Val5
import proofs.«147038_j12317966205319_1_alg».proof.Proof.Ref.StageFns
import proofs.«147038_j12317966205319_1_alg».proof.Proof.Alg.Real
import proofs.«147038_j12317966205319_1_alg».proof.Proof.Bridge.StageFacts

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat Col Row hpreF)
open scoped BigOperators

/-! # One layer's combining region against the layer's stage function

The combining region leaves, at `(r, j)`, the aggregate plus the product times the node's self weight plus the layer's
bias at `j`; and in its two accumulated rows the column sums of that array and of its squares. -/

variable (V : (c : Dev nD) → (b : Ref sig .tc) → Buf (Elt Ideal) ((c : Thread nD τ).loc b))

/-- The region's value at `(r, j)` is the stage function's, when its four operand arrays hold the aggregate, the
    product, the self weights as a column and the bias as a row. -/
theorem hpre_at_L1 (c : Dev nD) (agg xw : Feat) (selfw : Col) (b : Row)
    (ha : (val5_0 V c : S100000x64.Idx → EReal) = agg) (hx : (val5_1 V c : S100000x64.Idx → EReal) = xw)
    (hs : ∀ (r : Fin 100000) (u : Fin 1), val5_2 V c (ix2 r u) = selfw (ix1 r))
    (hb : ∀ (u : Fin 1) (j : Fin 64), val5_3 V c (ix2 u j) = b (ix1 j)) (r : Fin 100000) (j : Fin 64) :
    val5_hpre V c r j = hpreF agg xw selfw b (ix2 r j) := by
  show val5_0 V c (ix2 r j) + val5_1 V c (ix2 r j) * val5_2 V c (ix2 r 0) + val5_3 V c (ix2 0 j)
    = agg (ix2 r j) + xw (ix2 r j) * selfw (ix1 r) + b (ix1 j)
  rw [hs r 0, hb 0 j, congrFun ha (ix2 r j), congrFun hx (ix2 r j)]

/-- The region's first output is the stage function's array. -/
theorem hpre_core_L1 (c : Dev nD) (agg xw : Feat) (selfw : Col) (b : Row)
    (ha : (val5_0 V c : S100000x64.Idx → EReal) = agg) (hx : (val5_1 V c : S100000x64.Idx → EReal) = xw)
    (hs : ∀ (r : Fin 100000) (u : Fin 1), val5_2 V c (ix2 r u) = selfw (ix1 r))
    (hb : ∀ (u : Fin 1) (j : Fin 64), val5_3 V c (ix2 u j) = b (ix1 j)) :
    (dat5 (F := Ideal) V c).arrAt 4 cfg5.N = hpreF agg xw selfw b := by
  rw [arr5_4]
  funext i
  obtain ⟨r, j, rfl⟩ : ∃ (r : Fin 100000) (j : Fin 64), i = ix2 r j := ⟨i 0, i 1, eq_ix2 i⟩
  exact hpre_at_L1 V c agg xw selfw b ha hx hs hb r j

/-- Its second output holds, at every column, the column sum of that array. -/
theorem sum_core_L1 (c : Dev nD) (agg xw : Feat) (selfw : Col) (b : Row)
    (ha : (val5_0 V c : S100000x64.Idx → EReal) = agg) (hx : (val5_1 V c : S100000x64.Idx → EReal) = xw)
    (hs : ∀ (r : Fin 100000) (u : Fin 1), val5_2 V c (ix2 r u) = selfw (ix1 r))
    (hb : ∀ (u : Fin 1) (j : Fin 64), val5_3 V c (ix2 u j) = b (ix1 j)) (u : Fin 1) (j : Fin 64) :
    ((dat5 (F := Ideal) V c).arrAt 5 cfg5.N : S1x64.Idx → EReal) (ix2 u j)
      = ∑ r : Fin 100000, hpreF agg xw selfw b (ix2 r j) := by
  refine (congrFun (show (dat5 (F := Ideal) V c).arrAt 5 cfg5.N = val5_5 V c from arr5_5 V c) (ix2 u j)).trans ?_
  show (∑ r : Fin 100000, val5_hpre V c r j) = ∑ r : Fin 100000, hpreF agg xw selfw b (ix2 r j)
  exact Finset.sum_congr rfl fun r _ => hpre_at_L1 V c agg xw selfw b ha hx hs hb r j

/-- Its third output holds, at every column, the column sum of that array's squares. -/
theorem sumsq_core_L1 (c : Dev nD) (agg xw : Feat) (selfw : Col) (b : Row)
    (ha : (val5_0 V c : S100000x64.Idx → EReal) = agg) (hx : (val5_1 V c : S100000x64.Idx → EReal) = xw)
    (hs : ∀ (r : Fin 100000) (u : Fin 1), val5_2 V c (ix2 r u) = selfw (ix1 r))
    (hb : ∀ (u : Fin 1) (j : Fin 64), val5_3 V c (ix2 u j) = b (ix1 j)) (u : Fin 1) (j : Fin 64) :
    ((dat5 (F := Ideal) V c).arrAt 6 cfg5.N : S1x64.Idx → EReal) (ix2 u j)
      = ∑ r : Fin 100000, hpreF agg xw selfw b (ix2 r j) * hpreF agg xw selfw b (ix2 r j) := by
  refine (congrFun (show (dat5 (F := Ideal) V c).arrAt 6 cfg5.N = val5_6 V c from arr5_6 V c) (ix2 u j)).trans ?_
  show (∑ r : Fin 100000, val5_hpre V c r j * val5_hpre V c r j)
    = ∑ r : Fin 100000, hpreF agg xw selfw b (ix2 r j) * hpreF agg xw selfw b (ix2 r j)
  exact Finset.sum_congr rfl fun r _ =>
    congrArg₂ (· * ·) (hpre_at_L1 V c agg xw selfw b ha hx hs hb r j) (hpre_at_L1 V c agg xw selfw b ha hx hs hb r j)

end Cert.Bridge

end
-- ==== Proof.Bridge.L1.lean ====
import proofs.«147038_j12317966205319_1_alg».proof.Proof.KI.Conts
import proofs.«147038_j12317966205319_1_alg».proof.Proof.Bridge.Args
import proofs.«147038_j12317966205319_1_alg».proof.Proof.KI.HostL1
import proofs.«147038_j12317966205319_1_alg».proof.Proof.Bridge.L1Core
import proofs.«147038_j12317966205319_1_alg».proof.Proof.Bridge.L1CoreB
import proofs.«147038_j12317966205319_1_alg».proof.Proof.Bridge.Edges

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat Col Row WSq WLayers RowLayers EdgeList xwF aggF hpreF normF reluF layerF sliceSq sliceRow srcF nrmF dstF selfF)
open scoped BigOperators

/-! # One graph-convolution layer: what its three regions leave is the layer's stage functions of its input

From what the layer's input array holds: the product region leaves the product with the layer's weight matrix; the
combining region the aggregate over incoming edges plus the self term plus the layer's bias, with its column sums
and column sums of squares; the normalising region, when that combined array is real-valued, its normalisation
with the layer's scale and shift cut off at zero. -/

variable (m : (ℓ : Loc nD τ sig) → Buf (Elt Ideal) ℓ)

/-- The product region: the layer's input times the layer's weight matrix. -/
theorem xw_L1 (c : Dev nD) (h : Feat) (hin : outsF m 8 main_v67 c = h) :
    outsF m 10 main_v71 c = xwF h (sliceSq (arg4 m c) (1 : Fin 4)) := by
  have hV : ∀ b : Ref sig .tc, T9 m c b = V9 m (outsF m) c b := fun b => (congrFun (V9_eq m c) _).symm
  show W10 m c (Proc.devRef .tc main_v71) = _
  rw [W10_out3]
  refine xw_core_L1 (T9 m) c h (sliceSq (arg4 m c) (1 : Fin 4)) ?_ ?_ ?_
  · exact ((hV main_v67).trans (mm_x_L1 m (outsF m) c)).trans hin
  · intro k j
    exact (congrFun (hV main_v69) (ix2 k j)).trans (mm_w_L1 m (outsF m) c k j)
  · intro u j
    exact (congrFun (hV main_v70) (ix2 u j)).trans (mm_b_L1 m (outsF m) c u j)

/-- The combining region's operand arrays, from what the product region left. -/
theorem hpre_L1 (c : Dev nD) (xw : Feat) (hxw : outsF m 10 main_v71 c = xw) :
    outsF m 12 main_v88_0 c
      = hpreF (aggF xw (srcF (arg1 m c)) (nrmF (arg1 m c)) (dstF (arg1 m c))) xw (selfF (arg1 m c))
          (sliceRow (arg5 m c) (1 : Fin 4)) := by
  have hV : ∀ b : Ref sig .tc, T11 m c b = V11 m (outsF m) c b := fun b => (congrFun (V11_eq m c) _).symm
  show W12 m c (Proc.devRef .tc main_v88_0) = _
  rw [W12_out4]
  refine hpre_core_L1 (T11 m) c _ xw _ _ ?_ ?_ ?_ ?_
  · exact ((hV main_v84).trans (cb_agg_L1 m (outsF m) c)).trans
      ((congrArg (fun y => aggOf y (m (c, main_arg1))) hxw).trans (aggOf_eq xw (arg1 m c)))
  · exact ((hV main_v71).trans (cb_xw_L1 m (outsF m) c)).trans hxw
  · intro r u
    exact (congrFun ((hV main_v28).trans (cb_selfn_L1 m (outsF m) c)) (ix2 r u)).trans (selfnOf_at (arg1 m c) r u)
  · intro u j
    exact (congrFun (hV main_v87) (ix2 u j)).trans (cb_convb_L1 m (outsF m) c u j)

/-- Its second output: the column sums of the combined array. -/
theorem sum_L1 (c : Dev nD) (xw : Feat) (hxw : outsF m 10 main_v71 c = xw) (u : Fin 1) (j : Fin 64) :
    (outsF m 12 main_v88_1 c : S1x64.Idx → EReal) (ix2 u j)
      = ∑ r : Fin 100000, hpreF (aggF xw (srcF (arg1 m c)) (nrmF (arg1 m c)) (dstF (arg1 m c))) xw (selfF (arg1 m c))
          (sliceRow (arg5 m c) (1 : Fin 4)) (ix2 r j) := by
  have hV : ∀ b : Ref sig .tc, T11 m c b = V11 m (outsF m) c b := fun b => (congrFun (V11_eq m c) _).symm
  show W12 m c (Proc.devRef .tc main_v88_1) (ix2 u j) = _
  rw [W12_out5]
  refine sum_core_L1 (T11 m) c _ xw _ _ ?_ ?_ ?_ ?_ u j
  · exact ((hV main_v84).trans (cb_agg_L1 m (outsF m) c)).trans
      ((congrArg (fun y => aggOf y (m (c, main_arg1))) hxw).trans (aggOf_eq xw (arg1 m c)))
  · exact ((hV main_v71).trans (cb_xw_L1 m (outsF m) c)).trans hxw
  · intro r u
    exact (congrFun ((hV main_v28).trans (cb_selfn_L1 m (outsF m) c)) (ix2 r u)).trans (selfnOf_at (arg1 m c) r u)
  · intro u j
    exact (congrFun (hV main_v87) (ix2 u j)).trans (cb_convb_L1 m (outsF m) c u j)

/-- Its third output: the column sums of the combined array's squares. -/
theorem sumsq_L1 (c : Dev nD) (xw : Feat) (hxw : outsF m 10 main_v71 c = xw) (u : Fin 1) (j : Fin 64) :
    (outsF m 12 main_v88_2 c : S1x64.Idx → EReal) (ix2 u j)
      = ∑ r : Fin 100000, hpreF (aggF xw (srcF (arg1 m c)) (nrmF (arg1 m c)) (dstF (arg1 m c))) xw (selfF (arg1 m c))
            (sliceRow (arg5 m c) (1 : Fin 4)) (ix2 r j)
          * hpreF (aggF xw (srcF (arg1 m c)) (nrmF (arg1 m c)) (dstF (arg1 m c))) xw (selfF (arg1 m c))
            (sliceRow (arg5 m c) (1 : Fin 4)) (ix2 r j) := by
  have hV : ∀ b : Ref sig .tc, T11 m c b = V11 m (outsF m) c b := fun b => (congrFun (V11_eq m c) _).symm
  show W12 m c (Proc.devRef .tc main_v88_2) (ix2 u j) = _
  rw [W12_out6]
  refine sumsq_core_L1 (T11 m) c _ xw _ _ ?_ ?_ ?_ ?_ u j
  · exact ((hV main_v84).trans (cb_agg_L1 m (outsF m) c)).trans
      ((congrArg (fun y => aggOf y (m (c, main_arg1))) hxw).trans (aggOf_eq xw (arg1 m c)))
  · exact ((hV main_v71).trans (cb_xw_L1 m (outsF m) c)).trans hxw
  · intro r u
    exact (congrFun ((hV main_v28).trans (cb_selfn_L1 m (outsF m) c)) (ix2 r u)).trans (selfnOf_at (arg1 m c) r u)
  · intro u j
    exact (congrFun (hV main_v87) (ix2 u j)).trans (cb_convb_L1 m (outsF m) c u j)

/-- The normalising region, from what the combining region left, the combined array real-valued. -/
theorem bn_L1 (c : Dev nD) (hp : Feat) (hhp : outsF m 12 main_v88_0 c = hp)
    (hS1 : ∀ (u : Fin 1) (j : Fin 64), (outsF m 12 main_v88_1 c : S1x64.Idx → EReal) (ix2 u j) = ∑ r : Fin 100000, hp (ix2 r j))
    (hS2 : ∀ (u : Fin 1) (j : Fin 64), (outsF m 12 main_v88_2 c : S1x64.Idx → EReal) (ix2 u j)
      = ∑ r : Fin 100000, hp (ix2 r j) * hp (ix2 r j))
    (hreal : ∀ i, ∃ x : ℝ, hp i = x) :
    outsF m 14 main_v104 c = reluF (normF hp (sliceRow (arg6 m c) (1 : Fin 4)) (sliceRow (arg7 m c) (1 : Fin 4))) := by
  have hV : ∀ b : Ref sig .tc, T13 m c b = V13 m (outsF m) c b := fun b => (congrFun (V13_eq m c) _).symm
  show W14 m c (Proc.devRef .tc main_v104) = _
  rw [W14_out5]
  refine bn_core_L1 (T13 m) c hp _ _ (outsF m 12 main_v88_1 c) (outsF m 12 main_v88_2 c) ?_ ?_ ?_ ?_ ?_ (hS1 0) (hS2 0) hreal
  · exact ((hV main_v88_0).trans (bn_hpre_L1 m (outsF m) c)).trans hhp
  · intro u j
    exact (congrFun (hV main_v90) (ix2 u j)).trans (bn_mu_L1 m (outsF m) c u j)
  · intro u j
    exact (congrFun (hV main_v97) (ix2 u j)).trans (bn_invstd_L1 m (outsF m) c u j)
  · intro u j
    exact (congrFun (hV main_v100) (ix2 u j)).trans (bn_gamma_L1 m (outsF m) c u j)
  · intro u j
    exact (congrFun (hV main_v103) (ix2 u j)).trans (bn_beta_L1 m (outsF m) c u j)

/-- The whole layer: what its last region leaves is the layer function of its input, given that the combined array
    is real-valued. -/
theorem layer_L1 (c : Dev nD) (h : Feat) (hin : outsF m 8 main_v67 c = h)
    (hreal : ∀ i, ∃ x : ℝ,
      hpreF (aggF (xwF h (sliceSq (arg4 m c) (1 : Fin 4))) (srcF (arg1 m c)) (nrmF (arg1 m c)) (dstF (arg1 m c)))
        (xwF h (sliceSq (arg4 m c) (1 : Fin 4))) (selfF (arg1 m c)) (sliceRow (arg5 m c) (1 : Fin 4)) i = x) :
    outsF m 14 main_v104 c
      = layerF h (srcF (arg1 m c)) (nrmF (arg1 m c)) (dstF (arg1 m c)) (selfF (arg1 m c))
          (arg4 m c) (arg5 m c) (arg6 m c) (arg7 m c) (1 : Fin 4) :=
  bn_L1 m c _ (hpre_L1 m c _ (xw_L1 m c h hin)) (sum_L1 m c _ (xw_L1 m c h hin)) (sumsq_L1 m c _ (xw_L1 m c h hin)) hreal

end Cert.Bridge

end
-- ==== Proof.KI.HostL2.lean ====
/- Layer 2 of the graph convolution, at the ideal values: what the buffers read by the layer's product, its combine
   and its normalisation hold when each starts. The product reads the previous features, member 2 of the stacked
   weights and a zero row; the combine reads the aggregate of the product over the edges, the product, the self weights
   and row 2 of the stacked biases; the normalisation reads the combine's output, the mean Σ/100000, the reciprocal
   deviation rsqrt(Σ²/100000 − mean² + ε) and rows 2 of the stacked scales and shifts. -/
import proofs.«147038_j12317966205319_1_alg».proof.Proof.Gen.KernelIdeal.Regions
import Idealize.ShloMosaic.Lib.ValueIdx
import Idealize.ShloMosaic.Lib.ValueLayout
import Idealize.ShloMosaic.Lib.IdealHost
import Idealize.ShloMosaic.PureOps.Ideal.Laws
import proofs.«147038_j12317966205319_1_alg».proof.Proof.KI.HostL1

set_option maxRecDepth 16384

noncomputable section

namespace Cert.KernelIdeal.Reg

open Idealize.ShloMosaic Idealize.ShloMosaic.TcCoe
open Idealize.ShloMosaic.ValueIdx
open Cert.KernelIdeal Cert.KernelIdeal.Gen

variable (m : (ℓ : Loc nD τ sig) → Buf (Elt Ideal) ℓ) (outs : Outs (F := Ideal))

/-! ## Buffers the layer does not write -/

theorem V16_keep_L2 (c : Dev nD) (r : Ref sig .tc) (ha : r ∉ hostOps7_W) (hb : r ∉ ([main_v108] : List (Ref sig .tc))) :
    V16 m outs c r = V14 m outs c r := (V16_of m outs c r hb).trans (V15_of m outs c r ha)
theorem V18_keep_L2 (c : Dev nD) (r : Ref sig .tc) (ha : r ∉ hostOps7_W) (hb : r ∉ ([main_v108] : List (Ref sig .tc)))
    (hc : r ∉ hostOps8_W) (hd : r ∉ ([main_v125_0, main_v125_1, main_v125_2] : List (Ref sig .tc))) :
    V18 m outs c r = V14 m outs c r :=
  (V18_of m outs c r hd).trans ((V17_of m outs c r hc).trans (V16_keep_L2 m outs c r ha hb))
theorem V20_keep_L2 (c : Dev nD) (r : Ref sig .tc) (ha : r ∉ hostOps7_W) (hb : r ∉ ([main_v108] : List (Ref sig .tc)))
    (hc : r ∉ hostOps8_W) (hd : r ∉ ([main_v125_0, main_v125_1, main_v125_2] : List (Ref sig .tc)))
    (he : r ∉ hostOps9_W) (hf : r ∉ ([main_v141] : List (Ref sig .tc))) :
    V20 m outs c r = V14 m outs c r :=
  (V20_of m outs c r hf).trans ((V19_of m outs c r he).trans (V18_keep_L2 m outs c r ha hb hc hd))

/-! ## The entry of the layer's product: features, the layer's weight matrix, a zero row -/

theorem mm_x_L2 (c : Dev nD) : V15 m outs c main_v104 = outs 14 main_v104 c :=
  (V15_of m outs c main_v104 (by decide)).trans (V14_x m outs c)

theorem mm_w_L2 (c : Dev nD) (k j : Fin 64) :
    (V15 m outs c main_v106 : S64x64.Idx → EReal) (ix2 k j) = (m (c, main_arg4) : S4x64x64.Idx → EReal) (ix3 (2 : Fin 4) k j) := by
  show StableHlo.after hostOps7 _ (Proc.devRef .tc main_v106) (ix2 k j) = _
  after_results
  show shapeCast S64x64 (extractStridedSlice S1x64x64 _ (V14 m outs c main_arg4 : S4x64x64.Idx → EReal) _) _ (ix2 k j) = _
  rw [V14_arg4]
  exact (shapeCast_1ab_ab_apply _ _ k j).trans (slice3_axis0_apply _ _ _ _ k j (2 : Fin 4) rfl)

theorem mm_b_L2 (c : Dev nD) (u : Fin 1) (j : Fin 64) : (V15 m outs c main_v107 : S1x64.Idx → EReal) (ix2 u j) = (0 : EReal) := by
  show StableHlo.after hostOps7 _ (Proc.devRef .tc main_v107) (ix2 u j) = _
  after_results
  exact Ideal.ofBits_zero_f32

/-! ## The entry of the layer's combine: the aggregate, the product, the self weights, the layer's bias row -/

theorem V16_xw_L2 (c : Dev nD) : V16 m outs c main_v108 = outs 16 main_v108 c := Function.update_self ..

theorem cb_agg_L2 (c : Dev nD) : V17 m outs c main_v121 = aggOf (outs 16 main_v108 c) (m (c, main_arg1)) := by
  show StableHlo.after hostOps8 _ (Proc.devRef .tc main_v121) = _
  after_results_simp
  rw [V16_xw_L2, (V16_keep_L2 m outs c main_v1 (by decide) (by decide)).trans (V14_src m outs c),
    (V16_keep_L2 m outs c main_v3 (by decide) (by decide)).trans (V14_dst m outs c),
    (V16_keep_L2 m outs c main_v26 (by decide) (by decide)).trans (V14_normE m outs c)]
  rfl

theorem cb_xw_L2 (c : Dev nD) : V17 m outs c main_v108 = outs 16 main_v108 c :=
  (V17_of m outs c main_v108 (by decide)).trans (V16_xw_L2 m outs c)

theorem cb_selfn_L2 (c : Dev nD) : V17 m outs c main_v28 = selfnOf (m (c, main_arg1)) :=
  (V17_of m outs c main_v28 (by decide)).trans ((V16_keep_L2 m outs c main_v28 (by decide) (by decide)).trans (V14_selfn m outs c))

theorem cb_convb_L2 (c : Dev nD) (u : Fin 1) (j : Fin 64) :
    (V17 m outs c main_v124 : S1x64.Idx → EReal) (ix2 u j) = (m (c, main_arg5) : S4x64.Idx → EReal) (ix2 (2 : Fin 4) j) := by
  show StableHlo.after hostOps8 _ (Proc.devRef .tc main_v124) (ix2 u j) = _
  after_results
  show shapeCast S1x64 (shapeCast S64 (extractStridedSlice S1x64 _ (V16 m outs c main_arg5 : S4x64.Idx → EReal) _) _) _ (ix2 u j) = _
  rw [(V16_keep_L2 m outs c main_arg5 (by decide) (by decide)).trans (V14_arg5 m outs c)]
  exact (shapeCast_a_1a_apply _ _ u j).trans ((shapeCast_1a_a_apply _ _ j).trans
    (slice2_axis0_apply _ _ _ (0 : Fin 1) j (2 : Fin 4) rfl))

/-! ## The entry of the layer's normalisation: the combine's three outputs, the mean and the reciprocal deviation
    computed from its two column sums, the layer's scale and shift rows -/

theorem V18_hpre_L2 (c : Dev nD) : V18 m outs c main_v125_0 = outs 18 main_v125_0 c := by
  show Function.update (Function.update (Function.update (V17 m outs c) main_v125_0 _) main_v125_1 _) main_v125_2 _ main_v125_0 = _
  rw [Function.update_of_ne (StableHlo.devRef_ne_of_ne (by decide)), Function.update_of_ne (StableHlo.devRef_ne_of_ne (by decide)),
    Function.update_self]
theorem V18_sum_L2 (c : Dev nD) : V18 m outs c main_v125_1 = outs 18 main_v125_1 c := by
  show Function.update (Function.update (Function.update (V17 m outs c) main_v125_0 _) main_v125_1 _) main_v125_2 _ main_v125_1 = _
  rw [Function.update_of_ne (StableHlo.devRef_ne_of_ne (by decide)), Function.update_self]
theorem V18_sumsq_L2 (c : Dev nD) : V18 m outs c main_v125_2 = outs 18 main_v125_2 c := Function.update_self ..

theorem bn_hpre_L2 (c : Dev nD) : V19 m outs c main_v125_0 = outs 18 main_v125_0 c :=
  (V19_of m outs c main_v125_0 (by decide)).trans (V18_hpre_L2 m outs c)

theorem bn_mu_L2 (c : Dev nD) (u : Fin 1) (j : Fin 64) :
    (V19 m outs c main_v127 : S1x64.Idx → EReal) (ix2 u j)
      = Ideal.div ((outs 18 main_v125_1 c : S1x64.Idx → EReal) (ix2 u j)) (Ideal.ofBits .f32 0x47C35000#32) := by
  show StableHlo.after hostOps9 _ (Proc.devRef .tc main_v127) (ix2 u j) = _
  after_results
  rw [V18_sum_L2]
  rfl

theorem bn_invstd_L2 (c : Dev nD) (u : Fin 1) (j : Fin 64) :
    (V19 m outs c main_v134 : S1x64.Idx → EReal) (ix2 u j)
      = Ideal.rsqrt ((Ideal.div ((outs 18 main_v125_2 c : S1x64.Idx → EReal) (ix2 u j)) (Ideal.ofBits .f32 0x47C35000#32)
            - Ideal.div ((outs 18 main_v125_1 c : S1x64.Idx → EReal) (ix2 u j)) (Ideal.ofBits .f32 0x47C35000#32)
              * Ideal.div ((outs 18 main_v125_1 c : S1x64.Idx → EReal) (ix2 u j)) (Ideal.ofBits .f32 0x47C35000#32))
          + Ideal.ofBits .f32 0x3727C5AC#32) := by
  show StableHlo.after hostOps9 _ (Proc.devRef .tc main_v134) (ix2 u j) = _
  after_results
  rw [V18_sum_L2, V18_sumsq_L2]
  rfl

theorem bn_gamma_L2 (c : Dev nD) (u : Fin 1) (j : Fin 64) :
    (V19 m outs c main_v137 : S1x64.Idx → EReal) (ix2 u j) = (m (c, main_arg6) : S4x64.Idx → EReal) (ix2 (2 : Fin 4) j) := by
  show StableHlo.after hostOps9 _ (Proc.devRef .tc main_v137) (ix2 u j) = _
  after_results
  show shapeCast S1x64 (shapeCast S64 (extractStridedSlice S1x64 _ (V18 m outs c main_arg6 : S4x64.Idx → EReal) _) _) _ (ix2 u j) = _
  rw [(V18_keep_L2 m outs c main_arg6 (by decide) (by decide) (by decide) (by decide)).trans (V14_arg6 m outs c)]
  exact (shapeCast_a_1a_apply _ _ u j).trans ((shapeCast_1a_a_apply _ _ j).trans
    (slice2_axis0_apply _ _ _ (0 : Fin 1) j (2 : Fin 4) rfl))

theorem bn_beta_L2 (c : Dev nD) (u : Fin 1) (j : Fin 64) :
    (V19 m outs c main_v140 : S1x64.Idx → EReal) (ix2 u j) = (m (c, main_arg7) : S4x64.Idx → EReal) (ix2 (2 : Fin 4) j) := by
  show StableHlo.after hostOps9 _ (Proc.devRef .tc main_v140) (ix2 u j) = _
  after_results
  show shapeCast S1x64 (shapeCast S64 (extractStridedSlice S1x64 _ (V18 m outs c main_arg7 : S4x64.Idx → EReal) _) _) _ (ix2 u j) = _
  rw [(V18_keep_L2 m outs c main_arg7 (by decide) (by decide) (by decide) (by decide)).trans (V14_arg7 m outs c)]
  exact (shapeCast_a_1a_apply _ _ u j).trans ((shapeCast_1a_a_apply _ _ j).trans
    (slice2_axis0_apply _ _ _ (0 : Fin 1) j (2 : Fin 4) rfl))

/-! ## What the layer leaves for the next -/

theorem V20_x (c : Dev nD) : V20 m outs c main_v141 = outs 20 main_v141 c := Function.update_self ..
theorem V20_src (c : Dev nD) : V20 m outs c main_v1 = srcOf (m (c, main_arg1)) :=
  (V20_keep_L2 m outs c main_v1 (by decide) (by decide) (by decide) (by decide) (by decide) (by decide)).trans (V14_src m outs c)
theorem V20_dst (c : Dev nD) : V20 m outs c main_v3 = dstOf (m (c, main_arg1)) :=
  (V20_keep_L2 m outs c main_v3 (by decide) (by decide) (by decide) (by decide) (by decide) (by decide)).trans (V14_dst m outs c)
theorem V20_normE (c : Dev nD) : V20 m outs c main_v26 = normEOf (m (c, main_arg1)) :=
  (V20_keep_L2 m outs c main_v26 (by decide) (by decide) (by decide) (by decide) (by decide) (by decide)).trans (V14_normE m outs c)
theorem V20_selfn (c : Dev nD) : V20 m outs c main_v28 = selfnOf (m (c, main_arg1)) :=
  (V20_keep_L2 m outs c main_v28 (by decide) (by decide) (by decide) (by decide) (by decide) (by decide)).trans (V14_selfn m outs c)
theorem V20_arg4 (c : Dev nD) : V20 m outs c main_arg4 = m (c, main_arg4) :=
  (V20_keep_L2 m outs c main_arg4 (by decide) (by decide) (by decide) (by decide) (by decide) (by decide)).trans (V14_arg4 m outs c)
theorem V20_arg5 (c : Dev nD) : V20 m outs c main_arg5 = m (c, main_arg5) :=
  (V20_keep_L2 m outs c main_arg5 (by decide) (by decide) (by decide) (by decide) (by decide) (by decide)).trans (V14_arg5 m outs c)
theorem V20_arg6 (c : Dev nD) : V20 m outs c main_arg6 = m (c, main_arg6) :=
  (V20_keep_L2 m outs c main_arg6 (by decide) (by decide) (by decide) (by decide) (by decide) (by decide)).trans (V14_arg6 m outs c)
theorem V20_arg7 (c : Dev nD) : V20 m outs c main_arg7 = m (c, main_arg7) :=
  (V20_keep_L2 m outs c main_arg7 (by decide) (by decide) (by decide) (by decide) (by decide) (by decide)).trans (V14_arg7 m outs c)
theorem V20_arg8 (c : Dev nD) : V20 m outs c main_arg8 = m (c, main_arg8) :=
  (V20_keep_L2 m outs c main_arg8 (by decide) (by decide) (by decide) (by decide) (by decide) (by decide)).trans (V14_arg8 m outs c)
theorem V20_arg9 (c : Dev nD) : V20 m outs c main_arg9 = m (c, main_arg9) :=
  (V20_keep_L2 m outs c main_arg9 (by decide) (by decide) (by decide) (by decide) (by decide) (by decide)).trans (V14_arg9 m outs c)

end Cert.KernelIdeal.Reg
-- ==== Proof.KI.Val7.lean ====
import proofs.«147038_j12317966205319_1_alg».proof.Proof.KI.Fr7
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the buffer contents when the region is entered, over the extended reals
variable (V : (c : Dev nD) → (b : Ref sig .tc) → Buf (Elt Ideal) ((c : Thread nD τ).loc b))

/-! # The value of a product of rows with a weight matrix, plus a bias row, over the extended reals

Row `r` of the output depends on row `r` of the left operand alone, on the whole weight matrix and on the whole bias
row: entry `(r, j)` is the sum over `k` of `x (r, k) * w (k, j)`, plus `b (0, j)`. Over the extended reals the
two narrowings to sixteen bits are the identity and the accumulator starts at zero, so nothing else is left. -/

/-! ## The entry arrays, at their literal types -/

/-- The left operand: a hundred thousand rows. -/
abbrev val7_0 (c : Dev nD) : S100000x64.Idx → EReal := V c (Pipeline.arrRef spec7 0)
/-- The weight matrix. -/
abbrev val7_1 (c : Dev nD) : S64x64.Idx → EReal := V c (Pipeline.arrRef spec7 1)
/-- The bias row. -/
abbrev val7_2 (c : Dev nD) : S1x64.Idx → EReal := V c (Pipeline.arrRef spec7 2)

/-- The output as one function of the three entry arrays, index by index. -/
abbrev val7_3 (c : Dev nD) : S100000x64.Idx → EReal := fun i =>
  (∑ k : Fin 64, val7_0 V c (ix2 (i 0) k) * val7_1 V c (ix2 k (i 1))) + val7_2 V c (ix2 (0 : Fin 1) (i 1))

/-! ## The contraction read at an index

The product contracts the left operand's columns with the weight matrix's rows. At output index `(p, q)` and
contraction coordinate `k` the left factor sits at `(p, k)` and the right factor at `(k, q)`. -/

theorem idx7_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem idx7_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem idx7_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem idx7_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product accumulated from zero, read at `(p, q)`: the sum over the contraction coordinate. -/
theorem val7_dot (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun ax => Fin.ext (by
    match ax with
    | ⟨0, _⟩ => exact idx7_lhs_0 _ _
    | ⟨1, _⟩ => exact (idx7_lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun ax => Fin.ext (by
    match ax with
    | ⟨0, _⟩ => exact (idx7_rhs_0 _ _).trans hk
    | ⟨1, _⟩ => exact idx7_rhs_1 _ _)
  rw [el, er]

/-! ## The body's payload at an index -/

/-- What the body stores at `(p, q)` of the tile, from the three blocks it loaded: the contraction of row `p` of
    the row tile with column `q` of the weight matrix, plus the bias at `q`. -/
theorem val7_pay (x0 : Vec Ideal S10000x64 .f32) (x1 : Vec Ideal S64x64 .f32) (x2 : Vec Ideal S1x64 .f32) (p : Fin 10000) (q : Fin 64) :
    k7_pay1 (F := Ideal) x0 x1 x2 (ix2 p q) = (∑ k : Fin 64, x0 (ix2 p k) * x1 (ix2 k q)) + x2 (ix2 (0 : Fin 1) q) := by
  unfold k7_pay1
  show matmul dot_S10000x64_S64x64_S10000x64_1_0_0_1_n_n none (truncf .bf16 (shapeCast S10000x64 x0 shapeCasts_S10000x64_S10000x64) bitsLt_bf16_f32) (truncf .bf16 (shapeCast S64x64 x1 shapeCasts_S64x64_S64x64) bitsLt_bf16_f32)
        (constant (F := Ideal) S10000x64 .f32 0x00000000#32) (ix2 p q)
      + broadcastTo S10000x64 (shapeCast S1x64 x2 shapeCasts_S1x64_S1x64) broadcasts_S1x64_S10000x64 (ix2 p q) = _
  have ha : ∀ i, (truncf .bf16 (shapeCast S10000x64 x0 shapeCasts_S10000x64_S10000x64) bitsLt_bf16_f32 : FVec Ideal S10000x64 .bf16) i = x0 i := fun i => congrFun (shapeCast_self x0 shapeCasts_S10000x64_S10000x64) i
  have hb : ∀ i, (truncf .bf16 (shapeCast S64x64 x1 shapeCasts_S64x64_S64x64) bitsLt_bf16_f32 : FVec Ideal S64x64 .bf16) i = x1 i := fun i => congrFun (shapeCast_self x1 shapeCasts_S64x64_S64x64) i
  refine congrArg₂ (· + ·) ((val7_dot _ _ p q).trans (Finset.sum_congr rfl fun k _ => congrArg₂ (· * ·) (ha _) (hb _))) ?_
  exact (broadcastTo_1b_ab_apply (shapeCast S1x64 x2 shapeCasts_S1x64_S1x64) broadcasts_S1x64_S10000x64 p q).trans
    (congrFun (shapeCast_self x2 shapeCasts_S1x64_S1x64) (ix2 (0 : Fin 1) q))

/-! ## Where each window's block sits in its array -/

theorem idx7_hz : (![0, 0] : Fin 2 → Nat) = fun _ => 0 := funext fun a => by fin_cases a <;> rfl

/-- The printed index maps, decided over the ten points: the row tile and the output tile are at block row `t`,
    block column 0; the weight matrix and the bias row are their arrays whole. -/
theorem idx7_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Entry `(p, k)` of the row tile at point `t` is entry `(t * 10000 + p, k)` of the left operand. -/
theorem val7_0_blk (c : Dev nD) (t : Fin cfg7.N) (p : Fin 10000) (k : Fin 64) (r : Fin 100000) (hr : r.val = t.val * 10000 + p.val) :
    (iblk7 V c 0 t : S10000x64.Idx → EReal) (ix2 p k) = val7_0 V c (ix2 r k) := by
  show V c (Pipeline.arrRef spec7 0) (((cfg7.win 0).blk t).view.emb (ix2 p k)) = V c (Pipeline.arrRef spec7 0) (ix2 r k)
  obtain ⟨ea, eb, -⟩ := idx7_facts t
  refine congrArg _ (funext fun ax => Fin.ext ?_)
  match ax with
  | ⟨0, _⟩ => show win7_0.index t (0 : Fin 2) * 10000 + 1 * p.val = r.val; omega
  | ⟨1, _⟩ => show win7_0.index t (1 : Fin 2) * 64 + 1 * k.val = k.val; omega

/-- The weight matrix's block is the matrix, at every point. -/
theorem val7_1_blk (c : Dev nD) (t : Fin cfg7.N) (k : Fin 64) (q : Fin 64) :
    (iblk7 V c 1 t : S64x64.Idx → EReal) (ix2 k q) = val7_1 V c (ix2 k q) := by
  show V c (Pipeline.arrRef spec7 1) (((cfg7.win 1).blk t).view.emb (ix2 k q)) = V c (Pipeline.arrRef spec7 1) (ix2 k q)
  obtain ⟨-, -, ec, ed, -⟩ := idx7_facts t
  refine congrArg _ (funext fun ax => Fin.ext ?_)
  match ax with
  | ⟨0, _⟩ => show win7_1.index t (0 : Fin 2) * 64 + 1 * k.val = k.val; omega
  | ⟨1, _⟩ => show win7_1.index t (1 : Fin 2) * 64 + 1 * q.val = q.val; omega

/-- The bias row's block is the row, at every point. -/
theorem val7_2_blk (c : Dev nD) (t : Fin cfg7.N) (q : Fin 64) :
    (iblk7 V c 2 t : S1x64.Idx → EReal) (ix2 (0 : Fin 1) q) = val7_2 V c (ix2 (0 : Fin 1) q) := by
  show V c (Pipeline.arrRef spec7 2) (((cfg7.win 2).blk t).view.emb (ix2 (0 : Fin 1) q)) = V c (Pipeline.arrRef spec7 2) (ix2 (0 : Fin 1) q)
  obtain ⟨-, -, -, -, ee, ef, -⟩ := idx7_facts t
  refine congrArg _ (funext fun ax => Fin.ext ?_)
  match ax with
  | ⟨0, _⟩ => show win7_2.index t (0 : Fin 2) * 1 + 1 * (0 : Fin 1).val = (0 : Fin 1).val; omega
  | ⟨1, _⟩ => show win7_2.index t (1 : Fin 2) * 64 + 1 * q.val = q.val; omega

/-! ## What a point writes back -/

/-- What point `t` writes back to the output is block `t` of the closed form: rows `t * 10000` to
    `t * 10000 + 9999`. -/
theorem flushed7_3 (c : Dev nD) (t : Fin cfg7.N) :
    (dat7 (F := Ideal) V c).flushed 3 t = ((cfg7.win 3).blk t).view.read (Elt Ideal) (val7_3 V c) := by
  show (cfg7.win 3).cut (grid7.coords t) ((dat7 (F := Ideal) V c).after 3 t) = _
  rw [after7_3]
  unfold out7_3
  rw [View.canon_unit_zero idx7_hz]
  simp only [View.ld_unit_zero (S := S10000x64) idx7_hz, View.ld_unit_zero (S := S64x64) idx7_hz, View.ld_unit_zero (S := S1x64) idx7_hz]
  obtain ⟨-, -, -, -, -, -, eg, eh⟩ := idx7_facts t
  have ht : t.val < 10 := lt_of_lt_of_eq t.isLt N_7
  funext j
  obtain ⟨p, q, rfl⟩ : ∃ (p : Fin 10000) (q : Fin 64), j = ix2 p q := ⟨j 0, j 1, eq_ix2 j⟩
  have hp : p.val < 10000 := p.isLt
  refine (val7_pay (iblk7 V c 0 t) (iblk7 V c 1 t) (iblk7 V c 2 t) p q).trans ?_
  have hE : ((cfg7.win 3).blk t).view.emb (ix2 p q) = (ix2 (⟨t.val * 10000 + p.val, by omega⟩ : Fin 100000) q : S100000x64.Idx) :=
    funext fun ax => Fin.ext (by
      match ax with
      | ⟨0, _⟩ => show win7_3.index t (0 : Fin 2) * 10000 + 1 * p.val = t.val * 10000 + p.val; omega
      | ⟨1, _⟩ => show win7_3.index t (1 : Fin 2) * 64 + 1 * q.val = q.val; omega)
  show _ = val7_3 V c (((cfg7.win 3).blk t).view.emb (ix2 p q))
  rw [hE]
  exact congrArg₂ (· + ·)
    (Finset.sum_congr rfl fun k _ => congrArg₂ (· * ·) (val7_0_blk V c t p k _ rfl) (val7_1_blk V c t k q))
    (val7_2_blk V c t q)

/-! ## The ten tiles cover the output -/

/-- An index of the output is in point `t`'s block iff each coordinate is in the block's range on its axis. -/
theorem idx7_mem_3 (t : Fin cfg7.N) (i : S100000x64.Idx) :
    i ∈ ((cfg7.win 3).blk t).view.set ↔ ∀ a : Fin 2, win7_3.index t a * S10000x64.size a ≤ (i a).val ∧ (i a).val < win7_3.index t a * S10000x64.size a + S10000x64.size a := by
  show i ∈ ((View.whole (Pipeline.arrRef spec7 3)).slice (win7_3.rect t)).set ↔ _
  rw [View.set_slice_whole, Rect.mem_set_unit]
  exact Iff.rfl

/-- Row `r` of the output is in the block of point `r / 10000`, which writes back. -/
theorem idx7_cover_3 (i : S100000x64.Idx) :
    ∃ t : Fin cfg7.N, (cfg7.win 3).flush t = true ∧ i ∈ ((cfg7.win 3).blk t).view.set := by
  have hia : (i 0).val < 100000 := (i 0).isLt
  have hib : (i 1).val < 64 := (i 1).isLt
  have ht : (i 0).val / 10000 < cfg7.N := by rw [show cfg7.N = 10 from N_7]; omega
  obtain ⟨-, -, -, -, -, -, eg, eh⟩ := idx7_facts ⟨(i 0).val / 10000, ht⟩
  have hv : (⟨(i 0).val / 10000, ht⟩ : Fin cfg7.N).val = (i 0).val / 10000 := rfl
  refine ⟨⟨(i 0).val / 10000, ht⟩, flush7_3 _, ?_⟩
  rw [idx7_mem_3]
  intro a
  match a with
  | ⟨0, _⟩ =>
    show win7_3.index ⟨(i 0).val / 10000, ht⟩ (0 : Fin 2) * 10000 ≤ (i 0).val ∧ (i 0).val < win7_3.index ⟨(i 0).val / 10000, ht⟩ (0 : Fin 2) * 10000 + 10000
    omega
  | ⟨1, _⟩ =>
    show win7_3.index ⟨(i 0).val / 10000, ht⟩ (1 : Fin 2) * 64 ≤ (i 1).val ∧ (i 1).val < win7_3.index ⟨(i 0).val / 10000, ht⟩ (1 : Fin 2) * 64 + 64
    omega

/-! ## The output array after the region -/

/-- After the ten points the output array is the closed form everywhere: entry `(r, j)` is the sum over `k` of
    `x (r, k) * w (k, j)`, plus `b (0, j)`, of the arrays as the region found them. -/
theorem arr7_3 (c : Dev nD) : (dat7 (F := Ideal) V c).arrAt 3 cfg7.N = fun i : S100000x64.Idx =>
    (∑ k : Fin 64, val7_0 V c (ix2 (i 0) k) * val7_1 V c (ix2 k (i 1))) + val7_2 V c (ix2 (0 : Fin 1) (i 1)) :=
  (dat7 (F := Ideal) V c).arrAt_eq_of_cover 3 (val7_3 V c) (fun t _ => flushed7_3 V c t) (idx7_cover_3)

end Cert.KernelIdeal.Reg

end
-- ==== Proof.KI.Val9.lean ====
import proofs.«147038_j12317966205319_1_alg».proof.Proof.KI.Fr9
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered, over the extended reals
variable (V : (c : Dev nD) → (b : Ref sig .tc) → Buf (Elt Ideal) ((c : Thread nD τ).loc b))

/-! # The normalize-and-clamp region over the extended reals: the output array, index by index -/

/-! ## The entry arrays, at their literal types: the rows (window 0) and the four single rows (windows 1 … 4) -/

abbrev val9_0 (c : Dev nD) : S100000x64.Idx → EReal := V c (Pipeline.arrRef spec9 0)
abbrev val9_1 (c : Dev nD) : S1x64.Idx → EReal := V c (Pipeline.arrRef spec9 1)
abbrev val9_2 (c : Dev nD) : S1x64.Idx → EReal := V c (Pipeline.arrRef spec9 2)
abbrev val9_3 (c : Dev nD) : S1x64.Idx → EReal := V c (Pipeline.arrRef spec9 3)
abbrev val9_4 (c : Dev nD) : S1x64.Idx → EReal := V c (Pipeline.arrRef spec9 4)

/-- The zero offsets of every access, however spelt. -/
theorem idx9_zero : (![0, 0] : Fin 2 → Nat) = fun _ => 0 := funext fun a => by fin_cases a <;> rfl

/-! ## The payload at an index: each single row is read at its column, whatever the row of the block -/

/-- At row `p`, column `q` of a block: the row of window 3 times (the entry less the row of window 1), times the row of
    window 2, plus the row of window 4, and the larger of that and zero. -/
theorem pay9_apply (xa : Vec Ideal S10000x64 .f32) (xd xb xc xe : Vec Ideal S1x64 .f32) (p : Fin 10000) (q : Fin 64) :
    k9_pay1 xa xd xb xc xe (ix2 p q)
      = max (xd (ix2 0 q) * (xa (ix2 p q) - xb (ix2 0 q)) * xc (ix2 0 q) + xe (ix2 0 q)) 0 := by
  unfold k9_pay1
  simp only [maximumf_apply, addf_apply, mulf_apply, subf_apply, broadcast_apply, shapeCast_self,
    broadcastTo_1b_ab_apply]
  exact congrArg (max _) Ideal.ofBits_zero_f32

/-! ## The windows' block indices, decided over the grid -/

/-- The rows window and the output window move together, one block of rows per point; the four single rows stay put. -/
theorem idx9_facts : ∀ t : Fin cfg9.N,
    win9_0.index t (0 : Fin 2) = win9_5.index t (0 : Fin 2) ∧ win9_0.index t (1 : Fin 2) = win9_5.index t (1 : Fin 2)
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) ≤ 9 ∧ win9_5.index t (1 : Fin 2) = 0 :=
  (by decide +kernel : ∀ t : Fin grid9.N, _)

/-- Every block of rows of the output is some point's. -/
theorem idx9_onto : ∀ b : Fin 10, ∃ t : Fin cfg9.N, win9_5.index t = ![b.val, 0] :=
  (by decide +kernel : ∀ b : Fin 10, ∃ t : Fin grid9.N, win9_5.index t = ![b.val, 0])

/-! ## The closed form, and what a point writes back -/

/-- The output array's closed form: at row `i 0`, column `i 1`, the entry of window 0 normalized by the single rows at
    that column, and the larger of that and zero. -/
abbrev val9_5 (c : Dev nD) : S100000x64.Idx → EReal := fun i =>
  max (val9_3 V c (ix2 0 (i 1)) * (val9_0 V c (ix2 (i 0) (i 1)) - val9_1 V c (ix2 0 (i 1))) * val9_2 V c (ix2 0 (i 1)) + val9_4 V c (ix2 0 (i 1))) 0

/-! ## A window's block at a point reads its entry array at the block's coordinates -/

theorem val9_blk_0 (c : Dev nD) (t : Fin cfg9.N) (y : S10000x64.Idx) :
    iblk9 V c 0 t y = val9_0 V c (((cfg9.win 0).blk t).view.emb y) := rfl
theorem val9_blk_1 (c : Dev nD) (t : Fin cfg9.N) (y : S1x64.Idx) :
    iblk9 V c 1 t y = val9_1 V c (((cfg9.win 1).blk t).view.emb y) := rfl
theorem val9_blk_2 (c : Dev nD) (t : Fin cfg9.N) (y : S1x64.Idx) :
    iblk9 V c 2 t y = val9_2 V c (((cfg9.win 2).blk t).view.emb y) := rfl
theorem val9_blk_3 (c : Dev nD) (t : Fin cfg9.N) (y : S1x64.Idx) :
    iblk9 V c 3 t y = val9_3 V c (((cfg9.win 3).blk t).view.emb y) := rfl
theorem val9_blk_4 (c : Dev nD) (t : Fin cfg9.N) (y : S1x64.Idx) :
    iblk9 V c 4 t y = val9_4 V c (((cfg9.win 4).blk t).view.emb y) := rfl
/-- and the closed form's block reads the closed form there. -/
theorem val9_blk_5 (c : Dev nD) (t : Fin cfg9.N) (j : S10000x64.Idx) :
    ((cfg9.win 5).blk t).view.read (Elt Ideal) (val9_5 V c) j = val9_5 V c (((cfg9.win 5).blk t).view.emb j) := rfl

/-- What point `t` writes back is block `t` of the closed form. -/
theorem flushed9_5 (c : Dev nD) (t : Fin cfg9.N) :
    (dat9 (F := Ideal) V c).flushed 5 t = ((cfg9.win 5).blk t).view.read (Elt Ideal) (val9_5 V c) := by
  show (cfg9.win 5).cut (grid9.coords t) ((dat9 (F := Ideal) V c).after 5 t) = _
  rw [after9_5]
  unfold out9_5
  rw [View.canon_unit_zero idx9_zero]
  simp only [View.ld_unit_zero (S := S10000x64) idx9_zero, View.ld_unit_zero (S := S1x64) idx9_zero]
  obtain ⟨ea0, ea1, eb0, eb1, ec0, ec1, ed0, ed1, ee0, ee1, ef0, ef1⟩ := idx9_facts t
  funext (j : S10000x64.Idx)
  have hj0 : (j 0).val < 10000 := (j 0).isLt
  have hj1 : (j 1).val < 64 := (j 1).isLt
  refine ((congrArg (k9_pay1 (iblk9 V c 0 t) (iblk9 V c 3 t) (iblk9 V c 1 t) (iblk9 V c 2 t) (iblk9 V c 4 t)) (eq_ix2 j)).trans
    (pay9_apply (iblk9 V c 0 t) (iblk9 V c 3 t) (iblk9 V c 1 t) (iblk9 V c 2 t) (iblk9 V c 4 t) (j 0) (j 1))).trans ?_
  have ha : ((cfg9.win 0).blk t).view.emb (ix2 (j 0) (j 1)) = ix2 ((((cfg9.win 5).blk t).view.emb j : S100000x64.Idx) 0) ((((cfg9.win 5).blk t).view.emb j : S100000x64.Idx) 1) := by
    funext a; apply Fin.ext
    match a with
    | ⟨0, _⟩ => show win9_0.index t (0 : Fin 2) * 10000 + 1 * (j 0).val = win9_5.index t (0 : Fin 2) * 10000 + 1 * (j 0).val; omega
    | ⟨1, _⟩ => show win9_0.index t (1 : Fin 2) * 64 + 1 * (j 1).val = win9_5.index t (1 : Fin 2) * 64 + 1 * (j 1).val; omega
  have hb : ((cfg9.win 1).blk t).view.emb (ix2 0 (j 1)) = ix2 0 ((((cfg9.win 5).blk t).view.emb j : S100000x64.Idx) 1) := by
    funext a; apply Fin.ext
    match a with
    | ⟨0, _⟩ => show win9_1.index t (0 : Fin 2) * 1 + 1 * 0 = 0; omega
    | ⟨1, _⟩ => show win9_1.index t (1 : Fin 2) * 64 + 1 * (j 1).val = win9_5.index t (1 : Fin 2) * 64 + 1 * (j 1).val; omega
  have hc : ((cfg9.win 2).blk t).view.emb (ix2 0 (j 1)) = ix2 0 ((((cfg9.win 5).blk t).view.emb j : S100000x64.Idx) 1) := by
    funext a; apply Fin.ext
    match a with
    | ⟨0, _⟩ => show win9_2.index t (0 : Fin 2) * 1 + 1 * 0 = 0; omega
    | ⟨1, _⟩ => show win9_2.index t (1 : Fin 2) * 64 + 1 * (j 1).val = win9_5.index t (1 : Fin 2) * 64 + 1 * (j 1).val; omega
  have hd : ((cfg9.win 3).blk t).view.emb (ix2 0 (j 1)) = ix2 0 ((((cfg9.win 5).blk t).view.emb j : S100000x64.Idx) 1) := by
    funext a; apply Fin.ext
    match a with
    | ⟨0, _⟩ => show win9_3.index t (0 : Fin 2) * 1 + 1 * 0 = 0; omega
    | ⟨1, _⟩ => show win9_3.index t (1 : Fin 2) * 64 + 1 * (j 1).val = win9_5.index t (1 : Fin 2) * 64 + 1 * (j 1).val; omega
  have he : ((cfg9.win 4).blk t).view.emb (ix2 0 (j 1)) = ix2 0 ((((cfg9.win 5).blk t).view.emb j : S100000x64.Idx) 1) := by
    funext a; apply Fin.ext
    match a with
    | ⟨0, _⟩ => show win9_4.index t (0 : Fin 2) * 1 + 1 * 0 = 0; omega
    | ⟨1, _⟩ => show win9_4.index t (1 : Fin 2) * 64 + 1 * (j 1).val = win9_5.index t (1 : Fin 2) * 64 + 1 * (j 1).val; omega
  exact (congrArg (fun z : EReal => max z 0)
    (congrArg₂ (fun x y : EReal => x + y)
      (congrArg₂ (fun x y : EReal => x * y)
        (congrArg₂ (fun x y : EReal => x * y) ((val9_blk_3 V c t (ix2 0 (j 1))).trans (congrArg (val9_3 V c) hd))
          (congrArg₂ (fun x y : EReal => x - y) ((val9_blk_0 V c t (ix2 (j 0) (j 1))).trans (congrArg (val9_0 V c) ha)) ((val9_blk_1 V c t (ix2 0 (j 1))).trans (congrArg (val9_1 V c) hb))))
        ((val9_blk_2 V c t (ix2 0 (j 1))).trans (congrArg (val9_2 V c) hc)))
      ((val9_blk_4 V c t (ix2 0 (j 1))).trans (congrArg (val9_4 V c) he)))).trans (val9_blk_5 V c t j).symm

/-! ## From the blocks to the array -/

/-- An index of the array is in point `t`'s block iff each coordinate is in the block's range on its axis. -/
theorem idx9_mem (t : Fin cfg9.N) (i : S100000x64.Idx) :
    i ∈ ((cfg9.win 5).blk t).view.set ↔ ∀ a : Fin 2, win9_5.index t a * S10000x64.size a ≤ (i a).val ∧ (i a).val < win9_5.index t a * S10000x64.size a + S10000x64.size a := by
  show i ∈ ((View.whole (Pipeline.arrRef spec9 5)).slice (win9_5.rect t)).set ↔ _
  rw [View.set_slice_whole, Rect.mem_set_unit]
  exact Iff.rfl

/-- Every index of the array is in the block of the point its row divided by 10000 names; every point writes back. -/
theorem idx9_cover (i : S100000x64.Idx) :
    ∃ t : Fin cfg9.N, (cfg9.win 5).flush t = true ∧ i ∈ ((cfg9.win 5).blk t).view.set := by
  have hi0 : (i 0).val < 100000 := (i 0).isLt
  have hi1 : (i 1).val < 64 := (i 1).isLt
  obtain ⟨t, ht⟩ := idx9_onto ⟨(i 0).val / 10000, by omega⟩
  have q0 : win9_5.index t (0 : Fin 2) = (i 0).val / 10000 := congrFun ht 0
  have q1 : win9_5.index t (1 : Fin 2) = 0 := congrFun ht 1
  refine ⟨t, flush9_5 t, ?_⟩
  rw [idx9_mem]
  intro a
  match a with
  | ⟨0, _⟩ => show win9_5.index t (0 : Fin 2) * 10000 ≤ (i 0).val ∧ (i 0).val < win9_5.index t (0 : Fin 2) * 10000 + 10000; omega
  | ⟨1, _⟩ => show win9_5.index t (1 : Fin 2) * 64 ≤ (i 1).val ∧ (i 1).val < win9_5.index t (1 : Fin 2) * 64 + 64; omega

/-- The output array after the region: at row `i 0`, column `i 1`, the row of window 3 times (the entry of window 0 less
    the row of window 1), times the row of window 2, plus the row of window 4, and the larger of that and zero. -/
theorem arr9_5 (c : Dev nD) : (dat9 (F := Ideal) V c).arrAt 5 cfg9.N = fun (i : S100000x64.Idx) =>
    max (val9_3 V c (ix2 0 (i 1)) * (val9_0 V c (ix2 (i 0) (i 1)) - val9_1 V c (ix2 0 (i 1))) * val9_2 V c (ix2 0 (i 1)) + val9_4 V c (ix2 0 (i 1))) 0 :=
  (dat9 (F := Ideal) V c).arrAt_eq_of_cover 5 (val9_5 V c) (fun t _ => flushed9_5 V c t) idx9_cover

/-- The same at row `r`, column `j`. -/
theorem arr9_5_apply (c : Dev nD) (r : Fin 100000) (j : Fin 64) :
    (dat9 (F := Ideal) V c).arrAt 5 cfg9.N (ix2 r j) = max (val9_3 V c (ix2 0 j) * (val9_0 V c (ix2 r j) - val9_1 V c (ix2 0 j)) * val9_2 V c (ix2 0 j) + val9_4 V c (ix2 0 j)) 0 :=
  congrFun (arr9_5 V c) (ix2 r j)

end Cert.KernelIdeal.Reg

end
-- ==== Proof.Bridge.L2Core.lean ====
import proofs.«147038_j12317966205319_1_alg».proof.Proof.KI.Val7
import proofs.«147038_j12317966205319_1_alg».proof.Proof.KI.Val9
import proofs.«147038_j12317966205319_1_alg».proof.Proof.Ref.StageFns
import proofs.«147038_j12317966205319_1_alg».proof.Proof.Alg.Real
import proofs.«147038_j12317966205319_1_alg».proof.Proof.Alg.Var
import proofs.«147038_j12317966205319_1_alg».proof.Proof.Bridge.StageFacts

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat WSq Row xwF meanF varF colSumF normF reluF)
open scoped BigOperators

/-! # One layer's two pointwise-in-rows regions against the layer's stage functions

The product region leaves, at `(r, j)`, the sum over `k` of `h (r, k) * w (k, j)` plus a bias row that is zero: the
product `h · W`. The normalising region leaves `max (γ · (hpre − μ) · s + β) 0` with `μ` the column sum over the row
count and `s` the reciprocal square root of the moment form of the variance plus the offset; on real data the moment
form is the centred form, so this is the maximum with zero of the normalised array. -/

variable (V : (c : Dev nD) → (b : Ref sig .tc) → Buf (Elt Ideal) ((c : Thread nD τ).loc b))

/-- The product region's output from what its operand arrays hold: the bias row is zero, so the product alone. -/
theorem xw_core_L2 (c : Dev nD) (h : Feat) (w : WSq)
    (hx : (val7_0 V c : S100000x64.Idx → EReal) = h)
    (hw : ∀ (k j : Fin 64), val7_1 V c (ix2 k j) = w (ix2 k j))
    (hb : ∀ (u : Fin 1) (j : Fin 64), val7_2 V c (ix2 u j) = 0) :
    (dat7 (F := Ideal) V c).arrAt 3 cfg7.N = xwF h w := by
  rw [arr7_3]
  funext i
  show (∑ k : Fin 64, val7_0 V c (ix2 (i 0) k) * val7_1 V c (ix2 k (i 1))) + val7_2 V c (ix2 (0 : Fin 1) (i 1))
    = ∑ k : Fin 64, h (ix2 (i 0) k) * w (ix2 k (i 1))
  exact (congrArg₂ (· + ·)
    (Finset.sum_congr rfl fun k _ => congrArg₂ (· * ·) (congrFun hx _) (hw k (i 1)))
    (hb 0 (i 1))).trans (add_zero _)

/-- The normalising region's output from what its operand arrays hold: `S1` and `S2` are the column sums and the
    column sums of squares of `hp`; the mean row is `S1 / N`, the scale row the reciprocal square root of
    `S2 / N − (S1 / N)² + offset`. With `hp` real-valued that is the normalised array, cut off below at zero. -/
theorem bn_core_L2 (c : Dev nD) (hp : Feat) (g bt : Row) (S1 S2 : S1x64.Idx → EReal)
    (hh : (val9_0 V c : S100000x64.Idx → EReal) = hp)
    (hmu : ∀ (u : Fin 1) (j : Fin 64), val9_1 V c (ix2 u j) = Ideal.div (S1 (ix2 u j)) (Ideal.ofBits .f32 0x47C35000#32))
    (hsd : ∀ (u : Fin 1) (j : Fin 64), val9_2 V c (ix2 u j)
      = Ideal.rsqrt ((Ideal.div (S2 (ix2 u j)) (Ideal.ofBits .f32 0x47C35000#32) - Ideal.div (S1 (ix2 u j)) (Ideal.ofBits .f32 0x47C35000#32) * Ideal.div (S1 (ix2 u j)) (Ideal.ofBits .f32 0x47C35000#32)) + (Ideal.ofBits .f32 0x3727C5AC#32)))
    (hg : ∀ (u : Fin 1) (j : Fin 64), val9_3 V c (ix2 u j) = g (ix1 j))
    (hbt : ∀ (u : Fin 1) (j : Fin 64), val9_4 V c (ix2 u j) = bt (ix1 j))
    (hS1 : ∀ j : Fin 64, S1 (ix2 (0 : Fin 1) j) = ∑ r : Fin 100000, hp (ix2 r j))
    (hS2 : ∀ j : Fin 64, S2 (ix2 (0 : Fin 1) j) = ∑ r : Fin 100000, hp (ix2 r j) * hp (ix2 r j))
    (hreal : ∀ i, ∃ x : ℝ, hp i = x) :
    (dat9 (F := Ideal) V c).arrAt 5 cfg9.N = reluF (normF hp g bt) := by
  funext i
  obtain ⟨r, j, rfl⟩ : ∃ (r : Fin 100000) (j : Fin 64), i = ix2 r j := ⟨i 0, i 1, eq_ix2 i⟩
  refine (arr9_5_apply V c r j).trans ?_
  show _ = max (g (ix1 j) * (hp (ix2 r j) - meanF hp (ix1 j)) * Ideal.rsqrt (varF hp (ix1 j) + (Ideal.ofBits .f32 0x3727C5AC#32)) + bt (ix1 j)) 0
  rw [varF_moment hp hreal j, meanF_at hp j, hg 0 j, hbt 0 j, hmu 0 j, hsd 0 j, hS1 j, hS2 j, congrFun hh (ix2 r j)]

end Cert.Bridge

end
-- ==== Proof.KI.Val8.lean ====
import proofs.«147038_j12317966205319_1_alg».proof.Proof.KI.Fr8
import proofs.«147038_j12317966205319_1_alg».proof.Proof.LibStats
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## Each case's pieces, read back: the payloads at the input blocks (any F) -/

section Pieces

variable {F : FTy → Type} [FloatOps F] [Named F]

variable (c : Dev nD) (i : grid8.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

/-- Every access of the body is at offset zero of a whole block. -/
theorem idx8_zero : (![0, 0] : Fin 2 → Nat) = fun _ => 0 := funext fun a => by fin_cases a <;> rfl

/-- First point, window 4: the one covering store's payload, its loads reading the whole input blocks. -/
theorem out8_A_4 (hc : k8_cond i) (x0 : Vec F S10000x64 .f32) (x1 : Vec F S10000x64 .f32) (x2 : Vec F S10000x1 .f32) (x3 : Vec F S1x64 .f32) :
    (out8_A c i arg1 harg1 arg2 harg2 arg3 harg3 arg4 harg4 arg5 harg5 arg6 harg6 arg7 harg7 hc x0 x1 x2 x3).1 = k8_pay3 x0 x1 x2 x3 := by
  unfold out8_A
  dsimp only
  rw [View.read_writes_eq_canon _ _ _ (cover8_4_A c i arg1 harg1 arg2 harg2 arg3 harg3 arg4 harg4 arg5 harg5 arg6 harg6 arg7 harg7 hc x0 x1 x2 x3)]
  unfold sound_kernel8_A
  dsimp only
  sl_unfold_words
  rw [View.canon_unit_zero (S := S10000x64) idx8_zero]
  simp only [View.readAt_eq_ld, harg1.read_unread, harg2.read_unread, harg3.read_unread, harg4.read_unread,
    View.ld_unit_zero (S := S10000x64) idx8_zero, View.ld_unit_zero (S := S10000x1) idx8_zero, View.ld_unit_zero (S := S1x64) idx8_zero]

/-- First point, window 5: the zero row is stored, read back, and the tile's column sums added to it. -/
theorem out8_A_5 (hc : k8_cond i) (x0 : Vec F S10000x64 .f32) (x1 : Vec F S10000x64 .f32) (x2 : Vec F S10000x1 .f32) (x3 : Vec F S1x64 .f32) :
    (out8_A c i arg1 harg1 arg2 harg2 arg3 harg3 arg4 harg4 arg5 harg5 arg6 harg6 arg7 harg7 hc x0 x1 x2 x3).2.1 = k8_pay4 x0 x1 x2 x3 (k8_pay1 (F := F)) := by
  unfold out8_A
  dsimp only
  rw [View.read_writes_eq_canon _ _ _ (cover8_5_A c i arg1 harg1 arg2 harg2 arg3 harg3 arg4 harg4 arg5 harg5 arg6 harg6 arg7 harg7 hc x0 x1 x2 x3)]
  unfold sound_kernel8_A
  dsimp only
  sl_unfold_words
  rw [View.canon_cons_unit_zero (S := S1x64) idx8_zero, View.readCov_unit_zero (S := S1x64) _ idx8_zero]
  simp only [View.readAt_eq_ld, harg1.read_unread, harg2.read_unread, harg3.read_unread, harg4.read_unread,
    View.ld_unit_zero (S := S10000x64) idx8_zero, View.ld_unit_zero (S := S10000x1) idx8_zero, View.ld_unit_zero (S := S1x64) idx8_zero]

/-- First point, window 6: the same with the column sums of squares. -/
theorem out8_A_6 (hc : k8_cond i) (x0 : Vec F S10000x64 .f32) (x1 : Vec F S10000x64 .f32) (x2 : Vec F S10000x1 .f32) (x3 : Vec F S1x64 .f32) :
    (out8_A c i arg1 harg1 arg2 harg2 arg3 harg3 arg4 harg4 arg5 harg5 arg6 harg6 arg7 harg7 hc x0 x1 x2 x3).2.2 = k8_pay5 x0 x1 x2 x3 (k8_pay2 (F := F)) := by
  unfold out8_A
  dsimp only
  rw [View.read_writes_eq_canon _ _ _ (cover8_6_A c i arg1 harg1 arg2 harg2 arg3 harg3 arg4 harg4 arg5 harg5 arg6 harg6 arg7 harg7 hc x0 x1 x2 x3)]
  unfold sound_kernel8_A
  dsimp only
  sl_unfold_words
  rw [View.canon_cons_unit_zero (S := S1x64) idx8_zero, View.readCov_unit_zero (S := S1x64) _ idx8_zero]
  simp only [View.readAt_eq_ld, harg1.read_unread, harg2.read_unread, harg3.read_unread, harg4.read_unread,
    View.ld_unit_zero (S := S10000x64) idx8_zero, View.ld_unit_zero (S := S10000x1) idx8_zero, View.ld_unit_zero (S := S1x64) idx8_zero]

/-- Later points, window 4. -/
theorem out8_B_4 (hc : ¬k8_cond i) (x0 : Vec F S10000x64 .f32) (x1 : Vec F S10000x64 .f32) (x2 : Vec F S10000x1 .f32) (x3 : Vec F S1x64 .f32) (xo5 : Vec F S1x64 .f32) (xo6 : Vec F S1x64 .f32) :
    (out8_B c i arg1 harg1 arg2 harg2 arg3 harg3 arg4 harg4 arg5 harg5 arg6 harg6 arg7 harg7 hc x0 x1 x2 x3 xo5 xo6).1 = k8_pay3 x0 x1 x2 x3 := by
  unfold out8_B
  dsimp only
  rw [View.read_writes_eq_canon _ _ _ (cover8_4_B c i arg1 harg1 arg2 harg2 arg3 harg3 arg4 harg4 arg5 harg5 arg6 harg6 arg7 harg7 hc x0 x1 x2 x3 xo5 xo6)]
  unfold sound_kernel8_B
  dsimp only
  sl_unfold_words
  rw [View.canon_unit_zero (S := S10000x64) idx8_zero]
  simp only [View.readAt_eq_ld, harg1.read_unread, harg2.read_unread, harg3.read_unread, harg4.read_unread, harg6.read_unread, harg7.read_unread,
    View.ld_unit_zero (S := S10000x64) idx8_zero, View.ld_unit_zero (S := S10000x1) idx8_zero, View.ld_unit_zero (S := S1x64) idx8_zero]

/-- Later points, window 5: the running row plus the tile's column sums. -/
theorem out8_B_5 (hc : ¬k8_cond i) (x0 : Vec F S10000x64 .f32) (x1 : Vec F S10000x64 .f32) (x2 : Vec F S10000x1 .f32) (x3 : Vec F S1x64 .f32) (xo5 : Vec F S1x64 .f32) (xo6 : Vec F S1x64 .f32) :
    (out8_B c i arg1 harg1 arg2 harg2 arg3 harg3 arg4 harg4 arg5 harg5 arg6 harg6 arg7 harg7 hc x0 x1 x2 x3 xo5 xo6).2.1 = k8_pay4 x0 x1 x2 x3 xo5 := by
  unfold out8_B
  dsimp only
  rw [View.read_writes_eq_canon _ _ _ (cover8_5_B c i arg1 harg1 arg2 harg2 arg3 harg3 arg4 harg4 arg5 harg5 arg6 harg6 arg7 harg7 hc x0 x1 x2 x3 xo5 xo6)]
  unfold sound_kernel8_B
  dsimp only
  sl_unfold_words
  rw [View.canon_unit_zero (S := S1x64) idx8_zero]
  simp only [View.readAt_eq_ld, harg1.read_unread, harg2.read_unread, harg3.read_unread, harg4.read_unread, harg6.read_unread, harg7.read_unread,
    View.ld_unit_zero (S := S10000x64) idx8_zero, View.ld_unit_zero (S := S10000x1) idx8_zero, View.ld_unit_zero (S := S1x64) idx8_zero]

/-- Later points, window 6. -/
theorem out8_B_6 (hc : ¬k8_cond i) (x0 : Vec F S10000x64 .f32) (x1 : Vec F S10000x64 .f32) (x2 : Vec F S10000x1 .f32) (x3 : Vec F S1x64 .f32) (xo5 : Vec F S1x64 .f32) (xo6 : Vec F S1x64 .f32) :
    (out8_B c i arg1 harg1 arg2 harg2 arg3 harg3 arg4 harg4 arg5 harg5 arg6 harg6 arg7 harg7 hc x0 x1 x2 x3 xo5 xo6).2.2 = k8_pay5 x0 x1 x2 x3 xo6 := by
  unfold out8_B
  dsimp only
  rw [View.read_writes_eq_canon _ _ _ (cover8_6_B c i arg1 harg1 arg2 harg2 arg3 harg3 arg4 harg4 arg5 harg5 arg6 harg6 arg7 harg7 hc x0 x1 x2 x3 xo5 xo6)]
  unfold sound_kernel8_B
  dsimp only
  sl_unfold_words
  rw [View.canon_unit_zero (S := S1x64) idx8_zero]
  simp only [View.readAt_eq_ld, harg1.read_unread, harg2.read_unread, harg3.read_unread, harg4.read_unread, harg6.read_unread, harg7.read_unread,
    View.ld_unit_zero (S := S10000x64) idx8_zero, View.ld_unit_zero (S := S10000x1) idx8_zero, View.ld_unit_zero (S := S1x64) idx8_zero]

end Pieces

/-! ## The payloads at the extended reals, entry by entry -/

section Payloads

/-- An entry of the tile's hpre block: agg + xw * selfn (selfn's one column spread along the row) + convb (its one row
    spread down the rows). -/
theorem k8_pay3_apply (x0 : Vec Ideal S10000x64 .f32) (x1 : Vec Ideal S10000x64 .f32) (x2 : Vec Ideal S10000x1 .f32) (x3 : Vec Ideal S1x64 .f32)
    (a : Fin 10000) (j : Fin 64) :
    k8_pay3 x0 x1 x2 x3 (ix2 a j) = x0 (ix2 a j) + x1 (ix2 a j) * x2 (ix2 a 0) + x3 (ix2 0 j) := by
  simp only [k8_pay3, addf_apply, mulf_apply, shapeCast_self]
  rw [broadcastTo_apply x2 broadcasts_S10000x1_S10000x64 (ix2 a j) (ix2 a 0) (by intro b; fin_cases b <;> rfl),
    broadcastTo_apply x3 broadcasts_S1x64_S10000x64 (ix2 a j) (ix2 0 j) (by intro b; fin_cases b <;> rfl)]

/-- The zero row the first point stores. -/
theorem k8_pay1_apply (i : S1x64.Idx) : k8_pay1 (F := Ideal) i = 0 := Cert.LibStats.ofBits_zero
theorem k8_pay2_apply (i : S1x64.Idx) : k8_pay2 (F := Ideal) i = 0 := Cert.LibStats.ofBits_zero

/-- The running row of sums after a point: what it held plus the tile's column sum. -/
theorem k8_pay4_apply (x0 : Vec Ideal S10000x64 .f32) (x1 : Vec Ideal S10000x64 .f32) (x2 : Vec Ideal S10000x1 .f32) (x3 : Vec Ideal S1x64 .f32)
    (xo : Vec Ideal S1x64 .f32) (j : Fin 64) :
    k8_pay4 x0 x1 x2 x3 xo (ix2 0 j) = xo (ix2 0 j) + ∑ a : Fin 10000, k8_pay3 x0 x1 x2 x3 (ix2 a j) := by
  simp only [k8_pay4, addf_apply, shapeCast_self]
  refine congrArg (xo (ix2 0 j) + ·) ?_
  refine (shapeCast_addUnit_apply ![64] _ shapeCasts_S64_S1x64 (ix2 0 j)).trans ?_
  refine (Ideal.multiReduction_add_single (k8_pay3 x0 x1 x2 x3) _ reduces_S10000x64_S64 _ _ _).trans ?_
  exact Finset.sum_congr rfl fun a _ => congrArg (k8_pay3 x0 x1 x2 x3) (Shape.idx_ext₂ rfl rfl)

/-- The running row of sums of squares. -/
theorem k8_pay5_apply (x0 : Vec Ideal S10000x64 .f32) (x1 : Vec Ideal S10000x64 .f32) (x2 : Vec Ideal S10000x1 .f32) (x3 : Vec Ideal S1x64 .f32)
    (xo : Vec Ideal S1x64 .f32) (j : Fin 64) :
    k8_pay5 x0 x1 x2 x3 xo (ix2 0 j)
      = xo (ix2 0 j) + ∑ a : Fin 10000, k8_pay3 x0 x1 x2 x3 (ix2 a j) * k8_pay3 x0 x1 x2 x3 (ix2 a j) := by
  simp only [k8_pay5, addf_apply, shapeCast_self]
  refine congrArg (xo (ix2 0 j) + ·) ?_
  refine (shapeCast_addUnit_apply ![64] _ shapeCasts_S64_S1x64 (ix2 0 j)).trans ?_
  refine (Ideal.multiReduction_add_single (mulf (k8_pay3 x0 x1 x2 x3) (k8_pay3 x0 x1 x2 x3)) _ reduces_S10000x64_S64 _ _ _).trans ?_
  exact Finset.sum_congr rfl fun a _ => congrArg (mulf (k8_pay3 x0 x1 x2 x3) (k8_pay3 x0 x1 x2 x3)) (Shape.idx_ext₂ rfl rfl)

end Payloads

/-! ## The three output arrays after the run -/

section Value

variable (V : (c : Dev nD) → (b : Ref sig .tc) → Buf (Elt Ideal) ((c : Thread nD τ).loc b))

/-- The four input arrays as the region finds them: agg, xw, the one-column selfn, the one-row convb. -/
abbrev val8_0 (c : Dev nD) : S100000x64.Idx → EReal := V c (Pipeline.arrRef spec8 0)
abbrev val8_1 (c : Dev nD) : S100000x64.Idx → EReal := V c (Pipeline.arrRef spec8 1)
abbrev val8_2 (c : Dev nD) : S100000x1.Idx → EReal := V c (Pipeline.arrRef spec8 2)
abbrev val8_3 (c : Dev nD) : S1x64.Idx → EReal := V c (Pipeline.arrRef spec8 3)

/-- hpre at row r, column j: agg + xw * selfn + convb. -/
abbrev val8_hpre (c : Dev nD) (r : Fin 100000) (j : Fin 64) : EReal :=
  val8_0 V c (ix2 r j) + val8_1 V c (ix2 r j) * val8_2 V c (ix2 r 0) + val8_3 V c (ix2 0 j)

/-- The three results as whole-array functions: hpre, its column sums, the column sums of its square. -/
abbrev val8_4 (c : Dev nD) : S100000x64.Idx → EReal := fun i => val8_hpre V c (i 0) (i 1)
abbrev val8_5 (c : Dev nD) : S1x64.Idx → EReal := fun i => ∑ r : Fin 100000, val8_hpre V c r (i 1)
abbrev val8_6 (c : Dev nD) : S1x64.Idx → EReal := fun i => ∑ r : Fin 100000, val8_hpre V c r (i 1) * val8_hpre V c r (i 1)

/-- The input blocks at point t. -/
abbrev iblk8_0 (c : Dev nD) (t : Fin cfg8.N) : Vec Ideal S10000x64 .f32 := iblk8 V c 0 t
abbrev iblk8_1 (c : Dev nD) (t : Fin cfg8.N) : Vec Ideal S10000x64 .f32 := iblk8 V c 1 t
abbrev iblk8_2 (c : Dev nD) (t : Fin cfg8.N) : Vec Ideal S10000x1 .f32 := iblk8 V c 2 t
abbrev iblk8_3 (c : Dev nD) (t : Fin cfg8.N) : Vec Ideal S1x64 .f32 := iblk8 V c 3 t

/-- Each window's block index at each point: the row-tiled windows are at tile t, the one-row windows at block 0. -/
theorem idx8_facts : ∀ t : Fin cfg8.N,
    (win8_0.index t 0 = t.val ∧ win8_0.index t 1 = 0) ∧ (win8_1.index t 0 = t.val ∧ win8_1.index t 1 = 0)
    ∧ (win8_2.index t 0 = t.val ∧ win8_2.index t 1 = 0) ∧ (win8_3.index t 0 = 0 ∧ win8_3.index t 1 = 0)
    ∧ (win8_4.index t 0 = t.val ∧ win8_4.index t 1 = 0) ∧ (win8_5.index t 0 = 0 ∧ win8_5.index t 1 = 0)
    ∧ (win8_6.index t 0 = 0 ∧ win8_6.index t 1 = 0) :=
  (by decide +kernel : ∀ t : Fin grid8.N,
    (win8_0.index t 0 = t.val ∧ win8_0.index t 1 = 0) ∧ (win8_1.index t 0 = t.val ∧ win8_1.index t 1 = 0)
    ∧ (win8_2.index t 0 = t.val ∧ win8_2.index t 1 = 0) ∧ (win8_3.index t 0 = 0 ∧ win8_3.index t 1 = 0)
    ∧ (win8_4.index t 0 = t.val ∧ win8_4.index t 1 = 0) ∧ (win8_5.index t 0 = 0 ∧ win8_5.index t 1 = 0)
    ∧ (win8_6.index t 0 = 0 ∧ win8_6.index t 1 = 0))

/-- Row a of tile t is row 10000 t + a of the array. -/
def idx8_row (t : Fin cfg8.N) (a : Fin 10000) : Fin 100000 :=
  ⟨10000 * t.val + a.val, by have := t.isLt; have hN : cfg8.N = 10 := N_8; have := a.isLt; omega⟩

/-- The input blocks read entry by entry off their arrays. -/
theorem iblk8_0_apply (c : Dev nD) (t : Fin cfg8.N) (a : Fin 10000) (j : Fin 64) :
    iblk8_0 V c t (ix2 a j) = val8_0 V c (ix2 (idx8_row t a) j) := by
  obtain ⟨⟨h0, h1⟩, -⟩ := idx8_facts t
  show ((cfg8.win 0).blk t).view.read (Elt Ideal) (V c (Pipeline.arrRef spec8 0)) (ix2 a j) = V c (Pipeline.arrRef spec8 0) (ix2 (idx8_row t a) j)
  rw [View.read_apply]
  show V c (Pipeline.arrRef spec8 0) _ = V c (Pipeline.arrRef spec8 0) _
  congr 1
  funext b
  apply Fin.ext
  match b with
  | ⟨0, _⟩ => show win8_0.index t 0 * 10000 + 1 * a.val = 10000 * t.val + a.val; rw [h0]; omega
  | ⟨1, _⟩ => show win8_0.index t 1 * 64 + 1 * j.val = j.val; rw [h1]; omega
theorem iblk8_1_apply (c : Dev nD) (t : Fin cfg8.N) (a : Fin 10000) (j : Fin 64) :
    iblk8_1 V c t (ix2 a j) = val8_1 V c (ix2 (idx8_row t a) j) := by
  obtain ⟨-, ⟨h0, h1⟩, -⟩ := idx8_facts t
  show ((cfg8.win 1).blk t).view.read (Elt Ideal) (V c (Pipeline.arrRef spec8 1)) (ix2 a j) = V c (Pipeline.arrRef spec8 1) (ix2 (idx8_row t a) j)
  rw [View.read_apply]
  show V c (Pipeline.arrRef spec8 1) _ = V c (Pipeline.arrRef spec8 1) _
  congr 1
  funext b
  apply Fin.ext
  match b with
  | ⟨0, _⟩ => show win8_1.index t 0 * 10000 + 1 * a.val = 10000 * t.val + a.val; rw [h0]; omega
  | ⟨1, _⟩ => show win8_1.index t 1 * 64 + 1 * j.val = j.val; rw [h1]; omega
theorem iblk8_2_apply (c : Dev nD) (t : Fin cfg8.N) (a : Fin 10000) :
    iblk8_2 V c t (ix2 a 0) = val8_2 V c (ix2 (idx8_row t a) 0) := by
  obtain ⟨-, -, ⟨h0, h1⟩, -⟩ := idx8_facts t
  show ((cfg8.win 2).blk t).view.read (Elt Ideal) (V c (Pipeline.arrRef spec8 2)) (ix2 a 0) = V c (Pipeline.arrRef spec8 2) (ix2 (idx8_row t a) 0)
  rw [View.read_apply]
  show V c (Pipeline.arrRef spec8 2) _ = V c (Pipeline.arrRef spec8 2) _
  congr 1
  funext b
  apply Fin.ext
  match b with
  | ⟨0, _⟩ => show win8_2.index t 0 * 10000 + 1 * a.val = 10000 * t.val + a.val; rw [h0]; omega
  | ⟨1, _⟩ => show win8_2.index t 1 * 1 + 1 * 0 = 0; rw [h1]
theorem iblk8_3_apply (c : Dev nD) (t : Fin cfg8.N) (j : Fin 64) :
    iblk8_3 V c t (ix2 0 j) = val8_3 V c (ix2 0 j) := by
  obtain ⟨-, -, -, ⟨h0, h1⟩, -⟩ := idx8_facts t
  show ((cfg8.win 3).blk t).view.read (Elt Ideal) (V c (Pipeline.arrRef spec8 3)) (ix2 0 j) = V c (Pipeline.arrRef spec8 3) (ix2 0 j)
  rw [View.read_apply]
  show V c (Pipeline.arrRef spec8 3) _ = V c (Pipeline.arrRef spec8 3) _
  congr 1
  funext b
  apply Fin.ext
  match b with
  | ⟨0, _⟩ => show win8_3.index t 0 * 1 + 1 * 0 = 0; rw [h0]
  | ⟨1, _⟩ => show win8_3.index t 1 * 64 + 1 * j.val = j.val; rw [h1]; omega

/-- So an entry of the tile's hpre block is hpre at that row of the array. -/
theorem k8_pay3_iblk (c : Dev nD) (t : Fin cfg8.N) (a : Fin 10000) (j : Fin 64) :
    k8_pay3 (iblk8_0 V c t) (iblk8_1 V c t) (iblk8_2 V c t) (iblk8_3 V c t) (ix2 a j) = val8_hpre V c (idx8_row t a) j := by
  rw [k8_pay3_apply, iblk8_0_apply, iblk8_1_apply, iblk8_2_apply, iblk8_3_apply]

/-- Window 4 after the body at any point: the tile's hpre block. -/
theorem outsAt8_4_eq (c : Dev nD) (t : Fin cfg8.N) :
    (outsAt8 V c t.val t.isLt).1 = k8_pay3 (iblk8_0 V c t) (iblk8_1 V c t) (iblk8_2 V c t) (iblk8_3 V c t) := by
  by_cases h0 : t.val = 0
  · rw [outsAt8_A V c t h0]
    unfold out8_A_at
    exact out8_A_4 (F := Ideal) c (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) ((k8_hcond t).mpr h0) (iblk8 V c 0 t) (iblk8 V c 1 t) (iblk8 V c 2 t) (iblk8 V c 3 t)
  · rw [outsAt8_B V c t h0]
    unfold out8_B_at
    exact out8_B_4 (F := Ideal) c (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) (fun h => h0 ((k8_hcond t).mp h)) (iblk8 V c 0 t) (iblk8 V c 1 t) (iblk8 V c 2 t) (iblk8 V c 3 t)
      (outsAt8 V c (t.val - 1) (Nat.lt_of_le_of_lt (Nat.sub_le _ _) t.isLt)).2.1
      (outsAt8 V c (t.val - 1) (Nat.lt_of_le_of_lt (Nat.sub_le _ _) t.isLt)).2.2

/-- Tile s's column sums of hpre and of its square, at column j (zero past the grid). -/
def val8_colsum (c : Dev nD) (j : Fin 64) (s : ℕ) : EReal :=
  if h : s < cfg8.N then ∑ a : Fin 10000, val8_hpre V c (idx8_row ⟨s, h⟩ a) j else 0
def val8_colsq (c : Dev nD) (j : Fin 64) (s : ℕ) : EReal :=
  if h : s < cfg8.N then ∑ a : Fin 10000, val8_hpre V c (idx8_row ⟨s, h⟩ a) j * val8_hpre V c (idx8_row ⟨s, h⟩ a) j else 0

/-- The accumulators after the first point: zero plus the tile's column sums. -/
theorem outsAt8_5_zero (c : Dev nD) (j : Fin 64) (t : Fin cfg8.N) (h0 : t.val = 0) :
    (outsAt8 V c t.val t.isLt).2.1 (ix2 0 j) = val8_colsum V c j t.val := by
  rw [outsAt8_A V c t h0]
  unfold out8_A_at
  refine (congrFun (out8_A_5 (F := Ideal) c (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) ((k8_hcond t).mpr h0) (iblk8 V c 0 t) (iblk8 V c 1 t) (iblk8 V c 2 t) (iblk8 V c 3 t)) (ix2 0 j)).trans ?_
  refine (k8_pay4_apply (iblk8_0 V c t) (iblk8_1 V c t) (iblk8_2 V c t) (iblk8_3 V c t) (k8_pay1 (F := Ideal)) j).trans ?_
  rw [k8_pay1_apply, zero_add]
  unfold val8_colsum
  rw [dif_pos t.isLt]
  exact Finset.sum_congr rfl fun a _ => k8_pay3_iblk V c t a j
theorem outsAt8_6_zero (c : Dev nD) (j : Fin 64) (t : Fin cfg8.N) (h0 : t.val = 0) :
    (outsAt8 V c t.val t.isLt).2.2 (ix2 0 j) = val8_colsq V c j t.val := by
  rw [outsAt8_A V c t h0]
  unfold out8_A_at
  refine (congrFun (out8_A_6 (F := Ideal) c (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) ((k8_hcond t).mpr h0) (iblk8 V c 0 t) (iblk8 V c 1 t) (iblk8 V c 2 t) (iblk8 V c 3 t)) (ix2 0 j)).trans ?_
  refine (k8_pay5_apply (iblk8_0 V c t) (iblk8_1 V c t) (iblk8_2 V c t) (iblk8_3 V c t) (k8_pay2 (F := Ideal)) j).trans ?_
  rw [k8_pay2_apply, zero_add]
  unfold val8_colsq
  rw [dif_pos t.isLt]
  exact Finset.sum_congr rfl fun a _ => by rw [k8_pay3_iblk V c t a j]

/-- After a later point: what the point before left plus the tile's column sums. -/
theorem outsAt8_5_step (c : Dev nD) (j : Fin 64) (t : Fin cfg8.N) (h0 : ¬t.val = 0) :
    (outsAt8 V c t.val t.isLt).2.1 (ix2 0 j) = (outsAt8 V c (t.val - 1) (Nat.lt_of_le_of_lt (Nat.sub_le _ _) t.isLt)).2.1 (ix2 0 j) + val8_colsum V c j t.val := by
  rw [outsAt8_B V c t h0]
  unfold out8_B_at
  refine (congrFun (out8_B_5 (F := Ideal) c (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) (fun h => h0 ((k8_hcond t).mp h)) (iblk8 V c 0 t) (iblk8 V c 1 t) (iblk8 V c 2 t) (iblk8 V c 3 t)
    (outsAt8 V c (t.val - 1) (Nat.lt_of_le_of_lt (Nat.sub_le _ _) t.isLt)).2.1
    (outsAt8 V c (t.val - 1) (Nat.lt_of_le_of_lt (Nat.sub_le _ _) t.isLt)).2.2) (ix2 0 j)).trans ?_
  refine (k8_pay4_apply (iblk8_0 V c t) (iblk8_1 V c t) (iblk8_2 V c t) (iblk8_3 V c t) (outsAt8 V c (t.val - 1) (Nat.lt_of_le_of_lt (Nat.sub_le _ _) t.isLt)).2.1 j).trans ?_
  refine congrArg ((outsAt8 V c (t.val - 1) (Nat.lt_of_le_of_lt (Nat.sub_le _ _) t.isLt)).2.1 (ix2 0 j) + ·) ?_
  unfold val8_colsum
  rw [dif_pos t.isLt]
  exact Finset.sum_congr rfl fun a _ => k8_pay3_iblk V c t a j
theorem outsAt8_6_step (c : Dev nD) (j : Fin 64) (t : Fin cfg8.N) (h0 : ¬t.val = 0) :
    (outsAt8 V c t.val t.isLt).2.2 (ix2 0 j) = (outsAt8 V c (t.val - 1) (Nat.lt_of_le_of_lt (Nat.sub_le _ _) t.isLt)).2.2 (ix2 0 j) + val8_colsq V c j t.val := by
  rw [outsAt8_B V c t h0]
  unfold out8_B_at
  refine (congrFun (out8_B_6 (F := Ideal) c (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) (win8_6.stage (cfg8.slots t 6)) (hstage8_6 ((cfg8.slots t 6).cast nbuf8_6)) (fun h => h0 ((k8_hcond t).mp h)) (iblk8 V c 0 t) (iblk8 V c 1 t) (iblk8 V c 2 t) (iblk8 V c 3 t)
    (outsAt8 V c (t.val - 1) (Nat.lt_of_le_of_lt (Nat.sub_le _ _) t.isLt)).2.1
    (outsAt8 V c (t.val - 1) (Nat.lt_of_le_of_lt (Nat.sub_le _ _) t.isLt)).2.2) (ix2 0 j)).trans ?_
  refine (k8_pay5_apply (iblk8_0 V c t) (iblk8_1 V c t) (iblk8_2 V c t) (iblk8_3 V c t) (outsAt8 V c (t.val - 1) (Nat.lt_of_le_of_lt (Nat.sub_le _ _) t.isLt)).2.2 j).trans ?_
  refine congrArg ((outsAt8 V c (t.val - 1) (Nat.lt_of_le_of_lt (Nat.sub_le _ _) t.isLt)).2.2 (ix2 0 j) + ·) ?_
  unfold val8_colsq
  rw [dif_pos t.isLt]
  exact Finset.sum_congr rfl fun a _ => by rw [k8_pay3_iblk V c t a j]

/-- So after point n they hold the sums over tiles 0 … n, by induction on the point. -/
theorem outsAt8_5_eq (c : Dev nD) (j : Fin 64) : ∀ (n : ℕ) (h : n < cfg8.N),
    (outsAt8 V c n h).2.1 (ix2 0 j) = ∑ s ∈ Finset.range (n + 1), val8_colsum V c j s
  | 0, h => by rw [Finset.sum_range_one]; exact outsAt8_5_zero V c j ⟨0, h⟩ rfl
  | n + 1, h => by
    rw [Finset.sum_range_succ _ (n + 1), ← outsAt8_5_eq c j n (Nat.lt_of_succ_lt h)]
    exact outsAt8_5_step V c j ⟨n + 1, h⟩ (Nat.succ_ne_zero n)
theorem outsAt8_6_eq (c : Dev nD) (j : Fin 64) : ∀ (n : ℕ) (h : n < cfg8.N),
    (outsAt8 V c n h).2.2 (ix2 0 j) = ∑ s ∈ Finset.range (n + 1), val8_colsq V c j s
  | 0, h => by rw [Finset.sum_range_one]; exact outsAt8_6_zero V c j ⟨0, h⟩ rfl
  | n + 1, h => by
    rw [Finset.sum_range_succ _ (n + 1), ← outsAt8_6_eq c j n (Nat.lt_of_succ_lt h)]
    exact outsAt8_6_step V c j ⟨n + 1, h⟩ (Nat.succ_ne_zero n)

/-- The ten tiles' column sums regroup to the sum over all rows: rows = tiles × rows of a tile. -/
theorem val8_colsum_total (c : Dev nD) (j : Fin 64) :
    ∑ s ∈ Finset.range 10, val8_colsum V c j s = ∑ r : Fin 100000, val8_hpre V c r j := by
  have hN : cfg8.N = 10 := N_8
  rw [← Fin.sum_univ_eq_sum_range (fun s => val8_colsum V c j s) 10]
  refine Eq.trans ?_ (Cert.LibStats.sum_tiles 10 10000 (fun r : Fin (10 * 10000) => val8_hpre V c r j)).symm
  refine Finset.sum_congr rfl fun s _ => ?_
  unfold val8_colsum
  rw [dif_pos (lt_of_lt_of_eq s.isLt hN.symm)]
  refine Finset.sum_congr rfl fun a _ => ?_
  have e : idx8_row ⟨s.val, lt_of_lt_of_eq s.isLt hN.symm⟩ a = (finProdFinEquiv (s, a) : Fin (10 * 10000)) :=
    Fin.ext (by rw [finProdFinEquiv_apply_val]; show 10000 * s.val + a.val = a.val + 10000 * s.val; omega)
  rw [e]
theorem val8_colsq_total (c : Dev nD) (j : Fin 64) :
    ∑ s ∈ Finset.range 10, val8_colsq V c j s = ∑ r : Fin 100000, val8_hpre V c r j * val8_hpre V c r j := by
  have hN : cfg8.N = 10 := N_8
  rw [← Fin.sum_univ_eq_sum_range (fun s => val8_colsq V c j s) 10]
  refine Eq.trans ?_ (Cert.LibStats.sum_tiles 10 10000 (fun r : Fin (10 * 10000) => val8_hpre V c r j * val8_hpre V c r j)).symm
  refine Finset.sum_congr rfl fun s _ => ?_
  unfold val8_colsq
  rw [dif_pos (lt_of_lt_of_eq s.isLt hN.symm)]
  refine Finset.sum_congr rfl fun a _ => ?_
  have e : idx8_row ⟨s.val, lt_of_lt_of_eq s.isLt hN.symm⟩ a = (finProdFinEquiv (s, a) : Fin (10 * 10000)) :=
    Fin.ext (by rw [finProdFinEquiv_apply_val]; show 10000 * s.val + a.val = a.val + 10000 * s.val; omega)
  rw [e]

/-- After the last point the accumulators hold the sums over all rows. -/
theorem outsAt8_5_last (c : Dev nD) :
    (outsAt8 V c t8_9.val t8_9.isLt).2.1 = val8_5 V c := by
  funext i
  obtain ⟨i0, i1, rfl⟩ : ∃ (i0 : Fin 1) (i1 : Fin 64), i = ix2 i0 i1 := ⟨i 0, i 1, eq_ix2 i⟩
  obtain rfl : i0 = 0 := Subsingleton.elim _ _
  exact (outsAt8_5_eq V c i1 9 t8_9.isLt).trans (val8_colsum_total V c i1)
theorem outsAt8_6_last (c : Dev nD) :
    (outsAt8 V c t8_9.val t8_9.isLt).2.2 = val8_6 V c := by
  funext i
  obtain ⟨i0, i1, rfl⟩ : ∃ (i0 : Fin 1) (i1 : Fin 64), i = ix2 i0 i1 := ⟨i 0, i 1, eq_ix2 i⟩
  obtain rfl : i0 = 0 := Subsingleton.elim _ _
  exact (outsAt8_6_eq V c i1 9 t8_9.isLt).trans (val8_colsq_total V c i1)

/-- What each flushing point writes back is its block of the whole-array function. -/
theorem flushed8_4 (c : Dev nD) (t : Fin cfg8.N) (hf : (cfg8.win 4).flush t = true) :
    (dat8 (F := Ideal) V c).flushed 4 t
      = ((cfg8.win 4).blk t).view.read (Elt Ideal) (val8_4 V c) := by
  obtain ⟨-, -, -, -, ⟨h0, h1⟩, -⟩ := idx8_facts t
  show (cfg8.win 4).cut (grid8.coords t) ((dat8 (F := Ideal) V c).after 4 t) = _
  rw [after8_4, outsAt8_4_eq]
  funext y
  obtain ⟨a, j, rfl⟩ : ∃ (a : Fin 10000) (j : Fin 64), y = ix2 a j := ⟨y 0, y 1, eq_ix2 y⟩
  rw [View.read_apply]
  show k8_pay3 (iblk8_0 V c t) (iblk8_1 V c t) (iblk8_2 V c t) (iblk8_3 V c t) (ix2 a j)
    = val8_hpre V c (((cfg8.win 4).blk t).view.emb (ix2 a j) 0) (((cfg8.win 4).blk t).view.emb (ix2 a j) 1)
  have e0 : idx8_row t a = ((cfg8.win 4).blk t).view.emb (ix2 a j) 0 :=
    Fin.ext (by show 10000 * t.val + a.val = win8_4.index t 0 * 10000 + 1 * a.val; rw [h0]; omega)
  have e1 : j = ((cfg8.win 4).blk t).view.emb (ix2 a j) 1 :=
    Fin.ext (by show j.val = win8_4.index t 1 * 64 + 1 * j.val; rw [h1]; omega)
  exact (k8_pay3_iblk V c t a j).trans (congrArg₂ (fun r' j' => val8_hpre V c r' j') e0 e1)

theorem flushed8_5 (c : Dev nD) (t : Fin cfg8.N) (hf : (cfg8.win 5).flush t = true) :
    (dat8 (F := Ideal) V c).flushed 5 t
      = ((cfg8.win 5).blk t).view.read (Elt Ideal) (val8_5 V c) := by
  have hN : cfg8.N = 10 := N_8
  have h9 : t.val = 9 := by have := (flush8_5 t).mp hf; have := t.isLt; omega
  obtain rfl : t = t8_9 := Fin.ext h9
  show (cfg8.win 5).cut (grid8.coords t8_9) ((dat8 (F := Ideal) V c).after 5 t8_9) = _
  rw [after8_5, outsAt8_5_last]
  have hz' : (fun a : Fin 2 => win8_5.index t8_9 a * S1x64.size a) = fun _ => 0 := funext fun a => by fin_cases a <;> decide
  exact (Memref.read_access_unit_zero (Elt Ideal) (Pipeline.arrRef spec8 5) hz' (fun a => by rw [congrFun hz' a]; simp)
    (val8_5 V c)).symm

theorem flushed8_6 (c : Dev nD) (t : Fin cfg8.N) (hf : (cfg8.win 6).flush t = true) :
    (dat8 (F := Ideal) V c).flushed 6 t
      = ((cfg8.win 6).blk t).view.read (Elt Ideal) (val8_6 V c) := by
  have hN : cfg8.N = 10 := N_8
  have h9 : t.val = 9 := by have := (flush8_6 t).mp hf; have := t.isLt; omega
  obtain rfl : t = t8_9 := Fin.ext h9
  show (cfg8.win 6).cut (grid8.coords t8_9) ((dat8 (F := Ideal) V c).after 6 t8_9) = _
  rw [after8_6, outsAt8_6_last]
  have hz' : (fun a : Fin 2 => win8_6.index t8_9 a * S1x64.size a) = fun _ => 0 := funext fun a => by fin_cases a <;> decide
  exact (Memref.read_access_unit_zero (Elt Ideal) (Pipeline.arrRef spec8 6) hz' (fun a => by rw [congrFun hz' a]; simp)
    (val8_6 V c)).symm

set_option maxHeartbeats 1000000 in
/-- WINDOW 4: every point writes its tile back; the tiles cover the rows. -/
theorem arr8_4 (c : Dev nD) : (dat8 (F := Ideal) V c).arrAt 4 cfg8.N = fun i => val8_hpre V c (i 0) (i 1) :=
  (dat8 (F := Ideal) V c).arrAt_eq_of_cover 4 (val8_4 V c) (flushed8_4 V c) fun i => by
    -- row i 0 lies in tile (i 0) / 10000
    have hi0 : (i 0 : Nat) < 100000 := (i 0).isLt
    have hi1 : (i 1 : Nat) < 64 := (i 1).isLt
    have hN : cfg8.N = 10 := N_8
    have ht : (i 0 : Nat) / 10000 < cfg8.N := by rw [hN]; omega
    refine ⟨⟨(i 0 : Nat) / 10000, ht⟩, flush8_4 _, ?_⟩
    obtain ⟨-, -, -, -, ⟨h0, h1⟩, -⟩ := idx8_facts ⟨(i 0 : Nat) / 10000, ht⟩
    show i ∈ ((View.whole (Pipeline.arrRef spec8 4)).slice (win8_4.rect ⟨(i 0 : Nat) / 10000, ht⟩)).set
    rw [View.set_slice_whole, Rect.mem_set_unit]
    intro a
    match a with
    | ⟨0, _⟩ =>
      show win8_4.index ⟨(i 0 : Nat) / 10000, ht⟩ 0 * win8_4.size 0 ≤ (i 0 : Nat)
        ∧ (i 0 : Nat) < win8_4.index ⟨(i 0 : Nat) / 10000, ht⟩ 0 * win8_4.size 0 + win8_4.xsize (grid8.coords ⟨(i 0 : Nat) / 10000, ht⟩) 0
      rw [h0]
      show (i 0 : Nat) / 10000 * 10000 ≤ (i 0 : Nat) ∧ (i 0 : Nat) < (i 0 : Nat) / 10000 * 10000 + 10000
      omega
    | ⟨1, _⟩ =>
      show win8_4.index ⟨(i 0 : Nat) / 10000, ht⟩ 1 * win8_4.size 1 ≤ (i 1 : Nat)
        ∧ (i 1 : Nat) < win8_4.index ⟨(i 0 : Nat) / 10000, ht⟩ 1 * win8_4.size 1 + win8_4.xsize (grid8.coords ⟨(i 0 : Nat) / 10000, ht⟩) 1
      rw [h1]
      show 0 * 64 ≤ (i 1 : Nat) ∧ (i 1 : Nat) < 0 * 64 + 64
      omega

set_option maxHeartbeats 1000000 in
/-- WINDOW 5: the last point writes the row of sums back. -/
theorem arr8_5 (c : Dev nD) : (dat8 (F := Ideal) V c).arrAt 5 cfg8.N = fun i => ∑ r : Fin 100000, val8_hpre V c r (i 1) :=
  (dat8 (F := Ideal) V c).arrAt_eq_of_cover 5 (val8_5 V c) (flushed8_5 V c) fun i =>
    ⟨t8_9, (flush8_5 t8_9).mpr rfl, by
      show i ∈ ((View.whole (Pipeline.arrRef spec8 5)).slice (win8_5.rect t8_9)).set
      rw [View.set_slice_whole, Rect.mem_set_unit]
      intro a
      have h0 : (i 0 : Nat) < 1 := (i 0).isLt
      have h1 : (i 1 : Nat) < 64 := (i 1).isLt
      match a with
      | ⟨0, _⟩ => show win8_5.index t8_9 0 * win8_5.size 0 ≤ (i 0 : Nat) ∧ (i 0 : Nat) < win8_5.index t8_9 0 * win8_5.size 0 + win8_5.xsize (grid8.coords t8_9) 0
                  rw [show win8_5.index t8_9 0 * win8_5.size 0 = 0 from by decide +kernel, show win8_5.xsize (grid8.coords t8_9) 0 = 1 from by decide +kernel]; omega
      | ⟨1, _⟩ => show win8_5.index t8_9 1 * win8_5.size 1 ≤ (i 1 : Nat) ∧ (i 1 : Nat) < win8_5.index t8_9 1 * win8_5.size 1 + win8_5.xsize (grid8.coords t8_9) 1
                  rw [show win8_5.index t8_9 1 * win8_5.size 1 = 0 from by decide +kernel, show win8_5.xsize (grid8.coords t8_9) 1 = 64 from by decide +kernel]; omega⟩

set_option maxHeartbeats 1000000 in
/-- WINDOW 6: and the row of sums of squares. -/
theorem arr8_6 (c : Dev nD) :
    (dat8 (F := Ideal) V c).arrAt 6 cfg8.N = fun i => ∑ r : Fin 100000, val8_hpre V c r (i 1) * val8_hpre V c r (i 1) :=
  (dat8 (F := Ideal) V c).arrAt_eq_of_cover 6 (val8_6 V c) (flushed8_6 V c) fun i =>
    ⟨t8_9, (flush8_6 t8_9).mpr rfl, by
      show i ∈ ((View.whole (Pipeline.arrRef spec8 6)).slice (win8_6.rect t8_9)).set
      rw [View.set_slice_whole, Rect.mem_set_unit]
      intro a
      have h0 : (i 0 : Nat) < 1 := (i 0).isLt
      have h1 : (i 1 : Nat) < 64 := (i 1).isLt
      match a with
      | ⟨0, _⟩ => show win8_6.index t8_9 0 * win8_6.size 0 ≤ (i 0 : Nat) ∧ (i 0 : Nat) < win8_6.index t8_9 0 * win8_6.size 0 + win8_6.xsize (grid8.coords t8_9) 0
                  rw [show win8_6.index t8_9 0 * win8_6.size 0 = 0 from by decide +kernel, show win8_6.xsize (grid8.coords t8_9) 0 = 1 from by decide +kernel]; omega
      | ⟨1, _⟩ => show win8_6.index t8_9 1 * win8_6.size 1 ≤ (i 1 : Nat) ∧ (i 1 : Nat) < win8_6.index t8_9 1 * win8_6.size 1 + win8_6.xsize (grid8.coords t8_9) 1
                  rw [show win8_6.index t8_9 1 * win8_6.size 1 = 0 from by decide +kernel, show win8_6.xsize (grid8.coords t8_9) 1 = 64 from by decide +kernel]; omega⟩

end Value

end Cert.KernelIdeal.Reg

end
-- ==== Proof.Bridge.L2CoreB.lean ====
import proofs.«147038_j12317966205319_1_alg».proof.Proof.KI.Val8
import proofs.«147038_j12317966205319_1_alg».proof.Proof.Ref.StageFns
import proofs.«147038_j12317966205319_1_alg».proof.Proof.Alg.Real
import proofs.«147038_j12317966205319_1_alg».proof.Proof.Bridge.StageFacts

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat Col Row hpreF)
open scoped BigOperators

/-! # One layer's combining region against the layer's stage function

The combining region leaves, at `(r, j)`, the aggregate plus the product times the node's self weight plus the layer's
bias at `j`; and in its two accumulated rows the column sums of that array and of its squares. -/

variable (V : (c : Dev nD) → (b : Ref sig .tc) → Buf (Elt Ideal) ((c : Thread nD τ).loc b))

/-- The region's value at `(r, j)` is the stage function's, when its four operand arrays hold the aggregate, the
    product, the self weights as a column and the bias as a row. -/
theorem hpre_at_L2 (c : Dev nD) (agg xw : Feat) (selfw : Col) (b : Row)
    (ha : (val8_0 V c : S100000x64.Idx → EReal) = agg) (hx : (val8_1 V c : S100000x64.Idx → EReal) = xw)
    (hs : ∀ (r : Fin 100000) (u : Fin 1), val8_2 V c (ix2 r u) = selfw (ix1 r))
    (hb : ∀ (u : Fin 1) (j : Fin 64), val8_3 V c (ix2 u j) = b (ix1 j)) (r : Fin 100000) (j : Fin 64) :
    val8_hpre V c r j = hpreF agg xw selfw b (ix2 r j) := by
  show val8_0 V c (ix2 r j) + val8_1 V c (ix2 r j) * val8_2 V c (ix2 r 0) + val8_3 V c (ix2 0 j)
    = agg (ix2 r j) + xw (ix2 r j) * selfw (ix1 r) + b (ix1 j)
  rw [hs r 0, hb 0 j, congrFun ha (ix2 r j), congrFun hx (ix2 r j)]

/-- The region's first output is the stage function's array. -/
theorem hpre_core_L2 (c : Dev nD) (agg xw : Feat) (selfw : Col) (b : Row)
    (ha : (val8_0 V c : S100000x64.Idx → EReal) = agg) (hx : (val8_1 V c : S100000x64.Idx → EReal) = xw)
    (hs : ∀ (r : Fin 100000) (u : Fin 1), val8_2 V c (ix2 r u) = selfw (ix1 r))
    (hb : ∀ (u : Fin 1) (j : Fin 64), val8_3 V c (ix2 u j) = b (ix1 j)) :
    (dat8 (F := Ideal) V c).arrAt 4 cfg8.N = hpreF agg xw selfw b := by
  rw [arr8_4]
  funext i
  obtain ⟨r, j, rfl⟩ : ∃ (r : Fin 100000) (j : Fin 64), i = ix2 r j := ⟨i 0, i 1, eq_ix2 i⟩
  exact hpre_at_L2 V c agg xw selfw b ha hx hs hb r j

/-- Its second output holds, at every column, the column sum of that array. -/
theorem sum_core_L2 (c : Dev nD) (agg xw : Feat) (selfw : Col) (b : Row)
    (ha : (val8_0 V c : S100000x64.Idx → EReal) = agg) (hx : (val8_1 V c : S100000x64.Idx → EReal) = xw)
    (hs : ∀ (r : Fin 100000) (u : Fin 1), val8_2 V c (ix2 r u) = selfw (ix1 r))
    (hb : ∀ (u : Fin 1) (j : Fin 64), val8_3 V c (ix2 u j) = b (ix1 j)) (u : Fin 1) (j : Fin 64) :
    ((dat8 (F := Ideal) V c).arrAt 5 cfg8.N : S1x64.Idx → EReal) (ix2 u j)
      = ∑ r : Fin 100000, hpreF agg xw selfw b (ix2 r j) := by
  refine (congrFun (show (dat8 (F := Ideal) V c).arrAt 5 cfg8.N = val8_5 V c from arr8_5 V c) (ix2 u j)).trans ?_
  show (∑ r : Fin 100000, val8_hpre V c r j) = ∑ r : Fin 100000, hpreF agg xw selfw b (ix2 r j)
  exact Finset.sum_congr rfl fun r _ => hpre_at_L2 V c agg xw selfw b ha hx hs hb r j

/-- Its third output holds, at every column, the column sum of that array's squares. -/
theorem sumsq_core_L2 (c : Dev nD) (agg xw : Feat) (selfw : Col) (b : Row)
    (ha : (val8_0 V c : S100000x64.Idx → EReal) = agg) (hx : (val8_1 V c : S100000x64.Idx → EReal) = xw)
    (hs : ∀ (r : Fin 100000) (u : Fin 1), val8_2 V c (ix2 r u) = selfw (ix1 r))
    (hb : ∀ (u : Fin 1) (j : Fin 64), val8_3 V c (ix2 u j) = b (ix1 j)) (u : Fin 1) (j : Fin 64) :
    ((dat8 (F := Ideal) V c).arrAt 6 cfg8.N : S1x64.Idx → EReal) (ix2 u j)
      = ∑ r : Fin 100000, hpreF agg xw selfw b (ix2 r j) * hpreF agg xw selfw b (ix2 r j) := by
  refine (congrFun (show (dat8 (F := Ideal) V c).arrAt 6 cfg8.N = val8_6 V c from arr8_6 V c) (ix2 u j)).trans ?_
  show (∑ r : Fin 100000, val8_hpre V c r j * val8_hpre V c r j)
    = ∑ r : Fin 100000, hpreF agg xw selfw b (ix2 r j) * hpreF agg xw selfw b (ix2 r j)
  exact Finset.sum_congr rfl fun r _ =>
    congrArg₂ (· * ·) (hpre_at_L2 V c agg xw selfw b ha hx hs hb r j) (hpre_at_L2 V c agg xw selfw b ha hx hs hb r j)

end Cert.Bridge

end
-- ==== Proof.Bridge.L2.lean ====
import proofs.«147038_j12317966205319_1_alg».proof.Proof.KI.Conts
import proofs.«147038_j12317966205319_1_alg».proof.Proof.Bridge.Args
import proofs.«147038_j12317966205319_1_alg».proof.Proof.KI.HostL2
import proofs.«147038_j12317966205319_1_alg».proof.Proof.Bridge.L2Core
import proofs.«147038_j12317966205319_1_alg».proof.Proof.Bridge.L2CoreB
import proofs.«147038_j12317966205319_1_alg».proof.Proof.Bridge.Edges

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat Col Row WSq WLayers RowLayers EdgeList xwF aggF hpreF normF reluF layerF sliceSq sliceRow srcF nrmF dstF selfF)
open scoped BigOperators

/-! # One graph-convolution layer: what its three regions leave is the layer's stage functions of its input

From what the layer's input array holds: the product region leaves the product with the layer's weight matrix; the
combining region the aggregate over incoming edges plus the self term plus the layer's bias, with its column sums
and column sums of squares; the normalising region, when that combined array is real-valued, its normalisation
with the layer's scale and shift cut off at zero. -/

variable (m : (ℓ : Loc nD τ sig) → Buf (Elt Ideal) ℓ)

/-- The product region: the layer's input times the layer's weight matrix. -/
theorem xw_L2 (c : Dev nD) (h : Feat) (hin : outsF m 14 main_v104 c = h) :
    outsF m 16 main_v108 c = xwF h (sliceSq (arg4 m c) (2 : Fin 4)) := by
  have hV : ∀ b : Ref sig .tc, T15 m c b = V15 m (outsF m) c b := fun b => (congrFun (V15_eq m c) _).symm
  show W16 m c (Proc.devRef .tc main_v108) = _
  rw [W16_out3]
  refine xw_core_L2 (T15 m) c h (sliceSq (arg4 m c) (2 : Fin 4)) ?_ ?_ ?_
  · exact ((hV main_v104).trans (mm_x_L2 m (outsF m) c)).trans hin
  · intro k j
    exact (congrFun (hV main_v106) (ix2 k j)).trans (mm_w_L2 m (outsF m) c k j)
  · intro u j
    exact (congrFun (hV main_v107) (ix2 u j)).trans (mm_b_L2 m (outsF m) c u j)

/-- The combining region's operand arrays, from what the product region left. -/
theorem hpre_L2 (c : Dev nD) (xw : Feat) (hxw : outsF m 16 main_v108 c = xw) :
    outsF m 18 main_v125_0 c
      = hpreF (aggF xw (srcF (arg1 m c)) (nrmF (arg1 m c)) (dstF (arg1 m c))) xw (selfF (arg1 m c))
          (sliceRow (arg5 m c) (2 : Fin 4)) := by
  have hV : ∀ b : Ref sig .tc, T17 m c b = V17 m (outsF m) c b := fun b => (congrFun (V17_eq m c) _).symm
  show W18 m c (Proc.devRef .tc main_v125_0) = _
  rw [W18_out4]
  refine hpre_core_L2 (T17 m) c _ xw _ _ ?_ ?_ ?_ ?_
  · exact ((hV main_v121).trans (cb_agg_L2 m (outsF m) c)).trans
      ((congrArg (fun y => aggOf y (m (c, main_arg1))) hxw).trans (aggOf_eq xw (arg1 m c)))
  · exact ((hV main_v108).trans (cb_xw_L2 m (outsF m) c)).trans hxw
  · intro r u
    exact (congrFun ((hV main_v28).trans (cb_selfn_L2 m (outsF m) c)) (ix2 r u)).trans (selfnOf_at (arg1 m c) r u)
  · intro u j
    exact (congrFun (hV main_v124) (ix2 u j)).trans (cb_convb_L2 m (outsF m) c u j)

/-- Its second output: the column sums of the combined array. -/
theorem sum_L2 (c : Dev nD) (xw : Feat) (hxw : outsF m 16 main_v108 c = xw) (u : Fin 1) (j : Fin 64) :
    (outsF m 18 main_v125_1 c : S1x64.Idx → EReal) (ix2 u j)
      = ∑ r : Fin 100000, hpreF (aggF xw (srcF (arg1 m c)) (nrmF (arg1 m c)) (dstF (arg1 m c))) xw (selfF (arg1 m c))
          (sliceRow (arg5 m c) (2 : Fin 4)) (ix2 r j) := by
  have hV : ∀ b : Ref sig .tc, T17 m c b = V17 m (outsF m) c b := fun b => (congrFun (V17_eq m c) _).symm
  show W18 m c (Proc.devRef .tc main_v125_1) (ix2 u j) = _
  rw [W18_out5]
  refine sum_core_L2 (T17 m) c _ xw _ _ ?_ ?_ ?_ ?_ u j
  · exact ((hV main_v121).trans (cb_agg_L2 m (outsF m) c)).trans
      ((congrArg (fun y => aggOf y (m (c, main_arg1))) hxw).trans (aggOf_eq xw (arg1 m c)))
  · exact ((hV main_v108).trans (cb_xw_L2 m (outsF m) c)).trans hxw
  · intro r u
    exact (congrFun ((hV main_v28).trans (cb_selfn_L2 m (outsF m) c)) (ix2 r u)).trans (selfnOf_at (arg1 m c) r u)
  · intro u j
    exact (congrFun (hV main_v124) (ix2 u j)).trans (cb_convb_L2 m (outsF m) c u j)

/-- Its third output: the column sums of the combined array's squares. -/
theorem sumsq_L2 (c : Dev nD) (xw : Feat) (hxw : outsF m 16 main_v108 c = xw) (u : Fin 1) (j : Fin 64) :
    (outsF m 18 main_v125_2 c : S1x64.Idx → EReal) (ix2 u j)
      = ∑ r : Fin 100000, hpreF (aggF xw (srcF (arg1 m c)) (nrmF (arg1 m c)) (dstF (arg1 m c))) xw (selfF (arg1 m c))
            (sliceRow (arg5 m c) (2 : Fin 4)) (ix2 r j)
          * hpreF (aggF xw (srcF (arg1 m c)) (nrmF (arg1 m c)) (dstF (arg1 m c))) xw (selfF (arg1 m c))
            (sliceRow (arg5 m c) (2 : Fin 4)) (ix2 r j) := by
  have hV : ∀ b : Ref sig .tc, T17 m c b = V17 m (outsF m) c b := fun b => (congrFun (V17_eq m c) _).symm
  show W18 m c (Proc.devRef .tc main_v125_2) (ix2 u j) = _
  rw [W18_out6]
  refine sumsq_core_L2 (T17 m) c _ xw _ _ ?_ ?_ ?_ ?_ u j
  · exact ((hV main_v121).trans (cb_agg_L2 m (outsF m) c)).trans
      ((congrArg (fun y => aggOf y (m (c, main_arg1))) hxw).trans (aggOf_eq xw (arg1 m c)))
  · exact ((hV main_v108).trans (cb_xw_L2 m (outsF m) c)).trans hxw
  · intro r u
    exact (congrFun ((hV main_v28).trans (cb_selfn_L2 m (outsF m) c)) (ix2 r u)).trans (selfnOf_at (arg1 m c) r u)
  · intro u j
    exact (congrFun (hV main_v124) (ix2 u j)).trans (cb_convb_L2 m (outsF m) c u j)

/-- The normalising region, from what the combining region left, the combined array real-valued. -/
theorem bn_L2 (c : Dev nD) (hp : Feat) (hhp : outsF m 18 main_v125_0 c = hp)
    (hS1 : ∀ (u : Fin 1) (j : Fin 64), (outsF m 18 main_v125_1 c : S1x64.Idx → EReal) (ix2 u j) = ∑ r : Fin 100000, hp (ix2 r j))
    (hS2 : ∀ (u : Fin 1) (j : Fin 64), (outsF m 18 main_v125_2 c : S1x64.Idx → EReal) (ix2 u j)
      = ∑ r : Fin 100000, hp (ix2 r j) * hp (ix2 r j))
    (hreal : ∀ i, ∃ x : ℝ, hp i = x) :
    outsF m 20 main_v141 c = reluF (normF hp (sliceRow (arg6 m c) (2 : Fin 4)) (sliceRow (arg7 m c) (2 : Fin 4))) := by
  have hV : ∀ b : Ref sig .tc, T19 m c b = V19 m (outsF m) c b := fun b => (congrFun (V19_eq m c) _).symm
  show W20 m c (Proc.devRef .tc main_v141) = _
  rw [W20_out5]
  refine bn_core_L2 (T19 m) c hp _ _ (outsF m 18 main_v125_1 c) (outsF m 18 main_v125_2 c) ?_ ?_ ?_ ?_ ?_ (hS1 0) (hS2 0) hreal
  · exact ((hV main_v125_0).trans (bn_hpre_L2 m (outsF m) c)).trans hhp
  · intro u j
    exact (congrFun (hV main_v127) (ix2 u j)).trans (bn_mu_L2 m (outsF m) c u j)
  · intro u j
    exact (congrFun (hV main_v134) (ix2 u j)).trans (bn_invstd_L2 m (outsF m) c u j)
  · intro u j
    exact (congrFun (hV main_v137) (ix2 u j)).trans (bn_gamma_L2 m (outsF m) c u j)
  · intro u j
    exact (congrFun (hV main_v140) (ix2 u j)).trans (bn_beta_L2 m (outsF m) c u j)

/-- The whole layer: what its last region leaves is the layer function of its input, given that the combined array
    is real-valued. -/
theorem layer_L2 (c : Dev nD) (h : Feat) (hin : outsF m 14 main_v104 c = h)
    (hreal : ∀ i, ∃ x : ℝ,
      hpreF (aggF (xwF h (sliceSq (arg4 m c) (2 : Fin 4))) (srcF (arg1 m c)) (nrmF (arg1 m c)) (dstF (arg1 m c)))
        (xwF h (sliceSq (arg4 m c) (2 : Fin 4))) (selfF (arg1 m c)) (sliceRow (arg5 m c) (2 : Fin 4)) i = x) :
    outsF m 20 main_v141 c
      = layerF h (srcF (arg1 m c)) (nrmF (arg1 m c)) (dstF (arg1 m c)) (selfF (arg1 m c))
          (arg4 m c) (arg5 m c) (arg6 m c) (arg7 m c) (2 : Fin 4) :=
  bn_L2 m c _ (hpre_L2 m c _ (xw_L2 m c h hin)) (sum_L2 m c _ (xw_L2 m c h hin)) (sumsq_L2 m c _ (xw_L2 m c h hin)) hreal

end Cert.Bridge

end
-- ==== Proof.KI.HostL3.lean ====
/- Layer 3 of the graph convolution, at the ideal values: what the buffers read by the layer's product, its combine
   and its normalisation hold when each starts. The product reads the previous features, member 3 of the stacked
   weights and a zero row; the combine reads the aggregate of the product over the edges, the product, the self weights
   and row 3 of the stacked biases; the normalisation reads the combine's output, the mean Σ/100000, the reciprocal
   deviation rsqrt(Σ²/100000 − mean² + ε) and rows 3 of the stacked scales and shifts. -/
import proofs.«147038_j12317966205319_1_alg».proof.Proof.Gen.KernelIdeal.Regions
import Idealize.ShloMosaic.Lib.ValueIdx
import Idealize.ShloMosaic.Lib.ValueLayout
import Idealize.ShloMosaic.Lib.IdealHost
import Idealize.ShloMosaic.PureOps.Ideal.Laws
import proofs.«147038_j12317966205319_1_alg».proof.Proof.KI.HostL2

set_option maxRecDepth 16384

noncomputable section

namespace Cert.KernelIdeal.Reg

open Idealize.ShloMosaic Idealize.ShloMosaic.TcCoe
open Idealize.ShloMosaic.ValueIdx
open Cert.KernelIdeal Cert.KernelIdeal.Gen

variable (m : (ℓ : Loc nD τ sig) → Buf (Elt Ideal) ℓ) (outs : Outs (F := Ideal))

/-! ## Buffers the layer does not write -/

theorem V22_keep_L3 (c : Dev nD) (r : Ref sig .tc) (ha : r ∉ hostOps10_W) (hb : r ∉ ([main_v145] : List (Ref sig .tc))) :
    V22 m outs c r = V20 m outs c r := (V22_of m outs c r hb).trans (V21_of m outs c r ha)
theorem V24_keep_L3 (c : Dev nD) (r : Ref sig .tc) (ha : r ∉ hostOps10_W) (hb : r ∉ ([main_v145] : List (Ref sig .tc)))
    (hc : r ∉ hostOps11_W) (hd : r ∉ ([main_v162_0, main_v162_1, main_v162_2] : List (Ref sig .tc))) :
    V24 m outs c r = V20 m outs c r :=
  (V24_of m outs c r hd).trans ((V23_of m outs c r hc).trans (V22_keep_L3 m outs c r ha hb))
theorem V26_keep_L3 (c : Dev nD) (r : Ref sig .tc) (ha : r ∉ hostOps10_W) (hb : r ∉ ([main_v145] : List (Ref sig .tc)))
    (hc : r ∉ hostOps11_W) (hd : r ∉ ([main_v162_0, main_v162_1, main_v162_2] : List (Ref sig .tc)))
    (he : r ∉ hostOps12_W) (hf : r ∉ ([main_v178] : List (Ref sig .tc))) :
    V26 m outs c r = V20 m outs c r :=
  (V26_of m outs c r hf).trans ((V25_of m outs c r he).trans (V24_keep_L3 m outs c r ha hb hc hd))

/-! ## The entry of the layer's product: features, the layer's weight matrix, a zero row -/

theorem mm_x_L3 (c : Dev nD) : V21 m outs c main_v141 = outs 20 main_v141 c :=
  (V21_of m outs c main_v141 (by decide)).trans (V20_x m outs c)

theorem mm_w_L3 (c : Dev nD) (k j : Fin 64) :
    (V21 m outs c main_v143 : S64x64.Idx → EReal) (ix2 k j) = (m (c, main_arg4) : S4x64x64.Idx → EReal) (ix3 (3 : Fin 4) k j) := by
  show StableHlo.after hostOps10 _ (Proc.devRef .tc main_v143) (ix2 k j) = _
  after_results
  show shapeCast S64x64 (extractStridedSlice S1x64x64 _ (V20 m outs c main_arg4 : S4x64x64.Idx → EReal) _) _ (ix2 k j) = _
  rw [V20_arg4]
  exact (shapeCast_1ab_ab_apply _ _ k j).trans (slice3_axis0_apply _ _ _ _ k j (3 : Fin 4) rfl)

theorem mm_b_L3 (c : Dev nD) (u : Fin 1) (j : Fin 64) : (V21 m outs c main_v144 : S1x64.Idx → EReal) (ix2 u j) = (0 : EReal) := by
  show StableHlo.after hostOps10 _ (Proc.devRef .tc main_v144) (ix2 u j) = _
  after_results
  exact Ideal.ofBits_zero_f32

/-! ## The entry of the layer's combine: the aggregate, the product, the self weights, the layer's bias row -/

theorem V22_xw_L3 (c : Dev nD) : V22 m outs c main_v145 = outs 22 main_v145 c := Function.update_self ..

theorem cb_agg_L3 (c : Dev nD) : V23 m outs c main_v158 = aggOf (outs 22 main_v145 c) (m (c, main_arg1)) := by
  show StableHlo.after hostOps11 _ (Proc.devRef .tc main_v158) = _
  after_results_simp
  rw [V22_xw_L3, (V22_keep_L3 m outs c main_v1 (by decide) (by decide)).trans (V20_src m outs c),
    (V22_keep_L3 m outs c main_v3 (by decide) (by decide)).trans (V20_dst m outs c),
    (V22_keep_L3 m outs c main_v26 (by decide) (by decide)).trans (V20_normE m outs c)]
  rfl

theorem cb_xw_L3 (c : Dev nD) : V23 m outs c main_v145 = outs 22 main_v145 c :=
  (V23_of m outs c main_v145 (by decide)).trans (V22_xw_L3 m outs c)

theorem cb_selfn_L3 (c : Dev nD) : V23 m outs c main_v28 = selfnOf (m (c, main_arg1)) :=
  (V23_of m outs c main_v28 (by decide)).trans ((V22_keep_L3 m outs c main_v28 (by decide) (by decide)).trans (V20_selfn m outs c))

theorem cb_convb_L3 (c : Dev nD) (u : Fin 1) (j : Fin 64) :
    (V23 m outs c main_v161 : S1x64.Idx → EReal) (ix2 u j) = (m (c, main_arg5) : S4x64.Idx → EReal) (ix2 (3 : Fin 4) j) := by
  show StableHlo.after hostOps11 _ (Proc.devRef .tc main_v161) (ix2 u j) = _
  after_results
  show shapeCast S1x64 (shapeCast S64 (extractStridedSlice S1x64 _ (V22 m outs c main_arg5 : S4x64.Idx → EReal) _) _) _ (ix2 u j) = _
  rw [(V22_keep_L3 m outs c main_arg5 (by decide) (by decide)).trans (V20_arg5 m outs c)]
  exact (shapeCast_a_1a_apply _ _ u j).trans ((shapeCast_1a_a_apply _ _ j).trans
    (slice2_axis0_apply _ _ _ (0 : Fin 1) j (3 : Fin 4) rfl))

/-! ## The entry of the layer's normalisation: the combine's three outputs, the mean and the reciprocal deviation
    computed from its two column sums, the layer's scale and shift rows -/

theorem V24_hpre_L3 (c : Dev nD) : V24 m outs c main_v162_0 = outs 24 main_v162_0 c := by
  show Function.update (Function.update (Function.update (V23 m outs c) main_v162_0 _) main_v162_1 _) main_v162_2 _ main_v162_0 = _
  rw [Function.update_of_ne (StableHlo.devRef_ne_of_ne (by decide)), Function.update_of_ne (StableHlo.devRef_ne_of_ne (by decide)),
    Function.update_self]
theorem V24_sum_L3 (c : Dev nD) : V24 m outs c main_v162_1 = outs 24 main_v162_1 c := by
  show Function.update (Function.update (Function.update (V23 m outs c) main_v162_0 _) main_v162_1 _) main_v162_2 _ main_v162_1 = _
  rw [Function.update_of_ne (StableHlo.devRef_ne_of_ne (by decide)), Function.update_self]
theorem V24_sumsq_L3 (c : Dev nD) : V24 m outs c main_v162_2 = outs 24 main_v162_2 c := Function.update_self ..

theorem bn_hpre_L3 (c : Dev nD) : V25 m outs c main_v162_0 = outs 24 main_v162_0 c :=
  (V25_of m outs c main_v162_0 (by decide)).trans (V24_hpre_L3 m outs c)

theorem bn_mu_L3 (c : Dev nD) (u : Fin 1) (j : Fin 64) :
    (V25 m outs c main_v164 : S1x64.Idx → EReal) (ix2 u j)
      = Ideal.div ((outs 24 main_v162_1 c : S1x64.Idx → EReal) (ix2 u j)) (Ideal.ofBits .f32 0x47C35000#32) := by
  show StableHlo.after hostOps12 _ (Proc.devRef .tc main_v164) (ix2 u j) = _
  after_results
  rw [V24_sum_L3]
  rfl

theorem bn_invstd_L3 (c : Dev nD) (u : Fin 1) (j : Fin 64) :
    (V25 m outs c main_v171 : S1x64.Idx → EReal) (ix2 u j)
      = Ideal.rsqrt ((Ideal.div ((outs 24 main_v162_2 c : S1x64.Idx → EReal) (ix2 u j)) (Ideal.ofBits .f32 0x47C35000#32)
            - Ideal.div ((outs 24 main_v162_1 c : S1x64.Idx → EReal) (ix2 u j)) (Ideal.ofBits .f32 0x47C35000#32)
              * Ideal.div ((outs 24 main_v162_1 c : S1x64.Idx → EReal) (ix2 u j)) (Ideal.ofBits .f32 0x47C35000#32))
          + Ideal.ofBits .f32 0x3727C5AC#32) := by
  show StableHlo.after hostOps12 _ (Proc.devRef .tc main_v171) (ix2 u j) = _
  after_results
  rw [V24_sum_L3, V24_sumsq_L3]
  rfl

theorem bn_gamma_L3 (c : Dev nD) (u : Fin 1) (j : Fin 64) :
    (V25 m outs c main_v174 : S1x64.Idx → EReal) (ix2 u j) = (m (c, main_arg6) : S4x64.Idx → EReal) (ix2 (3 : Fin 4) j) := by
  show StableHlo.after hostOps12 _ (Proc.devRef .tc main_v174) (ix2 u j) = _
  after_results
  show shapeCast S1x64 (shapeCast S64 (extractStridedSlice S1x64 _ (V24 m outs c main_arg6 : S4x64.Idx → EReal) _) _) _ (ix2 u j) = _
  rw [(V24_keep_L3 m outs c main_arg6 (by decide) (by decide) (by decide) (by decide)).trans (V20_arg6 m outs c)]
  exact (shapeCast_a_1a_apply _ _ u j).trans ((shapeCast_1a_a_apply _ _ j).trans
    (slice2_axis0_apply _ _ _ (0 : Fin 1) j (3 : Fin 4) rfl))

theorem bn_beta_L3 (c : Dev nD) (u : Fin 1) (j : Fin 64) :
    (V25 m outs c main_v177 : S1x64.Idx → EReal) (ix2 u j) = (m (c, main_arg7) : S4x64.Idx → EReal) (ix2 (3 : Fin 4) j) := by
  show StableHlo.after hostOps12 _ (Proc.devRef .tc main_v177) (ix2 u j) = _
  after_results
  show shapeCast S1x64 (shapeCast S64 (extractStridedSlice S1x64 _ (V24 m outs c main_arg7 : S4x64.Idx → EReal) _) _) _ (ix2 u j) = _
  rw [(V24_keep_L3 m outs c main_arg7 (by decide) (by decide) (by decide) (by decide)).trans (V20_arg7 m outs c)]
  exact (shapeCast_a_1a_apply _ _ u j).trans ((shapeCast_1a_a_apply _ _ j).trans
    (slice2_axis0_apply _ _ _ (0 : Fin 1) j (3 : Fin 4) rfl))

/-! ## What the layer leaves for the next -/

theorem V26_x (c : Dev nD) : V26 m outs c main_v178 = outs 26 main_v178 c := Function.update_self ..
theorem V26_src (c : Dev nD) : V26 m outs c main_v1 = srcOf (m (c, main_arg1)) :=
  (V26_keep_L3 m outs c main_v1 (by decide) (by decide) (by decide) (by decide) (by decide) (by decide)).trans (V20_src m outs c)
theorem V26_dst (c : Dev nD) : V26 m outs c main_v3 = dstOf (m (c, main_arg1)) :=
  (V26_keep_L3 m outs c main_v3 (by decide) (by decide) (by decide) (by decide) (by decide) (by decide)).trans (V20_dst m outs c)
theorem V26_normE (c : Dev nD) : V26 m outs c main_v26 = normEOf (m (c, main_arg1)) :=
  (V26_keep_L3 m outs c main_v26 (by decide) (by decide) (by decide) (by decide) (by decide) (by decide)).trans (V20_normE m outs c)
theorem V26_selfn (c : Dev nD) : V26 m outs c main_v28 = selfnOf (m (c, main_arg1)) :=
  (V26_keep_L3 m outs c main_v28 (by decide) (by decide) (by decide) (by decide) (by decide) (by decide)).trans (V20_selfn m outs c)
theorem V26_arg4 (c : Dev nD) : V26 m outs c main_arg4 = m (c, main_arg4) :=
  (V26_keep_L3 m outs c main_arg4 (by decide) (by decide) (by decide) (by decide) (by decide) (by decide)).trans (V20_arg4 m outs c)
theorem V26_arg5 (c : Dev nD) : V26 m outs c main_arg5 = m (c, main_arg5) :=
  (V26_keep_L3 m outs c main_arg5 (by decide) (by decide) (by decide) (by decide) (by decide) (by decide)).trans (V20_arg5 m outs c)
theorem V26_arg6 (c : Dev nD) : V26 m outs c main_arg6 = m (c, main_arg6) :=
  (V26_keep_L3 m outs c main_arg6 (by decide) (by decide) (by decide) (by decide) (by decide) (by decide)).trans (V20_arg6 m outs c)
theorem V26_arg7 (c : Dev nD) : V26 m outs c main_arg7 = m (c, main_arg7) :=
  (V26_keep_L3 m outs c main_arg7 (by decide) (by decide) (by decide) (by decide) (by decide) (by decide)).trans (V20_arg7 m outs c)
theorem V26_arg8 (c : Dev nD) : V26 m outs c main_arg8 = m (c, main_arg8) :=
  (V26_keep_L3 m outs c main_arg8 (by decide) (by decide) (by decide) (by decide) (by decide) (by decide)).trans (V20_arg8 m outs c)
theorem V26_arg9 (c : Dev nD) : V26 m outs c main_arg9 = m (c, main_arg9) :=
  (V26_keep_L3 m outs c main_arg9 (by decide) (by decide) (by decide) (by decide) (by decide) (by decide)).trans (V20_arg9 m outs c)

end Cert.KernelIdeal.Reg
-- ==== Proof.KI.Val10.lean ====
import proofs.«147038_j12317966205319_1_alg».proof.Proof.KI.Fr10
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the buffer contents when the region is entered, over the extended reals
variable (V : (c : Dev nD) → (b : Ref sig .tc) → Buf (Elt Ideal) ((c : Thread nD τ).loc b))

/-! # The value of a product of rows with a weight matrix, plus a bias row, over the extended reals

Row `r` of the output depends on row `r` of the left operand alone, on the whole weight matrix and on the whole bias
row: entry `(r, j)` is the sum over `k` of `x (r, k) * w (k, j)`, plus `b (0, j)`. Over the extended reals the
two narrowings to sixteen bits are the identity and the accumulator starts at zero, so nothing else is left. -/

/-! ## The entry arrays, at their literal types -/

/-- The left operand: a hundred thousand rows. -/
abbrev val10_0 (c : Dev nD) : S100000x64.Idx → EReal := V c (Pipeline.arrRef spec10 0)
/-- The weight matrix. -/
abbrev val10_1 (c : Dev nD) : S64x64.Idx → EReal := V c (Pipeline.arrRef spec10 1)
/-- The bias row. -/
abbrev val10_2 (c : Dev nD) : S1x64.Idx → EReal := V c (Pipeline.arrRef spec10 2)

/-- The output as one function of the three entry arrays, index by index. -/
abbrev val10_3 (c : Dev nD) : S100000x64.Idx → EReal := fun i =>
  (∑ k : Fin 64, val10_0 V c (ix2 (i 0) k) * val10_1 V c (ix2 k (i 1))) + val10_2 V c (ix2 (0 : Fin 1) (i 1))

/-! ## The contraction read at an index

The product contracts the left operand's columns with the weight matrix's rows. At output index `(p, q)` and
contraction coordinate `k` the left factor sits at `(p, k)` and the right factor at `(k, q)`. -/

theorem idx10_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem idx10_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem idx10_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem idx10_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product accumulated from zero, read at `(p, q)`: the sum over the contraction coordinate. -/
theorem val10_dot (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun ax => Fin.ext (by
    match ax with
    | ⟨0, _⟩ => exact idx10_lhs_0 _ _
    | ⟨1, _⟩ => exact (idx10_lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun ax => Fin.ext (by
    match ax with
    | ⟨0, _⟩ => exact (idx10_rhs_0 _ _).trans hk
    | ⟨1, _⟩ => exact idx10_rhs_1 _ _)
  rw [el, er]

/-! ## The body's payload at an index -/

/-- What the body stores at `(p, q)` of the tile, from the three blocks it loaded: the contraction of row `p` of
    the row tile with column `q` of the weight matrix, plus the bias at `q`. -/
theorem val10_pay (x0 : Vec Ideal S10000x64 .f32) (x1 : Vec Ideal S64x64 .f32) (x2 : Vec Ideal S1x64 .f32) (p : Fin 10000) (q : Fin 64) :
    k10_pay1 (F := Ideal) x0 x1 x2 (ix2 p q) = (∑ k : Fin 64, x0 (ix2 p k) * x1 (ix2 k q)) + x2 (ix2 (0 : Fin 1) q) := by
  unfold k10_pay1
  show matmul dot_S10000x64_S64x64_S10000x64_1_0_0_1_n_n none (truncf .bf16 (shapeCast S10000x64 x0 shapeCasts_S10000x64_S10000x64) bitsLt_bf16_f32) (truncf .bf16 (shapeCast S64x64 x1 shapeCasts_S64x64_S64x64) bitsLt_bf16_f32)
        (constant (F := Ideal) S10000x64 .f32 0x00000000#32) (ix2 p q)
      + broadcastTo S10000x64 (shapeCast S1x64 x2 shapeCasts_S1x64_S1x64) broadcasts_S1x64_S10000x64 (ix2 p q) = _
  have ha : ∀ i, (truncf .bf16 (shapeCast S10000x64 x0 shapeCasts_S10000x64_S10000x64) bitsLt_bf16_f32 : FVec Ideal S10000x64 .bf16) i = x0 i := fun i => congrFun (shapeCast_self x0 shapeCasts_S10000x64_S10000x64) i
  have hb : ∀ i, (truncf .bf16 (shapeCast S64x64 x1 shapeCasts_S64x64_S64x64) bitsLt_bf16_f32 : FVec Ideal S64x64 .bf16) i = x1 i := fun i => congrFun (shapeCast_self x1 shapeCasts_S64x64_S64x64) i
  refine congrArg₂ (· + ·) ((val10_dot _ _ p q).trans (Finset.sum_congr rfl fun k _ => congrArg₂ (· * ·) (ha _) (hb _))) ?_
  exact (broadcastTo_1b_ab_apply (shapeCast S1x64 x2 shapeCasts_S1x64_S1x64) broadcasts_S1x64_S10000x64 p q).trans
    (congrFun (shapeCast_self x2 shapeCasts_S1x64_S1x64) (ix2 (0 : Fin 1) q))

/-! ## Where each window's block sits in its array -/

theorem idx10_hz : (![0, 0] : Fin 2 → Nat) = fun _ => 0 := funext fun a => by fin_cases a <;> rfl

/-- The printed index maps, decided over the ten points: the row tile and the output tile are at block row `t`,
    block column 0; the weight matrix and the bias row are their arrays whole. -/
theorem idx10_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- Entry `(p, k)` of the row tile at point `t` is entry `(t * 10000 + p, k)` of the left operand. -/
theorem val10_0_blk (c : Dev nD) (t : Fin cfg10.N) (p : Fin 10000) (k : Fin 64) (r : Fin 100000) (hr : r.val = t.val * 10000 + p.val) :
    (iblk10 V c 0 t : S10000x64.Idx → EReal) (ix2 p k) = val10_0 V c (ix2 r k) := by
  show V c (Pipeline.arrRef spec10 0) (((cfg10.win 0).blk t).view.emb (ix2 p k)) = V c (Pipeline.arrRef spec10 0) (ix2 r k)
  obtain ⟨ea, eb, -⟩ := idx10_facts t
  refine congrArg _ (funext fun ax => Fin.ext ?_)
  match ax with
  | ⟨0, _⟩ => show win10_0.index t (0 : Fin 2) * 10000 + 1 * p.val = r.val; omega
  | ⟨1, _⟩ => show win10_0.index t (1 : Fin 2) * 64 + 1 * k.val = k.val; omega

/-- The weight matrix's block is the matrix, at every point. -/
theorem val10_1_blk (c : Dev nD) (t : Fin cfg10.N) (k : Fin 64) (q : Fin 64) :
    (iblk10 V c 1 t : S64x64.Idx → EReal) (ix2 k q) = val10_1 V c (ix2 k q) := by
  show V c (Pipeline.arrRef spec10 1) (((cfg10.win 1).blk t).view.emb (ix2 k q)) = V c (Pipeline.arrRef spec10 1) (ix2 k q)
  obtain ⟨-, -, ec, ed, -⟩ := idx10_facts t
  refine congrArg _ (funext fun ax => Fin.ext ?_)
  match ax with
  | ⟨0, _⟩ => show win10_1.index t (0 : Fin 2) * 64 + 1 * k.val = k.val; omega
  | ⟨1, _⟩ => show win10_1.index t (1 : Fin 2) * 64 + 1 * q.val = q.val; omega

/-- The bias row's block is the row, at every point. -/
theorem val10_2_blk (c : Dev nD) (t : Fin cfg10.N) (q : Fin 64) :
    (iblk10 V c 2 t : S1x64.Idx → EReal) (ix2 (0 : Fin 1) q) = val10_2 V c (ix2 (0 : Fin 1) q) := by
  show V c (Pipeline.arrRef spec10 2) (((cfg10.win 2).blk t).view.emb (ix2 (0 : Fin 1) q)) = V c (Pipeline.arrRef spec10 2) (ix2 (0 : Fin 1) q)
  obtain ⟨-, -, -, -, ee, ef, -⟩ := idx10_facts t
  refine congrArg _ (funext fun ax => Fin.ext ?_)
  match ax with
  | ⟨0, _⟩ => show win10_2.index t (0 : Fin 2) * 1 + 1 * (0 : Fin 1).val = (0 : Fin 1).val; omega
  | ⟨1, _⟩ => show win10_2.index t (1 : Fin 2) * 64 + 1 * q.val = q.val; omega

/-! ## What a point writes back -/

/-- What point `t` writes back to the output is block `t` of the closed form: rows `t * 10000` to
    `t * 10000 + 9999`. -/
theorem flushed10_3 (c : Dev nD) (t : Fin cfg10.N) :
    (dat10 (F := Ideal) V c).flushed 3 t = ((cfg10.win 3).blk t).view.read (Elt Ideal) (val10_3 V c) := by
  show (cfg10.win 3).cut (grid10.coords t) ((dat10 (F := Ideal) V c).after 3 t) = _
  rw [after10_3]
  unfold out10_3
  rw [View.canon_unit_zero idx10_hz]
  simp only [View.ld_unit_zero (S := S10000x64) idx10_hz, View.ld_unit_zero (S := S64x64) idx10_hz, View.ld_unit_zero (S := S1x64) idx10_hz]
  obtain ⟨-, -, -, -, -, -, eg, eh⟩ := idx10_facts t
  have ht : t.val < 10 := lt_of_lt_of_eq t.isLt N_10
  funext j
  obtain ⟨p, q, rfl⟩ : ∃ (p : Fin 10000) (q : Fin 64), j = ix2 p q := ⟨j 0, j 1, eq_ix2 j⟩
  have hp : p.val < 10000 := p.isLt
  refine (val10_pay (iblk10 V c 0 t) (iblk10 V c 1 t) (iblk10 V c 2 t) p q).trans ?_
  have hE : ((cfg10.win 3).blk t).view.emb (ix2 p q) = (ix2 (⟨t.val * 10000 + p.val, by omega⟩ : Fin 100000) q : S100000x64.Idx) :=
    funext fun ax => Fin.ext (by
      match ax with
      | ⟨0, _⟩ => show win10_3.index t (0 : Fin 2) * 10000 + 1 * p.val = t.val * 10000 + p.val; omega
      | ⟨1, _⟩ => show win10_3.index t (1 : Fin 2) * 64 + 1 * q.val = q.val; omega)
  show _ = val10_3 V c (((cfg10.win 3).blk t).view.emb (ix2 p q))
  rw [hE]
  exact congrArg₂ (· + ·)
    (Finset.sum_congr rfl fun k _ => congrArg₂ (· * ·) (val10_0_blk V c t p k _ rfl) (val10_1_blk V c t k q))
    (val10_2_blk V c t q)

/-! ## The ten tiles cover the output -/

/-- An index of the output is in point `t`'s block iff each coordinate is in the block's range on its axis. -/
theorem idx10_mem_3 (t : Fin cfg10.N) (i : S100000x64.Idx) :
    i ∈ ((cfg10.win 3).blk t).view.set ↔ ∀ a : Fin 2, win10_3.index t a * S10000x64.size a ≤ (i a).val ∧ (i a).val < win10_3.index t a * S10000x64.size a + S10000x64.size a := by
  show i ∈ ((View.whole (Pipeline.arrRef spec10 3)).slice (win10_3.rect t)).set ↔ _
  rw [View.set_slice_whole, Rect.mem_set_unit]
  exact Iff.rfl

/-- Row `r` of the output is in the block of point `r / 10000`, which writes back. -/
theorem idx10_cover_3 (i : S100000x64.Idx) :
    ∃ t : Fin cfg10.N, (cfg10.win 3).flush t = true ∧ i ∈ ((cfg10.win 3).blk t).view.set := by
  have hia : (i 0).val < 100000 := (i 0).isLt
  have hib : (i 1).val < 64 := (i 1).isLt
  have ht : (i 0).val / 10000 < cfg10.N := by rw [show cfg10.N = 10 from N_10]; omega
  obtain ⟨-, -, -, -, -, -, eg, eh⟩ := idx10_facts ⟨(i 0).val / 10000, ht⟩
  have hv : (⟨(i 0).val / 10000, ht⟩ : Fin cfg10.N).val = (i 0).val / 10000 := rfl
  refine ⟨⟨(i 0).val / 10000, ht⟩, flush10_3 _, ?_⟩
  rw [idx10_mem_3]
  intro a
  match a with
  | ⟨0, _⟩ =>
    show win10_3.index ⟨(i 0).val / 10000, ht⟩ (0 : Fin 2) * 10000 ≤ (i 0).val ∧ (i 0).val < win10_3.index ⟨(i 0).val / 10000, ht⟩ (0 : Fin 2) * 10000 + 10000
    omega
  | ⟨1, _⟩ =>
    show win10_3.index ⟨(i 0).val / 10000, ht⟩ (1 : Fin 2) * 64 ≤ (i 1).val ∧ (i 1).val < win10_3.index ⟨(i 0).val / 10000, ht⟩ (1 : Fin 2) * 64 + 64
    omega

/-! ## The output array after the region -/

/-- After the ten points the output array is the closed form everywhere: entry `(r, j)` is the sum over `k` of
    `x (r, k) * w (k, j)`, plus `b (0, j)`, of the arrays as the region found them. -/
theorem arr10_3 (c : Dev nD) : (dat10 (F := Ideal) V c).arrAt 3 cfg10.N = fun i : S100000x64.Idx =>
    (∑ k : Fin 64, val10_0 V c (ix2 (i 0) k) * val10_1 V c (ix2 k (i 1))) + val10_2 V c (ix2 (0 : Fin 1) (i 1)) :=
  (dat10 (F := Ideal) V c).arrAt_eq_of_cover 3 (val10_3 V c) (fun t _ => flushed10_3 V c t) (idx10_cover_3)

end Cert.KernelIdeal.Reg

end
-- ==== Proof.KI.Val12.lean ====
import proofs.«147038_j12317966205319_1_alg».proof.Proof.KI.Fr12
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered, over the extended reals
variable (V : (c : Dev nD) → (b : Ref sig .tc) → Buf (Elt Ideal) ((c : Thread nD τ).loc b))

/-! # The normalize-and-clamp region over the extended reals: the output array, index by index -/

/-! ## The entry arrays, at their literal types: the rows (window 0) and the four single rows (windows 1 … 4) -/

abbrev val12_0 (c : Dev nD) : S100000x64.Idx → EReal := V c (Pipeline.arrRef spec12 0)
abbrev val12_1 (c : Dev nD) : S1x64.Idx → EReal := V c (Pipeline.arrRef spec12 1)
abbrev val12_2 (c : Dev nD) : S1x64.Idx → EReal := V c (Pipeline.arrRef spec12 2)
abbrev val12_3 (c : Dev nD) : S1x64.Idx → EReal := V c (Pipeline.arrRef spec12 3)
abbrev val12_4 (c : Dev nD) : S1x64.Idx → EReal := V c (Pipeline.arrRef spec12 4)

/-- The zero offsets of every access, however spelt. -/
theorem idx12_zero : (![0, 0] : Fin 2 → Nat) = fun _ => 0 := funext fun a => by fin_cases a <;> rfl

/-! ## The payload at an index: each single row is read at its column, whatever the row of the block -/

/-- At row `p`, column `q` of a block: the row of window 3 times (the entry less the row of window 1), times the row of
    window 2, plus the row of window 4, and the larger of that and zero. -/
theorem pay12_apply (xa : Vec Ideal S10000x64 .f32) (xd xb xc xe : Vec Ideal S1x64 .f32) (p : Fin 10000) (q : Fin 64) :
    k12_pay1 xa xd xb xc xe (ix2 p q)
      = max (xd (ix2 0 q) * (xa (ix2 p q) - xb (ix2 0 q)) * xc (ix2 0 q) + xe (ix2 0 q)) 0 := by
  unfold k12_pay1
  simp only [maximumf_apply, addf_apply, mulf_apply, subf_apply, broadcast_apply, shapeCast_self,
    broadcastTo_1b_ab_apply]
  exact congrArg (max _) Ideal.ofBits_zero_f32

/-! ## The windows' block indices, decided over the grid -/

/-- The rows window and the output window move together, one block of rows per point; the four single rows stay put. -/
theorem idx12_facts : ∀ t : Fin cfg12.N,
    win12_0.index t (0 : Fin 2) = win12_5.index t (0 : Fin 2) ∧ win12_0.index t (1 : Fin 2) = win12_5.index t (1 : Fin 2)
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) ≤ 9 ∧ win12_5.index t (1 : Fin 2) = 0 :=
  (by decide +kernel : ∀ t : Fin grid12.N, _)

/-- Every block of rows of the output is some point's. -/
theorem idx12_onto : ∀ b : Fin 10, ∃ t : Fin cfg12.N, win12_5.index t = ![b.val, 0] :=
  (by decide +kernel : ∀ b : Fin 10, ∃ t : Fin grid12.N, win12_5.index t = ![b.val, 0])

/-! ## The closed form, and what a point writes back -/

/-- The output array's closed form: at row `i 0`, column `i 1`, the entry of window 0 normalized by the single rows at
    that column, and the larger of that and zero. -/
abbrev val12_5 (c : Dev nD) : S100000x64.Idx → EReal := fun i =>
  max (val12_3 V c (ix2 0 (i 1)) * (val12_0 V c (ix2 (i 0) (i 1)) - val12_1 V c (ix2 0 (i 1))) * val12_2 V c (ix2 0 (i 1)) + val12_4 V c (ix2 0 (i 1))) 0

/-! ## A window's block at a point reads its entry array at the block's coordinates -/

theorem val12_blk_0 (c : Dev nD) (t : Fin cfg12.N) (y : S10000x64.Idx) :
    iblk12 V c 0 t y = val12_0 V c (((cfg12.win 0).blk t).view.emb y) := rfl
theorem val12_blk_1 (c : Dev nD) (t : Fin cfg12.N) (y : S1x64.Idx) :
    iblk12 V c 1 t y = val12_1 V c (((cfg12.win 1).blk t).view.emb y) := rfl
theorem val12_blk_2 (c : Dev nD) (t : Fin cfg12.N) (y : S1x64.Idx) :
    iblk12 V c 2 t y = val12_2 V c (((cfg12.win 2).blk t).view.emb y) := rfl
theorem val12_blk_3 (c : Dev nD) (t : Fin cfg12.N) (y : S1x64.Idx) :
    iblk12 V c 3 t y = val12_3 V c (((cfg12.win 3).blk t).view.emb y) := rfl
theorem val12_blk_4 (c : Dev nD) (t : Fin cfg12.N) (y : S1x64.Idx) :
    iblk12 V c 4 t y = val12_4 V c (((cfg12.win 4).blk t).view.emb y) := rfl
/-- and the closed form's block reads the closed form there. -/
theorem val12_blk_5 (c : Dev nD) (t : Fin cfg12.N) (j : S10000x64.Idx) :
    ((cfg12.win 5).blk t).view.read (Elt Ideal) (val12_5 V c) j = val12_5 V c (((cfg12.win 5).blk t).view.emb j) := rfl

/-- What point `t` writes back is block `t` of the closed form. -/
theorem flushed12_5 (c : Dev nD) (t : Fin cfg12.N) :
    (dat12 (F := Ideal) V c).flushed 5 t = ((cfg12.win 5).blk t).view.read (Elt Ideal) (val12_5 V c) := by
  show (cfg12.win 5).cut (grid12.coords t) ((dat12 (F := Ideal) V c).after 5 t) = _
  rw [after12_5]
  unfold out12_5
  rw [View.canon_unit_zero idx12_zero]
  simp only [View.ld_unit_zero (S := S10000x64) idx12_zero, View.ld_unit_zero (S := S1x64) idx12_zero]
  obtain ⟨ea0, ea1, eb0, eb1, ec0, ec1, ed0, ed1, ee0, ee1, ef0, ef1⟩ := idx12_facts t
  funext (j : S10000x64.Idx)
  have hj0 : (j 0).val < 10000 := (j 0).isLt
  have hj1 : (j 1).val < 64 := (j 1).isLt
  refine ((congrArg (k12_pay1 (iblk12 V c 0 t) (iblk12 V c 3 t) (iblk12 V c 1 t) (iblk12 V c 2 t) (iblk12 V c 4 t)) (eq_ix2 j)).trans
    (pay12_apply (iblk12 V c 0 t) (iblk12 V c 3 t) (iblk12 V c 1 t) (iblk12 V c 2 t) (iblk12 V c 4 t) (j 0) (j 1))).trans ?_
  have ha : ((cfg12.win 0).blk t).view.emb (ix2 (j 0) (j 1)) = ix2 ((((cfg12.win 5).blk t).view.emb j : S100000x64.Idx) 0) ((((cfg12.win 5).blk t).view.emb j : S100000x64.Idx) 1) := by
    funext a; apply Fin.ext
    match a with
    | ⟨0, _⟩ => show win12_0.index t (0 : Fin 2) * 10000 + 1 * (j 0).val = win12_5.index t (0 : Fin 2) * 10000 + 1 * (j 0).val; omega
    | ⟨1, _⟩ => show win12_0.index t (1 : Fin 2) * 64 + 1 * (j 1).val = win12_5.index t (1 : Fin 2) * 64 + 1 * (j 1).val; omega
  have hb : ((cfg12.win 1).blk t).view.emb (ix2 0 (j 1)) = ix2 0 ((((cfg12.win 5).blk t).view.emb j : S100000x64.Idx) 1) := by
    funext a; apply Fin.ext
    match a with
    | ⟨0, _⟩ => show win12_1.index t (0 : Fin 2) * 1 + 1 * 0 = 0; omega
    | ⟨1, _⟩ => show win12_1.index t (1 : Fin 2) * 64 + 1 * (j 1).val = win12_5.index t (1 : Fin 2) * 64 + 1 * (j 1).val; omega
  have hc : ((cfg12.win 2).blk t).view.emb (ix2 0 (j 1)) = ix2 0 ((((cfg12.win 5).blk t).view.emb j : S100000x64.Idx) 1) := by
    funext a; apply Fin.ext
    match a with
    | ⟨0, _⟩ => show win12_2.index t (0 : Fin 2) * 1 + 1 * 0 = 0; omega
    | ⟨1, _⟩ => show win12_2.index t (1 : Fin 2) * 64 + 1 * (j 1).val = win12_5.index t (1 : Fin 2) * 64 + 1 * (j 1).val; omega
  have hd : ((cfg12.win 3).blk t).view.emb (ix2 0 (j 1)) = ix2 0 ((((cfg12.win 5).blk t).view.emb j : S100000x64.Idx) 1) := by
    funext a; apply Fin.ext
    match a with
    | ⟨0, _⟩ => show win12_3.index t (0 : Fin 2) * 1 + 1 * 0 = 0; omega
    | ⟨1, _⟩ => show win12_3.index t (1 : Fin 2) * 64 + 1 * (j 1).val = win12_5.index t (1 : Fin 2) * 64 + 1 * (j 1).val; omega
  have he : ((cfg12.win 4).blk t).view.emb (ix2 0 (j 1)) = ix2 0 ((((cfg12.win 5).blk t).view.emb j : S100000x64.Idx) 1) := by
    funext a; apply Fin.ext
    match a with
    | ⟨0, _⟩ => show win12_4.index t (0 : Fin 2) * 1 + 1 * 0 = 0; omega
    | ⟨1, _⟩ => show win12_4.index t (1 : Fin 2) * 64 + 1 * (j 1).val = win12_5.index t (1 : Fin 2) * 64 + 1 * (j 1).val; omega
  exact (congrArg (fun z : EReal => max z 0)
    (congrArg₂ (fun x y : EReal => x + y)
      (congrArg₂ (fun x y : EReal => x * y)
        (congrArg₂ (fun x y : EReal => x * y) ((val12_blk_3 V c t (ix2 0 (j 1))).trans (congrArg (val12_3 V c) hd))
          (congrArg₂ (fun x y : EReal => x - y) ((val12_blk_0 V c t (ix2 (j 0) (j 1))).trans (congrArg (val12_0 V c) ha)) ((val12_blk_1 V c t (ix2 0 (j 1))).trans (congrArg (val12_1 V c) hb))))
        ((val12_blk_2 V c t (ix2 0 (j 1))).trans (congrArg (val12_2 V c) hc)))
      ((val12_blk_4 V c t (ix2 0 (j 1))).trans (congrArg (val12_4 V c) he)))).trans (val12_blk_5 V c t j).symm

/-! ## From the blocks to the array -/

/-- An index of the array is in point `t`'s block iff each coordinate is in the block's range on its axis. -/
theorem idx12_mem (t : Fin cfg12.N) (i : S100000x64.Idx) :
    i ∈ ((cfg12.win 5).blk t).view.set ↔ ∀ a : Fin 2, win12_5.index t a * S10000x64.size a ≤ (i a).val ∧ (i a).val < win12_5.index t a * S10000x64.size a + S10000x64.size a := by
  show i ∈ ((View.whole (Pipeline.arrRef spec12 5)).slice (win12_5.rect t)).set ↔ _
  rw [View.set_slice_whole, Rect.mem_set_unit]
  exact Iff.rfl

/-- Every index of the array is in the block of the point its row divided by 10000 names; every point writes back. -/
theorem idx12_cover (i : S100000x64.Idx) :
    ∃ t : Fin cfg12.N, (cfg12.win 5).flush t = true ∧ i ∈ ((cfg12.win 5).blk t).view.set := by
  have hi0 : (i 0).val < 100000 := (i 0).isLt
  have hi1 : (i 1).val < 64 := (i 1).isLt
  obtain ⟨t, ht⟩ := idx12_onto ⟨(i 0).val / 10000, by omega⟩
  have q0 : win12_5.index t (0 : Fin 2) = (i 0).val / 10000 := congrFun ht 0
  have q1 : win12_5.index t (1 : Fin 2) = 0 := congrFun ht 1
  refine ⟨t, flush12_5 t, ?_⟩
  rw [idx12_mem]
  intro a
  match a with
  | ⟨0, _⟩ => show win12_5.index t (0 : Fin 2) * 10000 ≤ (i 0).val ∧ (i 0).val < win12_5.index t (0 : Fin 2) * 10000 + 10000; omega
  | ⟨1, _⟩ => show win12_5.index t (1 : Fin 2) * 64 ≤ (i 1).val ∧ (i 1).val < win12_5.index t (1 : Fin 2) * 64 + 64; omega

/-- The output array after the region: at row `i 0`, column `i 1`, the row of window 3 times (the entry of window 0 less
    the row of window 1), times the row of window 2, plus the row of window 4, and the larger of that and zero. -/
theorem arr12_5 (c : Dev nD) : (dat12 (F := Ideal) V c).arrAt 5 cfg12.N = fun (i : S100000x64.Idx) =>
    max (val12_3 V c (ix2 0 (i 1)) * (val12_0 V c (ix2 (i 0) (i 1)) - val12_1 V c (ix2 0 (i 1))) * val12_2 V c (ix2 0 (i 1)) + val12_4 V c (ix2 0 (i 1))) 0 :=
  (dat12 (F := Ideal) V c).arrAt_eq_of_cover 5 (val12_5 V c) (fun t _ => flushed12_5 V c t) idx12_cover

/-- The same at row `r`, column `j`. -/
theorem arr12_5_apply (c : Dev nD) (r : Fin 100000) (j : Fin 64) :
    (dat12 (F := Ideal) V c).arrAt 5 cfg12.N (ix2 r j) = max (val12_3 V c (ix2 0 j) * (val12_0 V c (ix2 r j) - val12_1 V c (ix2 0 j)) * val12_2 V c (ix2 0 j) + val12_4 V c (ix2 0 j)) 0 :=
  congrFun (arr12_5 V c) (ix2 r j)

end Cert.KernelIdeal.Reg

end
-- ==== Proof.Bridge.L3Core.lean ====
import proofs.«147038_j12317966205319_1_alg».proof.Proof.KI.Val10
import proofs.«147038_j12317966205319_1_alg».proof.Proof.KI.Val12
import proofs.«147038_j12317966205319_1_alg».proof.Proof.Ref.StageFns
import proofs.«147038_j12317966205319_1_alg».proof.Proof.Alg.Real
import proofs.«147038_j12317966205319_1_alg».proof.Proof.Alg.Var
import proofs.«147038_j12317966205319_1_alg».proof.Proof.Bridge.StageFacts

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat WSq Row xwF meanF varF colSumF normF reluF)
open scoped BigOperators

/-! # One layer's two pointwise-in-rows regions against the layer's stage functions

The product region leaves, at `(r, j)`, the sum over `k` of `h (r, k) * w (k, j)` plus a bias row that is zero: the
product `h · W`. The normalising region leaves `max (γ · (hpre − μ) · s + β) 0` with `μ` the column sum over the row
count and `s` the reciprocal square root of the moment form of the variance plus the offset; on real data the moment
form is the centred form, so this is the maximum with zero of the normalised array. -/

variable (V : (c : Dev nD) → (b : Ref sig .tc) → Buf (Elt Ideal) ((c : Thread nD τ).loc b))

/-- The product region's output from what its operand arrays hold: the bias row is zero, so the product alone. -/
theorem xw_core_L3 (c : Dev nD) (h : Feat) (w : WSq)
    (hx : (val10_0 V c : S100000x64.Idx → EReal) = h)
    (hw : ∀ (k j : Fin 64), val10_1 V c (ix2 k j) = w (ix2 k j))
    (hb : ∀ (u : Fin 1) (j : Fin 64), val10_2 V c (ix2 u j) = 0) :
    (dat10 (F := Ideal) V c).arrAt 3 cfg10.N = xwF h w := by
  rw [arr10_3]
  funext i
  show (∑ k : Fin 64, val10_0 V c (ix2 (i 0) k) * val10_1 V c (ix2 k (i 1))) + val10_2 V c (ix2 (0 : Fin 1) (i 1))
    = ∑ k : Fin 64, h (ix2 (i 0) k) * w (ix2 k (i 1))
  exact (congrArg₂ (· + ·)
    (Finset.sum_congr rfl fun k _ => congrArg₂ (· * ·) (congrFun hx _) (hw k (i 1)))
    (hb 0 (i 1))).trans (add_zero _)

/-- The normalising region's output from what its operand arrays hold: `S1` and `S2` are the column sums and the
    column sums of squares of `hp`; the mean row is `S1 / N`, the scale row the reciprocal square root of
    `S2 / N − (S1 / N)² + offset`. With `hp` real-valued that is the normalised array, cut off below at zero. -/
theorem bn_core_L3 (c : Dev nD) (hp : Feat) (g bt : Row) (S1 S2 : S1x64.Idx → EReal)
    (hh : (val12_0 V c : S100000x64.Idx → EReal) = hp)
    (hmu : ∀ (u : Fin 1) (j : Fin 64), val12_1 V c (ix2 u j) = Ideal.div (S1 (ix2 u j)) (Ideal.ofBits .f32 0x47C35000#32))
    (hsd : ∀ (u : Fin 1) (j : Fin 64), val12_2 V c (ix2 u j)
      = Ideal.rsqrt ((Ideal.div (S2 (ix2 u j)) (Ideal.ofBits .f32 0x47C35000#32) - Ideal.div (S1 (ix2 u j)) (Ideal.ofBits .f32 0x47C35000#32) * Ideal.div (S1 (ix2 u j)) (Ideal.ofBits .f32 0x47C35000#32)) + (Ideal.ofBits .f32 0x3727C5AC#32)))
    (hg : ∀ (u : Fin 1) (j : Fin 64), val12_3 V c (ix2 u j) = g (ix1 j))
    (hbt : ∀ (u : Fin 1) (j : Fin 64), val12_4 V c (ix2 u j) = bt (ix1 j))
    (hS1 : ∀ j : Fin 64, S1 (ix2 (0 : Fin 1) j) = ∑ r : Fin 100000, hp (ix2 r j))
    (hS2 : ∀ j : Fin 64, S2 (ix2 (0 : Fin 1) j) = ∑ r : Fin 100000, hp (ix2 r j) * hp (ix2 r j))
    (hreal : ∀ i, ∃ x : ℝ, hp i = x) :
    (dat12 (F := Ideal) V c).arrAt 5 cfg12.N = reluF (normF hp g bt) := by
  funext i
  obtain ⟨r, j, rfl⟩ : ∃ (r : Fin 100000) (j : Fin 64), i = ix2 r j := ⟨i 0, i 1, eq_ix2 i⟩
  refine (arr12_5_apply V c r j).trans ?_
  show _ = max (g (ix1 j) * (hp (ix2 r j) - meanF hp (ix1 j)) * Ideal.rsqrt (varF hp (ix1 j) + (Ideal.ofBits .f32 0x3727C5AC#32)) + bt (ix1 j)) 0
  rw [varF_moment hp hreal j, meanF_at hp j, hg 0 j, hbt 0 j, hmu 0 j, hsd 0 j, hS1 j, hS2 j, congrFun hh (ix2 r j)]

end Cert.Bridge

end
-- ==== Proof.KI.Val11.lean ====
import proofs.«147038_j12317966205319_1_alg».proof.Proof.KI.Fr11
import proofs.«147038_j12317966205319_1_alg».proof.Proof.LibStats
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## Each case's pieces, read back: the payloads at the input blocks (any F) -/

section Pieces

variable {F : FTy → Type} [FloatOps F] [Named F]

variable (c : Dev nD) (i : grid11.Coords)
  (arg1 : Memref sig .tc .vmem S10000x64 .f32) (harg1 : arg1.IsWhole) (arg2 : Memref sig .tc .vmem S10000x64 .f32) (harg2 : arg2.IsWhole)
  (arg3 : Memref sig .tc .vmem S10000x1 .f32) (harg3 : arg3.IsWhole) (arg4 : Memref sig .tc .vmem S1x64 .f32) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole)

/-- Every access of the body is at offset zero of a whole block. -/
theorem idx11_zero : (![0, 0] : Fin 2 → Nat) = fun _ => 0 := funext fun a => by fin_cases a <;> rfl

/-- First point, window 4: the one covering store's payload, its loads reading the whole input blocks. -/
theorem out11_A_4 (hc : k11_cond i) (x0 : Vec F S10000x64 .f32) (x1 : Vec F S10000x64 .f32) (x2 : Vec F S10000x1 .f32) (x3 : Vec F S1x64 .f32) :
    (out11_A c i arg1 harg1 arg2 harg2 arg3 harg3 arg4 harg4 arg5 harg5 arg6 harg6 arg7 harg7 hc x0 x1 x2 x3).1 = k11_pay3 x0 x1 x2 x3 := by
  unfold out11_A
  dsimp only
  rw [View.read_writes_eq_canon _ _ _ (cover11_4_A c i arg1 harg1 arg2 harg2 arg3 harg3 arg4 harg4 arg5 harg5 arg6 harg6 arg7 harg7 hc x0 x1 x2 x3)]
  unfold sound_kernel11_A
  dsimp only
  sl_unfold_words
  rw [View.canon_unit_zero (S := S10000x64) idx11_zero]
  simp only [View.readAt_eq_ld, harg1.read_unread, harg2.read_unread, harg3.read_unread, harg4.read_unread,
    View.ld_unit_zero (S := S10000x64) idx11_zero, View.ld_unit_zero (S := S10000x1) idx11_zero, View.ld_unit_zero (S := S1x64) idx11_zero]

/-- First point, window 5: the zero row is stored, read back, and the tile's column sums added to it. -/
theorem out11_A_5 (hc : k11_cond i) (x0 : Vec F S10000x64 .f32) (x1 : Vec F S10000x64 .f32) (x2 : Vec F S10000x1 .f32) (x3 : Vec F S1x64 .f32) :
    (out11_A c i arg1 harg1 arg2 harg2 arg3 harg3 arg4 harg4 arg5 harg5 arg6 harg6 arg7 harg7 hc x0 x1 x2 x3).2.1 = k11_pay4 x0 x1 x2 x3 (k11_pay1 (F := F)) := by
  unfold out11_A
  dsimp only
  rw [View.read_writes_eq_canon _ _ _ (cover11_5_A c i arg1 harg1 arg2 harg2 arg3 harg3 arg4 harg4 arg5 harg5 arg6 harg6 arg7 harg7 hc x0 x1 x2 x3)]
  unfold sound_kernel11_A
  dsimp only
  sl_unfold_words
  rw [View.canon_cons_unit_zero (S := S1x64) idx11_zero, View.readCov_unit_zero (S := S1x64) _ idx11_zero]
  simp only [View.readAt_eq_ld, harg1.read_unread, harg2.read_unread, harg3.read_unread, harg4.read_unread,
    View.ld_unit_zero (S := S10000x64) idx11_zero, View.ld_unit_zero (S := S10000x1) idx11_zero, View.ld_unit_zero (S := S1x64) idx11_zero]

/-- First point, window 6: the same with the column sums of squares. -/
theorem out11_A_6 (hc : k11_cond i) (x0 : Vec F S10000x64 .f32) (x1 : Vec F S10000x64 .f32) (x2 : Vec F S10000x1 .f32) (x3 : Vec F S1x64 .f32) :
    (out11_A c i arg1 harg1 arg2 harg2 arg3 harg3 arg4 harg4 arg5 harg5 arg6 harg6 arg7 harg7 hc x0 x1 x2 x3).2.2 = k11_pay5 x0 x1 x2 x3 (k11_pay2 (F := F)) := by
  unfold out11_A
  dsimp only
  rw [View.read_writes_eq_canon _ _ _ (cover11_6_A c i arg1 harg1 arg2 harg2 arg3 harg3 arg4 harg4 arg5 harg5 arg6 harg6 arg7 harg7 hc x0 x1 x2 x3)]
  unfold sound_kernel11_A
  dsimp only
  sl_unfold_words
  rw [View.canon_cons_unit_zero (S := S1x64) idx11_zero, View.readCov_unit_zero (S := S1x64) _ idx11_zero]
  simp only [View.readAt_eq_ld, harg1.read_unread, harg2.read_unread, harg3.read_unread, harg4.read_unread,
    View.ld_unit_zero (S := S10000x64) idx11_zero, View.ld_unit_zero (S := S10000x1) idx11_zero, View.ld_unit_zero (S := S1x64) idx11_zero]

/-- Later points, window 4. -/
theorem out11_B_4 (hc : ¬k11_cond i) (x0 : Vec F S10000x64 .f32) (x1 : Vec F S10000x64 .f32) (x2 : Vec F S10000x1 .f32) (x3 : Vec F S1x64 .f32) (xo5 : Vec F S1x64 .f32) (xo6 : Vec F S1x64 .f32) :
    (out11_B c i arg1 harg1 arg2 harg2 arg3 harg3 arg4 harg4 arg5 harg5 arg6 harg6 arg7 harg7 hc x0 x1 x2 x3 xo5 xo6).1 = k11_pay3 x0 x1 x2 x3 := by
  unfold out11_B
  dsimp only
  rw [View.read_writes_eq_canon _ _ _ (cover11_4_B c i arg1 harg1 arg2 harg2 arg3 harg3 arg4 harg4 arg5 harg5 arg6 harg6 arg7 harg7 hc x0 x1 x2 x3 xo5 xo6)]
  unfold sound_kernel11_B
  dsimp only
  sl_unfold_words
  rw [View.canon_unit_zero (S := S10000x64) idx11_zero]
  simp only [View.readAt_eq_ld, harg1.read_unread, harg2.read_unread, harg3.read_unread, harg4.read_unread, harg6.read_unread, harg7.read_unread,
    View.ld_unit_zero (S := S10000x64) idx11_zero, View.ld_unit_zero (S := S10000x1) idx11_zero, View.ld_unit_zero (S := S1x64) idx11_zero]

/-- Later points, window 5: the running row plus the tile's column sums. -/
theorem out11_B_5 (hc : ¬k11_cond i) (x0 : Vec F S10000x64 .f32) (x1 : Vec F S10000x64 .f32) (x2 : Vec F S10000x1 .f32) (x3 : Vec F S1x64 .f32) (xo5 : Vec F S1x64 .f32) (xo6 : Vec F S1x64 .f32) :
    (out11_B c i arg1 harg1 arg2 harg2 arg3 harg3 arg4 harg4 arg5 harg5 arg6 harg6 arg7 harg7 hc x0 x1 x2 x3 xo5 xo6).2.1 = k11_pay4 x0 x1 x2 x3 xo5 := by
  unfold out11_B
  dsimp only
  rw [View.read_writes_eq_canon _ _ _ (cover11_5_B c i arg1 harg1 arg2 harg2 arg3 harg3 arg4 harg4 arg5 harg5 arg6 harg6 arg7 harg7 hc x0 x1 x2 x3 xo5 xo6)]
  unfold sound_kernel11_B
  dsimp only
  sl_unfold_words
  rw [View.canon_unit_zero (S := S1x64) idx11_zero]
  simp only [View.readAt_eq_ld, harg1.read_unread, harg2.read_unread, harg3.read_unread, harg4.read_unread, harg6.read_unread, harg7.read_unread,
    View.ld_unit_zero (S := S10000x64) idx11_zero, View.ld_unit_zero (S := S10000x1) idx11_zero, View.ld_unit_zero (S := S1x64) idx11_zero]

/-- Later points, window 6. -/
theorem out11_B_6 (hc : ¬k11_cond i) (x0 : Vec F S10000x64 .f32) (x1 : Vec F S10000x64 .f32) (x2 : Vec F S10000x1 .f32) (x3 : Vec F S1x64 .f32) (xo5 : Vec F S1x64 .f32) (xo6 : Vec F S1x64 .f32) :
    (out11_B c i arg1 harg1 arg2 harg2 arg3 harg3 arg4 harg4 arg5 harg5 arg6 harg6 arg7 harg7 hc x0 x1 x2 x3 xo5 xo6).2.2 = k11_pay5 x0 x1 x2 x3 xo6 := by
  unfold out11_B
  dsimp only
  rw [View.read_writes_eq_canon _ _ _ (cover11_6_B c i arg1 harg1 arg2 harg2 arg3 harg3 arg4 harg4 arg5 harg5 arg6 harg6 arg7 harg7 hc x0 x1 x2 x3 xo5 xo6)]
  unfold sound_kernel11_B
  dsimp only
  sl_unfold_words
  rw [View.canon_unit_zero (S := S1x64) idx11_zero]
  simp only [View.readAt_eq_ld, harg1.read_unread, harg2.read_unread, harg3.read_unread, harg4.read_unread, harg6.read_unread, harg7.read_unread,
    View.ld_unit_zero (S := S10000x64) idx11_zero, View.ld_unit_zero (S := S10000x1) idx11_zero, View.ld_unit_zero (S := S1x64) idx11_zero]

end Pieces

/-! ## The payloads at the extended reals, entry by entry -/

section Payloads

/-- An entry of the tile's hpre block: agg + xw * selfn (selfn's one column spread along the row) + convb (its one row
    spread down the rows). -/
theorem k11_pay3_apply (x0 : Vec Ideal S10000x64 .f32) (x1 : Vec Ideal S10000x64 .f32) (x2 : Vec Ideal S10000x1 .f32) (x3 : Vec Ideal S1x64 .f32)
    (a : Fin 10000) (j : Fin 64) :
    k11_pay3 x0 x1 x2 x3 (ix2 a j) = x0 (ix2 a j) + x1 (ix2 a j) * x2 (ix2 a 0) + x3 (ix2 0 j) := by
  simp only [k11_pay3, addf_apply, mulf_apply, shapeCast_self]
  rw [broadcastTo_apply x2 broadcasts_S10000x1_S10000x64 (ix2 a j) (ix2 a 0) (by intro b; fin_cases b <;> rfl),
    broadcastTo_apply x3 broadcasts_S1x64_S10000x64 (ix2 a j) (ix2 0 j) (by intro b; fin_cases b <;> rfl)]

/-- The zero row the first point stores. -/
theorem k11_pay1_apply (i : S1x64.Idx) : k11_pay1 (F := Ideal) i = 0 := Cert.LibStats.ofBits_zero
theorem k11_pay2_apply (i : S1x64.Idx) : k11_pay2 (F := Ideal) i = 0 := Cert.LibStats.ofBits_zero

/-- The running row of sums after a point: what it held plus the tile's column sum. -/
theorem k11_pay4_apply (x0 : Vec Ideal S10000x64 .f32) (x1 : Vec Ideal S10000x64 .f32) (x2 : Vec Ideal S10000x1 .f32) (x3 : Vec Ideal S1x64 .f32)
    (xo : Vec Ideal S1x64 .f32) (j : Fin 64) :
    k11_pay4 x0 x1 x2 x3 xo (ix2 0 j) = xo (ix2 0 j) + ∑ a : Fin 10000, k11_pay3 x0 x1 x2 x3 (ix2 a j) := by
  simp only [k11_pay4, addf_apply, shapeCast_self]
  refine congrArg (xo (ix2 0 j) + ·) ?_
  refine (shapeCast_addUnit_apply ![64] _ shapeCasts_S64_S1x64 (ix2 0 j)).trans ?_
  refine (Ideal.multiReduction_add_single (k11_pay3 x0 x1 x2 x3) _ reduces_S10000x64_S64 _ _ _).trans ?_
  exact Finset.sum_congr rfl fun a _ => congrArg (k11_pay3 x0 x1 x2 x3) (Shape.idx_ext₂ rfl rfl)

/-- The running row of sums of squares. -/
theorem k11_pay5_apply (x0 : Vec Ideal S10000x64 .f32) (x1 : Vec Ideal S10000x64 .f32) (x2 : Vec Ideal S10000x1 .f32) (x3 : Vec Ideal S1x64 .f32)
    (xo : Vec Ideal S1x64 .f32) (j : Fin 64) :
    k11_pay5 x0 x1 x2 x3 xo (ix2 0 j)
      = xo (ix2 0 j) + ∑ a : Fin 10000, k11_pay3 x0 x1 x2 x3 (ix2 a j) * k11_pay3 x0 x1 x2 x3 (ix2 a j) := by
  simp only [k11_pay5, addf_apply, shapeCast_self]
  refine congrArg (xo (ix2 0 j) + ·) ?_
  refine (shapeCast_addUnit_apply ![64] _ shapeCasts_S64_S1x64 (ix2 0 j)).trans ?_
  refine (Ideal.multiReduction_add_single (mulf (k11_pay3 x0 x1 x2 x3) (k11_pay3 x0 x1 x2 x3)) _ reduces_S10000x64_S64 _ _ _).trans ?_
  exact Finset.sum_congr rfl fun a _ => congrArg (mulf (k11_pay3 x0 x1 x2 x3) (k11_pay3 x0 x1 x2 x3)) (Shape.idx_ext₂ rfl rfl)

end Payloads

/-! ## The three output arrays after the run -/

section Value

variable (V : (c : Dev nD) → (b : Ref sig .tc) → Buf (Elt Ideal) ((c : Thread nD τ).loc b))

/-- The four input arrays as the region finds them: agg, xw, the one-column selfn, the one-row convb. -/
abbrev val11_0 (c : Dev nD) : S100000x64.Idx → EReal := V c (Pipeline.arrRef spec11 0)
abbrev val11_1 (c : Dev nD) : S100000x64.Idx → EReal := V c (Pipeline.arrRef spec11 1)
abbrev val11_2 (c : Dev nD) : S100000x1.Idx → EReal := V c (Pipeline.arrRef spec11 2)
abbrev val11_3 (c : Dev nD) : S1x64.Idx → EReal := V c (Pipeline.arrRef spec11 3)

/-- hpre at row r, column j: agg + xw * selfn + convb. -/
abbrev val11_hpre (c : Dev nD) (r : Fin 100000) (j : Fin 64) : EReal :=
  val11_0 V c (ix2 r j) + val11_1 V c (ix2 r j) * val11_2 V c (ix2 r 0) + val11_3 V c (ix2 0 j)

/-- The three results as whole-array functions: hpre, its column sums, the column sums of its square. -/
abbrev val11_4 (c : Dev nD) : S100000x64.Idx → EReal := fun i => val11_hpre V c (i 0) (i 1)
abbrev val11_5 (c : Dev nD) : S1x64.Idx → EReal := fun i => ∑ r : Fin 100000, val11_hpre V c r (i 1)
abbrev val11_6 (c : Dev nD) : S1x64.Idx → EReal := fun i => ∑ r : Fin 100000, val11_hpre V c r (i 1) * val11_hpre V c r (i 1)

/-- The input blocks at point t. -/
abbrev iblk11_0 (c : Dev nD) (t : Fin cfg11.N) : Vec Ideal S10000x64 .f32 := iblk11 V c 0 t
abbrev iblk11_1 (c : Dev nD) (t : Fin cfg11.N) : Vec Ideal S10000x64 .f32 := iblk11 V c 1 t
abbrev iblk11_2 (c : Dev nD) (t : Fin cfg11.N) : Vec Ideal S10000x1 .f32 := iblk11 V c 2 t
abbrev iblk11_3 (c : Dev nD) (t : Fin cfg11.N) : Vec Ideal S1x64 .f32 := iblk11 V c 3 t

/-- Each window's block index at each point: the row-tiled windows are at tile t, the one-row windows at block 0. -/
theorem idx11_facts : ∀ t : Fin cfg11.N,
    (win11_0.index t 0 = t.val ∧ win11_0.index t 1 = 0) ∧ (win11_1.index t 0 = t.val ∧ win11_1.index t 1 = 0)
    ∧ (win11_2.index t 0 = t.val ∧ win11_2.index t 1 = 0) ∧ (win11_3.index t 0 = 0 ∧ win11_3.index t 1 = 0)
    ∧ (win11_4.index t 0 = t.val ∧ win11_4.index t 1 = 0) ∧ (win11_5.index t 0 = 0 ∧ win11_5.index t 1 = 0)
    ∧ (win11_6.index t 0 = 0 ∧ win11_6.index t 1 = 0) :=
  (by decide +kernel : ∀ t : Fin grid11.N,
    (win11_0.index t 0 = t.val ∧ win11_0.index t 1 = 0) ∧ (win11_1.index t 0 = t.val ∧ win11_1.index t 1 = 0)
    ∧ (win11_2.index t 0 = t.val ∧ win11_2.index t 1 = 0) ∧ (win11_3.index t 0 = 0 ∧ win11_3.index t 1 = 0)
    ∧ (win11_4.index t 0 = t.val ∧ win11_4.index t 1 = 0) ∧ (win11_5.index t 0 = 0 ∧ win11_5.index t 1 = 0)
    ∧ (win11_6.index t 0 = 0 ∧ win11_6.index t 1 = 0))

/-- Row a of tile t is row 10000 t + a of the array. -/
def idx11_row (t : Fin cfg11.N) (a : Fin 10000) : Fin 100000 :=
  ⟨10000 * t.val + a.val, by have := t.isLt; have hN : cfg11.N = 10 := N_11; have := a.isLt; omega⟩

/-- The input blocks read entry by entry off their arrays. -/
theorem iblk11_0_apply (c : Dev nD) (t : Fin cfg11.N) (a : Fin 10000) (j : Fin 64) :
    iblk11_0 V c t (ix2 a j) = val11_0 V c (ix2 (idx11_row t a) j) := by
  obtain ⟨⟨h0, h1⟩, -⟩ := idx11_facts t
  show ((cfg11.win 0).blk t).view.read (Elt Ideal) (V c (Pipeline.arrRef spec11 0)) (ix2 a j) = V c (Pipeline.arrRef spec11 0) (ix2 (idx11_row t a) j)
  rw [View.read_apply]
  show V c (Pipeline.arrRef spec11 0) _ = V c (Pipeline.arrRef spec11 0) _
  congr 1
  funext b
  apply Fin.ext
  match b with
  | ⟨0, _⟩ => show win11_0.index t 0 * 10000 + 1 * a.val = 10000 * t.val + a.val; rw [h0]; omega
  | ⟨1, _⟩ => show win11_0.index t 1 * 64 + 1 * j.val = j.val; rw [h1]; omega
theorem iblk11_1_apply (c : Dev nD) (t : Fin cfg11.N) (a : Fin 10000) (j : Fin 64) :
    iblk11_1 V c t (ix2 a j) = val11_1 V c (ix2 (idx11_row t a) j) := by
  obtain ⟨-, ⟨h0, h1⟩, -⟩ := idx11_facts t
  show ((cfg11.win 1).blk t).view.read (Elt Ideal) (V c (Pipeline.arrRef spec11 1)) (ix2 a j) = V c (Pipeline.arrRef spec11 1) (ix2 (idx11_row t a) j)
  rw [View.read_apply]
  show V c (Pipeline.arrRef spec11 1) _ = V c (Pipeline.arrRef spec11 1) _
  congr 1
  funext b
  apply Fin.ext
  match b with
  | ⟨0, _⟩ => show win11_1.index t 0 * 10000 + 1 * a.val = 10000 * t.val + a.val; rw [h0]; omega
  | ⟨1, _⟩ => show win11_1.index t 1 * 64 + 1 * j.val = j.val; rw [h1]; omega
theorem iblk11_2_apply (c : Dev nD) (t : Fin cfg11.N) (a : Fin 10000) :
    iblk11_2 V c t (ix2 a 0) = val11_2 V c (ix2 (idx11_row t a) 0) := by
  obtain ⟨-, -, ⟨h0, h1⟩, -⟩ := idx11_facts t
  show ((cfg11.win 2).blk t).view.read (Elt Ideal) (V c (Pipeline.arrRef spec11 2)) (ix2 a 0) = V c (Pipeline.arrRef spec11 2) (ix2 (idx11_row t a) 0)
  rw [View.read_apply]
  show V c (Pipeline.arrRef spec11 2) _ = V c (Pipeline.arrRef spec11 2) _
  congr 1
  funext b
  apply Fin.ext
  match b with
  | ⟨0, _⟩ => show win11_2.index t 0 * 10000 + 1 * a.val = 10000 * t.val + a.val; rw [h0]; omega
  | ⟨1, _⟩ => show win11_2.index t 1 * 1 + 1 * 0 = 0; rw [h1]
theorem iblk11_3_apply (c : Dev nD) (t : Fin cfg11.N) (j : Fin 64) :
    iblk11_3 V c t (ix2 0 j) = val11_3 V c (ix2 0 j) := by
  obtain ⟨-, -, -, ⟨h0, h1⟩, -⟩ := idx11_facts t
  show ((cfg11.win 3).blk t).view.read (Elt Ideal) (V c (Pipeline.arrRef spec11 3)) (ix2 0 j) = V c (Pipeline.arrRef spec11 3) (ix2 0 j)
  rw [View.read_apply]
  show V c (Pipeline.arrRef spec11 3) _ = V c (Pipeline.arrRef spec11 3) _
  congr 1
  funext b
  apply Fin.ext
  match b with
  | ⟨0, _⟩ => show win11_3.index t 0 * 1 + 1 * 0 = 0; rw [h0]
  | ⟨1, _⟩ => show win11_3.index t 1 * 64 + 1 * j.val = j.val; rw [h1]; omega

/-- So an entry of the tile's hpre block is hpre at that row of the array. -/
theorem k11_pay3_iblk (c : Dev nD) (t : Fin cfg11.N) (a : Fin 10000) (j : Fin 64) :
    k11_pay3 (iblk11_0 V c t) (iblk11_1 V c t) (iblk11_2 V c t) (iblk11_3 V c t) (ix2 a j) = val11_hpre V c (idx11_row t a) j := by
  rw [k11_pay3_apply, iblk11_0_apply, iblk11_1_apply, iblk11_2_apply, iblk11_3_apply]

/-- Window 4 after the body at any point: the tile's hpre block. -/
theorem outsAt11_4_eq (c : Dev nD) (t : Fin cfg11.N) :
    (outsAt11 V c t.val t.isLt).1 = k11_pay3 (iblk11_0 V c t) (iblk11_1 V c t) (iblk11_2 V c t) (iblk11_3 V c t) := by
  by_cases h0 : t.val = 0
  · rw [outsAt11_A V c t h0]
    unfold out11_A_at
    exact out11_A_4 (F := Ideal) c (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) ((k11_hcond t).mpr h0) (iblk11 V c 0 t) (iblk11 V c 1 t) (iblk11 V c 2 t) (iblk11 V c 3 t)
  · rw [outsAt11_B V c t h0]
    unfold out11_B_at
    exact out11_B_4 (F := Ideal) c (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) (fun h => h0 ((k11_hcond t).mp h)) (iblk11 V c 0 t) (iblk11 V c 1 t) (iblk11 V c 2 t) (iblk11 V c 3 t)
      (outsAt11 V c (t.val - 1) (Nat.lt_of_le_of_lt (Nat.sub_le _ _) t.isLt)).2.1
      (outsAt11 V c (t.val - 1) (Nat.lt_of_le_of_lt (Nat.sub_le _ _) t.isLt)).2.2

/-- Tile s's column sums of hpre and of its square, at column j (zero past the grid). -/
def val11_colsum (c : Dev nD) (j : Fin 64) (s : ℕ) : EReal :=
  if h : s < cfg11.N then ∑ a : Fin 10000, val11_hpre V c (idx11_row ⟨s, h⟩ a) j else 0
def val11_colsq (c : Dev nD) (j : Fin 64) (s : ℕ) : EReal :=
  if h : s < cfg11.N then ∑ a : Fin 10000, val11_hpre V c (idx11_row ⟨s, h⟩ a) j * val11_hpre V c (idx11_row ⟨s, h⟩ a) j else 0

/-- The accumulators after the first point: zero plus the tile's column sums. -/
theorem outsAt11_5_zero (c : Dev nD) (j : Fin 64) (t : Fin cfg11.N) (h0 : t.val = 0) :
    (outsAt11 V c t.val t.isLt).2.1 (ix2 0 j) = val11_colsum V c j t.val := by
  rw [outsAt11_A V c t h0]
  unfold out11_A_at
  refine (congrFun (out11_A_5 (F := Ideal) c (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) ((k11_hcond t).mpr h0) (iblk11 V c 0 t) (iblk11 V c 1 t) (iblk11 V c 2 t) (iblk11 V c 3 t)) (ix2 0 j)).trans ?_
  refine (k11_pay4_apply (iblk11_0 V c t) (iblk11_1 V c t) (iblk11_2 V c t) (iblk11_3 V c t) (k11_pay1 (F := Ideal)) j).trans ?_
  rw [k11_pay1_apply, zero_add]
  unfold val11_colsum
  rw [dif_pos t.isLt]
  exact Finset.sum_congr rfl fun a _ => k11_pay3_iblk V c t a j
theorem outsAt11_6_zero (c : Dev nD) (j : Fin 64) (t : Fin cfg11.N) (h0 : t.val = 0) :
    (outsAt11 V c t.val t.isLt).2.2 (ix2 0 j) = val11_colsq V c j t.val := by
  rw [outsAt11_A V c t h0]
  unfold out11_A_at
  refine (congrFun (out11_A_6 (F := Ideal) c (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) ((k11_hcond t).mpr h0) (iblk11 V c 0 t) (iblk11 V c 1 t) (iblk11 V c 2 t) (iblk11 V c 3 t)) (ix2 0 j)).trans ?_
  refine (k11_pay5_apply (iblk11_0 V c t) (iblk11_1 V c t) (iblk11_2 V c t) (iblk11_3 V c t) (k11_pay2 (F := Ideal)) j).trans ?_
  rw [k11_pay2_apply, zero_add]
  unfold val11_colsq
  rw [dif_pos t.isLt]
  exact Finset.sum_congr rfl fun a _ => by rw [k11_pay3_iblk V c t a j]

/-- After a later point: what the point before left plus the tile's column sums. -/
theorem outsAt11_5_step (c : Dev nD) (j : Fin 64) (t : Fin cfg11.N) (h0 : ¬t.val = 0) :
    (outsAt11 V c t.val t.isLt).2.1 (ix2 0 j) = (outsAt11 V c (t.val - 1) (Nat.lt_of_le_of_lt (Nat.sub_le _ _) t.isLt)).2.1 (ix2 0 j) + val11_colsum V c j t.val := by
  rw [outsAt11_B V c t h0]
  unfold out11_B_at
  refine (congrFun (out11_B_5 (F := Ideal) c (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) (fun h => h0 ((k11_hcond t).mp h)) (iblk11 V c 0 t) (iblk11 V c 1 t) (iblk11 V c 2 t) (iblk11 V c 3 t)
    (outsAt11 V c (t.val - 1) (Nat.lt_of_le_of_lt (Nat.sub_le _ _) t.isLt)).2.1
    (outsAt11 V c (t.val - 1) (Nat.lt_of_le_of_lt (Nat.sub_le _ _) t.isLt)).2.2) (ix2 0 j)).trans ?_
  refine (k11_pay4_apply (iblk11_0 V c t) (iblk11_1 V c t) (iblk11_2 V c t) (iblk11_3 V c t) (outsAt11 V c (t.val - 1) (Nat.lt_of_le_of_lt (Nat.sub_le _ _) t.isLt)).2.1 j).trans ?_
  refine congrArg ((outsAt11 V c (t.val - 1) (Nat.lt_of_le_of_lt (Nat.sub_le _ _) t.isLt)).2.1 (ix2 0 j) + ·) ?_
  unfold val11_colsum
  rw [dif_pos t.isLt]
  exact Finset.sum_congr rfl fun a _ => k11_pay3_iblk V c t a j
theorem outsAt11_6_step (c : Dev nD) (j : Fin 64) (t : Fin cfg11.N) (h0 : ¬t.val = 0) :
    (outsAt11 V c t.val t.isLt).2.2 (ix2 0 j) = (outsAt11 V c (t.val - 1) (Nat.lt_of_le_of_lt (Nat.sub_le _ _) t.isLt)).2.2 (ix2 0 j) + val11_colsq V c j t.val := by
  rw [outsAt11_B V c t h0]
  unfold out11_B_at
  refine (congrFun (out11_B_6 (F := Ideal) c (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (win11_3.stage (cfg11.slots t 3)) (hstage11_3 ((cfg11.slots t 3).cast nbuf11_3)) (win11_4.stage (cfg11.slots t 4)) (hstage11_4 ((cfg11.slots t 4).cast nbuf11_4)) (win11_5.stage (cfg11.slots t 5)) (hstage11_5 ((cfg11.slots t 5).cast nbuf11_5)) (win11_6.stage (cfg11.slots t 6)) (hstage11_6 ((cfg11.slots t 6).cast nbuf11_6)) (fun h => h0 ((k11_hcond t).mp h)) (iblk11 V c 0 t) (iblk11 V c 1 t) (iblk11 V c 2 t) (iblk11 V c 3 t)
    (outsAt11 V c (t.val - 1) (Nat.lt_of_le_of_lt (Nat.sub_le _ _) t.isLt)).2.1
    (outsAt11 V c (t.val - 1) (Nat.lt_of_le_of_lt (Nat.sub_le _ _) t.isLt)).2.2) (ix2 0 j)).trans ?_
  refine (k11_pay5_apply (iblk11_0 V c t) (iblk11_1 V c t) (iblk11_2 V c t) (iblk11_3 V c t) (outsAt11 V c (t.val - 1) (Nat.lt_of_le_of_lt (Nat.sub_le _ _) t.isLt)).2.2 j).trans ?_
  refine congrArg ((outsAt11 V c (t.val - 1) (Nat.lt_of_le_of_lt (Nat.sub_le _ _) t.isLt)).2.2 (ix2 0 j) + ·) ?_
  unfold val11_colsq
  rw [dif_pos t.isLt]
  exact Finset.sum_congr rfl fun a _ => by rw [k11_pay3_iblk V c t a j]

/-- So after point n they hold the sums over tiles 0 … n, by induction on the point. -/
theorem outsAt11_5_eq (c : Dev nD) (j : Fin 64) : ∀ (n : ℕ) (h : n < cfg11.N),
    (outsAt11 V c n h).2.1 (ix2 0 j) = ∑ s ∈ Finset.range (n + 1), val11_colsum V c j s
  | 0, h => by rw [Finset.sum_range_one]; exact outsAt11_5_zero V c j ⟨0, h⟩ rfl
  | n + 1, h => by
    rw [Finset.sum_range_succ _ (n + 1), ← outsAt11_5_eq c j n (Nat.lt_of_succ_lt h)]
    exact outsAt11_5_step V c j ⟨n + 1, h⟩ (Nat.succ_ne_zero n)
theorem outsAt11_6_eq (c : Dev nD) (j : Fin 64) : ∀ (n : ℕ) (h : n < cfg11.N),
    (outsAt11 V c n h).2.2 (ix2 0 j) = ∑ s ∈ Finset.range (n + 1), val11_colsq V c j s
  | 0, h => by rw [Finset.sum_range_one]; exact outsAt11_6_zero V c j ⟨0, h⟩ rfl
  | n + 1, h => by
    rw [Finset.sum_range_succ _ (n + 1), ← outsAt11_6_eq c j n (Nat.lt_of_succ_lt h)]
    exact outsAt11_6_step V c j ⟨n + 1, h⟩ (Nat.succ_ne_zero n)

/-- The ten tiles' column sums regroup to the sum over all rows: rows = tiles × rows of a tile. -/
theorem val11_colsum_total (c : Dev nD) (j : Fin 64) :
    ∑ s ∈ Finset.range 10, val11_colsum V c j s = ∑ r : Fin 100000, val11_hpre V c r j := by
  have hN : cfg11.N = 10 := N_11
  rw [← Fin.sum_univ_eq_sum_range (fun s => val11_colsum V c j s) 10]
  refine Eq.trans ?_ (Cert.LibStats.sum_tiles 10 10000 (fun r : Fin (10 * 10000) => val11_hpre V c r j)).symm
  refine Finset.sum_congr rfl fun s _ => ?_
  unfold val11_colsum
  rw [dif_pos (lt_of_lt_of_eq s.isLt hN.symm)]
  refine Finset.sum_congr rfl fun a _ => ?_
  have e : idx11_row ⟨s.val, lt_of_lt_of_eq s.isLt hN.symm⟩ a = (finProdFinEquiv (s, a) : Fin (10 * 10000)) :=
    Fin.ext (by rw [finProdFinEquiv_apply_val]; show 10000 * s.val + a.val = a.val + 10000 * s.val; omega)
  rw [e]
theorem val11_colsq_total (c : Dev nD) (j : Fin 64) :
    ∑ s ∈ Finset.range 10, val11_colsq V c j s = ∑ r : Fin 100000, val11_hpre V c r j * val11_hpre V c r j := by
  have hN : cfg11.N = 10 := N_11
  rw [← Fin.sum_univ_eq_sum_range (fun s => val11_colsq V c j s) 10]
  refine Eq.trans ?_ (Cert.LibStats.sum_tiles 10 10000 (fun r : Fin (10 * 10000) => val11_hpre V c r j * val11_hpre V c r j)).symm
  refine Finset.sum_congr rfl fun s _ => ?_
  unfold val11_colsq
  rw [dif_pos (lt_of_lt_of_eq s.isLt hN.symm)]
  refine Finset.sum_congr rfl fun a _ => ?_
  have e : idx11_row ⟨s.val, lt_of_lt_of_eq s.isLt hN.symm⟩ a = (finProdFinEquiv (s, a) : Fin (10 * 10000)) :=
    Fin.ext (by rw [finProdFinEquiv_apply_val]; show 10000 * s.val + a.val = a.val + 10000 * s.val; omega)
  rw [e]

/-- After the last point the accumulators hold the sums over all rows. -/
theorem outsAt11_5_last (c : Dev nD) :
    (outsAt11 V c t11_9.val t11_9.isLt).2.1 = val11_5 V c := by
  funext i
  obtain ⟨i0, i1, rfl⟩ : ∃ (i0 : Fin 1) (i1 : Fin 64), i = ix2 i0 i1 := ⟨i 0, i 1, eq_ix2 i⟩
  obtain rfl : i0 = 0 := Subsingleton.elim _ _
  exact (outsAt11_5_eq V c i1 9 t11_9.isLt).trans (val11_colsum_total V c i1)
theorem outsAt11_6_last (c : Dev nD) :
    (outsAt11 V c t11_9.val t11_9.isLt).2.2 = val11_6 V c := by
  funext i
  obtain ⟨i0, i1, rfl⟩ : ∃ (i0 : Fin 1) (i1 : Fin 64), i = ix2 i0 i1 := ⟨i 0, i 1, eq_ix2 i⟩
  obtain rfl : i0 = 0 := Subsingleton.elim _ _
  exact (outsAt11_6_eq V c i1 9 t11_9.isLt).trans (val11_colsq_total V c i1)

/-- What each flushing point writes back is its block of the whole-array function. -/
theorem flushed11_4 (c : Dev nD) (t : Fin cfg11.N) (hf : (cfg11.win 4).flush t = true) :
    (dat11 (F := Ideal) V c).flushed 4 t
      = ((cfg11.win 4).blk t).view.read (Elt Ideal) (val11_4 V c) := by
  obtain ⟨-, -, -, -, ⟨h0, h1⟩, -⟩ := idx11_facts t
  show (cfg11.win 4).cut (grid11.coords t) ((dat11 (F := Ideal) V c).after 4 t) = _
  rw [after11_4, outsAt11_4_eq]
  funext y
  obtain ⟨a, j, rfl⟩ : ∃ (a : Fin 10000) (j : Fin 64), y = ix2 a j := ⟨y 0, y 1, eq_ix2 y⟩
  rw [View.read_apply]
  show k11_pay3 (iblk11_0 V c t) (iblk11_1 V c t) (iblk11_2 V c t) (iblk11_3 V c t) (ix2 a j)
    = val11_hpre V c (((cfg11.win 4).blk t).view.emb (ix2 a j) 0) (((cfg11.win 4).blk t).view.emb (ix2 a j) 1)
  have e0 : idx11_row t a = ((cfg11.win 4).blk t).view.emb (ix2 a j) 0 :=
    Fin.ext (by show 10000 * t.val + a.val = win11_4.index t 0 * 10000 + 1 * a.val; rw [h0]; omega)
  have e1 : j = ((cfg11.win 4).blk t).view.emb (ix2 a j) 1 :=
    Fin.ext (by show j.val = win11_4.index t 1 * 64 + 1 * j.val; rw [h1]; omega)
  exact (k11_pay3_iblk V c t a j).trans (congrArg₂ (fun r' j' => val11_hpre V c r' j') e0 e1)

theorem flushed11_5 (c : Dev nD) (t : Fin cfg11.N) (hf : (cfg11.win 5).flush t = true) :
    (dat11 (F := Ideal) V c).flushed 5 t
      = ((cfg11.win 5).blk t).view.read (Elt Ideal) (val11_5 V c) := by
  have hN : cfg11.N = 10 := N_11
  have h9 : t.val = 9 := by have := (flush11_5 t).mp hf; have := t.isLt; omega
  obtain rfl : t = t11_9 := Fin.ext h9
  show (cfg11.win 5).cut (grid11.coords t11_9) ((dat11 (F := Ideal) V c).after 5 t11_9) = _
  rw [after11_5, outsAt11_5_last]
  have hz' : (fun a : Fin 2 => win11_5.index t11_9 a * S1x64.size a) = fun _ => 0 := funext fun a => by fin_cases a <;> decide
  exact (Memref.read_access_unit_zero (Elt Ideal) (Pipeline.arrRef spec11 5) hz' (fun a => by rw [congrFun hz' a]; simp)
    (val11_5 V c)).symm

theorem flushed11_6 (c : Dev nD) (t : Fin cfg11.N) (hf : (cfg11.win 6).flush t = true) :
    (dat11 (F := Ideal) V c).flushed 6 t
      = ((cfg11.win 6).blk t).view.read (Elt Ideal) (val11_6 V c) := by
  have hN : cfg11.N = 10 := N_11
  have h9 : t.val = 9 := by have := (flush11_6 t).mp hf; have := t.isLt; omega
  obtain rfl : t = t11_9 := Fin.ext h9
  show (cfg11.win 6).cut (grid11.coords t11_9) ((dat11 (F := Ideal) V c).after 6 t11_9) = _
  rw [after11_6, outsAt11_6_last]
  have hz' : (fun a : Fin 2 => win11_6.index t11_9 a * S1x64.size a) = fun _ => 0 := funext fun a => by fin_cases a <;> decide
  exact (Memref.read_access_unit_zero (Elt Ideal) (Pipeline.arrRef spec11 6) hz' (fun a => by rw [congrFun hz' a]; simp)
    (val11_6 V c)).symm

set_option maxHeartbeats 1000000 in
/-- WINDOW 4: every point writes its tile back; the tiles cover the rows. -/
theorem arr11_4 (c : Dev nD) : (dat11 (F := Ideal) V c).arrAt 4 cfg11.N = fun i => val11_hpre V c (i 0) (i 1) :=
  (dat11 (F := Ideal) V c).arrAt_eq_of_cover 4 (val11_4 V c) (flushed11_4 V c) fun i => by
    -- row i 0 lies in tile (i 0) / 10000
    have hi0 : (i 0 : Nat) < 100000 := (i 0).isLt
    have hi1 : (i 1 : Nat) < 64 := (i 1).isLt
    have hN : cfg11.N = 10 := N_11
    have ht : (i 0 : Nat) / 10000 < cfg11.N := by rw [hN]; omega
    refine ⟨⟨(i 0 : Nat) / 10000, ht⟩, flush11_4 _, ?_⟩
    obtain ⟨-, -, -, -, ⟨h0, h1⟩, -⟩ := idx11_facts ⟨(i 0 : Nat) / 10000, ht⟩
    show i ∈ ((View.whole (Pipeline.arrRef spec11 4)).slice (win11_4.rect ⟨(i 0 : Nat) / 10000, ht⟩)).set
    rw [View.set_slice_whole, Rect.mem_set_unit]
    intro a
    match a with
    | ⟨0, _⟩ =>
      show win11_4.index ⟨(i 0 : Nat) / 10000, ht⟩ 0 * win11_4.size 0 ≤ (i 0 : Nat)
        ∧ (i 0 : Nat) < win11_4.index ⟨(i 0 : Nat) / 10000, ht⟩ 0 * win11_4.size 0 + win11_4.xsize (grid11.coords ⟨(i 0 : Nat) / 10000, ht⟩) 0
      rw [h0]
      show (i 0 : Nat) / 10000 * 10000 ≤ (i 0 : Nat) ∧ (i 0 : Nat) < (i 0 : Nat) / 10000 * 10000 + 10000
      omega
    | ⟨1, _⟩ =>
      show win11_4.index ⟨(i 0 : Nat) / 10000, ht⟩ 1 * win11_4.size 1 ≤ (i 1 : Nat)
        ∧ (i 1 : Nat) < win11_4.index ⟨(i 0 : Nat) / 10000, ht⟩ 1 * win11_4.size 1 + win11_4.xsize (grid11.coords ⟨(i 0 : Nat) / 10000, ht⟩) 1
      rw [h1]
      show 0 * 64 ≤ (i 1 : Nat) ∧ (i 1 : Nat) < 0 * 64 + 64
      omega

set_option maxHeartbeats 1000000 in
/-- WINDOW 5: the last point writes the row of sums back. -/
theorem arr11_5 (c : Dev nD) : (dat11 (F := Ideal) V c).arrAt 5 cfg11.N = fun i => ∑ r : Fin 100000, val11_hpre V c r (i 1) :=
  (dat11 (F := Ideal) V c).arrAt_eq_of_cover 5 (val11_5 V c) (flushed11_5 V c) fun i =>
    ⟨t11_9, (flush11_5 t11_9).mpr rfl, by
      show i ∈ ((View.whole (Pipeline.arrRef spec11 5)).slice (win11_5.rect t11_9)).set
      rw [View.set_slice_whole, Rect.mem_set_unit]
      intro a
      have h0 : (i 0 : Nat) < 1 := (i 0).isLt
      have h1 : (i 1 : Nat) < 64 := (i 1).isLt
      match a with
      | ⟨0, _⟩ => show win11_5.index t11_9 0 * win11_5.size 0 ≤ (i 0 : Nat) ∧ (i 0 : Nat) < win11_5.index t11_9 0 * win11_5.size 0 + win11_5.xsize (grid11.coords t11_9) 0
                  rw [show win11_5.index t11_9 0 * win11_5.size 0 = 0 from by decide +kernel, show win11_5.xsize (grid11.coords t11_9) 0 = 1 from by decide +kernel]; omega
      | ⟨1, _⟩ => show win11_5.index t11_9 1 * win11_5.size 1 ≤ (i 1 : Nat) ∧ (i 1 : Nat) < win11_5.index t11_9 1 * win11_5.size 1 + win11_5.xsize (grid11.coords t11_9) 1
                  rw [show win11_5.index t11_9 1 * win11_5.size 1 = 0 from by decide +kernel, show win11_5.xsize (grid11.coords t11_9) 1 = 64 from by decide +kernel]; omega⟩

set_option maxHeartbeats 1000000 in
/-- WINDOW 6: and the row of sums of squares. -/
theorem arr11_6 (c : Dev nD) :
    (dat11 (F := Ideal) V c).arrAt 6 cfg11.N = fun i => ∑ r : Fin 100000, val11_hpre V c r (i 1) * val11_hpre V c r (i 1) :=
  (dat11 (F := Ideal) V c).arrAt_eq_of_cover 6 (val11_6 V c) (flushed11_6 V c) fun i =>
    ⟨t11_9, (flush11_6 t11_9).mpr rfl, by
      show i ∈ ((View.whole (Pipeline.arrRef spec11 6)).slice (win11_6.rect t11_9)).set
      rw [View.set_slice_whole, Rect.mem_set_unit]
      intro a
      have h0 : (i 0 : Nat) < 1 := (i 0).isLt
      have h1 : (i 1 : Nat) < 64 := (i 1).isLt
      match a with
      | ⟨0, _⟩ => show win11_6.index t11_9 0 * win11_6.size 0 ≤ (i 0 : Nat) ∧ (i 0 : Nat) < win11_6.index t11_9 0 * win11_6.size 0 + win11_6.xsize (grid11.coords t11_9) 0
                  rw [show win11_6.index t11_9 0 * win11_6.size 0 = 0 from by decide +kernel, show win11_6.xsize (grid11.coords t11_9) 0 = 1 from by decide +kernel]; omega
      | ⟨1, _⟩ => show win11_6.index t11_9 1 * win11_6.size 1 ≤ (i 1 : Nat) ∧ (i 1 : Nat) < win11_6.index t11_9 1 * win11_6.size 1 + win11_6.xsize (grid11.coords t11_9) 1
                  rw [show win11_6.index t11_9 1 * win11_6.size 1 = 0 from by decide +kernel, show win11_6.xsize (grid11.coords t11_9) 1 = 64 from by decide +kernel]; omega⟩

end Value

end Cert.KernelIdeal.Reg

end
-- ==== Proof.Bridge.L3CoreB.lean ====
import proofs.«147038_j12317966205319_1_alg».proof.Proof.KI.Val11
import proofs.«147038_j12317966205319_1_alg».proof.Proof.Ref.StageFns
import proofs.«147038_j12317966205319_1_alg».proof.Proof.Alg.Real
import proofs.«147038_j12317966205319_1_alg».proof.Proof.Bridge.StageFacts

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat Col Row hpreF)
open scoped BigOperators

/-! # One layer's combining region against the layer's stage function

The combining region leaves, at `(r, j)`, the aggregate plus the product times the node's self weight plus the layer's
bias at `j`; and in its two accumulated rows the column sums of that array and of its squares. -/

variable (V : (c : Dev nD) → (b : Ref sig .tc) → Buf (Elt Ideal) ((c : Thread nD τ).loc b))

/-- The region's value at `(r, j)` is the stage function's, when its four operand arrays hold the aggregate, the
    product, the self weights as a column and the bias as a row. -/
theorem hpre_at_L3 (c : Dev nD) (agg xw : Feat) (selfw : Col) (b : Row)
    (ha : (val11_0 V c : S100000x64.Idx → EReal) = agg) (hx : (val11_1 V c : S100000x64.Idx → EReal) = xw)
    (hs : ∀ (r : Fin 100000) (u : Fin 1), val11_2 V c (ix2 r u) = selfw (ix1 r))
    (hb : ∀ (u : Fin 1) (j : Fin 64), val11_3 V c (ix2 u j) = b (ix1 j)) (r : Fin 100000) (j : Fin 64) :
    val11_hpre V c r j = hpreF agg xw selfw b (ix2 r j) := by
  show val11_0 V c (ix2 r j) + val11_1 V c (ix2 r j) * val11_2 V c (ix2 r 0) + val11_3 V c (ix2 0 j)
    = agg (ix2 r j) + xw (ix2 r j) * selfw (ix1 r) + b (ix1 j)
  rw [hs r 0, hb 0 j, congrFun ha (ix2 r j), congrFun hx (ix2 r j)]

/-- The region's first output is the stage function's array. -/
theorem hpre_core_L3 (c : Dev nD) (agg xw : Feat) (selfw : Col) (b : Row)
    (ha : (val11_0 V c : S100000x64.Idx → EReal) = agg) (hx : (val11_1 V c : S100000x64.Idx → EReal) = xw)
    (hs : ∀ (r : Fin 100000) (u : Fin 1), val11_2 V c (ix2 r u) = selfw (ix1 r))
    (hb : ∀ (u : Fin 1) (j : Fin 64), val11_3 V c (ix2 u j) = b (ix1 j)) :
    (dat11 (F := Ideal) V c).arrAt 4 cfg11.N = hpreF agg xw selfw b := by
  rw [arr11_4]
  funext i
  obtain ⟨r, j, rfl⟩ : ∃ (r : Fin 100000) (j : Fin 64), i = ix2 r j := ⟨i 0, i 1, eq_ix2 i⟩
  exact hpre_at_L3 V c agg xw selfw b ha hx hs hb r j

/-- Its second output holds, at every column, the column sum of that array. -/
theorem sum_core_L3 (c : Dev nD) (agg xw : Feat) (selfw : Col) (b : Row)
    (ha : (val11_0 V c : S100000x64.Idx → EReal) = agg) (hx : (val11_1 V c : S100000x64.Idx → EReal) = xw)
    (hs : ∀ (r : Fin 100000) (u : Fin 1), val11_2 V c (ix2 r u) = selfw (ix1 r))
    (hb : ∀ (u : Fin 1) (j : Fin 64), val11_3 V c (ix2 u j) = b (ix1 j)) (u : Fin 1) (j : Fin 64) :
    ((dat11 (F := Ideal) V c).arrAt 5 cfg11.N : S1x64.Idx → EReal) (ix2 u j)
      = ∑ r : Fin 100000, hpreF agg xw selfw b (ix2 r j) := by
  refine (congrFun (show (dat11 (F := Ideal) V c).arrAt 5 cfg11.N = val11_5 V c from arr11_5 V c) (ix2 u j)).trans ?_
  show (∑ r : Fin 100000, val11_hpre V c r j) = ∑ r : Fin 100000, hpreF agg xw selfw b (ix2 r j)
  exact Finset.sum_congr rfl fun r _ => hpre_at_L3 V c agg xw selfw b ha hx hs hb r j

/-- Its third output holds, at every column, the column sum of that array's squares. -/
theorem sumsq_core_L3 (c : Dev nD) (agg xw : Feat) (selfw : Col) (b : Row)
    (ha : (val11_0 V c : S100000x64.Idx → EReal) = agg) (hx : (val11_1 V c : S100000x64.Idx → EReal) = xw)
    (hs : ∀ (r : Fin 100000) (u : Fin 1), val11_2 V c (ix2 r u) = selfw (ix1 r))
    (hb : ∀ (u : Fin 1) (j : Fin 64), val11_3 V c (ix2 u j) = b (ix1 j)) (u : Fin 1) (j : Fin 64) :
    ((dat11 (F := Ideal) V c).arrAt 6 cfg11.N : S1x64.Idx → EReal) (ix2 u j)
      = ∑ r : Fin 100000, hpreF agg xw selfw b (ix2 r j) * hpreF agg xw selfw b (ix2 r j) := by
  refine (congrFun (show (dat11 (F := Ideal) V c).arrAt 6 cfg11.N = val11_6 V c from arr11_6 V c) (ix2 u j)).trans ?_
  show (∑ r : Fin 100000, val11_hpre V c r j * val11_hpre V c r j)
    = ∑ r : Fin 100000, hpreF agg xw selfw b (ix2 r j) * hpreF agg xw selfw b (ix2 r j)
  exact Finset.sum_congr rfl fun r _ =>
    congrArg₂ (· * ·) (hpre_at_L3 V c agg xw selfw b ha hx hs hb r j) (hpre_at_L3 V c agg xw selfw b ha hx hs hb r j)

end Cert.Bridge

end
-- ==== Proof.Bridge.L3.lean ====
import proofs.«147038_j12317966205319_1_alg».proof.Proof.KI.Conts
import proofs.«147038_j12317966205319_1_alg».proof.Proof.Bridge.Args
import proofs.«147038_j12317966205319_1_alg».proof.Proof.KI.HostL3
import proofs.«147038_j12317966205319_1_alg».proof.Proof.Bridge.L3Core
import proofs.«147038_j12317966205319_1_alg».proof.Proof.Bridge.L3CoreB
import proofs.«147038_j12317966205319_1_alg».proof.Proof.Bridge.Edges

set_option maxRecDepth 16384

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.ReferenceIdeal.RefValue (Feat Col Row WSq WLayers RowLayers EdgeList xwF aggF hpreF normF reluF layerF sliceSq sliceRow srcF nrmF dstF selfF)
open scoped BigOperators

/-! # One graph-convolution layer: what its three regions leave is the layer's stage functions of its input

From what the layer's input array holds: the product region leaves the product with the layer's weight matrix; the
combining region the aggregate over incoming edges plus the self term plus the layer's bias, with its column sums
and column sums of squares; the normalising region, when that combined array is real-valued, its normalisation
with the layer's scale and shift cut off at zero. -/

variable (m : (ℓ : Loc nD τ sig) → Buf (Elt Ideal) ℓ)

/-- The product region: the layer's input times the layer's weight matrix. -/
theorem xw_L3 (c : Dev nD) (h : Feat) (hin : outsF m 20 main_v141 c = h) :
    outsF m 22 main_v145 c = xwF h (sliceSq (arg4 m c) (3 : Fin 4)) := by
  have hV : ∀ b : Ref sig .tc, T21 m c b = V21 m (outsF m) c b := fun b => (congrFun (V21_eq m c) _).symm
  show W22 m c (Proc.devRef .tc main_v145) = _
  rw [W22_out3]
  refine xw_core_L3 (T21 m) c h (sliceSq (arg4 m c) (3 : Fin 4)) ?_ ?_ ?_
  · exact ((hV main_v141).trans (mm_x_L3 m (outsF m) c)).trans hin
  · intro k j
    exact (congrFun (hV main_v143) (ix2 k j)).trans (mm_w_L3 m (outsF m) c k j)
  · intro u j
    exact (congrFun (hV main_v144) (ix2 u j)).trans (mm_b_L3 m (outsF m) c u j)

/-- The combining region's operand arrays, from what the product region left. -/
theorem hpre_L3 (c : Dev nD) (xw : Feat) (hxw : outsF m 22 main_v145 c = xw) :
    outsF m 24 main_v162_0 c
      = hpreF (aggF xw (srcF (arg1 m c)) (nrmF (arg1 m c)) (dstF (arg1 m c))) xw (selfF (arg1 m c))
          (sliceRow (arg5 m c) (3 : Fin 4)) := by
  have hV : ∀ b : Ref sig .tc, T23 m c b = V23 m (outsF m) c b := fun b => (congrFun (V23_eq m c) _).symm
  show W24 m c (Proc.devRef .tc main_v162_0) = _
  rw [W24_out4]
  refine hpre_core_L3 (T23 m) c _ xw _ _ ?_ ?_ ?_ ?_
  · exact ((hV main_v158).trans (cb_agg_L3 m (outsF m) c)).trans
      ((congrArg (fun y => aggOf y (m (c, main_arg1))) hxw).trans (aggOf_eq xw (arg1 m c)))
  · exact ((hV main_v145).trans (cb_xw_L3 m (outsF m) c)).trans hxw
  · intro r u
    exact (congrFun ((hV main_v28).trans (cb_selfn_L3 m (outsF m) c)) (ix2 r u)).trans (selfnOf_at (arg1 m c) r u)
  · intro u j
    exact (congrFun (hV main_v161) (ix2 u j)).trans (cb_convb_L3 m (outsF m) c u j)

/-- Its second output: the column sums of the combined array. -/
theorem sum_L3 (c : Dev nD) (xw : Feat) (hxw : outsF m 22 main_v145 c = xw) (u : Fin 1) (j : Fin 64) :
    (outsF m 24 main_v162_1 c : S1x64.Idx → EReal) (ix2 u j)
      = ∑ r : Fin 100000, hpreF (aggF xw (srcF (arg1 m c)) (nrmF (arg1 m c)) (dstF (arg1 m c))) xw (selfF (arg1 m c))
          (sliceRow (arg5 m c) (3 : Fin 4)) (ix2 r j) := by
  have hV : ∀ b : Ref sig .tc, T23 m c b = V23 m (outsF m) c b := fun b => (congrFun (V23_eq m c) _).symm
  show W24 m c (Proc.devRef .tc main_v162_1) (ix2 u j) = _
  rw [W24_out5]
  refine sum_core_L3 (T23 m) c _ xw _ _ ?_ ?_ ?_ ?_ u j
  · exact ((hV main_v158).trans (cb_agg_L3 m (outsF m) c)).trans
      ((congrArg (fun y => aggOf y (m (c, main_arg1))) hxw).trans (aggOf_eq xw (arg1 m c)))
  · exact ((hV main_v145).trans (cb_xw_L3 m (outsF m) c)).trans hxw
  · intro r u
    exact (congrFun ((hV main_v28).trans (cb_selfn_L3 m (outsF m) c)) (ix2 r u)).trans (selfnOf_at (arg1 m c) r u)
  · intro u j
    exact (congrFun (hV main_v161) (ix2 u j)).trans (cb_convb_L3 m (outsF m) c u j)

/-- Its third output: the column sums of the combined array's squares. -/
theorem sumsq_L3 (c : Dev nD) (xw : Feat) (hxw : outsF m 22 main_v145 c = xw) (u : Fin 1) (j : Fin 64) :
    (outsF m 24 main_v162_2 c : S1x64.Idx → EReal) (ix2 u j)
      = ∑ r : Fin 100000, hpreF (aggF xw (srcF (arg1 m c)) (nrmF (arg1 m c)) (dstF (arg1 m c))) xw (selfF (arg1 m c))
            (sliceRow (arg5 m c) (3 : Fin 4)) (ix2 r j)
          * hpreF (aggF xw (srcF (arg1 m c)) (nrmF (arg1 m c)) (dstF (arg1 m c))) xw (selfF (arg1 m c))
            (sliceRow (arg5 m c) (3 : Fin 4)) (ix2 r j) := by
  have hV : ∀ b : Ref sig .tc, T23 m c b = V23 m (outsF m) c b := fun b => (congrFun (V23_eq m c) _).symm
  show W24 m c (Proc.devRef .tc main_v162_2) (ix2 u j) = _
  rw [W24_out6]
  refine sumsq_core_L3 (T23 m) c _ xw _ _ ?_ ?_ ?_ ?_ u j
  · exact ((hV main_v158).trans (cb_agg_L3 m (outsF m) c)).trans
      ((congrArg (fun y => aggOf y (m (c, main_arg1))) hxw).trans (aggOf_eq xw (arg1 m c)))
  · exact ((hV main_v145).trans (cb_xw_L3 m (outsF m) c)).trans hxw
  · intro r u
    exact (congrFun ((hV main_v28).trans (cb_selfn_L3 m (outsF m) c)) (ix2 r u)).trans (selfnOf_at (arg1 m c) r u)
  · intro u j
    exact (congrFun (hV main_v161) (ix2 u j)).trans (cb_convb_L3 m (outsF m) c u j)

/-- The normalising region, from what the combining region left, the combined array real-valued. -/
theorem bn_L3 (c : Dev nD) (hp : Feat) (hhp : outsF m 24 main_v162_0 c = hp)
    (hS1 : ∀ (u : Fin 1) (j : Fin 64), (outsF m 24 main_v162_1 c : S1x64.Idx → EReal) (ix2 u j) = ∑ r : Fin 100000, hp (ix2 r j))
    (hS2 : ∀ (u : Fin 1) (j : Fin 64), (outsF m 24 main_v162_2 c : S1x64.Idx → EReal) (ix2 u j)
      = ∑ r : Fin 100000, hp (ix2 r j) * hp (ix2 r j))
    (hreal : ∀ i, ∃ x : ℝ, hp i = x) :
    outsF m 26 main_v178 c = reluF (normF hp (sliceRow (arg6 m c) (3 : Fin 4)) (sliceRow (arg7 m c) (3 : Fin 4))) := by
  have hV : ∀ b : Ref sig .tc, T25 m c b = V25 m (outsF m) c b := fun b => (congrFun (V25_eq m c) _).symm
  show W26 m c (Proc.devRef .tc main_v178) = _
  rw [W26_out5]
  refine bn_core_L3 (T25 m) c hp _ _ (outsF m 24 main_v162_1 c) (outsF m 24 main_v162_2 c) ?_ ?_ ?_ ?_ ?_ (hS1 0) (hS2 0) hreal
  · exact ((hV main_v162_0).trans (bn_hpre_L3 m (outsF m) c)).trans hhp
  · intro u j
    exact (congrFun (hV main_v164) (ix2 u j)).trans (bn_mu_L3 m (outsF m) c u j)
  · intro u j
    exact (congrFun (hV main_v171) (ix2 u j)).trans (bn_invstd_L3 m (outsF m) c u j)
  · intro u j
    exact (congrFun (hV main_v174) (ix2 u j)).trans (bn_gamma_L3 m (outsF m) c u j)
  · intro u j
    exact (congrFun (hV main_v177) (ix2 u j)).trans (bn_beta_L3 m (outsF m) c u j)

/-- The whole layer: what its last region leaves is the layer function of its input, given that the combined array
    is real-valued. -/
theorem layer_L3 (c : Dev nD) (h : Feat) (hin : outsF m 20 main_v141 c = h)
    (hreal : ∀ i, ∃ x : ℝ,
      hpreF (aggF (xwF h (sliceSq (arg4 m c) (3 : Fin 4))) (srcF (arg1 m c)) (nrmF (arg1 m c)) (dstF (arg1 m c)))
        (xwF h (sliceSq (arg4 m c) (3 : Fin 4))) (selfF (arg1 m c)) (sliceRow (arg5 m c) (3 : Fin 4)) i = x) :
    outsF m 26 main_v178 c
      = layerF h (srcF (arg1 m c)) (nrmF (arg1 m c)) (dstF (arg1 m c)) (selfF (arg1 m c))
          (arg4 m c) (arg5 m c) (arg6 m c) (arg7 m c) (3 : Fin 4) :=
  bn_L3 m c _ (hpre_L3 m c _ (xw_L3 m c h hin)) (sum_L3 m c _ (xw_L3 m c h hin)) (sumsq_L3 m c _ (xw_L3 m c h hin)) hreal

end Cert.Bridge

end
-- ==== Proof.Alg.Scatter.lean ====
/- The host scatter-add and the host gather keep realness: a scatter-add is, at each index, the operand there
   plus a finite sum of update elements, so real-valued operand and updates give a real-valued result, and
   nonnegative ones a nonnegative result; a gather reads the operand at computed indices, so it inherits every
   elementwise property of the operand. The degree (a scatter-add of ones into zeros, plus one) is a real ≥ 1. -/
import Idealize.ShloMosaic.PureOps.Ideal
import Idealize.ShloMosaic.PureOps.Ideal.Laws
import Mathlib.Data.EReal.Basic
import Mathlib.Data.EReal.Operations
import proofs.«147038_j12317966205319_1_alg».proof.Proof.LibStats

noncomputable section

namespace Cert.Alg

open Idealize.ShloMosaic
open scoped BigOperators

/-! ### Finite sums of nonnegative reals -/

/-- A finite sum of extended reals that are all nonnegative reals is a nonnegative real. -/
theorem sum_nonneg_real {ι : Type*} (S : Finset ι) (f : ι → EReal) (hf : ∀ i ∈ S, ∃ x : ℝ, 0 ≤ x ∧ f i = x) :
    ∃ z : ℝ, 0 ≤ z ∧ ∑ i ∈ S, f i = z := by
  classical
  revert hf
  refine Finset.induction_on S (fun _ => ⟨0, le_refl _, by simp⟩) ?_
  intro a S ha ih hf
  obtain ⟨r, hr0, hr⟩ := ih (fun i hi => hf i (Finset.mem_insert_of_mem hi))
  obtain ⟨q, hq0, hq⟩ := hf a (Finset.mem_insert_self a S)
  exact ⟨q + r, add_nonneg hq0 hr0, by rw [Finset.sum_insert ha, hq, hr, EReal.coe_add]⟩

/-! ### The host scatter-add -/

/-- The host scatter-add of a real-valued operand and real-valued updates is real-valued. -/
theorem scatterAdd_real {s si su : Shape} (d : ScatterDims s si su) {w : Nat} (x : s.Idx → EReal) (idx : IVec si w)
    (upd : su.Idx → EReal) (hx : ∀ i, ∃ r : ℝ, x i = r) (hu : ∀ j, ∃ r : ℝ, upd j = r) (i : s.Idx) :
    ∃ r : ℝ, Ideal.hostScatterAdd d x idx upd i = r := by
  unfold Ideal.hostScatterAdd
  obtain ⟨a, ha⟩ := hx i
  obtain ⟨b, hb⟩ := Cert.LibStats.sum_real
    (Finset.univ.filter (fun j => d.resultIdx? j idx = some i)) upd (fun j _ => hu j)
  exact ⟨a + b, by rw [ha, hb, EReal.coe_add]⟩

/-- The host scatter-add of a nonnegative real-valued operand and nonnegative real-valued updates is a nonnegative
    real at every index. -/
theorem scatterAdd_nonneg {s si su : Shape} (d : ScatterDims s si su) {w : Nat} (x : s.Idx → EReal) (idx : IVec si w)
    (upd : su.Idx → EReal) (hx : ∀ i, ∃ r : ℝ, 0 ≤ r ∧ x i = r) (hu : ∀ j, ∃ r : ℝ, 0 ≤ r ∧ upd j = r) (i : s.Idx) :
    ∃ r : ℝ, 0 ≤ r ∧ Ideal.hostScatterAdd d x idx upd i = r := by
  unfold Ideal.hostScatterAdd
  obtain ⟨a, ha0, ha⟩ := hx i
  obtain ⟨b, hb0, hb⟩ := sum_nonneg_real
    (Finset.univ.filter (fun j => d.resultIdx? j idx = some i)) upd (fun j _ => hu j)
  exact ⟨a + b, add_nonneg ha0 hb0, by rw [ha, hb, EReal.coe_add]⟩

/-- The host scatter-add of a zero operand with updates all equal to the real 1 is a nonnegative real at every
    index (the number of updates landing there). -/
theorem scatterAdd_ones_nonneg {s si su : Shape} (d : ScatterDims s si su) {w : Nat} (x : s.Idx → EReal)
    (idx : IVec si w) (upd : su.Idx → EReal) (hx : ∀ i, x i = 0) (hu : ∀ j, upd j = ((1 : ℝ) : EReal)) (i : s.Idx) :
    ∃ r : ℝ, 0 ≤ r ∧ Ideal.hostScatterAdd d x idx upd i = r :=
  scatterAdd_nonneg d x idx upd (fun i => ⟨0, le_refl _, by rw [hx i, EReal.coe_zero]⟩)
    (fun j => ⟨1, zero_le_one, hu j⟩) i

/-- A nonnegative real plus the real 1 is a real that is at least 1. -/
theorem nonneg_add_one {a : EReal} (ha : ∃ r : ℝ, 0 ≤ r ∧ a = r) : ∃ r : ℝ, 1 ≤ r ∧ a + ((1 : ℝ) : EReal) = r := by
  obtain ⟨r, hr, rfl⟩ := ha
  exact ⟨r + 1, le_add_of_nonneg_left hr, (EReal.coe_add r 1).symm⟩

/-- So the degree, that scatter-add plus one, is a real ≥ 1 at every index. -/
theorem degree_one_le {s si su : Shape} (d : ScatterDims s si su) {w : Nat} (x : s.Idx → EReal)
    (idx : IVec si w) (upd : su.Idx → EReal) (hx : ∀ i, x i = 0) (hu : ∀ j, upd j = ((1 : ℝ) : EReal)) (i : s.Idx) :
    ∃ r : ℝ, 1 ≤ r ∧ Ideal.hostScatterAdd d x idx upd i + ((1 : ℝ) : EReal) = r :=
  nonneg_add_one (scatterAdd_ones_nonneg d x idx upd hx hu i)

/-! ### The host gather -/

/-- A host gather reads its operand at computed indices, so every property that holds of each operand element
    holds of each gathered element. -/
theorem gather_of_forall {s si t : Shape} {α : Type} (d : GatherDims s si t) {w : Nat} (x : s.Idx → α)
    (idx : IVec si w) (P : α → Prop) (hx : ∀ i, P (x i)) (j : t.Idx) : P (Host.gather d x idx j) :=
  hx _

/-- A host gather of a real-valued array is real-valued. -/
theorem gather_real {s si t : Shape} (d : GatherDims s si t) {w : Nat} (x : s.Idx → EReal) (idx : IVec si w)
    (hx : ∀ i, ∃ r : ℝ, x i = r) (j : t.Idx) : ∃ r : ℝ, Host.gather d x idx j = r :=
  hx _

/-- A host gather of a positive real-valued array is positive real-valued. -/
theorem gather_pos {s si t : Shape} (d : GatherDims s si t) {w : Nat} (x : s.Idx → EReal) (idx : IVec si w)
    (hx : ∀ i, ∃ r : ℝ, 0 < r ∧ x i = r) (j : t.Idx) : ∃ r : ℝ, 0 < r ∧ Host.gather d x idx j = r :=
  hx _

end Cert.Alg

end
-- ==== Proof.Alg.Degree.lean ====
/- The degree normalisation of a graph convolution, with the float literals as their patterns: the degree (a host
   scatter-add of the pattern of 1.0 into the pattern of 0.0, plus the pattern of 1.0) is a real ≥ 1; its power at
   the pattern of −0.5 is a positive real; the edge weight (a product of two gathered such powers) and the self
   weight (the square of one) are positive reals; a scatter-add of products of reals into reals is real. -/
import Idealize.ShloMosaic.PureOps.Ideal
import Idealize.ShloMosaic.PureOps.Ideal.Laws
import Mathlib.Data.EReal.Basic
import Mathlib.Data.EReal.Operations
import proofs.«147038_j12317966205319_1_alg».proof.Proof.Alg.Consts
import proofs.«147038_j12317966205319_1_alg».proof.Proof.Alg.Real
import proofs.«147038_j12317966205319_1_alg».proof.Proof.Alg.Scatter

noncomputable section

namespace Cert.Alg

open Idealize.ShloMosaic
open scoped BigOperators

/-- The degree is a real ≥ 1 at every index: the scatter-add of ones into zeros counts the updates landing there,
    a nonnegative real, and one is added. -/
theorem degree_word_one_le {s si su : Shape} (d : ScatterDims s si su) {w : Nat} (x : s.Idx → EReal)
    (idx : IVec si w) (upd : su.Idx → EReal) (hx : ∀ i, x i = Ideal.ofBits .f32 0x00000000#32)
    (hu : ∀ j, upd j = Ideal.ofBits .f32 0x3F800000#32) (i : s.Idx) :
    ∃ r : ℝ, 1 ≤ r ∧ Ideal.hostScatterAdd d x idx upd i + Ideal.ofBits .f32 0x3F800000#32 = r := by
  rw [ofBits_one]
  exact degree_one_le d x idx upd (fun i => by rw [hx i, ofBits_zero]) (fun j => by rw [hu j, ofBits_one]) i

/-- The degree's power at the pattern of −0.5 is a positive real at every index. -/
theorem dinv_word_pos {s si su : Shape} (d : ScatterDims s si su) {w : Nat} (x : s.Idx → EReal)
    (idx : IVec si w) (upd : su.Idx → EReal) (hx : ∀ i, x i = Ideal.ofBits .f32 0x00000000#32)
    (hu : ∀ j, upd j = Ideal.ofBits .f32 0x3F800000#32) (i : s.Idx) :
    ∃ p : ℝ, 0 < p ∧
      Ideal.pow (Ideal.hostScatterAdd d x idx upd i + Ideal.ofBits .f32 0x3F800000#32)
        (Ideal.ofBits .f32 0xBF000000#32) = p :=
  pow_neghalf_pos (degree_word_one_le d x idx upd hx hu i)

/-- The edge weight, the product of a positive real-valued array gathered at two index arrays, is a positive real. -/
theorem edge_weight_pos {s si t : Shape} (dA dB : GatherDims s si t) {w : Nat} (dinv : s.Idx → EReal)
    (src dst : IVec si w) (hd : ∀ i, ∃ p : ℝ, 0 < p ∧ dinv i = p) (j : t.Idx) :
    ∃ p : ℝ, 0 < p ∧ Host.gather dA dinv src j * Host.gather dB dinv dst j = p :=
  pos_mul (gather_pos dA dinv src hd j) (gather_pos dB dinv dst hd j)

/-- The self weight, the square of a positive real, is a positive real. -/
theorem self_weight_pos {ι : Type*} (dinv : ι → EReal) (hd : ∀ i, ∃ p : ℝ, 0 < p ∧ dinv i = p) (i : ι) :
    ∃ p : ℝ, 0 < p ∧ dinv i * dinv i = p :=
  pos_mul (hd i) (hd i)

/-- A host scatter-add, into a real-valued operand, of updates that are products of two real-valued arrays is
    real-valued (the aggregated messages of a convolution layer). -/
theorem scatterAdd_mul_real {s si su : Shape} (d : ScatterDims s si su) {w : Nat} (x : s.Idx → EReal)
    (idx : IVec si w) (a b : su.Idx → EReal) (hx : ∀ i, ∃ r : ℝ, x i = r) (ha : ∀ j, ∃ r : ℝ, a j = r)
    (hb : ∀ j, ∃ r : ℝ, b j = r) (i : s.Idx) :
    ∃ r : ℝ, Ideal.hostScatterAdd d x idx (fun j => a j * b j) i = r :=
  scatterAdd_real d x idx (fun j => a j * b j) hx (fun j => real_mul (ha j) (hb j)) i

/-- A constant array at the pattern of 0.0 is real-valued. -/
theorem zero_word_real : ∃ r : ℝ, Ideal.ofBits .f32 0x00000000#32 = r :=
  ⟨0, by rw [ofBits_zero, EReal.coe_zero]⟩

end Cert.Alg

end
-- ==== Proof.Bridge.EdgesReal.lean ====
import proofs.«147038_j12317966205319_1_alg».proof.Proof.Ref.StageFns
import proofs.«147038_j12317966205319_1_alg».proof.Proof.Alg.Real
import proofs.«147038_j12317966205319_1_alg».proof.Proof.Alg.Scatter
import proofs.«147038_j12317966205319_1_alg».proof.Proof.Alg.Degree
import Idealize.ShloMosaic.Lib.IdealHost

noncomputable section

namespace Cert.Bridge

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.RefValue
open scoped BigOperators

/-! # The edge-derived arrays are real-valued

A node's degree counts the edges that end at it and adds one: a real at least one. Its power −1/2 is a positive
real; so every edge's weight, the product of its two ends' such powers, and every node's self weight, the square of
its own, are positive reals. The aggregate over incoming edges of a real-valued matrix, a sum of products of its
entries with edge weights added into zeros, is then real-valued.

Each fact is first stated for arrays of any shape, then read at the program's own arrays. -/

/-! ## For arrays of any shape -/

/-- A count of updates of ones into zeros, plus one, to the power −1/2, is a positive real at every index. -/
theorem degree_factor_pos {s si su : Shape} (d : ScatterDims s si su) {w : Nat} (x : FVec Ideal s .f32) (idx : IVec si w)
    (upd : FVec Ideal su .f32) (one nh : FVec Ideal s .f32) (hx : ∀ i, x i = (Ideal.ofBits .f32 0x00000000#32)) (hu : ∀ j, upd j = (Ideal.ofBits .f32 0x3F800000#32))
    (hone : ∀ i, one i = (Ideal.ofBits .f32 0x3F800000#32)) (hnh : ∀ i, nh i = (Ideal.ofBits .f32 0xBF000000#32)) (i : s.Idx) :
    ∃ p : ℝ, 0 < p ∧ Host.powf (addf (Host.scatterAdd d x idx upd) one) nh i = p := by
  show ∃ p : ℝ, 0 < p ∧ Ideal.pow (Ideal.hostScatterAdd d x idx upd i + one i) (nh i) = p
  rw [hone, hnh]
  exact Cert.Alg.dinv_word_pos d x idx upd hx hu i

/-- The product of a positive real-valued array gathered at two index arrays is a positive real at every index. -/
theorem gathered_product_pos {s si t : Shape} (g : GatherDims s si t) {w : Nat} (dinv : FVec Ideal s .f32) (a b : IVec si w)
    (hd : ∀ i, ∃ p : ℝ, 0 < p ∧ dinv i = p) (j : t.Idx) :
    ∃ p : ℝ, 0 < p ∧ mulf (Host.gather g dinv a) (Host.gather g dinv b) j = p :=
  Cert.Alg.edge_weight_pos g g dinv a b hd j

/-- The square of a positive real-valued array is a positive real at every index. -/
theorem square_pos {s : Shape} (dinv : FVec Ideal s .f32) (hd : ∀ i, ∃ p : ℝ, 0 < p ∧ dinv i = p) (i : s.Idx) :
    ∃ p : ℝ, 0 < p ∧ mulf dinv dinv i = p :=
  Cert.Alg.self_weight_pos dinv hd i

/-- A scatter-add, into a real-valued array, of products of two real-valued arrays is real at every index. -/
theorem scatter_products_real {s si su : Shape} (d : ScatterDims s si su) {w : Nat} (z : FVec Ideal s .f32) (idx : IVec si w)
    (a b : FVec Ideal su .f32) (hz : ∀ i, ∃ r : ℝ, z i = r) (ha : ∀ j, ∃ r : ℝ, a j = r) (hb : ∀ j, ∃ r : ℝ, b j = r)
    (i : s.Idx) : ∃ r : ℝ, Host.scatterAdd d z idx (mulf a b) i = r :=
  Cert.Alg.scatterAdd_mul_real d z idx a b hz ha hb i

/-- The zero word spread over any shape is real at every index. -/
theorem zeros_real {T : Shape} (h : (⟨0, ![]⟩ : Shape).BroadcastsInDim T ![]) (i : T.Idx) :
    ∃ r : ℝ, broadcastInDim T ![] h (constant (F := Ideal) ⟨0, ![]⟩ .f32 0x00000000#32) i = r := by
  rw [broadcastInDim_scalar_apply, constant_apply]
  exact Cert.Alg.zero_word_real

/-! ## At the program's arrays -/

/-- The array of zeros the degree count starts from reads the zero word everywhere, -/
theorem zeros_at (i : S100000.Idx) : Stages.val_main_v5 (F := Ideal) i = (Ideal.ofBits .f32 0x00000000#32) := by
  rw [Stages.val_main_v5_apply]; unfold Stages.val_main_cst_0; exact constant_apply _ _

/-- the array of ones it adds reads the word of one, -/
theorem ones_at (j : S1600000.Idx) : Stages.val_main_v4 (F := Ideal) j = (Ideal.ofBits .f32 0x3F800000#32) := by
  rw [Stages.val_main_v4_apply]; unfold Stages.val_main_cst; exact constant_apply _ _

/-- so does the one added to the count, -/
theorem one_at (i : S100000.Idx) : Stages.val_main_v8 (F := Ideal) i = (Ideal.ofBits .f32 0x3F800000#32) := by
  rw [Stages.val_main_v8_apply]; unfold Stages.val_main_cst_1; exact constant_apply _ _

/-- and the exponent reads the word of −1/2. -/
theorem neghalf_at (i : S100000.Idx) : Stages.val_main_v10 (F := Ideal) i = (Ideal.ofBits .f32 0xBF000000#32) := by
  rw [Stages.val_main_v10_apply]; unfold Stages.val_main_cst_2; exact constant_apply _ _

/-- Every node's degree factor is a positive real. -/
theorem dinv_pos (e : EdgeList) (i : S100000.Idx) : ∃ p : ℝ, 0 < p ∧ Stages.val_main_v11 (F := Ideal) e i = p :=
  degree_factor_pos scatter_S100000_S1600000x1_S1600000_n_0_0_1 (Stages.val_main_v5 (F := Ideal)) (Stages.val_main_v6 (F := Ideal) e)
    (Stages.val_main_v4 (F := Ideal)) (Stages.val_main_v8 (F := Ideal)) (Stages.val_main_v10 (F := Ideal))
    zeros_at ones_at one_at neghalf_at i

/-- Every node's self weight is a positive real. -/
theorem selfF_pos (e : EdgeList) (i : S100000.Idx) : ∃ p : ℝ, 0 < p ∧ selfF e i = p :=
  square_pos (Stages.val_main_v11 (F := Ideal) e) (dinv_pos e) i

/-- Every edge's weight, at every column, is a positive real: the edge's weight read along the columns. -/
theorem nrmF_pos (e : EdgeList) (i : S1600000x64.Idx) : ∃ p : ℝ, 0 < p ∧ nrmF e i = p := by
  obtain ⟨p, hp, hh⟩ := gathered_product_pos gather_S100000_S1600000x1_S1600000_n_0_n_n_0_1_1 (Stages.val_main_v11 (F := Ideal) e)
    (Stages.val_main_v17 (F := Ideal) e) (Stages.val_main_v24 (F := Ideal) e) (dinv_pos e)
    (Stages.idx_main_v42 (Stages.idx_main_v43 i))
  exact ⟨p, hp, ((Stages.val_main_v43_apply (F := Ideal) e i).trans (Stages.val_main_v42_apply (F := Ideal) e _)).trans hh⟩

/-- The aggregate over incoming edges of a real-valued matrix, with real edge weights, is real-valued. -/
theorem aggF_real (xw : Feat) (src : EdgeNode) (nrm : EdgeW) (dst : EdgeNode) (hxw : ∀ i, ∃ x : ℝ, xw i = x)
    (hn : ∀ i, ∃ x : ℝ, nrm i = x) (i : S100000x64.Idx) : ∃ x : ℝ, aggF xw src nrm dst i = x :=
  scatter_products_real scatter_S100000x64_S1600000x1_S1600000x64_1_0_0_1
    (broadcastInDim S100000x64 ![] bcast_S_S100000x64 (constant (F := Ideal) S_ .f32 0x00000000#32)) dst
    (Host.gather gather_S100000x64_S1600000x1_S1600000x64_1_0_n_n_0_1_164 xw src) nrm (fun i => zeros_real bcast_S_S100000x64 i)
    (fun j => Cert.Alg.gather_real gather_S100000x64_S1600000x1_S1600000x64_1_0_n_n_0_1_164 xw src hxw j) hn i

/-- With the program's own edge arrays: the aggregate of a real-valued matrix is real-valued. -/
theorem aggF_edges_real (xw : Feat) (e : EdgeList) (hxw : ∀ i, ∃ x : ℝ, xw i = x) (i : S100000x64.Idx) :
    ∃ x : ℝ, aggF xw (srcF e) (nrmF e) (dstF e) i = x :=
  aggF_real xw (srcF e) (nrmF e) (dstF e) hxw (fun j => Cert.Alg.real_of_pos (nrmF_pos e j)) i

/-- Every node's self weight is in particular a real. -/
theorem selfF_real (e : EdgeList) (i : S100000.Idx) : ∃ x : ℝ, selfF e i = x :=
  Cert.Alg.real_of_pos (selfF_pos e i)

end Cert.Bridge

end
-- ==== Proof.Bridge.LayerReal.lean ====
/- Realness through one graph-convolution layer: from a real-valued input and real-valued parameters, the product with
   the layer's weights is real-valued (finite sums of products of reals), so is its aggregate over incoming edges (the
   edge weights are positive reals), so is the combined array (aggregate + product · self weight + bias, the self
   weights positive reals), and so is the layer's output (the normalisation of real data, cut off at zero). -/
import proofs.«147038_j12317966205319_1_alg».proof.Proof.Bridge.EdgesReal
import proofs.«147038_j12317966205319_1_alg».proof.Proof.Bridge.StageFacts

set_option maxRecDepth 16384

noncomputable section

namespace Cert.Bridge

open Idealize.ShloMosaic
open Cert.ReferenceIdeal.RefValue (Feat Col Row WSq WLayers RowLayers EdgeList xwF aggF hpreF normF reluF layerF sliceSq sliceRow srcF nrmF dstF selfF)

/-- A layer's weight matrix cut out of real-valued stacked weights is real-valued. -/
theorem sliceSq_real (w : WLayers) (l : Fin 4) (hw : ∀ i, ∃ x : ℝ, w i = x) : ∀ i, ∃ x : ℝ, sliceSq w l i = x :=
  fun i => hw _

/-- A layer's row cut out of real-valued stacked rows is real-valued. -/
theorem sliceRow_real (p : RowLayers) (l : Fin 4) (hp : ∀ i, ∃ x : ℝ, p i = x) : ∀ j, ∃ x : ℝ, sliceRow p l j = x :=
  fun j => hp _

/-- The combined array of a layer — aggregate plus product times self weight plus bias — is real-valued when the
    layer's input, the stacked weights and the stacked biases are. -/
theorem hpre_layer_real (h : Feat) (e : EdgeList) (w : WLayers) (b : RowLayers) (l : Fin 4)
    (hh : ∀ i, ∃ x : ℝ, h i = x) (hw : ∀ i, ∃ x : ℝ, w i = x) (hb : ∀ i, ∃ x : ℝ, b i = x) :
    ∀ i, ∃ x : ℝ, hpreF (aggF (xwF h (sliceSq w l)) (srcF e) (nrmF e) (dstF e)) (xwF h (sliceSq w l)) (selfF e)
      (sliceRow b l) i = x :=
  fun i => Cert.Alg.real_add_mul_add
    (aggF_edges_real (xwF h (sliceSq w l)) e (xwF_real h (sliceSq w l) hh (sliceSq_real w l hw)) i)
    (xwF_real h (sliceSq w l) hh (sliceSq_real w l hw) i) (selfF_real e _) (sliceRow_real b l hb _)

/-- A layer's output is real-valued when its input and the stacked parameters are. -/
theorem layerF_real (h : Feat) (e : EdgeList) (w : WLayers) (b g bt : RowLayers) (l : Fin 4)
    (hh : ∀ i, ∃ x : ℝ, h i = x) (hw : ∀ i, ∃ x : ℝ, w i = x) (hb : ∀ i, ∃ x : ℝ, b i = x)
    (hg : ∀ i, ∃ x : ℝ, g i = x) (hbt : ∀ i, ∃ x : ℝ, bt i = x) :
    ∀ i, ∃ x : ℝ, layerF h (srcF e) (nrmF e) (dstF e) (selfF e) w b g bt l i = x :=
  fun i => relu_norm_real _ (sliceRow g l) (sliceRow bt l) (hpre_layer_real h e w b l hh hw hb)
    (sliceRow_real g l hg) (sliceRow_real bt l hbt) i

end Cert.Bridge
-- ==== Proof.KI.Val13.lean ====
import proofs.«147038_j12317966205319_1_alg».proof.Proof.KI.Fr13
import proofs.«147038_j12317966205319_1_alg».proof.Proof.LibStats
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic
import Mathlib.Tactic.FinCases

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx
open scoped BigOperators

/-! ## What each case's stores leave, for any float values -/

section Pieces

variable {F : FTy → Type} [FloatOps F] [Named F]

theorem hz13 : (![0, 0] : Fin 2 → Nat) = fun _ => 0 := funext fun a => by
  match a with
  | ⟨0, _⟩ => rfl
  | ⟨1, _⟩ => rfl

/-- A middle point leaves in the accumulator what it held plus the tile's column sums. -/
theorem soutB13_eq (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (x1 : Vec F S64x64 .f32) (x2 : Vec F S1x64 .f32) (xs0 : Vec F S1x64 .f32) :
    sout13_B_0 c i arg1 harg1 arg2 harg2 arg3 harg3 arg4 harg4 arg5 harg5 hc0 hc1 x0 x1 x2 xs0 = k13_pay2 xs0 x0 := by
  unfold sout13_B_0
  rw [View.read_writes_eq_canon _ _ _ (scover13_B_0 c i arg1 harg1 arg2 harg2 arg3 harg3 arg4 harg4 arg5 harg5 hc0 hc1 x0 x1 x2 xs0)]
  unfold kernelRun13_B
  dsimp only
  try sl_unfold_words
  rw [View.canon_unit_zero hz13]
  simp only [View.readAt_eq_ld, harg1.read_unread, harg5.read_unread, View.ld_unit_zero (S := S1x64) hz13, View.ld_unit_zero (S := S10000x64) hz13]

/-- The first point leaves the zero fill plus the tile's column sums. -/
theorem soutA13_eq (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (x1 : Vec F S64x64 .f32) (x2 : Vec F S1x64 .f32) :
    sout13_A_0 c i arg1 harg1 arg2 harg2 arg3 harg3 arg4 harg4 arg5 harg5 hc0 hc1 x0 x1 x2 = k13_pay2 (k13_pay1 (F := F)) x0 := by
  unfold sout13_A_0
  rw [View.read_writes_eq_canon _ _ _ (scover13_A_0 c i arg1 harg1 arg2 harg2 arg3 harg3 arg4 harg4 arg5 harg5 hc0 hc1 x0 x1 x2)]
  unfold kernelRun13_A
  dsimp only
  try sl_unfold_words
  rw [View.canon_cons_unit_zero (S := S1x64) hz13, View.readCov_unit_zero (S := S1x64) _ hz13]
  simp only [View.readAt_eq_ld, harg1.read_unread, View.ld_unit_zero (S := S10000x64) hz13]

/-- The last point updates the accumulator like a middle point, -/
theorem soutC13_eq (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) :
    sout13_C_0 c i arg1 harg1 arg2 harg2 arg3 harg3 arg4 harg4 arg5 harg5 hc0 hc1 x0 x1 x2 xs0 = k13_pay2 xs0 x0 := by
  unfold sout13_C_0
  rw [View.read_writes_eq_canon _ _ _ (scover13_C_0 c i arg1 harg1 arg2 harg2 arg3 harg3 arg4 harg4 arg5 harg5 hc0 hc1 x0 x1 x2 xs0)]
  unfold kernelRun13_C
  dsimp only
  try sl_unfold_words
  rw [View.canon_unit_zero hz13]
  simp only [View.readAt_eq_ld, harg1.read_unread, harg5.read_unread, View.ld_unit_zero (S := S1x64) hz13, View.ld_unit_zero (S := S10000x64) hz13]

/-- and stores the projection of the updated accumulator into the output. -/
theorem outC13_eq (c : Dev nD) (i : grid13.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (x1 : Vec F S64x64 .f32) (x2 : Vec F S1x64 .f32) (xs0 : Vec F S1x64 .f32) :
    out13_C_3 c i arg1 harg1 arg2 harg2 arg3 harg3 arg4 harg4 arg5 harg5 hc0 hc1 x0 x1 x2 xs0 = k13_pay3 (k13_pay2 xs0 x0) x1 x2 := by
  unfold out13_C_3
  rw [View.read_writes_eq_canon _ _ _ (cover13_C_3 c i arg1 harg1 arg2 harg2 arg3 harg3 arg4 harg4 arg5 harg5 hc0 hc1 x0 x1 x2 xs0)]
  unfold kernelRun13_C
  dsimp only
  try sl_unfold_words
  rw [View.canon_unit_zero hz13, View.readCov_unit_zero (S := S1x64) _ hz13]
  simp only [View.readAt_eq_ld, harg1.read_unread, harg2.read_unread, harg3.read_unread, harg5.read_unread, View.ld_unit_zero (S := S1x64) hz13, View.ld_unit_zero (S := S10000x64) hz13, View.ld_unit_zero (S := S64x64) hz13]

end Pieces

/-! ## The payloads read at an index, over the extended reals -/

section Payloads

/-- The scale the projection multiplies by is the rational 1/100000. -/
theorem inv13_eq : Named.named (F := Ideal) κ "inv_100000" (φ := .f32) 0x3727C5AC#32 = ((1 / 100000 : ℝ) : EReal) :=
  IdealRules.named_const.ideal_named_scalar _ _ _ _ rfl

/-- The zero fill is 0 everywhere. -/
theorem pay13_1_apply (i : S1x64.Idx) : (k13_pay1 (F := Ideal)) i = 0 := by
  unfold k13_pay1
  simp only [shapeCast_self]
  exact Ideal.ofBits_zero_f32

/-- The accumulator's update at column `j`: what it held there plus the sum of the tile's column `j`. -/
theorem pay13_2_apply (xs : Vec Ideal S1x64 .f32) (x : Vec Ideal S10000x64 .f32) (j : Fin 64) :
    k13_pay2 xs x (ix2 (0 : Fin 1) j) = (xs (ix2 (0 : Fin 1) j) : EReal) + ∑ r : Fin 10000, (x (ix2 r j) : EReal) := by
  unfold k13_pay2
  simp only [shapeCast_self]
  refine (addf_apply _ _ _).trans ?_
  refine congrArg (fun z => (xs (ix2 (0 : Fin 1) j) : EReal) + z) ?_
  refine (shapeCast_a_1a_apply _ _ (0 : Fin 1) j).trans ?_
  refine (Ideal.multiReduction_add_single _ _ reduces_S10000x64_S64 _ _ (ix1 j)).trans ?_
  refine Finset.sum_congr rfl fun r _ => congrArg x ?_
  funext a
  match a with
  | ⟨0, _⟩ => rfl
  | ⟨1, _⟩ => rfl

/-- The dot's one contraction coordinate, as a column of the left operand and a row of the right. -/
abbrev e13 : dot_S1x64_S64x64_S1x64_1_0_0_1_n_n.contr.Idx ≃ Fin 64 :=
  contrEquiv1 dot_S1x64_S64x64_S1x64_1_0_0_1_n_n 64 rfl rfl

theorem lhsIdx13 (j : Fin 64) (k : dot_S1x64_S64x64_S1x64_1_0_0_1_n_n.contr.Idx) :
    dot_S1x64_S64x64_S1x64_1_0_0_1_n_n.lhsIdx (ix2 (0 : Fin 1) j) k = ix2 (0 : Fin 1) (e13 k) := by
  funext a
  match a with
  | ⟨0, h0⟩ =>
    have hlt : (dot_S1x64_S64x64_S1x64_1_0_0_1_n_n.lhsIdx (ix2 (0 : Fin 1) j) k ⟨0, h0⟩).val < 1 :=
      (dot_S1x64_S64x64_S1x64_1_0_0_1_n_n.lhsIdx (ix2 (0 : Fin 1) j) k ⟨0, h0⟩).isLt
    exact Fin.ext (Nat.lt_one_iff.mp hlt)
  | ⟨1, _⟩ => exact Fin.ext (dot_S1x64_S64x64_S1x64_1_0_0_1_n_n.lhsIdx_val_of_single (cl := ⟨1, by decide⟩) rfl _ k)

theorem rhsIdx13 (j : Fin 64) (k : dot_S1x64_S64x64_S1x64_1_0_0_1_n_n.contr.Idx) :
    dot_S1x64_S64x64_S1x64_1_0_0_1_n_n.rhsIdx (ix2 (0 : Fin 1) j) k = ix2 (e13 k) j := by
  funext a
  match a with
  | ⟨0, _⟩ => exact Fin.ext (dot_S1x64_S64x64_S1x64_1_0_0_1_n_n.rhsIdx_val_of_single (cr := ⟨0, by decide⟩) rfl _ k)
  | ⟨1, _⟩ => rfl

/-- The projection at column `j`: the accumulator's row scaled by 1/100000, times column `j` of the weights (the
    format changes are the identity, the product accumulates from zero), plus the bias. -/
theorem pay13_3_apply (s : Vec Ideal S1x64 .f32) (W : Vec Ideal S64x64 .f32) (b : Vec Ideal S1x64 .f32) (j : Fin 64) :
    k13_pay3 s W b (ix2 (0 : Fin 1) j)
      = (∑ k : Fin 64, ((s (ix2 (0 : Fin 1) k) : EReal) * ((1 / 100000 : ℝ) : EReal)) * (W (ix2 k j) : EReal)) + (b (ix2 (0 : Fin 1) j) : EReal) := by
  unfold k13_pay3
  simp only [shapeCast_self, matmul]
  refine (addf_apply _ _ _).trans ?_
  refine congrArg (fun z => z + (b (ix2 (0 : Fin 1) j) : EReal)) ?_
  refine (Ideal.matmul_constant_zero_apply dot_S1x64_S64x64_S1x64_1_0_0_1_n_n none _ _ (ix2 (0 : Fin 1) j)).trans ?_
  refine (Finset.sum_congr rfl fun k _ => ?_).trans
    (Equiv.sum_comp e13 fun k' : Fin 64 => ((s (ix2 (0 : Fin 1) k') : EReal) * ((1 / 100000 : ℝ) : EReal)) * (W (ix2 k' j) : EReal))
  rw [lhsIdx13, rhsIdx13]
  show (s (ix2 (0 : Fin 1) (e13 k)) : EReal) * Named.named (F := Ideal) κ "inv_100000" (φ := .f32) 0x3727C5AC#32 * (W (ix2 (e13 k) j) : EReal) = _
  rw [inv13_eq]

end Payloads

/-! ## The input blocks as entries of the entry arrays -/

section Value

variable (V : (c : Dev nD) → (b : Ref sig .tc) → Buf (Elt Ideal) ((c : Thread nD τ).loc b))

/-- The four arrays of the region, at their literal types. -/
abbrev harr13 (c : Dev nD) : S100000x64.Idx → EReal := V c main_v178
abbrev warr13 (c : Dev nD) : S64x64.Idx → EReal := V c main_arg8
abbrev barr13 (c : Dev nD) : S1x64.Idx → EReal := V c main_v179
/-- The input blocks at a point, at their literal types. -/
abbrev hblk13 (c : Dev nD) (t : Fin cfg13.N) : Vec Ideal S10000x64 .f32 := iblk13 V c 0 t
abbrev wblk13 (c : Dev nD) (t : Fin cfg13.N) : Vec Ideal S64x64 .f32 := iblk13 V c 1 t
abbrev bblk13 (c : Dev nD) (t : Fin cfg13.N) : Vec Ideal S1x64 .f32 := iblk13 V c 2 t

/-- The first window's block index at point `t` is `(t, 0)`; the other windows' is `(0, 0)`. -/
theorem idx13_0 (t : Fin cfg13.N) : win13_0.index t 0 = t.val ∧ win13_0.index t 1 = 0 := by
  rcases fin_N13 t with rfl | rfl | rfl | rfl | rfl | rfl | rfl | rfl | rfl | rfl <;> decide
theorem idx13_1 (t : Fin cfg13.N) : win13_1.index t 0 = 0 ∧ win13_1.index t 1 = 0 := by
  rcases fin_N13 t with rfl | rfl | rfl | rfl | rfl | rfl | rfl | rfl | rfl | rfl <;> decide
theorem idx13_2 (t : Fin cfg13.N) : win13_2.index t 0 = 0 ∧ win13_2.index t 1 = 0 := by
  rcases fin_N13 t with rfl | rfl | rfl | rfl | rfl | rfl | rfl | rfl | rfl | rfl <;> decide

/-- Row `r` of the tile at point `t` is row `10000 t + r` of the activations. -/
theorem hblk13_apply (c : Dev nD) (t : Fin cfg13.N) (r : Fin 10000) (j : Fin 64) (k : Fin 100000)
    (hk : k.val = 10000 * t.val + r.val) :
    hblk13 V c t (ix2 r j) = harr13 V c (ix2 k j) := by
  have hi := idx13_0 t
  unfold hblk13 harr13 iblk13
  rw [View.read_apply]
  show V c main_v178 _ = V c main_v178 _
  congr 1
  funext a
  apply Fin.ext
  match a with
  | ⟨0, _⟩ => show win13_0.index t 0 * 10000 + 1 * r.val = k.val; rw [hi.1, hk]; omega
  | ⟨1, _⟩ => show win13_0.index t 1 * 64 + 1 * j.val = j.val; rw [hi.2]; omega

/-- The weights' block is the weights, -/
theorem wblk13_apply (c : Dev nD) (t : Fin cfg13.N) (k j : Fin 64) : wblk13 V c t (ix2 k j) = warr13 V c (ix2 k j) := by
  have hi := idx13_1 t
  unfold wblk13 warr13 iblk13
  rw [View.read_apply]
  show V c main_arg8 _ = V c main_arg8 _
  congr 1
  funext a
  apply Fin.ext
  match a with
  | ⟨0, _⟩ => show win13_1.index t 0 * 64 + 1 * k.val = k.val; rw [hi.1]; omega
  | ⟨1, _⟩ => show win13_1.index t 1 * 64 + 1 * j.val = j.val; rw [hi.2]; omega

/-- and the bias's block the bias. -/
theorem bblk13_apply (c : Dev nD) (t : Fin cfg13.N) (j : Fin 64) : bblk13 V c t (ix2 (0 : Fin 1) j) = barr13 V c (ix2 (0 : Fin 1) j) := by
  have hi := idx13_2 t
  unfold bblk13 barr13 iblk13
  rw [View.read_apply]
  show V c main_v179 _ = V c main_v179 _
  congr 1
  funext a
  apply Fin.ext
  match a with
  | ⟨0, _⟩ => show win13_2.index t 0 * 1 + 1 * (0 : Fin 1).val = (0 : Fin 1).val; rw [hi.1]; rfl
  | ⟨1, _⟩ => show win13_2.index t 1 * 64 + 1 * j.val = j.val; rw [hi.2]; omega

/-! ## The accumulator point by point -/

/-- After the first point: the zero fill plus the first tile's column sums. -/
theorem sAt13_zero (c : Dev nD) (hn : 0 < cfg13.N) :
    (outsAt13 V c 0 hn).2 = k13_pay2 (k13_pay1 (F := Ideal)) (hblk13 V c ⟨0, hn⟩) := by
  rw [outsAt13_A V c ⟨0, hn⟩ rfl (show (0 : ℕ) ≠ 9 from by decide)]
  dsimp only
  exact soutA13_eq (F := Ideal) c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) scM13_0 (Memref.isWhole_whole _) _ _ (iblk13 V c 0 ⟨0, hn⟩) (iblk13 V c 1 ⟨0, hn⟩) (iblk13 V c 2 ⟨0, hn⟩)

/-- After a later point: what the point before left plus this tile's column sums. -/
theorem sAt13_succ (c : Dev nD) (n : ℕ) (hn : n + 1 < cfg13.N) :
    (outsAt13 V c (n + 1) hn).2 = k13_pay2 (outsAt13 V c n (Nat.lt_of_succ_lt hn)).2 (hblk13 V c ⟨n + 1, hn⟩) := by
  by_cases h9 : n + 1 = 9
  · rw [outsAt13_C V c ⟨n + 1, hn⟩ (Nat.succ_ne_zero n) h9]
    dsimp only
    exact soutC13_eq (F := Ideal) c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) _ _ (iblk13 V c 0 ⟨n + 1, hn⟩) (iblk13 V c 1 ⟨n + 1, hn⟩) (iblk13 V c 2 ⟨n + 1, hn⟩) (outsAt13 V c n (Nat.lt_of_succ_lt hn)).2
  · rw [outsAt13_B V c ⟨n + 1, hn⟩ (Nat.succ_ne_zero n) h9]
    dsimp only
    exact soutB13_eq (F := Ideal) c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) _ _ (iblk13 V c 0 ⟨n + 1, hn⟩) (iblk13 V c 1 ⟨n + 1, hn⟩) (iblk13 V c 2 ⟨n + 1, hn⟩) (outsAt13 V c n (Nat.lt_of_succ_lt hn)).2

/-- The output's buffer after the last point: the projection of the accumulator's final contents. -/
theorem oAt13_last (c : Dev nD) (hn : 9 < cfg13.N) :
    (outsAt13 V c 9 hn).1 = k13_pay3 (outsAt13 V c 9 hn).2 (wblk13 V c ⟨9, hn⟩) (bblk13 V c ⟨9, hn⟩) := by
  rw [sAt13_succ V c 8 hn]
  rw [outsAt13_C V c ⟨9, hn⟩ (show (9 : ℕ) ≠ 0 from by decide) rfl]
  dsimp only
  exact outC13_eq (F := Ideal) c (grid13.coords ⟨9, hn⟩) (ms13_0 ⟨9, hn⟩) (hs13_0 ⟨9, hn⟩) (ms13_1 ⟨9, hn⟩) (hs13_1 ⟨9, hn⟩) (ms13_2 ⟨9, hn⟩) (hs13_2 ⟨9, hn⟩) (ms13_3 ⟨9, hn⟩) (hs13_3 ⟨9, hn⟩) scM13_0 (Memref.isWhole_whole _) _ _ (iblk13 V c 0 ⟨9, hn⟩) (iblk13 V c 1 ⟨9, hn⟩) (iblk13 V c 2 ⟨9, hn⟩) (outsAt13 V c 8 (Nat.lt_of_succ_lt hn)).2

/-- Column `j`'s sum over the tile of point `t` (zero past the grid). -/
def tile13 (c : Dev nD) (j : Fin 64) (t : ℕ) : EReal :=
  if h : t < cfg13.N then ∑ r : Fin 10000, (hblk13 V c ⟨t, h⟩ (ix2 r j) : EReal) else 0

/-- The accumulator after point `n` holds, at column `j`, the sum of the first `n + 1` tiles' column sums: by
    induction on the point, the zero fill absorbed at the first. -/
theorem acc13 (c : Dev nD) (j : Fin 64) : ∀ (n : ℕ) (hn : n < cfg13.N),
    ((outsAt13 V c n hn).2 : Vec Ideal S1x64 .f32) (ix2 (0 : Fin 1) j) = ∑ t ∈ Finset.range (n + 1), tile13 V c j t
  | 0, hn => by
    rw [sAt13_zero V c hn]
    refine (pay13_2_apply _ _ j).trans ?_
    rw [pay13_1_apply, zero_add, Finset.sum_range_one]
    unfold tile13; rw [dif_pos hn]
  | n + 1, hn => by
    rw [sAt13_succ V c n hn]
    refine (pay13_2_apply _ _ j).trans ?_
    rw [acc13 c j n (Nat.lt_of_succ_lt hn), Finset.sum_range_succ _ (n + 1)]
    refine congrArg (fun z => (∑ t ∈ Finset.range (n + 1), tile13 V c j t) + z) ?_
    unfold tile13; rw [dif_pos hn]

/-- The ten tiles' column sums add up to the column's sum over all 100000 rows: the rows regrouped tile by tile. -/
theorem tiles13 (c : Dev nD) (j : Fin 64) :
    ∑ t ∈ Finset.range 10, tile13 V c j t = ∑ r : Fin 100000, harr13 V c (ix2 r j) := by
  have hN : cfg13.N = 10 := N_13
  refine Eq.trans ?_ (Cert.LibStats.sum_tiles 10 10000 (fun i : Fin (10 * 10000) => harr13 V c (ix2 i j))).symm
  rw [← Fin.sum_univ_eq_sum_range (fun t => tile13 V c j t) 10]
  refine Finset.sum_congr rfl fun t _ => ?_
  have ht : t.val < cfg13.N := by rw [hN]; exact t.isLt
  unfold tile13; rw [dif_pos ht]
  refine Finset.sum_congr rfl fun r _ => ?_
  refine hblk13_apply V c ⟨t.val, ht⟩ r j (finProdFinEquiv (t, r)) ?_
  show r.val + 10000 * t.val = 10000 * t.val + r.val
  omega

/-! ## The result array -/

theorem lt13_9 : 9 < cfg13.N := by rw [show cfg13.N = 10 from N_13]; decide

/-- What the output's buffer holds after the last point, as contents of the result array (its one block is the array). -/
abbrev result13 (c : Dev nD) : Buf (Elt Ideal) ((c : Thread nD τ).loc main_v180) := (outsAt13 V c 9 lt13_9).1

/-- The one write-back, at the last point, writes it: block (0, 0) of the [1,64] array read through zero offsets is the
    array. -/
theorem flushed13_eq (c : Dev nD) (t : Fin cfg13.N) (hf : (cfg13.win 3).flush t = true) :
    (dat13 V c).flushed 3 t = ((cfg13.win 3).blk t).view.read (Elt Ideal) (result13 V c) := by
  have hN : cfg13.N = 10 := N_13
  have h9 : t.val = 9 := by have := (flush13_3 t).mp hf; have := t.isLt; omega
  obtain rfl : t = t13_9 := Fin.ext h9
  show (cfg13.win 3).cut (grid13.coords t13_9) ((dat13 V c).after 3 t13_9) = _
  rw [after13_3]
  have hz' : (fun a => win13_3.index t13_9 a * main_v180.ty.shape.size a) = fun _ => 0 := funext fun a => by fin_cases a <;> decide
  exact (Memref.read_access_unit_zero (Elt Ideal) main_v180 hz' (fun a => by rw [congrFun hz' a]; simp) (result13 V c)).symm

/-- So the result array ends holding it: the last point's block covers the array. -/
theorem final13 (c : Dev nD) : (dat13 V c).arrAt 3 cfg13.N = result13 V c :=
  (dat13 V c).arrAt_eq_of_cover 3 (result13 V c) (flushed13_eq V c) fun i =>
    ⟨t13_9, (flush13_3 t13_9).mpr rfl, by
      show i ∈ ((View.whole main_v180).slice (win13_3.rect t13_9)).set
      rw [View.set_slice_whole, Rect.mem_set_unit]
      intro a
      have h0 : (i 0 : Nat) < 1 := (i 0).isLt
      have h1 : (i 1 : Nat) < 64 := (i 1).isLt
      match a with
      | ⟨0, _⟩ => show win13_3.index t13_9 0 * win13_3.size 0 ≤ (i 0 : Nat) ∧ (i 0 : Nat) < win13_3.index t13_9 0 * win13_3.size 0 + win13_3.xsize (grid13.coords t13_9) 0
                  rw [show win13_3.index t13_9 0 * win13_3.size 0 = 0 from by decide +kernel, show win13_3.xsize (grid13.coords t13_9) 0 = 1 from by decide +kernel]; omega
      | ⟨1, _⟩ => show win13_3.index t13_9 1 * win13_3.size 1 ≤ (i 1 : Nat) ∧ (i 1 : Nat) < win13_3.index t13_9 1 * win13_3.size 1 + win13_3.xsize (grid13.coords t13_9) 1
                  rw [show win13_3.index t13_9 1 * win13_3.size 1 = 0 from by decide +kernel, show win13_3.xsize (grid13.coords t13_9) 1 = 64 from by decide +kernel]; omega⟩

/-- The result at column `j`: the columns' sums over all rows, each scaled by 1/100000, times column `j` of the
    weights, plus the bias. -/
theorem result13_apply (c : Dev nD) (j : Fin 64) :
    (result13 V c : S1x64.Idx → EReal) (ix2 (0 : Fin 1) j)
      = (∑ k : Fin 64, ((∑ r : Fin 100000, harr13 V c (ix2 r k)) * ((1 / 100000 : ℝ) : EReal)) * warr13 V c (ix2 k j))
          + barr13 V c (ix2 (0 : Fin 1) j) := by
  show ((outsAt13 V c 9 lt13_9).1 : Vec Ideal S1x64 .f32) (ix2 (0 : Fin 1) j) = _
  rw [oAt13_last V c lt13_9]
  refine (pay13_3_apply _ _ _ j).trans ?_
  rw [bblk13_apply V c ⟨9, lt13_9⟩ j]
  refine congrArg (fun z => z + barr13 V c (ix2 (0 : Fin 1) j)) ?_
  refine Finset.sum_congr rfl fun k _ => ?_
  rw [wblk13_apply V c ⟨9, lt13_9⟩ k j, acc13 V c k 9 lt13_9, tiles13 V c k]

/-- THE VALUE of the region's output: every entry `(0, j)` of the [1,64] result is
    `(∑ₖ ((∑ᵣ h[r,k]) · 1/100000) · W[k,j]) + b[0,j]` over the entry arrays. -/
theorem arr13_3 (c : Dev nD) : (dat13 (F := Ideal) V c).arrAt 3 cfg13.N = fun i : S1x64.Idx =>
    (∑ k : Fin 64, ((∑ r : Fin 100000, harr13 V c (ix2 r k)) * ((1 / 100000 : ℝ) : EReal)) * warr13 V c (ix2 k (i 1)))
      + barr13 V c (ix2 (0 : Fin 1) (i 1)) := by
  rw [final13 V c]
  funext i
  have h00 : i 0 = (0 : Fin 1) := Fin.ext (Nat.lt_one_iff.mp (show (i 0).val < 1 from (i 0).isLt))
  have hi : i = ix2 (0 : Fin 1) (i 1) := (eq_ix2 i).trans (congrArg (fun a => ix2 a (i 1)) h00)
  refine (congrArg (result13 V c : S1x64.Idx → EReal) hi).trans ?_
  exact result13_apply V c (i 1)

end Value

end Cert.KernelIdeal.Reg

end
-- ==== Proof.KI.HostPool.lean ====
/- What the buffers read by the pooling product hold when it starts, at the ideal values: the last layer's features,
   the output weights as launched, the output bias vector as one row. -/
import proofs.«147038_j12317966205319_1_alg».proof.Proof.Gen.KernelIdeal.Regions
import Idealize.ShloMosaic.Lib.ValueIdx
import Idealize.ShloMosaic.Lib.ValueLayout
import Idealize.ShloMosaic.Lib.IdealHost
import Idealize.ShloMosaic.PureOps.Ideal.Laws
import proofs.«147038_j12317966205319_1_alg».proof.Proof.KI.HostL3

set_option maxRecDepth 16384

noncomputable section

namespace Cert.KernelIdeal.Reg

open Idealize.ShloMosaic Idealize.ShloMosaic.TcCoe
open Idealize.ShloMosaic.ValueIdx
open Cert.KernelIdeal Cert.KernelIdeal.Gen

variable (m : (ℓ : Loc nD τ sig) → Buf (Elt Ideal) ℓ) (outs : Outs (F := Ideal))

/-! ## The entry of the pooling product: the last layer's features, the output weights, the output bias as one row -/

theorem pool_h (c : Dev nD) : V27 m outs c main_v178 = outs 26 main_v178 c :=
  (V27_of m outs c main_v178 (by decide)).trans (V26_x m outs c)

theorem pool_w (c : Dev nD) : V27 m outs c main_arg8 = m (c, main_arg8) :=
  (V27_of m outs c main_arg8 (by decide)).trans (V26_arg8 m outs c)

theorem pool_b (c : Dev nD) (u : Fin 1) (j : Fin 64) :
    (V27 m outs c main_v179 : S1x64.Idx → EReal) (ix2 u j) = (m (c, main_arg9) : S64.Idx → EReal) (ix1 j) := by
  show StableHlo.after hostOps13 _ (Proc.devRef .tc main_v179) (ix2 u j) = _
  after_results
  show shapeCast S1x64 (V26 m outs c main_arg9 : S64.Idx → EReal) _ (ix2 u j) = _
  rw [V26_arg9]
  exact shapeCast_a_1a_apply _ _ u j

end Cert.KernelIdeal.Reg
-- ==== Proof.Bridge.TailValue.lean ====
/- The pooled readout of the graph convolution, at the ideal values: the column means of the last layer's features,
   (Σ_r h[r,k]) · (1/100000), times the output weights plus the output bias, against the same readout written with the
   column sums divided by the row count 100000. Division by a nonzero real is the product with its reciprocal on every
   extended real, so the two agree with no finiteness needed; a zero start of a sum is neutral. -/
import proofs.«147038_j12317966205319_1_alg».proof.Proof.Ref.Stages
import proofs.«147038_j12317966205319_1_alg».proof.Proof.Alg.Real
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.ReferenceIdeal Cert.ReferenceIdeal.Stages
open scoped BigOperators

/-- THE READOUT. Features `h` that are the reference's last layer, weights `W` and a bias row `b` that are the
    reference's: the sum over k of the column mean (Σ_r h[r,k])·(1/100000) times W[k,j], plus b[0,j], is the reference's
    result at (0, j). -/
theorem tail_value
    (x0 : (⟨S100000x32, .f32⟩ : BufTy).Contents (Elt Ideal)) (x1 : (⟨S2x1600000, .i32⟩ : BufTy).Contents (Elt Ideal))
    (x2 : (⟨S32x64, .f32⟩ : BufTy).Contents (Elt Ideal)) (x3 : (⟨S64, .f32⟩ : BufTy).Contents (Elt Ideal))
    (x4 : (⟨S4x64x64, .f32⟩ : BufTy).Contents (Elt Ideal)) (x5 x6 x7 : (⟨S4x64, .f32⟩ : BufTy).Contents (Elt Ideal))
    (x8 : (⟨S64x64, .f32⟩ : BufTy).Contents (Elt Ideal)) (x9 : (⟨S64, .f32⟩ : BufTy).Contents (Elt Ideal))
    (h : S100000x64.Idx → EReal) (W : S64x64.Idx → EReal) (b : S1x64.Idx → EReal)
    (hh : h = val_main_v251 (F := Ideal) x0 x1 x2 x3 x4 x5 x6 x7) (hW : W = x8)
    (hb : ∀ (u : Fin 1) (j : Fin 64), b (ix2 u j) = x9 (ix1 j)) :
    (fun i : S1x64.Idx => (∑ k : Fin 64, ((∑ r : Fin 100000, h (ix2 r k)) * ((1 / 100000 : ℝ) : EReal)) * W (ix2 k (i 1)))
        + b (ix2 0 (i 1)))
      = val_main_v258 (F := Ideal) x0 x1 x2 x3 x4 x5 x6 x7 x8 x9 := by
  funext i
  rw [val_main_v258_apply, Ideal.addf_def, val_main_v256_apply, val_main_v257_apply]
  refine congrArg₂ (· + ·) ?_ ?_
  · refine Finset.sum_congr rfl fun k _ => ?_
    have e1 : ridx_main_v256 i k = ix2 k (i 1) :=
      funext fun a => Fin.ext (by match a with | ⟨0, _⟩ => rfl | ⟨1, _⟩ => rfl)
    rw [e1, hW]
    refine congrArg (· * x8 (ix2 k (i 1))) ?_
    rw [val_main_v255_apply, Ideal.hostDivf_def, val_main_v253_apply, val_main_v254_apply, val_main_v252_apply,
      val_main_cst_39_apply, val_main_cst_38_apply, Ideal.ofBits_def, Ideal.ofBits_def,
      Cert.Alg.div_N_eq_mul, Cert.Alg.zero_word_add]
    refine congrArg (· * ((1 / 100000 : ℝ) : EReal)) ?_
    refine Finset.sum_congr rfl fun r _ => ?_
    rw [hh]
    exact congrArg _ (funext fun a => Fin.ext (by match a with | ⟨0, _⟩ => rfl | ⟨1, _⟩ => rfl))
  · exact (hb 0 (i 1)).trans (congrArg x9 (funext fun a => Fin.ext (by match a with | ⟨0, _⟩ => rfl)))

end Cert.Bridge
-- ==== Proof.Bridge.Tail.lean ====
/- The kernel program's result buffer against the reference's last stage, at the ideal values, given that the last
   layer's output is the reference's: the pooling product reads that output, the output weights as launched and the
   output bias as one row, and leaves Σ_k ((Σ_r h[r,k])·(1/100000))·W[k,j] + b[j], which is the reference's readout. -/
import proofs.«147038_j12317966205319_1_alg».proof.Proof.KI.Conts
import proofs.«147038_j12317966205319_1_alg».proof.Proof.KI.Val13
import proofs.«147038_j12317966205319_1_alg».proof.Proof.KI.HostPool
import proofs.«147038_j12317966205319_1_alg».proof.Proof.Bridge.TailValue

set_option maxRecDepth 16384

noncomputable section

namespace Cert.Bridge

open Idealize.ShloMosaic Idealize.ShloMosaic.TcCoe Idealize.ShloMosaic.ValueIdx
open Cert.KernelIdeal Cert.KernelIdeal.Gen Cert.KernelIdeal.Reg
open scoped BigOperators

variable (m : (ℓ : Loc nD τ sig) → Buf (Elt Ideal) ℓ)

/-- What the pooling product reads as features is what the last layer left. -/
theorem pool_h_eq (c : Dev nD) : harr13 (T27 m) c = outsF m 26 main_v178 c := by
  show W27 m c (Proc.devRef .tc main_v178) = _
  rw [← V27_eq m c]
  exact pool_h m (outsF m) c

/-- What it reads as weights is the output weight matrix as launched. -/
theorem pool_w_eq (c : Dev nD) : warr13 (T27 m) c = m ((c.tc : Thread nD τ).loc main_arg8) := by
  show W27 m c (Proc.devRef .tc main_arg8) = _
  rw [← V27_eq m c]
  exact pool_w m (outsF m) c

/-- What it reads as bias row is the output bias vector as launched, as one row. -/
theorem pool_b_eq (c : Dev nD) (u : Fin 1) (j : Fin 64) :
    barr13 (T27 m) c (ix2 u j) = (m ((c.tc : Thread nD τ).loc main_arg9) : S64.Idx → EReal) (ix1 j) := by
  show W27 m c (Proc.devRef .tc main_v179) (ix2 u j) = _
  rw [← V27_eq m c]
  exact pool_b m (outsF m) c u j

/-- THE TAIL. If the last layer leaves the reference's last layer in its output buffer, the kernel program's result
    buffer holds the reference's result. -/
theorem tail_bridge (c : Dev nD)
    (hh : outsF m 26 main_v178 c = Cert.ReferenceIdeal.Stages.val_main_v251 (F := Ideal)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))) :
    outsF m 28 main_v180 c = Cert.ReferenceIdeal.Stages.val_main_v258 (F := Ideal)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9)) :=
  (W28_out3 m c).trans ((arr13_3 (T27 m) c).trans
    (tail_value _ _ _ _ _ _ _ _ _ _ (harr13 (T27 m) c) (warr13 (T27 m) c) (barr13 (T27 m) c)
      ((pool_h_eq m c).trans hh) (pool_w_eq m c) (pool_b_eq m c)))

end Cert.Bridge
-- ==== Proof.Ref.AtL0.lean ====
/- The reference's first graph-convolution layer, stage by stage, as the stage functions of the stages before: the
   layer's weight matrix and its three parameter rows are layer 0's slices of the stacked arguments; the product with
   the weights sums over the 64 columns; the aggregate is the host's gather, edge scaling and scatter-add of that
   product; the self term reads the node's self weight at the row and the bias at the column; the mean and the centred
   variance are column sums from a zero start over the row count; the normalised value reads mean, variance, scale and
   shift at the column; the last stage is the maximum with zero. -/
import proofs.«147038_j12317966205319_1_alg».proof.Proof.Ref.StageFns

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable (x0 : FeatIn) (x1 : EdgeList) (x2 : WIn) (x3 : Row) (x4 : WLayers) (x5 x6 x7 : RowLayers)

/-- The layer's number among the four. -/
abbrev lay_L0 : Fin 4 := 0

/-- The layer's weight matrix is its slice of the stacked weights. -/
theorem convW_L0 : Stages.val_main_v33 (F := Ideal) x4 = sliceSq x4 lay_L0 := by
  funext i
  obtain ⟨k, j, rfl⟩ : ∃ (k j : Fin 64), i = ix2 k j := ⟨i 0, i 1, eq_ix2 i⟩
  rw [Stages.val_main_v33_apply, Stages.val_main_v32_apply, sliceSq_apply]
  refine congrArg x4 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The layer's bias row is its slice of the stacked biases. -/
theorem convB_L0 : Stages.val_main_v53 (F := Ideal) x5 = sliceRow x5 lay_L0 := by
  funext i
  obtain ⟨j, rfl⟩ : ∃ j : Fin 64, i = ix1 j := ⟨i 0, eq_ix1 i⟩
  rw [Stages.val_main_v53_apply, Stages.val_main_v52_apply, sliceRow_apply]
  refine congrArg x5 (funext fun a => Fin.ext ?_)
  match a with
  | ⟨0, _⟩ => rfl
  | ⟨1, _⟩ => exact Nat.mod_eq_of_lt j.isLt

/-- The layer's scale row is its slice of the stacked scales. -/
theorem gamma_L0 : Stages.val_main_v68 (F := Ideal) x6 = sliceRow x6 lay_L0 := by
  funext i
  obtain ⟨j, rfl⟩ : ∃ j : Fin 64, i = ix1 j := ⟨i 0, eq_ix1 i⟩
  rw [Stages.val_main_v68_apply, Stages.val_main_v67_apply, sliceRow_apply]
  refine congrArg x6 (funext fun a => Fin.ext ?_)
  match a with
  | ⟨0, _⟩ => rfl
  | ⟨1, _⟩ => exact Nat.mod_eq_of_lt j.isLt

/-- The layer's shift row is its slice of the stacked shifts. -/
theorem beta_L0 : Stages.val_main_v82 (F := Ideal) x7 = sliceRow x7 lay_L0 := by
  funext i
  obtain ⟨j, rfl⟩ : ∃ j : Fin 64, i = ix1 j := ⟨i 0, eq_ix1 i⟩
  rw [Stages.val_main_v82_apply, Stages.val_main_v81_apply, sliceRow_apply]
  refine congrArg x7 (funext fun a => Fin.ext ?_)
  match a with
  | ⟨0, _⟩ => rfl
  | ⟨1, _⟩ => exact Nat.mod_eq_of_lt j.isLt

/-- The product of the layer's input with the layer's weights. -/
theorem xw_L0 :
    Stages.val_main_v34 (F := Ideal) x0 x2 x3 x4
      = xwF (Stages.val_main_v31 (F := Ideal) x0 x2 x3) (sliceSq x4 lay_L0) := by
  funext i
  obtain ⟨r, j, rfl⟩ : ∃ (r : Fin 100000) (j : Fin 64), i = ix2 r j := ⟨i 0, i 1, eq_ix2 i⟩
  have el : ∀ k : Fin 64, Stages.lidx_main_v34 (ix2 r j) k = ix2 r k := fun k =>
    funext fun a => Fin.ext (by match a with | ⟨0, _⟩ => rfl | ⟨1, _⟩ => rfl)
  have er : ∀ k : Fin 64, Stages.ridx_main_v34 (ix2 r j) k = ix2 k j := fun k =>
    funext fun a => Fin.ext (by match a with | ⟨0, _⟩ => rfl | ⟨1, _⟩ => rfl)
  rw [Stages.val_main_v34_apply, convW_L0]
  simp only [el, er]
  exact (xwF_apply _ _ r j).symm

/-- The aggregate over incoming edges: the host's gather, edge scaling and scatter-add of the product, the edge arrays
    recomputed by the layer being those of the first. -/
theorem agg_L0 :
    Stages.val_main_v47 (F := Ideal) x0 x1 x2 x3 x4
      = aggF (Stages.val_main_v34 (F := Ideal) x0 x2 x3 x4) (srcF x1) (nrmF x1) (dstF x1) := rfl

/-- The aggregate plus the self term plus the bias. -/
theorem hpre_L0 :
    Stages.val_main_v56 (F := Ideal) x0 x1 x2 x3 x4 x5
      = hpreF (Stages.val_main_v47 (F := Ideal) x0 x1 x2 x3 x4) (Stages.val_main_v34 (F := Ideal) x0 x2 x3 x4)
          (selfF x1) (sliceRow x5 lay_L0) := by
  funext i
  obtain ⟨r, j, rfl⟩ : ∃ (r : Fin 100000) (j : Fin 64), i = ix2 r j := ⟨i 0, i 1, eq_ix2 i⟩
  have es : Stages.idx_main_v48 (Stages.idx_main_v49 (ix2 r j)) = ix1 r :=
    funext fun a => Fin.ext (by match a with | ⟨0, _⟩ => rfl)
  have eb : Stages.idx_main_v54 (Stages.idx_main_v55 (ix2 r j)) = ix1 j :=
    funext fun a => Fin.ext (by match a with | ⟨0, _⟩ => rfl)
  rw [Stages.val_main_v56_apply, Stages.val_main_v51_apply, Stages.val_main_v50_apply, Stages.val_main_v49_apply,
    Stages.val_main_v48_apply, Stages.val_main_v55_apply, Stages.val_main_v54_apply, es, eb, convB_L0]
  simp only [Ideal.addf_def, Ideal.mulf_def]
  exact (hpreF_apply _ _ _ _ r j).symm

/-- The column means. -/
theorem mu_L0 :
    Stages.val_main_v59 (F := Ideal) x0 x1 x2 x3 x4 x5 = meanF (Stages.val_main_v56 (F := Ideal) x0 x1 x2 x3 x4 x5) := by
  funext i
  obtain ⟨j, rfl⟩ : ∃ j : Fin 64, i = ix1 j := ⟨i 0, eq_ix1 i⟩
  have es : ∀ r : Fin 100000, Stages.idx_main_v57 (ix1 j) r = ix2 r j := fun r =>
    funext fun a => Fin.ext (by match a with | ⟨0, _⟩ => rfl | ⟨1, _⟩ => rfl)
  simp only [Stages.val_main_v59_apply, Stages.val_main_v57_apply, Stages.val_main_v58_apply, Stages.val_main_cst_10_apply,
    Stages.val_main_cst_9_apply, es, Ideal.hostDivf_def, Ideal.ofBits_def, Ideal.ofBits_zero_f32, zero_add]
  exact (meanF_apply _ j).symm

/-- The centred column variances: row by row the summand is the squared deviation from the column mean; the sum starts
    from the zero word; the quotient is by the row count's word. -/
theorem var_L0 :
    Stages.val_main_v66 (F := Ideal) x0 x1 x2 x3 x4 x5 = varF (Stages.val_main_v56 (F := Ideal) x0 x1 x2 x3 x4 x5) := by
  funext i
  obtain ⟨j, rfl⟩ : ∃ j : Fin 64, i = ix1 j := ⟨i 0, eq_ix1 i⟩
  have hs : ∀ r : Fin 100000,
      Stages.val_main_v63 (F := Ideal) x0 x1 x2 x3 x4 x5 (Stages.idx_main_v64 (ix1 j) r)
        = (Stages.val_main_v56 (F := Ideal) x0 x1 x2 x3 x4 x5 (ix2 r j)
              - meanF (Stages.val_main_v56 (F := Ideal) x0 x1 x2 x3 x4 x5) (ix1 j))
          * (Stages.val_main_v56 (F := Ideal) x0 x1 x2 x3 x4 x5 (ix2 r j)
              - meanF (Stages.val_main_v56 (F := Ideal) x0 x1 x2 x3 x4 x5) (ix1 j)) := fun r => by
    have es : Stages.idx_main_v64 (ix1 j) r = ix2 r j :=
      funext fun a => Fin.ext (by match a with | ⟨0, _⟩ => rfl | ⟨1, _⟩ => rfl)
    have em : Stages.idx_main_v60 (Stages.idx_main_v61 (ix2 r j)) = ix1 j :=
      funext fun a => Fin.ext (by match a with | ⟨0, _⟩ => rfl)
    rw [es, Stages.val_main_v63_apply, Stages.val_main_v62_apply, Stages.val_main_v61_apply, Stages.val_main_v60_apply, em,
      mu_L0, Ideal.mulf_def, Ideal.subf_def]
  have hz : Stages.val_main_cst_11 (F := Ideal) (Shape.Idx.first h_S_) = 0 := Ideal.ofBits_zero_f32
  have hn : Stages.val_main_v65 (F := Ideal) (ix1 j) = Ideal.ofBits .f32 0x47C35000#32 := by
    rw [Stages.val_main_v65_apply, Stages.val_main_cst_12_apply, Ideal.ofBits_def]
  rw [Stages.val_main_v66_apply, Stages.val_main_v64_apply, Finset.sum_congr rfl fun r _ => hs r, hz, zero_add, hn,
    Ideal.hostDivf_def]
  exact (varF_apply _ j).symm

/-- The normalised, scaled and shifted value: scale, mean, variance and shift are read at the element's column through
    their two broadcasts; the offset is its word. -/
theorem norm_L0 :
    Stages.val_main_v85 (F := Ideal) x0 x1 x2 x3 x4 x5 x6 x7
      = normF (Stages.val_main_v56 (F := Ideal) x0 x1 x2 x3 x4 x5) (sliceRow x6 lay_L0) (sliceRow x7 lay_L0) := by
  funext i
  obtain ⟨r, j, rfl⟩ : ∃ (r : Fin 100000) (j : Fin 64), i = ix2 r j := ⟨i 0, i 1, eq_ix2 i⟩
  have eg : Stages.idx_main_v72 (Stages.idx_main_v73 (ix2 r j)) = ix1 j :=
    funext fun a => Fin.ext (by match a with | ⟨0, _⟩ => rfl)
  have em : Stages.idx_main_v69 (Stages.idx_main_v70 (ix2 r j)) = ix1 j :=
    funext fun a => Fin.ext (by match a with | ⟨0, _⟩ => rfl)
  have ev : Stages.idx_main_v78 (Stages.idx_main_v79 (ix2 r j)) = ix1 j :=
    funext fun a => Fin.ext (by match a with | ⟨0, _⟩ => rfl)
  have eb : Stages.idx_main_v83 (Stages.idx_main_v84 (ix2 r j)) = ix1 j :=
    funext fun a => Fin.ext (by match a with | ⟨0, _⟩ => rfl)
  have he : Stages.val_main_v75 (F := Ideal) (ix1 j) = Ideal.ofBits .f32 0x3727C5AC#32 := by
    rw [Stages.val_main_v75_apply, Stages.val_main_cst_13_apply, Ideal.ofBits_def]
  rw [Stages.val_main_v85_apply, Stages.val_main_v80_apply, Stages.val_main_v74_apply, Stages.val_main_v73_apply,
    Stages.val_main_v72_apply, Stages.val_main_v71_apply, Stages.val_main_v70_apply, Stages.val_main_v69_apply,
    Stages.val_main_v79_apply, Stages.val_main_v78_apply, Stages.val_main_v77_apply, Stages.val_main_v76_apply,
    Stages.val_main_v84_apply, Stages.val_main_v83_apply, eg, em, ev, eb, he, gamma_L0, beta_L0, mu_L0, var_L0]
  exact (normF_apply _ _ _ r j).symm

/-- The layer's output: the maximum with the zero word. -/
theorem relu_L0 :
    Stages.val_main_v86 (F := Ideal) x0 x1 x2 x3 x4 x5 x6 x7 = reluF (Stages.val_main_v85 (F := Ideal) x0 x1 x2 x3 x4 x5 x6 x7) := by
  funext i
  have hz : Stages.val_main_call0_v0 (F := Ideal) i = 0 := by
    rw [Stages.val_main_call0_v0_apply, Stages.val_main_call0_cst_apply, Ideal.ofBits_def, Ideal.ofBits_zero_f32]
  rw [Stages.val_main_v86_apply, hz, Ideal.maximumf_def]
  exact (reluF_apply _ i).symm

/-- The layer as one function of its input, the edge-derived arrays and the four stacked parameters. -/
theorem layer_L0 :
    Stages.val_main_v86 (F := Ideal) x0 x1 x2 x3 x4 x5 x6 x7
      = layerF (Stages.val_main_v31 (F := Ideal) x0 x2 x3) (srcF x1) (nrmF x1) (dstF x1) (selfF x1) x4 x5 x6 x7 lay_L0 := by
  rw [relu_L0, norm_L0, hpre_L0, agg_L0, xw_L0]
  rfl

end Cert.ReferenceIdeal.RefValue

end
-- ==== Proof.Ref.AtL1.lean ====
/- The reference's second graph-convolution layer, stage by stage, as the stage functions of the stages before: the
   layer's weight matrix and its three parameter rows are layer 1's slices of the stacked arguments; the product with
   the weights sums over the 64 columns; the aggregate is the host's gather, edge scaling and scatter-add of that
   product; the self term reads the node's self weight at the row and the bias at the column; the mean and the centred
   variance are column sums from a zero start over the row count; the normalised value reads mean, variance, scale and
   shift at the column; the last stage is the maximum with zero. -/
import proofs.«147038_j12317966205319_1_alg».proof.Proof.Ref.StageFns

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable (x0 : FeatIn) (x1 : EdgeList) (x2 : WIn) (x3 : Row) (x4 : WLayers) (x5 x6 x7 : RowLayers)

/-- The layer's number among the four. -/
abbrev lay_L1 : Fin 4 := 1

/-- The layer's weight matrix is its slice of the stacked weights. -/
theorem convW_L1 : Stages.val_main_v88 (F := Ideal) x4 = sliceSq x4 lay_L1 := by
  funext i
  obtain ⟨k, j, rfl⟩ : ∃ (k j : Fin 64), i = ix2 k j := ⟨i 0, i 1, eq_ix2 i⟩
  rw [Stages.val_main_v88_apply, Stages.val_main_v87_apply, sliceSq_apply]
  refine congrArg x4 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The layer's bias row is its slice of the stacked biases. -/
theorem convB_L1 : Stages.val_main_v108 (F := Ideal) x5 = sliceRow x5 lay_L1 := by
  funext i
  obtain ⟨j, rfl⟩ : ∃ j : Fin 64, i = ix1 j := ⟨i 0, eq_ix1 i⟩
  rw [Stages.val_main_v108_apply, Stages.val_main_v107_apply, sliceRow_apply]
  refine congrArg x5 (funext fun a => Fin.ext ?_)
  match a with
  | ⟨0, _⟩ => rfl
  | ⟨1, _⟩ => exact Nat.mod_eq_of_lt j.isLt

/-- The layer's scale row is its slice of the stacked scales. -/
theorem gamma_L1 : Stages.val_main_v123 (F := Ideal) x6 = sliceRow x6 lay_L1 := by
  funext i
  obtain ⟨j, rfl⟩ : ∃ j : Fin 64, i = ix1 j := ⟨i 0, eq_ix1 i⟩
  rw [Stages.val_main_v123_apply, Stages.val_main_v122_apply, sliceRow_apply]
  refine congrArg x6 (funext fun a => Fin.ext ?_)
  match a with
  | ⟨0, _⟩ => rfl
  | ⟨1, _⟩ => exact Nat.mod_eq_of_lt j.isLt

/-- The layer's shift row is its slice of the stacked shifts. -/
theorem beta_L1 : Stages.val_main_v137 (F := Ideal) x7 = sliceRow x7 lay_L1 := by
  funext i
  obtain ⟨j, rfl⟩ : ∃ j : Fin 64, i = ix1 j := ⟨i 0, eq_ix1 i⟩
  rw [Stages.val_main_v137_apply, Stages.val_main_v136_apply, sliceRow_apply]
  refine congrArg x7 (funext fun a => Fin.ext ?_)
  match a with
  | ⟨0, _⟩ => rfl
  | ⟨1, _⟩ => exact Nat.mod_eq_of_lt j.isLt

/-- The product of the layer's input with the layer's weights. -/
theorem xw_L1 :
    Stages.val_main_v89 (F := Ideal) x0 x1 x2 x3 x4 x5 x6 x7
      = xwF (Stages.val_main_v86 (F := Ideal) x0 x1 x2 x3 x4 x5 x6 x7) (sliceSq x4 lay_L1) := by
  funext i
  obtain ⟨r, j, rfl⟩ : ∃ (r : Fin 100000) (j : Fin 64), i = ix2 r j := ⟨i 0, i 1, eq_ix2 i⟩
  have el : ∀ k : Fin 64, Stages.lidx_main_v89 (ix2 r j) k = ix2 r k := fun k =>
    funext fun a => Fin.ext (by match a with | ⟨0, _⟩ => rfl | ⟨1, _⟩ => rfl)
  have er : ∀ k : Fin 64, Stages.ridx_main_v89 (ix2 r j) k = ix2 k j := fun k =>
    funext fun a => Fin.ext (by match a with | ⟨0, _⟩ => rfl | ⟨1, _⟩ => rfl)
  rw [Stages.val_main_v89_apply, convW_L1]
  simp only [el, er]
  exact (xwF_apply _ _ r j).symm

/-- The aggregate over incoming edges: the host's gather, edge scaling and scatter-add of the product, the edge arrays
    recomputed by the layer being those of the first. -/
theorem agg_L1 :
    Stages.val_main_v102 (F := Ideal) x0 x1 x2 x3 x4 x5 x6 x7
      = aggF (Stages.val_main_v89 (F := Ideal) x0 x1 x2 x3 x4 x5 x6 x7) (srcF x1) (nrmF x1) (dstF x1) := rfl

/-- The aggregate plus the self term plus the bias. -/
theorem hpre_L1 :
    Stages.val_main_v111 (F := Ideal) x0 x1 x2 x3 x4 x5 x6 x7
      = hpreF (Stages.val_main_v102 (F := Ideal) x0 x1 x2 x3 x4 x5 x6 x7) (Stages.val_main_v89 (F := Ideal) x0 x1 x2 x3 x4 x5 x6 x7)
          (selfF x1) (sliceRow x5 lay_L1) := by
  funext i
  obtain ⟨r, j, rfl⟩ : ∃ (r : Fin 100000) (j : Fin 64), i = ix2 r j := ⟨i 0, i 1, eq_ix2 i⟩
  have es : Stages.idx_main_v103 (Stages.idx_main_v104 (ix2 r j)) = ix1 r :=
    funext fun a => Fin.ext (by match a with | ⟨0, _⟩ => rfl)
  have eb : Stages.idx_main_v109 (Stages.idx_main_v110 (ix2 r j)) = ix1 j :=
    funext fun a => Fin.ext (by match a with | ⟨0, _⟩ => rfl)
  rw [Stages.val_main_v111_apply, Stages.val_main_v106_apply, Stages.val_main_v105_apply, Stages.val_main_v104_apply,
    Stages.val_main_v103_apply, Stages.val_main_v110_apply, Stages.val_main_v109_apply, es, eb, convB_L1]
  simp only [Ideal.addf_def, Ideal.mulf_def]
  exact (hpreF_apply _ _ _ _ r j).symm

/-- The column means. -/
theorem mu_L1 :
    Stages.val_main_v114 (F := Ideal) x0 x1 x2 x3 x4 x5 x6 x7 = meanF (Stages.val_main_v111 (F := Ideal) x0 x1 x2 x3 x4 x5 x6 x7) := by
  funext i
  obtain ⟨j, rfl⟩ : ∃ j : Fin 64, i = ix1 j := ⟨i 0, eq_ix1 i⟩
  have es : ∀ r : Fin 100000, Stages.idx_main_v112 (ix1 j) r = ix2 r j := fun r =>
    funext fun a => Fin.ext (by match a with | ⟨0, _⟩ => rfl | ⟨1, _⟩ => rfl)
  simp only [Stages.val_main_v114_apply, Stages.val_main_v112_apply, Stages.val_main_v113_apply, Stages.val_main_cst_18_apply,
    Stages.val_main_cst_17_apply, es, Ideal.hostDivf_def, Ideal.ofBits_def, Ideal.ofBits_zero_f32, zero_add]
  exact (meanF_apply _ j).symm

/-- The centred column variances: row by row the summand is the squared deviation from the column mean; the sum starts
    from the zero word; the quotient is by the row count's word. -/
theorem var_L1 :
    Stages.val_main_v121 (F := Ideal) x0 x1 x2 x3 x4 x5 x6 x7 = varF (Stages.val_main_v111 (F := Ideal) x0 x1 x2 x3 x4 x5 x6 x7) := by
  funext i
  obtain ⟨j, rfl⟩ : ∃ j : Fin 64, i = ix1 j := ⟨i 0, eq_ix1 i⟩
  have hs : ∀ r : Fin 100000,
      Stages.val_main_v118 (F := Ideal) x0 x1 x2 x3 x4 x5 x6 x7 (Stages.idx_main_v119 (ix1 j) r)
        = (Stages.val_main_v111 (F := Ideal) x0 x1 x2 x3 x4 x5 x6 x7 (ix2 r j)
              - meanF (Stages.val_main_v111 (F := Ideal) x0 x1 x2 x3 x4 x5 x6 x7) (ix1 j))
          * (Stages.val_main_v111 (F := Ideal) x0 x1 x2 x3 x4 x5 x6 x7 (ix2 r j)
              - meanF (Stages.val_main_v111 (F := Ideal) x0 x1 x2 x3 x4 x5 x6 x7) (ix1 j)) := fun r => by
    have es : Stages.idx_main_v119 (ix1 j) r = ix2 r j :=
      funext fun a => Fin.ext (by match a with | ⟨0, _⟩ => rfl | ⟨1, _⟩ => rfl)
    have em : Stages.idx_main_v115 (Stages.idx_main_v116 (ix2 r j)) = ix1 j :=
      funext fun a => Fin.ext (by match a with | ⟨0, _⟩ => rfl)
    rw [es, Stages.val_main_v118_apply, Stages.val_main_v117_apply, Stages.val_main_v116_apply, Stages.val_main_v115_apply, em,
      mu_L1, Ideal.mulf_def, Ideal.subf_def]
  have hz : Stages.val_main_cst_19 (F := Ideal) (Shape.Idx.first h_S_) = 0 := Ideal.ofBits_zero_f32
  have hn : Stages.val_main_v120 (F := Ideal) (ix1 j) = Ideal.ofBits .f32 0x47C35000#32 := by
    rw [Stages.val_main_v120_apply, Stages.val_main_cst_20_apply, Ideal.ofBits_def]
  rw [Stages.val_main_v121_apply, Stages.val_main_v119_apply, Finset.sum_congr rfl fun r _ => hs r, hz, zero_add, hn,
    Ideal.hostDivf_def]
  exact (varF_apply _ j).symm

/-- The normalised, scaled and shifted value: scale, mean, variance and shift are read at the element's column through
    their two broadcasts; the offset is its word. -/
theorem norm_L1 :
    Stages.val_main_v140 (F := Ideal) x0 x1 x2 x3 x4 x5 x6 x7
      = normF (Stages.val_main_v111 (F := Ideal) x0 x1 x2 x3 x4 x5 x6 x7) (sliceRow x6 lay_L1) (sliceRow x7 lay_L1) := by
  funext i
  obtain ⟨r, j, rfl⟩ : ∃ (r : Fin 100000) (j : Fin 64), i = ix2 r j := ⟨i 0, i 1, eq_ix2 i⟩
  have eg : Stages.idx_main_v127 (Stages.idx_main_v128 (ix2 r j)) = ix1 j :=
    funext fun a => Fin.ext (by match a with | ⟨0, _⟩ => rfl)
  have em : Stages.idx_main_v124 (Stages.idx_main_v125 (ix2 r j)) = ix1 j :=
    funext fun a => Fin.ext (by match a with | ⟨0, _⟩ => rfl)
  have ev : Stages.idx_main_v133 (Stages.idx_main_v134 (ix2 r j)) = ix1 j :=
    funext fun a => Fin.ext (by match a with | ⟨0, _⟩ => rfl)
  have eb : Stages.idx_main_v138 (Stages.idx_main_v139 (ix2 r j)) = ix1 j :=
    funext fun a => Fin.ext (by match a with | ⟨0, _⟩ => rfl)
  have he : Stages.val_main_v130 (F := Ideal) (ix1 j) = Ideal.ofBits .f32 0x3727C5AC#32 := by
    rw [Stages.val_main_v130_apply, Stages.val_main_cst_21_apply, Ideal.ofBits_def]
  rw [Stages.val_main_v140_apply, Stages.val_main_v135_apply, Stages.val_main_v129_apply, Stages.val_main_v128_apply,
    Stages.val_main_v127_apply, Stages.val_main_v126_apply, Stages.val_main_v125_apply, Stages.val_main_v124_apply,
    Stages.val_main_v134_apply, Stages.val_main_v133_apply, Stages.val_main_v132_apply, Stages.val_main_v131_apply,
    Stages.val_main_v139_apply, Stages.val_main_v138_apply, eg, em, ev, eb, he, gamma_L1, beta_L1, mu_L1, var_L1]
  exact (normF_apply _ _ _ r j).symm

/-- The layer's output: the maximum with the zero word. -/
theorem relu_L1 :
    Stages.val_main_v141 (F := Ideal) x0 x1 x2 x3 x4 x5 x6 x7 = reluF (Stages.val_main_v140 (F := Ideal) x0 x1 x2 x3 x4 x5 x6 x7) := by
  funext i
  have hz : Stages.val_main_call1_v0 (F := Ideal) i = 0 := by
    rw [Stages.val_main_call1_v0_apply, Stages.val_main_call1_cst_apply, Ideal.ofBits_def, Ideal.ofBits_zero_f32]
  rw [Stages.val_main_v141_apply, hz, Ideal.maximumf_def]
  exact (reluF_apply _ i).symm

/-- The layer as one function of its input, the edge-derived arrays and the four stacked parameters. -/
theorem layer_L1 :
    Stages.val_main_v141 (F := Ideal) x0 x1 x2 x3 x4 x5 x6 x7
      = layerF (Stages.val_main_v86 (F := Ideal) x0 x1 x2 x3 x4 x5 x6 x7) (srcF x1) (nrmF x1) (dstF x1) (selfF x1) x4 x5 x6 x7 lay_L1 := by
  rw [relu_L1, norm_L1, hpre_L1, agg_L1, xw_L1]
  rfl

end Cert.ReferenceIdeal.RefValue

end
-- ==== Proof.Ref.AtL2.lean ====
/- The reference's third graph-convolution layer, stage by stage, as the stage functions of the stages before: the
   layer's weight matrix and its three parameter rows are layer 2's slices of the stacked arguments; the product with
   the weights sums over the 64 columns; the aggregate is the host's gather, edge scaling and scatter-add of that
   product; the self term reads the node's self weight at the row and the bias at the column; the mean and the centred
   variance are column sums from a zero start over the row count; the normalised value reads mean, variance, scale and
   shift at the column; the last stage is the maximum with zero. -/
import proofs.«147038_j12317966205319_1_alg».proof.Proof.Ref.StageFns

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable (x0 : FeatIn) (x1 : EdgeList) (x2 : WIn) (x3 : Row) (x4 : WLayers) (x5 x6 x7 : RowLayers)

/-- The layer's number among the four. -/
abbrev lay_L2 : Fin 4 := 2

/-- The layer's weight matrix is its slice of the stacked weights. -/
theorem convW_L2 : Stages.val_main_v143 (F := Ideal) x4 = sliceSq x4 lay_L2 := by
  funext i
  obtain ⟨k, j, rfl⟩ : ∃ (k j : Fin 64), i = ix2 k j := ⟨i 0, i 1, eq_ix2 i⟩
  rw [Stages.val_main_v143_apply, Stages.val_main_v142_apply, sliceSq_apply]
  refine congrArg x4 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The layer's bias row is its slice of the stacked biases. -/
theorem convB_L2 : Stages.val_main_v163 (F := Ideal) x5 = sliceRow x5 lay_L2 := by
  funext i
  obtain ⟨j, rfl⟩ : ∃ j : Fin 64, i = ix1 j := ⟨i 0, eq_ix1 i⟩
  rw [Stages.val_main_v163_apply, Stages.val_main_v162_apply, sliceRow_apply]
  refine congrArg x5 (funext fun a => Fin.ext ?_)
  match a with
  | ⟨0, _⟩ => rfl
  | ⟨1, _⟩ => exact Nat.mod_eq_of_lt j.isLt

/-- The layer's scale row is its slice of the stacked scales. -/
theorem gamma_L2 : Stages.val_main_v178 (F := Ideal) x6 = sliceRow x6 lay_L2 := by
  funext i
  obtain ⟨j, rfl⟩ : ∃ j : Fin 64, i = ix1 j := ⟨i 0, eq_ix1 i⟩
  rw [Stages.val_main_v178_apply, Stages.val_main_v177_apply, sliceRow_apply]
  refine congrArg x6 (funext fun a => Fin.ext ?_)
  match a with
  | ⟨0, _⟩ => rfl
  | ⟨1, _⟩ => exact Nat.mod_eq_of_lt j.isLt

/-- The layer's shift row is its slice of the stacked shifts. -/
theorem beta_L2 : Stages.val_main_v192 (F := Ideal) x7 = sliceRow x7 lay_L2 := by
  funext i
  obtain ⟨j, rfl⟩ : ∃ j : Fin 64, i = ix1 j := ⟨i 0, eq_ix1 i⟩
  rw [Stages.val_main_v192_apply, Stages.val_main_v191_apply, sliceRow_apply]
  refine congrArg x7 (funext fun a => Fin.ext ?_)
  match a with
  | ⟨0, _⟩ => rfl
  | ⟨1, _⟩ => exact Nat.mod_eq_of_lt j.isLt

/-- The product of the layer's input with the layer's weights. -/
theorem xw_L2 :
    Stages.val_main_v144 (F := Ideal) x0 x1 x2 x3 x4 x5 x6 x7
      = xwF (Stages.val_main_v141 (F := Ideal) x0 x1 x2 x3 x4 x5 x6 x7) (sliceSq x4 lay_L2) := by
  funext i
  obtain ⟨r, j, rfl⟩ : ∃ (r : Fin 100000) (j : Fin 64), i = ix2 r j := ⟨i 0, i 1, eq_ix2 i⟩
  have el : ∀ k : Fin 64, Stages.lidx_main_v144 (ix2 r j) k = ix2 r k := fun k =>
    funext fun a => Fin.ext (by match a with | ⟨0, _⟩ => rfl | ⟨1, _⟩ => rfl)
  have er : ∀ k : Fin 64, Stages.ridx_main_v144 (ix2 r j) k = ix2 k j := fun k =>
    funext fun a => Fin.ext (by match a with | ⟨0, _⟩ => rfl | ⟨1, _⟩ => rfl)
  rw [Stages.val_main_v144_apply, convW_L2]
  simp only [el, er]
  exact (xwF_apply _ _ r j).symm

/-- The aggregate over incoming edges: the host's gather, edge scaling and scatter-add of the product, the edge arrays
    recomputed by the layer being those of the first. -/
theorem agg_L2 :
    Stages.val_main_v157 (F := Ideal) x0 x1 x2 x3 x4 x5 x6 x7
      = aggF (Stages.val_main_v144 (F := Ideal) x0 x1 x2 x3 x4 x5 x6 x7) (srcF x1) (nrmF x1) (dstF x1) := rfl

/-- The aggregate plus the self term plus the bias. -/
theorem hpre_L2 :
    Stages.val_main_v166 (F := Ideal) x0 x1 x2 x3 x4 x5 x6 x7
      = hpreF (Stages.val_main_v157 (F := Ideal) x0 x1 x2 x3 x4 x5 x6 x7) (Stages.val_main_v144 (F := Ideal) x0 x1 x2 x3 x4 x5 x6 x7)
          (selfF x1) (sliceRow x5 lay_L2) := by
  funext i
  obtain ⟨r, j, rfl⟩ : ∃ (r : Fin 100000) (j : Fin 64), i = ix2 r j := ⟨i 0, i 1, eq_ix2 i⟩
  have es : Stages.idx_main_v158 (Stages.idx_main_v159 (ix2 r j)) = ix1 r :=
    funext fun a => Fin.ext (by match a with | ⟨0, _⟩ => rfl)
  have eb : Stages.idx_main_v164 (Stages.idx_main_v165 (ix2 r j)) = ix1 j :=
    funext fun a => Fin.ext (by match a with | ⟨0, _⟩ => rfl)
  rw [Stages.val_main_v166_apply, Stages.val_main_v161_apply, Stages.val_main_v160_apply, Stages.val_main_v159_apply,
    Stages.val_main_v158_apply, Stages.val_main_v165_apply, Stages.val_main_v164_apply, es, eb, convB_L2]
  simp only [Ideal.addf_def, Ideal.mulf_def]
  exact (hpreF_apply _ _ _ _ r j).symm

/-- The column means. -/
theorem mu_L2 :
    Stages.val_main_v169 (F := Ideal) x0 x1 x2 x3 x4 x5 x6 x7 = meanF (Stages.val_main_v166 (F := Ideal) x0 x1 x2 x3 x4 x5 x6 x7) := by
  funext i
  obtain ⟨j, rfl⟩ : ∃ j : Fin 64, i = ix1 j := ⟨i 0, eq_ix1 i⟩
  have es : ∀ r : Fin 100000, Stages.idx_main_v167 (ix1 j) r = ix2 r j := fun r =>
    funext fun a => Fin.ext (by match a with | ⟨0, _⟩ => rfl | ⟨1, _⟩ => rfl)
  simp only [Stages.val_main_v169_apply, Stages.val_main_v167_apply, Stages.val_main_v168_apply, Stages.val_main_cst_26_apply,
    Stages.val_main_cst_25_apply, es, Ideal.hostDivf_def, Ideal.ofBits_def, Ideal.ofBits_zero_f32, zero_add]
  exact (meanF_apply _ j).symm

/-- The centred column variances: row by row the summand is the squared deviation from the column mean; the sum starts
    from the zero word; the quotient is by the row count's word. -/
theorem var_L2 :
    Stages.val_main_v176 (F := Ideal) x0 x1 x2 x3 x4 x5 x6 x7 = varF (Stages.val_main_v166 (F := Ideal) x0 x1 x2 x3 x4 x5 x6 x7) := by
  funext i
  obtain ⟨j, rfl⟩ : ∃ j : Fin 64, i = ix1 j := ⟨i 0, eq_ix1 i⟩
  have hs : ∀ r : Fin 100000,
      Stages.val_main_v173 (F := Ideal) x0 x1 x2 x3 x4 x5 x6 x7 (Stages.idx_main_v174 (ix1 j) r)
        = (Stages.val_main_v166 (F := Ideal) x0 x1 x2 x3 x4 x5 x6 x7 (ix2 r j)
              - meanF (Stages.val_main_v166 (F := Ideal) x0 x1 x2 x3 x4 x5 x6 x7) (ix1 j))
          * (Stages.val_main_v166 (F := Ideal) x0 x1 x2 x3 x4 x5 x6 x7 (ix2 r j)
              - meanF (Stages.val_main_v166 (F := Ideal) x0 x1 x2 x3 x4 x5 x6 x7) (ix1 j)) := fun r => by
    have es : Stages.idx_main_v174 (ix1 j) r = ix2 r j :=
      funext fun a => Fin.ext (by match a with | ⟨0, _⟩ => rfl | ⟨1, _⟩ => rfl)
    have em : Stages.idx_main_v170 (Stages.idx_main_v171 (ix2 r j)) = ix1 j :=
      funext fun a => Fin.ext (by match a with | ⟨0, _⟩ => rfl)
    rw [es, Stages.val_main_v173_apply, Stages.val_main_v172_apply, Stages.val_main_v171_apply, Stages.val_main_v170_apply, em,
      mu_L2, Ideal.mulf_def, Ideal.subf_def]
  have hz : Stages.val_main_cst_27 (F := Ideal) (Shape.Idx.first h_S_) = 0 := Ideal.ofBits_zero_f32
  have hn : Stages.val_main_v175 (F := Ideal) (ix1 j) = Ideal.ofBits .f32 0x47C35000#32 := by
    rw [Stages.val_main_v175_apply, Stages.val_main_cst_28_apply, Ideal.ofBits_def]
  rw [Stages.val_main_v176_apply, Stages.val_main_v174_apply, Finset.sum_congr rfl fun r _ => hs r, hz, zero_add, hn,
    Ideal.hostDivf_def]
  exact (varF_apply _ j).symm

/-- The normalised, scaled and shifted value: scale, mean, variance and shift are read at the element's column through
    their two broadcasts; the offset is its word. -/
theorem norm_L2 :
    Stages.val_main_v195 (F := Ideal) x0 x1 x2 x3 x4 x5 x6 x7
      = normF (Stages.val_main_v166 (F := Ideal) x0 x1 x2 x3 x4 x5 x6 x7) (sliceRow x6 lay_L2) (sliceRow x7 lay_L2) := by
  funext i
  obtain ⟨r, j, rfl⟩ : ∃ (r : Fin 100000) (j : Fin 64), i = ix2 r j := ⟨i 0, i 1, eq_ix2 i⟩
  have eg : Stages.idx_main_v182 (Stages.idx_main_v183 (ix2 r j)) = ix1 j :=
    funext fun a => Fin.ext (by match a with | ⟨0, _⟩ => rfl)
  have em : Stages.idx_main_v179 (Stages.idx_main_v180 (ix2 r j)) = ix1 j :=
    funext fun a => Fin.ext (by match a with | ⟨0, _⟩ => rfl)
  have ev : Stages.idx_main_v188 (Stages.idx_main_v189 (ix2 r j)) = ix1 j :=
    funext fun a => Fin.ext (by match a with | ⟨0, _⟩ => rfl)
  have eb : Stages.idx_main_v193 (Stages.idx_main_v194 (ix2 r j)) = ix1 j :=
    funext fun a => Fin.ext (by match a with | ⟨0, _⟩ => rfl)
  have he : Stages.val_main_v185 (F := Ideal) (ix1 j) = Ideal.ofBits .f32 0x3727C5AC#32 := by
    rw [Stages.val_main_v185_apply, Stages.val_main_cst_29_apply, Ideal.ofBits_def]
  rw [Stages.val_main_v195_apply, Stages.val_main_v190_apply, Stages.val_main_v184_apply, Stages.val_main_v183_apply,
    Stages.val_main_v182_apply, Stages.val_main_v181_apply, Stages.val_main_v180_apply, Stages.val_main_v179_apply,
    Stages.val_main_v189_apply, Stages.val_main_v188_apply, Stages.val_main_v187_apply, Stages.val_main_v186_apply,
    Stages.val_main_v194_apply, Stages.val_main_v193_apply, eg, em, ev, eb, he, gamma_L2, beta_L2, mu_L2, var_L2]
  exact (normF_apply _ _ _ r j).symm

/-- The layer's output: the maximum with the zero word. -/
theorem relu_L2 :
    Stages.val_main_v196 (F := Ideal) x0 x1 x2 x3 x4 x5 x6 x7 = reluF (Stages.val_main_v195 (F := Ideal) x0 x1 x2 x3 x4 x5 x6 x7) := by
  funext i
  have hz : Stages.val_main_call2_v0 (F := Ideal) i = 0 := by
    rw [Stages.val_main_call2_v0_apply, Stages.val_main_call2_cst_apply, Ideal.ofBits_def, Ideal.ofBits_zero_f32]
  rw [Stages.val_main_v196_apply, hz, Ideal.maximumf_def]
  exact (reluF_apply _ i).symm

/-- The layer as one function of its input, the edge-derived arrays and the four stacked parameters. -/
theorem layer_L2 :
    Stages.val_main_v196 (F := Ideal) x0 x1 x2 x3 x4 x5 x6 x7
      = layerF (Stages.val_main_v141 (F := Ideal) x0 x1 x2 x3 x4 x5 x6 x7) (srcF x1) (nrmF x1) (dstF x1) (selfF x1) x4 x5 x6 x7 lay_L2 := by
  rw [relu_L2, norm_L2, hpre_L2, agg_L2, xw_L2]
  rfl

end Cert.ReferenceIdeal.RefValue

end
-- ==== Proof.Ref.AtL3.lean ====
/- The reference's fourth graph-convolution layer, stage by stage, as the stage functions of the stages before: the
   layer's weight matrix and its three parameter rows are layer 3's slices of the stacked arguments; the product with
   the weights sums over the 64 columns; the aggregate is the host's gather, edge scaling and scatter-add of that
   product; the self term reads the node's self weight at the row and the bias at the column; the mean and the centred
   variance are column sums from a zero start over the row count; the normalised value reads mean, variance, scale and
   shift at the column; the last stage is the maximum with zero. -/
import proofs.«147038_j12317966205319_1_alg».proof.Proof.Ref.StageFns

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable (x0 : FeatIn) (x1 : EdgeList) (x2 : WIn) (x3 : Row) (x4 : WLayers) (x5 x6 x7 : RowLayers)

/-- The layer's number among the four. -/
abbrev lay_L3 : Fin 4 := 3

/-- The layer's weight matrix is its slice of the stacked weights. -/
theorem convW_L3 : Stages.val_main_v198 (F := Ideal) x4 = sliceSq x4 lay_L3 := by
  funext i
  obtain ⟨k, j, rfl⟩ : ∃ (k j : Fin 64), i = ix2 k j := ⟨i 0, i 1, eq_ix2 i⟩
  rw [Stages.val_main_v198_apply, Stages.val_main_v197_apply, sliceSq_apply]
  refine congrArg x4 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The layer's bias row is its slice of the stacked biases. -/
theorem convB_L3 : Stages.val_main_v218 (F := Ideal) x5 = sliceRow x5 lay_L3 := by
  funext i
  obtain ⟨j, rfl⟩ : ∃ j : Fin 64, i = ix1 j := ⟨i 0, eq_ix1 i⟩
  rw [Stages.val_main_v218_apply, Stages.val_main_v217_apply, sliceRow_apply]
  refine congrArg x5 (funext fun a => Fin.ext ?_)
  match a with
  | ⟨0, _⟩ => rfl
  | ⟨1, _⟩ => exact Nat.mod_eq_of_lt j.isLt

/-- The layer's scale row is its slice of the stacked scales. -/
theorem gamma_L3 : Stages.val_main_v233 (F := Ideal) x6 = sliceRow x6 lay_L3 := by
  funext i
  obtain ⟨j, rfl⟩ : ∃ j : Fin 64, i = ix1 j := ⟨i 0, eq_ix1 i⟩
  rw [Stages.val_main_v233_apply, Stages.val_main_v232_apply, sliceRow_apply]
  refine congrArg x6 (funext fun a => Fin.ext ?_)
  match a with
  | ⟨0, _⟩ => rfl
  | ⟨1, _⟩ => exact Nat.mod_eq_of_lt j.isLt

/-- The layer's shift row is its slice of the stacked shifts. -/
theorem beta_L3 : Stages.val_main_v247 (F := Ideal) x7 = sliceRow x7 lay_L3 := by
  funext i
  obtain ⟨j, rfl⟩ : ∃ j : Fin 64, i = ix1 j := ⟨i 0, eq_ix1 i⟩
  rw [Stages.val_main_v247_apply, Stages.val_main_v246_apply, sliceRow_apply]
  refine congrArg x7 (funext fun a => Fin.ext ?_)
  match a with
  | ⟨0, _⟩ => rfl
  | ⟨1, _⟩ => exact Nat.mod_eq_of_lt j.isLt

/-- The product of the layer's input with the layer's weights. -/
theorem xw_L3 :
    Stages.val_main_v199 (F := Ideal) x0 x1 x2 x3 x4 x5 x6 x7
      = xwF (Stages.val_main_v196 (F := Ideal) x0 x1 x2 x3 x4 x5 x6 x7) (sliceSq x4 lay_L3) := by
  funext i
  obtain ⟨r, j, rfl⟩ : ∃ (r : Fin 100000) (j : Fin 64), i = ix2 r j := ⟨i 0, i 1, eq_ix2 i⟩
  have el : ∀ k : Fin 64, Stages.lidx_main_v199 (ix2 r j) k = ix2 r k := fun k =>
    funext fun a => Fin.ext (by match a with | ⟨0, _⟩ => rfl | ⟨1, _⟩ => rfl)
  have er : ∀ k : Fin 64, Stages.ridx_main_v199 (ix2 r j) k = ix2 k j := fun k =>
    funext fun a => Fin.ext (by match a with | ⟨0, _⟩ => rfl | ⟨1, _⟩ => rfl)
  rw [Stages.val_main_v199_apply, convW_L3]
  simp only [el, er]
  exact (xwF_apply _ _ r j).symm

/-- The aggregate over incoming edges: the host's gather, edge scaling and scatter-add of the product, the edge arrays
    recomputed by the layer being those of the first. -/
theorem agg_L3 :
    Stages.val_main_v212 (F := Ideal) x0 x1 x2 x3 x4 x5 x6 x7
      = aggF (Stages.val_main_v199 (F := Ideal) x0 x1 x2 x3 x4 x5 x6 x7) (srcF x1) (nrmF x1) (dstF x1) := rfl

/-- The aggregate plus the self term plus the bias. -/
theorem hpre_L3 :
    Stages.val_main_v221 (F := Ideal) x0 x1 x2 x3 x4 x5 x6 x7
      = hpreF (Stages.val_main_v212 (F := Ideal) x0 x1 x2 x3 x4 x5 x6 x7) (Stages.val_main_v199 (F := Ideal) x0 x1 x2 x3 x4 x5 x6 x7)
          (selfF x1) (sliceRow x5 lay_L3) := by
  funext i
  obtain ⟨r, j, rfl⟩ : ∃ (r : Fin 100000) (j : Fin 64), i = ix2 r j := ⟨i 0, i 1, eq_ix2 i⟩
  have es : Stages.idx_main_v213 (Stages.idx_main_v214 (ix2 r j)) = ix1 r :=
    funext fun a => Fin.ext (by match a with | ⟨0, _⟩ => rfl)
  have eb : Stages.idx_main_v219 (Stages.idx_main_v220 (ix2 r j)) = ix1 j :=
    funext fun a => Fin.ext (by match a with | ⟨0, _⟩ => rfl)
  rw [Stages.val_main_v221_apply, Stages.val_main_v216_apply, Stages.val_main_v215_apply, Stages.val_main_v214_apply,
    Stages.val_main_v213_apply, Stages.val_main_v220_apply, Stages.val_main_v219_apply, es, eb, convB_L3]
  simp only [Ideal.addf_def, Ideal.mulf_def]
  exact (hpreF_apply _ _ _ _ r j).symm

/-- The column means. -/
theorem mu_L3 :
    Stages.val_main_v224 (F := Ideal) x0 x1 x2 x3 x4 x5 x6 x7 = meanF (Stages.val_main_v221 (F := Ideal) x0 x1 x2 x3 x4 x5 x6 x7) := by
  funext i
  obtain ⟨j, rfl⟩ : ∃ j : Fin 64, i = ix1 j := ⟨i 0, eq_ix1 i⟩
  have es : ∀ r : Fin 100000, Stages.idx_main_v222 (ix1 j) r = ix2 r j := fun r =>
    funext fun a => Fin.ext (by match a with | ⟨0, _⟩ => rfl | ⟨1, _⟩ => rfl)
  simp only [Stages.val_main_v224_apply, Stages.val_main_v222_apply, Stages.val_main_v223_apply, Stages.val_main_cst_34_apply,
    Stages.val_main_cst_33_apply, es, Ideal.hostDivf_def, Ideal.ofBits_def, Ideal.ofBits_zero_f32, zero_add]
  exact (meanF_apply _ j).symm

/-- The centred column variances: row by row the summand is the squared deviation from the column mean; the sum starts
    from the zero word; the quotient is by the row count's word. -/
theorem var_L3 :
    Stages.val_main_v231 (F := Ideal) x0 x1 x2 x3 x4 x5 x6 x7 = varF (Stages.val_main_v221 (F := Ideal) x0 x1 x2 x3 x4 x5 x6 x7) := by
  funext i
  obtain ⟨j, rfl⟩ : ∃ j : Fin 64, i = ix1 j := ⟨i 0, eq_ix1 i⟩
  have hs : ∀ r : Fin 100000,
      Stages.val_main_v228 (F := Ideal) x0 x1 x2 x3 x4 x5 x6 x7 (Stages.idx_main_v229 (ix1 j) r)
        = (Stages.val_main_v221 (F := Ideal) x0 x1 x2 x3 x4 x5 x6 x7 (ix2 r j)
              - meanF (Stages.val_main_v221 (F := Ideal) x0 x1 x2 x3 x4 x5 x6 x7) (ix1 j))
          * (Stages.val_main_v221 (F := Ideal) x0 x1 x2 x3 x4 x5 x6 x7 (ix2 r j)
              - meanF (Stages.val_main_v221 (F := Ideal) x0 x1 x2 x3 x4 x5 x6 x7) (ix1 j)) := fun r => by
    have es : Stages.idx_main_v229 (ix1 j) r = ix2 r j :=
      funext fun a => Fin.ext (by match a with | ⟨0, _⟩ => rfl | ⟨1, _⟩ => rfl)
    have em : Stages.idx_main_v225 (Stages.idx_main_v226 (ix2 r j)) = ix1 j :=
      funext fun a => Fin.ext (by match a with | ⟨0, _⟩ => rfl)
    rw [es, Stages.val_main_v228_apply, Stages.val_main_v227_apply, Stages.val_main_v226_apply, Stages.val_main_v225_apply, em,
      mu_L3, Ideal.mulf_def, Ideal.subf_def]
  have hz : Stages.val_main_cst_35 (F := Ideal) (Shape.Idx.first h_S_) = 0 := Ideal.ofBits_zero_f32
  have hn : Stages.val_main_v230 (F := Ideal) (ix1 j) = Ideal.ofBits .f32 0x47C35000#32 := by
    rw [Stages.val_main_v230_apply, Stages.val_main_cst_36_apply, Ideal.ofBits_def]
  rw [Stages.val_main_v231_apply, Stages.val_main_v229_apply, Finset.sum_congr rfl fun r _ => hs r, hz, zero_add, hn,
    Ideal.hostDivf_def]
  exact (varF_apply _ j).symm

/-- The normalised, scaled and shifted value: scale, mean, variance and shift are read at the element's column through
    their two broadcasts; the offset is its word. -/
theorem norm_L3 :
    Stages.val_main_v250 (F := Ideal) x0 x1 x2 x3 x4 x5 x6 x7
      = normF (Stages.val_main_v221 (F := Ideal) x0 x1 x2 x3 x4 x5 x6 x7) (sliceRow x6 lay_L3) (sliceRow x7 lay_L3) := by
  funext i
  obtain ⟨r, j, rfl⟩ : ∃ (r : Fin 100000) (j : Fin 64), i = ix2 r j := ⟨i 0, i 1, eq_ix2 i⟩
  have eg : Stages.idx_main_v237 (Stages.idx_main_v238 (ix2 r j)) = ix1 j :=
    funext fun a => Fin.ext (by match a with | ⟨0, _⟩ => rfl)
  have em : Stages.idx_main_v234 (Stages.idx_main_v235 (ix2 r j)) = ix1 j :=
    funext fun a => Fin.ext (by match a with | ⟨0, _⟩ => rfl)
  have ev : Stages.idx_main_v243 (Stages.idx_main_v244 (ix2 r j)) = ix1 j :=
    funext fun a => Fin.ext (by match a with | ⟨0, _⟩ => rfl)
  have eb : Stages.idx_main_v248 (Stages.idx_main_v249 (ix2 r j)) = ix1 j :=
    funext fun a => Fin.ext (by match a with | ⟨0, _⟩ => rfl)
  have he : Stages.val_main_v240 (F := Ideal) (ix1 j) = Ideal.ofBits .f32 0x3727C5AC#32 := by
    rw [Stages.val_main_v240_apply, Stages.val_main_cst_37_apply, Ideal.ofBits_def]
  rw [Stages.val_main_v250_apply, Stages.val_main_v245_apply, Stages.val_main_v239_apply, Stages.val_main_v238_apply,
    Stages.val_main_v237_apply, Stages.val_main_v236_apply, Stages.val_main_v235_apply, Stages.val_main_v234_apply,
    Stages.val_main_v244_apply, Stages.val_main_v243_apply, Stages.val_main_v242_apply, Stages.val_main_v241_apply,
    Stages.val_main_v249_apply, Stages.val_main_v248_apply, eg, em, ev, eb, he, gamma_L3, beta_L3, mu_L3, var_L3]
  exact (normF_apply _ _ _ r j).symm

/-- The layer's output: the maximum with the zero word. -/
theorem relu_L3 :
    Stages.val_main_v251 (F := Ideal) x0 x1 x2 x3 x4 x5 x6 x7 = reluF (Stages.val_main_v250 (F := Ideal) x0 x1 x2 x3 x4 x5 x6 x7) := by
  funext i
  have hz : Stages.val_main_call3_v0 (F := Ideal) i = 0 := by
    rw [Stages.val_main_call3_v0_apply, Stages.val_main_call3_cst_apply, Ideal.ofBits_def, Ideal.ofBits_zero_f32]
  rw [Stages.val_main_v251_apply, hz, Ideal.maximumf_def]
  exact (reluF_apply _ i).symm

/-- The layer as one function of its input, the edge-derived arrays and the four stacked parameters. -/
theorem layer_L3 :
    Stages.val_main_v251 (F := Ideal) x0 x1 x2 x3 x4 x5 x6 x7
      = layerF (Stages.val_main_v196 (F := Ideal) x0 x1 x2 x3 x4 x5 x6 x7) (srcF x1) (nrmF x1) (dstF x1) (selfF x1) x4 x5 x6 x7 lay_L3 := by
  rw [relu_L3, norm_L3, hpre_L3, agg_L3, xw_L3]
  rfl

end Cert.ReferenceIdeal.RefValue

end
-- ==== Proof.Bridge.Result.lean ====
/- The kernel program's result buffer is the reference's last stage of the argument arrays, at the ideal values, on
   every device, when every float argument array is real-valued. The embedding leaves the reference's embedding; each
   of the four layers leaves the layer function of what the layer before left, its combined array being real-valued
   because its input and the parameters are (which is what lets the two forms of the variance agree); the pooling
   product leaves the readout. Realness is carried along: the embedding of real arrays is real-valued, and a layer's
   output of a real-valued input is. -/
import proofs.«147038_j12317966205319_1_alg».proof.Proof.Bridge.Finite
import proofs.«147038_j12317966205319_1_alg».proof.Proof.Bridge.Emb
import proofs.«147038_j12317966205319_1_alg».proof.Proof.Bridge.L0
import proofs.«147038_j12317966205319_1_alg».proof.Proof.Bridge.L1
import proofs.«147038_j12317966205319_1_alg».proof.Proof.Bridge.L2
import proofs.«147038_j12317966205319_1_alg».proof.Proof.Bridge.L3
import proofs.«147038_j12317966205319_1_alg».proof.Proof.Bridge.LayerReal
import proofs.«147038_j12317966205319_1_alg».proof.Proof.Bridge.Tail
import proofs.«147038_j12317966205319_1_alg».proof.Proof.Ref.AtEmbed
import proofs.«147038_j12317966205319_1_alg».proof.Proof.Ref.AtL0
import proofs.«147038_j12317966205319_1_alg».proof.Proof.Ref.AtL1
import proofs.«147038_j12317966205319_1_alg».proof.Proof.Ref.AtL2
import proofs.«147038_j12317966205319_1_alg».proof.Proof.Ref.AtL3

set_option maxRecDepth 16384

noncomputable section

namespace Cert.Bridge

open Cert.KernelIdeal Cert.KernelIdeal.Gen Cert.KernelIdeal.Reg
open Idealize.ShloMosaic Idealize.ShloMosaic.TcCoe Idealize.SL.Sem
open Cert.ReferenceIdeal.RefValue (Feat Row WSq WLayers RowLayers EdgeList FeatIn WIn embedF layerF srcF nrmF dstF selfF)

variable [Cert.Pre_finite_inputs.Facts]

/-- The reference's last layer, unfolded into the four layer functions over the embedding. -/
theorem ref_layers (x0 : FeatIn) (x1 : EdgeList) (x2 : WIn) (x3 : Row) (x4 : WLayers) (x5 x6 x7 : RowLayers) :
    layerF (layerF (layerF (layerF (embedF x0 x2 x3) (srcF x1) (nrmF x1) (dstF x1) (selfF x1) x4 x5 x6 x7 (0 : Fin 4))
          (srcF x1) (nrmF x1) (dstF x1) (selfF x1) x4 x5 x6 x7 (1 : Fin 4))
        (srcF x1) (nrmF x1) (dstF x1) (selfF x1) x4 x5 x6 x7 (2 : Fin 4))
      (srcF x1) (nrmF x1) (dstF x1) (selfF x1) x4 x5 x6 x7 (3 : Fin 4)
      = Cert.ReferenceIdeal.Stages.val_main_v251 (F := Ideal) x0 x1 x2 x3 x4 x5 x6 x7 := by
  rw [Cert.ReferenceIdeal.RefValue.layer_L3, Cert.ReferenceIdeal.RefValue.layer_L2, Cert.ReferenceIdeal.RefValue.layer_L1,
    Cert.ReferenceIdeal.RefValue.layer_L0, Cert.ReferenceIdeal.RefValue.embed_eq]

/-- THE RESULT. Under the precondition (every float argument array finite) the kernel program's result buffer holds
    the reference's last stage of the ten argument arrays as launched. -/
theorem result_bridge (m : (ℓ : Loc nD τ sig) → Buf (Elt Ideal) ℓ) (hpre : Cert.Pre_KernelIdeal m) (c : Dev nD) :
    outsF m 28 main_v180 c = Cert.ReferenceIdeal.Stages.val_main_v258 (F := Ideal)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9)) := by
  have r0 := finite_arg0 m hpre c
  have r2 := finite_arg2 m hpre c
  have r3 := finite_arg3 m hpre c
  have r4 := finite_arg4 m hpre c
  have r5 := finite_arg5 m hpre c
  have r6 := finite_arg6 m hpre c
  have r7 := finite_arg7 m hpre c
  -- the embedding, and its realness
  have E0 := emb_eq m c
  have R0 := embedF_real (arg0 m c) (arg2 m c) (arg3 m c) r0 r2 r3
  -- the four layers, each with its realness
  have E1 := layer_L0 m c _ E0 (hpre_layer_real _ (arg1 m c) (arg4 m c) (arg5 m c) (0 : Fin 4) R0 r4 r5)
  have R1 := layerF_real _ (arg1 m c) (arg4 m c) (arg5 m c) (arg6 m c) (arg7 m c) (0 : Fin 4) R0 r4 r5 r6 r7
  have E2 := layer_L1 m c _ E1 (hpre_layer_real _ (arg1 m c) (arg4 m c) (arg5 m c) (1 : Fin 4) R1 r4 r5)
  have R2 := layerF_real _ (arg1 m c) (arg4 m c) (arg5 m c) (arg6 m c) (arg7 m c) (1 : Fin 4) R1 r4 r5 r6 r7
  have E3 := layer_L2 m c _ E2 (hpre_layer_real _ (arg1 m c) (arg4 m c) (arg5 m c) (2 : Fin 4) R2 r4 r5)
  have R3 := layerF_real _ (arg1 m c) (arg4 m c) (arg5 m c) (arg6 m c) (arg7 m c) (2 : Fin 4) R2 r4 r5 r6 r7
  have E4 := layer_L3 m c _ E3 (hpre_layer_real _ (arg1 m c) (arg4 m c) (arg5 m c) (3 : Fin 4) R3 r4 r5)
  -- the readout
  exact tail_bridge m c (E4.trans (ref_layers (arg0 m c) (arg1 m c) (arg2 m c) (arg3 m c) (arg4 m c) (arg5 m c) (arg6 m c) (arg7 m c)))

end Cert.Bridge
-- ==== Proof.Claims.lean ====
import proofs.«147038_j12317966205319_1_alg».proof.Defs
import proofs.«147038_j12317966205319_1_alg».proof.Proof.Gen.ReferenceIdeal
import proofs.«147038_j12317966205319_1_alg».proof.Proof.Gen.Pre_finite_inputs
import proofs.«147038_j12317966205319_1_alg».proof.Proof.KI.Run
import proofs.«147038_j12317966205319_1_alg».proof.Proof.K.Run
import proofs.«147038_j12317966205319_1_alg».proof.Proof.Ref.Fold
import proofs.«147038_j12317966205319_1_alg».proof.Proof.Bridge.Result

noncomputable section

namespace Cert.Proof.Claims

open Idealize.ShloMosaic Idealize.ShloMosaic.TcCoe Idealize.SL.Sem

/-- The word-level kernel runs and leaves its arguments as they were. -/
theorem frame_Kernel : Cert.frame_Kernel := fun m ρ _ => Cert.Kernel.Reg.frame (F := Bits) m ρ

/-- The idealized kernel runs and leaves its arguments as they were. -/
theorem frame_KernelIdeal : Cert.frame_KernelIdeal := fun m ρ _ => Cert.KernelIdeal.Reg.frame (F := Ideal) m ρ

/-- The idealized reference runs and leaves its arguments as they were: no operation writes an argument. -/
theorem frame_ReferenceIdeal : Cert.frame_ReferenceIdeal := fun m ρ _ =>
  (θ_run (Cert.ReferenceIdeal.defs (F := Ideal)) _ _).mono (fun r h c =>
    ⟨(h c Cert.ReferenceIdeal.main_arg0).trans (Cert.ReferenceIdeal.RefValue.fold_arg0 m c),
     (h c Cert.ReferenceIdeal.main_arg1).trans (Cert.ReferenceIdeal.RefValue.fold_arg1 m c),
     (h c Cert.ReferenceIdeal.main_arg2).trans (Cert.ReferenceIdeal.RefValue.fold_arg2 m c),
     (h c Cert.ReferenceIdeal.main_arg3).trans (Cert.ReferenceIdeal.RefValue.fold_arg3 m c),
     (h c Cert.ReferenceIdeal.main_arg4).trans (Cert.ReferenceIdeal.RefValue.fold_arg4 m c),
     (h c Cert.ReferenceIdeal.main_arg5).trans (Cert.ReferenceIdeal.RefValue.fold_arg5 m c),
     (h c Cert.ReferenceIdeal.main_arg6).trans (Cert.ReferenceIdeal.RefValue.fold_arg6 m c),
     (h c Cert.ReferenceIdeal.main_arg7).trans (Cert.ReferenceIdeal.RefValue.fold_arg7 m c),
     (h c Cert.ReferenceIdeal.main_arg8).trans (Cert.ReferenceIdeal.RefValue.fold_arg8 m c),
     (h c Cert.ReferenceIdeal.main_arg9).trans (Cert.ReferenceIdeal.RefValue.fold_arg9 m c)⟩)
    (Cert.ReferenceIdeal.RunFold.run (F := Ideal) m ρ)

/-- The ledger's one entry: the table gives the named constant the value 1/100000, and the printed constant is that
    value over the extended reals. -/
theorem preserves : Cert.preserves_Kernel_KernelIdeal :=
  IdealRules.named_const.statement Cert.KernelIdeal.κ "inv_100000" .f32 0x3727C5AC#32 ((1 / 100000 : ℝ) : EReal) rfl

/-- Over the extended reals, from memories agreeing on the arguments, both programs run and end with the same result:
    the kernel's result buffer holds its last region's output, the reference's the last stage of its operations on
    the same arguments, and the two are one function of real-valued arguments. -/
theorem algebraic : Cert.algebraic_KernelIdeal_ReferenceIdeal := by
  intro m ρ m' ρ' hpre hagree
  refine ⟨fun c => Cert.KernelIdeal.Reg.outsF m 28 Cert.KernelIdeal.main_v180 c,
    Cert.KernelIdeal.Reg.result (F := Ideal) m ρ, ?_⟩
  refine (θ_run (Cert.ReferenceIdeal.defs (F := Ideal)) _ _).mono (fun r h c =>
    ⟨(h c Cert.ReferenceIdeal.main_v258).trans ((Cert.ReferenceIdeal.RefValue.fold_result m' c).trans ?_),
     (h c Cert.ReferenceIdeal.main_arg0).trans (Cert.ReferenceIdeal.RefValue.fold_arg0 m' c),
     (h c Cert.ReferenceIdeal.main_arg1).trans (Cert.ReferenceIdeal.RefValue.fold_arg1 m' c),
     (h c Cert.ReferenceIdeal.main_arg2).trans (Cert.ReferenceIdeal.RefValue.fold_arg2 m' c),
     (h c Cert.ReferenceIdeal.main_arg3).trans (Cert.ReferenceIdeal.RefValue.fold_arg3 m' c),
     (h c Cert.ReferenceIdeal.main_arg4).trans (Cert.ReferenceIdeal.RefValue.fold_arg4 m' c),
     (h c Cert.ReferenceIdeal.main_arg5).trans (Cert.ReferenceIdeal.RefValue.fold_arg5 m' c),
     (h c Cert.ReferenceIdeal.main_arg6).trans (Cert.ReferenceIdeal.RefValue.fold_arg6 m' c),
     (h c Cert.ReferenceIdeal.main_arg7).trans (Cert.ReferenceIdeal.RefValue.fold_arg7 m' c),
     (h c Cert.ReferenceIdeal.main_arg8).trans (Cert.ReferenceIdeal.RefValue.fold_arg8 m' c),
     (h c Cert.ReferenceIdeal.main_arg9).trans (Cert.ReferenceIdeal.RefValue.fold_arg9 m' c)⟩)
    (Cert.ReferenceIdeal.RunFold.run (F := Ideal) m' ρ')
  obtain ⟨e0, e1, e2, e3, e4, e5, e6, e7, e8, e9⟩ := hagree c
  rw [e0, e1, e2, e3, e4, e5, e6, e7, e8, e9]
  exact (Cert.Bridge.result_bridge m hpre c).symm

end Cert.Proof.Claims

end
-- ==== Proof.lean ====
/- The five claims about a four-layer graph convolution with batch normalisation, mean pooling and an output projection.

   Both programs compute, on the extended reals: the degrees of the nodes (a scatter-add of ones by destination, plus one),
   their inverse square roots, the edge weights dinv[src]·dinv[dst] and the self weights dinv²; the embedding
   h₀ = x·W_e + b_e; then four times xw = h·W_L, the aggregate agg = the scatter-add by destination of xw[src]·weight,
   hpre = agg + xw·self + b_L, the column means mu of hpre, its variance, and h = max(γ_L·(hpre − mu)·rsqrt(var + ε) + β_L, 0);
   finally the column means of h times W_out plus b_out. The kernel program computes the products, the sums of hpre and of
   its squares, the normalisation and the pooling in fourteen tiled regions of ten row tiles each, with the host operations
   between them; the reference is one straight line of host operations.

   Where the two differ: the kernel adds a zero bias row to xw (x + 0 = x on every extended real); it takes the variance as
   the mean of the squares minus the square of the mean, where the reference takes the mean of the squared deviations —
   equal on real-valued data, and every stage is real-valued because every input is finite, every degree is at least one and
   var + ε is positive —; and it multiplies the pooled sums by the named constant 1/100000 where the reference divides by
   100000 (equal on every extended real). The degree, gather and scatter-add chains are the same operations in both
   programs and are never opened.

   The three frames: each kernel region runs from the contents the items before it leave and leaves its outputs' arrays at
   what its write-backs put there; no item writes an argument. The reference's run is the fold of its operations over the
   launch memory. -/
import proofs.«147038_j12317966205319_1_alg».proof.Defs
import proofs.«147038_j12317966205319_1_alg».proof.Proof.Gen.Kernel
import proofs.«147038_j12317966205319_1_alg».proof.Proof.Gen.KernelIdeal
import proofs.«147038_j12317966205319_1_alg».proof.Proof.Gen.ReferenceIdeal
import proofs.«147038_j12317966205319_1_alg».proof.Proof.Gen.Pre_finite_inputs
import proofs.«147038_j12317966205319_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_Kernel, Claims.frame_KernelIdeal, Claims.frame_ReferenceIdeal, Claims.preserves, Claims.algebraic⟩

end Cert.Proof

end
